-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x100001x32 : Shape := ⟨3, ![26, 100001, 32]⟩
abbrev S_ : Shape := ⟨0, ![]⟩

class Facts : Prop where
  bcast_S_S26x100001x32 : S_.BroadcastsInDim S26x100001x32 (![] : Fin 0 → Fin S26x100001x32.rank)
  reducesTo_S26x100001x32_S_d0_1_2 : S26x100001x32.ReducesTo [0, 1, 2] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x100001x32 .f32) : IVec S_ 1 :=
  let main_v0 : FVec F S26x100001x32 .f32 := Host.absf main_arg1
  let main_cst : FVec F S_ .f32 := constant S_ .f32 0x7F800000#32
  let main_v1 : FVec F S26x100001x32 .f32 := broadcastInDim S26x100001x32 ![] bcast_S_S26x100001x32 main_cst
  let main_v2 : IVec S26x100001x32 1 := cmpf .olt main_v0 main_v1
  let main_c : IVec S_ 1 := constantI S_ 1 1#1
  let main_v3 : IVec S_ 1 := (fun x v => Host.reduce IntOp.andi x v reducesTo_S26x100001x32_S_d0_1_2 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 99999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S26x100001x32 : Shape := ⟨3, ![26, 100001, 32]⟩
abbrev S16384x26x32 : Shape := ⟨3, ![16384, 26, 32]⟩
abbrev S512x32 : Shape := ⟨2, ![512, 32]⟩
abbrev S2x8x26x32 : Shape := ⟨4, ![2, 8, 26, 32]⟩
abbrev S_ : Shape := ⟨0, ![]⟩
abbrev S1x26 : Shape := ⟨2, ![1, 26]⟩
abbrev S26 : Shape := ⟨1, ![26]⟩
abbrev S1x16 : Shape := ⟨2, ![1, 16]⟩
abbrev S16 : Shape := ⟨1, ![16]⟩
abbrev S1 : Shape := ⟨1, ![1]⟩
abbrev S1x1x1x32 : Shape := ⟨4, ![1, 1, 1, 32]⟩
abbrev S32 : Shape := ⟨1, ![32]⟩
abbrev S1x1x32 : Shape := ⟨3, ![1, 1, 32]⟩
abbrev S1x8x26x32 : Shape := ⟨4, ![1, 8, 26, 32]⟩
abbrev S8x26x32 : Shape := ⟨3, ![8, 26, 32]⟩

abbrev nBuf : Table → Nat
  | .hbm => 3
  | .local .scVector .vmem => 2
  | _ => 0

abbrev bufTy : (tb : Table) → Fin (nBuf tb) → BufTy
  | .hbm, ⟨0, _⟩ => ⟨S16384x26, .i32⟩
  | .hbm, ⟨1, _⟩ => ⟨S26x100001x32, .f32⟩
  | .hbm, ⟨2, _⟩ => ⟨S16384x26x32, .f32⟩
  | .local .scVector .vmem, ⟨0, _⟩ => ⟨S512x32, .i32⟩
  | .local .scVector .vmem, ⟨1, _⟩ => ⟨S2x8x26x32, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c512_i32_1 : BitVec 32 := 512#32
  let v3 : BitVec 32 := Scalar.addi c0_i32_0 c512_i32_1
  let c1_i32 : BitVec 32 := 1#32
  ⟨c0_i32_0, v3, c1_i32⟩
def k0_off1 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c0_i32_1696 : BitVec 32 := 0#32
  ![arg12.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg12 : BitVec 32 := Scf.iv c0_i32_0 c1_i32 k0_t1
  let v2140 : BitVec 32 := Scalar.addi v2 arg12
  let c0_i32_1697 : BitVec 32 := 0#32
  ![v2140.toNat, 0]
@[reducible] def k0_t2_loop : Scf.Loop 32 :=
  let c0_i32_4 : BitVec 32 := 0#32
  let c512_i32_5 : BitVec 32 := 512#32
  let v4 : BitVec 32 := Scalar.addi c0_i32_4 c512_i32_5
  let c1_i32_6 : BitVec 32 := 1#32
  ⟨c0_i32_4, v4, c1_i32_6⟩
def k0_off3 (v12 : BitVec 32) : Fin 3 → Nat :=
  let c0_i32_10 : BitVec 32 := 0#32
  let c0_i32_15 : BitVec 32 := 0#32
  ![0, v12.toNat, 0]

def k0_chk1 (v12 : BitVec 32) : Prop :=
  (∀ a, (k0_off3 v12) a + S1x1x32.size a ≤ S26x100001x32.size a)
instance k0_chk1.dec : ∀ (v12 : BitVec 32), Decidable (k0_chk1 v12) := fun v12 => decidable_of_iff' _ (Iff.of_eq (k0_chk1.eq_1 v12))
theorem k0_off3_inb : ∀ (v12 : BitVec 32) (k0_hw1 : k0_chk1 v12), ∀ a, (k0_off3 v12) a + S1x1x32.size a ≤ S26x100001x32.size a := fun v12 k0_hw1 => k0_hw1

def k0_off4 (v22 : BitVec 32) : Fin 3 → Nat :=
  let c1_i32_18 : BitVec 32 := 1#32
  let c0_i32_23 : BitVec 32 := 0#32
  ![1, v22.toNat, 0]

def k0_chk2 (v22 : BitVec 32) : Prop :=
  (∀ a, (k0_off4 v22) a + S1x1x32.size a ≤ S26x100001x32.size a)
instance k0_chk2.dec : ∀ (v22 : BitVec 32), Decidable (k0_chk2 v22) := fun v22 => decidable_of_iff' _ (Iff.of_eq (k0_chk2.eq_1 v22))
theorem k0_off4_inb : ∀ (v22 : BitVec 32) (k0_hw2 : k0_chk2 v22), ∀ a, (k0_off4 v22) a + S1x1x32.size a ≤ S26x100001x32.size a := fun v22 k0_hw2 => k0_hw2

def k0_off5 (v32 : BitVec 32) : Fin 3 → Nat :=
  let c2_i32_26 : BitVec 32 := 2#32
  let c0_i32_31 : BitVec 32 := 0#32
  ![2, v32.toNat, 0]

def k0_chk3 (v32 : BitVec 32) : Prop :=
  (∀ a, (k0_off5 v32) a + S1x1x32.size a ≤ S26x100001x32.size a)
instance k0_chk3.dec : ∀ (v32 : BitVec 32), Decidable (k0_chk3 v32) := fun v32 => decidable_of_iff' _ (Iff.of_eq (k0_chk3.eq_1 v32))
theorem k0_off5_inb : ∀ (v32 : BitVec 32) (k0_hw3 : k0_chk3 v32), ∀ a, (k0_off5 v32) a + S1x1x32.size a ≤ S26x100001x32.size a := fun v32 k0_hw3 => k0_hw3

def k0_off6 (v42 : BitVec 32) : Fin 3 → Nat :=
  let c3_i32 : BitVec 32 := 3#32
  let c0_i32_38 : BitVec 32 := 0#32
  ![3, v42.toNat, 0]

def k0_chk4 (v42 : BitVec 32) : Prop :=
  (∀ a, (k0_off6 v42) a + S1x1x32.size a ≤ S26x100001x32.size a)
instance k0_chk4.dec : ∀ (v42 : BitVec 32), Decidable (k0_chk4 v42) := fun v42 => decidable_of_iff' _ (Iff.of_eq (k0_chk4.eq_1 v42))
theorem k0_off6_inb : ∀ (v42 : BitVec 32) (k0_hw4 : k0_chk4 v42), ∀ a, (k0_off6 v42) a + S1x1x32.size a ≤ S26x100001x32.size a := fun v42 k0_hw4 => k0_hw4

def k0_off7 (v52 : BitVec 32) : Fin 3 → Nat :=
  let c4_i32 : BitVec 32 := 4#32
  let c0_i32_45 : BitVec 32 := 0#32
  ![4, v52.toNat, 0]

def k0_chk5 (v52 : BitVec 32) : Prop :=
  (∀ a, (k0_off7 v52) a + S1x1x32.size a ≤ S26x100001x32.size a)
instance k0_chk5.dec : ∀ (v52 : BitVec 32), Decidable (k0_chk5 v52) := fun v52 => decidable_of_iff' _ (Iff.of_eq (k0_chk5.eq_1 v52))
theorem k0_off7_inb : ∀ (v52 : BitVec 32) (k0_hw5 : k0_chk5 v52), ∀ a, (k0_off7 v52) a + S1x1x32.size a ≤ S26x100001x32.size a := fun v52 k0_hw5 => k0_hw5

def k0_off8 (v62 : BitVec 32) : Fin 3 → Nat :=
  let c5_i32 : BitVec 32 := 5#32
  let c0_i32_52 : BitVec 32 := 0#32
  ![5, v62.toNat, 0]

def k0_chk6 (v62 : BitVec 32) : Prop :=
  (∀ a, (k0_off8 v62) a + S1x1x32.size a ≤ S26x100001x32.size a)
instance k0_chk6.dec : ∀ (v62 : BitVec 32), Decidable (k0_chk6 v62) := fun v62 => decidable_of_iff' _ (Iff.of_eq (k0_chk6.eq_1 v62))
theorem k0_off8_inb : ∀ (v62 : BitVec 32) (k0_hw6 : k0_chk6 v62), ∀ a, (k0_off8 v62) a + S1x1x32.size a ≤ S26x100001x32.size a := fun v62 k0_hw6 => k0_hw6

def k0_off9 (v72 : BitVec 32) : Fin 3 → Nat :=
  let c6_i32 : BitVec 32 := 6#32
  let c0_i32_59 : BitVec 32 := 0#32
  ![6, v72.toNat, 0]

def k0_chk7 (v72 : BitVec 32) : Prop :=
  (∀ a, (k0_off9 v72) a + S1x1x32.size a ≤ S26x100001x32.size a)
instance k0_chk7.dec : ∀ (v72 : BitVec 32), Decidable (k0_chk7 v72) := fun v72 => decidable_of_iff' _ (Iff.of_eq (k0_chk7.eq_1 v72))
theorem k0_off9_inb : ∀ (v72 : BitVec 32) (k0_hw7 : k0_chk7 v72), ∀ a, (k0_off9 v72) a + S1x1x32.size a ≤ S26x100001x32.size a := fun v72 k0_hw7 => k0_hw7

def k0_off10 (v82 : BitVec 32) : Fin 3 → Nat :=
  let c7_i32 : BitVec 32 := 7#32
  let c0_i32_66 : BitVec 32 := 0#32
  ![7, v82.toNat, 0]

def k0_chk8 (v82 : BitVec 32) : Prop :=
  (∀ a, (k0_off10 v82) a + S1x1x32.size a ≤ S26x100001x32.size a)
instance k0_chk8.dec : ∀ (v82 : BitVec 32), Decidable (k0_chk8 v82) := fun v82 => decidable_of_iff' _ (Iff.of_eq (k0_chk8.eq_1 v82))
theorem k0_off10_inb : ∀ (v82 : BitVec 32) (k0_hw8 : k0_chk8 v82), ∀ a, (k0_off10 v82) a + S1x1x32.size a ≤ S26x100001x32.size a := fun v82 k0_hw8 => k0_hw8

def k0_off11 (v92 : BitVec 32) : Fin 3 → Nat :=
  let c8_i32 : BitVec 32 := 8#32
  let c0_i32_73 : BitVec 32 := 0#32
  ![8, v92.toNat, 0]

def k0_chk9 (v92 : BitVec 32) : Prop :=
  (∀ a, (k0_off11 v92) a + S1x1x32.size a ≤ S26x100001x32.size a)
instance k0_chk9.dec : ∀ (v92 : BitVec 32), Decidable (k0_chk9 v92) := fun v92 => decidable_of_iff' _ (Iff.of_eq (k0_chk9.eq_1 v92))
theorem k0_off11_inb : ∀ (v92 : BitVec 32) (k0_hw9 : k0_chk9 v92), ∀ a, (k0_off11 v92) a + S1x1x32.size a ≤ S26x100001x32.size a := fun v92 k0_hw9 => k0_hw9

def k0_off12 (v102 : BitVec 32) : Fin 3 → Nat :=
  let c9_i32 : BitVec 32 := 9#32
  let c0_i32_80 : BitVec 32 := 0#32
  ![9, v102.toNat, 0]

def k0_chk10 (v102 : BitVec 32) : Prop :=
  (∀ a, (k0_off12 v102) a + S1x1x32.size a ≤ S26x100001x32.size a)
instance k0_chk10.dec : ∀ (v102 : BitVec 32), Decidable (k0_chk10 v102) := fun v102 => decidable_of_iff' _ (Iff.of_eq (k0_chk10.eq_1 v102))
theorem k0_off12_inb : ∀ (v102 : BitVec 32) (k0_hw10 : k0_chk10 v102), ∀ a, (k0_off12 v102) a + S1x1x32.size a ≤ S26x100001x32.size a := fun v102 k0_hw10 => k0_hw10

def k0_off13 (v112 : BitVec 32) : Fin 3 → Nat :=
  let c10_i32 : BitVec 32 := 10#32
  let c0_i32_87 : BitVec 32 := 0#32
  ![10, v112.toNat, 0]

def k0_chk11 (v112 : BitVec 32) : Prop :=
  (∀ a, (k0_off13 v112) a + S1x1x32.size a ≤ S26x100001x32.size a)
instance k0_chk11.dec : ∀ (v112 : BitVec 32), Decidable (k0_chk11 v112) := fun v112 => decidable_of_iff' _ (Iff.of_eq (k0_chk11.eq_1 v112))
theorem k0_off13_inb : ∀ (v112 : BitVec 32) (k0_hw11 : k0_chk11 v112), ∀ a, (k0_off13 v112) a + S1x1x32.size a ≤ S26x100001x32.size a := fun v112 k0_hw11 => k0_hw11

def k0_off14 (v122 : BitVec 32) : Fin 3 → Nat :=
  let c11_i32 : BitVec 32 := 11#32
  let c0_i32_94 : BitVec 32 := 0#32
  ![11, v122.toNat, 0]

def k0_chk12 (v122 : BitVec 32) : Prop :=
  (∀ a, (k0_off14 v122) a + S1x1x32.size a ≤ S26x100001x32.size a)
instance k0_chk12.dec : ∀ (v122 : BitVec 32), Decidable (k0_chk12 v122) := fun v122 => decidable_of_iff' _ (Iff.of_eq (k0_chk12.eq_1 v122))
theorem k0_off14_inb : ∀ (v122 : BitVec 32) (k0_hw12 : k0_chk12 v122), ∀ a, (k0_off14 v122) a + S1x1x32.size a ≤ S26x100001x32.size a := fun v122 k0_hw12 => k0_hw12

def k0_off15 (v132 : BitVec 32) : Fin 3 → Nat :=
  let c12_i32 : BitVec 32 := 12#32
  let c0_i32_101 : BitVec 32 := 0#32
  ![12, v132.toNat, 0]

def k0_chk13 (v132 : BitVec 32) : Prop :=
  (∀ a, (k0_off15 v132) a + S1x1x32.size a ≤ S26x100001x32.size a)
instance k0_chk13.dec : ∀ (v132 : BitVec 32), Decidable (k0_chk13 v132) := fun v132 => decidable_of_iff' _ (Iff.of_eq (k0_chk13.eq_1 v132))
theorem k0_off15_inb : ∀ (v132 : BitVec 32) (k0_hw13 : k0_chk13 v132), ∀ a, (k0_off15 v132) a + S1x1x32.size a ≤ S26x100001x32.size a := fun v132 k0_hw13 => k0_hw13

def k0_off16 (v142 : BitVec 32) : Fin 3 → Nat :=
  let c13_i32 : BitVec 32 := 13#32
  let c0_i32_108 : BitVec 32 := 0#32
  ![13, v142.toNat, 0]

def k0_chk14 (v142 : BitVec 32) : Prop :=
  (∀ a, (k0_off16 v142) a + S1x1x32.size a ≤ S26x100001x32.size a)
instance k0_chk14.dec : ∀ (v142 : BitVec 32), Decidable (k0_chk14 v142) := fun v142 => decidable_of_iff' _ (Iff.of_eq (k0_chk14.eq_1 v142))
theorem k0_off16_inb : ∀ (v142 : BitVec 32) (k0_hw14 : k0_chk14 v142), ∀ a, (k0_off16 v142) a + S1x1x32.size a ≤ S26x100001x32.size a := fun v142 k0_hw14 => k0_hw14

def k0_off17 (v152 : BitVec 32) : Fin 3 → Nat :=
  let c14_i32 : BitVec 32 := 14#32
  let c0_i32_115 : BitVec 32 := 0#32
  ![14, v152.toNat, 0]

def k0_chk15 (v152 : BitVec 32) : Prop :=
  (∀ a, (k0_off17 v152) a + S1x1x32.size a ≤ S26x100001x32.size a)
instance k0_chk15.dec : ∀ (v152 : BitVec 32), Decidable (k0_chk15 v152) := fun v152 => decidable_of_iff' _ (Iff.of_eq (k0_chk15.eq_1 v152))
theorem k0_off17_inb : ∀ (v152 : BitVec 32) (k0_hw15 : k0_chk15 v152), ∀ a, (k0_off17 v152) a + S1x1x32.size a ≤ S26x100001x32.size a := fun v152 k0_hw15 => k0_hw15

def k0_off18 (v162 : BitVec 32) : Fin 3 → Nat :=
  let c15_i32 : BitVec 32 := 15#32
  let c0_i32_122 : BitVec 32 := 0#32
  ![15, v162.toNat, 0]

def k0_chk16 (v162 : BitVec 32) : Prop :=
  (∀ a, (k0_off18 v162) a + S1x1x32.size a ≤ S26x100001x32.size a)
instance k0_chk16.dec : ∀ (v162 : BitVec 32), Decidable (k0_chk16 v162) := fun v162 => decidable_of_iff' _ (Iff.of_eq (k0_chk16.eq_1 v162))
theorem k0_off18_inb : ∀ (v162 : BitVec 32) (k0_hw16 : k0_chk16 v162), ∀ a, (k0_off18 v162) a + S1x1x32.size a ≤ S26x100001x32.size a := fun v162 k0_hw16 => k0_hw16

def k0_off19 (v172 : BitVec 32) : Fin 3 → Nat :=
  let c16_i32 : BitVec 32 := 16#32
  let c0_i32_129 : BitVec 32 := 0#32
  ![16, v172.toNat, 0]

def k0_chk17 (v172 : BitVec 32) : Prop :=
  (∀ a, (k0_off19 v172) a + S1x1x32.size a ≤ S26x100001x32.size a)
instance k0_chk17.dec : ∀ (v172 : BitVec 32), Decidable (k0_chk17 v172) := fun v172 => decidable_of_iff' _ (Iff.of_eq (k0_chk17.eq_1 v172))
theorem k0_off19_inb : ∀ (v172 : BitVec 32) (k0_hw17 : k0_chk17 v172), ∀ a, (k0_off19 v172) a + S1x1x32.size a ≤ S26x100001x32.size a := fun v172 k0_hw17 => k0_hw17

def k0_off20 (v182 : BitVec 32) : Fin 3 → Nat :=
  let c17_i32 : BitVec 32 := 17#32
  let c0_i32_136 : BitVec 32 := 0#32
  ![17, v182.toNat, 0]

def k0_chk18 (v182 : BitVec 32) : Prop :=
  (∀ a, (k0_off20 v182) a + S1x1x32.size a ≤ S26x100001x32.size a)
instance k0_chk18.dec : ∀ (v182 : BitVec 32), Decidable (k0_chk18 v182) := fun v182 => decidable_of_iff' _ (Iff.of_eq (k0_chk18.eq_1 v182))
theorem k0_off20_inb : ∀ (v182 : BitVec 32) (k0_hw18 : k0_chk18 v182), ∀ a, (k0_off20 v182) a + S1x1x32.size a ≤ S26x100001x32.size a := fun v182 k0_hw18 => k0_hw18

def k0_off21 (v192 : BitVec 32) : Fin 3 → Nat :=
  let c18_i32 : BitVec 32 := 18#32
  let c0_i32_143 : BitVec 32 := 0#32
  ![18, v192.toNat, 0]

def k0_chk19 (v192 : BitVec 32) : Prop :=
  (∀ a, (k0_off21 v192) a + S1x1x32.size a ≤ S26x100001x32.size a)
instance k0_chk19.dec : ∀ (v192 : BitVec 32), Decidable (k0_chk19 v192) := fun v192 => decidable_of_iff' _ (Iff.of_eq (k0_chk19.eq_1 v192))
theorem k0_off21_inb : ∀ (v192 : BitVec 32) (k0_hw19 : k0_chk19 v192), ∀ a, (k0_off21 v192) a + S1x1x32.size a ≤ S26x100001x32.size a := fun v192 k0_hw19 => k0_hw19

def k0_off22 (v202 : BitVec 32) : Fin 3 → Nat :=
  let c19_i32 : BitVec 32 := 19#32
  let c0_i32_150 : BitVec 32 := 0#32
  ![19, v202.toNat, 0]

def k0_chk20 (v202 : BitVec 32) : Prop :=
  (∀ a, (k0_off22 v202) a + S1x1x32.size a ≤ S26x100001x32.size a)
instance k0_chk20.dec : ∀ (v202 : BitVec 32), Decidable (k0_chk20 v202) := fun v202 => decidable_of_iff' _ (Iff.of_eq (k0_chk20.eq_1 v202))
theorem k0_off22_inb : ∀ (v202 : BitVec 32) (k0_hw20 : k0_chk20 v202), ∀ a, (k0_off22 v202) a + S1x1x32.size a ≤ S26x100001x32.size a := fun v202 k0_hw20 => k0_hw20

def k0_off23 (v212 : BitVec 32) : Fin 3 → Nat :=
  let c20_i32 : BitVec 32 := 20#32
  let c0_i32_157 : BitVec 32 := 0#32
  ![20, v212.toNat, 0]

def k0_chk21 (v212 : BitVec 32) : Prop :=
  (∀ a, (k0_off23 v212) a + S1x1x32.size a ≤ S26x100001x32.size a)
instance k0_chk21.dec : ∀ (v212 : BitVec 32), Decidable (k0_chk21 v212) := fun v212 => decidable_of_iff' _ (Iff.of_eq (k0_chk21.eq_1 v212))
theorem k0_off23_inb : ∀ (v212 : BitVec 32) (k0_hw21 : k0_chk21 v212), ∀ a, (k0_off23 v212) a + S1x1x32.size a ≤ S26x100001x32.size a := fun v212 k0_hw21 => k0_hw21

def k0_off24 (v222 : BitVec 32) : Fin 3 → Nat :=
  let c21_i32 : BitVec 32 := 21#32
  let c0_i32_164 : BitVec 32 := 0#32
  ![21, v222.toNat, 0]

def k0_chk22 (v222 : BitVec 32) : Prop :=
  (∀ a, (k0_off24 v222) a + S1x1x32.size a ≤ S26x100001x32.size a)
instance k0_chk22.dec : ∀ (v222 : BitVec 32), Decidable (k0_chk22 v222) := fun v222 => decidable_of_iff' _ (Iff.of_eq (k0_chk22.eq_1 v222))
theorem k0_off24_inb : ∀ (v222 : BitVec 32) (k0_hw22 : k0_chk22 v222), ∀ a, (k0_off24 v222) a + S1x1x32.size a ≤ S26x100001x32.size a := fun v222 k0_hw22 => k0_hw22

def k0_off25 (v232 : BitVec 32) : Fin 3 → Nat :=
  let c22_i32 : BitVec 32 := 22#32
  let c0_i32_171 : BitVec 32 := 0#32
  ![22, v232.toNat, 0]

def k0_chk23 (v232 : BitVec 32) : Prop :=
  (∀ a, (k0_off25 v232) a + S1x1x32.size a ≤ S26x100001x32.size a)
instance k0_chk23.dec : ∀ (v232 : BitVec 32), Decidable (k0_chk23 v232) := fun v232 => decidable_of_iff' _ (Iff.of_eq (k0_chk23.eq_1 v232))
theorem k0_off25_inb : ∀ (v232 : BitVec 32) (k0_hw23 : k0_chk23 v232), ∀ a, (k0_off25 v232) a + S1x1x32.size a ≤ S26x100001x32.size a := fun v232 k0_hw23 => k0_hw23

def k0_off26 (v242 : BitVec 32) : Fin 3 → Nat :=
  let c23_i32 : BitVec 32 := 23#32
  let c0_i32_178 : BitVec 32 := 0#32
  ![23, v242.toNat, 0]

def k0_chk24 (v242 : BitVec 32) : Prop :=
  (∀ a, (k0_off26 v242) a + S1x1x32.size a ≤ S26x100001x32.size a)
instance k0_chk24.dec : ∀ (v242 : BitVec 32), Decidable (k0_chk24 v242) := fun v242 => decidable_of_iff' _ (Iff.of_eq (k0_chk24.eq_1 v242))
theorem k0_off26_inb : ∀ (v242 : BitVec 32) (k0_hw24 : k0_chk24 v242), ∀ a, (k0_off26 v242) a + S1x1x32.size a ≤ S26x100001x32.size a := fun v242 k0_hw24 => k0_hw24

def k0_off27 (v252 : BitVec 32) : Fin 3 → Nat :=
  let c24_i32 : BitVec 32 := 24#32
  let c0_i32_185 : BitVec 32 := 0#32
  ![24, v252.toNat, 0]

def k0_chk25 (v252 : BitVec 32) : Prop :=
  (∀ a, (k0_off27 v252) a + S1x1x32.size a ≤ S26x100001x32.size a)
instance k0_chk25.dec : ∀ (v252 : BitVec 32), Decidable (k0_chk25 v252) := fun v252 => decidable_of_iff' _ (Iff.of_eq (k0_chk25.eq_1 v252))
theorem k0_off27_inb : ∀ (v252 : BitVec 32) (k0_hw25 : k0_chk25 v252), ∀ a, (k0_off27 v252) a + S1x1x32.size a ≤ S26x100001x32.size a := fun v252 k0_hw25 => k0_hw25

def k0_off28 (v262 : BitVec 32) : Fin 3 → Nat :=
  let c25_i32 : BitVec 32 := 25#32
  let c0_i32_192 : BitVec 32 := 0#32
  ![25, v262.toNat, 0]

def k0_chk26 (v262 : BitVec 32) : Prop :=
  (∀ a, (k0_off28 v262) a + S1x1x32.size a ≤ S26x100001x32.size a)
instance k0_chk26.dec : ∀ (v262 : BitVec 32), Decidable (k0_chk26 v262) := fun v262 => decidable_of_iff' _ (Iff.of_eq (k0_chk26.eq_1 v262))
theorem k0_off28_inb : ∀ (v262 : BitVec 32) (k0_hw26 : k0_chk26 v262), ∀ a, (k0_off28 v262) a + S1x1x32.size a ≤ S26x100001x32.size a := fun v262 k0_hw26 => k0_hw26

def k0_off29 (v278 : BitVec 32) : Fin 3 → Nat :=
  let c0_i32_199 : BitVec 32 := 0#32
  let c0_i32_204 : BitVec 32 := 0#32
  ![0, v278.toNat, 0]

def k0_chk27 (v278 : BitVec 32) : Prop :=
  (∀ a, (k0_off29 v278) a + S1x1x32.size a ≤ S26x100001x32.size a)
instance k0_chk27.dec : ∀ (v278 : BitVec 32), Decidable (k0_chk27 v278) := fun v278 => decidable_of_iff' _ (Iff.of_eq (k0_chk27.eq_1 v278))
theorem k0_off29_inb : ∀ (v278 : BitVec 32) (k0_hw27 : k0_chk27 v278), ∀ a, (k0_off29 v278) a + S1x1x32.size a ≤ S26x100001x32.size a := fun v278 k0_hw27 => k0_hw27

def k0_off30 (v288 : BitVec 32) : Fin 3 → Nat :=
  let c1_i32_207 : BitVec 32 := 1#32
  let c0_i32_212 : BitVec 32 := 0#32
  ![1, v288.toNat, 0]

def k0_chk28 (v288 : BitVec 32) : Prop :=
  (∀ a, (k0_off30 v288) a + S1x1x32.size a ≤ S26x100001x32.size a)
instance k0_chk28.dec : ∀ (v288 : BitVec 32), Decidable (k0_chk28 v288) := fun v288 => decidable_of_iff' _ (Iff.of_eq (k0_chk28.eq_1 v288))
theorem k0_off30_inb : ∀ (v288 : BitVec 32) (k0_hw28 : k0_chk28 v288), ∀ a, (k0_off30 v288) a + S1x1x32.size a ≤ S26x100001x32.size a := fun v288 k0_hw28 => k0_hw28

def k0_off31 (v298 : BitVec 32) : Fin 3 → Nat :=
  let c2_i32_215 : BitVec 32 := 2#32
  let c0_i32_220 : BitVec 32 := 0#32
  ![2, v298.toNat, 0]

def k0_chk29 (v298 : BitVec 32) : Prop :=
  (∀ a, (k0_off31 v298) a + S1x1x32.size a ≤ S26x100001x32.size a)
instance k0_chk29.dec : ∀ (v298 : BitVec 32), Decidable (k0_chk29 v298) := fun v298 => decidable_of_iff' _ (Iff.of_eq (k0_chk29.eq_1 v298))
theorem k0_off31_inb : ∀ (v298 : BitVec 32) (k0_hw29 : k0_chk29 v298), ∀ a, (k0_off31 v298) a + S1x1x32.size a ≤ S26x100001x32.size a := fun v298 k0_hw29 => k0_hw29

def k0_off32 (v308 : BitVec 32) : Fin 3 → Nat :=
  let c3_i32_223 : BitVec 32 := 3#32
  let c0_i32_228 : BitVec 32 := 0#32
  ![3, v308.toNat, 0]

def k0_chk30 (v308 : BitVec 32) : Prop :=
  (∀ a, (k0_off32 v308) a + S1x1x32.size a ≤ S26x100001x32.size a)
instance k0_chk30.dec : ∀ (v308 : BitVec 32), Decidable (k0_chk30 v308) := fun v308 => decidable_of_iff' _ (Iff.of_eq (k0_chk30.eq_1 v308))
theorem k0_off32_inb : ∀ (v308 : BitVec 32) (k0_hw30 : k0_chk30 v308), ∀ a, (k0_off32 v308) a + S1x1x32.size a ≤ S26x100001x32.size a := fun v308 k0_hw30 => k0_hw30

def k0_off33 (v318 : BitVec 32) : Fin 3 → Nat :=
  let c4_i32_231 : BitVec 32 := 4#32
  let c0_i32_236 : BitVec 32 := 0#32
  ![4, v318.toNat, 0]

def k0_chk31 (v318 : BitVec 32) : Prop :=
  (∀ a, (k0_off33 v318) a + S1x1x32.size a ≤ S26x100001x32.size a)
instance k0_chk31.dec : ∀ (v318 : BitVec 32), Decidable (k0_chk31 v318) := fun v318 => decidable_of_iff' _ (Iff.of_eq (k0_chk31.eq_1 v318))
theorem k0_off33_inb : ∀ (v318 : BitVec 32) (k0_hw31 : k0_chk31 v318), ∀ a, (k0_off33 v318) a + S1x1x32.size a ≤ S26x100001x32.size a := fun v318 k0_hw31 => k0_hw31

def k0_off34 (v328 : BitVec 32) : Fin 3 → Nat :=
  let c5_i32_239 : BitVec 32 := 5#32
  let c0_i32_244 : BitVec 32 := 0#32
  ![5, v328.toNat, 0]

def k0_chk32 (v328 : BitVec 32) : Prop :=
  (∀ a, (k0_off34 v328) a + S1x1x32.size a ≤ S26x100001x32.size a)
instance k0_chk32.dec : ∀ (v328 : BitVec 32), Decidable (k0_chk32 v328) := fun v328 => decidable_of_iff' _ (Iff.of_eq (k0_chk32.eq_1 v328))
theorem k0_off34_inb : ∀ (v328 : BitVec 32) (k0_hw32 : k0_chk32 v328), ∀ a, (k0_off34 v328) a + S1x1x32.size a ≤ S26x100001x32.size a := fun v328 k0_hw32 => k0_hw32

def k0_off35 (v338 : BitVec 32) : Fin 3 → Nat :=
  let c6_i32_247 : BitVec 32 := 6#32
  let c0_i32_252 : BitVec 32 := 0#32
  ![6, v338.toNat, 0]

def k0_chk33 (v338 : BitVec 32) : Prop :=
  (∀ a, (k0_off35 v338) a + S1x1x32.size a ≤ S26x100001x32.size a)
instance k0_chk33.dec : ∀ (v338 : BitVec 32), Decidable (k0_chk33 v338) := fun v338 => decidable_of_iff' _ (Iff.of_eq (k0_chk33.eq_1 v338))
theorem k0_off35_inb : ∀ (v338 : BitVec 32) (k0_hw33 : k0_chk33 v338), ∀ a, (k0_off35 v338) a + S1x1x32.size a ≤ S26x100001x32.size a := fun v338 k0_hw33 => k0_hw33

def k0_off36 (v348 : BitVec 32) : Fin 3 → Nat :=
  let c7_i32_255 : BitVec 32 := 7#32
  let c0_i32_260 : BitVec 32 := 0#32
  ![7, v348.toNat, 0]

def k0_chk34 (v348 : BitVec 32) : Prop :=
  (∀ a, (k0_off36 v348) a + S1x1x32.size a ≤ S26x100001x32.size a)
instance k0_chk34.dec : ∀ (v348 : BitVec 32), Decidable (k0_chk34 v348) := fun v348 => decidable_of_iff' _ (Iff.of_eq (k0_chk34.eq_1 v348))
theorem k0_off36_inb : ∀ (v348 : BitVec 32) (k0_hw34 : k0_chk34 v348), ∀ a, (k0_off36 v348) a + S1x1x32.size a ≤ S26x100001x32.size a := fun v348 k0_hw34 => k0_hw34

def k0_off37 (v358 : BitVec 32) : Fin 3 → Nat :=
  let c8_i32_263 : BitVec 32 := 8#32
  let c0_i32_268 : BitVec 32 := 0#32
  ![8, v358.toNat, 0]

def k0_chk35 (v358 : BitVec 32) : Prop :=
  (∀ a, (k0_off37 v358) a + S1x1x32.size a ≤ S26x100001x32.size a)
instance k0_chk35.dec : ∀ (v358 : BitVec 32), Decidable (k0_chk35 v358) := fun v358 => decidable_of_iff' _ (Iff.of_eq (k0_chk35.eq_1 v358))
theorem k0_off37_inb : ∀ (v358 : BitVec 32) (k0_hw35 : k0_chk35 v358), ∀ a, (k0_off37 v358) a + S1x1x32.size a ≤ S26x100001x32.size a := fun v358 k0_hw35 => k0_hw35

def k0_off38 (v368 : BitVec 32) : Fin 3 → Nat :=
  let c9_i32_271 : BitVec 32 := 9#32
  let c0_i32_276 : BitVec 32 := 0#32
  ![9, v368.toNat, 0]

def k0_chk36 (v368 : BitVec 32) : Prop :=
  (∀ a, (k0_off38 v368) a + S1x1x32.size a ≤ S26x100001x32.size a)
instance k0_chk36.dec : ∀ (v368 : BitVec 32), Decidable (k0_chk36 v368) := fun v368 => decidable_of_iff' _ (Iff.of_eq (k0_chk36.eq_1 v368))
theorem k0_off38_inb : ∀ (v368 : BitVec 32) (k0_hw36 : k0_chk36 v368), ∀ a, (k0_off38 v368) a + S1x1x32.size a ≤ S26x100001x32.size a := fun v368 k0_hw36 => k0_hw36

def k0_off39 (v378 : BitVec 32) : Fin 3 → Nat :=
  let c10_i32_279 : BitVec 32 := 10#32
  let c0_i32_284 : BitVec 32 := 0#32
  ![10, v378.toNat, 0]

def k0_chk37 (v378 : BitVec 32) : Prop :=
  (∀ a, (k0_off39 v378) a + S1x1x32.size a ≤ S26x100001x32.size a)
instance k0_chk37.dec : ∀ (v378 : BitVec 32), Decidable (k0_chk37 v378) := fun v378 => decidable_of_iff' _ (Iff.of_eq (k0_chk37.eq_1 v378))
theorem k0_off39_inb : ∀ (v378 : BitVec 32) (k0_hw37 : k0_chk37 v378), ∀ a, (k0_off39 v378) a + S1x1x32.size a ≤ S26x100001x32.size a := fun v378 k0_hw37 => k0_hw37

def k0_off40 (v388 : BitVec 32) : Fin 3 → Nat :=
  let c11_i32_287 : BitVec 32 := 11#32
  let c0_i32_292 : BitVec 32 := 0#32
  ![11, v388.toNat, 0]

def k0_chk38 (v388 : BitVec 32) : Prop :=
  (∀ a, (k0_off40 v388) a + S1x1x32.size a ≤ S26x100001x32.size a)
instance k0_chk38.dec : ∀ (v388 : BitVec 32), Decidable (k0_chk38 v388) := fun v388 => decidable_of_iff' _ (Iff.of_eq (k0_chk38.eq_1 v388))
theorem k0_off40_inb : ∀ (v388 : BitVec 32) (k0_hw38 : k0_chk38 v388), ∀ a, (k0_off40 v388) a + S1x1x32.size a ≤ S26x100001x32.size a := fun v388 k0_hw38 => k0_hw38

def k0_off41 (v398 : BitVec 32) : Fin 3 → Nat :=
  let c12_i32_295 : BitVec 32 := 12#32
  let c0_i32_300 : BitVec 32 := 0#32
  ![12, v398.toNat, 0]

def k0_chk39 (v398 : BitVec 32) : Prop :=
  (∀ a, (k0_off41 v398) a + S1x1x32.size a ≤ S26x100001x32.size a)
instance k0_chk39.dec : ∀ (v398 : BitVec 32), Decidable (k0_chk39 v398) := fun v398 => decidable_of_iff' _ (Iff.of_eq (k0_chk39.eq_1 v398))
theorem k0_off41_inb : ∀ (v398 : BitVec 32) (k0_hw39 : k0_chk39 v398), ∀ a, (k0_off41 v398) a + S1x1x32.size a ≤ S26x100001x32.size a := fun v398 k0_hw39 => k0_hw39

def k0_off42 (v408 : BitVec 32) : Fin 3 → Nat :=
  let c13_i32_303 : BitVec 32 := 13#32
  let c0_i32_308 : BitVec 32 := 0#32
  ![13, v408.toNat, 0]

def k0_chk40 (v408 : BitVec 32) : Prop :=
  (∀ a, (k0_off42 v408) a + S1x1x32.size a ≤ S26x100001x32.size a)
instance k0_chk40.dec : ∀ (v408 : BitVec 32), Decidable (k0_chk40 v408) := fun v408 => decidable_of_iff' _ (Iff.of_eq (k0_chk40.eq_1 v408))
theorem k0_off42_inb : ∀ (v408 : BitVec 32) (k0_hw40 : k0_chk40 v408), ∀ a, (k0_off42 v408) a + S1x1x32.size a ≤ S26x100001x32.size a := fun v408 k0_hw40 => k0_hw40

def k0_off43 (v418 : BitVec 32) : Fin 3 → Nat :=
  let c14_i32_311 : BitVec 32 := 14#32
  let c0_i32_316 : BitVec 32 := 0#32
  ![14, v418.toNat, 0]

def k0_chk41 (v418 : BitVec 32) : Prop :=
  (∀ a, (k0_off43 v418) a + S1x1x32.size a ≤ S26x100001x32.size a)
instance k0_chk41.dec : ∀ (v418 : BitVec 32), Decidable (k0_chk41 v418) := fun v418 => decidable_of_iff' _ (Iff.of_eq (k0_chk41.eq_1 v418))
theorem k0_off43_inb : ∀ (v418 : BitVec 32) (k0_hw41 : k0_chk41 v418), ∀ a, (k0_off43 v418) a + S1x1x32.size a ≤ S26x100001x32.size a := fun v418 k0_hw41 => k0_hw41

def k0_off44 (v428 : BitVec 32) : Fin 3 → Nat :=
  let c15_i32_319 : BitVec 32 := 15#32
  let c0_i32_324 : BitVec 32 := 0#32
  ![15, v428.toNat, 0]

def k0_chk42 (v428 : BitVec 32) : Prop :=
  (∀ a, (k0_off44 v428) a + S1x1x32.size a ≤ S26x100001x32.size a)
instance k0_chk42.dec : ∀ (v428 : BitVec 32), Decidable (k0_chk42 v428) := fun v428 => decidable_of_iff' _ (Iff.of_eq (k0_chk42.eq_1 v428))
theorem k0_off44_inb : ∀ (v428 : BitVec 32) (k0_hw42 : k0_chk42 v428), ∀ a, (k0_off44 v428) a + S1x1x32.size a ≤ S26x100001x32.size a := fun v428 k0_hw42 => k0_hw42

def k0_off45 (v438 : BitVec 32) : Fin 3 → Nat :=
  let c16_i32_327 : BitVec 32 := 16#32
  let c0_i32_332 : BitVec 32 := 0#32
  ![16, v438.toNat, 0]

def k0_chk43 (v438 : BitVec 32) : Prop :=
  (∀ a, (k0_off45 v438) a + S1x1x32.size a ≤ S26x100001x32.size a)
instance k0_chk43.dec : ∀ (v438 : BitVec 32), Decidable (k0_chk43 v438) := fun v438 => decidable_of_iff' _ (Iff.of_eq (k0_chk43.eq_1 v438))
theorem k0_off45_inb : ∀ (v438 : BitVec 32) (k0_hw43 : k0_chk43 v438), ∀ a, (k0_off45 v438) a + S1x1x32.size a ≤ S26x100001x32.size a := fun v438 k0_hw43 => k0_hw43

def k0_off46 (v448 : BitVec 32) : Fin 3 → Nat :=
  let c17_i32_335 : BitVec 32 := 17#32
  let c0_i32_340 : BitVec 32 := 0#32
  ![17, v448.toNat, 0]

def k0_chk44 (v448 : BitVec 32) : Prop :=
  (∀ a, (k0_off46 v448) a + S1x1x32.size a ≤ S26x100001x32.size a)
instance k0_chk44.dec : ∀ (v448 : BitVec 32), Decidable (k0_chk44 v448) := fun v448 => decidable_of_iff' _ (Iff.of_eq (k0_chk44.eq_1 v448))
theorem k0_off46_inb : ∀ (v448 : BitVec 32) (k0_hw44 : k0_chk44 v448), ∀ a, (k0_off46 v448) a + S1x1x32.size a ≤ S26x100001x32.size a := fun v448 k0_hw44 => k0_hw44

def k0_off47 (v458 : BitVec 32) : Fin 3 → Nat :=
  let c18_i32_343 : BitVec 32 := 18#32
  let c0_i32_348 : BitVec 32 := 0#32
  ![18, v458.toNat, 0]

def k0_chk45 (v458 : BitVec 32) : Prop :=
  (∀ a, (k0_off47 v458) a + S1x1x32.size a ≤ S26x100001x32.size a)
instance k0_chk45.dec : ∀ (v458 : BitVec 32), Decidable (k0_chk45 v458) := fun v458 => decidable_of_iff' _ (Iff.of_eq (k0_chk45.eq_1 v458))
theorem k0_off47_inb : ∀ (v458 : BitVec 32) (k0_hw45 : k0_chk45 v458), ∀ a, (k0_off47 v458) a + S1x1x32.size a ≤ S26x100001x32.size a := fun v458 k0_hw45 => k0_hw45

def k0_off48 (v468 : BitVec 32) : Fin 3 → Nat :=
  let c19_i32_351 : BitVec 32 := 19#32
  let c0_i32_356 : BitVec 32 := 0#32
  ![19, v468.toNat, 0]

def k0_chk46 (v468 : BitVec 32) : Prop :=
  (∀ a, (k0_off48 v468) a + S1x1x32.size a ≤ S26x100001x32.size a)
instance k0_chk46.dec : ∀ (v468 : BitVec 32), Decidable (k0_chk46 v468) := fun v468 => decidable_of_iff' _ (Iff.of_eq (k0_chk46.eq_1 v468))
theorem k0_off48_inb : ∀ (v468 : BitVec 32) (k0_hw46 : k0_chk46 v468), ∀ a, (k0_off48 v468) a + S1x1x32.size a ≤ S26x100001x32.size a := fun v468 k0_hw46 => k0_hw46

def k0_off49 (v478 : BitVec 32) : Fin 3 → Nat :=
  let c20_i32_359 : BitVec 32 := 20#32
  let c0_i32_364 : BitVec 32 := 0#32
  ![20, v478.toNat, 0]

def k0_chk47 (v478 : BitVec 32) : Prop :=
  (∀ a, (k0_off49 v478) a + S1x1x32.size a ≤ S26x100001x32.size a)
instance k0_chk47.dec : ∀ (v478 : BitVec 32), Decidable (k0_chk47 v478) := fun v478 => decidable_of_iff' _ (Iff.of_eq (k0_chk47.eq_1 v478))
theorem k0_off49_inb : ∀ (v478 : BitVec 32) (k0_hw47 : k0_chk47 v478), ∀ a, (k0_off49 v478) a + S1x1x32.size a ≤ S26x100001x32.size a := fun v478 k0_hw47 => k0_hw47

def k0_off50 (v488 : BitVec 32) : Fin 3 → Nat :=
  let c21_i32_367 : BitVec 32 := 21#32
  let c0_i32_372 : BitVec 32 := 0#32
  ![21, v488.toNat, 0]

def k0_chk48 (v488 : BitVec 32) : Prop :=
  (∀ a, (k0_off50 v488) a + S1x1x32.size a ≤ S26x100001x32.size a)
instance k0_chk48.dec : ∀ (v488 : BitVec 32), Decidable (k0_chk48 v488) := fun v488 => decidable_of_iff' _ (Iff.of_eq (k0_chk48.eq_1 v488))
theorem k0_off50_inb : ∀ (v488 : BitVec 32) (k0_hw48 : k0_chk48 v488), ∀ a, (k0_off50 v488) a + S1x1x32.size a ≤ S26x100001x32.size a := fun v488 k0_hw48 => k0_hw48

def k0_off51 (v498 : BitVec 32) : Fin 3 → Nat :=
  let c22_i32_375 : BitVec 32 := 22#32
  let c0_i32_380 : BitVec 32 := 0#32
  ![22, v498.toNat, 0]

def k0_chk49 (v498 : BitVec 32) : Prop :=
  (∀ a, (k0_off51 v498) a + S1x1x32.size a ≤ S26x100001x32.size a)
instance k0_chk49.dec : ∀ (v498 : BitVec 32), Decidable (k0_chk49 v498) := fun v498 => decidable_of_iff' _ (Iff.of_eq (k0_chk49.eq_1 v498))
theorem k0_off51_inb : ∀ (v498 : BitVec 32) (k0_hw49 : k0_chk49 v498), ∀ a, (k0_off51 v498) a + S1x1x32.size a ≤ S26x100001x32.size a := fun v498 k0_hw49 => k0_hw49

def k0_off52 (v508 : BitVec 32) : Fin 3 → Nat :=
  let c23_i32_383 : BitVec 32 := 23#32
  let c0_i32_388 : BitVec 32 := 0#32
  ![23, v508.toNat, 0]

def k0_chk50 (v508 : BitVec 32) : Prop :=
  (∀ a, (k0_off52 v508) a + S1x1x32.size a ≤ S26x100001x32.size a)
instance k0_chk50.dec : ∀ (v508 : BitVec 32), Decidable (k0_chk50 v508) := fun v508 => decidable_of_iff' _ (Iff.of_eq (k0_chk50.eq_1 v508))
theorem k0_off52_inb : ∀ (v508 : BitVec 32) (k0_hw50 : k0_chk50 v508), ∀ a, (k0_off52 v508) a + S1x1x32.size a ≤ S26x100001x32.size a := fun v508 k0_hw50 => k0_hw50

def k0_off53 (v518 : BitVec 32) : Fin 3 → Nat :=
  let c24_i32_391 : BitVec 32 := 24#32
  let c0_i32_396 : BitVec 32 := 0#32
  ![24, v518.toNat, 0]

def k0_chk51 (v518 : BitVec 32) : Prop :=
  (∀ a, (k0_off53 v518) a + S1x1x32.size a ≤ S26x100001x32.size a)
instance k0_chk51.dec : ∀ (v518 : BitVec 32), Decidable (k0_chk51 v518) := fun v518 => decidable_of_iff' _ (Iff.of_eq (k0_chk51.eq_1 v518))
theorem k0_off53_inb : ∀ (v518 : BitVec 32) (k0_hw51 : k0_chk51 v518), ∀ a, (k0_off53 v518) a + S1x1x32.size a ≤ S26x100001x32.size a := fun v518 k0_hw51 => k0_hw51

def k0_off54 (v528 : BitVec 32) : Fin 3 → Nat :=
  let c25_i32_399 : BitVec 32 := 25#32
  let c0_i32_404 : BitVec 32 := 0#32
  ![25, v528.toNat, 0]

def k0_chk52 (v528 : BitVec 32) : Prop :=
  (∀ a, (k0_off54 v528) a + S1x1x32.size a ≤ S26x100001x32.size a)
instance k0_chk52.dec : ∀ (v528 : BitVec 32), Decidable (k0_chk52 v528) := fun v528 => decidable_of_iff' _ (Iff.of_eq (k0_chk52.eq_1 v528))
theorem k0_off54_inb : ∀ (v528 : BitVec 32) (k0_hw52 : k0_chk52 v528), ∀ a, (k0_off54 v528) a + S1x1x32.size a ≤ S26x100001x32.size a := fun v528 k0_hw52 => k0_hw52

def k0_off55 (v544 : BitVec 32) : Fin 3 → Nat :=
  let c0_i32_411 : BitVec 32 := 0#32
  let c0_i32_416 : BitVec 32 := 0#32
  ![0, v544.toNat, 0]

def k0_chk53 (v544 : BitVec 32) : Prop :=
  (∀ a, (k0_off55 v544) a + S1x1x32.size a ≤ S26x100001x32.size a)
instance k0_chk53.dec : ∀ (v544 : BitVec 32), Decidable (k0_chk53 v544) := fun v544 => decidable_of_iff' _ (Iff.of_eq (k0_chk53.eq_1 v544))
theorem k0_off55_inb : ∀ (v544 : BitVec 32) (k0_hw53 : k0_chk53 v544), ∀ a, (k0_off55 v544) a + S1x1x32.size a ≤ S26x100001x32.size a := fun v544 k0_hw53 => k0_hw53

def k0_off56 (v554 : BitVec 32) : Fin 3 → Nat :=
  let c1_i32_419 : BitVec 32 := 1#32
  let c0_i32_424 : BitVec 32 := 0#32
  ![1, v554.toNat, 0]

def k0_chk54 (v554 : BitVec 32) : Prop :=
  (∀ a, (k0_off56 v554) a + S1x1x32.size a ≤ S26x100001x32.size a)
instance k0_chk54.dec : ∀ (v554 : BitVec 32), Decidable (k0_chk54 v554) := fun v554 => decidable_of_iff' _ (Iff.of_eq (k0_chk54.eq_1 v554))
theorem k0_off56_inb : ∀ (v554 : BitVec 32) (k0_hw54 : k0_chk54 v554), ∀ a, (k0_off56 v554) a + S1x1x32.size a ≤ S26x100001x32.size a := fun v554 k0_hw54 => k0_hw54

def k0_off57 (v564 : BitVec 32) : Fin 3 → Nat :=
  let c2_i32_427 : BitVec 32 := 2#32
  let c0_i32_432 : BitVec 32 := 0#32
  ![2, v564.toNat, 0]

def k0_chk55 (v564 : BitVec 32) : Prop :=
  (∀ a, (k0_off57 v564) a + S1x1x32.size a ≤ S26x100001x32.size a)
instance k0_chk55.dec : ∀ (v564 : BitVec 32), Decidable (k0_chk55 v564) := fun v564 => decidable_of_iff' _ (Iff.of_eq (k0_chk55.eq_1 v564))
theorem k0_off57_inb : ∀ (v564 : BitVec 32) (k0_hw55 : k0_chk55 v564), ∀ a, (k0_off57 v564) a + S1x1x32.size a ≤ S26x100001x32.size a := fun v564 k0_hw55 => k0_hw55

def k0_off58 (v574 : BitVec 32) : Fin 3 → Nat :=
  let c3_i32_435 : BitVec 32 := 3#32
  let c0_i32_440 : BitVec 32 := 0#32
  ![3, v574.toNat, 0]

def k0_chk56 (v574 : BitVec 32) : Prop :=
  (∀ a, (k0_off58 v574) a + S1x1x32.size a ≤ S26x100001x32.size a)
instance k0_chk56.dec : ∀ (v574 : BitVec 32), Decidable (k0_chk56 v574) := fun v574 => decidable_of_iff' _ (Iff.of_eq (k0_chk56.eq_1 v574))
theorem k0_off58_inb : ∀ (v574 : BitVec 32) (k0_hw56 : k0_chk56 v574), ∀ a, (k0_off58 v574) a + S1x1x32.size a ≤ S26x100001x32.size a := fun v574 k0_hw56 => k0_hw56

def k0_off59 (v584 : BitVec 32) : Fin 3 → Nat :=
  let c4_i32_443 : BitVec 32 := 4#32
  let c0_i32_448 : BitVec 32 := 0#32
  ![4, v584.toNat, 0]

def k0_chk57 (v584 : BitVec 32) : Prop :=
  (∀ a, (k0_off59 v584) a + S1x1x32.size a ≤ S26x100001x32.size a)
instance k0_chk57.dec : ∀ (v584 : BitVec 32), Decidable (k0_chk57 v584) := fun v584 => decidable_of_iff' _ (Iff.of_eq (k0_chk57.eq_1 v584))
theorem k0_off59_inb : ∀ (v584 : BitVec 32) (k0_hw57 : k0_chk57 v584), ∀ a, (k0_off59 v584) a + S1x1x32.size a ≤ S26x100001x32.size a := fun v584 k0_hw57 => k0_hw57

def k0_off60 (v594 : BitVec 32) : Fin 3 → Nat :=
  let c5_i32_451 : BitVec 32 := 5#32
  let c0_i32_456 : BitVec 32 := 0#32
  ![5, v594.toNat, 0]

def k0_chk58 (v594 : BitVec 32) : Prop :=
  (∀ a, (k0_off60 v594) a + S1x1x32.size a ≤ S26x100001x32.size a)
instance k0_chk58.dec : ∀ (v594 : BitVec 32), Decidable (k0_chk58 v594) := fun v594 => decidable_of_iff' _ (Iff.of_eq (k0_chk58.eq_1 v594))
theorem k0_off60_inb : ∀ (v594 : BitVec 32) (k0_hw58 : k0_chk58 v594), ∀ a, (k0_off60 v594) a + S1x1x32.size a ≤ S26x100001x32.size a := fun v594 k0_hw58 => k0_hw58

def k0_off61 (v604 : BitVec 32) : Fin 3 → Nat :=
  let c6_i32_459 : BitVec 32 := 6#32
  let c0_i32_464 : BitVec 32 := 0#32
  ![6, v604.toNat, 0]

def k0_chk59 (v604 : BitVec 32) : Prop :=
  (∀ a, (k0_off61 v604) a + S1x1x32.size a ≤ S26x100001x32.size a)
instance k0_chk59.dec : ∀ (v604 : BitVec 32), Decidable (k0_chk59 v604) := fun v604 => decidable_of_iff' _ (Iff.of_eq (k0_chk59.eq_1 v604))
theorem k0_off61_inb : ∀ (v604 : BitVec 32) (k0_hw59 : k0_chk59 v604), ∀ a, (k0_off61 v604) a + S1x1x32.size a ≤ S26x100001x32.size a := fun v604 k0_hw59 => k0_hw59

def k0_off62 (v614 : BitVec 32) : Fin 3 → Nat :=
  let c7_i32_467 : BitVec 32 := 7#32
  let c0_i32_472 : BitVec 32 := 0#32
  ![7, v614.toNat, 0]

def k0_chk60 (v614 : BitVec 32) : Prop :=
  (∀ a, (k0_off62 v614) a + S1x1x32.size a ≤ S26x100001x32.size a)
instance k0_chk60.dec : ∀ (v614 : BitVec 32), Decidable (k0_chk60 v614) := fun v614 => decidable_of_iff' _ (Iff.of_eq (k0_chk60.eq_1 v614))
theorem k0_off62_inb : ∀ (v614 : BitVec 32) (k0_hw60 : k0_chk60 v614), ∀ a, (k0_off62 v614) a + S1x1x32.size a ≤ S26x100001x32.size a := fun v614 k0_hw60 => k0_hw60

def k0_off63 (v624 : BitVec 32) : Fin 3 → Nat :=
  let c8_i32_475 : BitVec 32 := 8#32
  let c0_i32_480 : BitVec 32 := 0#32
  ![8, v624.toNat, 0]

def k0_chk61 (v624 : BitVec 32) : Prop :=
  (∀ a, (k0_off63 v624) a + S1x1x32.size a ≤ S26x100001x32.size a)
instance k0_chk61.dec : ∀ (v624 : BitVec 32), Decidable (k0_chk61 v624) := fun v624 => decidable_of_iff' _ (Iff.of_eq (k0_chk61.eq_1 v624))
theorem k0_off63_inb : ∀ (v624 : BitVec 32) (k0_hw61 : k0_chk61 v624), ∀ a, (k0_off63 v624) a + S1x1x32.size a ≤ S26x100001x32.size a := fun v624 k0_hw61 => k0_hw61

def k0_off64 (v634 : BitVec 32) : Fin 3 → Nat :=
  let c9_i32_483 : BitVec 32 := 9#32
  let c0_i32_488 : BitVec 32 := 0#32
  ![9, v634.toNat, 0]

def k0_chk62 (v634 : BitVec 32) : Prop :=
  (∀ a, (k0_off64 v634) a + S1x1x32.size a ≤ S26x100001x32.size a)
instance k0_chk62.dec : ∀ (v634 : BitVec 32), Decidable (k0_chk62 v634) := fun v634 => decidable_of_iff' _ (Iff.of_eq (k0_chk62.eq_1 v634))
theorem k0_off64_inb : ∀ (v634 : BitVec 32) (k0_hw62 : k0_chk62 v634), ∀ a, (k0_off64 v634) a + S1x1x32.size a ≤ S26x100001x32.size a := fun v634 k0_hw62 => k0_hw62

def k0_off65 (v644 : BitVec 32) : Fin 3 → Nat :=
  let c10_i32_491 : BitVec 32 := 10#32
  let c0_i32_496 : BitVec 32 := 0#32
  ![10, v644.toNat, 0]

def k0_chk63 (v644 : BitVec 32) : Prop :=
  (∀ a, (k0_off65 v644) a + S1x1x32.size a ≤ S26x100001x32.size a)
instance k0_chk63.dec : ∀ (v644 : BitVec 32), Decidable (k0_chk63 v644) := fun v644 => decidable_of_iff' _ (Iff.of_eq (k0_chk63.eq_1 v644))
theorem k0_off65_inb : ∀ (v644 : BitVec 32) (k0_hw63 : k0_chk63 v644), ∀ a, (k0_off65 v644) a + S1x1x32.size a ≤ S26x100001x32.size a := fun v644 k0_hw63 => k0_hw63

def k0_off66 (v654 : BitVec 32) : Fin 3 → Nat :=
  let c11_i32_499 : BitVec 32 := 11#32
  let c0_i32_504 : BitVec 32 := 0#32
  ![11, v654.toNat, 0]

def k0_chk64 (v654 : BitVec 32) : Prop :=
  (∀ a, (k0_off66 v654) a + S1x1x32.size a ≤ S26x100001x32.size a)
instance k0_chk64.dec : ∀ (v654 : BitVec 32), Decidable (k0_chk64 v654) := fun v654 => decidable_of_iff' _ (Iff.of_eq (k0_chk64.eq_1 v654))
theorem k0_off66_inb : ∀ (v654 : BitVec 32) (k0_hw64 : k0_chk64 v654), ∀ a, (k0_off66 v654) a + S1x1x32.size a ≤ S26x100001x32.size a := fun v654 k0_hw64 => k0_hw64

def k0_off67 (v664 : BitVec 32) : Fin 3 → Nat :=
  let c12_i32_507 : BitVec 32 := 12#32
  let c0_i32_512 : BitVec 32 := 0#32
  ![12, v664.toNat, 0]

def k0_chk65 (v664 : BitVec 32) : Prop :=
  (∀ a, (k0_off67 v664) a + S1x1x32.size a ≤ S26x100001x32.size a)
instance k0_chk65.dec : ∀ (v664 : BitVec 32), Decidable (k0_chk65 v664) := fun v664 => decidable_of_iff' _ (Iff.of_eq (k0_chk65.eq_1 v664))
theorem k0_off67_inb : ∀ (v664 : BitVec 32) (k0_hw65 : k0_chk65 v664), ∀ a, (k0_off67 v664) a + S1x1x32.size a ≤ S26x100001x32.size a := fun v664 k0_hw65 => k0_hw65

def k0_off68 (v674 : BitVec 32) : Fin 3 → Nat :=
  let c13_i32_515 : BitVec 32 := 13#32
  let c0_i32_520 : BitVec 32 := 0#32
  ![13, v674.toNat, 0]

def k0_chk66 (v674 : BitVec 32) : Prop :=
  (∀ a, (k0_off68 v674) a + S1x1x32.size a ≤ S26x100001x32.size a)
instance k0_chk66.dec : ∀ (v674 : BitVec 32), Decidable (k0_chk66 v674) := fun v674 => decidable_of_iff' _ (Iff.of_eq (k0_chk66.eq_1 v674))
theorem k0_off68_inb : ∀ (v674 : BitVec 32) (k0_hw66 : k0_chk66 v674), ∀ a, (k0_off68 v674) a + S1x1x32.size a ≤ S26x100001x32.size a := fun v674 k0_hw66 => k0_hw66

def k0_off69 (v684 : BitVec 32) : Fin 3 → Nat :=
  let c14_i32_523 : BitVec 32 := 14#32
  let c0_i32_528 : BitVec 32 := 0#32
  ![14, v684.toNat, 0]

def k0_chk67 (v684 : BitVec 32) : Prop :=
  (∀ a, (k0_off69 v684) a + S1x1x32.size a ≤ S26x100001x32.size a)
instance k0_chk67.dec : ∀ (v684 : BitVec 32), Decidable (k0_chk67 v684) := fun v684 => decidable_of_iff' _ (Iff.of_eq (k0_chk67.eq_1 v684))
theorem k0_off69_inb : ∀ (v684 : BitVec 32) (k0_hw67 : k0_chk67 v684), ∀ a, (k0_off69 v684) a + S1x1x32.size a ≤ S26x100001x32.size a := fun v684 k0_hw67 => k0_hw67

def k0_off70 (v694 : BitVec 32) : Fin 3 → Nat :=
  let c15_i32_531 : BitVec 32 := 15#32
  let c0_i32_536 : BitVec 32 := 0#32
  ![15, v694.toNat, 0]

def k0_chk68 (v694 : BitVec 32) : Prop :=
  (∀ a, (k0_off70 v694) a + S1x1x32.size a ≤ S26x100001x32.size a)
instance k0_chk68.dec : ∀ (v694 : BitVec 32), Decidable (k0_chk68 v694) := fun v694 => decidable_of_iff' _ (Iff.of_eq (k0_chk68.eq_1 v694))
theorem k0_off70_inb : ∀ (v694 : BitVec 32) (k0_hw68 : k0_chk68 v694), ∀ a, (k0_off70 v694) a + S1x1x32.size a ≤ S26x100001x32.size a := fun v694 k0_hw68 => k0_hw68

def k0_off71 (v704 : BitVec 32) : Fin 3 → Nat :=
  let c16_i32_539 : BitVec 32 := 16#32
  let c0_i32_544 : BitVec 32 := 0#32
  ![16, v704.toNat, 0]

def k0_chk69 (v704 : BitVec 32) : Prop :=
  (∀ a, (k0_off71 v704) a + S1x1x32.size a ≤ S26x100001x32.size a)
instance k0_chk69.dec : ∀ (v704 : BitVec 32), Decidable (k0_chk69 v704) := fun v704 => decidable_of_iff' _ (Iff.of_eq (k0_chk69.eq_1 v704))
theorem k0_off71_inb : ∀ (v704 : BitVec 32) (k0_hw69 : k0_chk69 v704), ∀ a, (k0_off71 v704) a + S1x1x32.size a ≤ S26x100001x32.size a := fun v704 k0_hw69 => k0_hw69

def k0_off72 (v714 : BitVec 32) : Fin 3 → Nat :=
  let c17_i32_547 : BitVec 32 := 17#32
  let c0_i32_552 : BitVec 32 := 0#32
  ![17, v714.toNat, 0]

def k0_chk70 (v714 : BitVec 32) : Prop :=
  (∀ a, (k0_off72 v714) a + S1x1x32.size a ≤ S26x100001x32.size a)
instance k0_chk70.dec : ∀ (v714 : BitVec 32), Decidable (k0_chk70 v714) := fun v714 => decidable_of_iff' _ (Iff.of_eq (k0_chk70.eq_1 v714))
theorem k0_off72_inb : ∀ (v714 : BitVec 32) (k0_hw70 : k0_chk70 v714), ∀ a, (k0_off72 v714) a + S1x1x32.size a ≤ S26x100001x32.size a := fun v714 k0_hw70 => k0_hw70

def k0_off73 (v724 : BitVec 32) : Fin 3 → Nat :=
  let c18_i32_555 : BitVec 32 := 18#32
  let c0_i32_560 : BitVec 32 := 0#32
  ![18, v724.toNat, 0]

def k0_chk71 (v724 : BitVec 32) : Prop :=
  (∀ a, (k0_off73 v724) a + S1x1x32.size a ≤ S26x100001x32.size a)
instance k0_chk71.dec : ∀ (v724 : BitVec 32), Decidable (k0_chk71 v724) := fun v724 => decidable_of_iff' _ (Iff.of_eq (k0_chk71.eq_1 v724))
theorem k0_off73_inb : ∀ (v724 : BitVec 32) (k0_hw71 : k0_chk71 v724), ∀ a, (k0_off73 v724) a + S1x1x32.size a ≤ S26x100001x32.size a := fun v724 k0_hw71 => k0_hw71

def k0_off74 (v734 : BitVec 32) : Fin 3 → Nat :=
  let c19_i32_563 : BitVec 32 := 19#32
  let c0_i32_568 : BitVec 32 := 0#32
  ![19, v734.toNat, 0]

def k0_chk72 (v734 : BitVec 32) : Prop :=
  (∀ a, (k0_off74 v734) a + S1x1x32.size a ≤ S26x100001x32.size a)
instance k0_chk72.dec : ∀ (v734 : BitVec 32), Decidable (k0_chk72 v734) := fun v734 => decidable_of_iff' _ (Iff.of_eq (k0_chk72.eq_1 v734))
theorem k0_off74_inb : ∀ (v734 : BitVec 32) (k0_hw72 : k0_chk72 v734), ∀ a, (k0_off74 v734) a + S1x1x32.size a ≤ S26x100001x32.size a := fun v734 k0_hw72 => k0_hw72

def k0_off75 (v744 : BitVec 32) : Fin 3 → Nat :=
  let c20_i32_571 : BitVec 32 := 20#32
  let c0_i32_576 : BitVec 32 := 0#32
  ![20, v744.toNat, 0]

def k0_chk73 (v744 : BitVec 32) : Prop :=
  (∀ a, (k0_off75 v744) a + S1x1x32.size a ≤ S26x100001x32.size a)
instance k0_chk73.dec : ∀ (v744 : BitVec 32), Decidable (k0_chk73 v744) := fun v744 => decidable_of_iff' _ (Iff.of_eq (k0_chk73.eq_1 v744))
theorem k0_off75_inb : ∀ (v744 : BitVec 32) (k0_hw73 : k0_chk73 v744), ∀ a, (k0_off75 v744) a + S1x1x32.size a ≤ S26x100001x32.size a := fun v744 k0_hw73 => k0_hw73

def k0_off76 (v754 : BitVec 32) : Fin 3 → Nat :=
  let c21_i32_579 : BitVec 32 := 21#32
  let c0_i32_584 : BitVec 32 := 0#32
  ![21, v754.toNat, 0]

def k0_chk74 (v754 : BitVec 32) : Prop :=
  (∀ a, (k0_off76 v754) a + S1x1x32.size a ≤ S26x100001x32.size a)
instance k0_chk74.dec : ∀ (v754 : BitVec 32), Decidable (k0_chk74 v754) := fun v754 => decidable_of_iff' _ (Iff.of_eq (k0_chk74.eq_1 v754))
theorem k0_off76_inb : ∀ (v754 : BitVec 32) (k0_hw74 : k0_chk74 v754), ∀ a, (k0_off76 v754) a + S1x1x32.size a ≤ S26x100001x32.size a := fun v754 k0_hw74 => k0_hw74

def k0_off77 (v764 : BitVec 32) : Fin 3 → Nat :=
  let c22_i32_587 : BitVec 32 := 22#32
  let c0_i32_592 : BitVec 32 := 0#32
  ![22, v764.toNat, 0]

def k0_chk75 (v764 : BitVec 32) : Prop :=
  (∀ a, (k0_off77 v764) a + S1x1x32.size a ≤ S26x100001x32.size a)
instance k0_chk75.dec : ∀ (v764 : BitVec 32), Decidable (k0_chk75 v764) := fun v764 => decidable_of_iff' _ (Iff.of_eq (k0_chk75.eq_1 v764))
theorem k0_off77_inb : ∀ (v764 : BitVec 32) (k0_hw75 : k0_chk75 v764), ∀ a, (k0_off77 v764) a + S1x1x32.size a ≤ S26x100001x32.size a := fun v764 k0_hw75 => k0_hw75

def k0_off78 (v774 : BitVec 32) : Fin 3 → Nat :=
  let c23_i32_595 : BitVec 32 := 23#32
  let c0_i32_600 : BitVec 32 := 0#32
  ![23, v774.toNat, 0]

def k0_chk76 (v774 : BitVec 32) : Prop :=
  (∀ a, (k0_off78 v774) a + S1x1x32.size a ≤ S26x100001x32.size a)
instance k0_chk76.dec : ∀ (v774 : BitVec 32), Decidable (k0_chk76 v774) := fun v774 => decidable_of_iff' _ (Iff.of_eq (k0_chk76.eq_1 v774))
theorem k0_off78_inb : ∀ (v774 : BitVec 32) (k0_hw76 : k0_chk76 v774), ∀ a, (k0_off78 v774) a + S1x1x32.size a ≤ S26x100001x32.size a := fun v774 k0_hw76 => k0_hw76

def k0_off79 (v784 : BitVec 32) : Fin 3 → Nat :=
  let c24_i32_603 : BitVec 32 := 24#32
  let c0_i32_608 : BitVec 32 := 0#32
  ![24, v784.toNat, 0]

def k0_chk77 (v784 : BitVec 32) : Prop :=
  (∀ a, (k0_off79 v784) a + S1x1x32.size a ≤ S26x100001x32.size a)
instance k0_chk77.dec : ∀ (v784 : BitVec 32), Decidable (k0_chk77 v784) := fun v784 => decidable_of_iff' _ (Iff.of_eq (k0_chk77.eq_1 v784))
theorem k0_off79_inb : ∀ (v784 : BitVec 32) (k0_hw77 : k0_chk77 v784), ∀ a, (k0_off79 v784) a + S1x1x32.size a ≤ S26x100001x32.size a := fun v784 k0_hw77 => k0_hw77

def k0_off80 (v794 : BitVec 32) : Fin 3 → Nat :=
  let c25_i32_611 : BitVec 32 := 25#32
  let c0_i32_616 : BitVec 32 := 0#32
  ![25, v794.toNat, 0]

def k0_chk78 (v794 : BitVec 32) : Prop :=
  (∀ a, (k0_off80 v794) a + S1x1x32.size a ≤ S26x100001x32.size a)
instance k0_chk78.dec : ∀ (v794 : BitVec 32), Decidable (k0_chk78 v794) := fun v794 => decidable_of_iff' _ (Iff.of_eq (k0_chk78.eq_1 v794))
theorem k0_off80_inb : ∀ (v794 : BitVec 32) (k0_hw78 : k0_chk78 v794), ∀ a, (k0_off80 v794) a + S1x1x32.size a ≤ S26x100001x32.size a := fun v794 k0_hw78 => k0_hw78

def k0_off81 (v810 : BitVec 32) : Fin 3 → Nat :=
  let c0_i32_623 : BitVec 32 := 0#32
  let c0_i32_628 : BitVec 32 := 0#32
  ![0, v810.toNat, 0]

def k0_chk79 (v810 : BitVec 32) : Prop :=
  (∀ a, (k0_off81 v810) a + S1x1x32.size a ≤ S26x100001x32.size a)
instance k0_chk79.dec : ∀ (v810 : BitVec 32), Decidable (k0_chk79 v810) := fun v810 => decidable_of_iff' _ (Iff.of_eq (k0_chk79.eq_1 v810))
theorem k0_off81_inb : ∀ (v810 : BitVec 32) (k0_hw79 : k0_chk79 v810), ∀ a, (k0_off81 v810) a + S1x1x32.size a ≤ S26x100001x32.size a := fun v810 k0_hw79 => k0_hw79

def k0_off82 (v820 : BitVec 32) : Fin 3 → Nat :=
  let c1_i32_631 : BitVec 32 := 1#32
  let c0_i32_636 : BitVec 32 := 0#32
  ![1, v820.toNat, 0]

def k0_chk80 (v820 : BitVec 32) : Prop :=
  (∀ a, (k0_off82 v820) a + S1x1x32.size a ≤ S26x100001x32.size a)
instance k0_chk80.dec : ∀ (v820 : BitVec 32), Decidable (k0_chk80 v820) := fun v820 => decidable_of_iff' _ (Iff.of_eq (k0_chk80.eq_1 v820))
theorem k0_off82_inb : ∀ (v820 : BitVec 32) (k0_hw80 : k0_chk80 v820), ∀ a, (k0_off82 v820) a + S1x1x32.size a ≤ S26x100001x32.size a := fun v820 k0_hw80 => k0_hw80

def k0_off83 (v830 : BitVec 32) : Fin 3 → Nat :=
  let c2_i32_639 : BitVec 32 := 2#32
  let c0_i32_644 : BitVec 32 := 0#32
  ![2, v830.toNat, 0]

def k0_chk81 (v830 : BitVec 32) : Prop :=
  (∀ a, (k0_off83 v830) a + S1x1x32.size a ≤ S26x100001x32.size a)
instance k0_chk81.dec : ∀ (v830 : BitVec 32), Decidable (k0_chk81 v830) := fun v830 => decidable_of_iff' _ (Iff.of_eq (k0_chk81.eq_1 v830))
theorem k0_off83_inb : ∀ (v830 : BitVec 32) (k0_hw81 : k0_chk81 v830), ∀ a, (k0_off83 v830) a + S1x1x32.size a ≤ S26x100001x32.size a := fun v830 k0_hw81 => k0_hw81

def k0_off84 (v840 : BitVec 32) : Fin 3 → Nat :=
  let c3_i32_647 : BitVec 32 := 3#32
  let c0_i32_652 : BitVec 32 := 0#32
  ![3, v840.toNat, 0]

def k0_chk82 (v840 : BitVec 32) : Prop :=
  (∀ a, (k0_off84 v840) a + S1x1x32.size a ≤ S26x100001x32.size a)
instance k0_chk82.dec : ∀ (v840 : BitVec 32), Decidable (k0_chk82 v840) := fun v840 => decidable_of_iff' _ (Iff.of_eq (k0_chk82.eq_1 v840))
theorem k0_off84_inb : ∀ (v840 : BitVec 32) (k0_hw82 : k0_chk82 v840), ∀ a, (k0_off84 v840) a + S1x1x32.size a ≤ S26x100001x32.size a := fun v840 k0_hw82 => k0_hw82

def k0_off85 (v850 : BitVec 32) : Fin 3 → Nat :=
  let c4_i32_655 : BitVec 32 := 4#32
  let c0_i32_660 : BitVec 32 := 0#32
  ![4, v850.toNat, 0]

def k0_chk83 (v850 : BitVec 32) : Prop :=
  (∀ a, (k0_off85 v850) a + S1x1x32.size a ≤ S26x100001x32.size a)
instance k0_chk83.dec : ∀ (v850 : BitVec 32), Decidable (k0_chk83 v850) := fun v850 => decidable_of_iff' _ (Iff.of_eq (k0_chk83.eq_1 v850))
theorem k0_off85_inb : ∀ (v850 : BitVec 32) (k0_hw83 : k0_chk83 v850), ∀ a, (k0_off85 v850) a + S1x1x32.size a ≤ S26x100001x32.size a := fun v850 k0_hw83 => k0_hw83

def k0_off86 (v860 : BitVec 32) : Fin 3 → Nat :=
  let c5_i32_663 : BitVec 32 := 5#32
  let c0_i32_668 : BitVec 32 := 0#32
  ![5, v860.toNat, 0]

def k0_chk84 (v860 : BitVec 32) : Prop :=
  (∀ a, (k0_off86 v860) a + S1x1x32.size a ≤ S26x100001x32.size a)
instance k0_chk84.dec : ∀ (v860 : BitVec 32), Decidable (k0_chk84 v860) := fun v860 => decidable_of_iff' _ (Iff.of_eq (k0_chk84.eq_1 v860))
theorem k0_off86_inb : ∀ (v860 : BitVec 32) (k0_hw84 : k0_chk84 v860), ∀ a, (k0_off86 v860) a + S1x1x32.size a ≤ S26x100001x32.size a := fun v860 k0_hw84 => k0_hw84

def k0_off87 (v870 : BitVec 32) : Fin 3 → Nat :=
  let c6_i32_671 : BitVec 32 := 6#32
  let c0_i32_676 : BitVec 32 := 0#32
  ![6, v870.toNat, 0]

def k0_chk85 (v870 : BitVec 32) : Prop :=
  (∀ a, (k0_off87 v870) a + S1x1x32.size a ≤ S26x100001x32.size a)
instance k0_chk85.dec : ∀ (v870 : BitVec 32), Decidable (k0_chk85 v870) := fun v870 => decidable_of_iff' _ (Iff.of_eq (k0_chk85.eq_1 v870))
theorem k0_off87_inb : ∀ (v870 : BitVec 32) (k0_hw85 : k0_chk85 v870), ∀ a, (k0_off87 v870) a + S1x1x32.size a ≤ S26x100001x32.size a := fun v870 k0_hw85 => k0_hw85

def k0_off88 (v880 : BitVec 32) : Fin 3 → Nat :=
  let c7_i32_679 : BitVec 32 := 7#32
  let c0_i32_684 : BitVec 32 := 0#32
  ![7, v880.toNat, 0]

def k0_chk86 (v880 : BitVec 32) : Prop :=
  (∀ a, (k0_off88 v880) a + S1x1x32.size a ≤ S26x100001x32.size a)
instance k0_chk86.dec : ∀ (v880 : BitVec 32), Decidable (k0_chk86 v880) := fun v880 => decidable_of_iff' _ (Iff.of_eq (k0_chk86.eq_1 v880))
theorem k0_off88_inb : ∀ (v880 : BitVec 32) (k0_hw86 : k0_chk86 v880), ∀ a, (k0_off88 v880) a + S1x1x32.size a ≤ S26x100001x32.size a := fun v880 k0_hw86 => k0_hw86

def k0_off89 (v890 : BitVec 32) : Fin 3 → Nat :=
  let c8_i32_687 : BitVec 32 := 8#32
  let c0_i32_692 : BitVec 32 := 0#32
  ![8, v890.toNat, 0]

def k0_chk87 (v890 : BitVec 32) : Prop :=
  (∀ a, (k0_off89 v890) a + S1x1x32.size a ≤ S26x100001x32.size a)
instance k0_chk87.dec : ∀ (v890 : BitVec 32), Decidable (k0_chk87 v890) := fun v890 => decidable_of_iff' _ (Iff.of_eq (k0_chk87.eq_1 v890))
theorem k0_off89_inb : ∀ (v890 : BitVec 32) (k0_hw87 : k0_chk87 v890), ∀ a, (k0_off89 v890) a + S1x1x32.size a ≤ S26x100001x32.size a := fun v890 k0_hw87 => k0_hw87

def k0_off90 (v900 : BitVec 32) : Fin 3 → Nat :=
  let c9_i32_695 : BitVec 32 := 9#32
  let c0_i32_700 : BitVec 32 := 0#32
  ![9, v900.toNat, 0]

def k0_chk88 (v900 : BitVec 32) : Prop :=
  (∀ a, (k0_off90 v900) a + S1x1x32.size a ≤ S26x100001x32.size a)
instance k0_chk88.dec : ∀ (v900 : BitVec 32), Decidable (k0_chk88 v900) := fun v900 => decidable_of_iff' _ (Iff.of_eq (k0_chk88.eq_1 v900))
theorem k0_off90_inb : ∀ (v900 : BitVec 32) (k0_hw88 : k0_chk88 v900), ∀ a, (k0_off90 v900) a + S1x1x32.size a ≤ S26x100001x32.size a := fun v900 k0_hw88 => k0_hw88

def k0_off91 (v910 : BitVec 32) : Fin 3 → Nat :=
  let c10_i32_703 : BitVec 32 := 10#32
  let c0_i32_708 : BitVec 32 := 0#32
  ![10, v910.toNat, 0]

def k0_chk89 (v910 : BitVec 32) : Prop :=
  (∀ a, (k0_off91 v910) a + S1x1x32.size a ≤ S26x100001x32.size a)
instance k0_chk89.dec : ∀ (v910 : BitVec 32), Decidable (k0_chk89 v910) := fun v910 => decidable_of_iff' _ (Iff.of_eq (k0_chk89.eq_1 v910))
theorem k0_off91_inb : ∀ (v910 : BitVec 32) (k0_hw89 : k0_chk89 v910), ∀ a, (k0_off91 v910) a + S1x1x32.size a ≤ S26x100001x32.size a := fun v910 k0_hw89 => k0_hw89

def k0_off92 (v920 : BitVec 32) : Fin 3 → Nat :=
  let c11_i32_711 : BitVec 32 := 11#32
  let c0_i32_716 : BitVec 32 := 0#32
  ![11, v920.toNat, 0]

def k0_chk90 (v920 : BitVec 32) : Prop :=
  (∀ a, (k0_off92 v920) a + S1x1x32.size a ≤ S26x100001x32.size a)
instance k0_chk90.dec : ∀ (v920 : BitVec 32), Decidable (k0_chk90 v920) := fun v920 => decidable_of_iff' _ (Iff.of_eq (k0_chk90.eq_1 v920))
theorem k0_off92_inb : ∀ (v920 : BitVec 32) (k0_hw90 : k0_chk90 v920), ∀ a, (k0_off92 v920) a + S1x1x32.size a ≤ S26x100001x32.size a := fun v920 k0_hw90 => k0_hw90

def k0_off93 (v930 : BitVec 32) : Fin 3 → Nat :=
  let c12_i32_719 : BitVec 32 := 12#32
  let c0_i32_724 : BitVec 32 := 0#32
  ![12, v930.toNat, 0]

def k0_chk91 (v930 : BitVec 32) : Prop :=
  (∀ a, (k0_off93 v930) a + S1x1x32.size a ≤ S26x100001x32.size a)
instance k0_chk91.dec : ∀ (v930 : BitVec 32), Decidable (k0_chk91 v930) := fun v930 => decidable_of_iff' _ (Iff.of_eq (k0_chk91.eq_1 v930))
theorem k0_off93_inb : ∀ (v930 : BitVec 32) (k0_hw91 : k0_chk91 v930), ∀ a, (k0_off93 v930) a + S1x1x32.size a ≤ S26x100001x32.size a := fun v930 k0_hw91 => k0_hw91

def k0_off94 (v940 : BitVec 32) : Fin 3 → Nat :=
  let c13_i32_727 : BitVec 32 := 13#32
  let c0_i32_732 : BitVec 32 := 0#32
  ![13, v940.toNat, 0]

def k0_chk92 (v940 : BitVec 32) : Prop :=
  (∀ a, (k0_off94 v940) a + S1x1x32.size a ≤ S26x100001x32.size a)
instance k0_chk92.dec : ∀ (v940 : BitVec 32), Decidable (k0_chk92 v940) := fun v940 => decidable_of_iff' _ (Iff.of_eq (k0_chk92.eq_1 v940))
theorem k0_off94_inb : ∀ (v940 : BitVec 32) (k0_hw92 : k0_chk92 v940), ∀ a, (k0_off94 v940) a + S1x1x32.size a ≤ S26x100001x32.size a := fun v940 k0_hw92 => k0_hw92

def k0_off95 (v950 : BitVec 32) : Fin 3 → Nat :=
  let c14_i32_735 : BitVec 32 := 14#32
  let c0_i32_740 : BitVec 32 := 0#32
  ![14, v950.toNat, 0]

def k0_chk93 (v950 : BitVec 32) : Prop :=
  (∀ a, (k0_off95 v950) a + S1x1x32.size a ≤ S26x100001x32.size a)
instance k0_chk93.dec : ∀ (v950 : BitVec 32), Decidable (k0_chk93 v950) := fun v950 => decidable_of_iff' _ (Iff.of_eq (k0_chk93.eq_1 v950))
theorem k0_off95_inb : ∀ (v950 : BitVec 32) (k0_hw93 : k0_chk93 v950), ∀ a, (k0_off95 v950) a + S1x1x32.size a ≤ S26x100001x32.size a := fun v950 k0_hw93 => k0_hw93

def k0_off96 (v960 : BitVec 32) : Fin 3 → Nat :=
  let c15_i32_743 : BitVec 32 := 15#32
  let c0_i32_748 : BitVec 32 := 0#32
  ![15, v960.toNat, 0]

def k0_chk94 (v960 : BitVec 32) : Prop :=
  (∀ a, (k0_off96 v960) a + S1x1x32.size a ≤ S26x100001x32.size a)
instance k0_chk94.dec : ∀ (v960 : BitVec 32), Decidable (k0_chk94 v960) := fun v960 => decidable_of_iff' _ (Iff.of_eq (k0_chk94.eq_1 v960))
theorem k0_off96_inb : ∀ (v960 : BitVec 32) (k0_hw94 : k0_chk94 v960), ∀ a, (k0_off96 v960) a + S1x1x32.size a ≤ S26x100001x32.size a := fun v960 k0_hw94 => k0_hw94

def k0_off97 (v970 : BitVec 32) : Fin 3 → Nat :=
  let c16_i32_751 : BitVec 32 := 16#32
  let c0_i32_756 : BitVec 32 := 0#32
  ![16, v970.toNat, 0]

def k0_chk95 (v970 : BitVec 32) : Prop :=
  (∀ a, (k0_off97 v970) a + S1x1x32.size a ≤ S26x100001x32.size a)
instance k0_chk95.dec : ∀ (v970 : BitVec 32), Decidable (k0_chk95 v970) := fun v970 => decidable_of_iff' _ (Iff.of_eq (k0_chk95.eq_1 v970))
theorem k0_off97_inb : ∀ (v970 : BitVec 32) (k0_hw95 : k0_chk95 v970), ∀ a, (k0_off97 v970) a + S1x1x32.size a ≤ S26x100001x32.size a := fun v970 k0_hw95 => k0_hw95

def k0_off98 (v980 : BitVec 32) : Fin 3 → Nat :=
  let c17_i32_759 : BitVec 32 := 17#32
  let c0_i32_764 : BitVec 32 := 0#32
  ![17, v980.toNat, 0]

def k0_chk96 (v980 : BitVec 32) : Prop :=
  (∀ a, (k0_off98 v980) a + S1x1x32.size a ≤ S26x100001x32.size a)
instance k0_chk96.dec : ∀ (v980 : BitVec 32), Decidable (k0_chk96 v980) := fun v980 => decidable_of_iff' _ (Iff.of_eq (k0_chk96.eq_1 v980))
theorem k0_off98_inb : ∀ (v980 : BitVec 32) (k0_hw96 : k0_chk96 v980), ∀ a, (k0_off98 v980) a + S1x1x32.size a ≤ S26x100001x32.size a := fun v980 k0_hw96 => k0_hw96

def k0_off99 (v990 : BitVec 32) : Fin 3 → Nat :=
  let c18_i32_767 : BitVec 32 := 18#32
  let c0_i32_772 : BitVec 32 := 0#32
  ![18, v990.toNat, 0]

def k0_chk97 (v990 : BitVec 32) : Prop :=
  (∀ a, (k0_off99 v990) a + S1x1x32.size a ≤ S26x100001x32.size a)
instance k0_chk97.dec : ∀ (v990 : BitVec 32), Decidable (k0_chk97 v990) := fun v990 => decidable_of_iff' _ (Iff.of_eq (k0_chk97.eq_1 v990))
theorem k0_off99_inb : ∀ (v990 : BitVec 32) (k0_hw97 : k0_chk97 v990), ∀ a, (k0_off99 v990) a + S1x1x32.size a ≤ S26x100001x32.size a := fun v990 k0_hw97 => k0_hw97

def k0_off100 (v1000 : BitVec 32) : Fin 3 → Nat :=
  let c19_i32_775 : BitVec 32 := 19#32
  let c0_i32_780 : BitVec 32 := 0#32
  ![19, v1000.toNat, 0]

def k0_chk98 (v1000 : BitVec 32) : Prop :=
  (∀ a, (k0_off100 v1000) a + S1x1x32.size a ≤ S26x100001x32.size a)
instance k0_chk98.dec : ∀ (v1000 : BitVec 32), Decidable (k0_chk98 v1000) := fun v1000 => decidable_of_iff' _ (Iff.of_eq (k0_chk98.eq_1 v1000))
theorem k0_off100_inb : ∀ (v1000 : BitVec 32) (k0_hw98 : k0_chk98 v1000), ∀ a, (k0_off100 v1000) a + S1x1x32.size a ≤ S26x100001x32.size a := fun v1000 k0_hw98 => k0_hw98

def k0_off101 (v1010 : BitVec 32) : Fin 3 → Nat :=
  let c20_i32_783 : BitVec 32 := 20#32
  let c0_i32_788 : BitVec 32 := 0#32
  ![20, v1010.toNat, 0]

def k0_chk99 (v1010 : BitVec 32) : Prop :=
  (∀ a, (k0_off101 v1010) a + S1x1x32.size a ≤ S26x100001x32.size a)
instance k0_chk99.dec : ∀ (v1010 : BitVec 32), Decidable (k0_chk99 v1010) := fun v1010 => decidable_of_iff' _ (Iff.of_eq (k0_chk99.eq_1 v1010))
theorem k0_off101_inb : ∀ (v1010 : BitVec 32) (k0_hw99 : k0_chk99 v1010), ∀ a, (k0_off101 v1010) a + S1x1x32.size a ≤ S26x100001x32.size a := fun v1010 k0_hw99 => k0_hw99

def k0_off102 (v1020 : BitVec 32) : Fin 3 → Nat :=
  let c21_i32_791 : BitVec 32 := 21#32
  let c0_i32_796 : BitVec 32 := 0#32
  ![21, v1020.toNat, 0]

def k0_chk100 (v1020 : BitVec 32) : Prop :=
  (∀ a, (k0_off102 v1020) a + S1x1x32.size a ≤ S26x100001x32.size a)
instance k0_chk100.dec : ∀ (v1020 : BitVec 32), Decidable (k0_chk100 v1020) := fun v1020 => decidable_of_iff' _ (Iff.of_eq (k0_chk100.eq_1 v1020))
theorem k0_off102_inb : ∀ (v1020 : BitVec 32) (k0_hw100 : k0_chk100 v1020), ∀ a, (k0_off102 v1020) a + S1x1x32.size a ≤ S26x100001x32.size a := fun v1020 k0_hw100 => k0_hw100

def k0_off103 (v1030 : BitVec 32) : Fin 3 → Nat :=
  let c22_i32_799 : BitVec 32 := 22#32
  let c0_i32_804 : BitVec 32 := 0#32
  ![22, v1030.toNat, 0]

def k0_chk101 (v1030 : BitVec 32) : Prop :=
  (∀ a, (k0_off103 v1030) a + S1x1x32.size a ≤ S26x100001x32.size a)
instance k0_chk101.dec : ∀ (v1030 : BitVec 32), Decidable (k0_chk101 v1030) := fun v1030 => decidable_of_iff' _ (Iff.of_eq (k0_chk101.eq_1 v1030))
theorem k0_off103_inb : ∀ (v1030 : BitVec 32) (k0_hw101 : k0_chk101 v1030), ∀ a, (k0_off103 v1030) a + S1x1x32.size a ≤ S26x100001x32.size a := fun v1030 k0_hw101 => k0_hw101

def k0_off104 (v1040 : BitVec 32) : Fin 3 → Nat :=
  let c23_i32_807 : BitVec 32 := 23#32
  let c0_i32_812 : BitVec 32 := 0#32
  ![23, v1040.toNat, 0]

def k0_chk102 (v1040 : BitVec 32) : Prop :=
  (∀ a, (k0_off104 v1040) a + S1x1x32.size a ≤ S26x100001x32.size a)
instance k0_chk102.dec : ∀ (v1040 : BitVec 32), Decidable (k0_chk102 v1040) := fun v1040 => decidable_of_iff' _ (Iff.of_eq (k0_chk102.eq_1 v1040))
theorem k0_off104_inb : ∀ (v1040 : BitVec 32) (k0_hw102 : k0_chk102 v1040), ∀ a, (k0_off104 v1040) a + S1x1x32.size a ≤ S26x100001x32.size a := fun v1040 k0_hw102 => k0_hw102

def k0_off105 (v1050 : BitVec 32) : Fin 3 → Nat :=
  let c24_i32_815 : BitVec 32 := 24#32
  let c0_i32_820 : BitVec 32 := 0#32
  ![24, v1050.toNat, 0]

def k0_chk103 (v1050 : BitVec 32) : Prop :=
  (∀ a, (k0_off105 v1050) a + S1x1x32.size a ≤ S26x100001x32.size a)
instance k0_chk103.dec : ∀ (v1050 : BitVec 32), Decidable (k0_chk103 v1050) := fun v1050 => decidable_of_iff' _ (Iff.of_eq (k0_chk103.eq_1 v1050))
theorem k0_off105_inb : ∀ (v1050 : BitVec 32) (k0_hw103 : k0_chk103 v1050), ∀ a, (k0_off105 v1050) a + S1x1x32.size a ≤ S26x100001x32.size a := fun v1050 k0_hw103 => k0_hw103

def k0_off106 (v1060 : BitVec 32) : Fin 3 → Nat :=
  let c25_i32_823 : BitVec 32 := 25#32
  let c0_i32_828 : BitVec 32 := 0#32
  ![25, v1060.toNat, 0]

def k0_chk104 (v1060 : BitVec 32) : Prop :=
  (∀ a, (k0_off106 v1060) a + S1x1x32.size a ≤ S26x100001x32.size a)
instance k0_chk104.dec : ∀ (v1060 : BitVec 32), Decidable (k0_chk104 v1060) := fun v1060 => decidable_of_iff' _ (Iff.of_eq (k0_chk104.eq_1 v1060))
theorem k0_off106_inb : ∀ (v1060 : BitVec 32) (k0_hw104 : k0_chk104 v1060), ∀ a, (k0_off106 v1060) a + S1x1x32.size a ≤ S26x100001x32.size a := fun v1060 k0_hw104 => k0_hw104

def k0_off107 (v1076 : BitVec 32) : Fin 3 → Nat :=
  let c0_i32_835 : BitVec 32 := 0#32
  let c0_i32_840 : BitVec 32 := 0#32
  ![0, v1076.toNat, 0]

def k0_chk105 (v1076 : BitVec 32) : Prop :=
  (∀ a, (k0_off107 v1076) a + S1x1x32.size a ≤ S26x100001x32.size a)
instance k0_chk105.dec : ∀ (v1076 : BitVec 32), Decidable (k0_chk105 v1076) := fun v1076 => decidable_of_iff' _ (Iff.of_eq (k0_chk105.eq_1 v1076))
theorem k0_off107_inb : ∀ (v1076 : BitVec 32) (k0_hw105 : k0_chk105 v1076), ∀ a, (k0_off107 v1076) a + S1x1x32.size a ≤ S26x100001x32.size a := fun v1076 k0_hw105 => k0_hw105

def k0_off108 (v1086 : BitVec 32) : Fin 3 → Nat :=
  let c1_i32_843 : BitVec 32 := 1#32
  let c0_i32_848 : BitVec 32 := 0#32
  ![1, v1086.toNat, 0]

def k0_chk106 (v1086 : BitVec 32) : Prop :=
  (∀ a, (k0_off108 v1086) a + S1x1x32.size a ≤ S26x100001x32.size a)
instance k0_chk106.dec : ∀ (v1086 : BitVec 32), Decidable (k0_chk106 v1086) := fun v1086 => decidable_of_iff' _ (Iff.of_eq (k0_chk106.eq_1 v1086))
theorem k0_off108_inb : ∀ (v1086 : BitVec 32) (k0_hw106 : k0_chk106 v1086), ∀ a, (k0_off108 v1086) a + S1x1x32.size a ≤ S26x100001x32.size a := fun v1086 k0_hw106 => k0_hw106

def k0_off109 (v1096 : BitVec 32) : Fin 3 → Nat :=
  let c2_i32_851 : BitVec 32 := 2#32
  let c0_i32_856 : BitVec 32 := 0#32
  ![2, v1096.toNat, 0]

def k0_chk107 (v1096 : BitVec 32) : Prop :=
  (∀ a, (k0_off109 v1096) a + S1x1x32.size a ≤ S26x100001x32.size a)
instance k0_chk107.dec : ∀ (v1096 : BitVec 32), Decidable (k0_chk107 v1096) := fun v1096 => decidable_of_iff' _ (Iff.of_eq (k0_chk107.eq_1 v1096))
theorem k0_off109_inb : ∀ (v1096 : BitVec 32) (k0_hw107 : k0_chk107 v1096), ∀ a, (k0_off109 v1096) a + S1x1x32.size a ≤ S26x100001x32.size a := fun v1096 k0_hw107 => k0_hw107

def k0_off110 (v1106 : BitVec 32) : Fin 3 → Nat :=
  let c3_i32_859 : BitVec 32 := 3#32
  let c0_i32_864 : BitVec 32 := 0#32
  ![3, v1106.toNat, 0]

def k0_chk108 (v1106 : BitVec 32) : Prop :=
  (∀ a, (k0_off110 v1106) a + S1x1x32.size a ≤ S26x100001x32.size a)
instance k0_chk108.dec : ∀ (v1106 : BitVec 32), Decidable (k0_chk108 v1106) := fun v1106 => decidable_of_iff' _ (Iff.of_eq (k0_chk108.eq_1 v1106))
theorem k0_off110_inb : ∀ (v1106 : BitVec 32) (k0_hw108 : k0_chk108 v1106), ∀ a, (k0_off110 v1106) a + S1x1x32.size a ≤ S26x100001x32.size a := fun v1106 k0_hw108 => k0_hw108

def k0_off111 (v1116 : BitVec 32) : Fin 3 → Nat :=
  let c4_i32_867 : BitVec 32 := 4#32
  let c0_i32_872 : BitVec 32 := 0#32
  ![4, v1116.toNat, 0]

def k0_chk109 (v1116 : BitVec 32) : Prop :=
  (∀ a, (k0_off111 v1116) a + S1x1x32.size a ≤ S26x100001x32.size a)
instance k0_chk109.dec : ∀ (v1116 : BitVec 32), Decidable (k0_chk109 v1116) := fun v1116 => decidable_of_iff' _ (Iff.of_eq (k0_chk109.eq_1 v1116))
theorem k0_off111_inb : ∀ (v1116 : BitVec 32) (k0_hw109 : k0_chk109 v1116), ∀ a, (k0_off111 v1116) a + S1x1x32.size a ≤ S26x100001x32.size a := fun v1116 k0_hw109 => k0_hw109

def k0_off112 (v1126 : BitVec 32) : Fin 3 → Nat :=
  let c5_i32_875 : BitVec 32 := 5#32
  let c0_i32_880 : BitVec 32 := 0#32
  ![5, v1126.toNat, 0]

def k0_chk110 (v1126 : BitVec 32) : Prop :=
  (∀ a, (k0_off112 v1126) a + S1x1x32.size a ≤ S26x100001x32.size a)
instance k0_chk110.dec : ∀ (v1126 : BitVec 32), Decidable (k0_chk110 v1126) := fun v1126 => decidable_of_iff' _ (Iff.of_eq (k0_chk110.eq_1 v1126))
theorem k0_off112_inb : ∀ (v1126 : BitVec 32) (k0_hw110 : k0_chk110 v1126), ∀ a, (k0_off112 v1126) a + S1x1x32.size a ≤ S26x100001x32.size a := fun v1126 k0_hw110 => k0_hw110

def k0_off113 (v1136 : BitVec 32) : Fin 3 → Nat :=
  let c6_i32_883 : BitVec 32 := 6#32
  let c0_i32_888 : BitVec 32 := 0#32
  ![6, v1136.toNat, 0]

def k0_chk111 (v1136 : BitVec 32) : Prop :=
  (∀ a, (k0_off113 v1136) a + S1x1x32.size a ≤ S26x100001x32.size a)
instance k0_chk111.dec : ∀ (v1136 : BitVec 32), Decidable (k0_chk111 v1136) := fun v1136 => decidable_of_iff' _ (Iff.of_eq (k0_chk111.eq_1 v1136))
theorem k0_off113_inb : ∀ (v1136 : BitVec 32) (k0_hw111 : k0_chk111 v1136), ∀ a, (k0_off113 v1136) a + S1x1x32.size a ≤ S26x100001x32.size a := fun v1136 k0_hw111 => k0_hw111

def k0_off114 (v1146 : BitVec 32) : Fin 3 → Nat :=
  let c7_i32_891 : BitVec 32 := 7#32
  let c0_i32_896 : BitVec 32 := 0#32
  ![7, v1146.toNat, 0]

def k0_chk112 (v1146 : BitVec 32) : Prop :=
  (∀ a, (k0_off114 v1146) a + S1x1x32.size a ≤ S26x100001x32.size a)
instance k0_chk112.dec : ∀ (v1146 : BitVec 32), Decidable (k0_chk112 v1146) := fun v1146 => decidable_of_iff' _ (Iff.of_eq (k0_chk112.eq_1 v1146))
theorem k0_off114_inb : ∀ (v1146 : BitVec 32) (k0_hw112 : k0_chk112 v1146), ∀ a, (k0_off114 v1146) a + S1x1x32.size a ≤ S26x100001x32.size a := fun v1146 k0_hw112 => k0_hw112

def k0_off115 (v1156 : BitVec 32) : Fin 3 → Nat :=
  let c8_i32_899 : BitVec 32 := 8#32
  let c0_i32_904 : BitVec 32 := 0#32
  ![8, v1156.toNat, 0]

def k0_chk113 (v1156 : BitVec 32) : Prop :=
  (∀ a, (k0_off115 v1156) a + S1x1x32.size a ≤ S26x100001x32.size a)
instance k0_chk113.dec : ∀ (v1156 : BitVec 32), Decidable (k0_chk113 v1156) := fun v1156 => decidable_of_iff' _ (Iff.of_eq (k0_chk113.eq_1 v1156))
theorem k0_off115_inb : ∀ (v1156 : BitVec 32) (k0_hw113 : k0_chk113 v1156), ∀ a, (k0_off115 v1156) a + S1x1x32.size a ≤ S26x100001x32.size a := fun v1156 k0_hw113 => k0_hw113

def k0_off116 (v1166 : BitVec 32) : Fin 3 → Nat :=
  let c9_i32_907 : BitVec 32 := 9#32
  let c0_i32_912 : BitVec 32 := 0#32
  ![9, v1166.toNat, 0]

def k0_chk114 (v1166 : BitVec 32) : Prop :=
  (∀ a, (k0_off116 v1166) a + S1x1x32.size a ≤ S26x100001x32.size a)
instance k0_chk114.dec : ∀ (v1166 : BitVec 32), Decidable (k0_chk114 v1166) := fun v1166 => decidable_of_iff' _ (Iff.of_eq (k0_chk114.eq_1 v1166))
theorem k0_off116_inb : ∀ (v1166 : BitVec 32) (k0_hw114 : k0_chk114 v1166), ∀ a, (k0_off116 v1166) a + S1x1x32.size a ≤ S26x100001x32.size a := fun v1166 k0_hw114 => k0_hw114

def k0_off117 (v1176 : BitVec 32) : Fin 3 → Nat :=
  let c10_i32_915 : BitVec 32 := 10#32
  let c0_i32_920 : BitVec 32 := 0#32
  ![10, v1176.toNat, 0]

def k0_chk115 (v1176 : BitVec 32) : Prop :=
  (∀ a, (k0_off117 v1176) a + S1x1x32.size a ≤ S26x100001x32.size a)
instance k0_chk115.dec : ∀ (v1176 : BitVec 32), Decidable (k0_chk115 v1176) := fun v1176 => decidable_of_iff' _ (Iff.of_eq (k0_chk115.eq_1 v1176))
theorem k0_off117_inb : ∀ (v1176 : BitVec 32) (k0_hw115 : k0_chk115 v1176), ∀ a, (k0_off117 v1176) a + S1x1x32.size a ≤ S26x100001x32.size a := fun v1176 k0_hw115 => k0_hw115

def k0_off118 (v1186 : BitVec 32) : Fin 3 → Nat :=
  let c11_i32_923 : BitVec 32 := 11#32
  let c0_i32_928 : BitVec 32 := 0#32
  ![11, v1186.toNat, 0]

def k0_chk116 (v1186 : BitVec 32) : Prop :=
  (∀ a, (k0_off118 v1186) a + S1x1x32.size a ≤ S26x100001x32.size a)
instance k0_chk116.dec : ∀ (v1186 : BitVec 32), Decidable (k0_chk116 v1186) := fun v1186 => decidable_of_iff' _ (Iff.of_eq (k0_chk116.eq_1 v1186))
theorem k0_off118_inb : ∀ (v1186 : BitVec 32) (k0_hw116 : k0_chk116 v1186), ∀ a, (k0_off118 v1186) a + S1x1x32.size a ≤ S26x100001x32.size a := fun v1186 k0_hw116 => k0_hw116

def k0_off119 (v1196 : BitVec 32) : Fin 3 → Nat :=
  let c12_i32_931 : BitVec 32 := 12#32
  let c0_i32_936 : BitVec 32 := 0#32
  ![12, v1196.toNat, 0]

def k0_chk117 (v1196 : BitVec 32) : Prop :=
  (∀ a, (k0_off119 v1196) a + S1x1x32.size a ≤ S26x100001x32.size a)
instance k0_chk117.dec : ∀ (v1196 : BitVec 32), Decidable (k0_chk117 v1196) := fun v1196 => decidable_of_iff' _ (Iff.of_eq (k0_chk117.eq_1 v1196))
theorem k0_off119_inb : ∀ (v1196 : BitVec 32) (k0_hw117 : k0_chk117 v1196), ∀ a, (k0_off119 v1196) a + S1x1x32.size a ≤ S26x100001x32.size a := fun v1196 k0_hw117 => k0_hw117

def k0_off120 (v1206 : BitVec 32) : Fin 3 → Nat :=
  let c13_i32_939 : BitVec 32 := 13#32
  let c0_i32_944 : BitVec 32 := 0#32
  ![13, v1206.toNat, 0]

def k0_chk118 (v1206 : BitVec 32) : Prop :=
  (∀ a, (k0_off120 v1206) a + S1x1x32.size a ≤ S26x100001x32.size a)
instance k0_chk118.dec : ∀ (v1206 : BitVec 32), Decidable (k0_chk118 v1206) := fun v1206 => decidable_of_iff' _ (Iff.of_eq (k0_chk118.eq_1 v1206))
theorem k0_off120_inb : ∀ (v1206 : BitVec 32) (k0_hw118 : k0_chk118 v1206), ∀ a, (k0_off120 v1206) a + S1x1x32.size a ≤ S26x100001x32.size a := fun v1206 k0_hw118 => k0_hw118

def k0_off121 (v1216 : BitVec 32) : Fin 3 → Nat :=
  let c14_i32_947 : BitVec 32 := 14#32
  let c0_i32_952 : BitVec 32 := 0#32
  ![14, v1216.toNat, 0]

def k0_chk119 (v1216 : BitVec 32) : Prop :=
  (∀ a, (k0_off121 v1216) a + S1x1x32.size a ≤ S26x100001x32.size a)
instance k0_chk119.dec : ∀ (v1216 : BitVec 32), Decidable (k0_chk119 v1216) := fun v1216 => decidable_of_iff' _ (Iff.of_eq (k0_chk119.eq_1 v1216))
theorem k0_off121_inb : ∀ (v1216 : BitVec 32) (k0_hw119 : k0_chk119 v1216), ∀ a, (k0_off121 v1216) a + S1x1x32.size a ≤ S26x100001x32.size a := fun v1216 k0_hw119 => k0_hw119

def k0_off122 (v1226 : BitVec 32) : Fin 3 → Nat :=
  let c15_i32_955 : BitVec 32 := 15#32
  let c0_i32_960 : BitVec 32 := 0#32
  ![15, v1226.toNat, 0]

def k0_chk120 (v1226 : BitVec 32) : Prop :=
  (∀ a, (k0_off122 v1226) a + S1x1x32.size a ≤ S26x100001x32.size a)
instance k0_chk120.dec : ∀ (v1226 : BitVec 32), Decidable (k0_chk120 v1226) := fun v1226 => decidable_of_iff' _ (Iff.of_eq (k0_chk120.eq_1 v1226))
theorem k0_off122_inb : ∀ (v1226 : BitVec 32) (k0_hw120 : k0_chk120 v1226), ∀ a, (k0_off122 v1226) a + S1x1x32.size a ≤ S26x100001x32.size a := fun v1226 k0_hw120 => k0_hw120

def k0_off123 (v1236 : BitVec 32) : Fin 3 → Nat :=
  let c16_i32_963 : BitVec 32 := 16#32
  let c0_i32_968 : BitVec 32 := 0#32
  ![16, v1236.toNat, 0]

def k0_chk121 (v1236 : BitVec 32) : Prop :=
  (∀ a, (k0_off123 v1236) a + S1x1x32.size a ≤ S26x100001x32.size a)
instance k0_chk121.dec : ∀ (v1236 : BitVec 32), Decidable (k0_chk121 v1236) := fun v1236 => decidable_of_iff' _ (Iff.of_eq (k0_chk121.eq_1 v1236))
theorem k0_off123_inb : ∀ (v1236 : BitVec 32) (k0_hw121 : k0_chk121 v1236), ∀ a, (k0_off123 v1236) a + S1x1x32.size a ≤ S26x100001x32.size a := fun v1236 k0_hw121 => k0_hw121

def k0_off124 (v1246 : BitVec 32) : Fin 3 → Nat :=
  let c17_i32_971 : BitVec 32 := 17#32
  let c0_i32_976 : BitVec 32 := 0#32
  ![17, v1246.toNat, 0]

def k0_chk122 (v1246 : BitVec 32) : Prop :=
  (∀ a, (k0_off124 v1246) a + S1x1x32.size a ≤ S26x100001x32.size a)
instance k0_chk122.dec : ∀ (v1246 : BitVec 32), Decidable (k0_chk122 v1246) := fun v1246 => decidable_of_iff' _ (Iff.of_eq (k0_chk122.eq_1 v1246))
theorem k0_off124_inb : ∀ (v1246 : BitVec 32) (k0_hw122 : k0_chk122 v1246), ∀ a, (k0_off124 v1246) a + S1x1x32.size a ≤ S26x100001x32.size a := fun v1246 k0_hw122 => k0_hw122

def k0_off125 (v1256 : BitVec 32) : Fin 3 → Nat :=
  let c18_i32_979 : BitVec 32 := 18#32
  let c0_i32_984 : BitVec 32 := 0#32
  ![18, v1256.toNat, 0]

def k0_chk123 (v1256 : BitVec 32) : Prop :=
  (∀ a, (k0_off125 v1256) a + S1x1x32.size a ≤ S26x100001x32.size a)
instance k0_chk123.dec : ∀ (v1256 : BitVec 32), Decidable (k0_chk123 v1256) := fun v1256 => decidable_of_iff' _ (Iff.of_eq (k0_chk123.eq_1 v1256))
theorem k0_off125_inb : ∀ (v1256 : BitVec 32) (k0_hw123 : k0_chk123 v1256), ∀ a, (k0_off125 v1256) a + S1x1x32.size a ≤ S26x100001x32.size a := fun v1256 k0_hw123 => k0_hw123

def k0_off126 (v1266 : BitVec 32) : Fin 3 → Nat :=
  let c19_i32_987 : BitVec 32 := 19#32
  let c0_i32_992 : BitVec 32 := 0#32
  ![19, v1266.toNat, 0]

def k0_chk124 (v1266 : BitVec 32) : Prop :=
  (∀ a, (k0_off126 v1266) a + S1x1x32.size a ≤ S26x100001x32.size a)
instance k0_chk124.dec : ∀ (v1266 : BitVec 32), Decidable (k0_chk124 v1266) := fun v1266 => decidable_of_iff' _ (Iff.of_eq (k0_chk124.eq_1 v1266))
theorem k0_off126_inb : ∀ (v1266 : BitVec 32) (k0_hw124 : k0_chk124 v1266), ∀ a, (k0_off126 v1266) a + S1x1x32.size a ≤ S26x100001x32.size a := fun v1266 k0_hw124 => k0_hw124

def k0_off127 (v1276 : BitVec 32) : Fin 3 → Nat :=
  let c20_i32_995 : BitVec 32 := 20#32
  let c0_i32_1000 : BitVec 32 := 0#32
  ![20, v1276.toNat, 0]

def k0_chk125 (v1276 : BitVec 32) : Prop :=
  (∀ a, (k0_off127 v1276) a + S1x1x32.size a ≤ S26x100001x32.size a)
instance k0_chk125.dec : ∀ (v1276 : BitVec 32), Decidable (k0_chk125 v1276) := fun v1276 => decidable_of_iff' _ (Iff.of_eq (k0_chk125.eq_1 v1276))
theorem k0_off127_inb : ∀ (v1276 : BitVec 32) (k0_hw125 : k0_chk125 v1276), ∀ a, (k0_off127 v1276) a + S1x1x32.size a ≤ S26x100001x32.size a := fun v1276 k0_hw125 => k0_hw125

def k0_off128 (v1286 : BitVec 32) : Fin 3 → Nat :=
  let c21_i32_1003 : BitVec 32 := 21#32
  let c0_i32_1008 : BitVec 32 := 0#32
  ![21, v1286.toNat, 0]

def k0_chk126 (v1286 : BitVec 32) : Prop :=
  (∀ a, (k0_off128 v1286) a + S1x1x32.size a ≤ S26x100001x32.size a)
instance k0_chk126.dec : ∀ (v1286 : BitVec 32), Decidable (k0_chk126 v1286) := fun v1286 => decidable_of_iff' _ (Iff.of_eq (k0_chk126.eq_1 v1286))
theorem k0_off128_inb : ∀ (v1286 : BitVec 32) (k0_hw126 : k0_chk126 v1286), ∀ a, (k0_off128 v1286) a + S1x1x32.size a ≤ S26x100001x32.size a := fun v1286 k0_hw126 => k0_hw126

def k0_off129 (v1296 : BitVec 32) : Fin 3 → Nat :=
  let c22_i32_1011 : BitVec 32 := 22#32
  let c0_i32_1016 : BitVec 32 := 0#32
  ![22, v1296.toNat, 0]

def k0_chk127 (v1296 : BitVec 32) : Prop :=
  (∀ a, (k0_off129 v1296) a + S1x1x32.size a ≤ S26x100001x32.size a)
instance k0_chk127.dec : ∀ (v1296 : BitVec 32), Decidable (k0_chk127 v1296) := fun v1296 => decidable_of_iff' _ (Iff.of_eq (k0_chk127.eq_1 v1296))
theorem k0_off129_inb : ∀ (v1296 : BitVec 32) (k0_hw127 : k0_chk127 v1296), ∀ a, (k0_off129 v1296) a + S1x1x32.size a ≤ S26x100001x32.size a := fun v1296 k0_hw127 => k0_hw127

def k0_off130 (v1306 : BitVec 32) : Fin 3 → Nat :=
  let c23_i32_1019 : BitVec 32 := 23#32
  let c0_i32_1024 : BitVec 32 := 0#32
  ![23, v1306.toNat, 0]

def k0_chk128 (v1306 : BitVec 32) : Prop :=
  (∀ a, (k0_off130 v1306) a + S1x1x32.size a ≤ S26x100001x32.size a)
instance k0_chk128.dec : ∀ (v1306 : BitVec 32), Decidable (k0_chk128 v1306) := fun v1306 => decidable_of_iff' _ (Iff.of_eq (k0_chk128.eq_1 v1306))
theorem k0_off130_inb : ∀ (v1306 : BitVec 32) (k0_hw128 : k0_chk128 v1306), ∀ a, (k0_off130 v1306) a + S1x1x32.size a ≤ S26x100001x32.size a := fun v1306 k0_hw128 => k0_hw128

def k0_off131 (v1316 : BitVec 32) : Fin 3 → Nat :=
  let c24_i32_1027 : BitVec 32 := 24#32
  let c0_i32_1032 : BitVec 32 := 0#32
  ![24, v1316.toNat, 0]

def k0_chk129 (v1316 : BitVec 32) : Prop :=
  (∀ a, (k0_off131 v1316) a + S1x1x32.size a ≤ S26x100001x32.size a)
instance k0_chk129.dec : ∀ (v1316 : BitVec 32), Decidable (k0_chk129 v1316) := fun v1316 => decidable_of_iff' _ (Iff.of_eq (k0_chk129.eq_1 v1316))
theorem k0_off131_inb : ∀ (v1316 : BitVec 32) (k0_hw129 : k0_chk129 v1316), ∀ a, (k0_off131 v1316) a + S1x1x32.size a ≤ S26x100001x32.size a := fun v1316 k0_hw129 => k0_hw129

def k0_off132 (v1326 : BitVec 32) : Fin 3 → Nat :=
  let c25_i32_1035 : BitVec 32 := 25#32
  let c0_i32_1040 : BitVec 32 := 0#32
  ![25, v1326.toNat, 0]

def k0_chk130 (v1326 : BitVec 32) : Prop :=
  (∀ a, (k0_off132 v1326) a + S1x1x32.size a ≤ S26x100001x32.size a)
instance k0_chk130.dec : ∀ (v1326 : BitVec 32), Decidable (k0_chk130 v1326) := fun v1326 => decidable_of_iff' _ (Iff.of_eq (k0_chk130.eq_1 v1326))
theorem k0_off132_inb : ∀ (v1326 : BitVec 32) (k0_hw130 : k0_chk130 v1326), ∀ a, (k0_off132 v1326) a + S1x1x32.size a ≤ S26x100001x32.size a := fun v1326 k0_hw130 => k0_hw130

def k0_off133 (v1342 : BitVec 32) : Fin 3 → Nat :=
  let c0_i32_1047 : BitVec 32 := 0#32
  let c0_i32_1052 : BitVec 32 := 0#32
  ![0, v1342.toNat, 0]

def k0_chk131 (v1342 : BitVec 32) : Prop :=
  (∀ a, (k0_off133 v1342) a + S1x1x32.size a ≤ S26x100001x32.size a)
instance k0_chk131.dec : ∀ (v1342 : BitVec 32), Decidable (k0_chk131 v1342) := fun v1342 => decidable_of_iff' _ (Iff.of_eq (k0_chk131.eq_1 v1342))
theorem k0_off133_inb : ∀ (v1342 : BitVec 32) (k0_hw131 : k0_chk131 v1342), ∀ a, (k0_off133 v1342) a + S1x1x32.size a ≤ S26x100001x32.size a := fun v1342 k0_hw131 => k0_hw131

def k0_off134 (v1352 : BitVec 32) : Fin 3 → Nat :=
  let c1_i32_1055 : BitVec 32 := 1#32
  let c0_i32_1060 : BitVec 32 := 0#32
  ![1, v1352.toNat, 0]

def k0_chk132 (v1352 : BitVec 32) : Prop :=
  (∀ a, (k0_off134 v1352) a + S1x1x32.size a ≤ S26x100001x32.size a)
instance k0_chk132.dec : ∀ (v1352 : BitVec 32), Decidable (k0_chk132 v1352) := fun v1352 => decidable_of_iff' _ (Iff.of_eq (k0_chk132.eq_1 v1352))
theorem k0_off134_inb : ∀ (v1352 : BitVec 32) (k0_hw132 : k0_chk132 v1352), ∀ a, (k0_off134 v1352) a + S1x1x32.size a ≤ S26x100001x32.size a := fun v1352 k0_hw132 => k0_hw132

def k0_off135 (v1362 : BitVec 32) : Fin 3 → Nat :=
  let c2_i32_1063 : BitVec 32 := 2#32
  let c0_i32_1068 : BitVec 32 := 0#32
  ![2, v1362.toNat, 0]

def k0_chk133 (v1362 : BitVec 32) : Prop :=
  (∀ a, (k0_off135 v1362) a + S1x1x32.size a ≤ S26x100001x32.size a)
instance k0_chk133.dec : ∀ (v1362 : BitVec 32), Decidable (k0_chk133 v1362) := fun v1362 => decidable_of_iff' _ (Iff.of_eq (k0_chk133.eq_1 v1362))
theorem k0_off135_inb : ∀ (v1362 : BitVec 32) (k0_hw133 : k0_chk133 v1362), ∀ a, (k0_off135 v1362) a + S1x1x32.size a ≤ S26x100001x32.size a := fun v1362 k0_hw133 => k0_hw133

def k0_off136 (v1372 : BitVec 32) : Fin 3 → Nat :=
  let c3_i32_1071 : BitVec 32 := 3#32
  let c0_i32_1076 : BitVec 32 := 0#32
  ![3, v1372.toNat, 0]

def k0_chk134 (v1372 : BitVec 32) : Prop :=
  (∀ a, (k0_off136 v1372) a + S1x1x32.size a ≤ S26x100001x32.size a)
instance k0_chk134.dec : ∀ (v1372 : BitVec 32), Decidable (k0_chk134 v1372) := fun v1372 => decidable_of_iff' _ (Iff.of_eq (k0_chk134.eq_1 v1372))
theorem k0_off136_inb : ∀ (v1372 : BitVec 32) (k0_hw134 : k0_chk134 v1372), ∀ a, (k0_off136 v1372) a + S1x1x32.size a ≤ S26x100001x32.size a := fun v1372 k0_hw134 => k0_hw134

def k0_off137 (v1382 : BitVec 32) : Fin 3 → Nat :=
  let c4_i32_1079 : BitVec 32 := 4#32
  let c0_i32_1084 : BitVec 32 := 0#32
  ![4, v1382.toNat, 0]

def k0_chk135 (v1382 : BitVec 32) : Prop :=
  (∀ a, (k0_off137 v1382) a + S1x1x32.size a ≤ S26x100001x32.size a)
instance k0_chk135.dec : ∀ (v1382 : BitVec 32), Decidable (k0_chk135 v1382) := fun v1382 => decidable_of_iff' _ (Iff.of_eq (k0_chk135.eq_1 v1382))
theorem k0_off137_inb : ∀ (v1382 : BitVec 32) (k0_hw135 : k0_chk135 v1382), ∀ a, (k0_off137 v1382) a + S1x1x32.size a ≤ S26x100001x32.size a := fun v1382 k0_hw135 => k0_hw135

def k0_off138 (v1392 : BitVec 32) : Fin 3 → Nat :=
  let c5_i32_1087 : BitVec 32 := 5#32
  let c0_i32_1092 : BitVec 32 := 0#32
  ![5, v1392.toNat, 0]

def k0_chk136 (v1392 : BitVec 32) : Prop :=
  (∀ a, (k0_off138 v1392) a + S1x1x32.size a ≤ S26x100001x32.size a)
instance k0_chk136.dec : ∀ (v1392 : BitVec 32), Decidable (k0_chk136 v1392) := fun v1392 => decidable_of_iff' _ (Iff.of_eq (k0_chk136.eq_1 v1392))
theorem k0_off138_inb : ∀ (v1392 : BitVec 32) (k0_hw136 : k0_chk136 v1392), ∀ a, (k0_off138 v1392) a + S1x1x32.size a ≤ S26x100001x32.size a := fun v1392 k0_hw136 => k0_hw136

def k0_off139 (v1402 : BitVec 32) : Fin 3 → Nat :=
  let c6_i32_1095 : BitVec 32 := 6#32
  let c0_i32_1100 : BitVec 32 := 0#32
  ![6, v1402.toNat, 0]

def k0_chk137 (v1402 : BitVec 32) : Prop :=
  (∀ a, (k0_off139 v1402) a + S1x1x32.size a ≤ S26x100001x32.size a)
instance k0_chk137.dec : ∀ (v1402 : BitVec 32), Decidable (k0_chk137 v1402) := fun v1402 => decidable_of_iff' _ (Iff.of_eq (k0_chk137.eq_1 v1402))
theorem k0_off139_inb : ∀ (v1402 : BitVec 32) (k0_hw137 : k0_chk137 v1402), ∀ a, (k0_off139 v1402) a + S1x1x32.size a ≤ S26x100001x32.size a := fun v1402 k0_hw137 => k0_hw137

def k0_off140 (v1412 : BitVec 32) : Fin 3 → Nat :=
  let c7_i32_1103 : BitVec 32 := 7#32
  let c0_i32_1108 : BitVec 32 := 0#32
  ![7, v1412.toNat, 0]

def k0_chk138 (v1412 : BitVec 32) : Prop :=
  (∀ a, (k0_off140 v1412) a + S1x1x32.size a ≤ S26x100001x32.size a)
instance k0_chk138.dec : ∀ (v1412 : BitVec 32), Decidable (k0_chk138 v1412) := fun v1412 => decidable_of_iff' _ (Iff.of_eq (k0_chk138.eq_1 v1412))
theorem k0_off140_inb : ∀ (v1412 : BitVec 32) (k0_hw138 : k0_chk138 v1412), ∀ a, (k0_off140 v1412) a + S1x1x32.size a ≤ S26x100001x32.size a := fun v1412 k0_hw138 => k0_hw138

def k0_off141 (v1422 : BitVec 32) : Fin 3 → Nat :=
  let c8_i32_1111 : BitVec 32 := 8#32
  let c0_i32_1116 : BitVec 32 := 0#32
  ![8, v1422.toNat, 0]

def k0_chk139 (v1422 : BitVec 32) : Prop :=
  (∀ a, (k0_off141 v1422) a + S1x1x32.size a ≤ S26x100001x32.size a)
instance k0_chk139.dec : ∀ (v1422 : BitVec 32), Decidable (k0_chk139 v1422) := fun v1422 => decidable_of_iff' _ (Iff.of_eq (k0_chk139.eq_1 v1422))
theorem k0_off141_inb : ∀ (v1422 : BitVec 32) (k0_hw139 : k0_chk139 v1422), ∀ a, (k0_off141 v1422) a + S1x1x32.size a ≤ S26x100001x32.size a := fun v1422 k0_hw139 => k0_hw139

def k0_off142 (v1432 : BitVec 32) : Fin 3 → Nat :=
  let c9_i32_1119 : BitVec 32 := 9#32
  let c0_i32_1124 : BitVec 32 := 0#32
  ![9, v1432.toNat, 0]

def k0_chk140 (v1432 : BitVec 32) : Prop :=
  (∀ a, (k0_off142 v1432) a + S1x1x32.size a ≤ S26x100001x32.size a)
instance k0_chk140.dec : ∀ (v1432 : BitVec 32), Decidable (k0_chk140 v1432) := fun v1432 => decidable_of_iff' _ (Iff.of_eq (k0_chk140.eq_1 v1432))
theorem k0_off142_inb : ∀ (v1432 : BitVec 32) (k0_hw140 : k0_chk140 v1432), ∀ a, (k0_off142 v1432) a + S1x1x32.size a ≤ S26x100001x32.size a := fun v1432 k0_hw140 => k0_hw140

def k0_off143 (v1442 : BitVec 32) : Fin 3 → Nat :=
  let c10_i32_1127 : BitVec 32 := 10#32
  let c0_i32_1132 : BitVec 32 := 0#32
  ![10, v1442.toNat, 0]

def k0_chk141 (v1442 : BitVec 32) : Prop :=
  (∀ a, (k0_off143 v1442) a + S1x1x32.size a ≤ S26x100001x32.size a)
instance k0_chk141.dec : ∀ (v1442 : BitVec 32), Decidable (k0_chk141 v1442) := fun v1442 => decidable_of_iff' _ (Iff.of_eq (k0_chk141.eq_1 v1442))
theorem k0_off143_inb : ∀ (v1442 : BitVec 32) (k0_hw141 : k0_chk141 v1442), ∀ a, (k0_off143 v1442) a + S1x1x32.size a ≤ S26x100001x32.size a := fun v1442 k0_hw141 => k0_hw141

def k0_off144 (v1452 : BitVec 32) : Fin 3 → Nat :=
  let c11_i32_1135 : BitVec 32 := 11#32
  let c0_i32_1140 : BitVec 32 := 0#32
  ![11, v1452.toNat, 0]

def k0_chk142 (v1452 : BitVec 32) : Prop :=
  (∀ a, (k0_off144 v1452) a + S1x1x32.size a ≤ S26x100001x32.size a)
instance k0_chk142.dec : ∀ (v1452 : BitVec 32), Decidable (k0_chk142 v1452) := fun v1452 => decidable_of_iff' _ (Iff.of_eq (k0_chk142.eq_1 v1452))
theorem k0_off144_inb : ∀ (v1452 : BitVec 32) (k0_hw142 : k0_chk142 v1452), ∀ a, (k0_off144 v1452) a + S1x1x32.size a ≤ S26x100001x32.size a := fun v1452 k0_hw142 => k0_hw142

def k0_off145 (v1462 : BitVec 32) : Fin 3 → Nat :=
  let c12_i32_1143 : BitVec 32 := 12#32
  let c0_i32_1148 : BitVec 32 := 0#32
  ![12, v1462.toNat, 0]

def k0_chk143 (v1462 : BitVec 32) : Prop :=
  (∀ a, (k0_off145 v1462) a + S1x1x32.size a ≤ S26x100001x32.size a)
instance k0_chk143.dec : ∀ (v1462 : BitVec 32), Decidable (k0_chk143 v1462) := fun v1462 => decidable_of_iff' _ (Iff.of_eq (k0_chk143.eq_1 v1462))
theorem k0_off145_inb : ∀ (v1462 : BitVec 32) (k0_hw143 : k0_chk143 v1462), ∀ a, (k0_off145 v1462) a + S1x1x32.size a ≤ S26x100001x32.size a := fun v1462 k0_hw143 => k0_hw143

def k0_off146 (v1472 : BitVec 32) : Fin 3 → Nat :=
  let c13_i32_1151 : BitVec 32 := 13#32
  let c0_i32_1156 : BitVec 32 := 0#32
  ![13, v1472.toNat, 0]

def k0_chk144 (v1472 : BitVec 32) : Prop :=
  (∀ a, (k0_off146 v1472) a + S1x1x32.size a ≤ S26x100001x32.size a)
instance k0_chk144.dec : ∀ (v1472 : BitVec 32), Decidable (k0_chk144 v1472) := fun v1472 => decidable_of_iff' _ (Iff.of_eq (k0_chk144.eq_1 v1472))
theorem k0_off146_inb : ∀ (v1472 : BitVec 32) (k0_hw144 : k0_chk144 v1472), ∀ a, (k0_off146 v1472) a + S1x1x32.size a ≤ S26x100001x32.size a := fun v1472 k0_hw144 => k0_hw144

def k0_off147 (v1482 : BitVec 32) : Fin 3 → Nat :=
  let c14_i32_1159 : BitVec 32 := 14#32
  let c0_i32_1164 : BitVec 32 := 0#32
  ![14, v1482.toNat, 0]

def k0_chk145 (v1482 : BitVec 32) : Prop :=
  (∀ a, (k0_off147 v1482) a + S1x1x32.size a ≤ S26x100001x32.size a)
instance k0_chk145.dec : ∀ (v1482 : BitVec 32), Decidable (k0_chk145 v1482) := fun v1482 => decidable_of_iff' _ (Iff.of_eq (k0_chk145.eq_1 v1482))
theorem k0_off147_inb : ∀ (v1482 : BitVec 32) (k0_hw145 : k0_chk145 v1482), ∀ a, (k0_off147 v1482) a + S1x1x32.size a ≤ S26x100001x32.size a := fun v1482 k0_hw145 => k0_hw145

def k0_off148 (v1492 : BitVec 32) : Fin 3 → Nat :=
  let c15_i32_1167 : BitVec 32 := 15#32
  let c0_i32_1172 : BitVec 32 := 0#32
  ![15, v1492.toNat, 0]

def k0_chk146 (v1492 : BitVec 32) : Prop :=
  (∀ a, (k0_off148 v1492) a + S1x1x32.size a ≤ S26x100001x32.size a)
instance k0_chk146.dec : ∀ (v1492 : BitVec 32), Decidable (k0_chk146 v1492) := fun v1492 => decidable_of_iff' _ (Iff.of_eq (k0_chk146.eq_1 v1492))
theorem k0_off148_inb : ∀ (v1492 : BitVec 32) (k0_hw146 : k0_chk146 v1492), ∀ a, (k0_off148 v1492) a + S1x1x32.size a ≤ S26x100001x32.size a := fun v1492 k0_hw146 => k0_hw146

def k0_off149 (v1502 : BitVec 32) : Fin 3 → Nat :=
  let c16_i32_1175 : BitVec 32 := 16#32
  let c0_i32_1180 : BitVec 32 := 0#32
  ![16, v1502.toNat, 0]

def k0_chk147 (v1502 : BitVec 32) : Prop :=
  (∀ a, (k0_off149 v1502) a + S1x1x32.size a ≤ S26x100001x32.size a)
instance k0_chk147.dec : ∀ (v1502 : BitVec 32), Decidable (k0_chk147 v1502) := fun v1502 => decidable_of_iff' _ (Iff.of_eq (k0_chk147.eq_1 v1502))
theorem k0_off149_inb : ∀ (v1502 : BitVec 32) (k0_hw147 : k0_chk147 v1502), ∀ a, (k0_off149 v1502) a + S1x1x32.size a ≤ S26x100001x32.size a := fun v1502 k0_hw147 => k0_hw147

def k0_off150 (v1512 : BitVec 32) : Fin 3 → Nat :=
  let c17_i32_1183 : BitVec 32 := 17#32
  let c0_i32_1188 : BitVec 32 := 0#32
  ![17, v1512.toNat, 0]

def k0_chk148 (v1512 : BitVec 32) : Prop :=
  (∀ a, (k0_off150 v1512) a + S1x1x32.size a ≤ S26x100001x32.size a)
instance k0_chk148.dec : ∀ (v1512 : BitVec 32), Decidable (k0_chk148 v1512) := fun v1512 => decidable_of_iff' _ (Iff.of_eq (k0_chk148.eq_1 v1512))
theorem k0_off150_inb : ∀ (v1512 : BitVec 32) (k0_hw148 : k0_chk148 v1512), ∀ a, (k0_off150 v1512) a + S1x1x32.size a ≤ S26x100001x32.size a := fun v1512 k0_hw148 => k0_hw148

def k0_off151 (v1522 : BitVec 32) : Fin 3 → Nat :=
  let c18_i32_1191 : BitVec 32 := 18#32
  let c0_i32_1196 : BitVec 32 := 0#32
  ![18, v1522.toNat, 0]

def k0_chk149 (v1522 : BitVec 32) : Prop :=
  (∀ a, (k0_off151 v1522) a + S1x1x32.size a ≤ S26x100001x32.size a)
instance k0_chk149.dec : ∀ (v1522 : BitVec 32), Decidable (k0_chk149 v1522) := fun v1522 => decidable_of_iff' _ (Iff.of_eq (k0_chk149.eq_1 v1522))
theorem k0_off151_inb : ∀ (v1522 : BitVec 32) (k0_hw149 : k0_chk149 v1522), ∀ a, (k0_off151 v1522) a + S1x1x32.size a ≤ S26x100001x32.size a := fun v1522 k0_hw149 => k0_hw149

def k0_off152 (v1532 : BitVec 32) : Fin 3 → Nat :=
  let c19_i32_1199 : BitVec 32 := 19#32
  let c0_i32_1204 : BitVec 32 := 0#32
  ![19, v1532.toNat, 0]

def k0_chk150 (v1532 : BitVec 32) : Prop :=
  (∀ a, (k0_off152 v1532) a + S1x1x32.size a ≤ S26x100001x32.size a)
instance k0_chk150.dec : ∀ (v1532 : BitVec 32), Decidable (k0_chk150 v1532) := fun v1532 => decidable_of_iff' _ (Iff.of_eq (k0_chk150.eq_1 v1532))
theorem k0_off152_inb : ∀ (v1532 : BitVec 32) (k0_hw150 : k0_chk150 v1532), ∀ a, (k0_off152 v1532) a + S1x1x32.size a ≤ S26x100001x32.size a := fun v1532 k0_hw150 => k0_hw150

def k0_off153 (v1542 : BitVec 32) : Fin 3 → Nat :=
  let c20_i32_1207 : BitVec 32 := 20#32
  let c0_i32_1212 : BitVec 32 := 0#32
  ![20, v1542.toNat, 0]

def k0_chk151 (v1542 : BitVec 32) : Prop :=
  (∀ a, (k0_off153 v1542) a + S1x1x32.size a ≤ S26x100001x32.size a)
instance k0_chk151.dec : ∀ (v1542 : BitVec 32), Decidable (k0_chk151 v1542) := fun v1542 => decidable_of_iff' _ (Iff.of_eq (k0_chk151.eq_1 v1542))
theorem k0_off153_inb : ∀ (v1542 : BitVec 32) (k0_hw151 : k0_chk151 v1542), ∀ a, (k0_off153 v1542) a + S1x1x32.size a ≤ S26x100001x32.size a := fun v1542 k0_hw151 => k0_hw151

def k0_off154 (v1552 : BitVec 32) : Fin 3 → Nat :=
  let c21_i32_1215 : BitVec 32 := 21#32
  let c0_i32_1220 : BitVec 32 := 0#32
  ![21, v1552.toNat, 0]

def k0_chk152 (v1552 : BitVec 32) : Prop :=
  (∀ a, (k0_off154 v1552) a + S1x1x32.size a ≤ S26x100001x32.size a)
instance k0_chk152.dec : ∀ (v1552 : BitVec 32), Decidable (k0_chk152 v1552) := fun v1552 => decidable_of_iff' _ (Iff.of_eq (k0_chk152.eq_1 v1552))
theorem k0_off154_inb : ∀ (v1552 : BitVec 32) (k0_hw152 : k0_chk152 v1552), ∀ a, (k0_off154 v1552) a + S1x1x32.size a ≤ S26x100001x32.size a := fun v1552 k0_hw152 => k0_hw152

def k0_off155 (v1562 : BitVec 32) : Fin 3 → Nat :=
  let c22_i32_1223 : BitVec 32 := 22#32
  let c0_i32_1228 : BitVec 32 := 0#32
  ![22, v1562.toNat, 0]

def k0_chk153 (v1562 : BitVec 32) : Prop :=
  (∀ a, (k0_off155 v1562) a + S1x1x32.size a ≤ S26x100001x32.size a)
instance k0_chk153.dec : ∀ (v1562 : BitVec 32), Decidable (k0_chk153 v1562) := fun v1562 => decidable_of_iff' _ (Iff.of_eq (k0_chk153.eq_1 v1562))
theorem k0_off155_inb : ∀ (v1562 : BitVec 32) (k0_hw153 : k0_chk153 v1562), ∀ a, (k0_off155 v1562) a + S1x1x32.size a ≤ S26x100001x32.size a := fun v1562 k0_hw153 => k0_hw153

def k0_off156 (v1572 : BitVec 32) : Fin 3 → Nat :=
  let c23_i32_1231 : BitVec 32 := 23#32
  let c0_i32_1236 : BitVec 32 := 0#32
  ![23, v1572.toNat, 0]

def k0_chk154 (v1572 : BitVec 32) : Prop :=
  (∀ a, (k0_off156 v1572) a + S1x1x32.size a ≤ S26x100001x32.size a)
instance k0_chk154.dec : ∀ (v1572 : BitVec 32), Decidable (k0_chk154 v1572) := fun v1572 => decidable_of_iff' _ (Iff.of_eq (k0_chk154.eq_1 v1572))
theorem k0_off156_inb : ∀ (v1572 : BitVec 32) (k0_hw154 : k0_chk154 v1572), ∀ a, (k0_off156 v1572) a + S1x1x32.size a ≤ S26x100001x32.size a := fun v1572 k0_hw154 => k0_hw154

def k0_off157 (v1582 : BitVec 32) : Fin 3 → Nat :=
  let c24_i32_1239 : BitVec 32 := 24#32
  let c0_i32_1244 : BitVec 32 := 0#32
  ![24, v1582.toNat, 0]

def k0_chk155 (v1582 : BitVec 32) : Prop :=
  (∀ a, (k0_off157 v1582) a + S1x1x32.size a ≤ S26x100001x32.size a)
instance k0_chk155.dec : ∀ (v1582 : BitVec 32), Decidable (k0_chk155 v1582) := fun v1582 => decidable_of_iff' _ (Iff.of_eq (k0_chk155.eq_1 v1582))
theorem k0_off157_inb : ∀ (v1582 : BitVec 32) (k0_hw155 : k0_chk155 v1582), ∀ a, (k0_off157 v1582) a + S1x1x32.size a ≤ S26x100001x32.size a := fun v1582 k0_hw155 => k0_hw155

def k0_off158 (v1592 : BitVec 32) : Fin 3 → Nat :=
  let c25_i32_1247 : BitVec 32 := 25#32
  let c0_i32_1252 : BitVec 32 := 0#32
  ![25, v1592.toNat, 0]

def k0_chk156 (v1592 : BitVec 32) : Prop :=
  (∀ a, (k0_off158 v1592) a + S1x1x32.size a ≤ S26x100001x32.size a)
instance k0_chk156.dec : ∀ (v1592 : BitVec 32), Decidable (k0_chk156 v1592) := fun v1592 => decidable_of_iff' _ (Iff.of_eq (k0_chk156.eq_1 v1592))
theorem k0_off158_inb : ∀ (v1592 : BitVec 32) (k0_hw156 : k0_chk156 v1592), ∀ a, (k0_off158 v1592) a + S1x1x32.size a ≤ S26x100001x32.size a := fun v1592 k0_hw156 => k0_hw156

def k0_off159 (v1608 : BitVec 32) : Fin 3 → Nat :=
  let c0_i32_1259 : BitVec 32 := 0#32
  let c0_i32_1264 : BitVec 32 := 0#32
  ![0, v1608.toNat, 0]

def k0_chk157 (v1608 : BitVec 32) : Prop :=
  (∀ a, (k0_off159 v1608) a + S1x1x32.size a ≤ S26x100001x32.size a)
instance k0_chk157.dec : ∀ (v1608 : BitVec 32), Decidable (k0_chk157 v1608) := fun v1608 => decidable_of_iff' _ (Iff.of_eq (k0_chk157.eq_1 v1608))
theorem k0_off159_inb : ∀ (v1608 : BitVec 32) (k0_hw157 : k0_chk157 v1608), ∀ a, (k0_off159 v1608) a + S1x1x32.size a ≤ S26x100001x32.size a := fun v1608 k0_hw157 => k0_hw157

def k0_off160 (v1618 : BitVec 32) : Fin 3 → Nat :=
  let c1_i32_1267 : BitVec 32 := 1#32
  let c0_i32_1272 : BitVec 32 := 0#32
  ![1, v1618.toNat, 0]

def k0_chk158 (v1618 : BitVec 32) : Prop :=
  (∀ a, (k0_off160 v1618) a + S1x1x32.size a ≤ S26x100001x32.size a)
instance k0_chk158.dec : ∀ (v1618 : BitVec 32), Decidable (k0_chk158 v1618) := fun v1618 => decidable_of_iff' _ (Iff.of_eq (k0_chk158.eq_1 v1618))
theorem k0_off160_inb : ∀ (v1618 : BitVec 32) (k0_hw158 : k0_chk158 v1618), ∀ a, (k0_off160 v1618) a + S1x1x32.size a ≤ S26x100001x32.size a := fun v1618 k0_hw158 => k0_hw158

def k0_off161 (v1628 : BitVec 32) : Fin 3 → Nat :=
  let c2_i32_1275 : BitVec 32 := 2#32
  let c0_i32_1280 : BitVec 32 := 0#32
  ![2, v1628.toNat, 0]

def k0_chk159 (v1628 : BitVec 32) : Prop :=
  (∀ a, (k0_off161 v1628) a + S1x1x32.size a ≤ S26x100001x32.size a)
instance k0_chk159.dec : ∀ (v1628 : BitVec 32), Decidable (k0_chk159 v1628) := fun v1628 => decidable_of_iff' _ (Iff.of_eq (k0_chk159.eq_1 v1628))
theorem k0_off161_inb : ∀ (v1628 : BitVec 32) (k0_hw159 : k0_chk159 v1628), ∀ a, (k0_off161 v1628) a + S1x1x32.size a ≤ S26x100001x32.size a := fun v1628 k0_hw159 => k0_hw159

def k0_off162 (v1638 : BitVec 32) : Fin 3 → Nat :=
  let c3_i32_1283 : BitVec 32 := 3#32
  let c0_i32_1288 : BitVec 32 := 0#32
  ![3, v1638.toNat, 0]

def k0_chk160 (v1638 : BitVec 32) : Prop :=
  (∀ a, (k0_off162 v1638) a + S1x1x32.size a ≤ S26x100001x32.size a)
instance k0_chk160.dec : ∀ (v1638 : BitVec 32), Decidable (k0_chk160 v1638) := fun v1638 => decidable_of_iff' _ (Iff.of_eq (k0_chk160.eq_1 v1638))
theorem k0_off162_inb : ∀ (v1638 : BitVec 32) (k0_hw160 : k0_chk160 v1638), ∀ a, (k0_off162 v1638) a + S1x1x32.size a ≤ S26x100001x32.size a := fun v1638 k0_hw160 => k0_hw160

def k0_off163 (v1648 : BitVec 32) : Fin 3 → Nat :=
  let c4_i32_1291 : BitVec 32 := 4#32
  let c0_i32_1296 : BitVec 32 := 0#32
  ![4, v1648.toNat, 0]

def k0_chk161 (v1648 : BitVec 32) : Prop :=
  (∀ a, (k0_off163 v1648) a + S1x1x32.size a ≤ S26x100001x32.size a)
instance k0_chk161.dec : ∀ (v1648 : BitVec 32), Decidable (k0_chk161 v1648) := fun v1648 => decidable_of_iff' _ (Iff.of_eq (k0_chk161.eq_1 v1648))
theorem k0_off163_inb : ∀ (v1648 : BitVec 32) (k0_hw161 : k0_chk161 v1648), ∀ a, (k0_off163 v1648) a + S1x1x32.size a ≤ S26x100001x32.size a := fun v1648 k0_hw161 => k0_hw161

def k0_off164 (v1658 : BitVec 32) : Fin 3 → Nat :=
  let c5_i32_1299 : BitVec 32 := 5#32
  let c0_i32_1304 : BitVec 32 := 0#32
  ![5, v1658.toNat, 0]

def k0_chk162 (v1658 : BitVec 32) : Prop :=
  (∀ a, (k0_off164 v1658) a + S1x1x32.size a ≤ S26x100001x32.size a)
instance k0_chk162.dec : ∀ (v1658 : BitVec 32), Decidable (k0_chk162 v1658) := fun v1658 => decidable_of_iff' _ (Iff.of_eq (k0_chk162.eq_1 v1658))
theorem k0_off164_inb : ∀ (v1658 : BitVec 32) (k0_hw162 : k0_chk162 v1658), ∀ a, (k0_off164 v1658) a + S1x1x32.size a ≤ S26x100001x32.size a := fun v1658 k0_hw162 => k0_hw162

def k0_off165 (v1668 : BitVec 32) : Fin 3 → Nat :=
  let c6_i32_1307 : BitVec 32 := 6#32
  let c0_i32_1312 : BitVec 32 := 0#32
  ![6, v1668.toNat, 0]

def k0_chk163 (v1668 : BitVec 32) : Prop :=
  (∀ a, (k0_off165 v1668) a + S1x1x32.size a ≤ S26x100001x32.size a)
instance k0_chk163.dec : ∀ (v1668 : BitVec 32), Decidable (k0_chk163 v1668) := fun v1668 => decidable_of_iff' _ (Iff.of_eq (k0_chk163.eq_1 v1668))
theorem k0_off165_inb : ∀ (v1668 : BitVec 32) (k0_hw163 : k0_chk163 v1668), ∀ a, (k0_off165 v1668) a + S1x1x32.size a ≤ S26x100001x32.size a := fun v1668 k0_hw163 => k0_hw163

def k0_off166 (v1678 : BitVec 32) : Fin 3 → Nat :=
  let c7_i32_1315 : BitVec 32 := 7#32
  let c0_i32_1320 : BitVec 32 := 0#32
  ![7, v1678.toNat, 0]

def k0_chk164 (v1678 : BitVec 32) : Prop :=
  (∀ a, (k0_off166 v1678) a + S1x1x32.size a ≤ S26x100001x32.size a)
instance k0_chk164.dec : ∀ (v1678 : BitVec 32), Decidable (k0_chk164 v1678) := fun v1678 => decidable_of_iff' _ (Iff.of_eq (k0_chk164.eq_1 v1678))
theorem k0_off166_inb : ∀ (v1678 : BitVec 32) (k0_hw164 : k0_chk164 v1678), ∀ a, (k0_off166 v1678) a + S1x1x32.size a ≤ S26x100001x32.size a := fun v1678 k0_hw164 => k0_hw164

def k0_off167 (v1688 : BitVec 32) : Fin 3 → Nat :=
  let c8_i32_1323 : BitVec 32 := 8#32
  let c0_i32_1328 : BitVec 32 := 0#32
  ![8, v1688.toNat, 0]

def k0_chk165 (v1688 : BitVec 32) : Prop :=
  (∀ a, (k0_off167 v1688) a + S1x1x32.size a ≤ S26x100001x32.size a)
instance k0_chk165.dec : ∀ (v1688 : BitVec 32), Decidable (k0_chk165 v1688) := fun v1688 => decidable_of_iff' _ (Iff.of_eq (k0_chk165.eq_1 v1688))
theorem k0_off167_inb : ∀ (v1688 : BitVec 32) (k0_hw165 : k0_chk165 v1688), ∀ a, (k0_off167 v1688) a + S1x1x32.size a ≤ S26x100001x32.size a := fun v1688 k0_hw165 => k0_hw165

def k0_off168 (v1698 : BitVec 32) : Fin 3 → Nat :=
  let c9_i32_1331 : BitVec 32 := 9#32
  let c0_i32_1336 : BitVec 32 := 0#32
  ![9, v1698.toNat, 0]

def k0_chk166 (v1698 : BitVec 32) : Prop :=
  (∀ a, (k0_off168 v1698) a + S1x1x32.size a ≤ S26x100001x32.size a)
instance k0_chk166.dec : ∀ (v1698 : BitVec 32), Decidable (k0_chk166 v1698) := fun v1698 => decidable_of_iff' _ (Iff.of_eq (k0_chk166.eq_1 v1698))
theorem k0_off168_inb : ∀ (v1698 : BitVec 32) (k0_hw166 : k0_chk166 v1698), ∀ a, (k0_off168 v1698) a + S1x1x32.size a ≤ S26x100001x32.size a := fun v1698 k0_hw166 => k0_hw166

def k0_off169 (v1708 : BitVec 32) : Fin 3 → Nat :=
  let c10_i32_1339 : BitVec 32 := 10#32
  let c0_i32_1344 : BitVec 32 := 0#32
  ![10, v1708.toNat, 0]

def k0_chk167 (v1708 : BitVec 32) : Prop :=
  (∀ a, (k0_off169 v1708) a + S1x1x32.size a ≤ S26x100001x32.size a)
instance k0_chk167.dec : ∀ (v1708 : BitVec 32), Decidable (k0_chk167 v1708) := fun v1708 => decidable_of_iff' _ (Iff.of_eq (k0_chk167.eq_1 v1708))
theorem k0_off169_inb : ∀ (v1708 : BitVec 32) (k0_hw167 : k0_chk167 v1708), ∀ a, (k0_off169 v1708) a + S1x1x32.size a ≤ S26x100001x32.size a := fun v1708 k0_hw167 => k0_hw167

def k0_off170 (v1718 : BitVec 32) : Fin 3 → Nat :=
  let c11_i32_1347 : BitVec 32 := 11#32
  let c0_i32_1352 : BitVec 32 := 0#32
  ![11, v1718.toNat, 0]

def k0_chk168 (v1718 : BitVec 32) : Prop :=
  (∀ a, (k0_off170 v1718) a + S1x1x32.size a ≤ S26x100001x32.size a)
instance k0_chk168.dec : ∀ (v1718 : BitVec 32), Decidable (k0_chk168 v1718) := fun v1718 => decidable_of_iff' _ (Iff.of_eq (k0_chk168.eq_1 v1718))
theorem k0_off170_inb : ∀ (v1718 : BitVec 32) (k0_hw168 : k0_chk168 v1718), ∀ a, (k0_off170 v1718) a + S1x1x32.size a ≤ S26x100001x32.size a := fun v1718 k0_hw168 => k0_hw168

def k0_off171 (v1728 : BitVec 32) : Fin 3 → Nat :=
  let c12_i32_1355 : BitVec 32 := 12#32
  let c0_i32_1360 : BitVec 32 := 0#32
  ![12, v1728.toNat, 0]

def k0_chk169 (v1728 : BitVec 32) : Prop :=
  (∀ a, (k0_off171 v1728) a + S1x1x32.size a ≤ S26x100001x32.size a)
instance k0_chk169.dec : ∀ (v1728 : BitVec 32), Decidable (k0_chk169 v1728) := fun v1728 => decidable_of_iff' _ (Iff.of_eq (k0_chk169.eq_1 v1728))
theorem k0_off171_inb : ∀ (v1728 : BitVec 32) (k0_hw169 : k0_chk169 v1728), ∀ a, (k0_off171 v1728) a + S1x1x32.size a ≤ S26x100001x32.size a := fun v1728 k0_hw169 => k0_hw169

def k0_off172 (v1738 : BitVec 32) : Fin 3 → Nat :=
  let c13_i32_1363 : BitVec 32 := 13#32
  let c0_i32_1368 : BitVec 32 := 0#32
  ![13, v1738.toNat, 0]

def k0_chk170 (v1738 : BitVec 32) : Prop :=
  (∀ a, (k0_off172 v1738) a + S1x1x32.size a ≤ S26x100001x32.size a)
instance k0_chk170.dec : ∀ (v1738 : BitVec 32), Decidable (k0_chk170 v1738) := fun v1738 => decidable_of_iff' _ (Iff.of_eq (k0_chk170.eq_1 v1738))
theorem k0_off172_inb : ∀ (v1738 : BitVec 32) (k0_hw170 : k0_chk170 v1738), ∀ a, (k0_off172 v1738) a + S1x1x32.size a ≤ S26x100001x32.size a := fun v1738 k0_hw170 => k0_hw170

def k0_off173 (v1748 : BitVec 32) : Fin 3 → Nat :=
  let c14_i32_1371 : BitVec 32 := 14#32
  let c0_i32_1376 : BitVec 32 := 0#32
  ![14, v1748.toNat, 0]

def k0_chk171 (v1748 : BitVec 32) : Prop :=
  (∀ a, (k0_off173 v1748) a + S1x1x32.size a ≤ S26x100001x32.size a)
instance k0_chk171.dec : ∀ (v1748 : BitVec 32), Decidable (k0_chk171 v1748) := fun v1748 => decidable_of_iff' _ (Iff.of_eq (k0_chk171.eq_1 v1748))
theorem k0_off173_inb : ∀ (v1748 : BitVec 32) (k0_hw171 : k0_chk171 v1748), ∀ a, (k0_off173 v1748) a + S1x1x32.size a ≤ S26x100001x32.size a := fun v1748 k0_hw171 => k0_hw171

def k0_off174 (v1758 : BitVec 32) : Fin 3 → Nat :=
  let c15_i32_1379 : BitVec 32 := 15#32
  let c0_i32_1384 : BitVec 32 := 0#32
  ![15, v1758.toNat, 0]

def k0_chk172 (v1758 : BitVec 32) : Prop :=
  (∀ a, (k0_off174 v1758) a + S1x1x32.size a ≤ S26x100001x32.size a)
instance k0_chk172.dec : ∀ (v1758 : BitVec 32), Decidable (k0_chk172 v1758) := fun v1758 => decidable_of_iff' _ (Iff.of_eq (k0_chk172.eq_1 v1758))
theorem k0_off174_inb : ∀ (v1758 : BitVec 32) (k0_hw172 : k0_chk172 v1758), ∀ a, (k0_off174 v1758) a + S1x1x32.size a ≤ S26x100001x32.size a := fun v1758 k0_hw172 => k0_hw172

def k0_off175 (v1768 : BitVec 32) : Fin 3 → Nat :=
  let c16_i32_1387 : BitVec 32 := 16#32
  let c0_i32_1392 : BitVec 32 := 0#32
  ![16, v1768.toNat, 0]

def k0_chk173 (v1768 : BitVec 32) : Prop :=
  (∀ a, (k0_off175 v1768) a + S1x1x32.size a ≤ S26x100001x32.size a)
instance k0_chk173.dec : ∀ (v1768 : BitVec 32), Decidable (k0_chk173 v1768) := fun v1768 => decidable_of_iff' _ (Iff.of_eq (k0_chk173.eq_1 v1768))
theorem k0_off175_inb : ∀ (v1768 : BitVec 32) (k0_hw173 : k0_chk173 v1768), ∀ a, (k0_off175 v1768) a + S1x1x32.size a ≤ S26x100001x32.size a := fun v1768 k0_hw173 => k0_hw173

def k0_off176 (v1778 : BitVec 32) : Fin 3 → Nat :=
  let c17_i32_1395 : BitVec 32 := 17#32
  let c0_i32_1400 : BitVec 32 := 0#32
  ![17, v1778.toNat, 0]

def k0_chk174 (v1778 : BitVec 32) : Prop :=
  (∀ a, (k0_off176 v1778) a + S1x1x32.size a ≤ S26x100001x32.size a)
instance k0_chk174.dec : ∀ (v1778 : BitVec 32), Decidable (k0_chk174 v1778) := fun v1778 => decidable_of_iff' _ (Iff.of_eq (k0_chk174.eq_1 v1778))
theorem k0_off176_inb : ∀ (v1778 : BitVec 32) (k0_hw174 : k0_chk174 v1778), ∀ a, (k0_off176 v1778) a + S1x1x32.size a ≤ S26x100001x32.size a := fun v1778 k0_hw174 => k0_hw174

def k0_off177 (v1788 : BitVec 32) : Fin 3 → Nat :=
  let c18_i32_1403 : BitVec 32 := 18#32
  let c0_i32_1408 : BitVec 32 := 0#32
  ![18, v1788.toNat, 0]

def k0_chk175 (v1788 : BitVec 32) : Prop :=
  (∀ a, (k0_off177 v1788) a + S1x1x32.size a ≤ S26x100001x32.size a)
instance k0_chk175.dec : ∀ (v1788 : BitVec 32), Decidable (k0_chk175 v1788) := fun v1788 => decidable_of_iff' _ (Iff.of_eq (k0_chk175.eq_1 v1788))
theorem k0_off177_inb : ∀ (v1788 : BitVec 32) (k0_hw175 : k0_chk175 v1788), ∀ a, (k0_off177 v1788) a + S1x1x32.size a ≤ S26x100001x32.size a := fun v1788 k0_hw175 => k0_hw175

def k0_off178 (v1798 : BitVec 32) : Fin 3 → Nat :=
  let c19_i32_1411 : BitVec 32 := 19#32
  let c0_i32_1416 : BitVec 32 := 0#32
  ![19, v1798.toNat, 0]

def k0_chk176 (v1798 : BitVec 32) : Prop :=
  (∀ a, (k0_off178 v1798) a + S1x1x32.size a ≤ S26x100001x32.size a)
instance k0_chk176.dec : ∀ (v1798 : BitVec 32), Decidable (k0_chk176 v1798) := fun v1798 => decidable_of_iff' _ (Iff.of_eq (k0_chk176.eq_1 v1798))
theorem k0_off178_inb : ∀ (v1798 : BitVec 32) (k0_hw176 : k0_chk176 v1798), ∀ a, (k0_off178 v1798) a + S1x1x32.size a ≤ S26x100001x32.size a := fun v1798 k0_hw176 => k0_hw176

def k0_off179 (v1808 : BitVec 32) : Fin 3 → Nat :=
  let c20_i32_1419 : BitVec 32 := 20#32
  let c0_i32_1424 : BitVec 32 := 0#32
  ![20, v1808.toNat, 0]

def k0_chk177 (v1808 : BitVec 32) : Prop :=
  (∀ a, (k0_off179 v1808) a + S1x1x32.size a ≤ S26x100001x32.size a)
instance k0_chk177.dec : ∀ (v1808 : BitVec 32), Decidable (k0_chk177 v1808) := fun v1808 => decidable_of_iff' _ (Iff.of_eq (k0_chk177.eq_1 v1808))
theorem k0_off179_inb : ∀ (v1808 : BitVec 32) (k0_hw177 : k0_chk177 v1808), ∀ a, (k0_off179 v1808) a + S1x1x32.size a ≤ S26x100001x32.size a := fun v1808 k0_hw177 => k0_hw177

def k0_off180 (v1818 : BitVec 32) : Fin 3 → Nat :=
  let c21_i32_1427 : BitVec 32 := 21#32
  let c0_i32_1432 : BitVec 32 := 0#32
  ![21, v1818.toNat, 0]

def k0_chk178 (v1818 : BitVec 32) : Prop :=
  (∀ a, (k0_off180 v1818) a + S1x1x32.size a ≤ S26x100001x32.size a)
instance k0_chk178.dec : ∀ (v1818 : BitVec 32), Decidable (k0_chk178 v1818) := fun v1818 => decidable_of_iff' _ (Iff.of_eq (k0_chk178.eq_1 v1818))
theorem k0_off180_inb : ∀ (v1818 : BitVec 32) (k0_hw178 : k0_chk178 v1818), ∀ a, (k0_off180 v1818) a + S1x1x32.size a ≤ S26x100001x32.size a := fun v1818 k0_hw178 => k0_hw178

def k0_off181 (v1828 : BitVec 32) : Fin 3 → Nat :=
  let c22_i32_1435 : BitVec 32 := 22#32
  let c0_i32_1440 : BitVec 32 := 0#32
  ![22, v1828.toNat, 0]

def k0_chk179 (v1828 : BitVec 32) : Prop :=
  (∀ a, (k0_off181 v1828) a + S1x1x32.size a ≤ S26x100001x32.size a)
instance k0_chk179.dec : ∀ (v1828 : BitVec 32), Decidable (k0_chk179 v1828) := fun v1828 => decidable_of_iff' _ (Iff.of_eq (k0_chk179.eq_1 v1828))
theorem k0_off181_inb : ∀ (v1828 : BitVec 32) (k0_hw179 : k0_chk179 v1828), ∀ a, (k0_off181 v1828) a + S1x1x32.size a ≤ S26x100001x32.size a := fun v1828 k0_hw179 => k0_hw179

def k0_off182 (v1838 : BitVec 32) : Fin 3 → Nat :=
  let c23_i32_1443 : BitVec 32 := 23#32
  let c0_i32_1448 : BitVec 32 := 0#32
  ![23, v1838.toNat, 0]

def k0_chk180 (v1838 : BitVec 32) : Prop :=
  (∀ a, (k0_off182 v1838) a + S1x1x32.size a ≤ S26x100001x32.size a)
instance k0_chk180.dec : ∀ (v1838 : BitVec 32), Decidable (k0_chk180 v1838) := fun v1838 => decidable_of_iff' _ (Iff.of_eq (k0_chk180.eq_1 v1838))
theorem k0_off182_inb : ∀ (v1838 : BitVec 32) (k0_hw180 : k0_chk180 v1838), ∀ a, (k0_off182 v1838) a + S1x1x32.size a ≤ S26x100001x32.size a := fun v1838 k0_hw180 => k0_hw180

def k0_off183 (v1848 : BitVec 32) : Fin 3 → Nat :=
  let c24_i32_1451 : BitVec 32 := 24#32
  let c0_i32_1456 : BitVec 32 := 0#32
  ![24, v1848.toNat, 0]

def k0_chk181 (v1848 : BitVec 32) : Prop :=
  (∀ a, (k0_off183 v1848) a + S1x1x32.size a ≤ S26x100001x32.size a)
instance k0_chk181.dec : ∀ (v1848 : BitVec 32), Decidable (k0_chk181 v1848) := fun v1848 => decidable_of_iff' _ (Iff.of_eq (k0_chk181.eq_1 v1848))
theorem k0_off183_inb : ∀ (v1848 : BitVec 32) (k0_hw181 : k0_chk181 v1848), ∀ a, (k0_off183 v1848) a + S1x1x32.size a ≤ S26x100001x32.size a := fun v1848 k0_hw181 => k0_hw181

def k0_off184 (v1858 : BitVec 32) : Fin 3 → Nat :=
  let c25_i32_1459 : BitVec 32 := 25#32
  let c0_i32_1464 : BitVec 32 := 0#32
  ![25, v1858.toNat, 0]

def k0_chk182 (v1858 : BitVec 32) : Prop :=
  (∀ a, (k0_off184 v1858) a + S1x1x32.size a ≤ S26x100001x32.size a)
instance k0_chk182.dec : ∀ (v1858 : BitVec 32), Decidable (k0_chk182 v1858) := fun v1858 => decidable_of_iff' _ (Iff.of_eq (k0_chk182.eq_1 v1858))
theorem k0_off184_inb : ∀ (v1858 : BitVec 32) (k0_hw182 : k0_chk182 v1858), ∀ a, (k0_off184 v1858) a + S1x1x32.size a ≤ S26x100001x32.size a := fun v1858 k0_hw182 => k0_hw182

def k0_off185 (v1874 : BitVec 32) : Fin 3 → Nat :=
  let c0_i32_1471 : BitVec 32 := 0#32
  let c0_i32_1476 : BitVec 32 := 0#32
  ![0, v1874.toNat, 0]

def k0_chk183 (v1874 : BitVec 32) : Prop :=
  (∀ a, (k0_off185 v1874) a + S1x1x32.size a ≤ S26x100001x32.size a)
instance k0_chk183.dec : ∀ (v1874 : BitVec 32), Decidable (k0_chk183 v1874) := fun v1874 => decidable_of_iff' _ (Iff.of_eq (k0_chk183.eq_1 v1874))
theorem k0_off185_inb : ∀ (v1874 : BitVec 32) (k0_hw183 : k0_chk183 v1874), ∀ a, (k0_off185 v1874) a + S1x1x32.size a ≤ S26x100001x32.size a := fun v1874 k0_hw183 => k0_hw183

def k0_off186 (v1884 : BitVec 32) : Fin 3 → Nat :=
  let c1_i32_1479 : BitVec 32 := 1#32
  let c0_i32_1484 : BitVec 32 := 0#32
  ![1, v1884.toNat, 0]

def k0_chk184 (v1884 : BitVec 32) : Prop :=
  (∀ a, (k0_off186 v1884) a + S1x1x32.size a ≤ S26x100001x32.size a)
instance k0_chk184.dec : ∀ (v1884 : BitVec 32), Decidable (k0_chk184 v1884) := fun v1884 => decidable_of_iff' _ (Iff.of_eq (k0_chk184.eq_1 v1884))
theorem k0_off186_inb : ∀ (v1884 : BitVec 32) (k0_hw184 : k0_chk184 v1884), ∀ a, (k0_off186 v1884) a + S1x1x32.size a ≤ S26x100001x32.size a := fun v1884 k0_hw184 => k0_hw184

def k0_off187 (v1894 : BitVec 32) : Fin 3 → Nat :=
  let c2_i32_1487 : BitVec 32 := 2#32
  let c0_i32_1492 : BitVec 32 := 0#32
  ![2, v1894.toNat, 0]

def k0_chk185 (v1894 : BitVec 32) : Prop :=
  (∀ a, (k0_off187 v1894) a + S1x1x32.size a ≤ S26x100001x32.size a)
instance k0_chk185.dec : ∀ (v1894 : BitVec 32), Decidable (k0_chk185 v1894) := fun v1894 => decidable_of_iff' _ (Iff.of_eq (k0_chk185.eq_1 v1894))
theorem k0_off187_inb : ∀ (v1894 : BitVec 32) (k0_hw185 : k0_chk185 v1894), ∀ a, (k0_off187 v1894) a + S1x1x32.size a ≤ S26x100001x32.size a := fun v1894 k0_hw185 => k0_hw185

def k0_off188 (v1904 : BitVec 32) : Fin 3 → Nat :=
  let c3_i32_1495 : BitVec 32 := 3#32
  let c0_i32_1500 : BitVec 32 := 0#32
  ![3, v1904.toNat, 0]

def k0_chk186 (v1904 : BitVec 32) : Prop :=
  (∀ a, (k0_off188 v1904) a + S1x1x32.size a ≤ S26x100001x32.size a)
instance k0_chk186.dec : ∀ (v1904 : BitVec 32), Decidable (k0_chk186 v1904) := fun v1904 => decidable_of_iff' _ (Iff.of_eq (k0_chk186.eq_1 v1904))
theorem k0_off188_inb : ∀ (v1904 : BitVec 32) (k0_hw186 : k0_chk186 v1904), ∀ a, (k0_off188 v1904) a + S1x1x32.size a ≤ S26x100001x32.size a := fun v1904 k0_hw186 => k0_hw186

def k0_off189 (v1914 : BitVec 32) : Fin 3 → Nat :=
  let c4_i32_1503 : BitVec 32 := 4#32
  let c0_i32_1508 : BitVec 32 := 0#32
  ![4, v1914.toNat, 0]

def k0_chk187 (v1914 : BitVec 32) : Prop :=
  (∀ a, (k0_off189 v1914) a + S1x1x32.size a ≤ S26x100001x32.size a)
instance k0_chk187.dec : ∀ (v1914 : BitVec 32), Decidable (k0_chk187 v1914) := fun v1914 => decidable_of_iff' _ (Iff.of_eq (k0_chk187.eq_1 v1914))
theorem k0_off189_inb : ∀ (v1914 : BitVec 32) (k0_hw187 : k0_chk187 v1914), ∀ a, (k0_off189 v1914) a + S1x1x32.size a ≤ S26x100001x32.size a := fun v1914 k0_hw187 => k0_hw187

def k0_off190 (v1924 : BitVec 32) : Fin 3 → Nat :=
  let c5_i32_1511 : BitVec 32 := 5#32
  let c0_i32_1516 : BitVec 32 := 0#32
  ![5, v1924.toNat, 0]

def k0_chk188 (v1924 : BitVec 32) : Prop :=
  (∀ a, (k0_off190 v1924) a + S1x1x32.size a ≤ S26x100001x32.size a)
instance k0_chk188.dec : ∀ (v1924 : BitVec 32), Decidable (k0_chk188 v1924) := fun v1924 => decidable_of_iff' _ (Iff.of_eq (k0_chk188.eq_1 v1924))
theorem k0_off190_inb : ∀ (v1924 : BitVec 32) (k0_hw188 : k0_chk188 v1924), ∀ a, (k0_off190 v1924) a + S1x1x32.size a ≤ S26x100001x32.size a := fun v1924 k0_hw188 => k0_hw188

def k0_off191 (v1934 : BitVec 32) : Fin 3 → Nat :=
  let c6_i32_1519 : BitVec 32 := 6#32
  let c0_i32_1524 : BitVec 32 := 0#32
  ![6, v1934.toNat, 0]

def k0_chk189 (v1934 : BitVec 32) : Prop :=
  (∀ a, (k0_off191 v1934) a + S1x1x32.size a ≤ S26x100001x32.size a)
instance k0_chk189.dec : ∀ (v1934 : BitVec 32), Decidable (k0_chk189 v1934) := fun v1934 => decidable_of_iff' _ (Iff.of_eq (k0_chk189.eq_1 v1934))
theorem k0_off191_inb : ∀ (v1934 : BitVec 32) (k0_hw189 : k0_chk189 v1934), ∀ a, (k0_off191 v1934) a + S1x1x32.size a ≤ S26x100001x32.size a := fun v1934 k0_hw189 => k0_hw189

def k0_off192 (v1944 : BitVec 32) : Fin 3 → Nat :=
  let c7_i32_1527 : BitVec 32 := 7#32
  let c0_i32_1532 : BitVec 32 := 0#32
  ![7, v1944.toNat, 0]

def k0_chk190 (v1944 : BitVec 32) : Prop :=
  (∀ a, (k0_off192 v1944) a + S1x1x32.size a ≤ S26x100001x32.size a)
instance k0_chk190.dec : ∀ (v1944 : BitVec 32), Decidable (k0_chk190 v1944) := fun v1944 => decidable_of_iff' _ (Iff.of_eq (k0_chk190.eq_1 v1944))
theorem k0_off192_inb : ∀ (v1944 : BitVec 32) (k0_hw190 : k0_chk190 v1944), ∀ a, (k0_off192 v1944) a + S1x1x32.size a ≤ S26x100001x32.size a := fun v1944 k0_hw190 => k0_hw190

def k0_off193 (v1954 : BitVec 32) : Fin 3 → Nat :=
  let c8_i32_1535 : BitVec 32 := 8#32
  let c0_i32_1540 : BitVec 32 := 0#32
  ![8, v1954.toNat, 0]

def k0_chk191 (v1954 : BitVec 32) : Prop :=
  (∀ a, (k0_off193 v1954) a + S1x1x32.size a ≤ S26x100001x32.size a)
instance k0_chk191.dec : ∀ (v1954 : BitVec 32), Decidable (k0_chk191 v1954) := fun v1954 => decidable_of_iff' _ (Iff.of_eq (k0_chk191.eq_1 v1954))
theorem k0_off193_inb : ∀ (v1954 : BitVec 32) (k0_hw191 : k0_chk191 v1954), ∀ a, (k0_off193 v1954) a + S1x1x32.size a ≤ S26x100001x32.size a := fun v1954 k0_hw191 => k0_hw191

def k0_off194 (v1964 : BitVec 32) : Fin 3 → Nat :=
  let c9_i32_1543 : BitVec 32 := 9#32
  let c0_i32_1548 : BitVec 32 := 0#32
  ![9, v1964.toNat, 0]

def k0_chk192 (v1964 : BitVec 32) : Prop :=
  (∀ a, (k0_off194 v1964) a + S1x1x32.size a ≤ S26x100001x32.size a)
instance k0_chk192.dec : ∀ (v1964 : BitVec 32), Decidable (k0_chk192 v1964) := fun v1964 => decidable_of_iff' _ (Iff.of_eq (k0_chk192.eq_1 v1964))
theorem k0_off194_inb : ∀ (v1964 : BitVec 32) (k0_hw192 : k0_chk192 v1964), ∀ a, (k0_off194 v1964) a + S1x1x32.size a ≤ S26x100001x32.size a := fun v1964 k0_hw192 => k0_hw192

def k0_off195 (v1974 : BitVec 32) : Fin 3 → Nat :=
  let c10_i32_1551 : BitVec 32 := 10#32
  let c0_i32_1556 : BitVec 32 := 0#32
  ![10, v1974.toNat, 0]

def k0_chk193 (v1974 : BitVec 32) : Prop :=
  (∀ a, (k0_off195 v1974) a + S1x1x32.size a ≤ S26x100001x32.size a)
instance k0_chk193.dec : ∀ (v1974 : BitVec 32), Decidable (k0_chk193 v1974) := fun v1974 => decidable_of_iff' _ (Iff.of_eq (k0_chk193.eq_1 v1974))
theorem k0_off195_inb : ∀ (v1974 : BitVec 32) (k0_hw193 : k0_chk193 v1974), ∀ a, (k0_off195 v1974) a + S1x1x32.size a ≤ S26x100001x32.size a := fun v1974 k0_hw193 => k0_hw193

def k0_off196 (v1984 : BitVec 32) : Fin 3 → Nat :=
  let c11_i32_1559 : BitVec 32 := 11#32
  let c0_i32_1564 : BitVec 32 := 0#32
  ![11, v1984.toNat, 0]

def k0_chk194 (v1984 : BitVec 32) : Prop :=
  (∀ a, (k0_off196 v1984) a + S1x1x32.size a ≤ S26x100001x32.size a)
instance k0_chk194.dec : ∀ (v1984 : BitVec 32), Decidable (k0_chk194 v1984) := fun v1984 => decidable_of_iff' _ (Iff.of_eq (k0_chk194.eq_1 v1984))
theorem k0_off196_inb : ∀ (v1984 : BitVec 32) (k0_hw194 : k0_chk194 v1984), ∀ a, (k0_off196 v1984) a + S1x1x32.size a ≤ S26x100001x32.size a := fun v1984 k0_hw194 => k0_hw194

def k0_off197 (v1994 : BitVec 32) : Fin 3 → Nat :=
  let c12_i32_1567 : BitVec 32 := 12#32
  let c0_i32_1572 : BitVec 32 := 0#32
  ![12, v1994.toNat, 0]

def k0_chk195 (v1994 : BitVec 32) : Prop :=
  (∀ a, (k0_off197 v1994) a + S1x1x32.size a ≤ S26x100001x32.size a)
instance k0_chk195.dec : ∀ (v1994 : BitVec 32), Decidable (k0_chk195 v1994) := fun v1994 => decidable_of_iff' _ (Iff.of_eq (k0_chk195.eq_1 v1994))
theorem k0_off197_inb : ∀ (v1994 : BitVec 32) (k0_hw195 : k0_chk195 v1994), ∀ a, (k0_off197 v1994) a + S1x1x32.size a ≤ S26x100001x32.size a := fun v1994 k0_hw195 => k0_hw195

def k0_off198 (v2004 : BitVec 32) : Fin 3 → Nat :=
  let c13_i32_1575 : BitVec 32 := 13#32
  let c0_i32_1580 : BitVec 32 := 0#32
  ![13, v2004.toNat, 0]

def k0_chk196 (v2004 : BitVec 32) : Prop :=
  (∀ a, (k0_off198 v2004) a + S1x1x32.size a ≤ S26x100001x32.size a)
instance k0_chk196.dec : ∀ (v2004 : BitVec 32), Decidable (k0_chk196 v2004) := fun v2004 => decidable_of_iff' _ (Iff.of_eq (k0_chk196.eq_1 v2004))
theorem k0_off198_inb : ∀ (v2004 : BitVec 32) (k0_hw196 : k0_chk196 v2004), ∀ a, (k0_off198 v2004) a + S1x1x32.size a ≤ S26x100001x32.size a := fun v2004 k0_hw196 => k0_hw196

def k0_off199 (v2014 : BitVec 32) : Fin 3 → Nat :=
  let c14_i32_1583 : BitVec 32 := 14#32
  let c0_i32_1588 : BitVec 32 := 0#32
  ![14, v2014.toNat, 0]

def k0_chk197 (v2014 : BitVec 32) : Prop :=
  (∀ a, (k0_off199 v2014) a + S1x1x32.size a ≤ S26x100001x32.size a)
instance k0_chk197.dec : ∀ (v2014 : BitVec 32), Decidable (k0_chk197 v2014) := fun v2014 => decidable_of_iff' _ (Iff.of_eq (k0_chk197.eq_1 v2014))
theorem k0_off199_inb : ∀ (v2014 : BitVec 32) (k0_hw197 : k0_chk197 v2014), ∀ a, (k0_off199 v2014) a + S1x1x32.size a ≤ S26x100001x32.size a := fun v2014 k0_hw197 => k0_hw197

def k0_off200 (v2024 : BitVec 32) : Fin 3 → Nat :=
  let c15_i32_1591 : BitVec 32 := 15#32
  let c0_i32_1596 : BitVec 32 := 0#32
  ![15, v2024.toNat, 0]

def k0_chk198 (v2024 : BitVec 32) : Prop :=
  (∀ a, (k0_off200 v2024) a + S1x1x32.size a ≤ S26x100001x32.size a)
instance k0_chk198.dec : ∀ (v2024 : BitVec 32), Decidable (k0_chk198 v2024) := fun v2024 => decidable_of_iff' _ (Iff.of_eq (k0_chk198.eq_1 v2024))
theorem k0_off200_inb : ∀ (v2024 : BitVec 32) (k0_hw198 : k0_chk198 v2024), ∀ a, (k0_off200 v2024) a + S1x1x32.size a ≤ S26x100001x32.size a := fun v2024 k0_hw198 => k0_hw198

def k0_off201 (v2034 : BitVec 32) : Fin 3 → Nat :=
  let c16_i32_1599 : BitVec 32 := 16#32
  let c0_i32_1604 : BitVec 32 := 0#32
  ![16, v2034.toNat, 0]

def k0_chk199 (v2034 : BitVec 32) : Prop :=
  (∀ a, (k0_off201 v2034) a + S1x1x32.size a ≤ S26x100001x32.size a)
instance k0_chk199.dec : ∀ (v2034 : BitVec 32), Decidable (k0_chk199 v2034) := fun v2034 => decidable_of_iff' _ (Iff.of_eq (k0_chk199.eq_1 v2034))
theorem k0_off201_inb : ∀ (v2034 : BitVec 32) (k0_hw199 : k0_chk199 v2034), ∀ a, (k0_off201 v2034) a + S1x1x32.size a ≤ S26x100001x32.size a := fun v2034 k0_hw199 => k0_hw199

def k0_off202 (v2044 : BitVec 32) : Fin 3 → Nat :=
  let c17_i32_1607 : BitVec 32 := 17#32
  let c0_i32_1612 : BitVec 32 := 0#32
  ![17, v2044.toNat, 0]

def k0_chk200 (v2044 : BitVec 32) : Prop :=
  (∀ a, (k0_off202 v2044) a + S1x1x32.size a ≤ S26x100001x32.size a)
instance k0_chk200.dec : ∀ (v2044 : BitVec 32), Decidable (k0_chk200 v2044) := fun v2044 => decidable_of_iff' _ (Iff.of_eq (k0_chk200.eq_1 v2044))
theorem k0_off202_inb : ∀ (v2044 : BitVec 32) (k0_hw200 : k0_chk200 v2044), ∀ a, (k0_off202 v2044) a + S1x1x32.size a ≤ S26x100001x32.size a := fun v2044 k0_hw200 => k0_hw200

def k0_off203 (v2054 : BitVec 32) : Fin 3 → Nat :=
  let c18_i32_1615 : BitVec 32 := 18#32
  let c0_i32_1620 : BitVec 32 := 0#32
  ![18, v2054.toNat, 0]

def k0_chk201 (v2054 : BitVec 32) : Prop :=
  (∀ a, (k0_off203 v2054) a + S1x1x32.size a ≤ S26x100001x32.size a)
instance k0_chk201.dec : ∀ (v2054 : BitVec 32), Decidable (k0_chk201 v2054) := fun v2054 => decidable_of_iff' _ (Iff.of_eq (k0_chk201.eq_1 v2054))
theorem k0_off203_inb : ∀ (v2054 : BitVec 32) (k0_hw201 : k0_chk201 v2054), ∀ a, (k0_off203 v2054) a + S1x1x32.size a ≤ S26x100001x32.size a := fun v2054 k0_hw201 => k0_hw201

def k0_off204 (v2064 : BitVec 32) : Fin 3 → Nat :=
  let c19_i32_1623 : BitVec 32 := 19#32
  let c0_i32_1628 : BitVec 32 := 0#32
  ![19, v2064.toNat, 0]

def k0_chk202 (v2064 : BitVec 32) : Prop :=
  (∀ a, (k0_off204 v2064) a + S1x1x32.size a ≤ S26x100001x32.size a)
instance k0_chk202.dec : ∀ (v2064 : BitVec 32), Decidable (k0_chk202 v2064) := fun v2064 => decidable_of_iff' _ (Iff.of_eq (k0_chk202.eq_1 v2064))
theorem k0_off204_inb : ∀ (v2064 : BitVec 32) (k0_hw202 : k0_chk202 v2064), ∀ a, (k0_off204 v2064) a + S1x1x32.size a ≤ S26x100001x32.size a := fun v2064 k0_hw202 => k0_hw202

def k0_off205 (v2074 : BitVec 32) : Fin 3 → Nat :=
  let c20_i32_1631 : BitVec 32 := 20#32
  let c0_i32_1636 : BitVec 32 := 0#32
  ![20, v2074.toNat, 0]

def k0_chk203 (v2074 : BitVec 32) : Prop :=
  (∀ a, (k0_off205 v2074) a + S1x1x32.size a ≤ S26x100001x32.size a)
instance k0_chk203.dec : ∀ (v2074 : BitVec 32), Decidable (k0_chk203 v2074) := fun v2074 => decidable_of_iff' _ (Iff.of_eq (k0_chk203.eq_1 v2074))
theorem k0_off205_inb : ∀ (v2074 : BitVec 32) (k0_hw203 : k0_chk203 v2074), ∀ a, (k0_off205 v2074) a + S1x1x32.size a ≤ S26x100001x32.size a := fun v2074 k0_hw203 => k0_hw203

def k0_off206 (v2084 : BitVec 32) : Fin 3 → Nat :=
  let c21_i32_1639 : BitVec 32 := 21#32
  let c0_i32_1644 : BitVec 32 := 0#32
  ![21, v2084.toNat, 0]

def k0_chk204 (v2084 : BitVec 32) : Prop :=
  (∀ a, (k0_off206 v2084) a + S1x1x32.size a ≤ S26x100001x32.size a)
instance k0_chk204.dec : ∀ (v2084 : BitVec 32), Decidable (k0_chk204 v2084) := fun v2084 => decidable_of_iff' _ (Iff.of_eq (k0_chk204.eq_1 v2084))
theorem k0_off206_inb : ∀ (v2084 : BitVec 32) (k0_hw204 : k0_chk204 v2084), ∀ a, (k0_off206 v2084) a + S1x1x32.size a ≤ S26x100001x32.size a := fun v2084 k0_hw204 => k0_hw204

def k0_off207 (v2094 : BitVec 32) : Fin 3 → Nat :=
  let c22_i32_1647 : BitVec 32 := 22#32
  let c0_i32_1652 : BitVec 32 := 0#32
  ![22, v2094.toNat, 0]

def k0_chk205 (v2094 : BitVec 32) : Prop :=
  (∀ a, (k0_off207 v2094) a + S1x1x32.size a ≤ S26x100001x32.size a)
instance k0_chk205.dec : ∀ (v2094 : BitVec 32), Decidable (k0_chk205 v2094) := fun v2094 => decidable_of_iff' _ (Iff.of_eq (k0_chk205.eq_1 v2094))
theorem k0_off207_inb : ∀ (v2094 : BitVec 32) (k0_hw205 : k0_chk205 v2094), ∀ a, (k0_off207 v2094) a + S1x1x32.size a ≤ S26x100001x32.size a := fun v2094 k0_hw205 => k0_hw205

def k0_off208 (v2104 : BitVec 32) : Fin 3 → Nat :=
  let c23_i32_1655 : BitVec 32 := 23#32
  let c0_i32_1660 : BitVec 32 := 0#32
  ![23, v2104.toNat, 0]

def k0_chk206 (v2104 : BitVec 32) : Prop :=
  (∀ a, (k0_off208 v2104) a + S1x1x32.size a ≤ S26x100001x32.size a)
instance k0_chk206.dec : ∀ (v2104 : BitVec 32), Decidable (k0_chk206 v2104) := fun v2104 => decidable_of_iff' _ (Iff.of_eq (k0_chk206.eq_1 v2104))
theorem k0_off208_inb : ∀ (v2104 : BitVec 32) (k0_hw206 : k0_chk206 v2104), ∀ a, (k0_off208 v2104) a + S1x1x32.size a ≤ S26x100001x32.size a := fun v2104 k0_hw206 => k0_hw206

def k0_off209 (v2114 : BitVec 32) : Fin 3 → Nat :=
  let c24_i32_1663 : BitVec 32 := 24#32
  let c0_i32_1668 : BitVec 32 := 0#32
  ![24, v2114.toNat, 0]

def k0_chk207 (v2114 : BitVec 32) : Prop :=
  (∀ a, (k0_off209 v2114) a + S1x1x32.size a ≤ S26x100001x32.size a)
instance k0_chk207.dec : ∀ (v2114 : BitVec 32), Decidable (k0_chk207 v2114) := fun v2114 => decidable_of_iff' _ (Iff.of_eq (k0_chk207.eq_1 v2114))
theorem k0_off209_inb : ∀ (v2114 : BitVec 32) (k0_hw207 : k0_chk207 v2114), ∀ a, (k0_off209 v2114) a + S1x1x32.size a ≤ S26x100001x32.size a := fun v2114 k0_hw207 => k0_hw207

def k0_off210 (v2124 : BitVec 32) : Fin 3 → Nat :=
  let c25_i32_1671 : BitVec 32 := 25#32
  let c0_i32_1676 : BitVec 32 := 0#32
  ![25, v2124.toNat, 0]

def k0_chk208 (v2124 : BitVec 32) : Prop :=
  (∀ a, (k0_off210 v2124) a + S1x1x32.size a ≤ S26x100001x32.size a)
instance k0_chk208.dec : ∀ (v2124 : BitVec 32), Decidable (k0_chk208 v2124) := fun v2124 => decidable_of_iff' _ (Iff.of_eq (k0_chk208.eq_1 v2124))
theorem k0_off210_inb : ∀ (v2124 : BitVec 32) (k0_hw208 : k0_chk208 v2124), ∀ a, (k0_off210 v2124) a + S1x1x32.size a ≤ S26x100001x32.size a := fun v2124 k0_hw208 => k0_hw208

@[reducible] def k0_t3_loop : Scf.Loop 32 :=
  let c0_i32_1680 : BitVec 32 := 0#32
  let c32_i32 : BitVec 32 := 32#32
  let v2133 : BitVec 32 := Scalar.addi c0_i32_1680 c32_i32
  let c1_i32_1681 : BitVec 32 := 1#32
  ⟨c0_i32_1680, v2133, c1_i32_1681⟩
def k0_cond2 (k0_t3 : Fin k0_t3_loop.trips) : BitVec 1 :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1699 : BitVec 32 := 1#32
  let v2144 : BitVec 32 := Scalar.addi v2140 c1_i32_1699
  let c64_i32 : BitVec 32 := 64#32
  let v2145 : BitVec 1 := Scalar.cmpi .slt v2144 c64_i32
  let v2146 : BitVec 32 := Scalar.extui v2145
  let c0_i32_1700 : BitVec 32 := 0#32
  let v2147 : BitVec 1 := Scalar.cmpi .ne v2146 c0_i32_1700
  v2147

def k0_off211 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c0_i32_1743 : BitVec 32 := 0#32
  let v2177 : BitVec 32 := Scalar.addi v2176 c0_i32_1743
  let v2178 : Index := Scalar.indexCast v2177
  let c0_1744 : Index := 0#32
  ![v2178.toNat, 0]
def k0_off212 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c0_i32_1745 : BitVec 32 := 0#32
  let v2181 : BitVec 32 := Scalar.addi v2176 c0_i32_1745
  let v2182 : Index := Scalar.indexCast v2181
  let c16_1746 : Index := 16#32
  ![v2182.toNat, 16]
def k0_off213 (v2186 : BitVec 32) : Fin 3 → Nat :=
  let c0_i32_1747 : BitVec 32 := 0#32
  let c0_i32_1752 : BitVec 32 := 0#32
  ![0, v2186.toNat, 0]

def k0_chk209 (k0_t3 : Fin k0_t3_loop.trips) (v2186 : BitVec 32) : Prop :=
  (∀ (k0_h2 : k0_cond2 k0_t3 = 1#1), ∀ a, (k0_off213 v2186) a + S1x1x32.size a ≤ S26x100001x32.size a)
instance k0_chk209.dec : ∀ (k0_t3 : Fin k0_t3_loop.trips) (v2186 : BitVec 32), Decidable (k0_chk209 k0_t3 v2186) := fun k0_t3 v2186 => decidable_of_iff' _ (Iff.of_eq (k0_chk209.eq_1 k0_t3 v2186))
theorem k0_off213_inb : ∀ (k0_t3 : Fin k0_t3_loop.trips) (v2186 : BitVec 32) (k0_hw209 : k0_chk209 k0_t3 v2186), ∀ (k0_h2 : k0_cond2 k0_t3 = 1#1), ∀ a, (k0_off213 v2186) a + S1x1x32.size a ≤ S26x100001x32.size a := fun k0_t3 v2186 k0_hw209 k0_h2 => k0_hw209 k0_h2

def k0_off214 (v2196 : BitVec 32) : Fin 3 → Nat :=
  let c1_i32_1755 : BitVec 32 := 1#32
  let c0_i32_1760 : BitVec 32 := 0#32
  ![1, v2196.toNat, 0]

def k0_chk210 (k0_t3 : Fin k0_t3_loop.trips) (v2196 : BitVec 32) : Prop :=
  (∀ (k0_h2 : k0_cond2 k0_t3 = 1#1), ∀ a, (k0_off214 v2196) a + S1x1x32.size a ≤ S26x100001x32.size a)
instance k0_chk210.dec : ∀ (k0_t3 : Fin k0_t3_loop.trips) (v2196 : BitVec 32), Decidable (k0_chk210 k0_t3 v2196) := fun k0_t3 v2196 => decidable_of_iff' _ (Iff.of_eq (k0_chk210.eq_1 k0_t3 v2196))
theorem k0_off214_inb : ∀ (k0_t3 : Fin k0_t3_loop.trips) (v2196 : BitVec 32) (k0_hw210 : k0_chk210 k0_t3 v2196), ∀ (k0_h2 : k0_cond2 k0_t3 = 1#1), ∀ a, (k0_off214 v2196) a + S1x1x32.size a ≤ S26x100001x32.size a := fun k0_t3 v2196 k0_hw210 k0_h2 => k0_hw210 k0_h2

def k0_off215 (v2206 : BitVec 32) : Fin 3 → Nat :=
  let c2_i32_1763 : BitVec 32 := 2#32
  let c0_i32_1768 : BitVec 32 := 0#32
  ![2, v2206.toNat, 0]

def k0_chk211 (k0_t3 : Fin k0_t3_loop.trips) (v2206 : BitVec 32) : Prop :=
  (∀ (k0_h2 : k0_cond2 k0_t3 = 1#1), ∀ a, (k0_off215 v2206) a + S1x1x32.size a ≤ S26x100001x32.size a)
instance k0_chk211.dec : ∀ (k0_t3 : Fin k0_t3_loop.trips) (v2206 : BitVec 32), Decidable (k0_chk211 k0_t3 v2206) := fun k0_t3 v2206 => decidable_of_iff' _ (Iff.of_eq (k0_chk211.eq_1 k0_t3 v2206))
theorem k0_off215_inb : ∀ (k0_t3 : Fin k0_t3_loop.trips) (v2206 : BitVec 32) (k0_hw211 : k0_chk211 k0_t3 v2206), ∀ (k0_h2 : k0_cond2 k0_t3 = 1#1), ∀ a, (k0_off215 v2206) a + S1x1x32.size a ≤ S26x100001x32.size a := fun k0_t3 v2206 k0_hw211 k0_h2 => k0_hw211 k0_h2

def k0_off216 (v2216 : BitVec 32) : Fin 3 → Nat :=
  let c3_i32_1771 : BitVec 32 := 3#32
  let c0_i32_1776 : BitVec 32 := 0#32
  ![3, v2216.toNat, 0]

def k0_chk212 (k0_t3 : Fin k0_t3_loop.trips) (v2216 : BitVec 32) : Prop :=
  (∀ (k0_h2 : k0_cond2 k0_t3 = 1#1), ∀ a, (k0_off216 v2216) a + S1x1x32.size a ≤ S26x100001x32.size a)
instance k0_chk212.dec : ∀ (k0_t3 : Fin k0_t3_loop.trips) (v2216 : BitVec 32), Decidable (k0_chk212 k0_t3 v2216) := fun k0_t3 v2216 => decidable_of_iff' _ (Iff.of_eq (k0_chk212.eq_1 k0_t3 v2216))
theorem k0_off216_inb : ∀ (k0_t3 : Fin k0_t3_loop.trips) (v2216 : BitVec 32) (k0_hw212 : k0_chk212 k0_t3 v2216), ∀ (k0_h2 : k0_cond2 k0_t3 = 1#1), ∀ a, (k0_off216 v2216) a + S1x1x32.size a ≤ S26x100001x32.size a := fun k0_t3 v2216 k0_hw212 k0_h2 => k0_hw212 k0_h2

def k0_off217 (v2226 : BitVec 32) : Fin 3 → Nat :=
  let c4_i32_1779 : BitVec 32 := 4#32
  let c0_i32_1784 : BitVec 32 := 0#32
  ![4, v2226.toNat, 0]

def k0_chk213 (k0_t3 : Fin k0_t3_loop.trips) (v2226 : BitVec 32) : Prop :=
  (∀ (k0_h2 : k0_cond2 k0_t3 = 1#1), ∀ a, (k0_off217 v2226) a + S1x1x32.size a ≤ S26x100001x32.size a)
instance k0_chk213.dec : ∀ (k0_t3 : Fin k0_t3_loop.trips) (v2226 : BitVec 32), Decidable (k0_chk213 k0_t3 v2226) := fun k0_t3 v2226 => decidable_of_iff' _ (Iff.of_eq (k0_chk213.eq_1 k0_t3 v2226))
theorem k0_off217_inb : ∀ (k0_t3 : Fin k0_t3_loop.trips) (v2226 : BitVec 32) (k0_hw213 : k0_chk213 k0_t3 v2226), ∀ (k0_h2 : k0_cond2 k0_t3 = 1#1), ∀ a, (k0_off217 v2226) a + S1x1x32.size a ≤ S26x100001x32.size a := fun k0_t3 v2226 k0_hw213 k0_h2 => k0_hw213 k0_h2

def k0_off218 (v2236 : BitVec 32) : Fin 3 → Nat :=
  let c5_i32_1787 : BitVec 32 := 5#32
  let c0_i32_1792 : BitVec 32 := 0#32
  ![5, v2236.toNat, 0]

def k0_chk214 (k0_t3 : Fin k0_t3_loop.trips) (v2236 : BitVec 32) : Prop :=
  (∀ (k0_h2 : k0_cond2 k0_t3 = 1#1), ∀ a, (k0_off218 v2236) a + S1x1x32.size a ≤ S26x100001x32.size a)
instance k0_chk214.dec : ∀ (k0_t3 : Fin k0_t3_loop.trips) (v2236 : BitVec 32), Decidable (k0_chk214 k0_t3 v2236) := fun k0_t3 v2236 => decidable_of_iff' _ (Iff.of_eq (k0_chk214.eq_1 k0_t3 v2236))
theorem k0_off218_inb : ∀ (k0_t3 : Fin k0_t3_loop.trips) (v2236 : BitVec 32) (k0_hw214 : k0_chk214 k0_t3 v2236), ∀ (k0_h2 : k0_cond2 k0_t3 = 1#1), ∀ a, (k0_off218 v2236) a + S1x1x32.size a ≤ S26x100001x32.size a := fun k0_t3 v2236 k0_hw214 k0_h2 => k0_hw214 k0_h2

def k0_off219 (v2246 : BitVec 32) : Fin 3 → Nat :=
  let c6_i32_1795 : BitVec 32 := 6#32
  let c0_i32_1800 : BitVec 32 := 0#32
  ![6, v2246.toNat, 0]

def k0_chk215 (k0_t3 : Fin k0_t3_loop.trips) (v2246 : BitVec 32) : Prop :=
  (∀ (k0_h2 : k0_cond2 k0_t3 = 1#1), ∀ a, (k0_off219 v2246) a + S1x1x32.size a ≤ S26x100001x32.size a)
instance k0_chk215.dec : ∀ (k0_t3 : Fin k0_t3_loop.trips) (v2246 : BitVec 32), Decidable (k0_chk215 k0_t3 v2246) := fun k0_t3 v2246 => decidable_of_iff' _ (Iff.of_eq (k0_chk215.eq_1 k0_t3 v2246))
theorem k0_off219_inb : ∀ (k0_t3 : Fin k0_t3_loop.trips) (v2246 : BitVec 32) (k0_hw215 : k0_chk215 k0_t3 v2246), ∀ (k0_h2 : k0_cond2 k0_t3 = 1#1), ∀ a, (k0_off219 v2246) a + S1x1x32.size a ≤ S26x100001x32.size a := fun k0_t3 v2246 k0_hw215 k0_h2 => k0_hw215 k0_h2

def k0_off220 (v2256 : BitVec 32) : Fin 3 → Nat :=
  let c7_i32_1803 : BitVec 32 := 7#32
  let c0_i32_1808 : BitVec 32 := 0#32
  ![7, v2256.toNat, 0]

def k0_chk216 (k0_t3 : Fin k0_t3_loop.trips) (v2256 : BitVec 32) : Prop :=
  (∀ (k0_h2 : k0_cond2 k0_t3 = 1#1), ∀ a, (k0_off220 v2256) a + S1x1x32.size a ≤ S26x100001x32.size a)
instance k0_chk216.dec : ∀ (k0_t3 : Fin k0_t3_loop.trips) (v2256 : BitVec 32), Decidable (k0_chk216 k0_t3 v2256) := fun k0_t3 v2256 => decidable_of_iff' _ (Iff.of_eq (k0_chk216.eq_1 k0_t3 v2256))
theorem k0_off220_inb : ∀ (k0_t3 : Fin k0_t3_loop.trips) (v2256 : BitVec 32) (k0_hw216 : k0_chk216 k0_t3 v2256), ∀ (k0_h2 : k0_cond2 k0_t3 = 1#1), ∀ a, (k0_off220 v2256) a + S1x1x32.size a ≤ S26x100001x32.size a := fun k0_t3 v2256 k0_hw216 k0_h2 => k0_hw216 k0_h2

def k0_off221 (v2266 : BitVec 32) : Fin 3 → Nat :=
  let c8_i32_1811 : BitVec 32 := 8#32
  let c0_i32_1816 : BitVec 32 := 0#32
  ![8, v2266.toNat, 0]

def k0_chk217 (k0_t3 : Fin k0_t3_loop.trips) (v2266 : BitVec 32) : Prop :=
  (∀ (k0_h2 : k0_cond2 k0_t3 = 1#1), ∀ a, (k0_off221 v2266) a + S1x1x32.size a ≤ S26x100001x32.size a)
instance k0_chk217.dec : ∀ (k0_t3 : Fin k0_t3_loop.trips) (v2266 : BitVec 32), Decidable (k0_chk217 k0_t3 v2266) := fun k0_t3 v2266 => decidable_of_iff' _ (Iff.of_eq (k0_chk217.eq_1 k0_t3 v2266))
theorem k0_off221_inb : ∀ (k0_t3 : Fin k0_t3_loop.trips) (v2266 : BitVec 32) (k0_hw217 : k0_chk217 k0_t3 v2266), ∀ (k0_h2 : k0_cond2 k0_t3 = 1#1), ∀ a, (k0_off221 v2266) a + S1x1x32.size a ≤ S26x100001x32.size a := fun k0_t3 v2266 k0_hw217 k0_h2 => k0_hw217 k0_h2

def k0_off222 (v2276 : BitVec 32) : Fin 3 → Nat :=
  let c9_i32_1819 : BitVec 32 := 9#32
  let c0_i32_1824 : BitVec 32 := 0#32
  ![9, v2276.toNat, 0]

def k0_chk218 (k0_t3 : Fin k0_t3_loop.trips) (v2276 : BitVec 32) : Prop :=
  (∀ (k0_h2 : k0_cond2 k0_t3 = 1#1), ∀ a, (k0_off222 v2276) a + S1x1x32.size a ≤ S26x100001x32.size a)
instance k0_chk218.dec : ∀ (k0_t3 : Fin k0_t3_loop.trips) (v2276 : BitVec 32), Decidable (k0_chk218 k0_t3 v2276) := fun k0_t3 v2276 => decidable_of_iff' _ (Iff.of_eq (k0_chk218.eq_1 k0_t3 v2276))
theorem k0_off222_inb : ∀ (k0_t3 : Fin k0_t3_loop.trips) (v2276 : BitVec 32) (k0_hw218 : k0_chk218 k0_t3 v2276), ∀ (k0_h2 : k0_cond2 k0_t3 = 1#1), ∀ a, (k0_off222 v2276) a + S1x1x32.size a ≤ S26x100001x32.size a := fun k0_t3 v2276 k0_hw218 k0_h2 => k0_hw218 k0_h2

def k0_off223 (v2286 : BitVec 32) : Fin 3 → Nat :=
  let c10_i32_1827 : BitVec 32 := 10#32
  let c0_i32_1832 : BitVec 32 := 0#32
  ![10, v2286.toNat, 0]

def k0_chk219 (k0_t3 : Fin k0_t3_loop.trips) (v2286 : BitVec 32) : Prop :=
  (∀ (k0_h2 : k0_cond2 k0_t3 = 1#1), ∀ a, (k0_off223 v2286) a + S1x1x32.size a ≤ S26x100001x32.size a)
instance k0_chk219.dec : ∀ (k0_t3 : Fin k0_t3_loop.trips) (v2286 : BitVec 32), Decidable (k0_chk219 k0_t3 v2286) := fun k0_t3 v2286 => decidable_of_iff' _ (Iff.of_eq (k0_chk219.eq_1 k0_t3 v2286))
theorem k0_off223_inb : ∀ (k0_t3 : Fin k0_t3_loop.trips) (v2286 : BitVec 32) (k0_hw219 : k0_chk219 k0_t3 v2286), ∀ (k0_h2 : k0_cond2 k0_t3 = 1#1), ∀ a, (k0_off223 v2286) a + S1x1x32.size a ≤ S26x100001x32.size a := fun k0_t3 v2286 k0_hw219 k0_h2 => k0_hw219 k0_h2

def k0_off224 (v2296 : BitVec 32) : Fin 3 → Nat :=
  let c11_i32_1835 : BitVec 32 := 11#32
  let c0_i32_1840 : BitVec 32 := 0#32
  ![11, v2296.toNat, 0]

def k0_chk220 (k0_t3 : Fin k0_t3_loop.trips) (v2296 : BitVec 32) : Prop :=
  (∀ (k0_h2 : k0_cond2 k0_t3 = 1#1), ∀ a, (k0_off224 v2296) a + S1x1x32.size a ≤ S26x100001x32.size a)
instance k0_chk220.dec : ∀ (k0_t3 : Fin k0_t3_loop.trips) (v2296 : BitVec 32), Decidable (k0_chk220 k0_t3 v2296) := fun k0_t3 v2296 => decidable_of_iff' _ (Iff.of_eq (k0_chk220.eq_1 k0_t3 v2296))
theorem k0_off224_inb : ∀ (k0_t3 : Fin k0_t3_loop.trips) (v2296 : BitVec 32) (k0_hw220 : k0_chk220 k0_t3 v2296), ∀ (k0_h2 : k0_cond2 k0_t3 = 1#1), ∀ a, (k0_off224 v2296) a + S1x1x32.size a ≤ S26x100001x32.size a := fun k0_t3 v2296 k0_hw220 k0_h2 => k0_hw220 k0_h2

def k0_off225 (v2306 : BitVec 32) : Fin 3 → Nat :=
  let c12_i32_1843 : BitVec 32 := 12#32
  let c0_i32_1848 : BitVec 32 := 0#32
  ![12, v2306.toNat, 0]

def k0_chk221 (k0_t3 : Fin k0_t3_loop.trips) (v2306 : BitVec 32) : Prop :=
  (∀ (k0_h2 : k0_cond2 k0_t3 = 1#1), ∀ a, (k0_off225 v2306) a + S1x1x32.size a ≤ S26x100001x32.size a)
instance k0_chk221.dec : ∀ (k0_t3 : Fin k0_t3_loop.trips) (v2306 : BitVec 32), Decidable (k0_chk221 k0_t3 v2306) := fun k0_t3 v2306 => decidable_of_iff' _ (Iff.of_eq (k0_chk221.eq_1 k0_t3 v2306))
theorem k0_off225_inb : ∀ (k0_t3 : Fin k0_t3_loop.trips) (v2306 : BitVec 32) (k0_hw221 : k0_chk221 k0_t3 v2306), ∀ (k0_h2 : k0_cond2 k0_t3 = 1#1), ∀ a, (k0_off225 v2306) a + S1x1x32.size a ≤ S26x100001x32.size a := fun k0_t3 v2306 k0_hw221 k0_h2 => k0_hw221 k0_h2

def k0_off226 (v2316 : BitVec 32) : Fin 3 → Nat :=
  let c13_i32_1851 : BitVec 32 := 13#32
  let c0_i32_1856 : BitVec 32 := 0#32
  ![13, v2316.toNat, 0]

def k0_chk222 (k0_t3 : Fin k0_t3_loop.trips) (v2316 : BitVec 32) : Prop :=
  (∀ (k0_h2 : k0_cond2 k0_t3 = 1#1), ∀ a, (k0_off226 v2316) a + S1x1x32.size a ≤ S26x100001x32.size a)
instance k0_chk222.dec : ∀ (k0_t3 : Fin k0_t3_loop.trips) (v2316 : BitVec 32), Decidable (k0_chk222 k0_t3 v2316) := fun k0_t3 v2316 => decidable_of_iff' _ (Iff.of_eq (k0_chk222.eq_1 k0_t3 v2316))
theorem k0_off226_inb : ∀ (k0_t3 : Fin k0_t3_loop.trips) (v2316 : BitVec 32) (k0_hw222 : k0_chk222 k0_t3 v2316), ∀ (k0_h2 : k0_cond2 k0_t3 = 1#1), ∀ a, (k0_off226 v2316) a + S1x1x32.size a ≤ S26x100001x32.size a := fun k0_t3 v2316 k0_hw222 k0_h2 => k0_hw222 k0_h2

def k0_off227 (v2326 : BitVec 32) : Fin 3 → Nat :=
  let c14_i32_1859 : BitVec 32 := 14#32
  let c0_i32_1864 : BitVec 32 := 0#32
  ![14, v2326.toNat, 0]

def k0_chk223 (k0_t3 : Fin k0_t3_loop.trips) (v2326 : BitVec 32) : Prop :=
  (∀ (k0_h2 : k0_cond2 k0_t3 = 1#1), ∀ a, (k0_off227 v2326) a + S1x1x32.size a ≤ S26x100001x32.size a)
instance k0_chk223.dec : ∀ (k0_t3 : Fin k0_t3_loop.trips) (v2326 : BitVec 32), Decidable (k0_chk223 k0_t3 v2326) := fun k0_t3 v2326 => decidable_of_iff' _ (Iff.of_eq (k0_chk223.eq_1 k0_t3 v2326))
theorem k0_off227_inb : ∀ (k0_t3 : Fin k0_t3_loop.trips) (v2326 : BitVec 32) (k0_hw223 : k0_chk223 k0_t3 v2326), ∀ (k0_h2 : k0_cond2 k0_t3 = 1#1), ∀ a, (k0_off227 v2326) a + S1x1x32.size a ≤ S26x100001x32.size a := fun k0_t3 v2326 k0_hw223 k0_h2 => k0_hw223 k0_h2

def k0_off228 (v2336 : BitVec 32) : Fin 3 → Nat :=
  let c15_i32_1867 : BitVec 32 := 15#32
  let c0_i32_1872 : BitVec 32 := 0#32
  ![15, v2336.toNat, 0]

def k0_chk224 (k0_t3 : Fin k0_t3_loop.trips) (v2336 : BitVec 32) : Prop :=
  (∀ (k0_h2 : k0_cond2 k0_t3 = 1#1), ∀ a, (k0_off228 v2336) a + S1x1x32.size a ≤ S26x100001x32.size a)
instance k0_chk224.dec : ∀ (k0_t3 : Fin k0_t3_loop.trips) (v2336 : BitVec 32), Decidable (k0_chk224 k0_t3 v2336) := fun k0_t3 v2336 => decidable_of_iff' _ (Iff.of_eq (k0_chk224.eq_1 k0_t3 v2336))
theorem k0_off228_inb : ∀ (k0_t3 : Fin k0_t3_loop.trips) (v2336 : BitVec 32) (k0_hw224 : k0_chk224 k0_t3 v2336), ∀ (k0_h2 : k0_cond2 k0_t3 = 1#1), ∀ a, (k0_off228 v2336) a + S1x1x32.size a ≤ S26x100001x32.size a := fun k0_t3 v2336 k0_hw224 k0_h2 => k0_hw224 k0_h2

def k0_off229 (v2346 : BitVec 32) : Fin 3 → Nat :=
  let c16_i32_1875 : BitVec 32 := 16#32
  let c0_i32_1880 : BitVec 32 := 0#32
  ![16, v2346.toNat, 0]

def k0_chk225 (k0_t3 : Fin k0_t3_loop.trips) (v2346 : BitVec 32) : Prop :=
  (∀ (k0_h2 : k0_cond2 k0_t3 = 1#1), ∀ a, (k0_off229 v2346) a + S1x1x32.size a ≤ S26x100001x32.size a)
instance k0_chk225.dec : ∀ (k0_t3 : Fin k0_t3_loop.trips) (v2346 : BitVec 32), Decidable (k0_chk225 k0_t3 v2346) := fun k0_t3 v2346 => decidable_of_iff' _ (Iff.of_eq (k0_chk225.eq_1 k0_t3 v2346))
theorem k0_off229_inb : ∀ (k0_t3 : Fin k0_t3_loop.trips) (v2346 : BitVec 32) (k0_hw225 : k0_chk225 k0_t3 v2346), ∀ (k0_h2 : k0_cond2 k0_t3 = 1#1), ∀ a, (k0_off229 v2346) a + S1x1x32.size a ≤ S26x100001x32.size a := fun k0_t3 v2346 k0_hw225 k0_h2 => k0_hw225 k0_h2

def k0_off230 (v2356 : BitVec 32) : Fin 3 → Nat :=
  let c17_i32_1883 : BitVec 32 := 17#32
  let c0_i32_1888 : BitVec 32 := 0#32
  ![17, v2356.toNat, 0]

def k0_chk226 (k0_t3 : Fin k0_t3_loop.trips) (v2356 : BitVec 32) : Prop :=
  (∀ (k0_h2 : k0_cond2 k0_t3 = 1#1), ∀ a, (k0_off230 v2356) a + S1x1x32.size a ≤ S26x100001x32.size a)
instance k0_chk226.dec : ∀ (k0_t3 : Fin k0_t3_loop.trips) (v2356 : BitVec 32), Decidable (k0_chk226 k0_t3 v2356) := fun k0_t3 v2356 => decidable_of_iff' _ (Iff.of_eq (k0_chk226.eq_1 k0_t3 v2356))
theorem k0_off230_inb : ∀ (k0_t3 : Fin k0_t3_loop.trips) (v2356 : BitVec 32) (k0_hw226 : k0_chk226 k0_t3 v2356), ∀ (k0_h2 : k0_cond2 k0_t3 = 1#1), ∀ a, (k0_off230 v2356) a + S1x1x32.size a ≤ S26x100001x32.size a := fun k0_t3 v2356 k0_hw226 k0_h2 => k0_hw226 k0_h2

def k0_off231 (v2366 : BitVec 32) : Fin 3 → Nat :=
  let c18_i32_1891 : BitVec 32 := 18#32
  let c0_i32_1896 : BitVec 32 := 0#32
  ![18, v2366.toNat, 0]

def k0_chk227 (k0_t3 : Fin k0_t3_loop.trips) (v2366 : BitVec 32) : Prop :=
  (∀ (k0_h2 : k0_cond2 k0_t3 = 1#1), ∀ a, (k0_off231 v2366) a + S1x1x32.size a ≤ S26x100001x32.size a)
instance k0_chk227.dec : ∀ (k0_t3 : Fin k0_t3_loop.trips) (v2366 : BitVec 32), Decidable (k0_chk227 k0_t3 v2366) := fun k0_t3 v2366 => decidable_of_iff' _ (Iff.of_eq (k0_chk227.eq_1 k0_t3 v2366))
theorem k0_off231_inb : ∀ (k0_t3 : Fin k0_t3_loop.trips) (v2366 : BitVec 32) (k0_hw227 : k0_chk227 k0_t3 v2366), ∀ (k0_h2 : k0_cond2 k0_t3 = 1#1), ∀ a, (k0_off231 v2366) a + S1x1x32.size a ≤ S26x100001x32.size a := fun k0_t3 v2366 k0_hw227 k0_h2 => k0_hw227 k0_h2

def k0_off232 (v2376 : BitVec 32) : Fin 3 → Nat :=
  let c19_i32_1899 : BitVec 32 := 19#32
  let c0_i32_1904 : BitVec 32 := 0#32
  ![19, v2376.toNat, 0]

def k0_chk228 (k0_t3 : Fin k0_t3_loop.trips) (v2376 : BitVec 32) : Prop :=
  (∀ (k0_h2 : k0_cond2 k0_t3 = 1#1), ∀ a, (k0_off232 v2376) a + S1x1x32.size a ≤ S26x100001x32.size a)
instance k0_chk228.dec : ∀ (k0_t3 : Fin k0_t3_loop.trips) (v2376 : BitVec 32), Decidable (k0_chk228 k0_t3 v2376) := fun k0_t3 v2376 => decidable_of_iff' _ (Iff.of_eq (k0_chk228.eq_1 k0_t3 v2376))
theorem k0_off232_inb : ∀ (k0_t3 : Fin k0_t3_loop.trips) (v2376 : BitVec 32) (k0_hw228 : k0_chk228 k0_t3 v2376), ∀ (k0_h2 : k0_cond2 k0_t3 = 1#1), ∀ a, (k0_off232 v2376) a + S1x1x32.size a ≤ S26x100001x32.size a := fun k0_t3 v2376 k0_hw228 k0_h2 => k0_hw228 k0_h2

def k0_off233 (v2386 : BitVec 32) : Fin 3 → Nat :=
  let c20_i32_1907 : BitVec 32 := 20#32
  let c0_i32_1912 : BitVec 32 := 0#32
  ![20, v2386.toNat, 0]

def k0_chk229 (k0_t3 : Fin k0_t3_loop.trips) (v2386 : BitVec 32) : Prop :=
  (∀ (k0_h2 : k0_cond2 k0_t3 = 1#1), ∀ a, (k0_off233 v2386) a + S1x1x32.size a ≤ S26x100001x32.size a)
instance k0_chk229.dec : ∀ (k0_t3 : Fin k0_t3_loop.trips) (v2386 : BitVec 32), Decidable (k0_chk229 k0_t3 v2386) := fun k0_t3 v2386 => decidable_of_iff' _ (Iff.of_eq (k0_chk229.eq_1 k0_t3 v2386))
theorem k0_off233_inb : ∀ (k0_t3 : Fin k0_t3_loop.trips) (v2386 : BitVec 32) (k0_hw229 : k0_chk229 k0_t3 v2386), ∀ (k0_h2 : k0_cond2 k0_t3 = 1#1), ∀ a, (k0_off233 v2386) a + S1x1x32.size a ≤ S26x100001x32.size a := fun k0_t3 v2386 k0_hw229 k0_h2 => k0_hw229 k0_h2

def k0_off234 (v2396 : BitVec 32) : Fin 3 → Nat :=
  let c21_i32_1915 : BitVec 32 := 21#32
  let c0_i32_1920 : BitVec 32 := 0#32
  ![21, v2396.toNat, 0]

def k0_chk230 (k0_t3 : Fin k0_t3_loop.trips) (v2396 : BitVec 32) : Prop :=
  (∀ (k0_h2 : k0_cond2 k0_t3 = 1#1), ∀ a, (k0_off234 v2396) a + S1x1x32.size a ≤ S26x100001x32.size a)
instance k0_chk230.dec : ∀ (k0_t3 : Fin k0_t3_loop.trips) (v2396 : BitVec 32), Decidable (k0_chk230 k0_t3 v2396) := fun k0_t3 v2396 => decidable_of_iff' _ (Iff.of_eq (k0_chk230.eq_1 k0_t3 v2396))
theorem k0_off234_inb : ∀ (k0_t3 : Fin k0_t3_loop.trips) (v2396 : BitVec 32) (k0_hw230 : k0_chk230 k0_t3 v2396), ∀ (k0_h2 : k0_cond2 k0_t3 = 1#1), ∀ a, (k0_off234 v2396) a + S1x1x32.size a ≤ S26x100001x32.size a := fun k0_t3 v2396 k0_hw230 k0_h2 => k0_hw230 k0_h2

def k0_off235 (v2406 : BitVec 32) : Fin 3 → Nat :=
  let c22_i32_1923 : BitVec 32 := 22#32
  let c0_i32_1928 : BitVec 32 := 0#32
  ![22, v2406.toNat, 0]

def k0_chk231 (k0_t3 : Fin k0_t3_loop.trips) (v2406 : BitVec 32) : Prop :=
  (∀ (k0_h2 : k0_cond2 k0_t3 = 1#1), ∀ a, (k0_off235 v2406) a + S1x1x32.size a ≤ S26x100001x32.size a)
instance k0_chk231.dec : ∀ (k0_t3 : Fin k0_t3_loop.trips) (v2406 : BitVec 32), Decidable (k0_chk231 k0_t3 v2406) := fun k0_t3 v2406 => decidable_of_iff' _ (Iff.of_eq (k0_chk231.eq_1 k0_t3 v2406))
theorem k0_off235_inb : ∀ (k0_t3 : Fin k0_t3_loop.trips) (v2406 : BitVec 32) (k0_hw231 : k0_chk231 k0_t3 v2406), ∀ (k0_h2 : k0_cond2 k0_t3 = 1#1), ∀ a, (k0_off235 v2406) a + S1x1x32.size a ≤ S26x100001x32.size a := fun k0_t3 v2406 k0_hw231 k0_h2 => k0_hw231 k0_h2

def k0_off236 (v2416 : BitVec 32) : Fin 3 → Nat :=
  let c23_i32_1931 : BitVec 32 := 23#32
  let c0_i32_1936 : BitVec 32 := 0#32
  ![23, v2416.toNat, 0]

def k0_chk232 (k0_t3 : Fin k0_t3_loop.trips) (v2416 : BitVec 32) : Prop :=
  (∀ (k0_h2 : k0_cond2 k0_t3 = 1#1), ∀ a, (k0_off236 v2416) a + S1x1x32.size a ≤ S26x100001x32.size a)
instance k0_chk232.dec : ∀ (k0_t3 : Fin k0_t3_loop.trips) (v2416 : BitVec 32), Decidable (k0_chk232 k0_t3 v2416) := fun k0_t3 v2416 => decidable_of_iff' _ (Iff.of_eq (k0_chk232.eq_1 k0_t3 v2416))
theorem k0_off236_inb : ∀ (k0_t3 : Fin k0_t3_loop.trips) (v2416 : BitVec 32) (k0_hw232 : k0_chk232 k0_t3 v2416), ∀ (k0_h2 : k0_cond2 k0_t3 = 1#1), ∀ a, (k0_off236 v2416) a + S1x1x32.size a ≤ S26x100001x32.size a := fun k0_t3 v2416 k0_hw232 k0_h2 => k0_hw232 k0_h2

def k0_off237 (v2426 : BitVec 32) : Fin 3 → Nat :=
  let c24_i32_1939 : BitVec 32 := 24#32
  let c0_i32_1944 : BitVec 32 := 0#32
  ![24, v2426.toNat, 0]

def k0_chk233 (k0_t3 : Fin k0_t3_loop.trips) (v2426 : BitVec 32) : Prop :=
  (∀ (k0_h2 : k0_cond2 k0_t3 = 1#1), ∀ a, (k0_off237 v2426) a + S1x1x32.size a ≤ S26x100001x32.size a)
instance k0_chk233.dec : ∀ (k0_t3 : Fin k0_t3_loop.trips) (v2426 : BitVec 32), Decidable (k0_chk233 k0_t3 v2426) := fun k0_t3 v2426 => decidable_of_iff' _ (Iff.of_eq (k0_chk233.eq_1 k0_t3 v2426))
theorem k0_off237_inb : ∀ (k0_t3 : Fin k0_t3_loop.trips) (v2426 : BitVec 32) (k0_hw233 : k0_chk233 k0_t3 v2426), ∀ (k0_h2 : k0_cond2 k0_t3 = 1#1), ∀ a, (k0_off237 v2426) a + S1x1x32.size a ≤ S26x100001x32.size a := fun k0_t3 v2426 k0_hw233 k0_h2 => k0_hw233 k0_h2

def k0_off238 (v2436 : BitVec 32) : Fin 3 → Nat :=
  let c25_i32_1947 : BitVec 32 := 25#32
  let c0_i32_1952 : BitVec 32 := 0#32
  ![25, v2436.toNat, 0]

def k0_chk234 (k0_t3 : Fin k0_t3_loop.trips) (v2436 : BitVec 32) : Prop :=
  (∀ (k0_h2 : k0_cond2 k0_t3 = 1#1), ∀ a, (k0_off238 v2436) a + S1x1x32.size a ≤ S26x100001x32.size a)
instance k0_chk234.dec : ∀ (k0_t3 : Fin k0_t3_loop.trips) (v2436 : BitVec 32), Decidable (k0_chk234 k0_t3 v2436) := fun k0_t3 v2436 => decidable_of_iff' _ (Iff.of_eq (k0_chk234.eq_1 k0_t3 v2436))
theorem k0_off238_inb : ∀ (k0_t3 : Fin k0_t3_loop.trips) (v2436 : BitVec 32) (k0_hw234 : k0_chk234 k0_t3 v2436), ∀ (k0_h2 : k0_cond2 k0_t3 = 1#1), ∀ a, (k0_off238 v2436) a + S1x1x32.size a ≤ S26x100001x32.size a := fun k0_t3 v2436 k0_hw234 k0_h2 => k0_hw234 k0_h2

def k0_off239 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c1_i32_1955 : BitVec 32 := 1#32
  let v2445 : BitVec 32 := Scalar.addi v2176 c1_i32_1955
  let v2446 : Index := Scalar.indexCast v2445
  let c0_1956 : Index := 0#32
  ![v2446.toNat, 0]
def k0_off240 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c1_i32_1957 : BitVec 32 := 1#32
  let v2449 : BitVec 32 := Scalar.addi v2176 c1_i32_1957
  let v2450 : Index := Scalar.indexCast v2449
  let c16_1958 : Index := 16#32
  ![v2450.toNat, 16]
def k0_off241 (v2454 : BitVec 32) : Fin 3 → Nat :=
  let c0_i32_1959 : BitVec 32 := 0#32
  let c0_i32_1964 : BitVec 32 := 0#32
  ![0, v2454.toNat, 0]

def k0_chk235 (k0_t3 : Fin k0_t3_loop.trips) (v2454 : BitVec 32) : Prop :=
  (∀ (k0_h2 : k0_cond2 k0_t3 = 1#1), ∀ a, (k0_off241 v2454) a + S1x1x32.size a ≤ S26x100001x32.size a)
instance k0_chk235.dec : ∀ (k0_t3 : Fin k0_t3_loop.trips) (v2454 : BitVec 32), Decidable (k0_chk235 k0_t3 v2454) := fun k0_t3 v2454 => decidable_of_iff' _ (Iff.of_eq (k0_chk235.eq_1 k0_t3 v2454))
theorem k0_off241_inb : ∀ (k0_t3 : Fin k0_t3_loop.trips) (v2454 : BitVec 32) (k0_hw235 : k0_chk235 k0_t3 v2454), ∀ (k0_h2 : k0_cond2 k0_t3 = 1#1), ∀ a, (k0_off241 v2454) a + S1x1x32.size a ≤ S26x100001x32.size a := fun k0_t3 v2454 k0_hw235 k0_h2 => k0_hw235 k0_h2

def k0_off242 (v2464 : BitVec 32) : Fin 3 → Nat :=
  let c1_i32_1967 : BitVec 32 := 1#32
  let c0_i32_1972 : BitVec 32 := 0#32
  ![1, v2464.toNat, 0]

def k0_chk236 (k0_t3 : Fin k0_t3_loop.trips) (v2464 : BitVec 32) : Prop :=
  (∀ (k0_h2 : k0_cond2 k0_t3 = 1#1), ∀ a, (k0_off242 v2464) a + S1x1x32.size a ≤ S26x100001x32.size a)
instance k0_chk236.dec : ∀ (k0_t3 : Fin k0_t3_loop.trips) (v2464 : BitVec 32), Decidable (k0_chk236 k0_t3 v2464) := fun k0_t3 v2464 => decidable_of_iff' _ (Iff.of_eq (k0_chk236.eq_1 k0_t3 v2464))
theorem k0_off242_inb : ∀ (k0_t3 : Fin k0_t3_loop.trips) (v2464 : BitVec 32) (k0_hw236 : k0_chk236 k0_t3 v2464), ∀ (k0_h2 : k0_cond2 k0_t3 = 1#1), ∀ a, (k0_off242 v2464) a + S1x1x32.size a ≤ S26x100001x32.size a := fun k0_t3 v2464 k0_hw236 k0_h2 => k0_hw236 k0_h2

def k0_off243 (v2474 : BitVec 32) : Fin 3 → Nat :=
  let c2_i32_1975 : BitVec 32 := 2#32
  let c0_i32_1980 : BitVec 32 := 0#32
  ![2, v2474.toNat, 0]

def k0_chk237 (k0_t3 : Fin k0_t3_loop.trips) (v2474 : BitVec 32) : Prop :=
  (∀ (k0_h2 : k0_cond2 k0_t3 = 1#1), ∀ a, (k0_off243 v2474) a + S1x1x32.size a ≤ S26x100001x32.size a)
instance k0_chk237.dec : ∀ (k0_t3 : Fin k0_t3_loop.trips) (v2474 : BitVec 32), Decidable (k0_chk237 k0_t3 v2474) := fun k0_t3 v2474 => decidable_of_iff' _ (Iff.of_eq (k0_chk237.eq_1 k0_t3 v2474))
theorem k0_off243_inb : ∀ (k0_t3 : Fin k0_t3_loop.trips) (v2474 : BitVec 32) (k0_hw237 : k0_chk237 k0_t3 v2474), ∀ (k0_h2 : k0_cond2 k0_t3 = 1#1), ∀ a, (k0_off243 v2474) a + S1x1x32.size a ≤ S26x100001x32.size a := fun k0_t3 v2474 k0_hw237 k0_h2 => k0_hw237 k0_h2

def k0_off244 (v2484 : BitVec 32) : Fin 3 → Nat :=
  let c3_i32_1983 : BitVec 32 := 3#32
  let c0_i32_1988 : BitVec 32 := 0#32
  ![3, v2484.toNat, 0]

def k0_chk238 (k0_t3 : Fin k0_t3_loop.trips) (v2484 : BitVec 32) : Prop :=
  (∀ (k0_h2 : k0_cond2 k0_t3 = 1#1), ∀ a, (k0_off244 v2484) a + S1x1x32.size a ≤ S26x100001x32.size a)
instance k0_chk238.dec : ∀ (k0_t3 : Fin k0_t3_loop.trips) (v2484 : BitVec 32), Decidable (k0_chk238 k0_t3 v2484) := fun k0_t3 v2484 => decidable_of_iff' _ (Iff.of_eq (k0_chk238.eq_1 k0_t3 v2484))
theorem k0_off244_inb : ∀ (k0_t3 : Fin k0_t3_loop.trips) (v2484 : BitVec 32) (k0_hw238 : k0_chk238 k0_t3 v2484), ∀ (k0_h2 : k0_cond2 k0_t3 = 1#1), ∀ a, (k0_off244 v2484) a + S1x1x32.size a ≤ S26x100001x32.size a := fun k0_t3 v2484 k0_hw238 k0_h2 => k0_hw238 k0_h2

def k0_off245 (v2494 : BitVec 32) : Fin 3 → Nat :=
  let c4_i32_1991 : BitVec 32 := 4#32
  let c0_i32_1996 : BitVec 32 := 0#32
  ![4, v2494.toNat, 0]

def k0_chk239 (k0_t3 : Fin k0_t3_loop.trips) (v2494 : BitVec 32) : Prop :=
  (∀ (k0_h2 : k0_cond2 k0_t3 = 1#1), ∀ a, (k0_off245 v2494) a + S1x1x32.size a ≤ S26x100001x32.size a)
instance k0_chk239.dec : ∀ (k0_t3 : Fin k0_t3_loop.trips) (v2494 : BitVec 32), Decidable (k0_chk239 k0_t3 v2494) := fun k0_t3 v2494 => decidable_of_iff' _ (Iff.of_eq (k0_chk239.eq_1 k0_t3 v2494))
theorem k0_off245_inb : ∀ (k0_t3 : Fin k0_t3_loop.trips) (v2494 : BitVec 32) (k0_hw239 : k0_chk239 k0_t3 v2494), ∀ (k0_h2 : k0_cond2 k0_t3 = 1#1), ∀ a, (k0_off245 v2494) a + S1x1x32.size a ≤ S26x100001x32.size a := fun k0_t3 v2494 k0_hw239 k0_h2 => k0_hw239 k0_h2

def k0_off246 (v2504 : BitVec 32) : Fin 3 → Nat :=
  let c5_i32_1999 : BitVec 32 := 5#32
  let c0_i32_2004 : BitVec 32 := 0#32
  ![5, v2504.toNat, 0]

def k0_chk240 (k0_t3 : Fin k0_t3_loop.trips) (v2504 : BitVec 32) : Prop :=
  (∀ (k0_h2 : k0_cond2 k0_t3 = 1#1), ∀ a, (k0_off246 v2504) a + S1x1x32.size a ≤ S26x100001x32.size a)
instance k0_chk240.dec : ∀ (k0_t3 : Fin k0_t3_loop.trips) (v2504 : BitVec 32), Decidable (k0_chk240 k0_t3 v2504) := fun k0_t3 v2504 => decidable_of_iff' _ (Iff.of_eq (k0_chk240.eq_1 k0_t3 v2504))
theorem k0_off246_inb : ∀ (k0_t3 : Fin k0_t3_loop.trips) (v2504 : BitVec 32) (k0_hw240 : k0_chk240 k0_t3 v2504), ∀ (k0_h2 : k0_cond2 k0_t3 = 1#1), ∀ a, (k0_off246 v2504) a + S1x1x32.size a ≤ S26x100001x32.size a := fun k0_t3 v2504 k0_hw240 k0_h2 => k0_hw240 k0_h2

def k0_off247 (v2514 : BitVec 32) : Fin 3 → Nat :=
  let c6_i32_2007 : BitVec 32 := 6#32
  let c0_i32_2012 : BitVec 32 := 0#32
  ![6, v2514.toNat, 0]

def k0_chk241 (k0_t3 : Fin k0_t3_loop.trips) (v2514 : BitVec 32) : Prop :=
  (∀ (k0_h2 : k0_cond2 k0_t3 = 1#1), ∀ a, (k0_off247 v2514) a + S1x1x32.size a ≤ S26x100001x32.size a)
instance k0_chk241.dec : ∀ (k0_t3 : Fin k0_t3_loop.trips) (v2514 : BitVec 32), Decidable (k0_chk241 k0_t3 v2514) := fun k0_t3 v2514 => decidable_of_iff' _ (Iff.of_eq (k0_chk241.eq_1 k0_t3 v2514))
theorem k0_off247_inb : ∀ (k0_t3 : Fin k0_t3_loop.trips) (v2514 : BitVec 32) (k0_hw241 : k0_chk241 k0_t3 v2514), ∀ (k0_h2 : k0_cond2 k0_t3 = 1#1), ∀ a, (k0_off247 v2514) a + S1x1x32.size a ≤ S26x100001x32.size a := fun k0_t3 v2514 k0_hw241 k0_h2 => k0_hw241 k0_h2

def k0_off248 (v2524 : BitVec 32) : Fin 3 → Nat :=
  let c7_i32_2015 : BitVec 32 := 7#32
  let c0_i32_2020 : BitVec 32 := 0#32
  ![7, v2524.toNat, 0]

def k0_chk242 (k0_t3 : Fin k0_t3_loop.trips) (v2524 : BitVec 32) : Prop :=
  (∀ (k0_h2 : k0_cond2 k0_t3 = 1#1), ∀ a, (k0_off248 v2524) a + S1x1x32.size a ≤ S26x100001x32.size a)
instance k0_chk242.dec : ∀ (k0_t3 : Fin k0_t3_loop.trips) (v2524 : BitVec 32), Decidable (k0_chk242 k0_t3 v2524) := fun k0_t3 v2524 => decidable_of_iff' _ (Iff.of_eq (k0_chk242.eq_1 k0_t3 v2524))
theorem k0_off248_inb : ∀ (k0_t3 : Fin k0_t3_loop.trips) (v2524 : BitVec 32) (k0_hw242 : k0_chk242 k0_t3 v2524), ∀ (k0_h2 : k0_cond2 k0_t3 = 1#1), ∀ a, (k0_off248 v2524) a + S1x1x32.size a ≤ S26x100001x32.size a := fun k0_t3 v2524 k0_hw242 k0_h2 => k0_hw242 k0_h2

def k0_off249 (v2534 : BitVec 32) : Fin 3 → Nat :=
  let c8_i32_2023 : BitVec 32 := 8#32
  let c0_i32_2028 : BitVec 32 := 0#32
  ![8, v2534.toNat, 0]

def k0_chk243 (k0_t3 : Fin k0_t3_loop.trips) (v2534 : BitVec 32) : Prop :=
  (∀ (k0_h2 : k0_cond2 k0_t3 = 1#1), ∀ a, (k0_off249 v2534) a + S1x1x32.size a ≤ S26x100001x32.size a)
instance k0_chk243.dec : ∀ (k0_t3 : Fin k0_t3_loop.trips) (v2534 : BitVec 32), Decidable (k0_chk243 k0_t3 v2534) := fun k0_t3 v2534 => decidable_of_iff' _ (Iff.of_eq (k0_chk243.eq_1 k0_t3 v2534))
theorem k0_off249_inb : ∀ (k0_t3 : Fin k0_t3_loop.trips) (v2534 : BitVec 32) (k0_hw243 : k0_chk243 k0_t3 v2534), ∀ (k0_h2 : k0_cond2 k0_t3 = 1#1), ∀ a, (k0_off249 v2534) a + S1x1x32.size a ≤ S26x100001x32.size a := fun k0_t3 v2534 k0_hw243 k0_h2 => k0_hw243 k0_h2

def k0_off250 (v2544 : BitVec 32) : Fin 3 → Nat :=
  let c9_i32_2031 : BitVec 32 := 9#32
  let c0_i32_2036 : BitVec 32 := 0#32
  ![9, v2544.toNat, 0]

def k0_chk244 (k0_t3 : Fin k0_t3_loop.trips) (v2544 : BitVec 32) : Prop :=
  (∀ (k0_h2 : k0_cond2 k0_t3 = 1#1), ∀ a, (k0_off250 v2544) a + S1x1x32.size a ≤ S26x100001x32.size a)
instance k0_chk244.dec : ∀ (k0_t3 : Fin k0_t3_loop.trips) (v2544 : BitVec 32), Decidable (k0_chk244 k0_t3 v2544) := fun k0_t3 v2544 => decidable_of_iff' _ (Iff.of_eq (k0_chk244.eq_1 k0_t3 v2544))
theorem k0_off250_inb : ∀ (k0_t3 : Fin k0_t3_loop.trips) (v2544 : BitVec 32) (k0_hw244 : k0_chk244 k0_t3 v2544), ∀ (k0_h2 : k0_cond2 k0_t3 = 1#1), ∀ a, (k0_off250 v2544) a + S1x1x32.size a ≤ S26x100001x32.size a := fun k0_t3 v2544 k0_hw244 k0_h2 => k0_hw244 k0_h2

def k0_off251 (v2554 : BitVec 32) : Fin 3 → Nat :=
  let c10_i32_2039 : BitVec 32 := 10#32
  let c0_i32_2044 : BitVec 32 := 0#32
  ![10, v2554.toNat, 0]

def k0_chk245 (k0_t3 : Fin k0_t3_loop.trips) (v2554 : BitVec 32) : Prop :=
  (∀ (k0_h2 : k0_cond2 k0_t3 = 1#1), ∀ a, (k0_off251 v2554) a + S1x1x32.size a ≤ S26x100001x32.size a)
instance k0_chk245.dec : ∀ (k0_t3 : Fin k0_t3_loop.trips) (v2554 : BitVec 32), Decidable (k0_chk245 k0_t3 v2554) := fun k0_t3 v2554 => decidable_of_iff' _ (Iff.of_eq (k0_chk245.eq_1 k0_t3 v2554))
theorem k0_off251_inb : ∀ (k0_t3 : Fin k0_t3_loop.trips) (v2554 : BitVec 32) (k0_hw245 : k0_chk245 k0_t3 v2554), ∀ (k0_h2 : k0_cond2 k0_t3 = 1#1), ∀ a, (k0_off251 v2554) a + S1x1x32.size a ≤ S26x100001x32.size a := fun k0_t3 v2554 k0_hw245 k0_h2 => k0_hw245 k0_h2

def k0_off252 (v2564 : BitVec 32) : Fin 3 → Nat :=
  let c11_i32_2047 : BitVec 32 := 11#32
  let c0_i32_2052 : BitVec 32 := 0#32
  ![11, v2564.toNat, 0]

def k0_chk246 (k0_t3 : Fin k0_t3_loop.trips) (v2564 : BitVec 32) : Prop :=
  (∀ (k0_h2 : k0_cond2 k0_t3 = 1#1), ∀ a, (k0_off252 v2564) a + S1x1x32.size a ≤ S26x100001x32.size a)
instance k0_chk246.dec : ∀ (k0_t3 : Fin k0_t3_loop.trips) (v2564 : BitVec 32), Decidable (k0_chk246 k0_t3 v2564) := fun k0_t3 v2564 => decidable_of_iff' _ (Iff.of_eq (k0_chk246.eq_1 k0_t3 v2564))
theorem k0_off252_inb : ∀ (k0_t3 : Fin k0_t3_loop.trips) (v2564 : BitVec 32) (k0_hw246 : k0_chk246 k0_t3 v2564), ∀ (k0_h2 : k0_cond2 k0_t3 = 1#1), ∀ a, (k0_off252 v2564) a + S1x1x32.size a ≤ S26x100001x32.size a := fun k0_t3 v2564 k0_hw246 k0_h2 => k0_hw246 k0_h2

def k0_off253 (v2574 : BitVec 32) : Fin 3 → Nat :=
  let c12_i32_2055 : BitVec 32 := 12#32
  let c0_i32_2060 : BitVec 32 := 0#32
  ![12, v2574.toNat, 0]

def k0_chk247 (k0_t3 : Fin k0_t3_loop.trips) (v2574 : BitVec 32) : Prop :=
  (∀ (k0_h2 : k0_cond2 k0_t3 = 1#1), ∀ a, (k0_off253 v2574) a + S1x1x32.size a ≤ S26x100001x32.size a)
instance k0_chk247.dec : ∀ (k0_t3 : Fin k0_t3_loop.trips) (v2574 : BitVec 32), Decidable (k0_chk247 k0_t3 v2574) := fun k0_t3 v2574 => decidable_of_iff' _ (Iff.of_eq (k0_chk247.eq_1 k0_t3 v2574))
theorem k0_off253_inb : ∀ (k0_t3 : Fin k0_t3_loop.trips) (v2574 : BitVec 32) (k0_hw247 : k0_chk247 k0_t3 v2574), ∀ (k0_h2 : k0_cond2 k0_t3 = 1#1), ∀ a, (k0_off253 v2574) a + S1x1x32.size a ≤ S26x100001x32.size a := fun k0_t3 v2574 k0_hw247 k0_h2 => k0_hw247 k0_h2

def k0_off254 (v2584 : BitVec 32) : Fin 3 → Nat :=
  let c13_i32_2063 : BitVec 32 := 13#32
  let c0_i32_2068 : BitVec 32 := 0#32
  ![13, v2584.toNat, 0]

def k0_chk248 (k0_t3 : Fin k0_t3_loop.trips) (v2584 : BitVec 32) : Prop :=
  (∀ (k0_h2 : k0_cond2 k0_t3 = 1#1), ∀ a, (k0_off254 v2584) a + S1x1x32.size a ≤ S26x100001x32.size a)
instance k0_chk248.dec : ∀ (k0_t3 : Fin k0_t3_loop.trips) (v2584 : BitVec 32), Decidable (k0_chk248 k0_t3 v2584) := fun k0_t3 v2584 => decidable_of_iff' _ (Iff.of_eq (k0_chk248.eq_1 k0_t3 v2584))
theorem k0_off254_inb : ∀ (k0_t3 : Fin k0_t3_loop.trips) (v2584 : BitVec 32) (k0_hw248 : k0_chk248 k0_t3 v2584), ∀ (k0_h2 : k0_cond2 k0_t3 = 1#1), ∀ a, (k0_off254 v2584) a + S1x1x32.size a ≤ S26x100001x32.size a := fun k0_t3 v2584 k0_hw248 k0_h2 => k0_hw248 k0_h2

def k0_off255 (v2594 : BitVec 32) : Fin 3 → Nat :=
  let c14_i32_2071 : BitVec 32 := 14#32
  let c0_i32_2076 : BitVec 32 := 0#32
  ![14, v2594.toNat, 0]

def k0_chk249 (k0_t3 : Fin k0_t3_loop.trips) (v2594 : BitVec 32) : Prop :=
  (∀ (k0_h2 : k0_cond2 k0_t3 = 1#1), ∀ a, (k0_off255 v2594) a + S1x1x32.size a ≤ S26x100001x32.size a)
instance k0_chk249.dec : ∀ (k0_t3 : Fin k0_t3_loop.trips) (v2594 : BitVec 32), Decidable (k0_chk249 k0_t3 v2594) := fun k0_t3 v2594 => decidable_of_iff' _ (Iff.of_eq (k0_chk249.eq_1 k0_t3 v2594))
theorem k0_off255_inb : ∀ (k0_t3 : Fin k0_t3_loop.trips) (v2594 : BitVec 32) (k0_hw249 : k0_chk249 k0_t3 v2594), ∀ (k0_h2 : k0_cond2 k0_t3 = 1#1), ∀ a, (k0_off255 v2594) a + S1x1x32.size a ≤ S26x100001x32.size a := fun k0_t3 v2594 k0_hw249 k0_h2 => k0_hw249 k0_h2

def k0_off256 (v2604 : BitVec 32) : Fin 3 → Nat :=
  let c15_i32_2079 : BitVec 32 := 15#32
  let c0_i32_2084 : BitVec 32 := 0#32
  ![15, v2604.toNat, 0]

def k0_chk250 (k0_t3 : Fin k0_t3_loop.trips) (v2604 : BitVec 32) : Prop :=
  (∀ (k0_h2 : k0_cond2 k0_t3 = 1#1), ∀ a, (k0_off256 v2604) a + S1x1x32.size a ≤ S26x100001x32.size a)
instance k0_chk250.dec : ∀ (k0_t3 : Fin k0_t3_loop.trips) (v2604 : BitVec 32), Decidable (k0_chk250 k0_t3 v2604) := fun k0_t3 v2604 => decidable_of_iff' _ (Iff.of_eq (k0_chk250.eq_1 k0_t3 v2604))
theorem k0_off256_inb : ∀ (k0_t3 : Fin k0_t3_loop.trips) (v2604 : BitVec 32) (k0_hw250 : k0_chk250 k0_t3 v2604), ∀ (k0_h2 : k0_cond2 k0_t3 = 1#1), ∀ a, (k0_off256 v2604) a + S1x1x32.size a ≤ S26x100001x32.size a := fun k0_t3 v2604 k0_hw250 k0_h2 => k0_hw250 k0_h2

def k0_off257 (v2614 : BitVec 32) : Fin 3 → Nat :=
  let c16_i32_2087 : BitVec 32 := 16#32
  let c0_i32_2092 : BitVec 32 := 0#32
  ![16, v2614.toNat, 0]

def k0_chk251 (k0_t3 : Fin k0_t3_loop.trips) (v2614 : BitVec 32) : Prop :=
  (∀ (k0_h2 : k0_cond2 k0_t3 = 1#1), ∀ a, (k0_off257 v2614) a + S1x1x32.size a ≤ S26x100001x32.size a)
instance k0_chk251.dec : ∀ (k0_t3 : Fin k0_t3_loop.trips) (v2614 : BitVec 32), Decidable (k0_chk251 k0_t3 v2614) := fun k0_t3 v2614 => decidable_of_iff' _ (Iff.of_eq (k0_chk251.eq_1 k0_t3 v2614))
theorem k0_off257_inb : ∀ (k0_t3 : Fin k0_t3_loop.trips) (v2614 : BitVec 32) (k0_hw251 : k0_chk251 k0_t3 v2614), ∀ (k0_h2 : k0_cond2 k0_t3 = 1#1), ∀ a, (k0_off257 v2614) a + S1x1x32.size a ≤ S26x100001x32.size a := fun k0_t3 v2614 k0_hw251 k0_h2 => k0_hw251 k0_h2

def k0_off258 (v2624 : BitVec 32) : Fin 3 → Nat :=
  let c17_i32_2095 : BitVec 32 := 17#32
  let c0_i32_2100 : BitVec 32 := 0#32
  ![17, v2624.toNat, 0]

def k0_chk252 (k0_t3 : Fin k0_t3_loop.trips) (v2624 : BitVec 32) : Prop :=
  (∀ (k0_h2 : k0_cond2 k0_t3 = 1#1), ∀ a, (k0_off258 v2624) a + S1x1x32.size a ≤ S26x100001x32.size a)
instance k0_chk252.dec : ∀ (k0_t3 : Fin k0_t3_loop.trips) (v2624 : BitVec 32), Decidable (k0_chk252 k0_t3 v2624) := fun k0_t3 v2624 => decidable_of_iff' _ (Iff.of_eq (k0_chk252.eq_1 k0_t3 v2624))
theorem k0_off258_inb : ∀ (k0_t3 : Fin k0_t3_loop.trips) (v2624 : BitVec 32) (k0_hw252 : k0_chk252 k0_t3 v2624), ∀ (k0_h2 : k0_cond2 k0_t3 = 1#1), ∀ a, (k0_off258 v2624) a + S1x1x32.size a ≤ S26x100001x32.size a := fun k0_t3 v2624 k0_hw252 k0_h2 => k0_hw252 k0_h2

def k0_off259 (v2634 : BitVec 32) : Fin 3 → Nat :=
  let c18_i32_2103 : BitVec 32 := 18#32
  let c0_i32_2108 : BitVec 32 := 0#32
  ![18, v2634.toNat, 0]

def k0_chk253 (k0_t3 : Fin k0_t3_loop.trips) (v2634 : BitVec 32) : Prop :=
  (∀ (k0_h2 : k0_cond2 k0_t3 = 1#1), ∀ a, (k0_off259 v2634) a + S1x1x32.size a ≤ S26x100001x32.size a)
instance k0_chk253.dec : ∀ (k0_t3 : Fin k0_t3_loop.trips) (v2634 : BitVec 32), Decidable (k0_chk253 k0_t3 v2634) := fun k0_t3 v2634 => decidable_of_iff' _ (Iff.of_eq (k0_chk253.eq_1 k0_t3 v2634))
theorem k0_off259_inb : ∀ (k0_t3 : Fin k0_t3_loop.trips) (v2634 : BitVec 32) (k0_hw253 : k0_chk253 k0_t3 v2634), ∀ (k0_h2 : k0_cond2 k0_t3 = 1#1), ∀ a, (k0_off259 v2634) a + S1x1x32.size a ≤ S26x100001x32.size a := fun k0_t3 v2634 k0_hw253 k0_h2 => k0_hw253 k0_h2

def k0_off260 (v2644 : BitVec 32) : Fin 3 → Nat :=
  let c19_i32_2111 : BitVec 32 := 19#32
  let c0_i32_2116 : BitVec 32 := 0#32
  ![19, v2644.toNat, 0]

def k0_chk254 (k0_t3 : Fin k0_t3_loop.trips) (v2644 : BitVec 32) : Prop :=
  (∀ (k0_h2 : k0_cond2 k0_t3 = 1#1), ∀ a, (k0_off260 v2644) a + S1x1x32.size a ≤ S26x100001x32.size a)
instance k0_chk254.dec : ∀ (k0_t3 : Fin k0_t3_loop.trips) (v2644 : BitVec 32), Decidable (k0_chk254 k0_t3 v2644) := fun k0_t3 v2644 => decidable_of_iff' _ (Iff.of_eq (k0_chk254.eq_1 k0_t3 v2644))
theorem k0_off260_inb : ∀ (k0_t3 : Fin k0_t3_loop.trips) (v2644 : BitVec 32) (k0_hw254 : k0_chk254 k0_t3 v2644), ∀ (k0_h2 : k0_cond2 k0_t3 = 1#1), ∀ a, (k0_off260 v2644) a + S1x1x32.size a ≤ S26x100001x32.size a := fun k0_t3 v2644 k0_hw254 k0_h2 => k0_hw254 k0_h2

def k0_off261 (v2654 : BitVec 32) : Fin 3 → Nat :=
  let c20_i32_2119 : BitVec 32 := 20#32
  let c0_i32_2124 : BitVec 32 := 0#32
  ![20, v2654.toNat, 0]

def k0_chk255 (k0_t3 : Fin k0_t3_loop.trips) (v2654 : BitVec 32) : Prop :=
  (∀ (k0_h2 : k0_cond2 k0_t3 = 1#1), ∀ a, (k0_off261 v2654) a + S1x1x32.size a ≤ S26x100001x32.size a)
instance k0_chk255.dec : ∀ (k0_t3 : Fin k0_t3_loop.trips) (v2654 : BitVec 32), Decidable (k0_chk255 k0_t3 v2654) := fun k0_t3 v2654 => decidable_of_iff' _ (Iff.of_eq (k0_chk255.eq_1 k0_t3 v2654))
theorem k0_off261_inb : ∀ (k0_t3 : Fin k0_t3_loop.trips) (v2654 : BitVec 32) (k0_hw255 : k0_chk255 k0_t3 v2654), ∀ (k0_h2 : k0_cond2 k0_t3 = 1#1), ∀ a, (k0_off261 v2654) a + S1x1x32.size a ≤ S26x100001x32.size a := fun k0_t3 v2654 k0_hw255 k0_h2 => k0_hw255 k0_h2

def k0_off262 (v2664 : BitVec 32) : Fin 3 → Nat :=
  let c21_i32_2127 : BitVec 32 := 21#32
  let c0_i32_2132 : BitVec 32 := 0#32
  ![21, v2664.toNat, 0]

def k0_chk256 (k0_t3 : Fin k0_t3_loop.trips) (v2664 : BitVec 32) : Prop :=
  (∀ (k0_h2 : k0_cond2 k0_t3 = 1#1), ∀ a, (k0_off262 v2664) a + S1x1x32.size a ≤ S26x100001x32.size a)
instance k0_chk256.dec : ∀ (k0_t3 : Fin k0_t3_loop.trips) (v2664 : BitVec 32), Decidable (k0_chk256 k0_t3 v2664) := fun k0_t3 v2664 => decidable_of_iff' _ (Iff.of_eq (k0_chk256.eq_1 k0_t3 v2664))
theorem k0_off262_inb : ∀ (k0_t3 : Fin k0_t3_loop.trips) (v2664 : BitVec 32) (k0_hw256 : k0_chk256 k0_t3 v2664), ∀ (k0_h2 : k0_cond2 k0_t3 = 1#1), ∀ a, (k0_off262 v2664) a + S1x1x32.size a ≤ S26x100001x32.size a := fun k0_t3 v2664 k0_hw256 k0_h2 => k0_hw256 k0_h2

def k0_off263 (v2674 : BitVec 32) : Fin 3 → Nat :=
  let c22_i32_2135 : BitVec 32 := 22#32
  let c0_i32_2140 : BitVec 32 := 0#32
  ![22, v2674.toNat, 0]

def k0_chk257 (k0_t3 : Fin k0_t3_loop.trips) (v2674 : BitVec 32) : Prop :=
  (∀ (k0_h2 : k0_cond2 k0_t3 = 1#1), ∀ a, (k0_off263 v2674) a + S1x1x32.size a ≤ S26x100001x32.size a)
instance k0_chk257.dec : ∀ (k0_t3 : Fin k0_t3_loop.trips) (v2674 : BitVec 32), Decidable (k0_chk257 k0_t3 v2674) := fun k0_t3 v2674 => decidable_of_iff' _ (Iff.of_eq (k0_chk257.eq_1 k0_t3 v2674))
theorem k0_off263_inb : ∀ (k0_t3 : Fin k0_t3_loop.trips) (v2674 : BitVec 32) (k0_hw257 : k0_chk257 k0_t3 v2674), ∀ (k0_h2 : k0_cond2 k0_t3 = 1#1), ∀ a, (k0_off263 v2674) a + S1x1x32.size a ≤ S26x100001x32.size a := fun k0_t3 v2674 k0_hw257 k0_h2 => k0_hw257 k0_h2

def k0_off264 (v2684 : BitVec 32) : Fin 3 → Nat :=
  let c23_i32_2143 : BitVec 32 := 23#32
  let c0_i32_2148 : BitVec 32 := 0#32
  ![23, v2684.toNat, 0]

def k0_chk258 (k0_t3 : Fin k0_t3_loop.trips) (v2684 : BitVec 32) : Prop :=
  (∀ (k0_h2 : k0_cond2 k0_t3 = 1#1), ∀ a, (k0_off264 v2684) a + S1x1x32.size a ≤ S26x100001x32.size a)
instance k0_chk258.dec : ∀ (k0_t3 : Fin k0_t3_loop.trips) (v2684 : BitVec 32), Decidable (k0_chk258 k0_t3 v2684) := fun k0_t3 v2684 => decidable_of_iff' _ (Iff.of_eq (k0_chk258.eq_1 k0_t3 v2684))
theorem k0_off264_inb : ∀ (k0_t3 : Fin k0_t3_loop.trips) (v2684 : BitVec 32) (k0_hw258 : k0_chk258 k0_t3 v2684), ∀ (k0_h2 : k0_cond2 k0_t3 = 1#1), ∀ a, (k0_off264 v2684) a + S1x1x32.size a ≤ S26x100001x32.size a := fun k0_t3 v2684 k0_hw258 k0_h2 => k0_hw258 k0_h2

def k0_off265 (v2694 : BitVec 32) : Fin 3 → Nat :=
  let c24_i32_2151 : BitVec 32 := 24#32
  let c0_i32_2156 : BitVec 32 := 0#32
  ![24, v2694.toNat, 0]

def k0_chk259 (k0_t3 : Fin k0_t3_loop.trips) (v2694 : BitVec 32) : Prop :=
  (∀ (k0_h2 : k0_cond2 k0_t3 = 1#1), ∀ a, (k0_off265 v2694) a + S1x1x32.size a ≤ S26x100001x32.size a)
instance k0_chk259.dec : ∀ (k0_t3 : Fin k0_t3_loop.trips) (v2694 : BitVec 32), Decidable (k0_chk259 k0_t3 v2694) := fun k0_t3 v2694 => decidable_of_iff' _ (Iff.of_eq (k0_chk259.eq_1 k0_t3 v2694))
theorem k0_off265_inb : ∀ (k0_t3 : Fin k0_t3_loop.trips) (v2694 : BitVec 32) (k0_hw259 : k0_chk259 k0_t3 v2694), ∀ (k0_h2 : k0_cond2 k0_t3 = 1#1), ∀ a, (k0_off265 v2694) a + S1x1x32.size a ≤ S26x100001x32.size a := fun k0_t3 v2694 k0_hw259 k0_h2 => k0_hw259 k0_h2

def k0_off266 (v2704 : BitVec 32) : Fin 3 → Nat :=
  let c25_i32_2159 : BitVec 32 := 25#32
  let c0_i32_2164 : BitVec 32 := 0#32
  ![25, v2704.toNat, 0]

def k0_chk260 (k0_t3 : Fin k0_t3_loop.trips) (v2704 : BitVec 32) : Prop :=
  (∀ (k0_h2 : k0_cond2 k0_t3 = 1#1), ∀ a, (k0_off266 v2704) a + S1x1x32.size a ≤ S26x100001x32.size a)
instance k0_chk260.dec : ∀ (k0_t3 : Fin k0_t3_loop.trips) (v2704 : BitVec 32), Decidable (k0_chk260 k0_t3 v2704) := fun k0_t3 v2704 => decidable_of_iff' _ (Iff.of_eq (k0_chk260.eq_1 k0_t3 v2704))
theorem k0_off266_inb : ∀ (k0_t3 : Fin k0_t3_loop.trips) (v2704 : BitVec 32) (k0_hw260 : k0_chk260 k0_t3 v2704), ∀ (k0_h2 : k0_cond2 k0_t3 = 1#1), ∀ a, (k0_off266 v2704) a + S1x1x32.size a ≤ S26x100001x32.size a := fun k0_t3 v2704 k0_hw260 k0_h2 => k0_hw260 k0_h2

def k0_off267 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c2_i32_2167 : BitVec 32 := 2#32
  let v2713 : BitVec 32 := Scalar.addi v2176 c2_i32_2167
  let v2714 : Index := Scalar.indexCast v2713
  let c0_2168 : Index := 0#32
  ![v2714.toNat, 0]
def k0_off268 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c2_i32_2169 : BitVec 32 := 2#32
  let v2717 : BitVec 32 := Scalar.addi v2176 c2_i32_2169
  let v2718 : Index := Scalar.indexCast v2717
  let c16_2170 : Index := 16#32
  ![v2718.toNat, 16]
def k0_off269 (v2722 : BitVec 32) : Fin 3 → Nat :=
  let c0_i32_2171 : BitVec 32 := 0#32
  let c0_i32_2176 : BitVec 32 := 0#32
  ![0, v2722.toNat, 0]

def k0_chk261 (k0_t3 : Fin k0_t3_loop.trips) (v2722 : BitVec 32) : Prop :=
  (∀ (k0_h2 : k0_cond2 k0_t3 = 1#1), ∀ a, (k0_off269 v2722) a + S1x1x32.size a ≤ S26x100001x32.size a)
instance k0_chk261.dec : ∀ (k0_t3 : Fin k0_t3_loop.trips) (v2722 : BitVec 32), Decidable (k0_chk261 k0_t3 v2722) := fun k0_t3 v2722 => decidable_of_iff' _ (Iff.of_eq (k0_chk261.eq_1 k0_t3 v2722))
theorem k0_off269_inb : ∀ (k0_t3 : Fin k0_t3_loop.trips) (v2722 : BitVec 32) (k0_hw261 : k0_chk261 k0_t3 v2722), ∀ (k0_h2 : k0_cond2 k0_t3 = 1#1), ∀ a, (k0_off269 v2722) a + S1x1x32.size a ≤ S26x100001x32.size a := fun k0_t3 v2722 k0_hw261 k0_h2 => k0_hw261 k0_h2

def k0_off270 (v2732 : BitVec 32) : Fin 3 → Nat :=
  let c1_i32_2179 : BitVec 32 := 1#32
  let c0_i32_2184 : BitVec 32 := 0#32
  ![1, v2732.toNat, 0]

def k0_chk262 (k0_t3 : Fin k0_t3_loop.trips) (v2732 : BitVec 32) : Prop :=
  (∀ (k0_h2 : k0_cond2 k0_t3 = 1#1), ∀ a, (k0_off270 v2732) a + S1x1x32.size a ≤ S26x100001x32.size a)
instance k0_chk262.dec : ∀ (k0_t3 : Fin k0_t3_loop.trips) (v2732 : BitVec 32), Decidable (k0_chk262 k0_t3 v2732) := fun k0_t3 v2732 => decidable_of_iff' _ (Iff.of_eq (k0_chk262.eq_1 k0_t3 v2732))
theorem k0_off270_inb : ∀ (k0_t3 : Fin k0_t3_loop.trips) (v2732 : BitVec 32) (k0_hw262 : k0_chk262 k0_t3 v2732), ∀ (k0_h2 : k0_cond2 k0_t3 = 1#1), ∀ a, (k0_off270 v2732) a + S1x1x32.size a ≤ S26x100001x32.size a := fun k0_t3 v2732 k0_hw262 k0_h2 => k0_hw262 k0_h2

def k0_off271 (v2742 : BitVec 32) : Fin 3 → Nat :=
  let c2_i32_2187 : BitVec 32 := 2#32
  let c0_i32_2192 : BitVec 32 := 0#32
  ![2, v2742.toNat, 0]

def k0_chk263 (k0_t3 : Fin k0_t3_loop.trips) (v2742 : BitVec 32) : Prop :=
  (∀ (k0_h2 : k0_cond2 k0_t3 = 1#1), ∀ a, (k0_off271 v2742) a + S1x1x32.size a ≤ S26x100001x32.size a)
instance k0_chk263.dec : ∀ (k0_t3 : Fin k0_t3_loop.trips) (v2742 : BitVec 32), Decidable (k0_chk263 k0_t3 v2742) := fun k0_t3 v2742 => decidable_of_iff' _ (Iff.of_eq (k0_chk263.eq_1 k0_t3 v2742))
theorem k0_off271_inb : ∀ (k0_t3 : Fin k0_t3_loop.trips) (v2742 : BitVec 32) (k0_hw263 : k0_chk263 k0_t3 v2742), ∀ (k0_h2 : k0_cond2 k0_t3 = 1#1), ∀ a, (k0_off271 v2742) a + S1x1x32.size a ≤ S26x100001x32.size a := fun k0_t3 v2742 k0_hw263 k0_h2 => k0_hw263 k0_h2

def k0_off272 (v2752 : BitVec 32) : Fin 3 → Nat :=
  let c3_i32_2195 : BitVec 32 := 3#32
  let c0_i32_2200 : BitVec 32 := 0#32
  ![3, v2752.toNat, 0]

def k0_chk264 (k0_t3 : Fin k0_t3_loop.trips) (v2752 : BitVec 32) : Prop :=
  (∀ (k0_h2 : k0_cond2 k0_t3 = 1#1), ∀ a, (k0_off272 v2752) a + S1x1x32.size a ≤ S26x100001x32.size a)
instance k0_chk264.dec : ∀ (k0_t3 : Fin k0_t3_loop.trips) (v2752 : BitVec 32), Decidable (k0_chk264 k0_t3 v2752) := fun k0_t3 v2752 => decidable_of_iff' _ (Iff.of_eq (k0_chk264.eq_1 k0_t3 v2752))
theorem k0_off272_inb : ∀ (k0_t3 : Fin k0_t3_loop.trips) (v2752 : BitVec 32) (k0_hw264 : k0_chk264 k0_t3 v2752), ∀ (k0_h2 : k0_cond2 k0_t3 = 1#1), ∀ a, (k0_off272 v2752) a + S1x1x32.size a ≤ S26x100001x32.size a := fun k0_t3 v2752 k0_hw264 k0_h2 => k0_hw264 k0_h2

def k0_off273 (v2762 : BitVec 32) : Fin 3 → Nat :=
  let c4_i32_2203 : BitVec 32 := 4#32
  let c0_i32_2208 : BitVec 32 := 0#32
  ![4, v2762.toNat, 0]

def k0_chk265 (k0_t3 : Fin k0_t3_loop.trips) (v2762 : BitVec 32) : Prop :=
  (∀ (k0_h2 : k0_cond2 k0_t3 = 1#1), ∀ a, (k0_off273 v2762) a + S1x1x32.size a ≤ S26x100001x32.size a)
instance k0_chk265.dec : ∀ (k0_t3 : Fin k0_t3_loop.trips) (v2762 : BitVec 32), Decidable (k0_chk265 k0_t3 v2762) := fun k0_t3 v2762 => decidable_of_iff' _ (Iff.of_eq (k0_chk265.eq_1 k0_t3 v2762))
theorem k0_off273_inb : ∀ (k0_t3 : Fin k0_t3_loop.trips) (v2762 : BitVec 32) (k0_hw265 : k0_chk265 k0_t3 v2762), ∀ (k0_h2 : k0_cond2 k0_t3 = 1#1), ∀ a, (k0_off273 v2762) a + S1x1x32.size a ≤ S26x100001x32.size a := fun k0_t3 v2762 k0_hw265 k0_h2 => k0_hw265 k0_h2

def k0_off274 (v2772 : BitVec 32) : Fin 3 → Nat :=
  let c5_i32_2211 : BitVec 32 := 5#32
  let c0_i32_2216 : BitVec 32 := 0#32
  ![5, v2772.toNat, 0]

def k0_chk266 (k0_t3 : Fin k0_t3_loop.trips) (v2772 : BitVec 32) : Prop :=
  (∀ (k0_h2 : k0_cond2 k0_t3 = 1#1), ∀ a, (k0_off274 v2772) a + S1x1x32.size a ≤ S26x100001x32.size a)
instance k0_chk266.dec : ∀ (k0_t3 : Fin k0_t3_loop.trips) (v2772 : BitVec 32), Decidable (k0_chk266 k0_t3 v2772) := fun k0_t3 v2772 => decidable_of_iff' _ (Iff.of_eq (k0_chk266.eq_1 k0_t3 v2772))
theorem k0_off274_inb : ∀ (k0_t3 : Fin k0_t3_loop.trips) (v2772 : BitVec 32) (k0_hw266 : k0_chk266 k0_t3 v2772), ∀ (k0_h2 : k0_cond2 k0_t3 = 1#1), ∀ a, (k0_off274 v2772) a + S1x1x32.size a ≤ S26x100001x32.size a := fun k0_t3 v2772 k0_hw266 k0_h2 => k0_hw266 k0_h2

def k0_off275 (v2782 : BitVec 32) : Fin 3 → Nat :=
  let c6_i32_2219 : BitVec 32 := 6#32
  let c0_i32_2224 : BitVec 32 := 0#32
  ![6, v2782.toNat, 0]

def k0_chk267 (k0_t3 : Fin k0_t3_loop.trips) (v2782 : BitVec 32) : Prop :=
  (∀ (k0_h2 : k0_cond2 k0_t3 = 1#1), ∀ a, (k0_off275 v2782) a + S1x1x32.size a ≤ S26x100001x32.size a)
instance k0_chk267.dec : ∀ (k0_t3 : Fin k0_t3_loop.trips) (v2782 : BitVec 32), Decidable (k0_chk267 k0_t3 v2782) := fun k0_t3 v2782 => decidable_of_iff' _ (Iff.of_eq (k0_chk267.eq_1 k0_t3 v2782))
theorem k0_off275_inb : ∀ (k0_t3 : Fin k0_t3_loop.trips) (v2782 : BitVec 32) (k0_hw267 : k0_chk267 k0_t3 v2782), ∀ (k0_h2 : k0_cond2 k0_t3 = 1#1), ∀ a, (k0_off275 v2782) a + S1x1x32.size a ≤ S26x100001x32.size a := fun k0_t3 v2782 k0_hw267 k0_h2 => k0_hw267 k0_h2

def k0_off276 (v2792 : BitVec 32) : Fin 3 → Nat :=
  let c7_i32_2227 : BitVec 32 := 7#32
  let c0_i32_2232 : BitVec 32 := 0#32
  ![7, v2792.toNat, 0]

def k0_chk268 (k0_t3 : Fin k0_t3_loop.trips) (v2792 : BitVec 32) : Prop :=
  (∀ (k0_h2 : k0_cond2 k0_t3 = 1#1), ∀ a, (k0_off276 v2792) a + S1x1x32.size a ≤ S26x100001x32.size a)
instance k0_chk268.dec : ∀ (k0_t3 : Fin k0_t3_loop.trips) (v2792 : BitVec 32), Decidable (k0_chk268 k0_t3 v2792) := fun k0_t3 v2792 => decidable_of_iff' _ (Iff.of_eq (k0_chk268.eq_1 k0_t3 v2792))
theorem k0_off276_inb : ∀ (k0_t3 : Fin k0_t3_loop.trips) (v2792 : BitVec 32) (k0_hw268 : k0_chk268 k0_t3 v2792), ∀ (k0_h2 : k0_cond2 k0_t3 = 1#1), ∀ a, (k0_off276 v2792) a + S1x1x32.size a ≤ S26x100001x32.size a := fun k0_t3 v2792 k0_hw268 k0_h2 => k0_hw268 k0_h2

def k0_off277 (v2802 : BitVec 32) : Fin 3 → Nat :=
  let c8_i32_2235 : BitVec 32 := 8#32
  let c0_i32_2240 : BitVec 32 := 0#32
  ![8, v2802.toNat, 0]

def k0_chk269 (k0_t3 : Fin k0_t3_loop.trips) (v2802 : BitVec 32) : Prop :=
  (∀ (k0_h2 : k0_cond2 k0_t3 = 1#1), ∀ a, (k0_off277 v2802) a + S1x1x32.size a ≤ S26x100001x32.size a)
instance k0_chk269.dec : ∀ (k0_t3 : Fin k0_t3_loop.trips) (v2802 : BitVec 32), Decidable (k0_chk269 k0_t3 v2802) := fun k0_t3 v2802 => decidable_of_iff' _ (Iff.of_eq (k0_chk269.eq_1 k0_t3 v2802))
theorem k0_off277_inb : ∀ (k0_t3 : Fin k0_t3_loop.trips) (v2802 : BitVec 32) (k0_hw269 : k0_chk269 k0_t3 v2802), ∀ (k0_h2 : k0_cond2 k0_t3 = 1#1), ∀ a, (k0_off277 v2802) a + S1x1x32.size a ≤ S26x100001x32.size a := fun k0_t3 v2802 k0_hw269 k0_h2 => k0_hw269 k0_h2

def k0_off278 (v2812 : BitVec 32) : Fin 3 → Nat :=
  let c9_i32_2243 : BitVec 32 := 9#32
  let c0_i32_2248 : BitVec 32 := 0#32
  ![9, v2812.toNat, 0]

def k0_chk270 (k0_t3 : Fin k0_t3_loop.trips) (v2812 : BitVec 32) : Prop :=
  (∀ (k0_h2 : k0_cond2 k0_t3 = 1#1), ∀ a, (k0_off278 v2812) a + S1x1x32.size a ≤ S26x100001x32.size a)
instance k0_chk270.dec : ∀ (k0_t3 : Fin k0_t3_loop.trips) (v2812 : BitVec 32), Decidable (k0_chk270 k0_t3 v2812) := fun k0_t3 v2812 => decidable_of_iff' _ (Iff.of_eq (k0_chk270.eq_1 k0_t3 v2812))
theorem k0_off278_inb : ∀ (k0_t3 : Fin k0_t3_loop.trips) (v2812 : BitVec 32) (k0_hw270 : k0_chk270 k0_t3 v2812), ∀ (k0_h2 : k0_cond2 k0_t3 = 1#1), ∀ a, (k0_off278 v2812) a + S1x1x32.size a ≤ S26x100001x32.size a := fun k0_t3 v2812 k0_hw270 k0_h2 => k0_hw270 k0_h2

def k0_off279 (v2822 : BitVec 32) : Fin 3 → Nat :=
  let c10_i32_2251 : BitVec 32 := 10#32
  let c0_i32_2256 : BitVec 32 := 0#32
  ![10, v2822.toNat, 0]

def k0_chk271 (k0_t3 : Fin k0_t3_loop.trips) (v2822 : BitVec 32) : Prop :=
  (∀ (k0_h2 : k0_cond2 k0_t3 = 1#1), ∀ a, (k0_off279 v2822) a + S1x1x32.size a ≤ S26x100001x32.size a)
instance k0_chk271.dec : ∀ (k0_t3 : Fin k0_t3_loop.trips) (v2822 : BitVec 32), Decidable (k0_chk271 k0_t3 v2822) := fun k0_t3 v2822 => decidable_of_iff' _ (Iff.of_eq (k0_chk271.eq_1 k0_t3 v2822))
theorem k0_off279_inb : ∀ (k0_t3 : Fin k0_t3_loop.trips) (v2822 : BitVec 32) (k0_hw271 : k0_chk271 k0_t3 v2822), ∀ (k0_h2 : k0_cond2 k0_t3 = 1#1), ∀ a, (k0_off279 v2822) a + S1x1x32.size a ≤ S26x100001x32.size a := fun k0_t3 v2822 k0_hw271 k0_h2 => k0_hw271 k0_h2

def k0_off280 (v2832 : BitVec 32) : Fin 3 → Nat :=
  let c11_i32_2259 : BitVec 32 := 11#32
  let c0_i32_2264 : BitVec 32 := 0#32
  ![11, v2832.toNat, 0]

def k0_chk272 (k0_t3 : Fin k0_t3_loop.trips) (v2832 : BitVec 32) : Prop :=
  (∀ (k0_h2 : k0_cond2 k0_t3 = 1#1), ∀ a, (k0_off280 v2832) a + S1x1x32.size a ≤ S26x100001x32.size a)
instance k0_chk272.dec : ∀ (k0_t3 : Fin k0_t3_loop.trips) (v2832 : BitVec 32), Decidable (k0_chk272 k0_t3 v2832) := fun k0_t3 v2832 => decidable_of_iff' _ (Iff.of_eq (k0_chk272.eq_1 k0_t3 v2832))
theorem k0_off280_inb : ∀ (k0_t3 : Fin k0_t3_loop.trips) (v2832 : BitVec 32) (k0_hw272 : k0_chk272 k0_t3 v2832), ∀ (k0_h2 : k0_cond2 k0_t3 = 1#1), ∀ a, (k0_off280 v2832) a + S1x1x32.size a ≤ S26x100001x32.size a := fun k0_t3 v2832 k0_hw272 k0_h2 => k0_hw272 k0_h2

def k0_off281 (v2842 : BitVec 32) : Fin 3 → Nat :=
  let c12_i32_2267 : BitVec 32 := 12#32
  let c0_i32_2272 : BitVec 32 := 0#32
  ![12, v2842.toNat, 0]

def k0_chk273 (k0_t3 : Fin k0_t3_loop.trips) (v2842 : BitVec 32) : Prop :=
  (∀ (k0_h2 : k0_cond2 k0_t3 = 1#1), ∀ a, (k0_off281 v2842) a + S1x1x32.size a ≤ S26x100001x32.size a)
instance k0_chk273.dec : ∀ (k0_t3 : Fin k0_t3_loop.trips) (v2842 : BitVec 32), Decidable (k0_chk273 k0_t3 v2842) := fun k0_t3 v2842 => decidable_of_iff' _ (Iff.of_eq (k0_chk273.eq_1 k0_t3 v2842))
theorem k0_off281_inb : ∀ (k0_t3 : Fin k0_t3_loop.trips) (v2842 : BitVec 32) (k0_hw273 : k0_chk273 k0_t3 v2842), ∀ (k0_h2 : k0_cond2 k0_t3 = 1#1), ∀ a, (k0_off281 v2842) a + S1x1x32.size a ≤ S26x100001x32.size a := fun k0_t3 v2842 k0_hw273 k0_h2 => k0_hw273 k0_h2

def k0_off282 (v2852 : BitVec 32) : Fin 3 → Nat :=
  let c13_i32_2275 : BitVec 32 := 13#32
  let c0_i32_2280 : BitVec 32 := 0#32
  ![13, v2852.toNat, 0]

def k0_chk274 (k0_t3 : Fin k0_t3_loop.trips) (v2852 : BitVec 32) : Prop :=
  (∀ (k0_h2 : k0_cond2 k0_t3 = 1#1), ∀ a, (k0_off282 v2852) a + S1x1x32.size a ≤ S26x100001x32.size a)
instance k0_chk274.dec : ∀ (k0_t3 : Fin k0_t3_loop.trips) (v2852 : BitVec 32), Decidable (k0_chk274 k0_t3 v2852) := fun k0_t3 v2852 => decidable_of_iff' _ (Iff.of_eq (k0_chk274.eq_1 k0_t3 v2852))
theorem k0_off282_inb : ∀ (k0_t3 : Fin k0_t3_loop.trips) (v2852 : BitVec 32) (k0_hw274 : k0_chk274 k0_t3 v2852), ∀ (k0_h2 : k0_cond2 k0_t3 = 1#1), ∀ a, (k0_off282 v2852) a + S1x1x32.size a ≤ S26x100001x32.size a := fun k0_t3 v2852 k0_hw274 k0_h2 => k0_hw274 k0_h2

def k0_off283 (v2862 : BitVec 32) : Fin 3 → Nat :=
  let c14_i32_2283 : BitVec 32 := 14#32
  let c0_i32_2288 : BitVec 32 := 0#32
  ![14, v2862.toNat, 0]

def k0_chk275 (k0_t3 : Fin k0_t3_loop.trips) (v2862 : BitVec 32) : Prop :=
  (∀ (k0_h2 : k0_cond2 k0_t3 = 1#1), ∀ a, (k0_off283 v2862) a + S1x1x32.size a ≤ S26x100001x32.size a)
instance k0_chk275.dec : ∀ (k0_t3 : Fin k0_t3_loop.trips) (v2862 : BitVec 32), Decidable (k0_chk275 k0_t3 v2862) := fun k0_t3 v2862 => decidable_of_iff' _ (Iff.of_eq (k0_chk275.eq_1 k0_t3 v2862))
theorem k0_off283_inb : ∀ (k0_t3 : Fin k0_t3_loop.trips) (v2862 : BitVec 32) (k0_hw275 : k0_chk275 k0_t3 v2862), ∀ (k0_h2 : k0_cond2 k0_t3 = 1#1), ∀ a, (k0_off283 v2862) a + S1x1x32.size a ≤ S26x100001x32.size a := fun k0_t3 v2862 k0_hw275 k0_h2 => k0_hw275 k0_h2

def k0_off284 (v2872 : BitVec 32) : Fin 3 → Nat :=
  let c15_i32_2291 : BitVec 32 := 15#32
  let c0_i32_2296 : BitVec 32 := 0#32
  ![15, v2872.toNat, 0]

def k0_chk276 (k0_t3 : Fin k0_t3_loop.trips) (v2872 : BitVec 32) : Prop :=
  (∀ (k0_h2 : k0_cond2 k0_t3 = 1#1), ∀ a, (k0_off284 v2872) a + S1x1x32.size a ≤ S26x100001x32.size a)
instance k0_chk276.dec : ∀ (k0_t3 : Fin k0_t3_loop.trips) (v2872 : BitVec 32), Decidable (k0_chk276 k0_t3 v2872) := fun k0_t3 v2872 => decidable_of_iff' _ (Iff.of_eq (k0_chk276.eq_1 k0_t3 v2872))
theorem k0_off284_inb : ∀ (k0_t3 : Fin k0_t3_loop.trips) (v2872 : BitVec 32) (k0_hw276 : k0_chk276 k0_t3 v2872), ∀ (k0_h2 : k0_cond2 k0_t3 = 1#1), ∀ a, (k0_off284 v2872) a + S1x1x32.size a ≤ S26x100001x32.size a := fun k0_t3 v2872 k0_hw276 k0_h2 => k0_hw276 k0_h2

def k0_off285 (v2882 : BitVec 32) : Fin 3 → Nat :=
  let c16_i32_2299 : BitVec 32 := 16#32
  let c0_i32_2304 : BitVec 32 := 0#32
  ![16, v2882.toNat, 0]

def k0_chk277 (k0_t3 : Fin k0_t3_loop.trips) (v2882 : BitVec 32) : Prop :=
  (∀ (k0_h2 : k0_cond2 k0_t3 = 1#1), ∀ a, (k0_off285 v2882) a + S1x1x32.size a ≤ S26x100001x32.size a)
instance k0_chk277.dec : ∀ (k0_t3 : Fin k0_t3_loop.trips) (v2882 : BitVec 32), Decidable (k0_chk277 k0_t3 v2882) := fun k0_t3 v2882 => decidable_of_iff' _ (Iff.of_eq (k0_chk277.eq_1 k0_t3 v2882))
theorem k0_off285_inb : ∀ (k0_t3 : Fin k0_t3_loop.trips) (v2882 : BitVec 32) (k0_hw277 : k0_chk277 k0_t3 v2882), ∀ (k0_h2 : k0_cond2 k0_t3 = 1#1), ∀ a, (k0_off285 v2882) a + S1x1x32.size a ≤ S26x100001x32.size a := fun k0_t3 v2882 k0_hw277 k0_h2 => k0_hw277 k0_h2

def k0_off286 (v2892 : BitVec 32) : Fin 3 → Nat :=
  let c17_i32_2307 : BitVec 32 := 17#32
  let c0_i32_2312 : BitVec 32 := 0#32
  ![17, v2892.toNat, 0]

def k0_chk278 (k0_t3 : Fin k0_t3_loop.trips) (v2892 : BitVec 32) : Prop :=
  (∀ (k0_h2 : k0_cond2 k0_t3 = 1#1), ∀ a, (k0_off286 v2892) a + S1x1x32.size a ≤ S26x100001x32.size a)
instance k0_chk278.dec : ∀ (k0_t3 : Fin k0_t3_loop.trips) (v2892 : BitVec 32), Decidable (k0_chk278 k0_t3 v2892) := fun k0_t3 v2892 => decidable_of_iff' _ (Iff.of_eq (k0_chk278.eq_1 k0_t3 v2892))
theorem k0_off286_inb : ∀ (k0_t3 : Fin k0_t3_loop.trips) (v2892 : BitVec 32) (k0_hw278 : k0_chk278 k0_t3 v2892), ∀ (k0_h2 : k0_cond2 k0_t3 = 1#1), ∀ a, (k0_off286 v2892) a + S1x1x32.size a ≤ S26x100001x32.size a := fun k0_t3 v2892 k0_hw278 k0_h2 => k0_hw278 k0_h2

def k0_off287 (v2902 : BitVec 32) : Fin 3 → Nat :=
  let c18_i32_2315 : BitVec 32 := 18#32
  let c0_i32_2320 : BitVec 32 := 0#32
  ![18, v2902.toNat, 0]

def k0_chk279 (k0_t3 : Fin k0_t3_loop.trips) (v2902 : BitVec 32) : Prop :=
  (∀ (k0_h2 : k0_cond2 k0_t3 = 1#1), ∀ a, (k0_off287 v2902) a + S1x1x32.size a ≤ S26x100001x32.size a)
instance k0_chk279.dec : ∀ (k0_t3 : Fin k0_t3_loop.trips) (v2902 : BitVec 32), Decidable (k0_chk279 k0_t3 v2902) := fun k0_t3 v2902 => decidable_of_iff' _ (Iff.of_eq (k0_chk279.eq_1 k0_t3 v2902))
theorem k0_off287_inb : ∀ (k0_t3 : Fin k0_t3_loop.trips) (v2902 : BitVec 32) (k0_hw279 : k0_chk279 k0_t3 v2902), ∀ (k0_h2 : k0_cond2 k0_t3 = 1#1), ∀ a, (k0_off287 v2902) a + S1x1x32.size a ≤ S26x100001x32.size a := fun k0_t3 v2902 k0_hw279 k0_h2 => k0_hw279 k0_h2

def k0_off288 (v2912 : BitVec 32) : Fin 3 → Nat :=
  let c19_i32_2323 : BitVec 32 := 19#32
  let c0_i32_2328 : BitVec 32 := 0#32
  ![19, v2912.toNat, 0]

def k0_chk280 (k0_t3 : Fin k0_t3_loop.trips) (v2912 : BitVec 32) : Prop :=
  (∀ (k0_h2 : k0_cond2 k0_t3 = 1#1), ∀ a, (k0_off288 v2912) a + S1x1x32.size a ≤ S26x100001x32.size a)
instance k0_chk280.dec : ∀ (k0_t3 : Fin k0_t3_loop.trips) (v2912 : BitVec 32), Decidable (k0_chk280 k0_t3 v2912) := fun k0_t3 v2912 => decidable_of_iff' _ (Iff.of_eq (k0_chk280.eq_1 k0_t3 v2912))
theorem k0_off288_inb : ∀ (k0_t3 : Fin k0_t3_loop.trips) (v2912 : BitVec 32) (k0_hw280 : k0_chk280 k0_t3 v2912), ∀ (k0_h2 : k0_cond2 k0_t3 = 1#1), ∀ a, (k0_off288 v2912) a + S1x1x32.size a ≤ S26x100001x32.size a := fun k0_t3 v2912 k0_hw280 k0_h2 => k0_hw280 k0_h2

def k0_off289 (v2922 : BitVec 32) : Fin 3 → Nat :=
  let c20_i32_2331 : BitVec 32 := 20#32
  let c0_i32_2336 : BitVec 32 := 0#32
  ![20, v2922.toNat, 0]

def k0_chk281 (k0_t3 : Fin k0_t3_loop.trips) (v2922 : BitVec 32) : Prop :=
  (∀ (k0_h2 : k0_cond2 k0_t3 = 1#1), ∀ a, (k0_off289 v2922) a + S1x1x32.size a ≤ S26x100001x32.size a)
instance k0_chk281.dec : ∀ (k0_t3 : Fin k0_t3_loop.trips) (v2922 : BitVec 32), Decidable (k0_chk281 k0_t3 v2922) := fun k0_t3 v2922 => decidable_of_iff' _ (Iff.of_eq (k0_chk281.eq_1 k0_t3 v2922))
theorem k0_off289_inb : ∀ (k0_t3 : Fin k0_t3_loop.trips) (v2922 : BitVec 32) (k0_hw281 : k0_chk281 k0_t3 v2922), ∀ (k0_h2 : k0_cond2 k0_t3 = 1#1), ∀ a, (k0_off289 v2922) a + S1x1x32.size a ≤ S26x100001x32.size a := fun k0_t3 v2922 k0_hw281 k0_h2 => k0_hw281 k0_h2

def k0_off290 (v2932 : BitVec 32) : Fin 3 → Nat :=
  let c21_i32_2339 : BitVec 32 := 21#32
  let c0_i32_2344 : BitVec 32 := 0#32
  ![21, v2932.toNat, 0]

def k0_chk282 (k0_t3 : Fin k0_t3_loop.trips) (v2932 : BitVec 32) : Prop :=
  (∀ (k0_h2 : k0_cond2 k0_t3 = 1#1), ∀ a, (k0_off290 v2932) a + S1x1x32.size a ≤ S26x100001x32.size a)
instance k0_chk282.dec : ∀ (k0_t3 : Fin k0_t3_loop.trips) (v2932 : BitVec 32), Decidable (k0_chk282 k0_t3 v2932) := fun k0_t3 v2932 => decidable_of_iff' _ (Iff.of_eq (k0_chk282.eq_1 k0_t3 v2932))
theorem k0_off290_inb : ∀ (k0_t3 : Fin k0_t3_loop.trips) (v2932 : BitVec 32) (k0_hw282 : k0_chk282 k0_t3 v2932), ∀ (k0_h2 : k0_cond2 k0_t3 = 1#1), ∀ a, (k0_off290 v2932) a + S1x1x32.size a ≤ S26x100001x32.size a := fun k0_t3 v2932 k0_hw282 k0_h2 => k0_hw282 k0_h2

def k0_off291 (v2942 : BitVec 32) : Fin 3 → Nat :=
  let c22_i32_2347 : BitVec 32 := 22#32
  let c0_i32_2352 : BitVec 32 := 0#32
  ![22, v2942.toNat, 0]

def k0_chk283 (k0_t3 : Fin k0_t3_loop.trips) (v2942 : BitVec 32) : Prop :=
  (∀ (k0_h2 : k0_cond2 k0_t3 = 1#1), ∀ a, (k0_off291 v2942) a + S1x1x32.size a ≤ S26x100001x32.size a)
instance k0_chk283.dec : ∀ (k0_t3 : Fin k0_t3_loop.trips) (v2942 : BitVec 32), Decidable (k0_chk283 k0_t3 v2942) := fun k0_t3 v2942 => decidable_of_iff' _ (Iff.of_eq (k0_chk283.eq_1 k0_t3 v2942))
theorem k0_off291_inb : ∀ (k0_t3 : Fin k0_t3_loop.trips) (v2942 : BitVec 32) (k0_hw283 : k0_chk283 k0_t3 v2942), ∀ (k0_h2 : k0_cond2 k0_t3 = 1#1), ∀ a, (k0_off291 v2942) a + S1x1x32.size a ≤ S26x100001x32.size a := fun k0_t3 v2942 k0_hw283 k0_h2 => k0_hw283 k0_h2

def k0_off292 (v2952 : BitVec 32) : Fin 3 → Nat :=
  let c23_i32_2355 : BitVec 32 := 23#32
  let c0_i32_2360 : BitVec 32 := 0#32
  ![23, v2952.toNat, 0]

def k0_chk284 (k0_t3 : Fin k0_t3_loop.trips) (v2952 : BitVec 32) : Prop :=
  (∀ (k0_h2 : k0_cond2 k0_t3 = 1#1), ∀ a, (k0_off292 v2952) a + S1x1x32.size a ≤ S26x100001x32.size a)
instance k0_chk284.dec : ∀ (k0_t3 : Fin k0_t3_loop.trips) (v2952 : BitVec 32), Decidable (k0_chk284 k0_t3 v2952) := fun k0_t3 v2952 => decidable_of_iff' _ (Iff.of_eq (k0_chk284.eq_1 k0_t3 v2952))
theorem k0_off292_inb : ∀ (k0_t3 : Fin k0_t3_loop.trips) (v2952 : BitVec 32) (k0_hw284 : k0_chk284 k0_t3 v2952), ∀ (k0_h2 : k0_cond2 k0_t3 = 1#1), ∀ a, (k0_off292 v2952) a + S1x1x32.size a ≤ S26x100001x32.size a := fun k0_t3 v2952 k0_hw284 k0_h2 => k0_hw284 k0_h2

def k0_off293 (v2962 : BitVec 32) : Fin 3 → Nat :=
  let c24_i32_2363 : BitVec 32 := 24#32
  let c0_i32_2368 : BitVec 32 := 0#32
  ![24, v2962.toNat, 0]

def k0_chk285 (k0_t3 : Fin k0_t3_loop.trips) (v2962 : BitVec 32) : Prop :=
  (∀ (k0_h2 : k0_cond2 k0_t3 = 1#1), ∀ a, (k0_off293 v2962) a + S1x1x32.size a ≤ S26x100001x32.size a)
instance k0_chk285.dec : ∀ (k0_t3 : Fin k0_t3_loop.trips) (v2962 : BitVec 32), Decidable (k0_chk285 k0_t3 v2962) := fun k0_t3 v2962 => decidable_of_iff' _ (Iff.of_eq (k0_chk285.eq_1 k0_t3 v2962))
theorem k0_off293_inb : ∀ (k0_t3 : Fin k0_t3_loop.trips) (v2962 : BitVec 32) (k0_hw285 : k0_chk285 k0_t3 v2962), ∀ (k0_h2 : k0_cond2 k0_t3 = 1#1), ∀ a, (k0_off293 v2962) a + S1x1x32.size a ≤ S26x100001x32.size a := fun k0_t3 v2962 k0_hw285 k0_h2 => k0_hw285 k0_h2

def k0_off294 (v2972 : BitVec 32) : Fin 3 → Nat :=
  let c25_i32_2371 : BitVec 32 := 25#32
  let c0_i32_2376 : BitVec 32 := 0#32
  ![25, v2972.toNat, 0]

def k0_chk286 (k0_t3 : Fin k0_t3_loop.trips) (v2972 : BitVec 32) : Prop :=
  (∀ (k0_h2 : k0_cond2 k0_t3 = 1#1), ∀ a, (k0_off294 v2972) a + S1x1x32.size a ≤ S26x100001x32.size a)
instance k0_chk286.dec : ∀ (k0_t3 : Fin k0_t3_loop.trips) (v2972 : BitVec 32), Decidable (k0_chk286 k0_t3 v2972) := fun k0_t3 v2972 => decidable_of_iff' _ (Iff.of_eq (k0_chk286.eq_1 k0_t3 v2972))
theorem k0_off294_inb : ∀ (k0_t3 : Fin k0_t3_loop.trips) (v2972 : BitVec 32) (k0_hw286 : k0_chk286 k0_t3 v2972), ∀ (k0_h2 : k0_cond2 k0_t3 = 1#1), ∀ a, (k0_off294 v2972) a + S1x1x32.size a ≤ S26x100001x32.size a := fun k0_t3 v2972 k0_hw286 k0_h2 => k0_hw286 k0_h2

def k0_off295 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c3_i32_2379 : BitVec 32 := 3#32
  let v2981 : BitVec 32 := Scalar.addi v2176 c3_i32_2379
  let v2982 : Index := Scalar.indexCast v2981
  let c0_2380 : Index := 0#32
  ![v2982.toNat, 0]
def k0_off296 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c3_i32_2381 : BitVec 32 := 3#32
  let v2985 : BitVec 32 := Scalar.addi v2176 c3_i32_2381
  let v2986 : Index := Scalar.indexCast v2985
  let c16_2382 : Index := 16#32
  ![v2986.toNat, 16]
def k0_off297 (v2990 : BitVec 32) : Fin 3 → Nat :=
  let c0_i32_2383 : BitVec 32 := 0#32
  let c0_i32_2388 : BitVec 32 := 0#32
  ![0, v2990.toNat, 0]

def k0_chk287 (k0_t3 : Fin k0_t3_loop.trips) (v2990 : BitVec 32) : Prop :=
  (∀ (k0_h2 : k0_cond2 k0_t3 = 1#1), ∀ a, (k0_off297 v2990) a + S1x1x32.size a ≤ S26x100001x32.size a)
instance k0_chk287.dec : ∀ (k0_t3 : Fin k0_t3_loop.trips) (v2990 : BitVec 32), Decidable (k0_chk287 k0_t3 v2990) := fun k0_t3 v2990 => decidable_of_iff' _ (Iff.of_eq (k0_chk287.eq_1 k0_t3 v2990))
theorem k0_off297_inb : ∀ (k0_t3 : Fin k0_t3_loop.trips) (v2990 : BitVec 32) (k0_hw287 : k0_chk287 k0_t3 v2990), ∀ (k0_h2 : k0_cond2 k0_t3 = 1#1), ∀ a, (k0_off297 v2990) a + S1x1x32.size a ≤ S26x100001x32.size a := fun k0_t3 v2990 k0_hw287 k0_h2 => k0_hw287 k0_h2

def k0_off298 (v3000 : BitVec 32) : Fin 3 → Nat :=
  let c1_i32_2391 : BitVec 32 := 1#32
  let c0_i32_2396 : BitVec 32 := 0#32
  ![1, v3000.toNat, 0]

def k0_chk288 (k0_t3 : Fin k0_t3_loop.trips) (v3000 : BitVec 32) : Prop :=
  (∀ (k0_h2 : k0_cond2 k0_t3 = 1#1), ∀ a, (k0_off298 v3000) a + S1x1x32.size a ≤ S26x100001x32.size a)
instance k0_chk288.dec : ∀ (k0_t3 : Fin k0_t3_loop.trips) (v3000 : BitVec 32), Decidable (k0_chk288 k0_t3 v3000) := fun k0_t3 v3000 => decidable_of_iff' _ (Iff.of_eq (k0_chk288.eq_1 k0_t3 v3000))
theorem k0_off298_inb : ∀ (k0_t3 : Fin k0_t3_loop.trips) (v3000 : BitVec 32) (k0_hw288 : k0_chk288 k0_t3 v3000), ∀ (k0_h2 : k0_cond2 k0_t3 = 1#1), ∀ a, (k0_off298 v3000) a + S1x1x32.size a ≤ S26x100001x32.size a := fun k0_t3 v3000 k0_hw288 k0_h2 => k0_hw288 k0_h2

def k0_off299 (v3010 : BitVec 32) : Fin 3 → Nat :=
  let c2_i32_2399 : BitVec 32 := 2#32
  let c0_i32_2404 : BitVec 32 := 0#32
  ![2, v3010.toNat, 0]

def k0_chk289 (k0_t3 : Fin k0_t3_loop.trips) (v3010 : BitVec 32) : Prop :=
  (∀ (k0_h2 : k0_cond2 k0_t3 = 1#1), ∀ a, (k0_off299 v3010) a + S1x1x32.size a ≤ S26x100001x32.size a)
instance k0_chk289.dec : ∀ (k0_t3 : Fin k0_t3_loop.trips) (v3010 : BitVec 32), Decidable (k0_chk289 k0_t3 v3010) := fun k0_t3 v3010 => decidable_of_iff' _ (Iff.of_eq (k0_chk289.eq_1 k0_t3 v3010))
theorem k0_off299_inb : ∀ (k0_t3 : Fin k0_t3_loop.trips) (v3010 : BitVec 32) (k0_hw289 : k0_chk289 k0_t3 v3010), ∀ (k0_h2 : k0_cond2 k0_t3 = 1#1), ∀ a, (k0_off299 v3010) a + S1x1x32.size a ≤ S26x100001x32.size a := fun k0_t3 v3010 k0_hw289 k0_h2 => k0_hw289 k0_h2

def k0_off300 (v3020 : BitVec 32) : Fin 3 → Nat :=
  let c3_i32_2407 : BitVec 32 := 3#32
  let c0_i32_2412 : BitVec 32 := 0#32
  ![3, v3020.toNat, 0]

def k0_chk290 (k0_t3 : Fin k0_t3_loop.trips) (v3020 : BitVec 32) : Prop :=
  (∀ (k0_h2 : k0_cond2 k0_t3 = 1#1), ∀ a, (k0_off300 v3020) a + S1x1x32.size a ≤ S26x100001x32.size a)
instance k0_chk290.dec : ∀ (k0_t3 : Fin k0_t3_loop.trips) (v3020 : BitVec 32), Decidable (k0_chk290 k0_t3 v3020) := fun k0_t3 v3020 => decidable_of_iff' _ (Iff.of_eq (k0_chk290.eq_1 k0_t3 v3020))
theorem k0_off300_inb : ∀ (k0_t3 : Fin k0_t3_loop.trips) (v3020 : BitVec 32) (k0_hw290 : k0_chk290 k0_t3 v3020), ∀ (k0_h2 : k0_cond2 k0_t3 = 1#1), ∀ a, (k0_off300 v3020) a + S1x1x32.size a ≤ S26x100001x32.size a := fun k0_t3 v3020 k0_hw290 k0_h2 => k0_hw290 k0_h2

def k0_off301 (v3030 : BitVec 32) : Fin 3 → Nat :=
  let c4_i32_2415 : BitVec 32 := 4#32
  let c0_i32_2420 : BitVec 32 := 0#32
  ![4, v3030.toNat, 0]

def k0_chk291 (k0_t3 : Fin k0_t3_loop.trips) (v3030 : BitVec 32) : Prop :=
  (∀ (k0_h2 : k0_cond2 k0_t3 = 1#1), ∀ a, (k0_off301 v3030) a + S1x1x32.size a ≤ S26x100001x32.size a)
instance k0_chk291.dec : ∀ (k0_t3 : Fin k0_t3_loop.trips) (v3030 : BitVec 32), Decidable (k0_chk291 k0_t3 v3030) := fun k0_t3 v3030 => decidable_of_iff' _ (Iff.of_eq (k0_chk291.eq_1 k0_t3 v3030))
theorem k0_off301_inb : ∀ (k0_t3 : Fin k0_t3_loop.trips) (v3030 : BitVec 32) (k0_hw291 : k0_chk291 k0_t3 v3030), ∀ (k0_h2 : k0_cond2 k0_t3 = 1#1), ∀ a, (k0_off301 v3030) a + S1x1x32.size a ≤ S26x100001x32.size a := fun k0_t3 v3030 k0_hw291 k0_h2 => k0_hw291 k0_h2

def k0_off302 (v3040 : BitVec 32) : Fin 3 → Nat :=
  let c5_i32_2423 : BitVec 32 := 5#32
  let c0_i32_2428 : BitVec 32 := 0#32
  ![5, v3040.toNat, 0]

def k0_chk292 (k0_t3 : Fin k0_t3_loop.trips) (v3040 : BitVec 32) : Prop :=
  (∀ (k0_h2 : k0_cond2 k0_t3 = 1#1), ∀ a, (k0_off302 v3040) a + S1x1x32.size a ≤ S26x100001x32.size a)
instance k0_chk292.dec : ∀ (k0_t3 : Fin k0_t3_loop.trips) (v3040 : BitVec 32), Decidable (k0_chk292 k0_t3 v3040) := fun k0_t3 v3040 => decidable_of_iff' _ (Iff.of_eq (k0_chk292.eq_1 k0_t3 v3040))
theorem k0_off302_inb : ∀ (k0_t3 : Fin k0_t3_loop.trips) (v3040 : BitVec 32) (k0_hw292 : k0_chk292 k0_t3 v3040), ∀ (k0_h2 : k0_cond2 k0_t3 = 1#1), ∀ a, (k0_off302 v3040) a + S1x1x32.size a ≤ S26x100001x32.size a := fun k0_t3 v3040 k0_hw292 k0_h2 => k0_hw292 k0_h2

def k0_off303 (v3050 : BitVec 32) : Fin 3 → Nat :=
  let c6_i32_2431 : BitVec 32 := 6#32
  let c0_i32_2436 : BitVec 32 := 0#32
  ![6, v3050.toNat, 0]

def k0_chk293 (k0_t3 : Fin k0_t3_loop.trips) (v3050 : BitVec 32) : Prop :=
  (∀ (k0_h2 : k0_cond2 k0_t3 = 1#1), ∀ a, (k0_off303 v3050) a + S1x1x32.size a ≤ S26x100001x32.size a)
instance k0_chk293.dec : ∀ (k0_t3 : Fin k0_t3_loop.trips) (v3050 : BitVec 32), Decidable (k0_chk293 k0_t3 v3050) := fun k0_t3 v3050 => decidable_of_iff' _ (Iff.of_eq (k0_chk293.eq_1 k0_t3 v3050))
theorem k0_off303_inb : ∀ (k0_t3 : Fin k0_t3_loop.trips) (v3050 : BitVec 32) (k0_hw293 : k0_chk293 k0_t3 v3050), ∀ (k0_h2 : k0_cond2 k0_t3 = 1#1), ∀ a, (k0_off303 v3050) a + S1x1x32.size a ≤ S26x100001x32.size a := fun k0_t3 v3050 k0_hw293 k0_h2 => k0_hw293 k0_h2

def k0_off304 (v3060 : BitVec 32) : Fin 3 → Nat :=
  let c7_i32_2439 : BitVec 32 := 7#32
  let c0_i32_2444 : BitVec 32 := 0#32
  ![7, v3060.toNat, 0]

def k0_chk294 (k0_t3 : Fin k0_t3_loop.trips) (v3060 : BitVec 32) : Prop :=
  (∀ (k0_h2 : k0_cond2 k0_t3 = 1#1), ∀ a, (k0_off304 v3060) a + S1x1x32.size a ≤ S26x100001x32.size a)
instance k0_chk294.dec : ∀ (k0_t3 : Fin k0_t3_loop.trips) (v3060 : BitVec 32), Decidable (k0_chk294 k0_t3 v3060) := fun k0_t3 v3060 => decidable_of_iff' _ (Iff.of_eq (k0_chk294.eq_1 k0_t3 v3060))
theorem k0_off304_inb : ∀ (k0_t3 : Fin k0_t3_loop.trips) (v3060 : BitVec 32) (k0_hw294 : k0_chk294 k0_t3 v3060), ∀ (k0_h2 : k0_cond2 k0_t3 = 1#1), ∀ a, (k0_off304 v3060) a + S1x1x32.size a ≤ S26x100001x32.size a := fun k0_t3 v3060 k0_hw294 k0_h2 => k0_hw294 k0_h2

def k0_off305 (v3070 : BitVec 32) : Fin 3 → Nat :=
  let c8_i32_2447 : BitVec 32 := 8#32
  let c0_i32_2452 : BitVec 32 := 0#32
  ![8, v3070.toNat, 0]

def k0_chk295 (k0_t3 : Fin k0_t3_loop.trips) (v3070 : BitVec 32) : Prop :=
  (∀ (k0_h2 : k0_cond2 k0_t3 = 1#1), ∀ a, (k0_off305 v3070) a + S1x1x32.size a ≤ S26x100001x32.size a)
instance k0_chk295.dec : ∀ (k0_t3 : Fin k0_t3_loop.trips) (v3070 : BitVec 32), Decidable (k0_chk295 k0_t3 v3070) := fun k0_t3 v3070 => decidable_of_iff' _ (Iff.of_eq (k0_chk295.eq_1 k0_t3 v3070))
theorem k0_off305_inb : ∀ (k0_t3 : Fin k0_t3_loop.trips) (v3070 : BitVec 32) (k0_hw295 : k0_chk295 k0_t3 v3070), ∀ (k0_h2 : k0_cond2 k0_t3 = 1#1), ∀ a, (k0_off305 v3070) a + S1x1x32.size a ≤ S26x100001x32.size a := fun k0_t3 v3070 k0_hw295 k0_h2 => k0_hw295 k0_h2

def k0_off306 (v3080 : BitVec 32) : Fin 3 → Nat :=
  let c9_i32_2455 : BitVec 32 := 9#32
  let c0_i32_2460 : BitVec 32 := 0#32
  ![9, v3080.toNat, 0]

def k0_chk296 (k0_t3 : Fin k0_t3_loop.trips) (v3080 : BitVec 32) : Prop :=
  (∀ (k0_h2 : k0_cond2 k0_t3 = 1#1), ∀ a, (k0_off306 v3080) a + S1x1x32.size a ≤ S26x100001x32.size a)
instance k0_chk296.dec : ∀ (k0_t3 : Fin k0_t3_loop.trips) (v3080 : BitVec 32), Decidable (k0_chk296 k0_t3 v3080) := fun k0_t3 v3080 => decidable_of_iff' _ (Iff.of_eq (k0_chk296.eq_1 k0_t3 v3080))
theorem k0_off306_inb : ∀ (k0_t3 : Fin k0_t3_loop.trips) (v3080 : BitVec 32) (k0_hw296 : k0_chk296 k0_t3 v3080), ∀ (k0_h2 : k0_cond2 k0_t3 = 1#1), ∀ a, (k0_off306 v3080) a + S1x1x32.size a ≤ S26x100001x32.size a := fun k0_t3 v3080 k0_hw296 k0_h2 => k0_hw296 k0_h2

def k0_off307 (v3090 : BitVec 32) : Fin 3 → Nat :=
  let c10_i32_2463 : BitVec 32 := 10#32
  let c0_i32_2468 : BitVec 32 := 0#32
  ![10, v3090.toNat, 0]

def k0_chk297 (k0_t3 : Fin k0_t3_loop.trips) (v3090 : BitVec 32) : Prop :=
  (∀ (k0_h2 : k0_cond2 k0_t3 = 1#1), ∀ a, (k0_off307 v3090) a + S1x1x32.size a ≤ S26x100001x32.size a)
instance k0_chk297.dec : ∀ (k0_t3 : Fin k0_t3_loop.trips) (v3090 : BitVec 32), Decidable (k0_chk297 k0_t3 v3090) := fun k0_t3 v3090 => decidable_of_iff' _ (Iff.of_eq (k0_chk297.eq_1 k0_t3 v3090))
theorem k0_off307_inb : ∀ (k0_t3 : Fin k0_t3_loop.trips) (v3090 : BitVec 32) (k0_hw297 : k0_chk297 k0_t3 v3090), ∀ (k0_h2 : k0_cond2 k0_t3 = 1#1), ∀ a, (k0_off307 v3090) a + S1x1x32.size a ≤ S26x100001x32.size a := fun k0_t3 v3090 k0_hw297 k0_h2 => k0_hw297 k0_h2

def k0_off308 (v3100 : BitVec 32) : Fin 3 → Nat :=
  let c11_i32_2471 : BitVec 32 := 11#32
  let c0_i32_2476 : BitVec 32 := 0#32
  ![11, v3100.toNat, 0]

def k0_chk298 (k0_t3 : Fin k0_t3_loop.trips) (v3100 : BitVec 32) : Prop :=
  (∀ (k0_h2 : k0_cond2 k0_t3 = 1#1), ∀ a, (k0_off308 v3100) a + S1x1x32.size a ≤ S26x100001x32.size a)
instance k0_chk298.dec : ∀ (k0_t3 : Fin k0_t3_loop.trips) (v3100 : BitVec 32), Decidable (k0_chk298 k0_t3 v3100) := fun k0_t3 v3100 => decidable_of_iff' _ (Iff.of_eq (k0_chk298.eq_1 k0_t3 v3100))
theorem k0_off308_inb : ∀ (k0_t3 : Fin k0_t3_loop.trips) (v3100 : BitVec 32) (k0_hw298 : k0_chk298 k0_t3 v3100), ∀ (k0_h2 : k0_cond2 k0_t3 = 1#1), ∀ a, (k0_off308 v3100) a + S1x1x32.size a ≤ S26x100001x32.size a := fun k0_t3 v3100 k0_hw298 k0_h2 => k0_hw298 k0_h2

def k0_off309 (v3110 : BitVec 32) : Fin 3 → Nat :=
  let c12_i32_2479 : BitVec 32 := 12#32
  let c0_i32_2484 : BitVec 32 := 0#32
  ![12, v3110.toNat, 0]

def k0_chk299 (k0_t3 : Fin k0_t3_loop.trips) (v3110 : BitVec 32) : Prop :=
  (∀ (k0_h2 : k0_cond2 k0_t3 = 1#1), ∀ a, (k0_off309 v3110) a + S1x1x32.size a ≤ S26x100001x32.size a)
instance k0_chk299.dec : ∀ (k0_t3 : Fin k0_t3_loop.trips) (v3110 : BitVec 32), Decidable (k0_chk299 k0_t3 v3110) := fun k0_t3 v3110 => decidable_of_iff' _ (Iff.of_eq (k0_chk299.eq_1 k0_t3 v3110))
theorem k0_off309_inb : ∀ (k0_t3 : Fin k0_t3_loop.trips) (v3110 : BitVec 32) (k0_hw299 : k0_chk299 k0_t3 v3110), ∀ (k0_h2 : k0_cond2 k0_t3 = 1#1), ∀ a, (k0_off309 v3110) a + S1x1x32.size a ≤ S26x100001x32.size a := fun k0_t3 v3110 k0_hw299 k0_h2 => k0_hw299 k0_h2

def k0_off310 (v3120 : BitVec 32) : Fin 3 → Nat :=
  let c13_i32_2487 : BitVec 32 := 13#32
  let c0_i32_2492 : BitVec 32 := 0#32
  ![13, v3120.toNat, 0]

def k0_chk300 (k0_t3 : Fin k0_t3_loop.trips) (v3120 : BitVec 32) : Prop :=
  (∀ (k0_h2 : k0_cond2 k0_t3 = 1#1), ∀ a, (k0_off310 v3120) a + S1x1x32.size a ≤ S26x100001x32.size a)
instance k0_chk300.dec : ∀ (k0_t3 : Fin k0_t3_loop.trips) (v3120 : BitVec 32), Decidable (k0_chk300 k0_t3 v3120) := fun k0_t3 v3120 => decidable_of_iff' _ (Iff.of_eq (k0_chk300.eq_1 k0_t3 v3120))
theorem k0_off310_inb : ∀ (k0_t3 : Fin k0_t3_loop.trips) (v3120 : BitVec 32) (k0_hw300 : k0_chk300 k0_t3 v3120), ∀ (k0_h2 : k0_cond2 k0_t3 = 1#1), ∀ a, (k0_off310 v3120) a + S1x1x32.size a ≤ S26x100001x32.size a := fun k0_t3 v3120 k0_hw300 k0_h2 => k0_hw300 k0_h2

def k0_off311 (v3130 : BitVec 32) : Fin 3 → Nat :=
  let c14_i32_2495 : BitVec 32 := 14#32
  let c0_i32_2500 : BitVec 32 := 0#32
  ![14, v3130.toNat, 0]

def k0_chk301 (k0_t3 : Fin k0_t3_loop.trips) (v3130 : BitVec 32) : Prop :=
  (∀ (k0_h2 : k0_cond2 k0_t3 = 1#1), ∀ a, (k0_off311 v3130) a + S1x1x32.size a ≤ S26x100001x32.size a)
instance k0_chk301.dec : ∀ (k0_t3 : Fin k0_t3_loop.trips) (v3130 : BitVec 32), Decidable (k0_chk301 k0_t3 v3130) := fun k0_t3 v3130 => decidable_of_iff' _ (Iff.of_eq (k0_chk301.eq_1 k0_t3 v3130))
theorem k0_off311_inb : ∀ (k0_t3 : Fin k0_t3_loop.trips) (v3130 : BitVec 32) (k0_hw301 : k0_chk301 k0_t3 v3130), ∀ (k0_h2 : k0_cond2 k0_t3 = 1#1), ∀ a, (k0_off311 v3130) a + S1x1x32.size a ≤ S26x100001x32.size a := fun k0_t3 v3130 k0_hw301 k0_h2 => k0_hw301 k0_h2

def k0_off312 (v3140 : BitVec 32) : Fin 3 → Nat :=
  let c15_i32_2503 : BitVec 32 := 15#32
  let c0_i32_2508 : BitVec 32 := 0#32
  ![15, v3140.toNat, 0]

def k0_chk302 (k0_t3 : Fin k0_t3_loop.trips) (v3140 : BitVec 32) : Prop :=
  (∀ (k0_h2 : k0_cond2 k0_t3 = 1#1), ∀ a, (k0_off312 v3140) a + S1x1x32.size a ≤ S26x100001x32.size a)
instance k0_chk302.dec : ∀ (k0_t3 : Fin k0_t3_loop.trips) (v3140 : BitVec 32), Decidable (k0_chk302 k0_t3 v3140) := fun k0_t3 v3140 => decidable_of_iff' _ (Iff.of_eq (k0_chk302.eq_1 k0_t3 v3140))
theorem k0_off312_inb : ∀ (k0_t3 : Fin k0_t3_loop.trips) (v3140 : BitVec 32) (k0_hw302 : k0_chk302 k0_t3 v3140), ∀ (k0_h2 : k0_cond2 k0_t3 = 1#1), ∀ a, (k0_off312 v3140) a + S1x1x32.size a ≤ S26x100001x32.size a := fun k0_t3 v3140 k0_hw302 k0_h2 => k0_hw302 k0_h2

def k0_off313 (v3150 : BitVec 32) : Fin 3 → Nat :=
  let c16_i32_2511 : BitVec 32 := 16#32
  let c0_i32_2516 : BitVec 32 := 0#32
  ![16, v3150.toNat, 0]

def k0_chk303 (k0_t3 : Fin k0_t3_loop.trips) (v3150 : BitVec 32) : Prop :=
  (∀ (k0_h2 : k0_cond2 k0_t3 = 1#1), ∀ a, (k0_off313 v3150) a + S1x1x32.size a ≤ S26x100001x32.size a)
instance k0_chk303.dec : ∀ (k0_t3 : Fin k0_t3_loop.trips) (v3150 : BitVec 32), Decidable (k0_chk303 k0_t3 v3150) := fun k0_t3 v3150 => decidable_of_iff' _ (Iff.of_eq (k0_chk303.eq_1 k0_t3 v3150))
theorem k0_off313_inb : ∀ (k0_t3 : Fin k0_t3_loop.trips) (v3150 : BitVec 32) (k0_hw303 : k0_chk303 k0_t3 v3150), ∀ (k0_h2 : k0_cond2 k0_t3 = 1#1), ∀ a, (k0_off313 v3150) a + S1x1x32.size a ≤ S26x100001x32.size a := fun k0_t3 v3150 k0_hw303 k0_h2 => k0_hw303 k0_h2

def k0_off314 (v3160 : BitVec 32) : Fin 3 → Nat :=
  let c17_i32_2519 : BitVec 32 := 17#32
  let c0_i32_2524 : BitVec 32 := 0#32
  ![17, v3160.toNat, 0]

def k0_chk304 (k0_t3 : Fin k0_t3_loop.trips) (v3160 : BitVec 32) : Prop :=
  (∀ (k0_h2 : k0_cond2 k0_t3 = 1#1), ∀ a, (k0_off314 v3160) a + S1x1x32.size a ≤ S26x100001x32.size a)
instance k0_chk304.dec : ∀ (k0_t3 : Fin k0_t3_loop.trips) (v3160 : BitVec 32), Decidable (k0_chk304 k0_t3 v3160) := fun k0_t3 v3160 => decidable_of_iff' _ (Iff.of_eq (k0_chk304.eq_1 k0_t3 v3160))
theorem k0_off314_inb : ∀ (k0_t3 : Fin k0_t3_loop.trips) (v3160 : BitVec 32) (k0_hw304 : k0_chk304 k0_t3 v3160), ∀ (k0_h2 : k0_cond2 k0_t3 = 1#1), ∀ a, (k0_off314 v3160) a + S1x1x32.size a ≤ S26x100001x32.size a := fun k0_t3 v3160 k0_hw304 k0_h2 => k0_hw304 k0_h2

def k0_off315 (v3170 : BitVec 32) : Fin 3 → Nat :=
  let c18_i32_2527 : BitVec 32 := 18#32
  let c0_i32_2532 : BitVec 32 := 0#32
  ![18, v3170.toNat, 0]

def k0_chk305 (k0_t3 : Fin k0_t3_loop.trips) (v3170 : BitVec 32) : Prop :=
  (∀ (k0_h2 : k0_cond2 k0_t3 = 1#1), ∀ a, (k0_off315 v3170) a + S1x1x32.size a ≤ S26x100001x32.size a)
instance k0_chk305.dec : ∀ (k0_t3 : Fin k0_t3_loop.trips) (v3170 : BitVec 32), Decidable (k0_chk305 k0_t3 v3170) := fun k0_t3 v3170 => decidable_of_iff' _ (Iff.of_eq (k0_chk305.eq_1 k0_t3 v3170))
theorem k0_off315_inb : ∀ (k0_t3 : Fin k0_t3_loop.trips) (v3170 : BitVec 32) (k0_hw305 : k0_chk305 k0_t3 v3170), ∀ (k0_h2 : k0_cond2 k0_t3 = 1#1), ∀ a, (k0_off315 v3170) a + S1x1x32.size a ≤ S26x100001x32.size a := fun k0_t3 v3170 k0_hw305 k0_h2 => k0_hw305 k0_h2

def k0_off316 (v3180 : BitVec 32) : Fin 3 → Nat :=
  let c19_i32_2535 : BitVec 32 := 19#32
  let c0_i32_2540 : BitVec 32 := 0#32
  ![19, v3180.toNat, 0]

def k0_chk306 (k0_t3 : Fin k0_t3_loop.trips) (v3180 : BitVec 32) : Prop :=
  (∀ (k0_h2 : k0_cond2 k0_t3 = 1#1), ∀ a, (k0_off316 v3180) a + S1x1x32.size a ≤ S26x100001x32.size a)
instance k0_chk306.dec : ∀ (k0_t3 : Fin k0_t3_loop.trips) (v3180 : BitVec 32), Decidable (k0_chk306 k0_t3 v3180) := fun k0_t3 v3180 => decidable_of_iff' _ (Iff.of_eq (k0_chk306.eq_1 k0_t3 v3180))
theorem k0_off316_inb : ∀ (k0_t3 : Fin k0_t3_loop.trips) (v3180 : BitVec 32) (k0_hw306 : k0_chk306 k0_t3 v3180), ∀ (k0_h2 : k0_cond2 k0_t3 = 1#1), ∀ a, (k0_off316 v3180) a + S1x1x32.size a ≤ S26x100001x32.size a := fun k0_t3 v3180 k0_hw306 k0_h2 => k0_hw306 k0_h2

def k0_off317 (v3190 : BitVec 32) : Fin 3 → Nat :=
  let c20_i32_2543 : BitVec 32 := 20#32
  let c0_i32_2548 : BitVec 32 := 0#32
  ![20, v3190.toNat, 0]

def k0_chk307 (k0_t3 : Fin k0_t3_loop.trips) (v3190 : BitVec 32) : Prop :=
  (∀ (k0_h2 : k0_cond2 k0_t3 = 1#1), ∀ a, (k0_off317 v3190) a + S1x1x32.size a ≤ S26x100001x32.size a)
instance k0_chk307.dec : ∀ (k0_t3 : Fin k0_t3_loop.trips) (v3190 : BitVec 32), Decidable (k0_chk307 k0_t3 v3190) := fun k0_t3 v3190 => decidable_of_iff' _ (Iff.of_eq (k0_chk307.eq_1 k0_t3 v3190))
theorem k0_off317_inb : ∀ (k0_t3 : Fin k0_t3_loop.trips) (v3190 : BitVec 32) (k0_hw307 : k0_chk307 k0_t3 v3190), ∀ (k0_h2 : k0_cond2 k0_t3 = 1#1), ∀ a, (k0_off317 v3190) a + S1x1x32.size a ≤ S26x100001x32.size a := fun k0_t3 v3190 k0_hw307 k0_h2 => k0_hw307 k0_h2

def k0_off318 (v3200 : BitVec 32) : Fin 3 → Nat :=
  let c21_i32_2551 : BitVec 32 := 21#32
  let c0_i32_2556 : BitVec 32 := 0#32
  ![21, v3200.toNat, 0]

def k0_chk308 (k0_t3 : Fin k0_t3_loop.trips) (v3200 : BitVec 32) : Prop :=
  (∀ (k0_h2 : k0_cond2 k0_t3 = 1#1), ∀ a, (k0_off318 v3200) a + S1x1x32.size a ≤ S26x100001x32.size a)
instance k0_chk308.dec : ∀ (k0_t3 : Fin k0_t3_loop.trips) (v3200 : BitVec 32), Decidable (k0_chk308 k0_t3 v3200) := fun k0_t3 v3200 => decidable_of_iff' _ (Iff.of_eq (k0_chk308.eq_1 k0_t3 v3200))
theorem k0_off318_inb : ∀ (k0_t3 : Fin k0_t3_loop.trips) (v3200 : BitVec 32) (k0_hw308 : k0_chk308 k0_t3 v3200), ∀ (k0_h2 : k0_cond2 k0_t3 = 1#1), ∀ a, (k0_off318 v3200) a + S1x1x32.size a ≤ S26x100001x32.size a := fun k0_t3 v3200 k0_hw308 k0_h2 => k0_hw308 k0_h2

def k0_off319 (v3210 : BitVec 32) : Fin 3 → Nat :=
  let c22_i32_2559 : BitVec 32 := 22#32
  let c0_i32_2564 : BitVec 32 := 0#32
  ![22, v3210.toNat, 0]

def k0_chk309 (k0_t3 : Fin k0_t3_loop.trips) (v3210 : BitVec 32) : Prop :=
  (∀ (k0_h2 : k0_cond2 k0_t3 = 1#1), ∀ a, (k0_off319 v3210) a + S1x1x32.size a ≤ S26x100001x32.size a)
instance k0_chk309.dec : ∀ (k0_t3 : Fin k0_t3_loop.trips) (v3210 : BitVec 32), Decidable (k0_chk309 k0_t3 v3210) := fun k0_t3 v3210 => decidable_of_iff' _ (Iff.of_eq (k0_chk309.eq_1 k0_t3 v3210))
theorem k0_off319_inb : ∀ (k0_t3 : Fin k0_t3_loop.trips) (v3210 : BitVec 32) (k0_hw309 : k0_chk309 k0_t3 v3210), ∀ (k0_h2 : k0_cond2 k0_t3 = 1#1), ∀ a, (k0_off319 v3210) a + S1x1x32.size a ≤ S26x100001x32.size a := fun k0_t3 v3210 k0_hw309 k0_h2 => k0_hw309 k0_h2

def k0_off320 (v3220 : BitVec 32) : Fin 3 → Nat :=
  let c23_i32_2567 : BitVec 32 := 23#32
  let c0_i32_2572 : BitVec 32 := 0#32
  ![23, v3220.toNat, 0]

def k0_chk310 (k0_t3 : Fin k0_t3_loop.trips) (v3220 : BitVec 32) : Prop :=
  (∀ (k0_h2 : k0_cond2 k0_t3 = 1#1), ∀ a, (k0_off320 v3220) a + S1x1x32.size a ≤ S26x100001x32.size a)
instance k0_chk310.dec : ∀ (k0_t3 : Fin k0_t3_loop.trips) (v3220 : BitVec 32), Decidable (k0_chk310 k0_t3 v3220) := fun k0_t3 v3220 => decidable_of_iff' _ (Iff.of_eq (k0_chk310.eq_1 k0_t3 v3220))
theorem k0_off320_inb : ∀ (k0_t3 : Fin k0_t3_loop.trips) (v3220 : BitVec 32) (k0_hw310 : k0_chk310 k0_t3 v3220), ∀ (k0_h2 : k0_cond2 k0_t3 = 1#1), ∀ a, (k0_off320 v3220) a + S1x1x32.size a ≤ S26x100001x32.size a := fun k0_t3 v3220 k0_hw310 k0_h2 => k0_hw310 k0_h2

def k0_off321 (v3230 : BitVec 32) : Fin 3 → Nat :=
  let c24_i32_2575 : BitVec 32 := 24#32
  let c0_i32_2580 : BitVec 32 := 0#32
  ![24, v3230.toNat, 0]

def k0_chk311 (k0_t3 : Fin k0_t3_loop.trips) (v3230 : BitVec 32) : Prop :=
  (∀ (k0_h2 : k0_cond2 k0_t3 = 1#1), ∀ a, (k0_off321 v3230) a + S1x1x32.size a ≤ S26x100001x32.size a)
instance k0_chk311.dec : ∀ (k0_t3 : Fin k0_t3_loop.trips) (v3230 : BitVec 32), Decidable (k0_chk311 k0_t3 v3230) := fun k0_t3 v3230 => decidable_of_iff' _ (Iff.of_eq (k0_chk311.eq_1 k0_t3 v3230))
theorem k0_off321_inb : ∀ (k0_t3 : Fin k0_t3_loop.trips) (v3230 : BitVec 32) (k0_hw311 : k0_chk311 k0_t3 v3230), ∀ (k0_h2 : k0_cond2 k0_t3 = 1#1), ∀ a, (k0_off321 v3230) a + S1x1x32.size a ≤ S26x100001x32.size a := fun k0_t3 v3230 k0_hw311 k0_h2 => k0_hw311 k0_h2

def k0_off322 (v3240 : BitVec 32) : Fin 3 → Nat :=
  let c25_i32_2583 : BitVec 32 := 25#32
  let c0_i32_2588 : BitVec 32 := 0#32
  ![25, v3240.toNat, 0]

def k0_chk312 (k0_t3 : Fin k0_t3_loop.trips) (v3240 : BitVec 32) : Prop :=
  (∀ (k0_h2 : k0_cond2 k0_t3 = 1#1), ∀ a, (k0_off322 v3240) a + S1x1x32.size a ≤ S26x100001x32.size a)
instance k0_chk312.dec : ∀ (k0_t3 : Fin k0_t3_loop.trips) (v3240 : BitVec 32), Decidable (k0_chk312 k0_t3 v3240) := fun k0_t3 v3240 => decidable_of_iff' _ (Iff.of_eq (k0_chk312.eq_1 k0_t3 v3240))
theorem k0_off322_inb : ∀ (k0_t3 : Fin k0_t3_loop.trips) (v3240 : BitVec 32) (k0_hw312 : k0_chk312 k0_t3 v3240), ∀ (k0_h2 : k0_cond2 k0_t3 = 1#1), ∀ a, (k0_off322 v3240) a + S1x1x32.size a ≤ S26x100001x32.size a := fun k0_t3 v3240 k0_hw312 k0_h2 => k0_hw312 k0_h2

def k0_off323 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c4_i32_2591 : BitVec 32 := 4#32
  let v3249 : BitVec 32 := Scalar.addi v2176 c4_i32_2591
  let v3250 : Index := Scalar.indexCast v3249
  let c0_2592 : Index := 0#32
  ![v3250.toNat, 0]
def k0_off324 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c4_i32_2593 : BitVec 32 := 4#32
  let v3253 : BitVec 32 := Scalar.addi v2176 c4_i32_2593
  let v3254 : Index := Scalar.indexCast v3253
  let c16_2594 : Index := 16#32
  ![v3254.toNat, 16]
def k0_off325 (v3258 : BitVec 32) : Fin 3 → Nat :=
  let c0_i32_2595 : BitVec 32 := 0#32
  let c0_i32_2600 : BitVec 32 := 0#32
  ![0, v3258.toNat, 0]

def k0_chk313 (k0_t3 : Fin k0_t3_loop.trips) (v3258 : BitVec 32) : Prop :=
  (∀ (k0_h2 : k0_cond2 k0_t3 = 1#1), ∀ a, (k0_off325 v3258) a + S1x1x32.size a ≤ S26x100001x32.size a)
instance k0_chk313.dec : ∀ (k0_t3 : Fin k0_t3_loop.trips) (v3258 : BitVec 32), Decidable (k0_chk313 k0_t3 v3258) := fun k0_t3 v3258 => decidable_of_iff' _ (Iff.of_eq (k0_chk313.eq_1 k0_t3 v3258))
theorem k0_off325_inb : ∀ (k0_t3 : Fin k0_t3_loop.trips) (v3258 : BitVec 32) (k0_hw313 : k0_chk313 k0_t3 v3258), ∀ (k0_h2 : k0_cond2 k0_t3 = 1#1), ∀ a, (k0_off325 v3258) a + S1x1x32.size a ≤ S26x100001x32.size a := fun k0_t3 v3258 k0_hw313 k0_h2 => k0_hw313 k0_h2

def k0_off326 (v3268 : BitVec 32) : Fin 3 → Nat :=
  let c1_i32_2603 : BitVec 32 := 1#32
  let c0_i32_2608 : BitVec 32 := 0#32
  ![1, v3268.toNat, 0]

def k0_chk314 (k0_t3 : Fin k0_t3_loop.trips) (v3268 : BitVec 32) : Prop :=
  (∀ (k0_h2 : k0_cond2 k0_t3 = 1#1), ∀ a, (k0_off326 v3268) a + S1x1x32.size a ≤ S26x100001x32.size a)
instance k0_chk314.dec : ∀ (k0_t3 : Fin k0_t3_loop.trips) (v3268 : BitVec 32), Decidable (k0_chk314 k0_t3 v3268) := fun k0_t3 v3268 => decidable_of_iff' _ (Iff.of_eq (k0_chk314.eq_1 k0_t3 v3268))
theorem k0_off326_inb : ∀ (k0_t3 : Fin k0_t3_loop.trips) (v3268 : BitVec 32) (k0_hw314 : k0_chk314 k0_t3 v3268), ∀ (k0_h2 : k0_cond2 k0_t3 = 1#1), ∀ a, (k0_off326 v3268) a + S1x1x32.size a ≤ S26x100001x32.size a := fun k0_t3 v3268 k0_hw314 k0_h2 => k0_hw314 k0_h2

def k0_off327 (v3278 : BitVec 32) : Fin 3 → Nat :=
  let c2_i32_2611 : BitVec 32 := 2#32
  let c0_i32_2616 : BitVec 32 := 0#32
  ![2, v3278.toNat, 0]

def k0_chk315 (k0_t3 : Fin k0_t3_loop.trips) (v3278 : BitVec 32) : Prop :=
  (∀ (k0_h2 : k0_cond2 k0_t3 = 1#1), ∀ a, (k0_off327 v3278) a + S1x1x32.size a ≤ S26x100001x32.size a)
instance k0_chk315.dec : ∀ (k0_t3 : Fin k0_t3_loop.trips) (v3278 : BitVec 32), Decidable (k0_chk315 k0_t3 v3278) := fun k0_t3 v3278 => decidable_of_iff' _ (Iff.of_eq (k0_chk315.eq_1 k0_t3 v3278))
theorem k0_off327_inb : ∀ (k0_t3 : Fin k0_t3_loop.trips) (v3278 : BitVec 32) (k0_hw315 : k0_chk315 k0_t3 v3278), ∀ (k0_h2 : k0_cond2 k0_t3 = 1#1), ∀ a, (k0_off327 v3278) a + S1x1x32.size a ≤ S26x100001x32.size a := fun k0_t3 v3278 k0_hw315 k0_h2 => k0_hw315 k0_h2

def k0_off328 (v3288 : BitVec 32) : Fin 3 → Nat :=
  let c3_i32_2619 : BitVec 32 := 3#32
  let c0_i32_2624 : BitVec 32 := 0#32
  ![3, v3288.toNat, 0]

def k0_chk316 (k0_t3 : Fin k0_t3_loop.trips) (v3288 : BitVec 32) : Prop :=
  (∀ (k0_h2 : k0_cond2 k0_t3 = 1#1), ∀ a, (k0_off328 v3288) a + S1x1x32.size a ≤ S26x100001x32.size a)
instance k0_chk316.dec : ∀ (k0_t3 : Fin k0_t3_loop.trips) (v3288 : BitVec 32), Decidable (k0_chk316 k0_t3 v3288) := fun k0_t3 v3288 => decidable_of_iff' _ (Iff.of_eq (k0_chk316.eq_1 k0_t3 v3288))
theorem k0_off328_inb : ∀ (k0_t3 : Fin k0_t3_loop.trips) (v3288 : BitVec 32) (k0_hw316 : k0_chk316 k0_t3 v3288), ∀ (k0_h2 : k0_cond2 k0_t3 = 1#1), ∀ a, (k0_off328 v3288) a + S1x1x32.size a ≤ S26x100001x32.size a := fun k0_t3 v3288 k0_hw316 k0_h2 => k0_hw316 k0_h2

def k0_off329 (v3298 : BitVec 32) : Fin 3 → Nat :=
  let c4_i32_2627 : BitVec 32 := 4#32
  let c0_i32_2632 : BitVec 32 := 0#32
  ![4, v3298.toNat, 0]

def k0_chk317 (k0_t3 : Fin k0_t3_loop.trips) (v3298 : BitVec 32) : Prop :=
  (∀ (k0_h2 : k0_cond2 k0_t3 = 1#1), ∀ a, (k0_off329 v3298) a + S1x1x32.size a ≤ S26x100001x32.size a)
instance k0_chk317.dec : ∀ (k0_t3 : Fin k0_t3_loop.trips) (v3298 : BitVec 32), Decidable (k0_chk317 k0_t3 v3298) := fun k0_t3 v3298 => decidable_of_iff' _ (Iff.of_eq (k0_chk317.eq_1 k0_t3 v3298))
theorem k0_off329_inb : ∀ (k0_t3 : Fin k0_t3_loop.trips) (v3298 : BitVec 32) (k0_hw317 : k0_chk317 k0_t3 v3298), ∀ (k0_h2 : k0_cond2 k0_t3 = 1#1), ∀ a, (k0_off329 v3298) a + S1x1x32.size a ≤ S26x100001x32.size a := fun k0_t3 v3298 k0_hw317 k0_h2 => k0_hw317 k0_h2

def k0_off330 (v3308 : BitVec 32) : Fin 3 → Nat :=
  let c5_i32_2635 : BitVec 32 := 5#32
  let c0_i32_2640 : BitVec 32 := 0#32
  ![5, v3308.toNat, 0]

def k0_chk318 (k0_t3 : Fin k0_t3_loop.trips) (v3308 : BitVec 32) : Prop :=
  (∀ (k0_h2 : k0_cond2 k0_t3 = 1#1), ∀ a, (k0_off330 v3308) a + S1x1x32.size a ≤ S26x100001x32.size a)
instance k0_chk318.dec : ∀ (k0_t3 : Fin k0_t3_loop.trips) (v3308 : BitVec 32), Decidable (k0_chk318 k0_t3 v3308) := fun k0_t3 v3308 => decidable_of_iff' _ (Iff.of_eq (k0_chk318.eq_1 k0_t3 v3308))
theorem k0_off330_inb : ∀ (k0_t3 : Fin k0_t3_loop.trips) (v3308 : BitVec 32) (k0_hw318 : k0_chk318 k0_t3 v3308), ∀ (k0_h2 : k0_cond2 k0_t3 = 1#1), ∀ a, (k0_off330 v3308) a + S1x1x32.size a ≤ S26x100001x32.size a := fun k0_t3 v3308 k0_hw318 k0_h2 => k0_hw318 k0_h2

def k0_off331 (v3318 : BitVec 32) : Fin 3 → Nat :=
  let c6_i32_2643 : BitVec 32 := 6#32
  let c0_i32_2648 : BitVec 32 := 0#32
  ![6, v3318.toNat, 0]

def k0_chk319 (k0_t3 : Fin k0_t3_loop.trips) (v3318 : BitVec 32) : Prop :=
  (∀ (k0_h2 : k0_cond2 k0_t3 = 1#1), ∀ a, (k0_off331 v3318) a + S1x1x32.size a ≤ S26x100001x32.size a)
instance k0_chk319.dec : ∀ (k0_t3 : Fin k0_t3_loop.trips) (v3318 : BitVec 32), Decidable (k0_chk319 k0_t3 v3318) := fun k0_t3 v3318 => decidable_of_iff' _ (Iff.of_eq (k0_chk319.eq_1 k0_t3 v3318))
theorem k0_off331_inb : ∀ (k0_t3 : Fin k0_t3_loop.trips) (v3318 : BitVec 32) (k0_hw319 : k0_chk319 k0_t3 v3318), ∀ (k0_h2 : k0_cond2 k0_t3 = 1#1), ∀ a, (k0_off331 v3318) a + S1x1x32.size a ≤ S26x100001x32.size a := fun k0_t3 v3318 k0_hw319 k0_h2 => k0_hw319 k0_h2

def k0_off332 (v3328 : BitVec 32) : Fin 3 → Nat :=
  let c7_i32_2651 : BitVec 32 := 7#32
  let c0_i32_2656 : BitVec 32 := 0#32
  ![7, v3328.toNat, 0]

def k0_chk320 (k0_t3 : Fin k0_t3_loop.trips) (v3328 : BitVec 32) : Prop :=
  (∀ (k0_h2 : k0_cond2 k0_t3 = 1#1), ∀ a, (k0_off332 v3328) a + S1x1x32.size a ≤ S26x100001x32.size a)
instance k0_chk320.dec : ∀ (k0_t3 : Fin k0_t3_loop.trips) (v3328 : BitVec 32), Decidable (k0_chk320 k0_t3 v3328) := fun k0_t3 v3328 => decidable_of_iff' _ (Iff.of_eq (k0_chk320.eq_1 k0_t3 v3328))
theorem k0_off332_inb : ∀ (k0_t3 : Fin k0_t3_loop.trips) (v3328 : BitVec 32) (k0_hw320 : k0_chk320 k0_t3 v3328), ∀ (k0_h2 : k0_cond2 k0_t3 = 1#1), ∀ a, (k0_off332 v3328) a + S1x1x32.size a ≤ S26x100001x32.size a := fun k0_t3 v3328 k0_hw320 k0_h2 => k0_hw320 k0_h2

def k0_off333 (v3338 : BitVec 32) : Fin 3 → Nat :=
  let c8_i32_2659 : BitVec 32 := 8#32
  let c0_i32_2664 : BitVec 32 := 0#32
  ![8, v3338.toNat, 0]

def k0_chk321 (k0_t3 : Fin k0_t3_loop.trips) (v3338 : BitVec 32) : Prop :=
  (∀ (k0_h2 : k0_cond2 k0_t3 = 1#1), ∀ a, (k0_off333 v3338) a + S1x1x32.size a ≤ S26x100001x32.size a)
instance k0_chk321.dec : ∀ (k0_t3 : Fin k0_t3_loop.trips) (v3338 : BitVec 32), Decidable (k0_chk321 k0_t3 v3338) := fun k0_t3 v3338 => decidable_of_iff' _ (Iff.of_eq (k0_chk321.eq_1 k0_t3 v3338))
theorem k0_off333_inb : ∀ (k0_t3 : Fin k0_t3_loop.trips) (v3338 : BitVec 32) (k0_hw321 : k0_chk321 k0_t3 v3338), ∀ (k0_h2 : k0_cond2 k0_t3 = 1#1), ∀ a, (k0_off333 v3338) a + S1x1x32.size a ≤ S26x100001x32.size a := fun k0_t3 v3338 k0_hw321 k0_h2 => k0_hw321 k0_h2

def k0_off334 (v3348 : BitVec 32) : Fin 3 → Nat :=
  let c9_i32_2667 : BitVec 32 := 9#32
  let c0_i32_2672 : BitVec 32 := 0#32
  ![9, v3348.toNat, 0]

def k0_chk322 (k0_t3 : Fin k0_t3_loop.trips) (v3348 : BitVec 32) : Prop :=
  (∀ (k0_h2 : k0_cond2 k0_t3 = 1#1), ∀ a, (k0_off334 v3348) a + S1x1x32.size a ≤ S26x100001x32.size a)
instance k0_chk322.dec : ∀ (k0_t3 : Fin k0_t3_loop.trips) (v3348 : BitVec 32), Decidable (k0_chk322 k0_t3 v3348) := fun k0_t3 v3348 => decidable_of_iff' _ (Iff.of_eq (k0_chk322.eq_1 k0_t3 v3348))
theorem k0_off334_inb : ∀ (k0_t3 : Fin k0_t3_loop.trips) (v3348 : BitVec 32) (k0_hw322 : k0_chk322 k0_t3 v3348), ∀ (k0_h2 : k0_cond2 k0_t3 = 1#1), ∀ a, (k0_off334 v3348) a + S1x1x32.size a ≤ S26x100001x32.size a := fun k0_t3 v3348 k0_hw322 k0_h2 => k0_hw322 k0_h2

def k0_off335 (v3358 : BitVec 32) : Fin 3 → Nat :=
  let c10_i32_2675 : BitVec 32 := 10#32
  let c0_i32_2680 : BitVec 32 := 0#32
  ![10, v3358.toNat, 0]

def k0_chk323 (k0_t3 : Fin k0_t3_loop.trips) (v3358 : BitVec 32) : Prop :=
  (∀ (k0_h2 : k0_cond2 k0_t3 = 1#1), ∀ a, (k0_off335 v3358) a + S1x1x32.size a ≤ S26x100001x32.size a)
instance k0_chk323.dec : ∀ (k0_t3 : Fin k0_t3_loop.trips) (v3358 : BitVec 32), Decidable (k0_chk323 k0_t3 v3358) := fun k0_t3 v3358 => decidable_of_iff' _ (Iff.of_eq (k0_chk323.eq_1 k0_t3 v3358))
theorem k0_off335_inb : ∀ (k0_t3 : Fin k0_t3_loop.trips) (v3358 : BitVec 32) (k0_hw323 : k0_chk323 k0_t3 v3358), ∀ (k0_h2 : k0_cond2 k0_t3 = 1#1), ∀ a, (k0_off335 v3358) a + S1x1x32.size a ≤ S26x100001x32.size a := fun k0_t3 v3358 k0_hw323 k0_h2 => k0_hw323 k0_h2

def k0_off336 (v3368 : BitVec 32) : Fin 3 → Nat :=
  let c11_i32_2683 : BitVec 32 := 11#32
  let c0_i32_2688 : BitVec 32 := 0#32
  ![11, v3368.toNat, 0]

def k0_chk324 (k0_t3 : Fin k0_t3_loop.trips) (v3368 : BitVec 32) : Prop :=
  (∀ (k0_h2 : k0_cond2 k0_t3 = 1#1), ∀ a, (k0_off336 v3368) a + S1x1x32.size a ≤ S26x100001x32.size a)
instance k0_chk324.dec : ∀ (k0_t3 : Fin k0_t3_loop.trips) (v3368 : BitVec 32), Decidable (k0_chk324 k0_t3 v3368) := fun k0_t3 v3368 => decidable_of_iff' _ (Iff.of_eq (k0_chk324.eq_1 k0_t3 v3368))
theorem k0_off336_inb : ∀ (k0_t3 : Fin k0_t3_loop.trips) (v3368 : BitVec 32) (k0_hw324 : k0_chk324 k0_t3 v3368), ∀ (k0_h2 : k0_cond2 k0_t3 = 1#1), ∀ a, (k0_off336 v3368) a + S1x1x32.size a ≤ S26x100001x32.size a := fun k0_t3 v3368 k0_hw324 k0_h2 => k0_hw324 k0_h2

def k0_off337 (v3378 : BitVec 32) : Fin 3 → Nat :=
  let c12_i32_2691 : BitVec 32 := 12#32
  let c0_i32_2696 : BitVec 32 := 0#32
  ![12, v3378.toNat, 0]

def k0_chk325 (k0_t3 : Fin k0_t3_loop.trips) (v3378 : BitVec 32) : Prop :=
  (∀ (k0_h2 : k0_cond2 k0_t3 = 1#1), ∀ a, (k0_off337 v3378) a + S1x1x32.size a ≤ S26x100001x32.size a)
instance k0_chk325.dec : ∀ (k0_t3 : Fin k0_t3_loop.trips) (v3378 : BitVec 32), Decidable (k0_chk325 k0_t3 v3378) := fun k0_t3 v3378 => decidable_of_iff' _ (Iff.of_eq (k0_chk325.eq_1 k0_t3 v3378))
theorem k0_off337_inb : ∀ (k0_t3 : Fin k0_t3_loop.trips) (v3378 : BitVec 32) (k0_hw325 : k0_chk325 k0_t3 v3378), ∀ (k0_h2 : k0_cond2 k0_t3 = 1#1), ∀ a, (k0_off337 v3378) a + S1x1x32.size a ≤ S26x100001x32.size a := fun k0_t3 v3378 k0_hw325 k0_h2 => k0_hw325 k0_h2

def k0_off338 (v3388 : BitVec 32) : Fin 3 → Nat :=
  let c13_i32_2699 : BitVec 32 := 13#32
  let c0_i32_2704 : BitVec 32 := 0#32
  ![13, v3388.toNat, 0]

def k0_chk326 (k0_t3 : Fin k0_t3_loop.trips) (v3388 : BitVec 32) : Prop :=
  (∀ (k0_h2 : k0_cond2 k0_t3 = 1#1), ∀ a, (k0_off338 v3388) a + S1x1x32.size a ≤ S26x100001x32.size a)
instance k0_chk326.dec : ∀ (k0_t3 : Fin k0_t3_loop.trips) (v3388 : BitVec 32), Decidable (k0_chk326 k0_t3 v3388) := fun k0_t3 v3388 => decidable_of_iff' _ (Iff.of_eq (k0_chk326.eq_1 k0_t3 v3388))
theorem k0_off338_inb : ∀ (k0_t3 : Fin k0_t3_loop.trips) (v3388 : BitVec 32) (k0_hw326 : k0_chk326 k0_t3 v3388), ∀ (k0_h2 : k0_cond2 k0_t3 = 1#1), ∀ a, (k0_off338 v3388) a + S1x1x32.size a ≤ S26x100001x32.size a := fun k0_t3 v3388 k0_hw326 k0_h2 => k0_hw326 k0_h2

def k0_off339 (v3398 : BitVec 32) : Fin 3 → Nat :=
  let c14_i32_2707 : BitVec 32 := 14#32
  let c0_i32_2712 : BitVec 32 := 0#32
  ![14, v3398.toNat, 0]

def k0_chk327 (k0_t3 : Fin k0_t3_loop.trips) (v3398 : BitVec 32) : Prop :=
  (∀ (k0_h2 : k0_cond2 k0_t3 = 1#1), ∀ a, (k0_off339 v3398) a + S1x1x32.size a ≤ S26x100001x32.size a)
instance k0_chk327.dec : ∀ (k0_t3 : Fin k0_t3_loop.trips) (v3398 : BitVec 32), Decidable (k0_chk327 k0_t3 v3398) := fun k0_t3 v3398 => decidable_of_iff' _ (Iff.of_eq (k0_chk327.eq_1 k0_t3 v3398))
theorem k0_off339_inb : ∀ (k0_t3 : Fin k0_t3_loop.trips) (v3398 : BitVec 32) (k0_hw327 : k0_chk327 k0_t3 v3398), ∀ (k0_h2 : k0_cond2 k0_t3 = 1#1), ∀ a, (k0_off339 v3398) a + S1x1x32.size a ≤ S26x100001x32.size a := fun k0_t3 v3398 k0_hw327 k0_h2 => k0_hw327 k0_h2

def k0_off340 (v3408 : BitVec 32) : Fin 3 → Nat :=
  let c15_i32_2715 : BitVec 32 := 15#32
  let c0_i32_2720 : BitVec 32 := 0#32
  ![15, v3408.toNat, 0]

def k0_chk328 (k0_t3 : Fin k0_t3_loop.trips) (v3408 : BitVec 32) : Prop :=
  (∀ (k0_h2 : k0_cond2 k0_t3 = 1#1), ∀ a, (k0_off340 v3408) a + S1x1x32.size a ≤ S26x100001x32.size a)
instance k0_chk328.dec : ∀ (k0_t3 : Fin k0_t3_loop.trips) (v3408 : BitVec 32), Decidable (k0_chk328 k0_t3 v3408) := fun k0_t3 v3408 => decidable_of_iff' _ (Iff.of_eq (k0_chk328.eq_1 k0_t3 v3408))
theorem k0_off340_inb : ∀ (k0_t3 : Fin k0_t3_loop.trips) (v3408 : BitVec 32) (k0_hw328 : k0_chk328 k0_t3 v3408), ∀ (k0_h2 : k0_cond2 k0_t3 = 1#1), ∀ a, (k0_off340 v3408) a + S1x1x32.size a ≤ S26x100001x32.size a := fun k0_t3 v3408 k0_hw328 k0_h2 => k0_hw328 k0_h2

def k0_off341 (v3418 : BitVec 32) : Fin 3 → Nat :=
  let c16_i32_2723 : BitVec 32 := 16#32
  let c0_i32_2728 : BitVec 32 := 0#32
  ![16, v3418.toNat, 0]

def k0_chk329 (k0_t3 : Fin k0_t3_loop.trips) (v3418 : BitVec 32) : Prop :=
  (∀ (k0_h2 : k0_cond2 k0_t3 = 1#1), ∀ a, (k0_off341 v3418) a + S1x1x32.size a ≤ S26x100001x32.size a)
instance k0_chk329.dec : ∀ (k0_t3 : Fin k0_t3_loop.trips) (v3418 : BitVec 32), Decidable (k0_chk329 k0_t3 v3418) := fun k0_t3 v3418 => decidable_of_iff' _ (Iff.of_eq (k0_chk329.eq_1 k0_t3 v3418))
theorem k0_off341_inb : ∀ (k0_t3 : Fin k0_t3_loop.trips) (v3418 : BitVec 32) (k0_hw329 : k0_chk329 k0_t3 v3418), ∀ (k0_h2 : k0_cond2 k0_t3 = 1#1), ∀ a, (k0_off341 v3418) a + S1x1x32.size a ≤ S26x100001x32.size a := fun k0_t3 v3418 k0_hw329 k0_h2 => k0_hw329 k0_h2

def k0_off342 (v3428 : BitVec 32) : Fin 3 → Nat :=
  let c17_i32_2731 : BitVec 32 := 17#32
  let c0_i32_2736 : BitVec 32 := 0#32
  ![17, v3428.toNat, 0]

def k0_chk330 (k0_t3 : Fin k0_t3_loop.trips) (v3428 : BitVec 32) : Prop :=
  (∀ (k0_h2 : k0_cond2 k0_t3 = 1#1), ∀ a, (k0_off342 v3428) a + S1x1x32.size a ≤ S26x100001x32.size a)
instance k0_chk330.dec : ∀ (k0_t3 : Fin k0_t3_loop.trips) (v3428 : BitVec 32), Decidable (k0_chk330 k0_t3 v3428) := fun k0_t3 v3428 => decidable_of_iff' _ (Iff.of_eq (k0_chk330.eq_1 k0_t3 v3428))
theorem k0_off342_inb : ∀ (k0_t3 : Fin k0_t3_loop.trips) (v3428 : BitVec 32) (k0_hw330 : k0_chk330 k0_t3 v3428), ∀ (k0_h2 : k0_cond2 k0_t3 = 1#1), ∀ a, (k0_off342 v3428) a + S1x1x32.size a ≤ S26x100001x32.size a := fun k0_t3 v3428 k0_hw330 k0_h2 => k0_hw330 k0_h2

def k0_off343 (v3438 : BitVec 32) : Fin 3 → Nat :=
  let c18_i32_2739 : BitVec 32 := 18#32
  let c0_i32_2744 : BitVec 32 := 0#32
  ![18, v3438.toNat, 0]

def k0_chk331 (k0_t3 : Fin k0_t3_loop.trips) (v3438 : BitVec 32) : Prop :=
  (∀ (k0_h2 : k0_cond2 k0_t3 = 1#1), ∀ a, (k0_off343 v3438) a + S1x1x32.size a ≤ S26x100001x32.size a)
instance k0_chk331.dec : ∀ (k0_t3 : Fin k0_t3_loop.trips) (v3438 : BitVec 32), Decidable (k0_chk331 k0_t3 v3438) := fun k0_t3 v3438 => decidable_of_iff' _ (Iff.of_eq (k0_chk331.eq_1 k0_t3 v3438))
theorem k0_off343_inb : ∀ (k0_t3 : Fin k0_t3_loop.trips) (v3438 : BitVec 32) (k0_hw331 : k0_chk331 k0_t3 v3438), ∀ (k0_h2 : k0_cond2 k0_t3 = 1#1), ∀ a, (k0_off343 v3438) a + S1x1x32.size a ≤ S26x100001x32.size a := fun k0_t3 v3438 k0_hw331 k0_h2 => k0_hw331 k0_h2

def k0_off344 (v3448 : BitVec 32) : Fin 3 → Nat :=
  let c19_i32_2747 : BitVec 32 := 19#32
  let c0_i32_2752 : BitVec 32 := 0#32
  ![19, v3448.toNat, 0]

def k0_chk332 (k0_t3 : Fin k0_t3_loop.trips) (v3448 : BitVec 32) : Prop :=
  (∀ (k0_h2 : k0_cond2 k0_t3 = 1#1), ∀ a, (k0_off344 v3448) a + S1x1x32.size a ≤ S26x100001x32.size a)
instance k0_chk332.dec : ∀ (k0_t3 : Fin k0_t3_loop.trips) (v3448 : BitVec 32), Decidable (k0_chk332 k0_t3 v3448) := fun k0_t3 v3448 => decidable_of_iff' _ (Iff.of_eq (k0_chk332.eq_1 k0_t3 v3448))
theorem k0_off344_inb : ∀ (k0_t3 : Fin k0_t3_loop.trips) (v3448 : BitVec 32) (k0_hw332 : k0_chk332 k0_t3 v3448), ∀ (k0_h2 : k0_cond2 k0_t3 = 1#1), ∀ a, (k0_off344 v3448) a + S1x1x32.size a ≤ S26x100001x32.size a := fun k0_t3 v3448 k0_hw332 k0_h2 => k0_hw332 k0_h2

def k0_off345 (v3458 : BitVec 32) : Fin 3 → Nat :=
  let c20_i32_2755 : BitVec 32 := 20#32
  let c0_i32_2760 : BitVec 32 := 0#32
  ![20, v3458.toNat, 0]

def k0_chk333 (k0_t3 : Fin k0_t3_loop.trips) (v3458 : BitVec 32) : Prop :=
  (∀ (k0_h2 : k0_cond2 k0_t3 = 1#1), ∀ a, (k0_off345 v3458) a + S1x1x32.size a ≤ S26x100001x32.size a)
instance k0_chk333.dec : ∀ (k0_t3 : Fin k0_t3_loop.trips) (v3458 : BitVec 32), Decidable (k0_chk333 k0_t3 v3458) := fun k0_t3 v3458 => decidable_of_iff' _ (Iff.of_eq (k0_chk333.eq_1 k0_t3 v3458))
theorem k0_off345_inb : ∀ (k0_t3 : Fin k0_t3_loop.trips) (v3458 : BitVec 32) (k0_hw333 : k0_chk333 k0_t3 v3458), ∀ (k0_h2 : k0_cond2 k0_t3 = 1#1), ∀ a, (k0_off345 v3458) a + S1x1x32.size a ≤ S26x100001x32.size a := fun k0_t3 v3458 k0_hw333 k0_h2 => k0_hw333 k0_h2

def k0_off346 (v3468 : BitVec 32) : Fin 3 → Nat :=
  let c21_i32_2763 : BitVec 32 := 21#32
  let c0_i32_2768 : BitVec 32 := 0#32
  ![21, v3468.toNat, 0]

def k0_chk334 (k0_t3 : Fin k0_t3_loop.trips) (v3468 : BitVec 32) : Prop :=
  (∀ (k0_h2 : k0_cond2 k0_t3 = 1#1), ∀ a, (k0_off346 v3468) a + S1x1x32.size a ≤ S26x100001x32.size a)
instance k0_chk334.dec : ∀ (k0_t3 : Fin k0_t3_loop.trips) (v3468 : BitVec 32), Decidable (k0_chk334 k0_t3 v3468) := fun k0_t3 v3468 => decidable_of_iff' _ (Iff.of_eq (k0_chk334.eq_1 k0_t3 v3468))
theorem k0_off346_inb : ∀ (k0_t3 : Fin k0_t3_loop.trips) (v3468 : BitVec 32) (k0_hw334 : k0_chk334 k0_t3 v3468), ∀ (k0_h2 : k0_cond2 k0_t3 = 1#1), ∀ a, (k0_off346 v3468) a + S1x1x32.size a ≤ S26x100001x32.size a := fun k0_t3 v3468 k0_hw334 k0_h2 => k0_hw334 k0_h2

def k0_off347 (v3478 : BitVec 32) : Fin 3 → Nat :=
  let c22_i32_2771 : BitVec 32 := 22#32
  let c0_i32_2776 : BitVec 32 := 0#32
  ![22, v3478.toNat, 0]

def k0_chk335 (k0_t3 : Fin k0_t3_loop.trips) (v3478 : BitVec 32) : Prop :=
  (∀ (k0_h2 : k0_cond2 k0_t3 = 1#1), ∀ a, (k0_off347 v3478) a + S1x1x32.size a ≤ S26x100001x32.size a)
instance k0_chk335.dec : ∀ (k0_t3 : Fin k0_t3_loop.trips) (v3478 : BitVec 32), Decidable (k0_chk335 k0_t3 v3478) := fun k0_t3 v3478 => decidable_of_iff' _ (Iff.of_eq (k0_chk335.eq_1 k0_t3 v3478))
theorem k0_off347_inb : ∀ (k0_t3 : Fin k0_t3_loop.trips) (v3478 : BitVec 32) (k0_hw335 : k0_chk335 k0_t3 v3478), ∀ (k0_h2 : k0_cond2 k0_t3 = 1#1), ∀ a, (k0_off347 v3478) a + S1x1x32.size a ≤ S26x100001x32.size a := fun k0_t3 v3478 k0_hw335 k0_h2 => k0_hw335 k0_h2

def k0_off348 (v3488 : BitVec 32) : Fin 3 → Nat :=
  let c23_i32_2779 : BitVec 32 := 23#32
  let c0_i32_2784 : BitVec 32 := 0#32
  ![23, v3488.toNat, 0]

def k0_chk336 (k0_t3 : Fin k0_t3_loop.trips) (v3488 : BitVec 32) : Prop :=
  (∀ (k0_h2 : k0_cond2 k0_t3 = 1#1), ∀ a, (k0_off348 v3488) a + S1x1x32.size a ≤ S26x100001x32.size a)
instance k0_chk336.dec : ∀ (k0_t3 : Fin k0_t3_loop.trips) (v3488 : BitVec 32), Decidable (k0_chk336 k0_t3 v3488) := fun k0_t3 v3488 => decidable_of_iff' _ (Iff.of_eq (k0_chk336.eq_1 k0_t3 v3488))
theorem k0_off348_inb : ∀ (k0_t3 : Fin k0_t3_loop.trips) (v3488 : BitVec 32) (k0_hw336 : k0_chk336 k0_t3 v3488), ∀ (k0_h2 : k0_cond2 k0_t3 = 1#1), ∀ a, (k0_off348 v3488) a + S1x1x32.size a ≤ S26x100001x32.size a := fun k0_t3 v3488 k0_hw336 k0_h2 => k0_hw336 k0_h2

def k0_off349 (v3498 : BitVec 32) : Fin 3 → Nat :=
  let c24_i32_2787 : BitVec 32 := 24#32
  let c0_i32_2792 : BitVec 32 := 0#32
  ![24, v3498.toNat, 0]

def k0_chk337 (k0_t3 : Fin k0_t3_loop.trips) (v3498 : BitVec 32) : Prop :=
  (∀ (k0_h2 : k0_cond2 k0_t3 = 1#1), ∀ a, (k0_off349 v3498) a + S1x1x32.size a ≤ S26x100001x32.size a)
instance k0_chk337.dec : ∀ (k0_t3 : Fin k0_t3_loop.trips) (v3498 : BitVec 32), Decidable (k0_chk337 k0_t3 v3498) := fun k0_t3 v3498 => decidable_of_iff' _ (Iff.of_eq (k0_chk337.eq_1 k0_t3 v3498))
theorem k0_off349_inb : ∀ (k0_t3 : Fin k0_t3_loop.trips) (v3498 : BitVec 32) (k0_hw337 : k0_chk337 k0_t3 v3498), ∀ (k0_h2 : k0_cond2 k0_t3 = 1#1), ∀ a, (k0_off349 v3498) a + S1x1x32.size a ≤ S26x100001x32.size a := fun k0_t3 v3498 k0_hw337 k0_h2 => k0_hw337 k0_h2

def k0_off350 (v3508 : BitVec 32) : Fin 3 → Nat :=
  let c25_i32_2795 : BitVec 32 := 25#32
  let c0_i32_2800 : BitVec 32 := 0#32
  ![25, v3508.toNat, 0]

def k0_chk338 (k0_t3 : Fin k0_t3_loop.trips) (v3508 : BitVec 32) : Prop :=
  (∀ (k0_h2 : k0_cond2 k0_t3 = 1#1), ∀ a, (k0_off350 v3508) a + S1x1x32.size a ≤ S26x100001x32.size a)
instance k0_chk338.dec : ∀ (k0_t3 : Fin k0_t3_loop.trips) (v3508 : BitVec 32), Decidable (k0_chk338 k0_t3 v3508) := fun k0_t3 v3508 => decidable_of_iff' _ (Iff.of_eq (k0_chk338.eq_1 k0_t3 v3508))
theorem k0_off350_inb : ∀ (k0_t3 : Fin k0_t3_loop.trips) (v3508 : BitVec 32) (k0_hw338 : k0_chk338 k0_t3 v3508), ∀ (k0_h2 : k0_cond2 k0_t3 = 1#1), ∀ a, (k0_off350 v3508) a + S1x1x32.size a ≤ S26x100001x32.size a := fun k0_t3 v3508 k0_hw338 k0_h2 => k0_hw338 k0_h2

def k0_off351 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c5_i32_2803 : BitVec 32 := 5#32
  let v3517 : BitVec 32 := Scalar.addi v2176 c5_i32_2803
  let v3518 : Index := Scalar.indexCast v3517
  let c0_2804 : Index := 0#32
  ![v3518.toNat, 0]
def k0_off352 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c5_i32_2805 : BitVec 32 := 5#32
  let v3521 : BitVec 32 := Scalar.addi v2176 c5_i32_2805
  let v3522 : Index := Scalar.indexCast v3521
  let c16_2806 : Index := 16#32
  ![v3522.toNat, 16]
def k0_off353 (v3526 : BitVec 32) : Fin 3 → Nat :=
  let c0_i32_2807 : BitVec 32 := 0#32
  let c0_i32_2812 : BitVec 32 := 0#32
  ![0, v3526.toNat, 0]

def k0_chk339 (k0_t3 : Fin k0_t3_loop.trips) (v3526 : BitVec 32) : Prop :=
  (∀ (k0_h2 : k0_cond2 k0_t3 = 1#1), ∀ a, (k0_off353 v3526) a + S1x1x32.size a ≤ S26x100001x32.size a)
instance k0_chk339.dec : ∀ (k0_t3 : Fin k0_t3_loop.trips) (v3526 : BitVec 32), Decidable (k0_chk339 k0_t3 v3526) := fun k0_t3 v3526 => decidable_of_iff' _ (Iff.of_eq (k0_chk339.eq_1 k0_t3 v3526))
theorem k0_off353_inb : ∀ (k0_t3 : Fin k0_t3_loop.trips) (v3526 : BitVec 32) (k0_hw339 : k0_chk339 k0_t3 v3526), ∀ (k0_h2 : k0_cond2 k0_t3 = 1#1), ∀ a, (k0_off353 v3526) a + S1x1x32.size a ≤ S26x100001x32.size a := fun k0_t3 v3526 k0_hw339 k0_h2 => k0_hw339 k0_h2

def k0_off354 (v3536 : BitVec 32) : Fin 3 → Nat :=
  let c1_i32_2815 : BitVec 32 := 1#32
  let c0_i32_2820 : BitVec 32 := 0#32
  ![1, v3536.toNat, 0]

def k0_chk340 (k0_t3 : Fin k0_t3_loop.trips) (v3536 : BitVec 32) : Prop :=
  (∀ (k0_h2 : k0_cond2 k0_t3 = 1#1), ∀ a, (k0_off354 v3536) a + S1x1x32.size a ≤ S26x100001x32.size a)
instance k0_chk340.dec : ∀ (k0_t3 : Fin k0_t3_loop.trips) (v3536 : BitVec 32), Decidable (k0_chk340 k0_t3 v3536) := fun k0_t3 v3536 => decidable_of_iff' _ (Iff.of_eq (k0_chk340.eq_1 k0_t3 v3536))
theorem k0_off354_inb : ∀ (k0_t3 : Fin k0_t3_loop.trips) (v3536 : BitVec 32) (k0_hw340 : k0_chk340 k0_t3 v3536), ∀ (k0_h2 : k0_cond2 k0_t3 = 1#1), ∀ a, (k0_off354 v3536) a + S1x1x32.size a ≤ S26x100001x32.size a := fun k0_t3 v3536 k0_hw340 k0_h2 => k0_hw340 k0_h2

def k0_off355 (v3546 : BitVec 32) : Fin 3 → Nat :=
  let c2_i32_2823 : BitVec 32 := 2#32
  let c0_i32_2828 : BitVec 32 := 0#32
  ![2, v3546.toNat, 0]

def k0_chk341 (k0_t3 : Fin k0_t3_loop.trips) (v3546 : BitVec 32) : Prop :=
  (∀ (k0_h2 : k0_cond2 k0_t3 = 1#1), ∀ a, (k0_off355 v3546) a + S1x1x32.size a ≤ S26x100001x32.size a)
instance k0_chk341.dec : ∀ (k0_t3 : Fin k0_t3_loop.trips) (v3546 : BitVec 32), Decidable (k0_chk341 k0_t3 v3546) := fun k0_t3 v3546 => decidable_of_iff' _ (Iff.of_eq (k0_chk341.eq_1 k0_t3 v3546))
theorem k0_off355_inb : ∀ (k0_t3 : Fin k0_t3_loop.trips) (v3546 : BitVec 32) (k0_hw341 : k0_chk341 k0_t3 v3546), ∀ (k0_h2 : k0_cond2 k0_t3 = 1#1), ∀ a, (k0_off355 v3546) a + S1x1x32.size a ≤ S26x100001x32.size a := fun k0_t3 v3546 k0_hw341 k0_h2 => k0_hw341 k0_h2

def k0_off356 (v3556 : BitVec 32) : Fin 3 → Nat :=
  let c3_i32_2831 : BitVec 32 := 3#32
  let c0_i32_2836 : BitVec 32 := 0#32
  ![3, v3556.toNat, 0]

def k0_chk342 (k0_t3 : Fin k0_t3_loop.trips) (v3556 : BitVec 32) : Prop :=
  (∀ (k0_h2 : k0_cond2 k0_t3 = 1#1), ∀ a, (k0_off356 v3556) a + S1x1x32.size a ≤ S26x100001x32.size a)
instance k0_chk342.dec : ∀ (k0_t3 : Fin k0_t3_loop.trips) (v3556 : BitVec 32), Decidable (k0_chk342 k0_t3 v3556) := fun k0_t3 v3556 => decidable_of_iff' _ (Iff.of_eq (k0_chk342.eq_1 k0_t3 v3556))
theorem k0_off356_inb : ∀ (k0_t3 : Fin k0_t3_loop.trips) (v3556 : BitVec 32) (k0_hw342 : k0_chk342 k0_t3 v3556), ∀ (k0_h2 : k0_cond2 k0_t3 = 1#1), ∀ a, (k0_off356 v3556) a + S1x1x32.size a ≤ S26x100001x32.size a := fun k0_t3 v3556 k0_hw342 k0_h2 => k0_hw342 k0_h2

def k0_off357 (v3566 : BitVec 32) : Fin 3 → Nat :=
  let c4_i32_2839 : BitVec 32 := 4#32
  let c0_i32_2844 : BitVec 32 := 0#32
  ![4, v3566.toNat, 0]

def k0_chk343 (k0_t3 : Fin k0_t3_loop.trips) (v3566 : BitVec 32) : Prop :=
  (∀ (k0_h2 : k0_cond2 k0_t3 = 1#1), ∀ a, (k0_off357 v3566) a + S1x1x32.size a ≤ S26x100001x32.size a)
instance k0_chk343.dec : ∀ (k0_t3 : Fin k0_t3_loop.trips) (v3566 : BitVec 32), Decidable (k0_chk343 k0_t3 v3566) := fun k0_t3 v3566 => decidable_of_iff' _ (Iff.of_eq (k0_chk343.eq_1 k0_t3 v3566))
theorem k0_off357_inb : ∀ (k0_t3 : Fin k0_t3_loop.trips) (v3566 : BitVec 32) (k0_hw343 : k0_chk343 k0_t3 v3566), ∀ (k0_h2 : k0_cond2 k0_t3 = 1#1), ∀ a, (k0_off357 v3566) a + S1x1x32.size a ≤ S26x100001x32.size a := fun k0_t3 v3566 k0_hw343 k0_h2 => k0_hw343 k0_h2

def k0_off358 (v3576 : BitVec 32) : Fin 3 → Nat :=
  let c5_i32_2847 : BitVec 32 := 5#32
  let c0_i32_2852 : BitVec 32 := 0#32
  ![5, v3576.toNat, 0]

def k0_chk344 (k0_t3 : Fin k0_t3_loop.trips) (v3576 : BitVec 32) : Prop :=
  (∀ (k0_h2 : k0_cond2 k0_t3 = 1#1), ∀ a, (k0_off358 v3576) a + S1x1x32.size a ≤ S26x100001x32.size a)
instance k0_chk344.dec : ∀ (k0_t3 : Fin k0_t3_loop.trips) (v3576 : BitVec 32), Decidable (k0_chk344 k0_t3 v3576) := fun k0_t3 v3576 => decidable_of_iff' _ (Iff.of_eq (k0_chk344.eq_1 k0_t3 v3576))
theorem k0_off358_inb : ∀ (k0_t3 : Fin k0_t3_loop.trips) (v3576 : BitVec 32) (k0_hw344 : k0_chk344 k0_t3 v3576), ∀ (k0_h2 : k0_cond2 k0_t3 = 1#1), ∀ a, (k0_off358 v3576) a + S1x1x32.size a ≤ S26x100001x32.size a := fun k0_t3 v3576 k0_hw344 k0_h2 => k0_hw344 k0_h2

def k0_off359 (v3586 : BitVec 32) : Fin 3 → Nat :=
  let c6_i32_2855 : BitVec 32 := 6#32
  let c0_i32_2860 : BitVec 32 := 0#32
  ![6, v3586.toNat, 0]

def k0_chk345 (k0_t3 : Fin k0_t3_loop.trips) (v3586 : BitVec 32) : Prop :=
  (∀ (k0_h2 : k0_cond2 k0_t3 = 1#1), ∀ a, (k0_off359 v3586) a + S1x1x32.size a ≤ S26x100001x32.size a)
instance k0_chk345.dec : ∀ (k0_t3 : Fin k0_t3_loop.trips) (v3586 : BitVec 32), Decidable (k0_chk345 k0_t3 v3586) := fun k0_t3 v3586 => decidable_of_iff' _ (Iff.of_eq (k0_chk345.eq_1 k0_t3 v3586))
theorem k0_off359_inb : ∀ (k0_t3 : Fin k0_t3_loop.trips) (v3586 : BitVec 32) (k0_hw345 : k0_chk345 k0_t3 v3586), ∀ (k0_h2 : k0_cond2 k0_t3 = 1#1), ∀ a, (k0_off359 v3586) a + S1x1x32.size a ≤ S26x100001x32.size a := fun k0_t3 v3586 k0_hw345 k0_h2 => k0_hw345 k0_h2

def k0_off360 (v3596 : BitVec 32) : Fin 3 → Nat :=
  let c7_i32_2863 : BitVec 32 := 7#32
  let c0_i32_2868 : BitVec 32 := 0#32
  ![7, v3596.toNat, 0]

def k0_chk346 (k0_t3 : Fin k0_t3_loop.trips) (v3596 : BitVec 32) : Prop :=
  (∀ (k0_h2 : k0_cond2 k0_t3 = 1#1), ∀ a, (k0_off360 v3596) a + S1x1x32.size a ≤ S26x100001x32.size a)
instance k0_chk346.dec : ∀ (k0_t3 : Fin k0_t3_loop.trips) (v3596 : BitVec 32), Decidable (k0_chk346 k0_t3 v3596) := fun k0_t3 v3596 => decidable_of_iff' _ (Iff.of_eq (k0_chk346.eq_1 k0_t3 v3596))
theorem k0_off360_inb : ∀ (k0_t3 : Fin k0_t3_loop.trips) (v3596 : BitVec 32) (k0_hw346 : k0_chk346 k0_t3 v3596), ∀ (k0_h2 : k0_cond2 k0_t3 = 1#1), ∀ a, (k0_off360 v3596) a + S1x1x32.size a ≤ S26x100001x32.size a := fun k0_t3 v3596 k0_hw346 k0_h2 => k0_hw346 k0_h2

def k0_off361 (v3606 : BitVec 32) : Fin 3 → Nat :=
  let c8_i32_2871 : BitVec 32 := 8#32
  let c0_i32_2876 : BitVec 32 := 0#32
  ![8, v3606.toNat, 0]

def k0_chk347 (k0_t3 : Fin k0_t3_loop.trips) (v3606 : BitVec 32) : Prop :=
  (∀ (k0_h2 : k0_cond2 k0_t3 = 1#1), ∀ a, (k0_off361 v3606) a + S1x1x32.size a ≤ S26x100001x32.size a)
instance k0_chk347.dec : ∀ (k0_t3 : Fin k0_t3_loop.trips) (v3606 : BitVec 32), Decidable (k0_chk347 k0_t3 v3606) := fun k0_t3 v3606 => decidable_of_iff' _ (Iff.of_eq (k0_chk347.eq_1 k0_t3 v3606))
theorem k0_off361_inb : ∀ (k0_t3 : Fin k0_t3_loop.trips) (v3606 : BitVec 32) (k0_hw347 : k0_chk347 k0_t3 v3606), ∀ (k0_h2 : k0_cond2 k0_t3 = 1#1), ∀ a, (k0_off361 v3606) a + S1x1x32.size a ≤ S26x100001x32.size a := fun k0_t3 v3606 k0_hw347 k0_h2 => k0_hw347 k0_h2

def k0_off362 (v3616 : BitVec 32) : Fin 3 → Nat :=
  let c9_i32_2879 : BitVec 32 := 9#32
  let c0_i32_2884 : BitVec 32 := 0#32
  ![9, v3616.toNat, 0]

def k0_chk348 (k0_t3 : Fin k0_t3_loop.trips) (v3616 : BitVec 32) : Prop :=
  (∀ (k0_h2 : k0_cond2 k0_t3 = 1#1), ∀ a, (k0_off362 v3616) a + S1x1x32.size a ≤ S26x100001x32.size a)
instance k0_chk348.dec : ∀ (k0_t3 : Fin k0_t3_loop.trips) (v3616 : BitVec 32), Decidable (k0_chk348 k0_t3 v3616) := fun k0_t3 v3616 => decidable_of_iff' _ (Iff.of_eq (k0_chk348.eq_1 k0_t3 v3616))
theorem k0_off362_inb : ∀ (k0_t3 : Fin k0_t3_loop.trips) (v3616 : BitVec 32) (k0_hw348 : k0_chk348 k0_t3 v3616), ∀ (k0_h2 : k0_cond2 k0_t3 = 1#1), ∀ a, (k0_off362 v3616) a + S1x1x32.size a ≤ S26x100001x32.size a := fun k0_t3 v3616 k0_hw348 k0_h2 => k0_hw348 k0_h2

def k0_off363 (v3626 : BitVec 32) : Fin 3 → Nat :=
  let c10_i32_2887 : BitVec 32 := 10#32
  let c0_i32_2892 : BitVec 32 := 0#32
  ![10, v3626.toNat, 0]

def k0_chk349 (k0_t3 : Fin k0_t3_loop.trips) (v3626 : BitVec 32) : Prop :=
  (∀ (k0_h2 : k0_cond2 k0_t3 = 1#1), ∀ a, (k0_off363 v3626) a + S1x1x32.size a ≤ S26x100001x32.size a)
instance k0_chk349.dec : ∀ (k0_t3 : Fin k0_t3_loop.trips) (v3626 : BitVec 32), Decidable (k0_chk349 k0_t3 v3626) := fun k0_t3 v3626 => decidable_of_iff' _ (Iff.of_eq (k0_chk349.eq_1 k0_t3 v3626))
theorem k0_off363_inb : ∀ (k0_t3 : Fin k0_t3_loop.trips) (v3626 : BitVec 32) (k0_hw349 : k0_chk349 k0_t3 v3626), ∀ (k0_h2 : k0_cond2 k0_t3 = 1#1), ∀ a, (k0_off363 v3626) a + S1x1x32.size a ≤ S26x100001x32.size a := fun k0_t3 v3626 k0_hw349 k0_h2 => k0_hw349 k0_h2

def k0_off364 (v3636 : BitVec 32) : Fin 3 → Nat :=
  let c11_i32_2895 : BitVec 32 := 11#32
  let c0_i32_2900 : BitVec 32 := 0#32
  ![11, v3636.toNat, 0]

def k0_chk350 (k0_t3 : Fin k0_t3_loop.trips) (v3636 : BitVec 32) : Prop :=
  (∀ (k0_h2 : k0_cond2 k0_t3 = 1#1), ∀ a, (k0_off364 v3636) a + S1x1x32.size a ≤ S26x100001x32.size a)
instance k0_chk350.dec : ∀ (k0_t3 : Fin k0_t3_loop.trips) (v3636 : BitVec 32), Decidable (k0_chk350 k0_t3 v3636) := fun k0_t3 v3636 => decidable_of_iff' _ (Iff.of_eq (k0_chk350.eq_1 k0_t3 v3636))
theorem k0_off364_inb : ∀ (k0_t3 : Fin k0_t3_loop.trips) (v3636 : BitVec 32) (k0_hw350 : k0_chk350 k0_t3 v3636), ∀ (k0_h2 : k0_cond2 k0_t3 = 1#1), ∀ a, (k0_off364 v3636) a + S1x1x32.size a ≤ S26x100001x32.size a := fun k0_t3 v3636 k0_hw350 k0_h2 => k0_hw350 k0_h2

def k0_off365 (v3646 : BitVec 32) : Fin 3 → Nat :=
  let c12_i32_2903 : BitVec 32 := 12#32
  let c0_i32_2908 : BitVec 32 := 0#32
  ![12, v3646.toNat, 0]

def k0_chk351 (k0_t3 : Fin k0_t3_loop.trips) (v3646 : BitVec 32) : Prop :=
  (∀ (k0_h2 : k0_cond2 k0_t3 = 1#1), ∀ a, (k0_off365 v3646) a + S1x1x32.size a ≤ S26x100001x32.size a)
instance k0_chk351.dec : ∀ (k0_t3 : Fin k0_t3_loop.trips) (v3646 : BitVec 32), Decidable (k0_chk351 k0_t3 v3646) := fun k0_t3 v3646 => decidable_of_iff' _ (Iff.of_eq (k0_chk351.eq_1 k0_t3 v3646))
theorem k0_off365_inb : ∀ (k0_t3 : Fin k0_t3_loop.trips) (v3646 : BitVec 32) (k0_hw351 : k0_chk351 k0_t3 v3646), ∀ (k0_h2 : k0_cond2 k0_t3 = 1#1), ∀ a, (k0_off365 v3646) a + S1x1x32.size a ≤ S26x100001x32.size a := fun k0_t3 v3646 k0_hw351 k0_h2 => k0_hw351 k0_h2

def k0_off366 (v3656 : BitVec 32) : Fin 3 → Nat :=
  let c13_i32_2911 : BitVec 32 := 13#32
  let c0_i32_2916 : BitVec 32 := 0#32
  ![13, v3656.toNat, 0]

def k0_chk352 (k0_t3 : Fin k0_t3_loop.trips) (v3656 : BitVec 32) : Prop :=
  (∀ (k0_h2 : k0_cond2 k0_t3 = 1#1), ∀ a, (k0_off366 v3656) a + S1x1x32.size a ≤ S26x100001x32.size a)
instance k0_chk352.dec : ∀ (k0_t3 : Fin k0_t3_loop.trips) (v3656 : BitVec 32), Decidable (k0_chk352 k0_t3 v3656) := fun k0_t3 v3656 => decidable_of_iff' _ (Iff.of_eq (k0_chk352.eq_1 k0_t3 v3656))
theorem k0_off366_inb : ∀ (k0_t3 : Fin k0_t3_loop.trips) (v3656 : BitVec 32) (k0_hw352 : k0_chk352 k0_t3 v3656), ∀ (k0_h2 : k0_cond2 k0_t3 = 1#1), ∀ a, (k0_off366 v3656) a + S1x1x32.size a ≤ S26x100001x32.size a := fun k0_t3 v3656 k0_hw352 k0_h2 => k0_hw352 k0_h2

def k0_off367 (v3666 : BitVec 32) : Fin 3 → Nat :=
  let c14_i32_2919 : BitVec 32 := 14#32
  let c0_i32_2924 : BitVec 32 := 0#32
  ![14, v3666.toNat, 0]

def k0_chk353 (k0_t3 : Fin k0_t3_loop.trips) (v3666 : BitVec 32) : Prop :=
  (∀ (k0_h2 : k0_cond2 k0_t3 = 1#1), ∀ a, (k0_off367 v3666) a + S1x1x32.size a ≤ S26x100001x32.size a)
instance k0_chk353.dec : ∀ (k0_t3 : Fin k0_t3_loop.trips) (v3666 : BitVec 32), Decidable (k0_chk353 k0_t3 v3666) := fun k0_t3 v3666 => decidable_of_iff' _ (Iff.of_eq (k0_chk353.eq_1 k0_t3 v3666))
theorem k0_off367_inb : ∀ (k0_t3 : Fin k0_t3_loop.trips) (v3666 : BitVec 32) (k0_hw353 : k0_chk353 k0_t3 v3666), ∀ (k0_h2 : k0_cond2 k0_t3 = 1#1), ∀ a, (k0_off367 v3666) a + S1x1x32.size a ≤ S26x100001x32.size a := fun k0_t3 v3666 k0_hw353 k0_h2 => k0_hw353 k0_h2

def k0_off368 (v3676 : BitVec 32) : Fin 3 → Nat :=
  let c15_i32_2927 : BitVec 32 := 15#32
  let c0_i32_2932 : BitVec 32 := 0#32
  ![15, v3676.toNat, 0]

def k0_chk354 (k0_t3 : Fin k0_t3_loop.trips) (v3676 : BitVec 32) : Prop :=
  (∀ (k0_h2 : k0_cond2 k0_t3 = 1#1), ∀ a, (k0_off368 v3676) a + S1x1x32.size a ≤ S26x100001x32.size a)
instance k0_chk354.dec : ∀ (k0_t3 : Fin k0_t3_loop.trips) (v3676 : BitVec 32), Decidable (k0_chk354 k0_t3 v3676) := fun k0_t3 v3676 => decidable_of_iff' _ (Iff.of_eq (k0_chk354.eq_1 k0_t3 v3676))
theorem k0_off368_inb : ∀ (k0_t3 : Fin k0_t3_loop.trips) (v3676 : BitVec 32) (k0_hw354 : k0_chk354 k0_t3 v3676), ∀ (k0_h2 : k0_cond2 k0_t3 = 1#1), ∀ a, (k0_off368 v3676) a + S1x1x32.size a ≤ S26x100001x32.size a := fun k0_t3 v3676 k0_hw354 k0_h2 => k0_hw354 k0_h2

def k0_off369 (v3686 : BitVec 32) : Fin 3 → Nat :=
  let c16_i32_2935 : BitVec 32 := 16#32
  let c0_i32_2940 : BitVec 32 := 0#32
  ![16, v3686.toNat, 0]

def k0_chk355 (k0_t3 : Fin k0_t3_loop.trips) (v3686 : BitVec 32) : Prop :=
  (∀ (k0_h2 : k0_cond2 k0_t3 = 1#1), ∀ a, (k0_off369 v3686) a + S1x1x32.size a ≤ S26x100001x32.size a)
instance k0_chk355.dec : ∀ (k0_t3 : Fin k0_t3_loop.trips) (v3686 : BitVec 32), Decidable (k0_chk355 k0_t3 v3686) := fun k0_t3 v3686 => decidable_of_iff' _ (Iff.of_eq (k0_chk355.eq_1 k0_t3 v3686))
theorem k0_off369_inb : ∀ (k0_t3 : Fin k0_t3_loop.trips) (v3686 : BitVec 32) (k0_hw355 : k0_chk355 k0_t3 v3686), ∀ (k0_h2 : k0_cond2 k0_t3 = 1#1), ∀ a, (k0_off369 v3686) a + S1x1x32.size a ≤ S26x100001x32.size a := fun k0_t3 v3686 k0_hw355 k0_h2 => k0_hw355 k0_h2

def k0_off370 (v3696 : BitVec 32) : Fin 3 → Nat :=
  let c17_i32_2943 : BitVec 32 := 17#32
  let c0_i32_2948 : BitVec 32 := 0#32
  ![17, v3696.toNat, 0]

def k0_chk356 (k0_t3 : Fin k0_t3_loop.trips) (v3696 : BitVec 32) : Prop :=
  (∀ (k0_h2 : k0_cond2 k0_t3 = 1#1), ∀ a, (k0_off370 v3696) a + S1x1x32.size a ≤ S26x100001x32.size a)
instance k0_chk356.dec : ∀ (k0_t3 : Fin k0_t3_loop.trips) (v3696 : BitVec 32), Decidable (k0_chk356 k0_t3 v3696) := fun k0_t3 v3696 => decidable_of_iff' _ (Iff.of_eq (k0_chk356.eq_1 k0_t3 v3696))
theorem k0_off370_inb : ∀ (k0_t3 : Fin k0_t3_loop.trips) (v3696 : BitVec 32) (k0_hw356 : k0_chk356 k0_t3 v3696), ∀ (k0_h2 : k0_cond2 k0_t3 = 1#1), ∀ a, (k0_off370 v3696) a + S1x1x32.size a ≤ S26x100001x32.size a := fun k0_t3 v3696 k0_hw356 k0_h2 => k0_hw356 k0_h2

def k0_off371 (v3706 : BitVec 32) : Fin 3 → Nat :=
  let c18_i32_2951 : BitVec 32 := 18#32
  let c0_i32_2956 : BitVec 32 := 0#32
  ![18, v3706.toNat, 0]

def k0_chk357 (k0_t3 : Fin k0_t3_loop.trips) (v3706 : BitVec 32) : Prop :=
  (∀ (k0_h2 : k0_cond2 k0_t3 = 1#1), ∀ a, (k0_off371 v3706) a + S1x1x32.size a ≤ S26x100001x32.size a)
instance k0_chk357.dec : ∀ (k0_t3 : Fin k0_t3_loop.trips) (v3706 : BitVec 32), Decidable (k0_chk357 k0_t3 v3706) := fun k0_t3 v3706 => decidable_of_iff' _ (Iff.of_eq (k0_chk357.eq_1 k0_t3 v3706))
theorem k0_off371_inb : ∀ (k0_t3 : Fin k0_t3_loop.trips) (v3706 : BitVec 32) (k0_hw357 : k0_chk357 k0_t3 v3706), ∀ (k0_h2 : k0_cond2 k0_t3 = 1#1), ∀ a, (k0_off371 v3706) a + S1x1x32.size a ≤ S26x100001x32.size a := fun k0_t3 v3706 k0_hw357 k0_h2 => k0_hw357 k0_h2

def k0_off372 (v3716 : BitVec 32) : Fin 3 → Nat :=
  let c19_i32_2959 : BitVec 32 := 19#32
  let c0_i32_2964 : BitVec 32 := 0#32
  ![19, v3716.toNat, 0]

def k0_chk358 (k0_t3 : Fin k0_t3_loop.trips) (v3716 : BitVec 32) : Prop :=
  (∀ (k0_h2 : k0_cond2 k0_t3 = 1#1), ∀ a, (k0_off372 v3716) a + S1x1x32.size a ≤ S26x100001x32.size a)
instance k0_chk358.dec : ∀ (k0_t3 : Fin k0_t3_loop.trips) (v3716 : BitVec 32), Decidable (k0_chk358 k0_t3 v3716) := fun k0_t3 v3716 => decidable_of_iff' _ (Iff.of_eq (k0_chk358.eq_1 k0_t3 v3716))
theorem k0_off372_inb : ∀ (k0_t3 : Fin k0_t3_loop.trips) (v3716 : BitVec 32) (k0_hw358 : k0_chk358 k0_t3 v3716), ∀ (k0_h2 : k0_cond2 k0_t3 = 1#1), ∀ a, (k0_off372 v3716) a + S1x1x32.size a ≤ S26x100001x32.size a := fun k0_t3 v3716 k0_hw358 k0_h2 => k0_hw358 k0_h2

def k0_off373 (v3726 : BitVec 32) : Fin 3 → Nat :=
  let c20_i32_2967 : BitVec 32 := 20#32
  let c0_i32_2972 : BitVec 32 := 0#32
  ![20, v3726.toNat, 0]

def k0_chk359 (k0_t3 : Fin k0_t3_loop.trips) (v3726 : BitVec 32) : Prop :=
  (∀ (k0_h2 : k0_cond2 k0_t3 = 1#1), ∀ a, (k0_off373 v3726) a + S1x1x32.size a ≤ S26x100001x32.size a)
instance k0_chk359.dec : ∀ (k0_t3 : Fin k0_t3_loop.trips) (v3726 : BitVec 32), Decidable (k0_chk359 k0_t3 v3726) := fun k0_t3 v3726 => decidable_of_iff' _ (Iff.of_eq (k0_chk359.eq_1 k0_t3 v3726))
theorem k0_off373_inb : ∀ (k0_t3 : Fin k0_t3_loop.trips) (v3726 : BitVec 32) (k0_hw359 : k0_chk359 k0_t3 v3726), ∀ (k0_h2 : k0_cond2 k0_t3 = 1#1), ∀ a, (k0_off373 v3726) a + S1x1x32.size a ≤ S26x100001x32.size a := fun k0_t3 v3726 k0_hw359 k0_h2 => k0_hw359 k0_h2

def k0_off374 (v3736 : BitVec 32) : Fin 3 → Nat :=
  let c21_i32_2975 : BitVec 32 := 21#32
  let c0_i32_2980 : BitVec 32 := 0#32
  ![21, v3736.toNat, 0]

def k0_chk360 (k0_t3 : Fin k0_t3_loop.trips) (v3736 : BitVec 32) : Prop :=
  (∀ (k0_h2 : k0_cond2 k0_t3 = 1#1), ∀ a, (k0_off374 v3736) a + S1x1x32.size a ≤ S26x100001x32.size a)
instance k0_chk360.dec : ∀ (k0_t3 : Fin k0_t3_loop.trips) (v3736 : BitVec 32), Decidable (k0_chk360 k0_t3 v3736) := fun k0_t3 v3736 => decidable_of_iff' _ (Iff.of_eq (k0_chk360.eq_1 k0_t3 v3736))
theorem k0_off374_inb : ∀ (k0_t3 : Fin k0_t3_loop.trips) (v3736 : BitVec 32) (k0_hw360 : k0_chk360 k0_t3 v3736), ∀ (k0_h2 : k0_cond2 k0_t3 = 1#1), ∀ a, (k0_off374 v3736) a + S1x1x32.size a ≤ S26x100001x32.size a := fun k0_t3 v3736 k0_hw360 k0_h2 => k0_hw360 k0_h2

def k0_off375 (v3746 : BitVec 32) : Fin 3 → Nat :=
  let c22_i32_2983 : BitVec 32 := 22#32
  let c0_i32_2988 : BitVec 32 := 0#32
  ![22, v3746.toNat, 0]

def k0_chk361 (k0_t3 : Fin k0_t3_loop.trips) (v3746 : BitVec 32) : Prop :=
  (∀ (k0_h2 : k0_cond2 k0_t3 = 1#1), ∀ a, (k0_off375 v3746) a + S1x1x32.size a ≤ S26x100001x32.size a)
instance k0_chk361.dec : ∀ (k0_t3 : Fin k0_t3_loop.trips) (v3746 : BitVec 32), Decidable (k0_chk361 k0_t3 v3746) := fun k0_t3 v3746 => decidable_of_iff' _ (Iff.of_eq (k0_chk361.eq_1 k0_t3 v3746))
theorem k0_off375_inb : ∀ (k0_t3 : Fin k0_t3_loop.trips) (v3746 : BitVec 32) (k0_hw361 : k0_chk361 k0_t3 v3746), ∀ (k0_h2 : k0_cond2 k0_t3 = 1#1), ∀ a, (k0_off375 v3746) a + S1x1x32.size a ≤ S26x100001x32.size a := fun k0_t3 v3746 k0_hw361 k0_h2 => k0_hw361 k0_h2

def k0_off376 (v3756 : BitVec 32) : Fin 3 → Nat :=
  let c23_i32_2991 : BitVec 32 := 23#32
  let c0_i32_2996 : BitVec 32 := 0#32
  ![23, v3756.toNat, 0]

def k0_chk362 (k0_t3 : Fin k0_t3_loop.trips) (v3756 : BitVec 32) : Prop :=
  (∀ (k0_h2 : k0_cond2 k0_t3 = 1#1), ∀ a, (k0_off376 v3756) a + S1x1x32.size a ≤ S26x100001x32.size a)
instance k0_chk362.dec : ∀ (k0_t3 : Fin k0_t3_loop.trips) (v3756 : BitVec 32), Decidable (k0_chk362 k0_t3 v3756) := fun k0_t3 v3756 => decidable_of_iff' _ (Iff.of_eq (k0_chk362.eq_1 k0_t3 v3756))
theorem k0_off376_inb : ∀ (k0_t3 : Fin k0_t3_loop.trips) (v3756 : BitVec 32) (k0_hw362 : k0_chk362 k0_t3 v3756), ∀ (k0_h2 : k0_cond2 k0_t3 = 1#1), ∀ a, (k0_off376 v3756) a + S1x1x32.size a ≤ S26x100001x32.size a := fun k0_t3 v3756 k0_hw362 k0_h2 => k0_hw362 k0_h2

def k0_off377 (v3766 : BitVec 32) : Fin 3 → Nat :=
  let c24_i32_2999 : BitVec 32 := 24#32
  let c0_i32_3004 : BitVec 32 := 0#32
  ![24, v3766.toNat, 0]

def k0_chk363 (k0_t3 : Fin k0_t3_loop.trips) (v3766 : BitVec 32) : Prop :=
  (∀ (k0_h2 : k0_cond2 k0_t3 = 1#1), ∀ a, (k0_off377 v3766) a + S1x1x32.size a ≤ S26x100001x32.size a)
instance k0_chk363.dec : ∀ (k0_t3 : Fin k0_t3_loop.trips) (v3766 : BitVec 32), Decidable (k0_chk363 k0_t3 v3766) := fun k0_t3 v3766 => decidable_of_iff' _ (Iff.of_eq (k0_chk363.eq_1 k0_t3 v3766))
theorem k0_off377_inb : ∀ (k0_t3 : Fin k0_t3_loop.trips) (v3766 : BitVec 32) (k0_hw363 : k0_chk363 k0_t3 v3766), ∀ (k0_h2 : k0_cond2 k0_t3 = 1#1), ∀ a, (k0_off377 v3766) a + S1x1x32.size a ≤ S26x100001x32.size a := fun k0_t3 v3766 k0_hw363 k0_h2 => k0_hw363 k0_h2

def k0_off378 (v3776 : BitVec 32) : Fin 3 → Nat :=
  let c25_i32_3007 : BitVec 32 := 25#32
  let c0_i32_3012 : BitVec 32 := 0#32
  ![25, v3776.toNat, 0]

def k0_chk364 (k0_t3 : Fin k0_t3_loop.trips) (v3776 : BitVec 32) : Prop :=
  (∀ (k0_h2 : k0_cond2 k0_t3 = 1#1), ∀ a, (k0_off378 v3776) a + S1x1x32.size a ≤ S26x100001x32.size a)
instance k0_chk364.dec : ∀ (k0_t3 : Fin k0_t3_loop.trips) (v3776 : BitVec 32), Decidable (k0_chk364 k0_t3 v3776) := fun k0_t3 v3776 => decidable_of_iff' _ (Iff.of_eq (k0_chk364.eq_1 k0_t3 v3776))
theorem k0_off378_inb : ∀ (k0_t3 : Fin k0_t3_loop.trips) (v3776 : BitVec 32) (k0_hw364 : k0_chk364 k0_t3 v3776), ∀ (k0_h2 : k0_cond2 k0_t3 = 1#1), ∀ a, (k0_off378 v3776) a + S1x1x32.size a ≤ S26x100001x32.size a := fun k0_t3 v3776 k0_hw364 k0_h2 => k0_hw364 k0_h2

def k0_off379 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c6_i32_3015 : BitVec 32 := 6#32
  let v3785 : BitVec 32 := Scalar.addi v2176 c6_i32_3015
  let v3786 : Index := Scalar.indexCast v3785
  let c0_3016 : Index := 0#32
  ![v3786.toNat, 0]
def k0_off380 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c6_i32_3017 : BitVec 32 := 6#32
  let v3789 : BitVec 32 := Scalar.addi v2176 c6_i32_3017
  let v3790 : Index := Scalar.indexCast v3789
  let c16_3018 : Index := 16#32
  ![v3790.toNat, 16]
def k0_off381 (v3794 : BitVec 32) : Fin 3 → Nat :=
  let c0_i32_3019 : BitVec 32 := 0#32
  let c0_i32_3024 : BitVec 32 := 0#32
  ![0, v3794.toNat, 0]

def k0_chk365 (k0_t3 : Fin k0_t3_loop.trips) (v3794 : BitVec 32) : Prop :=
  (∀ (k0_h2 : k0_cond2 k0_t3 = 1#1), ∀ a, (k0_off381 v3794) a + S1x1x32.size a ≤ S26x100001x32.size a)
instance k0_chk365.dec : ∀ (k0_t3 : Fin k0_t3_loop.trips) (v3794 : BitVec 32), Decidable (k0_chk365 k0_t3 v3794) := fun k0_t3 v3794 => decidable_of_iff' _ (Iff.of_eq (k0_chk365.eq_1 k0_t3 v3794))
theorem k0_off381_inb : ∀ (k0_t3 : Fin k0_t3_loop.trips) (v3794 : BitVec 32) (k0_hw365 : k0_chk365 k0_t3 v3794), ∀ (k0_h2 : k0_cond2 k0_t3 = 1#1), ∀ a, (k0_off381 v3794) a + S1x1x32.size a ≤ S26x100001x32.size a := fun k0_t3 v3794 k0_hw365 k0_h2 => k0_hw365 k0_h2

def k0_off382 (v3804 : BitVec 32) : Fin 3 → Nat :=
  let c1_i32_3027 : BitVec 32 := 1#32
  let c0_i32_3032 : BitVec 32 := 0#32
  ![1, v3804.toNat, 0]

def k0_chk366 (k0_t3 : Fin k0_t3_loop.trips) (v3804 : BitVec 32) : Prop :=
  (∀ (k0_h2 : k0_cond2 k0_t3 = 1#1), ∀ a, (k0_off382 v3804) a + S1x1x32.size a ≤ S26x100001x32.size a)
instance k0_chk366.dec : ∀ (k0_t3 : Fin k0_t3_loop.trips) (v3804 : BitVec 32), Decidable (k0_chk366 k0_t3 v3804) := fun k0_t3 v3804 => decidable_of_iff' _ (Iff.of_eq (k0_chk366.eq_1 k0_t3 v3804))
theorem k0_off382_inb : ∀ (k0_t3 : Fin k0_t3_loop.trips) (v3804 : BitVec 32) (k0_hw366 : k0_chk366 k0_t3 v3804), ∀ (k0_h2 : k0_cond2 k0_t3 = 1#1), ∀ a, (k0_off382 v3804) a + S1x1x32.size a ≤ S26x100001x32.size a := fun k0_t3 v3804 k0_hw366 k0_h2 => k0_hw366 k0_h2

def k0_off383 (v3814 : BitVec 32) : Fin 3 → Nat :=
  let c2_i32_3035 : BitVec 32 := 2#32
  let c0_i32_3040 : BitVec 32 := 0#32
  ![2, v3814.toNat, 0]

def k0_chk367 (k0_t3 : Fin k0_t3_loop.trips) (v3814 : BitVec 32) : Prop :=
  (∀ (k0_h2 : k0_cond2 k0_t3 = 1#1), ∀ a, (k0_off383 v3814) a + S1x1x32.size a ≤ S26x100001x32.size a)
instance k0_chk367.dec : ∀ (k0_t3 : Fin k0_t3_loop.trips) (v3814 : BitVec 32), Decidable (k0_chk367 k0_t3 v3814) := fun k0_t3 v3814 => decidable_of_iff' _ (Iff.of_eq (k0_chk367.eq_1 k0_t3 v3814))
theorem k0_off383_inb : ∀ (k0_t3 : Fin k0_t3_loop.trips) (v3814 : BitVec 32) (k0_hw367 : k0_chk367 k0_t3 v3814), ∀ (k0_h2 : k0_cond2 k0_t3 = 1#1), ∀ a, (k0_off383 v3814) a + S1x1x32.size a ≤ S26x100001x32.size a := fun k0_t3 v3814 k0_hw367 k0_h2 => k0_hw367 k0_h2

def k0_off384 (v3824 : BitVec 32) : Fin 3 → Nat :=
  let c3_i32_3043 : BitVec 32 := 3#32
  let c0_i32_3048 : BitVec 32 := 0#32
  ![3, v3824.toNat, 0]

def k0_chk368 (k0_t3 : Fin k0_t3_loop.trips) (v3824 : BitVec 32) : Prop :=
  (∀ (k0_h2 : k0_cond2 k0_t3 = 1#1), ∀ a, (k0_off384 v3824) a + S1x1x32.size a ≤ S26x100001x32.size a)
instance k0_chk368.dec : ∀ (k0_t3 : Fin k0_t3_loop.trips) (v3824 : BitVec 32), Decidable (k0_chk368 k0_t3 v3824) := fun k0_t3 v3824 => decidable_of_iff' _ (Iff.of_eq (k0_chk368.eq_1 k0_t3 v3824))
theorem k0_off384_inb : ∀ (k0_t3 : Fin k0_t3_loop.trips) (v3824 : BitVec 32) (k0_hw368 : k0_chk368 k0_t3 v3824), ∀ (k0_h2 : k0_cond2 k0_t3 = 1#1), ∀ a, (k0_off384 v3824) a + S1x1x32.size a ≤ S26x100001x32.size a := fun k0_t3 v3824 k0_hw368 k0_h2 => k0_hw368 k0_h2

def k0_off385 (v3834 : BitVec 32) : Fin 3 → Nat :=
  let c4_i32_3051 : BitVec 32 := 4#32
  let c0_i32_3056 : BitVec 32 := 0#32
  ![4, v3834.toNat, 0]

def k0_chk369 (k0_t3 : Fin k0_t3_loop.trips) (v3834 : BitVec 32) : Prop :=
  (∀ (k0_h2 : k0_cond2 k0_t3 = 1#1), ∀ a, (k0_off385 v3834) a + S1x1x32.size a ≤ S26x100001x32.size a)
instance k0_chk369.dec : ∀ (k0_t3 : Fin k0_t3_loop.trips) (v3834 : BitVec 32), Decidable (k0_chk369 k0_t3 v3834) := fun k0_t3 v3834 => decidable_of_iff' _ (Iff.of_eq (k0_chk369.eq_1 k0_t3 v3834))
theorem k0_off385_inb : ∀ (k0_t3 : Fin k0_t3_loop.trips) (v3834 : BitVec 32) (k0_hw369 : k0_chk369 k0_t3 v3834), ∀ (k0_h2 : k0_cond2 k0_t3 = 1#1), ∀ a, (k0_off385 v3834) a + S1x1x32.size a ≤ S26x100001x32.size a := fun k0_t3 v3834 k0_hw369 k0_h2 => k0_hw369 k0_h2

def k0_off386 (v3844 : BitVec 32) : Fin 3 → Nat :=
  let c5_i32_3059 : BitVec 32 := 5#32
  let c0_i32_3064 : BitVec 32 := 0#32
  ![5, v3844.toNat, 0]

def k0_chk370 (k0_t3 : Fin k0_t3_loop.trips) (v3844 : BitVec 32) : Prop :=
  (∀ (k0_h2 : k0_cond2 k0_t3 = 1#1), ∀ a, (k0_off386 v3844) a + S1x1x32.size a ≤ S26x100001x32.size a)
instance k0_chk370.dec : ∀ (k0_t3 : Fin k0_t3_loop.trips) (v3844 : BitVec 32), Decidable (k0_chk370 k0_t3 v3844) := fun k0_t3 v3844 => decidable_of_iff' _ (Iff.of_eq (k0_chk370.eq_1 k0_t3 v3844))
theorem k0_off386_inb : ∀ (k0_t3 : Fin k0_t3_loop.trips) (v3844 : BitVec 32) (k0_hw370 : k0_chk370 k0_t3 v3844), ∀ (k0_h2 : k0_cond2 k0_t3 = 1#1), ∀ a, (k0_off386 v3844) a + S1x1x32.size a ≤ S26x100001x32.size a := fun k0_t3 v3844 k0_hw370 k0_h2 => k0_hw370 k0_h2

def k0_off387 (v3854 : BitVec 32) : Fin 3 → Nat :=
  let c6_i32_3067 : BitVec 32 := 6#32
  let c0_i32_3072 : BitVec 32 := 0#32
  ![6, v3854.toNat, 0]

def k0_chk371 (k0_t3 : Fin k0_t3_loop.trips) (v3854 : BitVec 32) : Prop :=
  (∀ (k0_h2 : k0_cond2 k0_t3 = 1#1), ∀ a, (k0_off387 v3854) a + S1x1x32.size a ≤ S26x100001x32.size a)
instance k0_chk371.dec : ∀ (k0_t3 : Fin k0_t3_loop.trips) (v3854 : BitVec 32), Decidable (k0_chk371 k0_t3 v3854) := fun k0_t3 v3854 => decidable_of_iff' _ (Iff.of_eq (k0_chk371.eq_1 k0_t3 v3854))
theorem k0_off387_inb : ∀ (k0_t3 : Fin k0_t3_loop.trips) (v3854 : BitVec 32) (k0_hw371 : k0_chk371 k0_t3 v3854), ∀ (k0_h2 : k0_cond2 k0_t3 = 1#1), ∀ a, (k0_off387 v3854) a + S1x1x32.size a ≤ S26x100001x32.size a := fun k0_t3 v3854 k0_hw371 k0_h2 => k0_hw371 k0_h2

def k0_off388 (v3864 : BitVec 32) : Fin 3 → Nat :=
  let c7_i32_3075 : BitVec 32 := 7#32
  let c0_i32_3080 : BitVec 32 := 0#32
  ![7, v3864.toNat, 0]

def k0_chk372 (k0_t3 : Fin k0_t3_loop.trips) (v3864 : BitVec 32) : Prop :=
  (∀ (k0_h2 : k0_cond2 k0_t3 = 1#1), ∀ a, (k0_off388 v3864) a + S1x1x32.size a ≤ S26x100001x32.size a)
instance k0_chk372.dec : ∀ (k0_t3 : Fin k0_t3_loop.trips) (v3864 : BitVec 32), Decidable (k0_chk372 k0_t3 v3864) := fun k0_t3 v3864 => decidable_of_iff' _ (Iff.of_eq (k0_chk372.eq_1 k0_t3 v3864))
theorem k0_off388_inb : ∀ (k0_t3 : Fin k0_t3_loop.trips) (v3864 : BitVec 32) (k0_hw372 : k0_chk372 k0_t3 v3864), ∀ (k0_h2 : k0_cond2 k0_t3 = 1#1), ∀ a, (k0_off388 v3864) a + S1x1x32.size a ≤ S26x100001x32.size a := fun k0_t3 v3864 k0_hw372 k0_h2 => k0_hw372 k0_h2

def k0_off389 (v3874 : BitVec 32) : Fin 3 → Nat :=
  let c8_i32_3083 : BitVec 32 := 8#32
  let c0_i32_3088 : BitVec 32 := 0#32
  ![8, v3874.toNat, 0]

def k0_chk373 (k0_t3 : Fin k0_t3_loop.trips) (v3874 : BitVec 32) : Prop :=
  (∀ (k0_h2 : k0_cond2 k0_t3 = 1#1), ∀ a, (k0_off389 v3874) a + S1x1x32.size a ≤ S26x100001x32.size a)
instance k0_chk373.dec : ∀ (k0_t3 : Fin k0_t3_loop.trips) (v3874 : BitVec 32), Decidable (k0_chk373 k0_t3 v3874) := fun k0_t3 v3874 => decidable_of_iff' _ (Iff.of_eq (k0_chk373.eq_1 k0_t3 v3874))
theorem k0_off389_inb : ∀ (k0_t3 : Fin k0_t3_loop.trips) (v3874 : BitVec 32) (k0_hw373 : k0_chk373 k0_t3 v3874), ∀ (k0_h2 : k0_cond2 k0_t3 = 1#1), ∀ a, (k0_off389 v3874) a + S1x1x32.size a ≤ S26x100001x32.size a := fun k0_t3 v3874 k0_hw373 k0_h2 => k0_hw373 k0_h2

def k0_off390 (v3884 : BitVec 32) : Fin 3 → Nat :=
  let c9_i32_3091 : BitVec 32 := 9#32
  let c0_i32_3096 : BitVec 32 := 0#32
  ![9, v3884.toNat, 0]

def k0_chk374 (k0_t3 : Fin k0_t3_loop.trips) (v3884 : BitVec 32) : Prop :=
  (∀ (k0_h2 : k0_cond2 k0_t3 = 1#1), ∀ a, (k0_off390 v3884) a + S1x1x32.size a ≤ S26x100001x32.size a)
instance k0_chk374.dec : ∀ (k0_t3 : Fin k0_t3_loop.trips) (v3884 : BitVec 32), Decidable (k0_chk374 k0_t3 v3884) := fun k0_t3 v3884 => decidable_of_iff' _ (Iff.of_eq (k0_chk374.eq_1 k0_t3 v3884))
theorem k0_off390_inb : ∀ (k0_t3 : Fin k0_t3_loop.trips) (v3884 : BitVec 32) (k0_hw374 : k0_chk374 k0_t3 v3884), ∀ (k0_h2 : k0_cond2 k0_t3 = 1#1), ∀ a, (k0_off390 v3884) a + S1x1x32.size a ≤ S26x100001x32.size a := fun k0_t3 v3884 k0_hw374 k0_h2 => k0_hw374 k0_h2

def k0_off391 (v3894 : BitVec 32) : Fin 3 → Nat :=
  let c10_i32_3099 : BitVec 32 := 10#32
  let c0_i32_3104 : BitVec 32 := 0#32
  ![10, v3894.toNat, 0]

def k0_chk375 (k0_t3 : Fin k0_t3_loop.trips) (v3894 : BitVec 32) : Prop :=
  (∀ (k0_h2 : k0_cond2 k0_t3 = 1#1), ∀ a, (k0_off391 v3894) a + S1x1x32.size a ≤ S26x100001x32.size a)
instance k0_chk375.dec : ∀ (k0_t3 : Fin k0_t3_loop.trips) (v3894 : BitVec 32), Decidable (k0_chk375 k0_t3 v3894) := fun k0_t3 v3894 => decidable_of_iff' _ (Iff.of_eq (k0_chk375.eq_1 k0_t3 v3894))
theorem k0_off391_inb : ∀ (k0_t3 : Fin k0_t3_loop.trips) (v3894 : BitVec 32) (k0_hw375 : k0_chk375 k0_t3 v3894), ∀ (k0_h2 : k0_cond2 k0_t3 = 1#1), ∀ a, (k0_off391 v3894) a + S1x1x32.size a ≤ S26x100001x32.size a := fun k0_t3 v3894 k0_hw375 k0_h2 => k0_hw375 k0_h2

def k0_off392 (v3904 : BitVec 32) : Fin 3 → Nat :=
  let c11_i32_3107 : BitVec 32 := 11#32
  let c0_i32_3112 : BitVec 32 := 0#32
  ![11, v3904.toNat, 0]

def k0_chk376 (k0_t3 : Fin k0_t3_loop.trips) (v3904 : BitVec 32) : Prop :=
  (∀ (k0_h2 : k0_cond2 k0_t3 = 1#1), ∀ a, (k0_off392 v3904) a + S1x1x32.size a ≤ S26x100001x32.size a)
instance k0_chk376.dec : ∀ (k0_t3 : Fin k0_t3_loop.trips) (v3904 : BitVec 32), Decidable (k0_chk376 k0_t3 v3904) := fun k0_t3 v3904 => decidable_of_iff' _ (Iff.of_eq (k0_chk376.eq_1 k0_t3 v3904))
theorem k0_off392_inb : ∀ (k0_t3 : Fin k0_t3_loop.trips) (v3904 : BitVec 32) (k0_hw376 : k0_chk376 k0_t3 v3904), ∀ (k0_h2 : k0_cond2 k0_t3 = 1#1), ∀ a, (k0_off392 v3904) a + S1x1x32.size a ≤ S26x100001x32.size a := fun k0_t3 v3904 k0_hw376 k0_h2 => k0_hw376 k0_h2

def k0_off393 (v3914 : BitVec 32) : Fin 3 → Nat :=
  let c12_i32_3115 : BitVec 32 := 12#32
  let c0_i32_3120 : BitVec 32 := 0#32
  ![12, v3914.toNat, 0]

def k0_chk377 (k0_t3 : Fin k0_t3_loop.trips) (v3914 : BitVec 32) : Prop :=
  (∀ (k0_h2 : k0_cond2 k0_t3 = 1#1), ∀ a, (k0_off393 v3914) a + S1x1x32.size a ≤ S26x100001x32.size a)
instance k0_chk377.dec : ∀ (k0_t3 : Fin k0_t3_loop.trips) (v3914 : BitVec 32), Decidable (k0_chk377 k0_t3 v3914) := fun k0_t3 v3914 => decidable_of_iff' _ (Iff.of_eq (k0_chk377.eq_1 k0_t3 v3914))
theorem k0_off393_inb : ∀ (k0_t3 : Fin k0_t3_loop.trips) (v3914 : BitVec 32) (k0_hw377 : k0_chk377 k0_t3 v3914), ∀ (k0_h2 : k0_cond2 k0_t3 = 1#1), ∀ a, (k0_off393 v3914) a + S1x1x32.size a ≤ S26x100001x32.size a := fun k0_t3 v3914 k0_hw377 k0_h2 => k0_hw377 k0_h2

def k0_off394 (v3924 : BitVec 32) : Fin 3 → Nat :=
  let c13_i32_3123 : BitVec 32 := 13#32
  let c0_i32_3128 : BitVec 32 := 0#32
  ![13, v3924.toNat, 0]

def k0_chk378 (k0_t3 : Fin k0_t3_loop.trips) (v3924 : BitVec 32) : Prop :=
  (∀ (k0_h2 : k0_cond2 k0_t3 = 1#1), ∀ a, (k0_off394 v3924) a + S1x1x32.size a ≤ S26x100001x32.size a)
instance k0_chk378.dec : ∀ (k0_t3 : Fin k0_t3_loop.trips) (v3924 : BitVec 32), Decidable (k0_chk378 k0_t3 v3924) := fun k0_t3 v3924 => decidable_of_iff' _ (Iff.of_eq (k0_chk378.eq_1 k0_t3 v3924))
theorem k0_off394_inb : ∀ (k0_t3 : Fin k0_t3_loop.trips) (v3924 : BitVec 32) (k0_hw378 : k0_chk378 k0_t3 v3924), ∀ (k0_h2 : k0_cond2 k0_t3 = 1#1), ∀ a, (k0_off394 v3924) a + S1x1x32.size a ≤ S26x100001x32.size a := fun k0_t3 v3924 k0_hw378 k0_h2 => k0_hw378 k0_h2

def k0_off395 (v3934 : BitVec 32) : Fin 3 → Nat :=
  let c14_i32_3131 : BitVec 32 := 14#32
  let c0_i32_3136 : BitVec 32 := 0#32
  ![14, v3934.toNat, 0]

def k0_chk379 (k0_t3 : Fin k0_t3_loop.trips) (v3934 : BitVec 32) : Prop :=
  (∀ (k0_h2 : k0_cond2 k0_t3 = 1#1), ∀ a, (k0_off395 v3934) a + S1x1x32.size a ≤ S26x100001x32.size a)
instance k0_chk379.dec : ∀ (k0_t3 : Fin k0_t3_loop.trips) (v3934 : BitVec 32), Decidable (k0_chk379 k0_t3 v3934) := fun k0_t3 v3934 => decidable_of_iff' _ (Iff.of_eq (k0_chk379.eq_1 k0_t3 v3934))
theorem k0_off395_inb : ∀ (k0_t3 : Fin k0_t3_loop.trips) (v3934 : BitVec 32) (k0_hw379 : k0_chk379 k0_t3 v3934), ∀ (k0_h2 : k0_cond2 k0_t3 = 1#1), ∀ a, (k0_off395 v3934) a + S1x1x32.size a ≤ S26x100001x32.size a := fun k0_t3 v3934 k0_hw379 k0_h2 => k0_hw379 k0_h2

def k0_off396 (v3944 : BitVec 32) : Fin 3 → Nat :=
  let c15_i32_3139 : BitVec 32 := 15#32
  let c0_i32_3144 : BitVec 32 := 0#32
  ![15, v3944.toNat, 0]

def k0_chk380 (k0_t3 : Fin k0_t3_loop.trips) (v3944 : BitVec 32) : Prop :=
  (∀ (k0_h2 : k0_cond2 k0_t3 = 1#1), ∀ a, (k0_off396 v3944) a + S1x1x32.size a ≤ S26x100001x32.size a)
instance k0_chk380.dec : ∀ (k0_t3 : Fin k0_t3_loop.trips) (v3944 : BitVec 32), Decidable (k0_chk380 k0_t3 v3944) := fun k0_t3 v3944 => decidable_of_iff' _ (Iff.of_eq (k0_chk380.eq_1 k0_t3 v3944))
theorem k0_off396_inb : ∀ (k0_t3 : Fin k0_t3_loop.trips) (v3944 : BitVec 32) (k0_hw380 : k0_chk380 k0_t3 v3944), ∀ (k0_h2 : k0_cond2 k0_t3 = 1#1), ∀ a, (k0_off396 v3944) a + S1x1x32.size a ≤ S26x100001x32.size a := fun k0_t3 v3944 k0_hw380 k0_h2 => k0_hw380 k0_h2

def k0_off397 (v3954 : BitVec 32) : Fin 3 → Nat :=
  let c16_i32_3147 : BitVec 32 := 16#32
  let c0_i32_3152 : BitVec 32 := 0#32
  ![16, v3954.toNat, 0]

def k0_chk381 (k0_t3 : Fin k0_t3_loop.trips) (v3954 : BitVec 32) : Prop :=
  (∀ (k0_h2 : k0_cond2 k0_t3 = 1#1), ∀ a, (k0_off397 v3954) a + S1x1x32.size a ≤ S26x100001x32.size a)
instance k0_chk381.dec : ∀ (k0_t3 : Fin k0_t3_loop.trips) (v3954 : BitVec 32), Decidable (k0_chk381 k0_t3 v3954) := fun k0_t3 v3954 => decidable_of_iff' _ (Iff.of_eq (k0_chk381.eq_1 k0_t3 v3954))
theorem k0_off397_inb : ∀ (k0_t3 : Fin k0_t3_loop.trips) (v3954 : BitVec 32) (k0_hw381 : k0_chk381 k0_t3 v3954), ∀ (k0_h2 : k0_cond2 k0_t3 = 1#1), ∀ a, (k0_off397 v3954) a + S1x1x32.size a ≤ S26x100001x32.size a := fun k0_t3 v3954 k0_hw381 k0_h2 => k0_hw381 k0_h2

def k0_off398 (v3964 : BitVec 32) : Fin 3 → Nat :=
  let c17_i32_3155 : BitVec 32 := 17#32
  let c0_i32_3160 : BitVec 32 := 0#32
  ![17, v3964.toNat, 0]

def k0_chk382 (k0_t3 : Fin k0_t3_loop.trips) (v3964 : BitVec 32) : Prop :=
  (∀ (k0_h2 : k0_cond2 k0_t3 = 1#1), ∀ a, (k0_off398 v3964) a + S1x1x32.size a ≤ S26x100001x32.size a)
instance k0_chk382.dec : ∀ (k0_t3 : Fin k0_t3_loop.trips) (v3964 : BitVec 32), Decidable (k0_chk382 k0_t3 v3964) := fun k0_t3 v3964 => decidable_of_iff' _ (Iff.of_eq (k0_chk382.eq_1 k0_t3 v3964))
theorem k0_off398_inb : ∀ (k0_t3 : Fin k0_t3_loop.trips) (v3964 : BitVec 32) (k0_hw382 : k0_chk382 k0_t3 v3964), ∀ (k0_h2 : k0_cond2 k0_t3 = 1#1), ∀ a, (k0_off398 v3964) a + S1x1x32.size a ≤ S26x100001x32.size a := fun k0_t3 v3964 k0_hw382 k0_h2 => k0_hw382 k0_h2

def k0_off399 (v3974 : BitVec 32) : Fin 3 → Nat :=
  let c18_i32_3163 : BitVec 32 := 18#32
  let c0_i32_3168 : BitVec 32 := 0#32
  ![18, v3974.toNat, 0]

def k0_chk383 (k0_t3 : Fin k0_t3_loop.trips) (v3974 : BitVec 32) : Prop :=
  (∀ (k0_h2 : k0_cond2 k0_t3 = 1#1), ∀ a, (k0_off399 v3974) a + S1x1x32.size a ≤ S26x100001x32.size a)
instance k0_chk383.dec : ∀ (k0_t3 : Fin k0_t3_loop.trips) (v3974 : BitVec 32), Decidable (k0_chk383 k0_t3 v3974) := fun k0_t3 v3974 => decidable_of_iff' _ (Iff.of_eq (k0_chk383.eq_1 k0_t3 v3974))
theorem k0_off399_inb : ∀ (k0_t3 : Fin k0_t3_loop.trips) (v3974 : BitVec 32) (k0_hw383 : k0_chk383 k0_t3 v3974), ∀ (k0_h2 : k0_cond2 k0_t3 = 1#1), ∀ a, (k0_off399 v3974) a + S1x1x32.size a ≤ S26x100001x32.size a := fun k0_t3 v3974 k0_hw383 k0_h2 => k0_hw383 k0_h2

def k0_off400 (v3984 : BitVec 32) : Fin 3 → Nat :=
  let c19_i32_3171 : BitVec 32 := 19#32
  let c0_i32_3176 : BitVec 32 := 0#32
  ![19, v3984.toNat, 0]

def k0_chk384 (k0_t3 : Fin k0_t3_loop.trips) (v3984 : BitVec 32) : Prop :=
  (∀ (k0_h2 : k0_cond2 k0_t3 = 1#1), ∀ a, (k0_off400 v3984) a + S1x1x32.size a ≤ S26x100001x32.size a)
instance k0_chk384.dec : ∀ (k0_t3 : Fin k0_t3_loop.trips) (v3984 : BitVec 32), Decidable (k0_chk384 k0_t3 v3984) := fun k0_t3 v3984 => decidable_of_iff' _ (Iff.of_eq (k0_chk384.eq_1 k0_t3 v3984))
theorem k0_off400_inb : ∀ (k0_t3 : Fin k0_t3_loop.trips) (v3984 : BitVec 32) (k0_hw384 : k0_chk384 k0_t3 v3984), ∀ (k0_h2 : k0_cond2 k0_t3 = 1#1), ∀ a, (k0_off400 v3984) a + S1x1x32.size a ≤ S26x100001x32.size a := fun k0_t3 v3984 k0_hw384 k0_h2 => k0_hw384 k0_h2

def k0_off401 (v3994 : BitVec 32) : Fin 3 → Nat :=
  let c20_i32_3179 : BitVec 32 := 20#32
  let c0_i32_3184 : BitVec 32 := 0#32
  ![20, v3994.toNat, 0]

def k0_chk385 (k0_t3 : Fin k0_t3_loop.trips) (v3994 : BitVec 32) : Prop :=
  (∀ (k0_h2 : k0_cond2 k0_t3 = 1#1), ∀ a, (k0_off401 v3994) a + S1x1x32.size a ≤ S26x100001x32.size a)
instance k0_chk385.dec : ∀ (k0_t3 : Fin k0_t3_loop.trips) (v3994 : BitVec 32), Decidable (k0_chk385 k0_t3 v3994) := fun k0_t3 v3994 => decidable_of_iff' _ (Iff.of_eq (k0_chk385.eq_1 k0_t3 v3994))
theorem k0_off401_inb : ∀ (k0_t3 : Fin k0_t3_loop.trips) (v3994 : BitVec 32) (k0_hw385 : k0_chk385 k0_t3 v3994), ∀ (k0_h2 : k0_cond2 k0_t3 = 1#1), ∀ a, (k0_off401 v3994) a + S1x1x32.size a ≤ S26x100001x32.size a := fun k0_t3 v3994 k0_hw385 k0_h2 => k0_hw385 k0_h2

def k0_off402 (v4004 : BitVec 32) : Fin 3 → Nat :=
  let c21_i32_3187 : BitVec 32 := 21#32
  let c0_i32_3192 : BitVec 32 := 0#32
  ![21, v4004.toNat, 0]

def k0_chk386 (k0_t3 : Fin k0_t3_loop.trips) (v4004 : BitVec 32) : Prop :=
  (∀ (k0_h2 : k0_cond2 k0_t3 = 1#1), ∀ a, (k0_off402 v4004) a + S1x1x32.size a ≤ S26x100001x32.size a)
instance k0_chk386.dec : ∀ (k0_t3 : Fin k0_t3_loop.trips) (v4004 : BitVec 32), Decidable (k0_chk386 k0_t3 v4004) := fun k0_t3 v4004 => decidable_of_iff' _ (Iff.of_eq (k0_chk386.eq_1 k0_t3 v4004))
theorem k0_off402_inb : ∀ (k0_t3 : Fin k0_t3_loop.trips) (v4004 : BitVec 32) (k0_hw386 : k0_chk386 k0_t3 v4004), ∀ (k0_h2 : k0_cond2 k0_t3 = 1#1), ∀ a, (k0_off402 v4004) a + S1x1x32.size a ≤ S26x100001x32.size a := fun k0_t3 v4004 k0_hw386 k0_h2 => k0_hw386 k0_h2

def k0_off403 (v4014 : BitVec 32) : Fin 3 → Nat :=
  let c22_i32_3195 : BitVec 32 := 22#32
  let c0_i32_3200 : BitVec 32 := 0#32
  ![22, v4014.toNat, 0]

def k0_chk387 (k0_t3 : Fin k0_t3_loop.trips) (v4014 : BitVec 32) : Prop :=
  (∀ (k0_h2 : k0_cond2 k0_t3 = 1#1), ∀ a, (k0_off403 v4014) a + S1x1x32.size a ≤ S26x100001x32.size a)
instance k0_chk387.dec : ∀ (k0_t3 : Fin k0_t3_loop.trips) (v4014 : BitVec 32), Decidable (k0_chk387 k0_t3 v4014) := fun k0_t3 v4014 => decidable_of_iff' _ (Iff.of_eq (k0_chk387.eq_1 k0_t3 v4014))
theorem k0_off403_inb : ∀ (k0_t3 : Fin k0_t3_loop.trips) (v4014 : BitVec 32) (k0_hw387 : k0_chk387 k0_t3 v4014), ∀ (k0_h2 : k0_cond2 k0_t3 = 1#1), ∀ a, (k0_off403 v4014) a + S1x1x32.size a ≤ S26x100001x32.size a := fun k0_t3 v4014 k0_hw387 k0_h2 => k0_hw387 k0_h2

def k0_off404 (v4024 : BitVec 32) : Fin 3 → Nat :=
  let c23_i32_3203 : BitVec 32 := 23#32
  let c0_i32_3208 : BitVec 32 := 0#32
  ![23, v4024.toNat, 0]

def k0_chk388 (k0_t3 : Fin k0_t3_loop.trips) (v4024 : BitVec 32) : Prop :=
  (∀ (k0_h2 : k0_cond2 k0_t3 = 1#1), ∀ a, (k0_off404 v4024) a + S1x1x32.size a ≤ S26x100001x32.size a)
instance k0_chk388.dec : ∀ (k0_t3 : Fin k0_t3_loop.trips) (v4024 : BitVec 32), Decidable (k0_chk388 k0_t3 v4024) := fun k0_t3 v4024 => decidable_of_iff' _ (Iff.of_eq (k0_chk388.eq_1 k0_t3 v4024))
theorem k0_off404_inb : ∀ (k0_t3 : Fin k0_t3_loop.trips) (v4024 : BitVec 32) (k0_hw388 : k0_chk388 k0_t3 v4024), ∀ (k0_h2 : k0_cond2 k0_t3 = 1#1), ∀ a, (k0_off404 v4024) a + S1x1x32.size a ≤ S26x100001x32.size a := fun k0_t3 v4024 k0_hw388 k0_h2 => k0_hw388 k0_h2

def k0_off405 (v4034 : BitVec 32) : Fin 3 → Nat :=
  let c24_i32_3211 : BitVec 32 := 24#32
  let c0_i32_3216 : BitVec 32 := 0#32
  ![24, v4034.toNat, 0]

def k0_chk389 (k0_t3 : Fin k0_t3_loop.trips) (v4034 : BitVec 32) : Prop :=
  (∀ (k0_h2 : k0_cond2 k0_t3 = 1#1), ∀ a, (k0_off405 v4034) a + S1x1x32.size a ≤ S26x100001x32.size a)
instance k0_chk389.dec : ∀ (k0_t3 : Fin k0_t3_loop.trips) (v4034 : BitVec 32), Decidable (k0_chk389 k0_t3 v4034) := fun k0_t3 v4034 => decidable_of_iff' _ (Iff.of_eq (k0_chk389.eq_1 k0_t3 v4034))
theorem k0_off405_inb : ∀ (k0_t3 : Fin k0_t3_loop.trips) (v4034 : BitVec 32) (k0_hw389 : k0_chk389 k0_t3 v4034), ∀ (k0_h2 : k0_cond2 k0_t3 = 1#1), ∀ a, (k0_off405 v4034) a + S1x1x32.size a ≤ S26x100001x32.size a := fun k0_t3 v4034 k0_hw389 k0_h2 => k0_hw389 k0_h2

def k0_off406 (v4044 : BitVec 32) : Fin 3 → Nat :=
  let c25_i32_3219 : BitVec 32 := 25#32
  let c0_i32_3224 : BitVec 32 := 0#32
  ![25, v4044.toNat, 0]

def k0_chk390 (k0_t3 : Fin k0_t3_loop.trips) (v4044 : BitVec 32) : Prop :=
  (∀ (k0_h2 : k0_cond2 k0_t3 = 1#1), ∀ a, (k0_off406 v4044) a + S1x1x32.size a ≤ S26x100001x32.size a)
instance k0_chk390.dec : ∀ (k0_t3 : Fin k0_t3_loop.trips) (v4044 : BitVec 32), Decidable (k0_chk390 k0_t3 v4044) := fun k0_t3 v4044 => decidable_of_iff' _ (Iff.of_eq (k0_chk390.eq_1 k0_t3 v4044))
theorem k0_off406_inb : ∀ (k0_t3 : Fin k0_t3_loop.trips) (v4044 : BitVec 32) (k0_hw390 : k0_chk390 k0_t3 v4044), ∀ (k0_h2 : k0_cond2 k0_t3 = 1#1), ∀ a, (k0_off406 v4044) a + S1x1x32.size a ≤ S26x100001x32.size a := fun k0_t3 v4044 k0_hw390 k0_h2 => k0_hw390 k0_h2

def k0_off407 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c7_i32_3227 : BitVec 32 := 7#32
  let v4053 : BitVec 32 := Scalar.addi v2176 c7_i32_3227
  let v4054 : Index := Scalar.indexCast v4053
  let c0_3228 : Index := 0#32
  ![v4054.toNat, 0]
def k0_off408 (k0_t3 : Fin k0_t3_loop.trips) : Fin 2 → Nat :=
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c1_i32_1741 : BitVec 32 := 1#32
  let v2175 : BitVec 32 := Scalar.addi v2140 c1_i32_1741
  let c8_i32_1742 : BitVec 32 := 8#32
  let v2176 : BitVec 32 := Scalar.muli v2175 c8_i32_1742
  let c7_i32_3229 : BitVec 32 := 7#32
  let v4057 : BitVec 32 := Scalar.addi v2176 c7_i32_3229
  let v4058 : Index := Scalar.indexCast v4057
  let c16_3230 : Index := 16#32
  ![v4058.toNat, 16]
def k0_off409 (v4062 : BitVec 32) : Fin 3 → Nat :=
  let c0_i32_3231 : BitVec 32 := 0#32
  let c0_i32_3236 : BitVec 32 := 0#32
  ![0, v4062.toNat, 0]

def k0_chk391 (k0_t3 : Fin k0_t3_loop.trips) (v4062 : BitVec 32) : Prop :=
  (∀ (k0_h2 : k0_cond2 k0_t3 = 1#1), ∀ a, (k0_off409 v4062) a + S1x1x32.size a ≤ S26x100001x32.size a)
instance k0_chk391.dec : ∀ (k0_t3 : Fin k0_t3_loop.trips) (v4062 : BitVec 32), Decidable (k0_chk391 k0_t3 v4062) := fun k0_t3 v4062 => decidable_of_iff' _ (Iff.of_eq (k0_chk391.eq_1 k0_t3 v4062))
theorem k0_off409_inb : ∀ (k0_t3 : Fin k0_t3_loop.trips) (v4062 : BitVec 32) (k0_hw391 : k0_chk391 k0_t3 v4062), ∀ (k0_h2 : k0_cond2 k0_t3 = 1#1), ∀ a, (k0_off409 v4062) a + S1x1x32.size a ≤ S26x100001x32.size a := fun k0_t3 v4062 k0_hw391 k0_h2 => k0_hw391 k0_h2

def k0_off410 (v4072 : BitVec 32) : Fin 3 → Nat :=
  let c1_i32_3239 : BitVec 32 := 1#32
  let c0_i32_3244 : BitVec 32 := 0#32
  ![1, v4072.toNat, 0]

def k0_chk392 (k0_t3 : Fin k0_t3_loop.trips) (v4072 : BitVec 32) : Prop :=
  (∀ (k0_h2 : k0_cond2 k0_t3 = 1#1), ∀ a, (k0_off410 v4072) a + S1x1x32.size a ≤ S26x100001x32.size a)
instance k0_chk392.dec : ∀ (k0_t3 : Fin k0_t3_loop.trips) (v4072 : BitVec 32), Decidable (k0_chk392 k0_t3 v4072) := fun k0_t3 v4072 => decidable_of_iff' _ (Iff.of_eq (k0_chk392.eq_1 k0_t3 v4072))
theorem k0_off410_inb : ∀ (k0_t3 : Fin k0_t3_loop.trips) (v4072 : BitVec 32) (k0_hw392 : k0_chk392 k0_t3 v4072), ∀ (k0_h2 : k0_cond2 k0_t3 = 1#1), ∀ a, (k0_off410 v4072) a + S1x1x32.size a ≤ S26x100001x32.size a := fun k0_t3 v4072 k0_hw392 k0_h2 => k0_hw392 k0_h2

def k0_off411 (v4082 : BitVec 32) : Fin 3 → Nat :=
  let c2_i32_3247 : BitVec 32 := 2#32
  let c0_i32_3252 : BitVec 32 := 0#32
  ![2, v4082.toNat, 0]

def k0_chk393 (k0_t3 : Fin k0_t3_loop.trips) (v4082 : BitVec 32) : Prop :=
  (∀ (k0_h2 : k0_cond2 k0_t3 = 1#1), ∀ a, (k0_off411 v4082) a + S1x1x32.size a ≤ S26x100001x32.size a)
instance k0_chk393.dec : ∀ (k0_t3 : Fin k0_t3_loop.trips) (v4082 : BitVec 32), Decidable (k0_chk393 k0_t3 v4082) := fun k0_t3 v4082 => decidable_of_iff' _ (Iff.of_eq (k0_chk393.eq_1 k0_t3 v4082))
theorem k0_off411_inb : ∀ (k0_t3 : Fin k0_t3_loop.trips) (v4082 : BitVec 32) (k0_hw393 : k0_chk393 k0_t3 v4082), ∀ (k0_h2 : k0_cond2 k0_t3 = 1#1), ∀ a, (k0_off411 v4082) a + S1x1x32.size a ≤ S26x100001x32.size a := fun k0_t3 v4082 k0_hw393 k0_h2 => k0_hw393 k0_h2

def k0_off412 (v4092 : BitVec 32) : Fin 3 → Nat :=
  let c3_i32_3255 : BitVec 32 := 3#32
  let c0_i32_3260 : BitVec 32 := 0#32
  ![3, v4092.toNat, 0]

def k0_chk394 (k0_t3 : Fin k0_t3_loop.trips) (v4092 : BitVec 32) : Prop :=
  (∀ (k0_h2 : k0_cond2 k0_t3 = 1#1), ∀ a, (k0_off412 v4092) a + S1x1x32.size a ≤ S26x100001x32.size a)
instance k0_chk394.dec : ∀ (k0_t3 : Fin k0_t3_loop.trips) (v4092 : BitVec 32), Decidable (k0_chk394 k0_t3 v4092) := fun k0_t3 v4092 => decidable_of_iff' _ (Iff.of_eq (k0_chk394.eq_1 k0_t3 v4092))
theorem k0_off412_inb : ∀ (k0_t3 : Fin k0_t3_loop.trips) (v4092 : BitVec 32) (k0_hw394 : k0_chk394 k0_t3 v4092), ∀ (k0_h2 : k0_cond2 k0_t3 = 1#1), ∀ a, (k0_off412 v4092) a + S1x1x32.size a ≤ S26x100001x32.size a := fun k0_t3 v4092 k0_hw394 k0_h2 => k0_hw394 k0_h2

def k0_off413 (v4102 : BitVec 32) : Fin 3 → Nat :=
  let c4_i32_3263 : BitVec 32 := 4#32
  let c0_i32_3268 : BitVec 32 := 0#32
  ![4, v4102.toNat, 0]

def k0_chk395 (k0_t3 : Fin k0_t3_loop.trips) (v4102 : BitVec 32) : Prop :=
  (∀ (k0_h2 : k0_cond2 k0_t3 = 1#1), ∀ a, (k0_off413 v4102) a + S1x1x32.size a ≤ S26x100001x32.size a)
instance k0_chk395.dec : ∀ (k0_t3 : Fin k0_t3_loop.trips) (v4102 : BitVec 32), Decidable (k0_chk395 k0_t3 v4102) := fun k0_t3 v4102 => decidable_of_iff' _ (Iff.of_eq (k0_chk395.eq_1 k0_t3 v4102))
theorem k0_off413_inb : ∀ (k0_t3 : Fin k0_t3_loop.trips) (v4102 : BitVec 32) (k0_hw395 : k0_chk395 k0_t3 v4102), ∀ (k0_h2 : k0_cond2 k0_t3 = 1#1), ∀ a, (k0_off413 v4102) a + S1x1x32.size a ≤ S26x100001x32.size a := fun k0_t3 v4102 k0_hw395 k0_h2 => k0_hw395 k0_h2

def k0_off414 (v4112 : BitVec 32) : Fin 3 → Nat :=
  let c5_i32_3271 : BitVec 32 := 5#32
  let c0_i32_3276 : BitVec 32 := 0#32
  ![5, v4112.toNat, 0]

def k0_chk396 (k0_t3 : Fin k0_t3_loop.trips) (v4112 : BitVec 32) : Prop :=
  (∀ (k0_h2 : k0_cond2 k0_t3 = 1#1), ∀ a, (k0_off414 v4112) a + S1x1x32.size a ≤ S26x100001x32.size a)
instance k0_chk396.dec : ∀ (k0_t3 : Fin k0_t3_loop.trips) (v4112 : BitVec 32), Decidable (k0_chk396 k0_t3 v4112) := fun k0_t3 v4112 => decidable_of_iff' _ (Iff.of_eq (k0_chk396.eq_1 k0_t3 v4112))
theorem k0_off414_inb : ∀ (k0_t3 : Fin k0_t3_loop.trips) (v4112 : BitVec 32) (k0_hw396 : k0_chk396 k0_t3 v4112), ∀ (k0_h2 : k0_cond2 k0_t3 = 1#1), ∀ a, (k0_off414 v4112) a + S1x1x32.size a ≤ S26x100001x32.size a := fun k0_t3 v4112 k0_hw396 k0_h2 => k0_hw396 k0_h2

def k0_off415 (v4122 : BitVec 32) : Fin 3 → Nat :=
  let c6_i32_3279 : BitVec 32 := 6#32
  let c0_i32_3284 : BitVec 32 := 0#32
  ![6, v4122.toNat, 0]

def k0_chk397 (k0_t3 : Fin k0_t3_loop.trips) (v4122 : BitVec 32) : Prop :=
  (∀ (k0_h2 : k0_cond2 k0_t3 = 1#1), ∀ a, (k0_off415 v4122) a + S1x1x32.size a ≤ S26x100001x32.size a)
instance k0_chk397.dec : ∀ (k0_t3 : Fin k0_t3_loop.trips) (v4122 : BitVec 32), Decidable (k0_chk397 k0_t3 v4122) := fun k0_t3 v4122 => decidable_of_iff' _ (Iff.of_eq (k0_chk397.eq_1 k0_t3 v4122))
theorem k0_off415_inb : ∀ (k0_t3 : Fin k0_t3_loop.trips) (v4122 : BitVec 32) (k0_hw397 : k0_chk397 k0_t3 v4122), ∀ (k0_h2 : k0_cond2 k0_t3 = 1#1), ∀ a, (k0_off415 v4122) a + S1x1x32.size a ≤ S26x100001x32.size a := fun k0_t3 v4122 k0_hw397 k0_h2 => k0_hw397 k0_h2

def k0_off416 (v4132 : BitVec 32) : Fin 3 → Nat :=
  let c7_i32_3287 : BitVec 32 := 7#32
  let c0_i32_3292 : BitVec 32 := 0#32
  ![7, v4132.toNat, 0]

def k0_chk398 (k0_t3 : Fin k0_t3_loop.trips) (v4132 : BitVec 32) : Prop :=
  (∀ (k0_h2 : k0_cond2 k0_t3 = 1#1), ∀ a, (k0_off416 v4132) a + S1x1x32.size a ≤ S26x100001x32.size a)
instance k0_chk398.dec : ∀ (k0_t3 : Fin k0_t3_loop.trips) (v4132 : BitVec 32), Decidable (k0_chk398 k0_t3 v4132) := fun k0_t3 v4132 => decidable_of_iff' _ (Iff.of_eq (k0_chk398.eq_1 k0_t3 v4132))
theorem k0_off416_inb : ∀ (k0_t3 : Fin k0_t3_loop.trips) (v4132 : BitVec 32) (k0_hw398 : k0_chk398 k0_t3 v4132), ∀ (k0_h2 : k0_cond2 k0_t3 = 1#1), ∀ a, (k0_off416 v4132) a + S1x1x32.size a ≤ S26x100001x32.size a := fun k0_t3 v4132 k0_hw398 k0_h2 => k0_hw398 k0_h2

def k0_off417 (v4142 : BitVec 32) : Fin 3 → Nat :=
  let c8_i32_3295 : BitVec 32 := 8#32
  let c0_i32_3300 : BitVec 32 := 0#32
  ![8, v4142.toNat, 0]

def k0_chk399 (k0_t3 : Fin k0_t3_loop.trips) (v4142 : BitVec 32) : Prop :=
  (∀ (k0_h2 : k0_cond2 k0_t3 = 1#1), ∀ a, (k0_off417 v4142) a + S1x1x32.size a ≤ S26x100001x32.size a)
instance k0_chk399.dec : ∀ (k0_t3 : Fin k0_t3_loop.trips) (v4142 : BitVec 32), Decidable (k0_chk399 k0_t3 v4142) := fun k0_t3 v4142 => decidable_of_iff' _ (Iff.of_eq (k0_chk399.eq_1 k0_t3 v4142))
theorem k0_off417_inb : ∀ (k0_t3 : Fin k0_t3_loop.trips) (v4142 : BitVec 32) (k0_hw399 : k0_chk399 k0_t3 v4142), ∀ (k0_h2 : k0_cond2 k0_t3 = 1#1), ∀ a, (k0_off417 v4142) a + S1x1x32.size a ≤ S26x100001x32.size a := fun k0_t3 v4142 k0_hw399 k0_h2 => k0_hw399 k0_h2

def k0_off418 (v4152 : BitVec 32) : Fin 3 → Nat :=
  let c9_i32_3303 : BitVec 32 := 9#32
  let c0_i32_3308 : BitVec 32 := 0#32
  ![9, v4152.toNat, 0]

def k0_chk400 (k0_t3 : Fin k0_t3_loop.trips) (v4152 : BitVec 32) : Prop :=
  (∀ (k0_h2 : k0_cond2 k0_t3 = 1#1), ∀ a, (k0_off418 v4152) a + S1x1x32.size a ≤ S26x100001x32.size a)
instance k0_chk400.dec : ∀ (k0_t3 : Fin k0_t3_loop.trips) (v4152 : BitVec 32), Decidable (k0_chk400 k0_t3 v4152) := fun k0_t3 v4152 => decidable_of_iff' _ (Iff.of_eq (k0_chk400.eq_1 k0_t3 v4152))
theorem k0_off418_inb : ∀ (k0_t3 : Fin k0_t3_loop.trips) (v4152 : BitVec 32) (k0_hw400 : k0_chk400 k0_t3 v4152), ∀ (k0_h2 : k0_cond2 k0_t3 = 1#1), ∀ a, (k0_off418 v4152) a + S1x1x32.size a ≤ S26x100001x32.size a := fun k0_t3 v4152 k0_hw400 k0_h2 => k0_hw400 k0_h2

def k0_off419 (v4162 : BitVec 32) : Fin 3 → Nat :=
  let c10_i32_3311 : BitVec 32 := 10#32
  let c0_i32_3316 : BitVec 32 := 0#32
  ![10, v4162.toNat, 0]

def k0_chk401 (k0_t3 : Fin k0_t3_loop.trips) (v4162 : BitVec 32) : Prop :=
  (∀ (k0_h2 : k0_cond2 k0_t3 = 1#1), ∀ a, (k0_off419 v4162) a + S1x1x32.size a ≤ S26x100001x32.size a)
instance k0_chk401.dec : ∀ (k0_t3 : Fin k0_t3_loop.trips) (v4162 : BitVec 32), Decidable (k0_chk401 k0_t3 v4162) := fun k0_t3 v4162 => decidable_of_iff' _ (Iff.of_eq (k0_chk401.eq_1 k0_t3 v4162))
theorem k0_off419_inb : ∀ (k0_t3 : Fin k0_t3_loop.trips) (v4162 : BitVec 32) (k0_hw401 : k0_chk401 k0_t3 v4162), ∀ (k0_h2 : k0_cond2 k0_t3 = 1#1), ∀ a, (k0_off419 v4162) a + S1x1x32.size a ≤ S26x100001x32.size a := fun k0_t3 v4162 k0_hw401 k0_h2 => k0_hw401 k0_h2

def k0_off420 (v4172 : BitVec 32) : Fin 3 → Nat :=
  let c11_i32_3319 : BitVec 32 := 11#32
  let c0_i32_3324 : BitVec 32 := 0#32
  ![11, v4172.toNat, 0]

def k0_chk402 (k0_t3 : Fin k0_t3_loop.trips) (v4172 : BitVec 32) : Prop :=
  (∀ (k0_h2 : k0_cond2 k0_t3 = 1#1), ∀ a, (k0_off420 v4172) a + S1x1x32.size a ≤ S26x100001x32.size a)
instance k0_chk402.dec : ∀ (k0_t3 : Fin k0_t3_loop.trips) (v4172 : BitVec 32), Decidable (k0_chk402 k0_t3 v4172) := fun k0_t3 v4172 => decidable_of_iff' _ (Iff.of_eq (k0_chk402.eq_1 k0_t3 v4172))
theorem k0_off420_inb : ∀ (k0_t3 : Fin k0_t3_loop.trips) (v4172 : BitVec 32) (k0_hw402 : k0_chk402 k0_t3 v4172), ∀ (k0_h2 : k0_cond2 k0_t3 = 1#1), ∀ a, (k0_off420 v4172) a + S1x1x32.size a ≤ S26x100001x32.size a := fun k0_t3 v4172 k0_hw402 k0_h2 => k0_hw402 k0_h2

def k0_off421 (v4182 : BitVec 32) : Fin 3 → Nat :=
  let c12_i32_3327 : BitVec 32 := 12#32
  let c0_i32_3332 : BitVec 32 := 0#32
  ![12, v4182.toNat, 0]

def k0_chk403 (k0_t3 : Fin k0_t3_loop.trips) (v4182 : BitVec 32) : Prop :=
  (∀ (k0_h2 : k0_cond2 k0_t3 = 1#1), ∀ a, (k0_off421 v4182) a + S1x1x32.size a ≤ S26x100001x32.size a)
instance k0_chk403.dec : ∀ (k0_t3 : Fin k0_t3_loop.trips) (v4182 : BitVec 32), Decidable (k0_chk403 k0_t3 v4182) := fun k0_t3 v4182 => decidable_of_iff' _ (Iff.of_eq (k0_chk403.eq_1 k0_t3 v4182))
theorem k0_off421_inb : ∀ (k0_t3 : Fin k0_t3_loop.trips) (v4182 : BitVec 32) (k0_hw403 : k0_chk403 k0_t3 v4182), ∀ (k0_h2 : k0_cond2 k0_t3 = 1#1), ∀ a, (k0_off421 v4182) a + S1x1x32.size a ≤ S26x100001x32.size a := fun k0_t3 v4182 k0_hw403 k0_h2 => k0_hw403 k0_h2

def k0_off422 (v4192 : BitVec 32) : Fin 3 → Nat :=
  let c13_i32_3335 : BitVec 32 := 13#32
  let c0_i32_3340 : BitVec 32 := 0#32
  ![13, v4192.toNat, 0]

def k0_chk404 (k0_t3 : Fin k0_t3_loop.trips) (v4192 : BitVec 32) : Prop :=
  (∀ (k0_h2 : k0_cond2 k0_t3 = 1#1), ∀ a, (k0_off422 v4192) a + S1x1x32.size a ≤ S26x100001x32.size a)
instance k0_chk404.dec : ∀ (k0_t3 : Fin k0_t3_loop.trips) (v4192 : BitVec 32), Decidable (k0_chk404 k0_t3 v4192) := fun k0_t3 v4192 => decidable_of_iff' _ (Iff.of_eq (k0_chk404.eq_1 k0_t3 v4192))
theorem k0_off422_inb : ∀ (k0_t3 : Fin k0_t3_loop.trips) (v4192 : BitVec 32) (k0_hw404 : k0_chk404 k0_t3 v4192), ∀ (k0_h2 : k0_cond2 k0_t3 = 1#1), ∀ a, (k0_off422 v4192) a + S1x1x32.size a ≤ S26x100001x32.size a := fun k0_t3 v4192 k0_hw404 k0_h2 => k0_hw404 k0_h2

def k0_off423 (v4202 : BitVec 32) : Fin 3 → Nat :=
  let c14_i32_3343 : BitVec 32 := 14#32
  let c0_i32_3348 : BitVec 32 := 0#32
  ![14, v4202.toNat, 0]

def k0_chk405 (k0_t3 : Fin k0_t3_loop.trips) (v4202 : BitVec 32) : Prop :=
  (∀ (k0_h2 : k0_cond2 k0_t3 = 1#1), ∀ a, (k0_off423 v4202) a + S1x1x32.size a ≤ S26x100001x32.size a)
instance k0_chk405.dec : ∀ (k0_t3 : Fin k0_t3_loop.trips) (v4202 : BitVec 32), Decidable (k0_chk405 k0_t3 v4202) := fun k0_t3 v4202 => decidable_of_iff' _ (Iff.of_eq (k0_chk405.eq_1 k0_t3 v4202))
theorem k0_off423_inb : ∀ (k0_t3 : Fin k0_t3_loop.trips) (v4202 : BitVec 32) (k0_hw405 : k0_chk405 k0_t3 v4202), ∀ (k0_h2 : k0_cond2 k0_t3 = 1#1), ∀ a, (k0_off423 v4202) a + S1x1x32.size a ≤ S26x100001x32.size a := fun k0_t3 v4202 k0_hw405 k0_h2 => k0_hw405 k0_h2

def k0_off424 (v4212 : BitVec 32) : Fin 3 → Nat :=
  let c15_i32_3351 : BitVec 32 := 15#32
  let c0_i32_3356 : BitVec 32 := 0#32
  ![15, v4212.toNat, 0]

def k0_chk406 (k0_t3 : Fin k0_t3_loop.trips) (v4212 : BitVec 32) : Prop :=
  (∀ (k0_h2 : k0_cond2 k0_t3 = 1#1), ∀ a, (k0_off424 v4212) a + S1x1x32.size a ≤ S26x100001x32.size a)
instance k0_chk406.dec : ∀ (k0_t3 : Fin k0_t3_loop.trips) (v4212 : BitVec 32), Decidable (k0_chk406 k0_t3 v4212) := fun k0_t3 v4212 => decidable_of_iff' _ (Iff.of_eq (k0_chk406.eq_1 k0_t3 v4212))
theorem k0_off424_inb : ∀ (k0_t3 : Fin k0_t3_loop.trips) (v4212 : BitVec 32) (k0_hw406 : k0_chk406 k0_t3 v4212), ∀ (k0_h2 : k0_cond2 k0_t3 = 1#1), ∀ a, (k0_off424 v4212) a + S1x1x32.size a ≤ S26x100001x32.size a := fun k0_t3 v4212 k0_hw406 k0_h2 => k0_hw406 k0_h2

def k0_off425 (v4222 : BitVec 32) : Fin 3 → Nat :=
  let c16_i32_3359 : BitVec 32 := 16#32
  let c0_i32_3364 : BitVec 32 := 0#32
  ![16, v4222.toNat, 0]

def k0_chk407 (k0_t3 : Fin k0_t3_loop.trips) (v4222 : BitVec 32) : Prop :=
  (∀ (k0_h2 : k0_cond2 k0_t3 = 1#1), ∀ a, (k0_off425 v4222) a + S1x1x32.size a ≤ S26x100001x32.size a)
instance k0_chk407.dec : ∀ (k0_t3 : Fin k0_t3_loop.trips) (v4222 : BitVec 32), Decidable (k0_chk407 k0_t3 v4222) := fun k0_t3 v4222 => decidable_of_iff' _ (Iff.of_eq (k0_chk407.eq_1 k0_t3 v4222))
theorem k0_off425_inb : ∀ (k0_t3 : Fin k0_t3_loop.trips) (v4222 : BitVec 32) (k0_hw407 : k0_chk407 k0_t3 v4222), ∀ (k0_h2 : k0_cond2 k0_t3 = 1#1), ∀ a, (k0_off425 v4222) a + S1x1x32.size a ≤ S26x100001x32.size a := fun k0_t3 v4222 k0_hw407 k0_h2 => k0_hw407 k0_h2

def k0_off426 (v4232 : BitVec 32) : Fin 3 → Nat :=
  let c17_i32_3367 : BitVec 32 := 17#32
  let c0_i32_3372 : BitVec 32 := 0#32
  ![17, v4232.toNat, 0]

def k0_chk408 (k0_t3 : Fin k0_t3_loop.trips) (v4232 : BitVec 32) : Prop :=
  (∀ (k0_h2 : k0_cond2 k0_t3 = 1#1), ∀ a, (k0_off426 v4232) a + S1x1x32.size a ≤ S26x100001x32.size a)
instance k0_chk408.dec : ∀ (k0_t3 : Fin k0_t3_loop.trips) (v4232 : BitVec 32), Decidable (k0_chk408 k0_t3 v4232) := fun k0_t3 v4232 => decidable_of_iff' _ (Iff.of_eq (k0_chk408.eq_1 k0_t3 v4232))
theorem k0_off426_inb : ∀ (k0_t3 : Fin k0_t3_loop.trips) (v4232 : BitVec 32) (k0_hw408 : k0_chk408 k0_t3 v4232), ∀ (k0_h2 : k0_cond2 k0_t3 = 1#1), ∀ a, (k0_off426 v4232) a + S1x1x32.size a ≤ S26x100001x32.size a := fun k0_t3 v4232 k0_hw408 k0_h2 => k0_hw408 k0_h2

def k0_off427 (v4242 : BitVec 32) : Fin 3 → Nat :=
  let c18_i32_3375 : BitVec 32 := 18#32
  let c0_i32_3380 : BitVec 32 := 0#32
  ![18, v4242.toNat, 0]

def k0_chk409 (k0_t3 : Fin k0_t3_loop.trips) (v4242 : BitVec 32) : Prop :=
  (∀ (k0_h2 : k0_cond2 k0_t3 = 1#1), ∀ a, (k0_off427 v4242) a + S1x1x32.size a ≤ S26x100001x32.size a)
instance k0_chk409.dec : ∀ (k0_t3 : Fin k0_t3_loop.trips) (v4242 : BitVec 32), Decidable (k0_chk409 k0_t3 v4242) := fun k0_t3 v4242 => decidable_of_iff' _ (Iff.of_eq (k0_chk409.eq_1 k0_t3 v4242))
theorem k0_off427_inb : ∀ (k0_t3 : Fin k0_t3_loop.trips) (v4242 : BitVec 32) (k0_hw409 : k0_chk409 k0_t3 v4242), ∀ (k0_h2 : k0_cond2 k0_t3 = 1#1), ∀ a, (k0_off427 v4242) a + S1x1x32.size a ≤ S26x100001x32.size a := fun k0_t3 v4242 k0_hw409 k0_h2 => k0_hw409 k0_h2

def k0_off428 (v4252 : BitVec 32) : Fin 3 → Nat :=
  let c19_i32_3383 : BitVec 32 := 19#32
  let c0_i32_3388 : BitVec 32 := 0#32
  ![19, v4252.toNat, 0]

def k0_chk410 (k0_t3 : Fin k0_t3_loop.trips) (v4252 : BitVec 32) : Prop :=
  (∀ (k0_h2 : k0_cond2 k0_t3 = 1#1), ∀ a, (k0_off428 v4252) a + S1x1x32.size a ≤ S26x100001x32.size a)
instance k0_chk410.dec : ∀ (k0_t3 : Fin k0_t3_loop.trips) (v4252 : BitVec 32), Decidable (k0_chk410 k0_t3 v4252) := fun k0_t3 v4252 => decidable_of_iff' _ (Iff.of_eq (k0_chk410.eq_1 k0_t3 v4252))
theorem k0_off428_inb : ∀ (k0_t3 : Fin k0_t3_loop.trips) (v4252 : BitVec 32) (k0_hw410 : k0_chk410 k0_t3 v4252), ∀ (k0_h2 : k0_cond2 k0_t3 = 1#1), ∀ a, (k0_off428 v4252) a + S1x1x32.size a ≤ S26x100001x32.size a := fun k0_t3 v4252 k0_hw410 k0_h2 => k0_hw410 k0_h2

def k0_off429 (v4262 : BitVec 32) : Fin 3 → Nat :=
  let c20_i32_3391 : BitVec 32 := 20#32
  let c0_i32_3396 : BitVec 32 := 0#32
  ![20, v4262.toNat, 0]

def k0_chk411 (k0_t3 : Fin k0_t3_loop.trips) (v4262 : BitVec 32) : Prop :=
  (∀ (k0_h2 : k0_cond2 k0_t3 = 1#1), ∀ a, (k0_off429 v4262) a + S1x1x32.size a ≤ S26x100001x32.size a)
instance k0_chk411.dec : ∀ (k0_t3 : Fin k0_t3_loop.trips) (v4262 : BitVec 32), Decidable (k0_chk411 k0_t3 v4262) := fun k0_t3 v4262 => decidable_of_iff' _ (Iff.of_eq (k0_chk411.eq_1 k0_t3 v4262))
theorem k0_off429_inb : ∀ (k0_t3 : Fin k0_t3_loop.trips) (v4262 : BitVec 32) (k0_hw411 : k0_chk411 k0_t3 v4262), ∀ (k0_h2 : k0_cond2 k0_t3 = 1#1), ∀ a, (k0_off429 v4262) a + S1x1x32.size a ≤ S26x100001x32.size a := fun k0_t3 v4262 k0_hw411 k0_h2 => k0_hw411 k0_h2

def k0_off430 (v4272 : BitVec 32) : Fin 3 → Nat :=
  let c21_i32_3399 : BitVec 32 := 21#32
  let c0_i32_3404 : BitVec 32 := 0#32
  ![21, v4272.toNat, 0]

def k0_chk412 (k0_t3 : Fin k0_t3_loop.trips) (v4272 : BitVec 32) : Prop :=
  (∀ (k0_h2 : k0_cond2 k0_t3 = 1#1), ∀ a, (k0_off430 v4272) a + S1x1x32.size a ≤ S26x100001x32.size a)
instance k0_chk412.dec : ∀ (k0_t3 : Fin k0_t3_loop.trips) (v4272 : BitVec 32), Decidable (k0_chk412 k0_t3 v4272) := fun k0_t3 v4272 => decidable_of_iff' _ (Iff.of_eq (k0_chk412.eq_1 k0_t3 v4272))
theorem k0_off430_inb : ∀ (k0_t3 : Fin k0_t3_loop.trips) (v4272 : BitVec 32) (k0_hw412 : k0_chk412 k0_t3 v4272), ∀ (k0_h2 : k0_cond2 k0_t3 = 1#1), ∀ a, (k0_off430 v4272) a + S1x1x32.size a ≤ S26x100001x32.size a := fun k0_t3 v4272 k0_hw412 k0_h2 => k0_hw412 k0_h2

def k0_off431 (v4282 : BitVec 32) : Fin 3 → Nat :=
  let c22_i32_3407 : BitVec 32 := 22#32
  let c0_i32_3412 : BitVec 32 := 0#32
  ![22, v4282.toNat, 0]

def k0_chk413 (k0_t3 : Fin k0_t3_loop.trips) (v4282 : BitVec 32) : Prop :=
  (∀ (k0_h2 : k0_cond2 k0_t3 = 1#1), ∀ a, (k0_off431 v4282) a + S1x1x32.size a ≤ S26x100001x32.size a)
instance k0_chk413.dec : ∀ (k0_t3 : Fin k0_t3_loop.trips) (v4282 : BitVec 32), Decidable (k0_chk413 k0_t3 v4282) := fun k0_t3 v4282 => decidable_of_iff' _ (Iff.of_eq (k0_chk413.eq_1 k0_t3 v4282))
theorem k0_off431_inb : ∀ (k0_t3 : Fin k0_t3_loop.trips) (v4282 : BitVec 32) (k0_hw413 : k0_chk413 k0_t3 v4282), ∀ (k0_h2 : k0_cond2 k0_t3 = 1#1), ∀ a, (k0_off431 v4282) a + S1x1x32.size a ≤ S26x100001x32.size a := fun k0_t3 v4282 k0_hw413 k0_h2 => k0_hw413 k0_h2

def k0_off432 (v4292 : BitVec 32) : Fin 3 → Nat :=
  let c23_i32_3415 : BitVec 32 := 23#32
  let c0_i32_3420 : BitVec 32 := 0#32
  ![23, v4292.toNat, 0]

def k0_chk414 (k0_t3 : Fin k0_t3_loop.trips) (v4292 : BitVec 32) : Prop :=
  (∀ (k0_h2 : k0_cond2 k0_t3 = 1#1), ∀ a, (k0_off432 v4292) a + S1x1x32.size a ≤ S26x100001x32.size a)
instance k0_chk414.dec : ∀ (k0_t3 : Fin k0_t3_loop.trips) (v4292 : BitVec 32), Decidable (k0_chk414 k0_t3 v4292) := fun k0_t3 v4292 => decidable_of_iff' _ (Iff.of_eq (k0_chk414.eq_1 k0_t3 v4292))
theorem k0_off432_inb : ∀ (k0_t3 : Fin k0_t3_loop.trips) (v4292 : BitVec 32) (k0_hw414 : k0_chk414 k0_t3 v4292), ∀ (k0_h2 : k0_cond2 k0_t3 = 1#1), ∀ a, (k0_off432 v4292) a + S1x1x32.size a ≤ S26x100001x32.size a := fun k0_t3 v4292 k0_hw414 k0_h2 => k0_hw414 k0_h2

def k0_off433 (v4302 : BitVec 32) : Fin 3 → Nat :=
  let c24_i32_3423 : BitVec 32 := 24#32
  let c0_i32_3428 : BitVec 32 := 0#32
  ![24, v4302.toNat, 0]

def k0_chk415 (k0_t3 : Fin k0_t3_loop.trips) (v4302 : BitVec 32) : Prop :=
  (∀ (k0_h2 : k0_cond2 k0_t3 = 1#1), ∀ a, (k0_off433 v4302) a + S1x1x32.size a ≤ S26x100001x32.size a)
instance k0_chk415.dec : ∀ (k0_t3 : Fin k0_t3_loop.trips) (v4302 : BitVec 32), Decidable (k0_chk415 k0_t3 v4302) := fun k0_t3 v4302 => decidable_of_iff' _ (Iff.of_eq (k0_chk415.eq_1 k0_t3 v4302))
theorem k0_off433_inb : ∀ (k0_t3 : Fin k0_t3_loop.trips) (v4302 : BitVec 32) (k0_hw415 : k0_chk415 k0_t3 v4302), ∀ (k0_h2 : k0_cond2 k0_t3 = 1#1), ∀ a, (k0_off433 v4302) a + S1x1x32.size a ≤ S26x100001x32.size a := fun k0_t3 v4302 k0_hw415 k0_h2 => k0_hw415 k0_h2

def k0_off434 (v4312 : BitVec 32) : Fin 3 → Nat :=
  let c25_i32_3431 : BitVec 32 := 25#32
  let c0_i32_3436 : BitVec 32 := 0#32
  ![25, v4312.toNat, 0]

def k0_chk416 (k0_t3 : Fin k0_t3_loop.trips) (v4312 : BitVec 32) : Prop :=
  (∀ (k0_h2 : k0_cond2 k0_t3 = 1#1), ∀ a, (k0_off434 v4312) a + S1x1x32.size a ≤ S26x100001x32.size a)
instance k0_chk416.dec : ∀ (k0_t3 : Fin k0_t3_loop.trips) (v4312 : BitVec 32), Decidable (k0_chk416 k0_t3 v4312) := fun k0_t3 v4312 => decidable_of_iff' _ (Iff.of_eq (k0_chk416.eq_1 k0_t3 v4312))
theorem k0_off434_inb : ∀ (k0_t3 : Fin k0_t3_loop.trips) (v4312 : BitVec 32) (k0_hw416 : k0_chk416 k0_t3 v4312), ∀ (k0_h2 : k0_cond2 k0_t3 = 1#1), ∀ a, (k0_off434 v4312) a + S1x1x32.size a ≤ S26x100001x32.size a := fun k0_t3 v4312 k0_hw416 k0_h2 => k0_hw416 k0_h2

@[reducible] def k0_t4_loop : Scf.Loop 32 :=
  let c0_i32_1702 : BitVec 32 := 0#32
  let c208_i32 : BitVec 32 := 208#32
  let v2148 : BitVec 32 := Scalar.addi c0_i32_1702 c208_i32
  let c1_i32_1703 : BitVec 32 := 1#32
  ⟨c0_i32_1702, v2148, c1_i32_1703⟩
def k0_off435 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_1696 : BitVec 32 := 2#32
  let c0_i32_1680 : BitVec 32 := 0#32
  let c1_i32_1681 : BitVec 32 := 1#32
  let arg12 : BitVec 32 := Scf.iv c0_i32_1680 c1_i32_1681 k0_t3
  let v2140 : BitVec 32 := Scalar.muli c2_i32_1696 arg12
  let c8_i32_1705 : BitVec 32 := 8#32
  let v2149 : BitVec 32 := Scalar.muli v2140 c8_i32_1705
  let v2150 : BitVec 32 := Scalar.addi v2 v2149
  let c0_i32_1710 : BitVec 32 := 0#32
  let c0_i32_1711 : BitVec 32 := 0#32
  ![v2150.toNat, 0, 0]
def k0_cond4 (k0_t3 : Fin k0_t3_loop.trips) : BitVec 1 :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1721 : BitVec 32 := 1#32
  let v2162 : BitVec 32 := Scalar.addi v2158 c1_i32_1721
  let c64_i32_1722 : BitVec 32 := 64#32
  let v2163 : BitVec 1 := Scalar.cmpi .slt v2162 c64_i32_1722
  let v2164 : BitVec 32 := Scalar.extui v2163
  let c0_i32_1723 : BitVec 32 := 0#32
  let v2165 : BitVec 1 := Scalar.cmpi .ne v2164 c0_i32_1723
  v2165

def k0_off436 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c0_i32_1743 : BitVec 32 := 0#32
  let v2177 : BitVec 32 := Scalar.addi v2176 c0_i32_1743
  let v2178 : Index := Scalar.indexCast v2177
  let c0_1744 : Index := 0#32
  ![v2178.toNat, 0]
def k0_off437 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c0_i32_1745 : BitVec 32 := 0#32
  let v2181 : BitVec 32 := Scalar.addi v2176 c0_i32_1745
  let v2182 : Index := Scalar.indexCast v2181
  let c16_1746 : Index := 16#32
  ![v2182.toNat, 16]
def k0_off438 (v2186 : BitVec 32) : Fin 3 → Nat :=
  let c0_i32_1747 : BitVec 32 := 0#32
  let c0_i32_1752 : BitVec 32 := 0#32
  ![0, v2186.toNat, 0]

def k0_chk417 (k0_t3 : Fin k0_t3_loop.trips) (v2186 : BitVec 32) : Prop :=
  (∀ (k0_h4 : k0_cond4 k0_t3 = 1#1), ∀ a, (k0_off438 v2186) a + S1x1x32.size a ≤ S26x100001x32.size a)
instance k0_chk417.dec : ∀ (k0_t3 : Fin k0_t3_loop.trips) (v2186 : BitVec 32), Decidable (k0_chk417 k0_t3 v2186) := fun k0_t3 v2186 => decidable_of_iff' _ (Iff.of_eq (k0_chk417.eq_1 k0_t3 v2186))
theorem k0_off438_inb : ∀ (k0_t3 : Fin k0_t3_loop.trips) (v2186 : BitVec 32) (k0_hw417 : k0_chk417 k0_t3 v2186), ∀ (k0_h4 : k0_cond4 k0_t3 = 1#1), ∀ a, (k0_off438 v2186) a + S1x1x32.size a ≤ S26x100001x32.size a := fun k0_t3 v2186 k0_hw417 k0_h4 => k0_hw417 k0_h4

def k0_off439 (v2196 : BitVec 32) : Fin 3 → Nat :=
  let c1_i32_1755 : BitVec 32 := 1#32
  let c0_i32_1760 : BitVec 32 := 0#32
  ![1, v2196.toNat, 0]

def k0_chk418 (k0_t3 : Fin k0_t3_loop.trips) (v2196 : BitVec 32) : Prop :=
  (∀ (k0_h4 : k0_cond4 k0_t3 = 1#1), ∀ a, (k0_off439 v2196) a + S1x1x32.size a ≤ S26x100001x32.size a)
instance k0_chk418.dec : ∀ (k0_t3 : Fin k0_t3_loop.trips) (v2196 : BitVec 32), Decidable (k0_chk418 k0_t3 v2196) := fun k0_t3 v2196 => decidable_of_iff' _ (Iff.of_eq (k0_chk418.eq_1 k0_t3 v2196))
theorem k0_off439_inb : ∀ (k0_t3 : Fin k0_t3_loop.trips) (v2196 : BitVec 32) (k0_hw418 : k0_chk418 k0_t3 v2196), ∀ (k0_h4 : k0_cond4 k0_t3 = 1#1), ∀ a, (k0_off439 v2196) a + S1x1x32.size a ≤ S26x100001x32.size a := fun k0_t3 v2196 k0_hw418 k0_h4 => k0_hw418 k0_h4

def k0_off440 (v2206 : BitVec 32) : Fin 3 → Nat :=
  let c2_i32_1763 : BitVec 32 := 2#32
  let c0_i32_1768 : BitVec 32 := 0#32
  ![2, v2206.toNat, 0]

def k0_chk419 (k0_t3 : Fin k0_t3_loop.trips) (v2206 : BitVec 32) : Prop :=
  (∀ (k0_h4 : k0_cond4 k0_t3 = 1#1), ∀ a, (k0_off440 v2206) a + S1x1x32.size a ≤ S26x100001x32.size a)
instance k0_chk419.dec : ∀ (k0_t3 : Fin k0_t3_loop.trips) (v2206 : BitVec 32), Decidable (k0_chk419 k0_t3 v2206) := fun k0_t3 v2206 => decidable_of_iff' _ (Iff.of_eq (k0_chk419.eq_1 k0_t3 v2206))
theorem k0_off440_inb : ∀ (k0_t3 : Fin k0_t3_loop.trips) (v2206 : BitVec 32) (k0_hw419 : k0_chk419 k0_t3 v2206), ∀ (k0_h4 : k0_cond4 k0_t3 = 1#1), ∀ a, (k0_off440 v2206) a + S1x1x32.size a ≤ S26x100001x32.size a := fun k0_t3 v2206 k0_hw419 k0_h4 => k0_hw419 k0_h4

def k0_off441 (v2216 : BitVec 32) : Fin 3 → Nat :=
  let c3_i32_1771 : BitVec 32 := 3#32
  let c0_i32_1776 : BitVec 32 := 0#32
  ![3, v2216.toNat, 0]

def k0_chk420 (k0_t3 : Fin k0_t3_loop.trips) (v2216 : BitVec 32) : Prop :=
  (∀ (k0_h4 : k0_cond4 k0_t3 = 1#1), ∀ a, (k0_off441 v2216) a + S1x1x32.size a ≤ S26x100001x32.size a)
instance k0_chk420.dec : ∀ (k0_t3 : Fin k0_t3_loop.trips) (v2216 : BitVec 32), Decidable (k0_chk420 k0_t3 v2216) := fun k0_t3 v2216 => decidable_of_iff' _ (Iff.of_eq (k0_chk420.eq_1 k0_t3 v2216))
theorem k0_off441_inb : ∀ (k0_t3 : Fin k0_t3_loop.trips) (v2216 : BitVec 32) (k0_hw420 : k0_chk420 k0_t3 v2216), ∀ (k0_h4 : k0_cond4 k0_t3 = 1#1), ∀ a, (k0_off441 v2216) a + S1x1x32.size a ≤ S26x100001x32.size a := fun k0_t3 v2216 k0_hw420 k0_h4 => k0_hw420 k0_h4

def k0_off442 (v2226 : BitVec 32) : Fin 3 → Nat :=
  let c4_i32_1779 : BitVec 32 := 4#32
  let c0_i32_1784 : BitVec 32 := 0#32
  ![4, v2226.toNat, 0]

def k0_chk421 (k0_t3 : Fin k0_t3_loop.trips) (v2226 : BitVec 32) : Prop :=
  (∀ (k0_h4 : k0_cond4 k0_t3 = 1#1), ∀ a, (k0_off442 v2226) a + S1x1x32.size a ≤ S26x100001x32.size a)
instance k0_chk421.dec : ∀ (k0_t3 : Fin k0_t3_loop.trips) (v2226 : BitVec 32), Decidable (k0_chk421 k0_t3 v2226) := fun k0_t3 v2226 => decidable_of_iff' _ (Iff.of_eq (k0_chk421.eq_1 k0_t3 v2226))
theorem k0_off442_inb : ∀ (k0_t3 : Fin k0_t3_loop.trips) (v2226 : BitVec 32) (k0_hw421 : k0_chk421 k0_t3 v2226), ∀ (k0_h4 : k0_cond4 k0_t3 = 1#1), ∀ a, (k0_off442 v2226) a + S1x1x32.size a ≤ S26x100001x32.size a := fun k0_t3 v2226 k0_hw421 k0_h4 => k0_hw421 k0_h4

def k0_off443 (v2236 : BitVec 32) : Fin 3 → Nat :=
  let c5_i32_1787 : BitVec 32 := 5#32
  let c0_i32_1792 : BitVec 32 := 0#32
  ![5, v2236.toNat, 0]

def k0_chk422 (k0_t3 : Fin k0_t3_loop.trips) (v2236 : BitVec 32) : Prop :=
  (∀ (k0_h4 : k0_cond4 k0_t3 = 1#1), ∀ a, (k0_off443 v2236) a + S1x1x32.size a ≤ S26x100001x32.size a)
instance k0_chk422.dec : ∀ (k0_t3 : Fin k0_t3_loop.trips) (v2236 : BitVec 32), Decidable (k0_chk422 k0_t3 v2236) := fun k0_t3 v2236 => decidable_of_iff' _ (Iff.of_eq (k0_chk422.eq_1 k0_t3 v2236))
theorem k0_off443_inb : ∀ (k0_t3 : Fin k0_t3_loop.trips) (v2236 : BitVec 32) (k0_hw422 : k0_chk422 k0_t3 v2236), ∀ (k0_h4 : k0_cond4 k0_t3 = 1#1), ∀ a, (k0_off443 v2236) a + S1x1x32.size a ≤ S26x100001x32.size a := fun k0_t3 v2236 k0_hw422 k0_h4 => k0_hw422 k0_h4

def k0_off444 (v2246 : BitVec 32) : Fin 3 → Nat :=
  let c6_i32_1795 : BitVec 32 := 6#32
  let c0_i32_1800 : BitVec 32 := 0#32
  ![6, v2246.toNat, 0]

def k0_chk423 (k0_t3 : Fin k0_t3_loop.trips) (v2246 : BitVec 32) : Prop :=
  (∀ (k0_h4 : k0_cond4 k0_t3 = 1#1), ∀ a, (k0_off444 v2246) a + S1x1x32.size a ≤ S26x100001x32.size a)
instance k0_chk423.dec : ∀ (k0_t3 : Fin k0_t3_loop.trips) (v2246 : BitVec 32), Decidable (k0_chk423 k0_t3 v2246) := fun k0_t3 v2246 => decidable_of_iff' _ (Iff.of_eq (k0_chk423.eq_1 k0_t3 v2246))
theorem k0_off444_inb : ∀ (k0_t3 : Fin k0_t3_loop.trips) (v2246 : BitVec 32) (k0_hw423 : k0_chk423 k0_t3 v2246), ∀ (k0_h4 : k0_cond4 k0_t3 = 1#1), ∀ a, (k0_off444 v2246) a + S1x1x32.size a ≤ S26x100001x32.size a := fun k0_t3 v2246 k0_hw423 k0_h4 => k0_hw423 k0_h4

def k0_off445 (v2256 : BitVec 32) : Fin 3 → Nat :=
  let c7_i32_1803 : BitVec 32 := 7#32
  let c0_i32_1808 : BitVec 32 := 0#32
  ![7, v2256.toNat, 0]

def k0_chk424 (k0_t3 : Fin k0_t3_loop.trips) (v2256 : BitVec 32) : Prop :=
  (∀ (k0_h4 : k0_cond4 k0_t3 = 1#1), ∀ a, (k0_off445 v2256) a + S1x1x32.size a ≤ S26x100001x32.size a)
instance k0_chk424.dec : ∀ (k0_t3 : Fin k0_t3_loop.trips) (v2256 : BitVec 32), Decidable (k0_chk424 k0_t3 v2256) := fun k0_t3 v2256 => decidable_of_iff' _ (Iff.of_eq (k0_chk424.eq_1 k0_t3 v2256))
theorem k0_off445_inb : ∀ (k0_t3 : Fin k0_t3_loop.trips) (v2256 : BitVec 32) (k0_hw424 : k0_chk424 k0_t3 v2256), ∀ (k0_h4 : k0_cond4 k0_t3 = 1#1), ∀ a, (k0_off445 v2256) a + S1x1x32.size a ≤ S26x100001x32.size a := fun k0_t3 v2256 k0_hw424 k0_h4 => k0_hw424 k0_h4

def k0_off446 (v2266 : BitVec 32) : Fin 3 → Nat :=
  let c8_i32_1811 : BitVec 32 := 8#32
  let c0_i32_1816 : BitVec 32 := 0#32
  ![8, v2266.toNat, 0]

def k0_chk425 (k0_t3 : Fin k0_t3_loop.trips) (v2266 : BitVec 32) : Prop :=
  (∀ (k0_h4 : k0_cond4 k0_t3 = 1#1), ∀ a, (k0_off446 v2266) a + S1x1x32.size a ≤ S26x100001x32.size a)
instance k0_chk425.dec : ∀ (k0_t3 : Fin k0_t3_loop.trips) (v2266 : BitVec 32), Decidable (k0_chk425 k0_t3 v2266) := fun k0_t3 v2266 => decidable_of_iff' _ (Iff.of_eq (k0_chk425.eq_1 k0_t3 v2266))
theorem k0_off446_inb : ∀ (k0_t3 : Fin k0_t3_loop.trips) (v2266 : BitVec 32) (k0_hw425 : k0_chk425 k0_t3 v2266), ∀ (k0_h4 : k0_cond4 k0_t3 = 1#1), ∀ a, (k0_off446 v2266) a + S1x1x32.size a ≤ S26x100001x32.size a := fun k0_t3 v2266 k0_hw425 k0_h4 => k0_hw425 k0_h4

def k0_off447 (v2276 : BitVec 32) : Fin 3 → Nat :=
  let c9_i32_1819 : BitVec 32 := 9#32
  let c0_i32_1824 : BitVec 32 := 0#32
  ![9, v2276.toNat, 0]

def k0_chk426 (k0_t3 : Fin k0_t3_loop.trips) (v2276 : BitVec 32) : Prop :=
  (∀ (k0_h4 : k0_cond4 k0_t3 = 1#1), ∀ a, (k0_off447 v2276) a + S1x1x32.size a ≤ S26x100001x32.size a)
instance k0_chk426.dec : ∀ (k0_t3 : Fin k0_t3_loop.trips) (v2276 : BitVec 32), Decidable (k0_chk426 k0_t3 v2276) := fun k0_t3 v2276 => decidable_of_iff' _ (Iff.of_eq (k0_chk426.eq_1 k0_t3 v2276))
theorem k0_off447_inb : ∀ (k0_t3 : Fin k0_t3_loop.trips) (v2276 : BitVec 32) (k0_hw426 : k0_chk426 k0_t3 v2276), ∀ (k0_h4 : k0_cond4 k0_t3 = 1#1), ∀ a, (k0_off447 v2276) a + S1x1x32.size a ≤ S26x100001x32.size a := fun k0_t3 v2276 k0_hw426 k0_h4 => k0_hw426 k0_h4

def k0_off448 (v2286 : BitVec 32) : Fin 3 → Nat :=
  let c10_i32_1827 : BitVec 32 := 10#32
  let c0_i32_1832 : BitVec 32 := 0#32
  ![10, v2286.toNat, 0]

def k0_chk427 (k0_t3 : Fin k0_t3_loop.trips) (v2286 : BitVec 32) : Prop :=
  (∀ (k0_h4 : k0_cond4 k0_t3 = 1#1), ∀ a, (k0_off448 v2286) a + S1x1x32.size a ≤ S26x100001x32.size a)
instance k0_chk427.dec : ∀ (k0_t3 : Fin k0_t3_loop.trips) (v2286 : BitVec 32), Decidable (k0_chk427 k0_t3 v2286) := fun k0_t3 v2286 => decidable_of_iff' _ (Iff.of_eq (k0_chk427.eq_1 k0_t3 v2286))
theorem k0_off448_inb : ∀ (k0_t3 : Fin k0_t3_loop.trips) (v2286 : BitVec 32) (k0_hw427 : k0_chk427 k0_t3 v2286), ∀ (k0_h4 : k0_cond4 k0_t3 = 1#1), ∀ a, (k0_off448 v2286) a + S1x1x32.size a ≤ S26x100001x32.size a := fun k0_t3 v2286 k0_hw427 k0_h4 => k0_hw427 k0_h4

def k0_off449 (v2296 : BitVec 32) : Fin 3 → Nat :=
  let c11_i32_1835 : BitVec 32 := 11#32
  let c0_i32_1840 : BitVec 32 := 0#32
  ![11, v2296.toNat, 0]

def k0_chk428 (k0_t3 : Fin k0_t3_loop.trips) (v2296 : BitVec 32) : Prop :=
  (∀ (k0_h4 : k0_cond4 k0_t3 = 1#1), ∀ a, (k0_off449 v2296) a + S1x1x32.size a ≤ S26x100001x32.size a)
instance k0_chk428.dec : ∀ (k0_t3 : Fin k0_t3_loop.trips) (v2296 : BitVec 32), Decidable (k0_chk428 k0_t3 v2296) := fun k0_t3 v2296 => decidable_of_iff' _ (Iff.of_eq (k0_chk428.eq_1 k0_t3 v2296))
theorem k0_off449_inb : ∀ (k0_t3 : Fin k0_t3_loop.trips) (v2296 : BitVec 32) (k0_hw428 : k0_chk428 k0_t3 v2296), ∀ (k0_h4 : k0_cond4 k0_t3 = 1#1), ∀ a, (k0_off449 v2296) a + S1x1x32.size a ≤ S26x100001x32.size a := fun k0_t3 v2296 k0_hw428 k0_h4 => k0_hw428 k0_h4

def k0_off450 (v2306 : BitVec 32) : Fin 3 → Nat :=
  let c12_i32_1843 : BitVec 32 := 12#32
  let c0_i32_1848 : BitVec 32 := 0#32
  ![12, v2306.toNat, 0]

def k0_chk429 (k0_t3 : Fin k0_t3_loop.trips) (v2306 : BitVec 32) : Prop :=
  (∀ (k0_h4 : k0_cond4 k0_t3 = 1#1), ∀ a, (k0_off450 v2306) a + S1x1x32.size a ≤ S26x100001x32.size a)
instance k0_chk429.dec : ∀ (k0_t3 : Fin k0_t3_loop.trips) (v2306 : BitVec 32), Decidable (k0_chk429 k0_t3 v2306) := fun k0_t3 v2306 => decidable_of_iff' _ (Iff.of_eq (k0_chk429.eq_1 k0_t3 v2306))
theorem k0_off450_inb : ∀ (k0_t3 : Fin k0_t3_loop.trips) (v2306 : BitVec 32) (k0_hw429 : k0_chk429 k0_t3 v2306), ∀ (k0_h4 : k0_cond4 k0_t3 = 1#1), ∀ a, (k0_off450 v2306) a + S1x1x32.size a ≤ S26x100001x32.size a := fun k0_t3 v2306 k0_hw429 k0_h4 => k0_hw429 k0_h4

def k0_off451 (v2316 : BitVec 32) : Fin 3 → Nat :=
  let c13_i32_1851 : BitVec 32 := 13#32
  let c0_i32_1856 : BitVec 32 := 0#32
  ![13, v2316.toNat, 0]

def k0_chk430 (k0_t3 : Fin k0_t3_loop.trips) (v2316 : BitVec 32) : Prop :=
  (∀ (k0_h4 : k0_cond4 k0_t3 = 1#1), ∀ a, (k0_off451 v2316) a + S1x1x32.size a ≤ S26x100001x32.size a)
instance k0_chk430.dec : ∀ (k0_t3 : Fin k0_t3_loop.trips) (v2316 : BitVec 32), Decidable (k0_chk430 k0_t3 v2316) := fun k0_t3 v2316 => decidable_of_iff' _ (Iff.of_eq (k0_chk430.eq_1 k0_t3 v2316))
theorem k0_off451_inb : ∀ (k0_t3 : Fin k0_t3_loop.trips) (v2316 : BitVec 32) (k0_hw430 : k0_chk430 k0_t3 v2316), ∀ (k0_h4 : k0_cond4 k0_t3 = 1#1), ∀ a, (k0_off451 v2316) a + S1x1x32.size a ≤ S26x100001x32.size a := fun k0_t3 v2316 k0_hw430 k0_h4 => k0_hw430 k0_h4

def k0_off452 (v2326 : BitVec 32) : Fin 3 → Nat :=
  let c14_i32_1859 : BitVec 32 := 14#32
  let c0_i32_1864 : BitVec 32 := 0#32
  ![14, v2326.toNat, 0]

def k0_chk431 (k0_t3 : Fin k0_t3_loop.trips) (v2326 : BitVec 32) : Prop :=
  (∀ (k0_h4 : k0_cond4 k0_t3 = 1#1), ∀ a, (k0_off452 v2326) a + S1x1x32.size a ≤ S26x100001x32.size a)
instance k0_chk431.dec : ∀ (k0_t3 : Fin k0_t3_loop.trips) (v2326 : BitVec 32), Decidable (k0_chk431 k0_t3 v2326) := fun k0_t3 v2326 => decidable_of_iff' _ (Iff.of_eq (k0_chk431.eq_1 k0_t3 v2326))
theorem k0_off452_inb : ∀ (k0_t3 : Fin k0_t3_loop.trips) (v2326 : BitVec 32) (k0_hw431 : k0_chk431 k0_t3 v2326), ∀ (k0_h4 : k0_cond4 k0_t3 = 1#1), ∀ a, (k0_off452 v2326) a + S1x1x32.size a ≤ S26x100001x32.size a := fun k0_t3 v2326 k0_hw431 k0_h4 => k0_hw431 k0_h4

def k0_off453 (v2336 : BitVec 32) : Fin 3 → Nat :=
  let c15_i32_1867 : BitVec 32 := 15#32
  let c0_i32_1872 : BitVec 32 := 0#32
  ![15, v2336.toNat, 0]

def k0_chk432 (k0_t3 : Fin k0_t3_loop.trips) (v2336 : BitVec 32) : Prop :=
  (∀ (k0_h4 : k0_cond4 k0_t3 = 1#1), ∀ a, (k0_off453 v2336) a + S1x1x32.size a ≤ S26x100001x32.size a)
instance k0_chk432.dec : ∀ (k0_t3 : Fin k0_t3_loop.trips) (v2336 : BitVec 32), Decidable (k0_chk432 k0_t3 v2336) := fun k0_t3 v2336 => decidable_of_iff' _ (Iff.of_eq (k0_chk432.eq_1 k0_t3 v2336))
theorem k0_off453_inb : ∀ (k0_t3 : Fin k0_t3_loop.trips) (v2336 : BitVec 32) (k0_hw432 : k0_chk432 k0_t3 v2336), ∀ (k0_h4 : k0_cond4 k0_t3 = 1#1), ∀ a, (k0_off453 v2336) a + S1x1x32.size a ≤ S26x100001x32.size a := fun k0_t3 v2336 k0_hw432 k0_h4 => k0_hw432 k0_h4

def k0_off454 (v2346 : BitVec 32) : Fin 3 → Nat :=
  let c16_i32_1875 : BitVec 32 := 16#32
  let c0_i32_1880 : BitVec 32 := 0#32
  ![16, v2346.toNat, 0]

def k0_chk433 (k0_t3 : Fin k0_t3_loop.trips) (v2346 : BitVec 32) : Prop :=
  (∀ (k0_h4 : k0_cond4 k0_t3 = 1#1), ∀ a, (k0_off454 v2346) a + S1x1x32.size a ≤ S26x100001x32.size a)
instance k0_chk433.dec : ∀ (k0_t3 : Fin k0_t3_loop.trips) (v2346 : BitVec 32), Decidable (k0_chk433 k0_t3 v2346) := fun k0_t3 v2346 => decidable_of_iff' _ (Iff.of_eq (k0_chk433.eq_1 k0_t3 v2346))
theorem k0_off454_inb : ∀ (k0_t3 : Fin k0_t3_loop.trips) (v2346 : BitVec 32) (k0_hw433 : k0_chk433 k0_t3 v2346), ∀ (k0_h4 : k0_cond4 k0_t3 = 1#1), ∀ a, (k0_off454 v2346) a + S1x1x32.size a ≤ S26x100001x32.size a := fun k0_t3 v2346 k0_hw433 k0_h4 => k0_hw433 k0_h4

def k0_off455 (v2356 : BitVec 32) : Fin 3 → Nat :=
  let c17_i32_1883 : BitVec 32 := 17#32
  let c0_i32_1888 : BitVec 32 := 0#32
  ![17, v2356.toNat, 0]

def k0_chk434 (k0_t3 : Fin k0_t3_loop.trips) (v2356 : BitVec 32) : Prop :=
  (∀ (k0_h4 : k0_cond4 k0_t3 = 1#1), ∀ a, (k0_off455 v2356) a + S1x1x32.size a ≤ S26x100001x32.size a)
instance k0_chk434.dec : ∀ (k0_t3 : Fin k0_t3_loop.trips) (v2356 : BitVec 32), Decidable (k0_chk434 k0_t3 v2356) := fun k0_t3 v2356 => decidable_of_iff' _ (Iff.of_eq (k0_chk434.eq_1 k0_t3 v2356))
theorem k0_off455_inb : ∀ (k0_t3 : Fin k0_t3_loop.trips) (v2356 : BitVec 32) (k0_hw434 : k0_chk434 k0_t3 v2356), ∀ (k0_h4 : k0_cond4 k0_t3 = 1#1), ∀ a, (k0_off455 v2356) a + S1x1x32.size a ≤ S26x100001x32.size a := fun k0_t3 v2356 k0_hw434 k0_h4 => k0_hw434 k0_h4

def k0_off456 (v2366 : BitVec 32) : Fin 3 → Nat :=
  let c18_i32_1891 : BitVec 32 := 18#32
  let c0_i32_1896 : BitVec 32 := 0#32
  ![18, v2366.toNat, 0]

def k0_chk435 (k0_t3 : Fin k0_t3_loop.trips) (v2366 : BitVec 32) : Prop :=
  (∀ (k0_h4 : k0_cond4 k0_t3 = 1#1), ∀ a, (k0_off456 v2366) a + S1x1x32.size a ≤ S26x100001x32.size a)
instance k0_chk435.dec : ∀ (k0_t3 : Fin k0_t3_loop.trips) (v2366 : BitVec 32), Decidable (k0_chk435 k0_t3 v2366) := fun k0_t3 v2366 => decidable_of_iff' _ (Iff.of_eq (k0_chk435.eq_1 k0_t3 v2366))
theorem k0_off456_inb : ∀ (k0_t3 : Fin k0_t3_loop.trips) (v2366 : BitVec 32) (k0_hw435 : k0_chk435 k0_t3 v2366), ∀ (k0_h4 : k0_cond4 k0_t3 = 1#1), ∀ a, (k0_off456 v2366) a + S1x1x32.size a ≤ S26x100001x32.size a := fun k0_t3 v2366 k0_hw435 k0_h4 => k0_hw435 k0_h4

def k0_off457 (v2376 : BitVec 32) : Fin 3 → Nat :=
  let c19_i32_1899 : BitVec 32 := 19#32
  let c0_i32_1904 : BitVec 32 := 0#32
  ![19, v2376.toNat, 0]

def k0_chk436 (k0_t3 : Fin k0_t3_loop.trips) (v2376 : BitVec 32) : Prop :=
  (∀ (k0_h4 : k0_cond4 k0_t3 = 1#1), ∀ a, (k0_off457 v2376) a + S1x1x32.size a ≤ S26x100001x32.size a)
instance k0_chk436.dec : ∀ (k0_t3 : Fin k0_t3_loop.trips) (v2376 : BitVec 32), Decidable (k0_chk436 k0_t3 v2376) := fun k0_t3 v2376 => decidable_of_iff' _ (Iff.of_eq (k0_chk436.eq_1 k0_t3 v2376))
theorem k0_off457_inb : ∀ (k0_t3 : Fin k0_t3_loop.trips) (v2376 : BitVec 32) (k0_hw436 : k0_chk436 k0_t3 v2376), ∀ (k0_h4 : k0_cond4 k0_t3 = 1#1), ∀ a, (k0_off457 v2376) a + S1x1x32.size a ≤ S26x100001x32.size a := fun k0_t3 v2376 k0_hw436 k0_h4 => k0_hw436 k0_h4

def k0_off458 (v2386 : BitVec 32) : Fin 3 → Nat :=
  let c20_i32_1907 : BitVec 32 := 20#32
  let c0_i32_1912 : BitVec 32 := 0#32
  ![20, v2386.toNat, 0]

def k0_chk437 (k0_t3 : Fin k0_t3_loop.trips) (v2386 : BitVec 32) : Prop :=
  (∀ (k0_h4 : k0_cond4 k0_t3 = 1#1), ∀ a, (k0_off458 v2386) a + S1x1x32.size a ≤ S26x100001x32.size a)
instance k0_chk437.dec : ∀ (k0_t3 : Fin k0_t3_loop.trips) (v2386 : BitVec 32), Decidable (k0_chk437 k0_t3 v2386) := fun k0_t3 v2386 => decidable_of_iff' _ (Iff.of_eq (k0_chk437.eq_1 k0_t3 v2386))
theorem k0_off458_inb : ∀ (k0_t3 : Fin k0_t3_loop.trips) (v2386 : BitVec 32) (k0_hw437 : k0_chk437 k0_t3 v2386), ∀ (k0_h4 : k0_cond4 k0_t3 = 1#1), ∀ a, (k0_off458 v2386) a + S1x1x32.size a ≤ S26x100001x32.size a := fun k0_t3 v2386 k0_hw437 k0_h4 => k0_hw437 k0_h4

def k0_off459 (v2396 : BitVec 32) : Fin 3 → Nat :=
  let c21_i32_1915 : BitVec 32 := 21#32
  let c0_i32_1920 : BitVec 32 := 0#32
  ![21, v2396.toNat, 0]

def k0_chk438 (k0_t3 : Fin k0_t3_loop.trips) (v2396 : BitVec 32) : Prop :=
  (∀ (k0_h4 : k0_cond4 k0_t3 = 1#1), ∀ a, (k0_off459 v2396) a + S1x1x32.size a ≤ S26x100001x32.size a)
instance k0_chk438.dec : ∀ (k0_t3 : Fin k0_t3_loop.trips) (v2396 : BitVec 32), Decidable (k0_chk438 k0_t3 v2396) := fun k0_t3 v2396 => decidable_of_iff' _ (Iff.of_eq (k0_chk438.eq_1 k0_t3 v2396))
theorem k0_off459_inb : ∀ (k0_t3 : Fin k0_t3_loop.trips) (v2396 : BitVec 32) (k0_hw438 : k0_chk438 k0_t3 v2396), ∀ (k0_h4 : k0_cond4 k0_t3 = 1#1), ∀ a, (k0_off459 v2396) a + S1x1x32.size a ≤ S26x100001x32.size a := fun k0_t3 v2396 k0_hw438 k0_h4 => k0_hw438 k0_h4

def k0_off460 (v2406 : BitVec 32) : Fin 3 → Nat :=
  let c22_i32_1923 : BitVec 32 := 22#32
  let c0_i32_1928 : BitVec 32 := 0#32
  ![22, v2406.toNat, 0]

def k0_chk439 (k0_t3 : Fin k0_t3_loop.trips) (v2406 : BitVec 32) : Prop :=
  (∀ (k0_h4 : k0_cond4 k0_t3 = 1#1), ∀ a, (k0_off460 v2406) a + S1x1x32.size a ≤ S26x100001x32.size a)
instance k0_chk439.dec : ∀ (k0_t3 : Fin k0_t3_loop.trips) (v2406 : BitVec 32), Decidable (k0_chk439 k0_t3 v2406) := fun k0_t3 v2406 => decidable_of_iff' _ (Iff.of_eq (k0_chk439.eq_1 k0_t3 v2406))
theorem k0_off460_inb : ∀ (k0_t3 : Fin k0_t3_loop.trips) (v2406 : BitVec 32) (k0_hw439 : k0_chk439 k0_t3 v2406), ∀ (k0_h4 : k0_cond4 k0_t3 = 1#1), ∀ a, (k0_off460 v2406) a + S1x1x32.size a ≤ S26x100001x32.size a := fun k0_t3 v2406 k0_hw439 k0_h4 => k0_hw439 k0_h4

def k0_off461 (v2416 : BitVec 32) : Fin 3 → Nat :=
  let c23_i32_1931 : BitVec 32 := 23#32
  let c0_i32_1936 : BitVec 32 := 0#32
  ![23, v2416.toNat, 0]

def k0_chk440 (k0_t3 : Fin k0_t3_loop.trips) (v2416 : BitVec 32) : Prop :=
  (∀ (k0_h4 : k0_cond4 k0_t3 = 1#1), ∀ a, (k0_off461 v2416) a + S1x1x32.size a ≤ S26x100001x32.size a)
instance k0_chk440.dec : ∀ (k0_t3 : Fin k0_t3_loop.trips) (v2416 : BitVec 32), Decidable (k0_chk440 k0_t3 v2416) := fun k0_t3 v2416 => decidable_of_iff' _ (Iff.of_eq (k0_chk440.eq_1 k0_t3 v2416))
theorem k0_off461_inb : ∀ (k0_t3 : Fin k0_t3_loop.trips) (v2416 : BitVec 32) (k0_hw440 : k0_chk440 k0_t3 v2416), ∀ (k0_h4 : k0_cond4 k0_t3 = 1#1), ∀ a, (k0_off461 v2416) a + S1x1x32.size a ≤ S26x100001x32.size a := fun k0_t3 v2416 k0_hw440 k0_h4 => k0_hw440 k0_h4

def k0_off462 (v2426 : BitVec 32) : Fin 3 → Nat :=
  let c24_i32_1939 : BitVec 32 := 24#32
  let c0_i32_1944 : BitVec 32 := 0#32
  ![24, v2426.toNat, 0]

def k0_chk441 (k0_t3 : Fin k0_t3_loop.trips) (v2426 : BitVec 32) : Prop :=
  (∀ (k0_h4 : k0_cond4 k0_t3 = 1#1), ∀ a, (k0_off462 v2426) a + S1x1x32.size a ≤ S26x100001x32.size a)
instance k0_chk441.dec : ∀ (k0_t3 : Fin k0_t3_loop.trips) (v2426 : BitVec 32), Decidable (k0_chk441 k0_t3 v2426) := fun k0_t3 v2426 => decidable_of_iff' _ (Iff.of_eq (k0_chk441.eq_1 k0_t3 v2426))
theorem k0_off462_inb : ∀ (k0_t3 : Fin k0_t3_loop.trips) (v2426 : BitVec 32) (k0_hw441 : k0_chk441 k0_t3 v2426), ∀ (k0_h4 : k0_cond4 k0_t3 = 1#1), ∀ a, (k0_off462 v2426) a + S1x1x32.size a ≤ S26x100001x32.size a := fun k0_t3 v2426 k0_hw441 k0_h4 => k0_hw441 k0_h4

def k0_off463 (v2436 : BitVec 32) : Fin 3 → Nat :=
  let c25_i32_1947 : BitVec 32 := 25#32
  let c0_i32_1952 : BitVec 32 := 0#32
  ![25, v2436.toNat, 0]

def k0_chk442 (k0_t3 : Fin k0_t3_loop.trips) (v2436 : BitVec 32) : Prop :=
  (∀ (k0_h4 : k0_cond4 k0_t3 = 1#1), ∀ a, (k0_off463 v2436) a + S1x1x32.size a ≤ S26x100001x32.size a)
instance k0_chk442.dec : ∀ (k0_t3 : Fin k0_t3_loop.trips) (v2436 : BitVec 32), Decidable (k0_chk442 k0_t3 v2436) := fun k0_t3 v2436 => decidable_of_iff' _ (Iff.of_eq (k0_chk442.eq_1 k0_t3 v2436))
theorem k0_off463_inb : ∀ (k0_t3 : Fin k0_t3_loop.trips) (v2436 : BitVec 32) (k0_hw442 : k0_chk442 k0_t3 v2436), ∀ (k0_h4 : k0_cond4 k0_t3 = 1#1), ∀ a, (k0_off463 v2436) a + S1x1x32.size a ≤ S26x100001x32.size a := fun k0_t3 v2436 k0_hw442 k0_h4 => k0_hw442 k0_h4

def k0_off464 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c1_i32_1955 : BitVec 32 := 1#32
  let v2445 : BitVec 32 := Scalar.addi v2176 c1_i32_1955
  let v2446 : Index := Scalar.indexCast v2445
  let c0_1956 : Index := 0#32
  ![v2446.toNat, 0]
def k0_off465 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c1_i32_1957 : BitVec 32 := 1#32
  let v2449 : BitVec 32 := Scalar.addi v2176 c1_i32_1957
  let v2450 : Index := Scalar.indexCast v2449
  let c16_1958 : Index := 16#32
  ![v2450.toNat, 16]
def k0_off466 (v2454 : BitVec 32) : Fin 3 → Nat :=
  let c0_i32_1959 : BitVec 32 := 0#32
  let c0_i32_1964 : BitVec 32 := 0#32
  ![0, v2454.toNat, 0]

def k0_chk443 (k0_t3 : Fin k0_t3_loop.trips) (v2454 : BitVec 32) : Prop :=
  (∀ (k0_h4 : k0_cond4 k0_t3 = 1#1), ∀ a, (k0_off466 v2454) a + S1x1x32.size a ≤ S26x100001x32.size a)
instance k0_chk443.dec : ∀ (k0_t3 : Fin k0_t3_loop.trips) (v2454 : BitVec 32), Decidable (k0_chk443 k0_t3 v2454) := fun k0_t3 v2454 => decidable_of_iff' _ (Iff.of_eq (k0_chk443.eq_1 k0_t3 v2454))
theorem k0_off466_inb : ∀ (k0_t3 : Fin k0_t3_loop.trips) (v2454 : BitVec 32) (k0_hw443 : k0_chk443 k0_t3 v2454), ∀ (k0_h4 : k0_cond4 k0_t3 = 1#1), ∀ a, (k0_off466 v2454) a + S1x1x32.size a ≤ S26x100001x32.size a := fun k0_t3 v2454 k0_hw443 k0_h4 => k0_hw443 k0_h4

def k0_off467 (v2464 : BitVec 32) : Fin 3 → Nat :=
  let c1_i32_1967 : BitVec 32 := 1#32
  let c0_i32_1972 : BitVec 32 := 0#32
  ![1, v2464.toNat, 0]

def k0_chk444 (k0_t3 : Fin k0_t3_loop.trips) (v2464 : BitVec 32) : Prop :=
  (∀ (k0_h4 : k0_cond4 k0_t3 = 1#1), ∀ a, (k0_off467 v2464) a + S1x1x32.size a ≤ S26x100001x32.size a)
instance k0_chk444.dec : ∀ (k0_t3 : Fin k0_t3_loop.trips) (v2464 : BitVec 32), Decidable (k0_chk444 k0_t3 v2464) := fun k0_t3 v2464 => decidable_of_iff' _ (Iff.of_eq (k0_chk444.eq_1 k0_t3 v2464))
theorem k0_off467_inb : ∀ (k0_t3 : Fin k0_t3_loop.trips) (v2464 : BitVec 32) (k0_hw444 : k0_chk444 k0_t3 v2464), ∀ (k0_h4 : k0_cond4 k0_t3 = 1#1), ∀ a, (k0_off467 v2464) a + S1x1x32.size a ≤ S26x100001x32.size a := fun k0_t3 v2464 k0_hw444 k0_h4 => k0_hw444 k0_h4

def k0_off468 (v2474 : BitVec 32) : Fin 3 → Nat :=
  let c2_i32_1975 : BitVec 32 := 2#32
  let c0_i32_1980 : BitVec 32 := 0#32
  ![2, v2474.toNat, 0]

def k0_chk445 (k0_t3 : Fin k0_t3_loop.trips) (v2474 : BitVec 32) : Prop :=
  (∀ (k0_h4 : k0_cond4 k0_t3 = 1#1), ∀ a, (k0_off468 v2474) a + S1x1x32.size a ≤ S26x100001x32.size a)
instance k0_chk445.dec : ∀ (k0_t3 : Fin k0_t3_loop.trips) (v2474 : BitVec 32), Decidable (k0_chk445 k0_t3 v2474) := fun k0_t3 v2474 => decidable_of_iff' _ (Iff.of_eq (k0_chk445.eq_1 k0_t3 v2474))
theorem k0_off468_inb : ∀ (k0_t3 : Fin k0_t3_loop.trips) (v2474 : BitVec 32) (k0_hw445 : k0_chk445 k0_t3 v2474), ∀ (k0_h4 : k0_cond4 k0_t3 = 1#1), ∀ a, (k0_off468 v2474) a + S1x1x32.size a ≤ S26x100001x32.size a := fun k0_t3 v2474 k0_hw445 k0_h4 => k0_hw445 k0_h4

def k0_off469 (v2484 : BitVec 32) : Fin 3 → Nat :=
  let c3_i32_1983 : BitVec 32 := 3#32
  let c0_i32_1988 : BitVec 32 := 0#32
  ![3, v2484.toNat, 0]

def k0_chk446 (k0_t3 : Fin k0_t3_loop.trips) (v2484 : BitVec 32) : Prop :=
  (∀ (k0_h4 : k0_cond4 k0_t3 = 1#1), ∀ a, (k0_off469 v2484) a + S1x1x32.size a ≤ S26x100001x32.size a)
instance k0_chk446.dec : ∀ (k0_t3 : Fin k0_t3_loop.trips) (v2484 : BitVec 32), Decidable (k0_chk446 k0_t3 v2484) := fun k0_t3 v2484 => decidable_of_iff' _ (Iff.of_eq (k0_chk446.eq_1 k0_t3 v2484))
theorem k0_off469_inb : ∀ (k0_t3 : Fin k0_t3_loop.trips) (v2484 : BitVec 32) (k0_hw446 : k0_chk446 k0_t3 v2484), ∀ (k0_h4 : k0_cond4 k0_t3 = 1#1), ∀ a, (k0_off469 v2484) a + S1x1x32.size a ≤ S26x100001x32.size a := fun k0_t3 v2484 k0_hw446 k0_h4 => k0_hw446 k0_h4

def k0_off470 (v2494 : BitVec 32) : Fin 3 → Nat :=
  let c4_i32_1991 : BitVec 32 := 4#32
  let c0_i32_1996 : BitVec 32 := 0#32
  ![4, v2494.toNat, 0]

def k0_chk447 (k0_t3 : Fin k0_t3_loop.trips) (v2494 : BitVec 32) : Prop :=
  (∀ (k0_h4 : k0_cond4 k0_t3 = 1#1), ∀ a, (k0_off470 v2494) a + S1x1x32.size a ≤ S26x100001x32.size a)
instance k0_chk447.dec : ∀ (k0_t3 : Fin k0_t3_loop.trips) (v2494 : BitVec 32), Decidable (k0_chk447 k0_t3 v2494) := fun k0_t3 v2494 => decidable_of_iff' _ (Iff.of_eq (k0_chk447.eq_1 k0_t3 v2494))
theorem k0_off470_inb : ∀ (k0_t3 : Fin k0_t3_loop.trips) (v2494 : BitVec 32) (k0_hw447 : k0_chk447 k0_t3 v2494), ∀ (k0_h4 : k0_cond4 k0_t3 = 1#1), ∀ a, (k0_off470 v2494) a + S1x1x32.size a ≤ S26x100001x32.size a := fun k0_t3 v2494 k0_hw447 k0_h4 => k0_hw447 k0_h4

def k0_off471 (v2504 : BitVec 32) : Fin 3 → Nat :=
  let c5_i32_1999 : BitVec 32 := 5#32
  let c0_i32_2004 : BitVec 32 := 0#32
  ![5, v2504.toNat, 0]

def k0_chk448 (k0_t3 : Fin k0_t3_loop.trips) (v2504 : BitVec 32) : Prop :=
  (∀ (k0_h4 : k0_cond4 k0_t3 = 1#1), ∀ a, (k0_off471 v2504) a + S1x1x32.size a ≤ S26x100001x32.size a)
instance k0_chk448.dec : ∀ (k0_t3 : Fin k0_t3_loop.trips) (v2504 : BitVec 32), Decidable (k0_chk448 k0_t3 v2504) := fun k0_t3 v2504 => decidable_of_iff' _ (Iff.of_eq (k0_chk448.eq_1 k0_t3 v2504))
theorem k0_off471_inb : ∀ (k0_t3 : Fin k0_t3_loop.trips) (v2504 : BitVec 32) (k0_hw448 : k0_chk448 k0_t3 v2504), ∀ (k0_h4 : k0_cond4 k0_t3 = 1#1), ∀ a, (k0_off471 v2504) a + S1x1x32.size a ≤ S26x100001x32.size a := fun k0_t3 v2504 k0_hw448 k0_h4 => k0_hw448 k0_h4

def k0_off472 (v2514 : BitVec 32) : Fin 3 → Nat :=
  let c6_i32_2007 : BitVec 32 := 6#32
  let c0_i32_2012 : BitVec 32 := 0#32
  ![6, v2514.toNat, 0]

def k0_chk449 (k0_t3 : Fin k0_t3_loop.trips) (v2514 : BitVec 32) : Prop :=
  (∀ (k0_h4 : k0_cond4 k0_t3 = 1#1), ∀ a, (k0_off472 v2514) a + S1x1x32.size a ≤ S26x100001x32.size a)
instance k0_chk449.dec : ∀ (k0_t3 : Fin k0_t3_loop.trips) (v2514 : BitVec 32), Decidable (k0_chk449 k0_t3 v2514) := fun k0_t3 v2514 => decidable_of_iff' _ (Iff.of_eq (k0_chk449.eq_1 k0_t3 v2514))
theorem k0_off472_inb : ∀ (k0_t3 : Fin k0_t3_loop.trips) (v2514 : BitVec 32) (k0_hw449 : k0_chk449 k0_t3 v2514), ∀ (k0_h4 : k0_cond4 k0_t3 = 1#1), ∀ a, (k0_off472 v2514) a + S1x1x32.size a ≤ S26x100001x32.size a := fun k0_t3 v2514 k0_hw449 k0_h4 => k0_hw449 k0_h4

def k0_off473 (v2524 : BitVec 32) : Fin 3 → Nat :=
  let c7_i32_2015 : BitVec 32 := 7#32
  let c0_i32_2020 : BitVec 32 := 0#32
  ![7, v2524.toNat, 0]

def k0_chk450 (k0_t3 : Fin k0_t3_loop.trips) (v2524 : BitVec 32) : Prop :=
  (∀ (k0_h4 : k0_cond4 k0_t3 = 1#1), ∀ a, (k0_off473 v2524) a + S1x1x32.size a ≤ S26x100001x32.size a)
instance k0_chk450.dec : ∀ (k0_t3 : Fin k0_t3_loop.trips) (v2524 : BitVec 32), Decidable (k0_chk450 k0_t3 v2524) := fun k0_t3 v2524 => decidable_of_iff' _ (Iff.of_eq (k0_chk450.eq_1 k0_t3 v2524))
theorem k0_off473_inb : ∀ (k0_t3 : Fin k0_t3_loop.trips) (v2524 : BitVec 32) (k0_hw450 : k0_chk450 k0_t3 v2524), ∀ (k0_h4 : k0_cond4 k0_t3 = 1#1), ∀ a, (k0_off473 v2524) a + S1x1x32.size a ≤ S26x100001x32.size a := fun k0_t3 v2524 k0_hw450 k0_h4 => k0_hw450 k0_h4

def k0_off474 (v2534 : BitVec 32) : Fin 3 → Nat :=
  let c8_i32_2023 : BitVec 32 := 8#32
  let c0_i32_2028 : BitVec 32 := 0#32
  ![8, v2534.toNat, 0]

def k0_chk451 (k0_t3 : Fin k0_t3_loop.trips) (v2534 : BitVec 32) : Prop :=
  (∀ (k0_h4 : k0_cond4 k0_t3 = 1#1), ∀ a, (k0_off474 v2534) a + S1x1x32.size a ≤ S26x100001x32.size a)
instance k0_chk451.dec : ∀ (k0_t3 : Fin k0_t3_loop.trips) (v2534 : BitVec 32), Decidable (k0_chk451 k0_t3 v2534) := fun k0_t3 v2534 => decidable_of_iff' _ (Iff.of_eq (k0_chk451.eq_1 k0_t3 v2534))
theorem k0_off474_inb : ∀ (k0_t3 : Fin k0_t3_loop.trips) (v2534 : BitVec 32) (k0_hw451 : k0_chk451 k0_t3 v2534), ∀ (k0_h4 : k0_cond4 k0_t3 = 1#1), ∀ a, (k0_off474 v2534) a + S1x1x32.size a ≤ S26x100001x32.size a := fun k0_t3 v2534 k0_hw451 k0_h4 => k0_hw451 k0_h4

def k0_off475 (v2544 : BitVec 32) : Fin 3 → Nat :=
  let c9_i32_2031 : BitVec 32 := 9#32
  let c0_i32_2036 : BitVec 32 := 0#32
  ![9, v2544.toNat, 0]

def k0_chk452 (k0_t3 : Fin k0_t3_loop.trips) (v2544 : BitVec 32) : Prop :=
  (∀ (k0_h4 : k0_cond4 k0_t3 = 1#1), ∀ a, (k0_off475 v2544) a + S1x1x32.size a ≤ S26x100001x32.size a)
instance k0_chk452.dec : ∀ (k0_t3 : Fin k0_t3_loop.trips) (v2544 : BitVec 32), Decidable (k0_chk452 k0_t3 v2544) := fun k0_t3 v2544 => decidable_of_iff' _ (Iff.of_eq (k0_chk452.eq_1 k0_t3 v2544))
theorem k0_off475_inb : ∀ (k0_t3 : Fin k0_t3_loop.trips) (v2544 : BitVec 32) (k0_hw452 : k0_chk452 k0_t3 v2544), ∀ (k0_h4 : k0_cond4 k0_t3 = 1#1), ∀ a, (k0_off475 v2544) a + S1x1x32.size a ≤ S26x100001x32.size a := fun k0_t3 v2544 k0_hw452 k0_h4 => k0_hw452 k0_h4

def k0_off476 (v2554 : BitVec 32) : Fin 3 → Nat :=
  let c10_i32_2039 : BitVec 32 := 10#32
  let c0_i32_2044 : BitVec 32 := 0#32
  ![10, v2554.toNat, 0]

def k0_chk453 (k0_t3 : Fin k0_t3_loop.trips) (v2554 : BitVec 32) : Prop :=
  (∀ (k0_h4 : k0_cond4 k0_t3 = 1#1), ∀ a, (k0_off476 v2554) a + S1x1x32.size a ≤ S26x100001x32.size a)
instance k0_chk453.dec : ∀ (k0_t3 : Fin k0_t3_loop.trips) (v2554 : BitVec 32), Decidable (k0_chk453 k0_t3 v2554) := fun k0_t3 v2554 => decidable_of_iff' _ (Iff.of_eq (k0_chk453.eq_1 k0_t3 v2554))
theorem k0_off476_inb : ∀ (k0_t3 : Fin k0_t3_loop.trips) (v2554 : BitVec 32) (k0_hw453 : k0_chk453 k0_t3 v2554), ∀ (k0_h4 : k0_cond4 k0_t3 = 1#1), ∀ a, (k0_off476 v2554) a + S1x1x32.size a ≤ S26x100001x32.size a := fun k0_t3 v2554 k0_hw453 k0_h4 => k0_hw453 k0_h4

def k0_off477 (v2564 : BitVec 32) : Fin 3 → Nat :=
  let c11_i32_2047 : BitVec 32 := 11#32
  let c0_i32_2052 : BitVec 32 := 0#32
  ![11, v2564.toNat, 0]

def k0_chk454 (k0_t3 : Fin k0_t3_loop.trips) (v2564 : BitVec 32) : Prop :=
  (∀ (k0_h4 : k0_cond4 k0_t3 = 1#1), ∀ a, (k0_off477 v2564) a + S1x1x32.size a ≤ S26x100001x32.size a)
instance k0_chk454.dec : ∀ (k0_t3 : Fin k0_t3_loop.trips) (v2564 : BitVec 32), Decidable (k0_chk454 k0_t3 v2564) := fun k0_t3 v2564 => decidable_of_iff' _ (Iff.of_eq (k0_chk454.eq_1 k0_t3 v2564))
theorem k0_off477_inb : ∀ (k0_t3 : Fin k0_t3_loop.trips) (v2564 : BitVec 32) (k0_hw454 : k0_chk454 k0_t3 v2564), ∀ (k0_h4 : k0_cond4 k0_t3 = 1#1), ∀ a, (k0_off477 v2564) a + S1x1x32.size a ≤ S26x100001x32.size a := fun k0_t3 v2564 k0_hw454 k0_h4 => k0_hw454 k0_h4

def k0_off478 (v2574 : BitVec 32) : Fin 3 → Nat :=
  let c12_i32_2055 : BitVec 32 := 12#32
  let c0_i32_2060 : BitVec 32 := 0#32
  ![12, v2574.toNat, 0]

def k0_chk455 (k0_t3 : Fin k0_t3_loop.trips) (v2574 : BitVec 32) : Prop :=
  (∀ (k0_h4 : k0_cond4 k0_t3 = 1#1), ∀ a, (k0_off478 v2574) a + S1x1x32.size a ≤ S26x100001x32.size a)
instance k0_chk455.dec : ∀ (k0_t3 : Fin k0_t3_loop.trips) (v2574 : BitVec 32), Decidable (k0_chk455 k0_t3 v2574) := fun k0_t3 v2574 => decidable_of_iff' _ (Iff.of_eq (k0_chk455.eq_1 k0_t3 v2574))
theorem k0_off478_inb : ∀ (k0_t3 : Fin k0_t3_loop.trips) (v2574 : BitVec 32) (k0_hw455 : k0_chk455 k0_t3 v2574), ∀ (k0_h4 : k0_cond4 k0_t3 = 1#1), ∀ a, (k0_off478 v2574) a + S1x1x32.size a ≤ S26x100001x32.size a := fun k0_t3 v2574 k0_hw455 k0_h4 => k0_hw455 k0_h4

def k0_off479 (v2584 : BitVec 32) : Fin 3 → Nat :=
  let c13_i32_2063 : BitVec 32 := 13#32
  let c0_i32_2068 : BitVec 32 := 0#32
  ![13, v2584.toNat, 0]

def k0_chk456 (k0_t3 : Fin k0_t3_loop.trips) (v2584 : BitVec 32) : Prop :=
  (∀ (k0_h4 : k0_cond4 k0_t3 = 1#1), ∀ a, (k0_off479 v2584) a + S1x1x32.size a ≤ S26x100001x32.size a)
instance k0_chk456.dec : ∀ (k0_t3 : Fin k0_t3_loop.trips) (v2584 : BitVec 32), Decidable (k0_chk456 k0_t3 v2584) := fun k0_t3 v2584 => decidable_of_iff' _ (Iff.of_eq (k0_chk456.eq_1 k0_t3 v2584))
theorem k0_off479_inb : ∀ (k0_t3 : Fin k0_t3_loop.trips) (v2584 : BitVec 32) (k0_hw456 : k0_chk456 k0_t3 v2584), ∀ (k0_h4 : k0_cond4 k0_t3 = 1#1), ∀ a, (k0_off479 v2584) a + S1x1x32.size a ≤ S26x100001x32.size a := fun k0_t3 v2584 k0_hw456 k0_h4 => k0_hw456 k0_h4

def k0_off480 (v2594 : BitVec 32) : Fin 3 → Nat :=
  let c14_i32_2071 : BitVec 32 := 14#32
  let c0_i32_2076 : BitVec 32 := 0#32
  ![14, v2594.toNat, 0]

def k0_chk457 (k0_t3 : Fin k0_t3_loop.trips) (v2594 : BitVec 32) : Prop :=
  (∀ (k0_h4 : k0_cond4 k0_t3 = 1#1), ∀ a, (k0_off480 v2594) a + S1x1x32.size a ≤ S26x100001x32.size a)
instance k0_chk457.dec : ∀ (k0_t3 : Fin k0_t3_loop.trips) (v2594 : BitVec 32), Decidable (k0_chk457 k0_t3 v2594) := fun k0_t3 v2594 => decidable_of_iff' _ (Iff.of_eq (k0_chk457.eq_1 k0_t3 v2594))
theorem k0_off480_inb : ∀ (k0_t3 : Fin k0_t3_loop.trips) (v2594 : BitVec 32) (k0_hw457 : k0_chk457 k0_t3 v2594), ∀ (k0_h4 : k0_cond4 k0_t3 = 1#1), ∀ a, (k0_off480 v2594) a + S1x1x32.size a ≤ S26x100001x32.size a := fun k0_t3 v2594 k0_hw457 k0_h4 => k0_hw457 k0_h4

def k0_off481 (v2604 : BitVec 32) : Fin 3 → Nat :=
  let c15_i32_2079 : BitVec 32 := 15#32
  let c0_i32_2084 : BitVec 32 := 0#32
  ![15, v2604.toNat, 0]

def k0_chk458 (k0_t3 : Fin k0_t3_loop.trips) (v2604 : BitVec 32) : Prop :=
  (∀ (k0_h4 : k0_cond4 k0_t3 = 1#1), ∀ a, (k0_off481 v2604) a + S1x1x32.size a ≤ S26x100001x32.size a)
instance k0_chk458.dec : ∀ (k0_t3 : Fin k0_t3_loop.trips) (v2604 : BitVec 32), Decidable (k0_chk458 k0_t3 v2604) := fun k0_t3 v2604 => decidable_of_iff' _ (Iff.of_eq (k0_chk458.eq_1 k0_t3 v2604))
theorem k0_off481_inb : ∀ (k0_t3 : Fin k0_t3_loop.trips) (v2604 : BitVec 32) (k0_hw458 : k0_chk458 k0_t3 v2604), ∀ (k0_h4 : k0_cond4 k0_t3 = 1#1), ∀ a, (k0_off481 v2604) a + S1x1x32.size a ≤ S26x100001x32.size a := fun k0_t3 v2604 k0_hw458 k0_h4 => k0_hw458 k0_h4

def k0_off482 (v2614 : BitVec 32) : Fin 3 → Nat :=
  let c16_i32_2087 : BitVec 32 := 16#32
  let c0_i32_2092 : BitVec 32 := 0#32
  ![16, v2614.toNat, 0]

def k0_chk459 (k0_t3 : Fin k0_t3_loop.trips) (v2614 : BitVec 32) : Prop :=
  (∀ (k0_h4 : k0_cond4 k0_t3 = 1#1), ∀ a, (k0_off482 v2614) a + S1x1x32.size a ≤ S26x100001x32.size a)
instance k0_chk459.dec : ∀ (k0_t3 : Fin k0_t3_loop.trips) (v2614 : BitVec 32), Decidable (k0_chk459 k0_t3 v2614) := fun k0_t3 v2614 => decidable_of_iff' _ (Iff.of_eq (k0_chk459.eq_1 k0_t3 v2614))
theorem k0_off482_inb : ∀ (k0_t3 : Fin k0_t3_loop.trips) (v2614 : BitVec 32) (k0_hw459 : k0_chk459 k0_t3 v2614), ∀ (k0_h4 : k0_cond4 k0_t3 = 1#1), ∀ a, (k0_off482 v2614) a + S1x1x32.size a ≤ S26x100001x32.size a := fun k0_t3 v2614 k0_hw459 k0_h4 => k0_hw459 k0_h4

def k0_off483 (v2624 : BitVec 32) : Fin 3 → Nat :=
  let c17_i32_2095 : BitVec 32 := 17#32
  let c0_i32_2100 : BitVec 32 := 0#32
  ![17, v2624.toNat, 0]

def k0_chk460 (k0_t3 : Fin k0_t3_loop.trips) (v2624 : BitVec 32) : Prop :=
  (∀ (k0_h4 : k0_cond4 k0_t3 = 1#1), ∀ a, (k0_off483 v2624) a + S1x1x32.size a ≤ S26x100001x32.size a)
instance k0_chk460.dec : ∀ (k0_t3 : Fin k0_t3_loop.trips) (v2624 : BitVec 32), Decidable (k0_chk460 k0_t3 v2624) := fun k0_t3 v2624 => decidable_of_iff' _ (Iff.of_eq (k0_chk460.eq_1 k0_t3 v2624))
theorem k0_off483_inb : ∀ (k0_t3 : Fin k0_t3_loop.trips) (v2624 : BitVec 32) (k0_hw460 : k0_chk460 k0_t3 v2624), ∀ (k0_h4 : k0_cond4 k0_t3 = 1#1), ∀ a, (k0_off483 v2624) a + S1x1x32.size a ≤ S26x100001x32.size a := fun k0_t3 v2624 k0_hw460 k0_h4 => k0_hw460 k0_h4

def k0_off484 (v2634 : BitVec 32) : Fin 3 → Nat :=
  let c18_i32_2103 : BitVec 32 := 18#32
  let c0_i32_2108 : BitVec 32 := 0#32
  ![18, v2634.toNat, 0]

def k0_chk461 (k0_t3 : Fin k0_t3_loop.trips) (v2634 : BitVec 32) : Prop :=
  (∀ (k0_h4 : k0_cond4 k0_t3 = 1#1), ∀ a, (k0_off484 v2634) a + S1x1x32.size a ≤ S26x100001x32.size a)
instance k0_chk461.dec : ∀ (k0_t3 : Fin k0_t3_loop.trips) (v2634 : BitVec 32), Decidable (k0_chk461 k0_t3 v2634) := fun k0_t3 v2634 => decidable_of_iff' _ (Iff.of_eq (k0_chk461.eq_1 k0_t3 v2634))
theorem k0_off484_inb : ∀ (k0_t3 : Fin k0_t3_loop.trips) (v2634 : BitVec 32) (k0_hw461 : k0_chk461 k0_t3 v2634), ∀ (k0_h4 : k0_cond4 k0_t3 = 1#1), ∀ a, (k0_off484 v2634) a + S1x1x32.size a ≤ S26x100001x32.size a := fun k0_t3 v2634 k0_hw461 k0_h4 => k0_hw461 k0_h4

def k0_off485 (v2644 : BitVec 32) : Fin 3 → Nat :=
  let c19_i32_2111 : BitVec 32 := 19#32
  let c0_i32_2116 : BitVec 32 := 0#32
  ![19, v2644.toNat, 0]

def k0_chk462 (k0_t3 : Fin k0_t3_loop.trips) (v2644 : BitVec 32) : Prop :=
  (∀ (k0_h4 : k0_cond4 k0_t3 = 1#1), ∀ a, (k0_off485 v2644) a + S1x1x32.size a ≤ S26x100001x32.size a)
instance k0_chk462.dec : ∀ (k0_t3 : Fin k0_t3_loop.trips) (v2644 : BitVec 32), Decidable (k0_chk462 k0_t3 v2644) := fun k0_t3 v2644 => decidable_of_iff' _ (Iff.of_eq (k0_chk462.eq_1 k0_t3 v2644))
theorem k0_off485_inb : ∀ (k0_t3 : Fin k0_t3_loop.trips) (v2644 : BitVec 32) (k0_hw462 : k0_chk462 k0_t3 v2644), ∀ (k0_h4 : k0_cond4 k0_t3 = 1#1), ∀ a, (k0_off485 v2644) a + S1x1x32.size a ≤ S26x100001x32.size a := fun k0_t3 v2644 k0_hw462 k0_h4 => k0_hw462 k0_h4

def k0_off486 (v2654 : BitVec 32) : Fin 3 → Nat :=
  let c20_i32_2119 : BitVec 32 := 20#32
  let c0_i32_2124 : BitVec 32 := 0#32
  ![20, v2654.toNat, 0]

def k0_chk463 (k0_t3 : Fin k0_t3_loop.trips) (v2654 : BitVec 32) : Prop :=
  (∀ (k0_h4 : k0_cond4 k0_t3 = 1#1), ∀ a, (k0_off486 v2654) a + S1x1x32.size a ≤ S26x100001x32.size a)
instance k0_chk463.dec : ∀ (k0_t3 : Fin k0_t3_loop.trips) (v2654 : BitVec 32), Decidable (k0_chk463 k0_t3 v2654) := fun k0_t3 v2654 => decidable_of_iff' _ (Iff.of_eq (k0_chk463.eq_1 k0_t3 v2654))
theorem k0_off486_inb : ∀ (k0_t3 : Fin k0_t3_loop.trips) (v2654 : BitVec 32) (k0_hw463 : k0_chk463 k0_t3 v2654), ∀ (k0_h4 : k0_cond4 k0_t3 = 1#1), ∀ a, (k0_off486 v2654) a + S1x1x32.size a ≤ S26x100001x32.size a := fun k0_t3 v2654 k0_hw463 k0_h4 => k0_hw463 k0_h4

def k0_off487 (v2664 : BitVec 32) : Fin 3 → Nat :=
  let c21_i32_2127 : BitVec 32 := 21#32
  let c0_i32_2132 : BitVec 32 := 0#32
  ![21, v2664.toNat, 0]

def k0_chk464 (k0_t3 : Fin k0_t3_loop.trips) (v2664 : BitVec 32) : Prop :=
  (∀ (k0_h4 : k0_cond4 k0_t3 = 1#1), ∀ a, (k0_off487 v2664) a + S1x1x32.size a ≤ S26x100001x32.size a)
instance k0_chk464.dec : ∀ (k0_t3 : Fin k0_t3_loop.trips) (v2664 : BitVec 32), Decidable (k0_chk464 k0_t3 v2664) := fun k0_t3 v2664 => decidable_of_iff' _ (Iff.of_eq (k0_chk464.eq_1 k0_t3 v2664))
theorem k0_off487_inb : ∀ (k0_t3 : Fin k0_t3_loop.trips) (v2664 : BitVec 32) (k0_hw464 : k0_chk464 k0_t3 v2664), ∀ (k0_h4 : k0_cond4 k0_t3 = 1#1), ∀ a, (k0_off487 v2664) a + S1x1x32.size a ≤ S26x100001x32.size a := fun k0_t3 v2664 k0_hw464 k0_h4 => k0_hw464 k0_h4

def k0_off488 (v2674 : BitVec 32) : Fin 3 → Nat :=
  let c22_i32_2135 : BitVec 32 := 22#32
  let c0_i32_2140 : BitVec 32 := 0#32
  ![22, v2674.toNat, 0]

def k0_chk465 (k0_t3 : Fin k0_t3_loop.trips) (v2674 : BitVec 32) : Prop :=
  (∀ (k0_h4 : k0_cond4 k0_t3 = 1#1), ∀ a, (k0_off488 v2674) a + S1x1x32.size a ≤ S26x100001x32.size a)
instance k0_chk465.dec : ∀ (k0_t3 : Fin k0_t3_loop.trips) (v2674 : BitVec 32), Decidable (k0_chk465 k0_t3 v2674) := fun k0_t3 v2674 => decidable_of_iff' _ (Iff.of_eq (k0_chk465.eq_1 k0_t3 v2674))
theorem k0_off488_inb : ∀ (k0_t3 : Fin k0_t3_loop.trips) (v2674 : BitVec 32) (k0_hw465 : k0_chk465 k0_t3 v2674), ∀ (k0_h4 : k0_cond4 k0_t3 = 1#1), ∀ a, (k0_off488 v2674) a + S1x1x32.size a ≤ S26x100001x32.size a := fun k0_t3 v2674 k0_hw465 k0_h4 => k0_hw465 k0_h4

def k0_off489 (v2684 : BitVec 32) : Fin 3 → Nat :=
  let c23_i32_2143 : BitVec 32 := 23#32
  let c0_i32_2148 : BitVec 32 := 0#32
  ![23, v2684.toNat, 0]

def k0_chk466 (k0_t3 : Fin k0_t3_loop.trips) (v2684 : BitVec 32) : Prop :=
  (∀ (k0_h4 : k0_cond4 k0_t3 = 1#1), ∀ a, (k0_off489 v2684) a + S1x1x32.size a ≤ S26x100001x32.size a)
instance k0_chk466.dec : ∀ (k0_t3 : Fin k0_t3_loop.trips) (v2684 : BitVec 32), Decidable (k0_chk466 k0_t3 v2684) := fun k0_t3 v2684 => decidable_of_iff' _ (Iff.of_eq (k0_chk466.eq_1 k0_t3 v2684))
theorem k0_off489_inb : ∀ (k0_t3 : Fin k0_t3_loop.trips) (v2684 : BitVec 32) (k0_hw466 : k0_chk466 k0_t3 v2684), ∀ (k0_h4 : k0_cond4 k0_t3 = 1#1), ∀ a, (k0_off489 v2684) a + S1x1x32.size a ≤ S26x100001x32.size a := fun k0_t3 v2684 k0_hw466 k0_h4 => k0_hw466 k0_h4

def k0_off490 (v2694 : BitVec 32) : Fin 3 → Nat :=
  let c24_i32_2151 : BitVec 32 := 24#32
  let c0_i32_2156 : BitVec 32 := 0#32
  ![24, v2694.toNat, 0]

def k0_chk467 (k0_t3 : Fin k0_t3_loop.trips) (v2694 : BitVec 32) : Prop :=
  (∀ (k0_h4 : k0_cond4 k0_t3 = 1#1), ∀ a, (k0_off490 v2694) a + S1x1x32.size a ≤ S26x100001x32.size a)
instance k0_chk467.dec : ∀ (k0_t3 : Fin k0_t3_loop.trips) (v2694 : BitVec 32), Decidable (k0_chk467 k0_t3 v2694) := fun k0_t3 v2694 => decidable_of_iff' _ (Iff.of_eq (k0_chk467.eq_1 k0_t3 v2694))
theorem k0_off490_inb : ∀ (k0_t3 : Fin k0_t3_loop.trips) (v2694 : BitVec 32) (k0_hw467 : k0_chk467 k0_t3 v2694), ∀ (k0_h4 : k0_cond4 k0_t3 = 1#1), ∀ a, (k0_off490 v2694) a + S1x1x32.size a ≤ S26x100001x32.size a := fun k0_t3 v2694 k0_hw467 k0_h4 => k0_hw467 k0_h4

def k0_off491 (v2704 : BitVec 32) : Fin 3 → Nat :=
  let c25_i32_2159 : BitVec 32 := 25#32
  let c0_i32_2164 : BitVec 32 := 0#32
  ![25, v2704.toNat, 0]

def k0_chk468 (k0_t3 : Fin k0_t3_loop.trips) (v2704 : BitVec 32) : Prop :=
  (∀ (k0_h4 : k0_cond4 k0_t3 = 1#1), ∀ a, (k0_off491 v2704) a + S1x1x32.size a ≤ S26x100001x32.size a)
instance k0_chk468.dec : ∀ (k0_t3 : Fin k0_t3_loop.trips) (v2704 : BitVec 32), Decidable (k0_chk468 k0_t3 v2704) := fun k0_t3 v2704 => decidable_of_iff' _ (Iff.of_eq (k0_chk468.eq_1 k0_t3 v2704))
theorem k0_off491_inb : ∀ (k0_t3 : Fin k0_t3_loop.trips) (v2704 : BitVec 32) (k0_hw468 : k0_chk468 k0_t3 v2704), ∀ (k0_h4 : k0_cond4 k0_t3 = 1#1), ∀ a, (k0_off491 v2704) a + S1x1x32.size a ≤ S26x100001x32.size a := fun k0_t3 v2704 k0_hw468 k0_h4 => k0_hw468 k0_h4

def k0_off492 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c2_i32_2167 : BitVec 32 := 2#32
  let v2713 : BitVec 32 := Scalar.addi v2176 c2_i32_2167
  let v2714 : Index := Scalar.indexCast v2713
  let c0_2168 : Index := 0#32
  ![v2714.toNat, 0]
def k0_off493 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c2_i32_2169 : BitVec 32 := 2#32
  let v2717 : BitVec 32 := Scalar.addi v2176 c2_i32_2169
  let v2718 : Index := Scalar.indexCast v2717
  let c16_2170 : Index := 16#32
  ![v2718.toNat, 16]
def k0_off494 (v2722 : BitVec 32) : Fin 3 → Nat :=
  let c0_i32_2171 : BitVec 32 := 0#32
  let c0_i32_2176 : BitVec 32 := 0#32
  ![0, v2722.toNat, 0]

def k0_chk469 (k0_t3 : Fin k0_t3_loop.trips) (v2722 : BitVec 32) : Prop :=
  (∀ (k0_h4 : k0_cond4 k0_t3 = 1#1), ∀ a, (k0_off494 v2722) a + S1x1x32.size a ≤ S26x100001x32.size a)
instance k0_chk469.dec : ∀ (k0_t3 : Fin k0_t3_loop.trips) (v2722 : BitVec 32), Decidable (k0_chk469 k0_t3 v2722) := fun k0_t3 v2722 => decidable_of_iff' _ (Iff.of_eq (k0_chk469.eq_1 k0_t3 v2722))
theorem k0_off494_inb : ∀ (k0_t3 : Fin k0_t3_loop.trips) (v2722 : BitVec 32) (k0_hw469 : k0_chk469 k0_t3 v2722), ∀ (k0_h4 : k0_cond4 k0_t3 = 1#1), ∀ a, (k0_off494 v2722) a + S1x1x32.size a ≤ S26x100001x32.size a := fun k0_t3 v2722 k0_hw469 k0_h4 => k0_hw469 k0_h4

def k0_off495 (v2732 : BitVec 32) : Fin 3 → Nat :=
  let c1_i32_2179 : BitVec 32 := 1#32
  let c0_i32_2184 : BitVec 32 := 0#32
  ![1, v2732.toNat, 0]

def k0_chk470 (k0_t3 : Fin k0_t3_loop.trips) (v2732 : BitVec 32) : Prop :=
  (∀ (k0_h4 : k0_cond4 k0_t3 = 1#1), ∀ a, (k0_off495 v2732) a + S1x1x32.size a ≤ S26x100001x32.size a)
instance k0_chk470.dec : ∀ (k0_t3 : Fin k0_t3_loop.trips) (v2732 : BitVec 32), Decidable (k0_chk470 k0_t3 v2732) := fun k0_t3 v2732 => decidable_of_iff' _ (Iff.of_eq (k0_chk470.eq_1 k0_t3 v2732))
theorem k0_off495_inb : ∀ (k0_t3 : Fin k0_t3_loop.trips) (v2732 : BitVec 32) (k0_hw470 : k0_chk470 k0_t3 v2732), ∀ (k0_h4 : k0_cond4 k0_t3 = 1#1), ∀ a, (k0_off495 v2732) a + S1x1x32.size a ≤ S26x100001x32.size a := fun k0_t3 v2732 k0_hw470 k0_h4 => k0_hw470 k0_h4

def k0_off496 (v2742 : BitVec 32) : Fin 3 → Nat :=
  let c2_i32_2187 : BitVec 32 := 2#32
  let c0_i32_2192 : BitVec 32 := 0#32
  ![2, v2742.toNat, 0]

def k0_chk471 (k0_t3 : Fin k0_t3_loop.trips) (v2742 : BitVec 32) : Prop :=
  (∀ (k0_h4 : k0_cond4 k0_t3 = 1#1), ∀ a, (k0_off496 v2742) a + S1x1x32.size a ≤ S26x100001x32.size a)
instance k0_chk471.dec : ∀ (k0_t3 : Fin k0_t3_loop.trips) (v2742 : BitVec 32), Decidable (k0_chk471 k0_t3 v2742) := fun k0_t3 v2742 => decidable_of_iff' _ (Iff.of_eq (k0_chk471.eq_1 k0_t3 v2742))
theorem k0_off496_inb : ∀ (k0_t3 : Fin k0_t3_loop.trips) (v2742 : BitVec 32) (k0_hw471 : k0_chk471 k0_t3 v2742), ∀ (k0_h4 : k0_cond4 k0_t3 = 1#1), ∀ a, (k0_off496 v2742) a + S1x1x32.size a ≤ S26x100001x32.size a := fun k0_t3 v2742 k0_hw471 k0_h4 => k0_hw471 k0_h4

def k0_off497 (v2752 : BitVec 32) : Fin 3 → Nat :=
  let c3_i32_2195 : BitVec 32 := 3#32
  let c0_i32_2200 : BitVec 32 := 0#32
  ![3, v2752.toNat, 0]

def k0_chk472 (k0_t3 : Fin k0_t3_loop.trips) (v2752 : BitVec 32) : Prop :=
  (∀ (k0_h4 : k0_cond4 k0_t3 = 1#1), ∀ a, (k0_off497 v2752) a + S1x1x32.size a ≤ S26x100001x32.size a)
instance k0_chk472.dec : ∀ (k0_t3 : Fin k0_t3_loop.trips) (v2752 : BitVec 32), Decidable (k0_chk472 k0_t3 v2752) := fun k0_t3 v2752 => decidable_of_iff' _ (Iff.of_eq (k0_chk472.eq_1 k0_t3 v2752))
theorem k0_off497_inb : ∀ (k0_t3 : Fin k0_t3_loop.trips) (v2752 : BitVec 32) (k0_hw472 : k0_chk472 k0_t3 v2752), ∀ (k0_h4 : k0_cond4 k0_t3 = 1#1), ∀ a, (k0_off497 v2752) a + S1x1x32.size a ≤ S26x100001x32.size a := fun k0_t3 v2752 k0_hw472 k0_h4 => k0_hw472 k0_h4

def k0_off498 (v2762 : BitVec 32) : Fin 3 → Nat :=
  let c4_i32_2203 : BitVec 32 := 4#32
  let c0_i32_2208 : BitVec 32 := 0#32
  ![4, v2762.toNat, 0]

def k0_chk473 (k0_t3 : Fin k0_t3_loop.trips) (v2762 : BitVec 32) : Prop :=
  (∀ (k0_h4 : k0_cond4 k0_t3 = 1#1), ∀ a, (k0_off498 v2762) a + S1x1x32.size a ≤ S26x100001x32.size a)
instance k0_chk473.dec : ∀ (k0_t3 : Fin k0_t3_loop.trips) (v2762 : BitVec 32), Decidable (k0_chk473 k0_t3 v2762) := fun k0_t3 v2762 => decidable_of_iff' _ (Iff.of_eq (k0_chk473.eq_1 k0_t3 v2762))
theorem k0_off498_inb : ∀ (k0_t3 : Fin k0_t3_loop.trips) (v2762 : BitVec 32) (k0_hw473 : k0_chk473 k0_t3 v2762), ∀ (k0_h4 : k0_cond4 k0_t3 = 1#1), ∀ a, (k0_off498 v2762) a + S1x1x32.size a ≤ S26x100001x32.size a := fun k0_t3 v2762 k0_hw473 k0_h4 => k0_hw473 k0_h4

def k0_off499 (v2772 : BitVec 32) : Fin 3 → Nat :=
  let c5_i32_2211 : BitVec 32 := 5#32
  let c0_i32_2216 : BitVec 32 := 0#32
  ![5, v2772.toNat, 0]

def k0_chk474 (k0_t3 : Fin k0_t3_loop.trips) (v2772 : BitVec 32) : Prop :=
  (∀ (k0_h4 : k0_cond4 k0_t3 = 1#1), ∀ a, (k0_off499 v2772) a + S1x1x32.size a ≤ S26x100001x32.size a)
instance k0_chk474.dec : ∀ (k0_t3 : Fin k0_t3_loop.trips) (v2772 : BitVec 32), Decidable (k0_chk474 k0_t3 v2772) := fun k0_t3 v2772 => decidable_of_iff' _ (Iff.of_eq (k0_chk474.eq_1 k0_t3 v2772))
theorem k0_off499_inb : ∀ (k0_t3 : Fin k0_t3_loop.trips) (v2772 : BitVec 32) (k0_hw474 : k0_chk474 k0_t3 v2772), ∀ (k0_h4 : k0_cond4 k0_t3 = 1#1), ∀ a, (k0_off499 v2772) a + S1x1x32.size a ≤ S26x100001x32.size a := fun k0_t3 v2772 k0_hw474 k0_h4 => k0_hw474 k0_h4

def k0_off500 (v2782 : BitVec 32) : Fin 3 → Nat :=
  let c6_i32_2219 : BitVec 32 := 6#32
  let c0_i32_2224 : BitVec 32 := 0#32
  ![6, v2782.toNat, 0]

def k0_chk475 (k0_t3 : Fin k0_t3_loop.trips) (v2782 : BitVec 32) : Prop :=
  (∀ (k0_h4 : k0_cond4 k0_t3 = 1#1), ∀ a, (k0_off500 v2782) a + S1x1x32.size a ≤ S26x100001x32.size a)
instance k0_chk475.dec : ∀ (k0_t3 : Fin k0_t3_loop.trips) (v2782 : BitVec 32), Decidable (k0_chk475 k0_t3 v2782) := fun k0_t3 v2782 => decidable_of_iff' _ (Iff.of_eq (k0_chk475.eq_1 k0_t3 v2782))
theorem k0_off500_inb : ∀ (k0_t3 : Fin k0_t3_loop.trips) (v2782 : BitVec 32) (k0_hw475 : k0_chk475 k0_t3 v2782), ∀ (k0_h4 : k0_cond4 k0_t3 = 1#1), ∀ a, (k0_off500 v2782) a + S1x1x32.size a ≤ S26x100001x32.size a := fun k0_t3 v2782 k0_hw475 k0_h4 => k0_hw475 k0_h4

def k0_off501 (v2792 : BitVec 32) : Fin 3 → Nat :=
  let c7_i32_2227 : BitVec 32 := 7#32
  let c0_i32_2232 : BitVec 32 := 0#32
  ![7, v2792.toNat, 0]

def k0_chk476 (k0_t3 : Fin k0_t3_loop.trips) (v2792 : BitVec 32) : Prop :=
  (∀ (k0_h4 : k0_cond4 k0_t3 = 1#1), ∀ a, (k0_off501 v2792) a + S1x1x32.size a ≤ S26x100001x32.size a)
instance k0_chk476.dec : ∀ (k0_t3 : Fin k0_t3_loop.trips) (v2792 : BitVec 32), Decidable (k0_chk476 k0_t3 v2792) := fun k0_t3 v2792 => decidable_of_iff' _ (Iff.of_eq (k0_chk476.eq_1 k0_t3 v2792))
theorem k0_off501_inb : ∀ (k0_t3 : Fin k0_t3_loop.trips) (v2792 : BitVec 32) (k0_hw476 : k0_chk476 k0_t3 v2792), ∀ (k0_h4 : k0_cond4 k0_t3 = 1#1), ∀ a, (k0_off501 v2792) a + S1x1x32.size a ≤ S26x100001x32.size a := fun k0_t3 v2792 k0_hw476 k0_h4 => k0_hw476 k0_h4

def k0_off502 (v2802 : BitVec 32) : Fin 3 → Nat :=
  let c8_i32_2235 : BitVec 32 := 8#32
  let c0_i32_2240 : BitVec 32 := 0#32
  ![8, v2802.toNat, 0]

def k0_chk477 (k0_t3 : Fin k0_t3_loop.trips) (v2802 : BitVec 32) : Prop :=
  (∀ (k0_h4 : k0_cond4 k0_t3 = 1#1), ∀ a, (k0_off502 v2802) a + S1x1x32.size a ≤ S26x100001x32.size a)
instance k0_chk477.dec : ∀ (k0_t3 : Fin k0_t3_loop.trips) (v2802 : BitVec 32), Decidable (k0_chk477 k0_t3 v2802) := fun k0_t3 v2802 => decidable_of_iff' _ (Iff.of_eq (k0_chk477.eq_1 k0_t3 v2802))
theorem k0_off502_inb : ∀ (k0_t3 : Fin k0_t3_loop.trips) (v2802 : BitVec 32) (k0_hw477 : k0_chk477 k0_t3 v2802), ∀ (k0_h4 : k0_cond4 k0_t3 = 1#1), ∀ a, (k0_off502 v2802) a + S1x1x32.size a ≤ S26x100001x32.size a := fun k0_t3 v2802 k0_hw477 k0_h4 => k0_hw477 k0_h4

def k0_off503 (v2812 : BitVec 32) : Fin 3 → Nat :=
  let c9_i32_2243 : BitVec 32 := 9#32
  let c0_i32_2248 : BitVec 32 := 0#32
  ![9, v2812.toNat, 0]

def k0_chk478 (k0_t3 : Fin k0_t3_loop.trips) (v2812 : BitVec 32) : Prop :=
  (∀ (k0_h4 : k0_cond4 k0_t3 = 1#1), ∀ a, (k0_off503 v2812) a + S1x1x32.size a ≤ S26x100001x32.size a)
instance k0_chk478.dec : ∀ (k0_t3 : Fin k0_t3_loop.trips) (v2812 : BitVec 32), Decidable (k0_chk478 k0_t3 v2812) := fun k0_t3 v2812 => decidable_of_iff' _ (Iff.of_eq (k0_chk478.eq_1 k0_t3 v2812))
theorem k0_off503_inb : ∀ (k0_t3 : Fin k0_t3_loop.trips) (v2812 : BitVec 32) (k0_hw478 : k0_chk478 k0_t3 v2812), ∀ (k0_h4 : k0_cond4 k0_t3 = 1#1), ∀ a, (k0_off503 v2812) a + S1x1x32.size a ≤ S26x100001x32.size a := fun k0_t3 v2812 k0_hw478 k0_h4 => k0_hw478 k0_h4

def k0_off504 (v2822 : BitVec 32) : Fin 3 → Nat :=
  let c10_i32_2251 : BitVec 32 := 10#32
  let c0_i32_2256 : BitVec 32 := 0#32
  ![10, v2822.toNat, 0]

def k0_chk479 (k0_t3 : Fin k0_t3_loop.trips) (v2822 : BitVec 32) : Prop :=
  (∀ (k0_h4 : k0_cond4 k0_t3 = 1#1), ∀ a, (k0_off504 v2822) a + S1x1x32.size a ≤ S26x100001x32.size a)
instance k0_chk479.dec : ∀ (k0_t3 : Fin k0_t3_loop.trips) (v2822 : BitVec 32), Decidable (k0_chk479 k0_t3 v2822) := fun k0_t3 v2822 => decidable_of_iff' _ (Iff.of_eq (k0_chk479.eq_1 k0_t3 v2822))
theorem k0_off504_inb : ∀ (k0_t3 : Fin k0_t3_loop.trips) (v2822 : BitVec 32) (k0_hw479 : k0_chk479 k0_t3 v2822), ∀ (k0_h4 : k0_cond4 k0_t3 = 1#1), ∀ a, (k0_off504 v2822) a + S1x1x32.size a ≤ S26x100001x32.size a := fun k0_t3 v2822 k0_hw479 k0_h4 => k0_hw479 k0_h4

def k0_off505 (v2832 : BitVec 32) : Fin 3 → Nat :=
  let c11_i32_2259 : BitVec 32 := 11#32
  let c0_i32_2264 : BitVec 32 := 0#32
  ![11, v2832.toNat, 0]

def k0_chk480 (k0_t3 : Fin k0_t3_loop.trips) (v2832 : BitVec 32) : Prop :=
  (∀ (k0_h4 : k0_cond4 k0_t3 = 1#1), ∀ a, (k0_off505 v2832) a + S1x1x32.size a ≤ S26x100001x32.size a)
instance k0_chk480.dec : ∀ (k0_t3 : Fin k0_t3_loop.trips) (v2832 : BitVec 32), Decidable (k0_chk480 k0_t3 v2832) := fun k0_t3 v2832 => decidable_of_iff' _ (Iff.of_eq (k0_chk480.eq_1 k0_t3 v2832))
theorem k0_off505_inb : ∀ (k0_t3 : Fin k0_t3_loop.trips) (v2832 : BitVec 32) (k0_hw480 : k0_chk480 k0_t3 v2832), ∀ (k0_h4 : k0_cond4 k0_t3 = 1#1), ∀ a, (k0_off505 v2832) a + S1x1x32.size a ≤ S26x100001x32.size a := fun k0_t3 v2832 k0_hw480 k0_h4 => k0_hw480 k0_h4

def k0_off506 (v2842 : BitVec 32) : Fin 3 → Nat :=
  let c12_i32_2267 : BitVec 32 := 12#32
  let c0_i32_2272 : BitVec 32 := 0#32
  ![12, v2842.toNat, 0]

def k0_chk481 (k0_t3 : Fin k0_t3_loop.trips) (v2842 : BitVec 32) : Prop :=
  (∀ (k0_h4 : k0_cond4 k0_t3 = 1#1), ∀ a, (k0_off506 v2842) a + S1x1x32.size a ≤ S26x100001x32.size a)
instance k0_chk481.dec : ∀ (k0_t3 : Fin k0_t3_loop.trips) (v2842 : BitVec 32), Decidable (k0_chk481 k0_t3 v2842) := fun k0_t3 v2842 => decidable_of_iff' _ (Iff.of_eq (k0_chk481.eq_1 k0_t3 v2842))
theorem k0_off506_inb : ∀ (k0_t3 : Fin k0_t3_loop.trips) (v2842 : BitVec 32) (k0_hw481 : k0_chk481 k0_t3 v2842), ∀ (k0_h4 : k0_cond4 k0_t3 = 1#1), ∀ a, (k0_off506 v2842) a + S1x1x32.size a ≤ S26x100001x32.size a := fun k0_t3 v2842 k0_hw481 k0_h4 => k0_hw481 k0_h4

def k0_off507 (v2852 : BitVec 32) : Fin 3 → Nat :=
  let c13_i32_2275 : BitVec 32 := 13#32
  let c0_i32_2280 : BitVec 32 := 0#32
  ![13, v2852.toNat, 0]

def k0_chk482 (k0_t3 : Fin k0_t3_loop.trips) (v2852 : BitVec 32) : Prop :=
  (∀ (k0_h4 : k0_cond4 k0_t3 = 1#1), ∀ a, (k0_off507 v2852) a + S1x1x32.size a ≤ S26x100001x32.size a)
instance k0_chk482.dec : ∀ (k0_t3 : Fin k0_t3_loop.trips) (v2852 : BitVec 32), Decidable (k0_chk482 k0_t3 v2852) := fun k0_t3 v2852 => decidable_of_iff' _ (Iff.of_eq (k0_chk482.eq_1 k0_t3 v2852))
theorem k0_off507_inb : ∀ (k0_t3 : Fin k0_t3_loop.trips) (v2852 : BitVec 32) (k0_hw482 : k0_chk482 k0_t3 v2852), ∀ (k0_h4 : k0_cond4 k0_t3 = 1#1), ∀ a, (k0_off507 v2852) a + S1x1x32.size a ≤ S26x100001x32.size a := fun k0_t3 v2852 k0_hw482 k0_h4 => k0_hw482 k0_h4

def k0_off508 (v2862 : BitVec 32) : Fin 3 → Nat :=
  let c14_i32_2283 : BitVec 32 := 14#32
  let c0_i32_2288 : BitVec 32 := 0#32
  ![14, v2862.toNat, 0]

def k0_chk483 (k0_t3 : Fin k0_t3_loop.trips) (v2862 : BitVec 32) : Prop :=
  (∀ (k0_h4 : k0_cond4 k0_t3 = 1#1), ∀ a, (k0_off508 v2862) a + S1x1x32.size a ≤ S26x100001x32.size a)
instance k0_chk483.dec : ∀ (k0_t3 : Fin k0_t3_loop.trips) (v2862 : BitVec 32), Decidable (k0_chk483 k0_t3 v2862) := fun k0_t3 v2862 => decidable_of_iff' _ (Iff.of_eq (k0_chk483.eq_1 k0_t3 v2862))
theorem k0_off508_inb : ∀ (k0_t3 : Fin k0_t3_loop.trips) (v2862 : BitVec 32) (k0_hw483 : k0_chk483 k0_t3 v2862), ∀ (k0_h4 : k0_cond4 k0_t3 = 1#1), ∀ a, (k0_off508 v2862) a + S1x1x32.size a ≤ S26x100001x32.size a := fun k0_t3 v2862 k0_hw483 k0_h4 => k0_hw483 k0_h4

def k0_off509 (v2872 : BitVec 32) : Fin 3 → Nat :=
  let c15_i32_2291 : BitVec 32 := 15#32
  let c0_i32_2296 : BitVec 32 := 0#32
  ![15, v2872.toNat, 0]

def k0_chk484 (k0_t3 : Fin k0_t3_loop.trips) (v2872 : BitVec 32) : Prop :=
  (∀ (k0_h4 : k0_cond4 k0_t3 = 1#1), ∀ a, (k0_off509 v2872) a + S1x1x32.size a ≤ S26x100001x32.size a)
instance k0_chk484.dec : ∀ (k0_t3 : Fin k0_t3_loop.trips) (v2872 : BitVec 32), Decidable (k0_chk484 k0_t3 v2872) := fun k0_t3 v2872 => decidable_of_iff' _ (Iff.of_eq (k0_chk484.eq_1 k0_t3 v2872))
theorem k0_off509_inb : ∀ (k0_t3 : Fin k0_t3_loop.trips) (v2872 : BitVec 32) (k0_hw484 : k0_chk484 k0_t3 v2872), ∀ (k0_h4 : k0_cond4 k0_t3 = 1#1), ∀ a, (k0_off509 v2872) a + S1x1x32.size a ≤ S26x100001x32.size a := fun k0_t3 v2872 k0_hw484 k0_h4 => k0_hw484 k0_h4

def k0_off510 (v2882 : BitVec 32) : Fin 3 → Nat :=
  let c16_i32_2299 : BitVec 32 := 16#32
  let c0_i32_2304 : BitVec 32 := 0#32
  ![16, v2882.toNat, 0]

def k0_chk485 (k0_t3 : Fin k0_t3_loop.trips) (v2882 : BitVec 32) : Prop :=
  (∀ (k0_h4 : k0_cond4 k0_t3 = 1#1), ∀ a, (k0_off510 v2882) a + S1x1x32.size a ≤ S26x100001x32.size a)
instance k0_chk485.dec : ∀ (k0_t3 : Fin k0_t3_loop.trips) (v2882 : BitVec 32), Decidable (k0_chk485 k0_t3 v2882) := fun k0_t3 v2882 => decidable_of_iff' _ (Iff.of_eq (k0_chk485.eq_1 k0_t3 v2882))
theorem k0_off510_inb : ∀ (k0_t3 : Fin k0_t3_loop.trips) (v2882 : BitVec 32) (k0_hw485 : k0_chk485 k0_t3 v2882), ∀ (k0_h4 : k0_cond4 k0_t3 = 1#1), ∀ a, (k0_off510 v2882) a + S1x1x32.size a ≤ S26x100001x32.size a := fun k0_t3 v2882 k0_hw485 k0_h4 => k0_hw485 k0_h4

def k0_off511 (v2892 : BitVec 32) : Fin 3 → Nat :=
  let c17_i32_2307 : BitVec 32 := 17#32
  let c0_i32_2312 : BitVec 32 := 0#32
  ![17, v2892.toNat, 0]

def k0_chk486 (k0_t3 : Fin k0_t3_loop.trips) (v2892 : BitVec 32) : Prop :=
  (∀ (k0_h4 : k0_cond4 k0_t3 = 1#1), ∀ a, (k0_off511 v2892) a + S1x1x32.size a ≤ S26x100001x32.size a)
instance k0_chk486.dec : ∀ (k0_t3 : Fin k0_t3_loop.trips) (v2892 : BitVec 32), Decidable (k0_chk486 k0_t3 v2892) := fun k0_t3 v2892 => decidable_of_iff' _ (Iff.of_eq (k0_chk486.eq_1 k0_t3 v2892))
theorem k0_off511_inb : ∀ (k0_t3 : Fin k0_t3_loop.trips) (v2892 : BitVec 32) (k0_hw486 : k0_chk486 k0_t3 v2892), ∀ (k0_h4 : k0_cond4 k0_t3 = 1#1), ∀ a, (k0_off511 v2892) a + S1x1x32.size a ≤ S26x100001x32.size a := fun k0_t3 v2892 k0_hw486 k0_h4 => k0_hw486 k0_h4

def k0_off512 (v2902 : BitVec 32) : Fin 3 → Nat :=
  let c18_i32_2315 : BitVec 32 := 18#32
  let c0_i32_2320 : BitVec 32 := 0#32
  ![18, v2902.toNat, 0]

def k0_chk487 (k0_t3 : Fin k0_t3_loop.trips) (v2902 : BitVec 32) : Prop :=
  (∀ (k0_h4 : k0_cond4 k0_t3 = 1#1), ∀ a, (k0_off512 v2902) a + S1x1x32.size a ≤ S26x100001x32.size a)
instance k0_chk487.dec : ∀ (k0_t3 : Fin k0_t3_loop.trips) (v2902 : BitVec 32), Decidable (k0_chk487 k0_t3 v2902) := fun k0_t3 v2902 => decidable_of_iff' _ (Iff.of_eq (k0_chk487.eq_1 k0_t3 v2902))
theorem k0_off512_inb : ∀ (k0_t3 : Fin k0_t3_loop.trips) (v2902 : BitVec 32) (k0_hw487 : k0_chk487 k0_t3 v2902), ∀ (k0_h4 : k0_cond4 k0_t3 = 1#1), ∀ a, (k0_off512 v2902) a + S1x1x32.size a ≤ S26x100001x32.size a := fun k0_t3 v2902 k0_hw487 k0_h4 => k0_hw487 k0_h4

def k0_off513 (v2912 : BitVec 32) : Fin 3 → Nat :=
  let c19_i32_2323 : BitVec 32 := 19#32
  let c0_i32_2328 : BitVec 32 := 0#32
  ![19, v2912.toNat, 0]

def k0_chk488 (k0_t3 : Fin k0_t3_loop.trips) (v2912 : BitVec 32) : Prop :=
  (∀ (k0_h4 : k0_cond4 k0_t3 = 1#1), ∀ a, (k0_off513 v2912) a + S1x1x32.size a ≤ S26x100001x32.size a)
instance k0_chk488.dec : ∀ (k0_t3 : Fin k0_t3_loop.trips) (v2912 : BitVec 32), Decidable (k0_chk488 k0_t3 v2912) := fun k0_t3 v2912 => decidable_of_iff' _ (Iff.of_eq (k0_chk488.eq_1 k0_t3 v2912))
theorem k0_off513_inb : ∀ (k0_t3 : Fin k0_t3_loop.trips) (v2912 : BitVec 32) (k0_hw488 : k0_chk488 k0_t3 v2912), ∀ (k0_h4 : k0_cond4 k0_t3 = 1#1), ∀ a, (k0_off513 v2912) a + S1x1x32.size a ≤ S26x100001x32.size a := fun k0_t3 v2912 k0_hw488 k0_h4 => k0_hw488 k0_h4

def k0_off514 (v2922 : BitVec 32) : Fin 3 → Nat :=
  let c20_i32_2331 : BitVec 32 := 20#32
  let c0_i32_2336 : BitVec 32 := 0#32
  ![20, v2922.toNat, 0]

def k0_chk489 (k0_t3 : Fin k0_t3_loop.trips) (v2922 : BitVec 32) : Prop :=
  (∀ (k0_h4 : k0_cond4 k0_t3 = 1#1), ∀ a, (k0_off514 v2922) a + S1x1x32.size a ≤ S26x100001x32.size a)
instance k0_chk489.dec : ∀ (k0_t3 : Fin k0_t3_loop.trips) (v2922 : BitVec 32), Decidable (k0_chk489 k0_t3 v2922) := fun k0_t3 v2922 => decidable_of_iff' _ (Iff.of_eq (k0_chk489.eq_1 k0_t3 v2922))
theorem k0_off514_inb : ∀ (k0_t3 : Fin k0_t3_loop.trips) (v2922 : BitVec 32) (k0_hw489 : k0_chk489 k0_t3 v2922), ∀ (k0_h4 : k0_cond4 k0_t3 = 1#1), ∀ a, (k0_off514 v2922) a + S1x1x32.size a ≤ S26x100001x32.size a := fun k0_t3 v2922 k0_hw489 k0_h4 => k0_hw489 k0_h4

def k0_off515 (v2932 : BitVec 32) : Fin 3 → Nat :=
  let c21_i32_2339 : BitVec 32 := 21#32
  let c0_i32_2344 : BitVec 32 := 0#32
  ![21, v2932.toNat, 0]

def k0_chk490 (k0_t3 : Fin k0_t3_loop.trips) (v2932 : BitVec 32) : Prop :=
  (∀ (k0_h4 : k0_cond4 k0_t3 = 1#1), ∀ a, (k0_off515 v2932) a + S1x1x32.size a ≤ S26x100001x32.size a)
instance k0_chk490.dec : ∀ (k0_t3 : Fin k0_t3_loop.trips) (v2932 : BitVec 32), Decidable (k0_chk490 k0_t3 v2932) := fun k0_t3 v2932 => decidable_of_iff' _ (Iff.of_eq (k0_chk490.eq_1 k0_t3 v2932))
theorem k0_off515_inb : ∀ (k0_t3 : Fin k0_t3_loop.trips) (v2932 : BitVec 32) (k0_hw490 : k0_chk490 k0_t3 v2932), ∀ (k0_h4 : k0_cond4 k0_t3 = 1#1), ∀ a, (k0_off515 v2932) a + S1x1x32.size a ≤ S26x100001x32.size a := fun k0_t3 v2932 k0_hw490 k0_h4 => k0_hw490 k0_h4

def k0_off516 (v2942 : BitVec 32) : Fin 3 → Nat :=
  let c22_i32_2347 : BitVec 32 := 22#32
  let c0_i32_2352 : BitVec 32 := 0#32
  ![22, v2942.toNat, 0]

def k0_chk491 (k0_t3 : Fin k0_t3_loop.trips) (v2942 : BitVec 32) : Prop :=
  (∀ (k0_h4 : k0_cond4 k0_t3 = 1#1), ∀ a, (k0_off516 v2942) a + S1x1x32.size a ≤ S26x100001x32.size a)
instance k0_chk491.dec : ∀ (k0_t3 : Fin k0_t3_loop.trips) (v2942 : BitVec 32), Decidable (k0_chk491 k0_t3 v2942) := fun k0_t3 v2942 => decidable_of_iff' _ (Iff.of_eq (k0_chk491.eq_1 k0_t3 v2942))
theorem k0_off516_inb : ∀ (k0_t3 : Fin k0_t3_loop.trips) (v2942 : BitVec 32) (k0_hw491 : k0_chk491 k0_t3 v2942), ∀ (k0_h4 : k0_cond4 k0_t3 = 1#1), ∀ a, (k0_off516 v2942) a + S1x1x32.size a ≤ S26x100001x32.size a := fun k0_t3 v2942 k0_hw491 k0_h4 => k0_hw491 k0_h4

def k0_off517 (v2952 : BitVec 32) : Fin 3 → Nat :=
  let c23_i32_2355 : BitVec 32 := 23#32
  let c0_i32_2360 : BitVec 32 := 0#32
  ![23, v2952.toNat, 0]

def k0_chk492 (k0_t3 : Fin k0_t3_loop.trips) (v2952 : BitVec 32) : Prop :=
  (∀ (k0_h4 : k0_cond4 k0_t3 = 1#1), ∀ a, (k0_off517 v2952) a + S1x1x32.size a ≤ S26x100001x32.size a)
instance k0_chk492.dec : ∀ (k0_t3 : Fin k0_t3_loop.trips) (v2952 : BitVec 32), Decidable (k0_chk492 k0_t3 v2952) := fun k0_t3 v2952 => decidable_of_iff' _ (Iff.of_eq (k0_chk492.eq_1 k0_t3 v2952))
theorem k0_off517_inb : ∀ (k0_t3 : Fin k0_t3_loop.trips) (v2952 : BitVec 32) (k0_hw492 : k0_chk492 k0_t3 v2952), ∀ (k0_h4 : k0_cond4 k0_t3 = 1#1), ∀ a, (k0_off517 v2952) a + S1x1x32.size a ≤ S26x100001x32.size a := fun k0_t3 v2952 k0_hw492 k0_h4 => k0_hw492 k0_h4

def k0_off518 (v2962 : BitVec 32) : Fin 3 → Nat :=
  let c24_i32_2363 : BitVec 32 := 24#32
  let c0_i32_2368 : BitVec 32 := 0#32
  ![24, v2962.toNat, 0]

def k0_chk493 (k0_t3 : Fin k0_t3_loop.trips) (v2962 : BitVec 32) : Prop :=
  (∀ (k0_h4 : k0_cond4 k0_t3 = 1#1), ∀ a, (k0_off518 v2962) a + S1x1x32.size a ≤ S26x100001x32.size a)
instance k0_chk493.dec : ∀ (k0_t3 : Fin k0_t3_loop.trips) (v2962 : BitVec 32), Decidable (k0_chk493 k0_t3 v2962) := fun k0_t3 v2962 => decidable_of_iff' _ (Iff.of_eq (k0_chk493.eq_1 k0_t3 v2962))
theorem k0_off518_inb : ∀ (k0_t3 : Fin k0_t3_loop.trips) (v2962 : BitVec 32) (k0_hw493 : k0_chk493 k0_t3 v2962), ∀ (k0_h4 : k0_cond4 k0_t3 = 1#1), ∀ a, (k0_off518 v2962) a + S1x1x32.size a ≤ S26x100001x32.size a := fun k0_t3 v2962 k0_hw493 k0_h4 => k0_hw493 k0_h4

def k0_off519 (v2972 : BitVec 32) : Fin 3 → Nat :=
  let c25_i32_2371 : BitVec 32 := 25#32
  let c0_i32_2376 : BitVec 32 := 0#32
  ![25, v2972.toNat, 0]

def k0_chk494 (k0_t3 : Fin k0_t3_loop.trips) (v2972 : BitVec 32) : Prop :=
  (∀ (k0_h4 : k0_cond4 k0_t3 = 1#1), ∀ a, (k0_off519 v2972) a + S1x1x32.size a ≤ S26x100001x32.size a)
instance k0_chk494.dec : ∀ (k0_t3 : Fin k0_t3_loop.trips) (v2972 : BitVec 32), Decidable (k0_chk494 k0_t3 v2972) := fun k0_t3 v2972 => decidable_of_iff' _ (Iff.of_eq (k0_chk494.eq_1 k0_t3 v2972))
theorem k0_off519_inb : ∀ (k0_t3 : Fin k0_t3_loop.trips) (v2972 : BitVec 32) (k0_hw494 : k0_chk494 k0_t3 v2972), ∀ (k0_h4 : k0_cond4 k0_t3 = 1#1), ∀ a, (k0_off519 v2972) a + S1x1x32.size a ≤ S26x100001x32.size a := fun k0_t3 v2972 k0_hw494 k0_h4 => k0_hw494 k0_h4

def k0_off520 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c3_i32_2379 : BitVec 32 := 3#32
  let v2981 : BitVec 32 := Scalar.addi v2176 c3_i32_2379
  let v2982 : Index := Scalar.indexCast v2981
  let c0_2380 : Index := 0#32
  ![v2982.toNat, 0]
def k0_off521 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c3_i32_2381 : BitVec 32 := 3#32
  let v2985 : BitVec 32 := Scalar.addi v2176 c3_i32_2381
  let v2986 : Index := Scalar.indexCast v2985
  let c16_2382 : Index := 16#32
  ![v2986.toNat, 16]
def k0_off522 (v2990 : BitVec 32) : Fin 3 → Nat :=
  let c0_i32_2383 : BitVec 32 := 0#32
  let c0_i32_2388 : BitVec 32 := 0#32
  ![0, v2990.toNat, 0]

def k0_chk495 (k0_t3 : Fin k0_t3_loop.trips) (v2990 : BitVec 32) : Prop :=
  (∀ (k0_h4 : k0_cond4 k0_t3 = 1#1), ∀ a, (k0_off522 v2990) a + S1x1x32.size a ≤ S26x100001x32.size a)
instance k0_chk495.dec : ∀ (k0_t3 : Fin k0_t3_loop.trips) (v2990 : BitVec 32), Decidable (k0_chk495 k0_t3 v2990) := fun k0_t3 v2990 => decidable_of_iff' _ (Iff.of_eq (k0_chk495.eq_1 k0_t3 v2990))
theorem k0_off522_inb : ∀ (k0_t3 : Fin k0_t3_loop.trips) (v2990 : BitVec 32) (k0_hw495 : k0_chk495 k0_t3 v2990), ∀ (k0_h4 : k0_cond4 k0_t3 = 1#1), ∀ a, (k0_off522 v2990) a + S1x1x32.size a ≤ S26x100001x32.size a := fun k0_t3 v2990 k0_hw495 k0_h4 => k0_hw495 k0_h4

def k0_off523 (v3000 : BitVec 32) : Fin 3 → Nat :=
  let c1_i32_2391 : BitVec 32 := 1#32
  let c0_i32_2396 : BitVec 32 := 0#32
  ![1, v3000.toNat, 0]

def k0_chk496 (k0_t3 : Fin k0_t3_loop.trips) (v3000 : BitVec 32) : Prop :=
  (∀ (k0_h4 : k0_cond4 k0_t3 = 1#1), ∀ a, (k0_off523 v3000) a + S1x1x32.size a ≤ S26x100001x32.size a)
instance k0_chk496.dec : ∀ (k0_t3 : Fin k0_t3_loop.trips) (v3000 : BitVec 32), Decidable (k0_chk496 k0_t3 v3000) := fun k0_t3 v3000 => decidable_of_iff' _ (Iff.of_eq (k0_chk496.eq_1 k0_t3 v3000))
theorem k0_off523_inb : ∀ (k0_t3 : Fin k0_t3_loop.trips) (v3000 : BitVec 32) (k0_hw496 : k0_chk496 k0_t3 v3000), ∀ (k0_h4 : k0_cond4 k0_t3 = 1#1), ∀ a, (k0_off523 v3000) a + S1x1x32.size a ≤ S26x100001x32.size a := fun k0_t3 v3000 k0_hw496 k0_h4 => k0_hw496 k0_h4

def k0_off524 (v3010 : BitVec 32) : Fin 3 → Nat :=
  let c2_i32_2399 : BitVec 32 := 2#32
  let c0_i32_2404 : BitVec 32 := 0#32
  ![2, v3010.toNat, 0]

def k0_chk497 (k0_t3 : Fin k0_t3_loop.trips) (v3010 : BitVec 32) : Prop :=
  (∀ (k0_h4 : k0_cond4 k0_t3 = 1#1), ∀ a, (k0_off524 v3010) a + S1x1x32.size a ≤ S26x100001x32.size a)
instance k0_chk497.dec : ∀ (k0_t3 : Fin k0_t3_loop.trips) (v3010 : BitVec 32), Decidable (k0_chk497 k0_t3 v3010) := fun k0_t3 v3010 => decidable_of_iff' _ (Iff.of_eq (k0_chk497.eq_1 k0_t3 v3010))
theorem k0_off524_inb : ∀ (k0_t3 : Fin k0_t3_loop.trips) (v3010 : BitVec 32) (k0_hw497 : k0_chk497 k0_t3 v3010), ∀ (k0_h4 : k0_cond4 k0_t3 = 1#1), ∀ a, (k0_off524 v3010) a + S1x1x32.size a ≤ S26x100001x32.size a := fun k0_t3 v3010 k0_hw497 k0_h4 => k0_hw497 k0_h4

def k0_off525 (v3020 : BitVec 32) : Fin 3 → Nat :=
  let c3_i32_2407 : BitVec 32 := 3#32
  let c0_i32_2412 : BitVec 32 := 0#32
  ![3, v3020.toNat, 0]

def k0_chk498 (k0_t3 : Fin k0_t3_loop.trips) (v3020 : BitVec 32) : Prop :=
  (∀ (k0_h4 : k0_cond4 k0_t3 = 1#1), ∀ a, (k0_off525 v3020) a + S1x1x32.size a ≤ S26x100001x32.size a)
instance k0_chk498.dec : ∀ (k0_t3 : Fin k0_t3_loop.trips) (v3020 : BitVec 32), Decidable (k0_chk498 k0_t3 v3020) := fun k0_t3 v3020 => decidable_of_iff' _ (Iff.of_eq (k0_chk498.eq_1 k0_t3 v3020))
theorem k0_off525_inb : ∀ (k0_t3 : Fin k0_t3_loop.trips) (v3020 : BitVec 32) (k0_hw498 : k0_chk498 k0_t3 v3020), ∀ (k0_h4 : k0_cond4 k0_t3 = 1#1), ∀ a, (k0_off525 v3020) a + S1x1x32.size a ≤ S26x100001x32.size a := fun k0_t3 v3020 k0_hw498 k0_h4 => k0_hw498 k0_h4

def k0_off526 (v3030 : BitVec 32) : Fin 3 → Nat :=
  let c4_i32_2415 : BitVec 32 := 4#32
  let c0_i32_2420 : BitVec 32 := 0#32
  ![4, v3030.toNat, 0]

def k0_chk499 (k0_t3 : Fin k0_t3_loop.trips) (v3030 : BitVec 32) : Prop :=
  (∀ (k0_h4 : k0_cond4 k0_t3 = 1#1), ∀ a, (k0_off526 v3030) a + S1x1x32.size a ≤ S26x100001x32.size a)
instance k0_chk499.dec : ∀ (k0_t3 : Fin k0_t3_loop.trips) (v3030 : BitVec 32), Decidable (k0_chk499 k0_t3 v3030) := fun k0_t3 v3030 => decidable_of_iff' _ (Iff.of_eq (k0_chk499.eq_1 k0_t3 v3030))
theorem k0_off526_inb : ∀ (k0_t3 : Fin k0_t3_loop.trips) (v3030 : BitVec 32) (k0_hw499 : k0_chk499 k0_t3 v3030), ∀ (k0_h4 : k0_cond4 k0_t3 = 1#1), ∀ a, (k0_off526 v3030) a + S1x1x32.size a ≤ S26x100001x32.size a := fun k0_t3 v3030 k0_hw499 k0_h4 => k0_hw499 k0_h4

def k0_off527 (v3040 : BitVec 32) : Fin 3 → Nat :=
  let c5_i32_2423 : BitVec 32 := 5#32
  let c0_i32_2428 : BitVec 32 := 0#32
  ![5, v3040.toNat, 0]

def k0_chk500 (k0_t3 : Fin k0_t3_loop.trips) (v3040 : BitVec 32) : Prop :=
  (∀ (k0_h4 : k0_cond4 k0_t3 = 1#1), ∀ a, (k0_off527 v3040) a + S1x1x32.size a ≤ S26x100001x32.size a)
instance k0_chk500.dec : ∀ (k0_t3 : Fin k0_t3_loop.trips) (v3040 : BitVec 32), Decidable (k0_chk500 k0_t3 v3040) := fun k0_t3 v3040 => decidable_of_iff' _ (Iff.of_eq (k0_chk500.eq_1 k0_t3 v3040))
theorem k0_off527_inb : ∀ (k0_t3 : Fin k0_t3_loop.trips) (v3040 : BitVec 32) (k0_hw500 : k0_chk500 k0_t3 v3040), ∀ (k0_h4 : k0_cond4 k0_t3 = 1#1), ∀ a, (k0_off527 v3040) a + S1x1x32.size a ≤ S26x100001x32.size a := fun k0_t3 v3040 k0_hw500 k0_h4 => k0_hw500 k0_h4

def k0_off528 (v3050 : BitVec 32) : Fin 3 → Nat :=
  let c6_i32_2431 : BitVec 32 := 6#32
  let c0_i32_2436 : BitVec 32 := 0#32
  ![6, v3050.toNat, 0]

def k0_chk501 (k0_t3 : Fin k0_t3_loop.trips) (v3050 : BitVec 32) : Prop :=
  (∀ (k0_h4 : k0_cond4 k0_t3 = 1#1), ∀ a, (k0_off528 v3050) a + S1x1x32.size a ≤ S26x100001x32.size a)
instance k0_chk501.dec : ∀ (k0_t3 : Fin k0_t3_loop.trips) (v3050 : BitVec 32), Decidable (k0_chk501 k0_t3 v3050) := fun k0_t3 v3050 => decidable_of_iff' _ (Iff.of_eq (k0_chk501.eq_1 k0_t3 v3050))
theorem k0_off528_inb : ∀ (k0_t3 : Fin k0_t3_loop.trips) (v3050 : BitVec 32) (k0_hw501 : k0_chk501 k0_t3 v3050), ∀ (k0_h4 : k0_cond4 k0_t3 = 1#1), ∀ a, (k0_off528 v3050) a + S1x1x32.size a ≤ S26x100001x32.size a := fun k0_t3 v3050 k0_hw501 k0_h4 => k0_hw501 k0_h4

def k0_off529 (v3060 : BitVec 32) : Fin 3 → Nat :=
  let c7_i32_2439 : BitVec 32 := 7#32
  let c0_i32_2444 : BitVec 32 := 0#32
  ![7, v3060.toNat, 0]

def k0_chk502 (k0_t3 : Fin k0_t3_loop.trips) (v3060 : BitVec 32) : Prop :=
  (∀ (k0_h4 : k0_cond4 k0_t3 = 1#1), ∀ a, (k0_off529 v3060) a + S1x1x32.size a ≤ S26x100001x32.size a)
instance k0_chk502.dec : ∀ (k0_t3 : Fin k0_t3_loop.trips) (v3060 : BitVec 32), Decidable (k0_chk502 k0_t3 v3060) := fun k0_t3 v3060 => decidable_of_iff' _ (Iff.of_eq (k0_chk502.eq_1 k0_t3 v3060))
theorem k0_off529_inb : ∀ (k0_t3 : Fin k0_t3_loop.trips) (v3060 : BitVec 32) (k0_hw502 : k0_chk502 k0_t3 v3060), ∀ (k0_h4 : k0_cond4 k0_t3 = 1#1), ∀ a, (k0_off529 v3060) a + S1x1x32.size a ≤ S26x100001x32.size a := fun k0_t3 v3060 k0_hw502 k0_h4 => k0_hw502 k0_h4

def k0_off530 (v3070 : BitVec 32) : Fin 3 → Nat :=
  let c8_i32_2447 : BitVec 32 := 8#32
  let c0_i32_2452 : BitVec 32 := 0#32
  ![8, v3070.toNat, 0]

def k0_chk503 (k0_t3 : Fin k0_t3_loop.trips) (v3070 : BitVec 32) : Prop :=
  (∀ (k0_h4 : k0_cond4 k0_t3 = 1#1), ∀ a, (k0_off530 v3070) a + S1x1x32.size a ≤ S26x100001x32.size a)
instance k0_chk503.dec : ∀ (k0_t3 : Fin k0_t3_loop.trips) (v3070 : BitVec 32), Decidable (k0_chk503 k0_t3 v3070) := fun k0_t3 v3070 => decidable_of_iff' _ (Iff.of_eq (k0_chk503.eq_1 k0_t3 v3070))
theorem k0_off530_inb : ∀ (k0_t3 : Fin k0_t3_loop.trips) (v3070 : BitVec 32) (k0_hw503 : k0_chk503 k0_t3 v3070), ∀ (k0_h4 : k0_cond4 k0_t3 = 1#1), ∀ a, (k0_off530 v3070) a + S1x1x32.size a ≤ S26x100001x32.size a := fun k0_t3 v3070 k0_hw503 k0_h4 => k0_hw503 k0_h4

def k0_off531 (v3080 : BitVec 32) : Fin 3 → Nat :=
  let c9_i32_2455 : BitVec 32 := 9#32
  let c0_i32_2460 : BitVec 32 := 0#32
  ![9, v3080.toNat, 0]

def k0_chk504 (k0_t3 : Fin k0_t3_loop.trips) (v3080 : BitVec 32) : Prop :=
  (∀ (k0_h4 : k0_cond4 k0_t3 = 1#1), ∀ a, (k0_off531 v3080) a + S1x1x32.size a ≤ S26x100001x32.size a)
instance k0_chk504.dec : ∀ (k0_t3 : Fin k0_t3_loop.trips) (v3080 : BitVec 32), Decidable (k0_chk504 k0_t3 v3080) := fun k0_t3 v3080 => decidable_of_iff' _ (Iff.of_eq (k0_chk504.eq_1 k0_t3 v3080))
theorem k0_off531_inb : ∀ (k0_t3 : Fin k0_t3_loop.trips) (v3080 : BitVec 32) (k0_hw504 : k0_chk504 k0_t3 v3080), ∀ (k0_h4 : k0_cond4 k0_t3 = 1#1), ∀ a, (k0_off531 v3080) a + S1x1x32.size a ≤ S26x100001x32.size a := fun k0_t3 v3080 k0_hw504 k0_h4 => k0_hw504 k0_h4

def k0_off532 (v3090 : BitVec 32) : Fin 3 → Nat :=
  let c10_i32_2463 : BitVec 32 := 10#32
  let c0_i32_2468 : BitVec 32 := 0#32
  ![10, v3090.toNat, 0]

def k0_chk505 (k0_t3 : Fin k0_t3_loop.trips) (v3090 : BitVec 32) : Prop :=
  (∀ (k0_h4 : k0_cond4 k0_t3 = 1#1), ∀ a, (k0_off532 v3090) a + S1x1x32.size a ≤ S26x100001x32.size a)
instance k0_chk505.dec : ∀ (k0_t3 : Fin k0_t3_loop.trips) (v3090 : BitVec 32), Decidable (k0_chk505 k0_t3 v3090) := fun k0_t3 v3090 => decidable_of_iff' _ (Iff.of_eq (k0_chk505.eq_1 k0_t3 v3090))
theorem k0_off532_inb : ∀ (k0_t3 : Fin k0_t3_loop.trips) (v3090 : BitVec 32) (k0_hw505 : k0_chk505 k0_t3 v3090), ∀ (k0_h4 : k0_cond4 k0_t3 = 1#1), ∀ a, (k0_off532 v3090) a + S1x1x32.size a ≤ S26x100001x32.size a := fun k0_t3 v3090 k0_hw505 k0_h4 => k0_hw505 k0_h4

def k0_off533 (v3100 : BitVec 32) : Fin 3 → Nat :=
  let c11_i32_2471 : BitVec 32 := 11#32
  let c0_i32_2476 : BitVec 32 := 0#32
  ![11, v3100.toNat, 0]

def k0_chk506 (k0_t3 : Fin k0_t3_loop.trips) (v3100 : BitVec 32) : Prop :=
  (∀ (k0_h4 : k0_cond4 k0_t3 = 1#1), ∀ a, (k0_off533 v3100) a + S1x1x32.size a ≤ S26x100001x32.size a)
instance k0_chk506.dec : ∀ (k0_t3 : Fin k0_t3_loop.trips) (v3100 : BitVec 32), Decidable (k0_chk506 k0_t3 v3100) := fun k0_t3 v3100 => decidable_of_iff' _ (Iff.of_eq (k0_chk506.eq_1 k0_t3 v3100))
theorem k0_off533_inb : ∀ (k0_t3 : Fin k0_t3_loop.trips) (v3100 : BitVec 32) (k0_hw506 : k0_chk506 k0_t3 v3100), ∀ (k0_h4 : k0_cond4 k0_t3 = 1#1), ∀ a, (k0_off533 v3100) a + S1x1x32.size a ≤ S26x100001x32.size a := fun k0_t3 v3100 k0_hw506 k0_h4 => k0_hw506 k0_h4

def k0_off534 (v3110 : BitVec 32) : Fin 3 → Nat :=
  let c12_i32_2479 : BitVec 32 := 12#32
  let c0_i32_2484 : BitVec 32 := 0#32
  ![12, v3110.toNat, 0]

def k0_chk507 (k0_t3 : Fin k0_t3_loop.trips) (v3110 : BitVec 32) : Prop :=
  (∀ (k0_h4 : k0_cond4 k0_t3 = 1#1), ∀ a, (k0_off534 v3110) a + S1x1x32.size a ≤ S26x100001x32.size a)
instance k0_chk507.dec : ∀ (k0_t3 : Fin k0_t3_loop.trips) (v3110 : BitVec 32), Decidable (k0_chk507 k0_t3 v3110) := fun k0_t3 v3110 => decidable_of_iff' _ (Iff.of_eq (k0_chk507.eq_1 k0_t3 v3110))
theorem k0_off534_inb : ∀ (k0_t3 : Fin k0_t3_loop.trips) (v3110 : BitVec 32) (k0_hw507 : k0_chk507 k0_t3 v3110), ∀ (k0_h4 : k0_cond4 k0_t3 = 1#1), ∀ a, (k0_off534 v3110) a + S1x1x32.size a ≤ S26x100001x32.size a := fun k0_t3 v3110 k0_hw507 k0_h4 => k0_hw507 k0_h4

def k0_off535 (v3120 : BitVec 32) : Fin 3 → Nat :=
  let c13_i32_2487 : BitVec 32 := 13#32
  let c0_i32_2492 : BitVec 32 := 0#32
  ![13, v3120.toNat, 0]

def k0_chk508 (k0_t3 : Fin k0_t3_loop.trips) (v3120 : BitVec 32) : Prop :=
  (∀ (k0_h4 : k0_cond4 k0_t3 = 1#1), ∀ a, (k0_off535 v3120) a + S1x1x32.size a ≤ S26x100001x32.size a)
instance k0_chk508.dec : ∀ (k0_t3 : Fin k0_t3_loop.trips) (v3120 : BitVec 32), Decidable (k0_chk508 k0_t3 v3120) := fun k0_t3 v3120 => decidable_of_iff' _ (Iff.of_eq (k0_chk508.eq_1 k0_t3 v3120))
theorem k0_off535_inb : ∀ (k0_t3 : Fin k0_t3_loop.trips) (v3120 : BitVec 32) (k0_hw508 : k0_chk508 k0_t3 v3120), ∀ (k0_h4 : k0_cond4 k0_t3 = 1#1), ∀ a, (k0_off535 v3120) a + S1x1x32.size a ≤ S26x100001x32.size a := fun k0_t3 v3120 k0_hw508 k0_h4 => k0_hw508 k0_h4

def k0_off536 (v3130 : BitVec 32) : Fin 3 → Nat :=
  let c14_i32_2495 : BitVec 32 := 14#32
  let c0_i32_2500 : BitVec 32 := 0#32
  ![14, v3130.toNat, 0]

def k0_chk509 (k0_t3 : Fin k0_t3_loop.trips) (v3130 : BitVec 32) : Prop :=
  (∀ (k0_h4 : k0_cond4 k0_t3 = 1#1), ∀ a, (k0_off536 v3130) a + S1x1x32.size a ≤ S26x100001x32.size a)
instance k0_chk509.dec : ∀ (k0_t3 : Fin k0_t3_loop.trips) (v3130 : BitVec 32), Decidable (k0_chk509 k0_t3 v3130) := fun k0_t3 v3130 => decidable_of_iff' _ (Iff.of_eq (k0_chk509.eq_1 k0_t3 v3130))
theorem k0_off536_inb : ∀ (k0_t3 : Fin k0_t3_loop.trips) (v3130 : BitVec 32) (k0_hw509 : k0_chk509 k0_t3 v3130), ∀ (k0_h4 : k0_cond4 k0_t3 = 1#1), ∀ a, (k0_off536 v3130) a + S1x1x32.size a ≤ S26x100001x32.size a := fun k0_t3 v3130 k0_hw509 k0_h4 => k0_hw509 k0_h4

def k0_off537 (v3140 : BitVec 32) : Fin 3 → Nat :=
  let c15_i32_2503 : BitVec 32 := 15#32
  let c0_i32_2508 : BitVec 32 := 0#32
  ![15, v3140.toNat, 0]

def k0_chk510 (k0_t3 : Fin k0_t3_loop.trips) (v3140 : BitVec 32) : Prop :=
  (∀ (k0_h4 : k0_cond4 k0_t3 = 1#1), ∀ a, (k0_off537 v3140) a + S1x1x32.size a ≤ S26x100001x32.size a)
instance k0_chk510.dec : ∀ (k0_t3 : Fin k0_t3_loop.trips) (v3140 : BitVec 32), Decidable (k0_chk510 k0_t3 v3140) := fun k0_t3 v3140 => decidable_of_iff' _ (Iff.of_eq (k0_chk510.eq_1 k0_t3 v3140))
theorem k0_off537_inb : ∀ (k0_t3 : Fin k0_t3_loop.trips) (v3140 : BitVec 32) (k0_hw510 : k0_chk510 k0_t3 v3140), ∀ (k0_h4 : k0_cond4 k0_t3 = 1#1), ∀ a, (k0_off537 v3140) a + S1x1x32.size a ≤ S26x100001x32.size a := fun k0_t3 v3140 k0_hw510 k0_h4 => k0_hw510 k0_h4

def k0_off538 (v3150 : BitVec 32) : Fin 3 → Nat :=
  let c16_i32_2511 : BitVec 32 := 16#32
  let c0_i32_2516 : BitVec 32 := 0#32
  ![16, v3150.toNat, 0]

def k0_chk511 (k0_t3 : Fin k0_t3_loop.trips) (v3150 : BitVec 32) : Prop :=
  (∀ (k0_h4 : k0_cond4 k0_t3 = 1#1), ∀ a, (k0_off538 v3150) a + S1x1x32.size a ≤ S26x100001x32.size a)
instance k0_chk511.dec : ∀ (k0_t3 : Fin k0_t3_loop.trips) (v3150 : BitVec 32), Decidable (k0_chk511 k0_t3 v3150) := fun k0_t3 v3150 => decidable_of_iff' _ (Iff.of_eq (k0_chk511.eq_1 k0_t3 v3150))
theorem k0_off538_inb : ∀ (k0_t3 : Fin k0_t3_loop.trips) (v3150 : BitVec 32) (k0_hw511 : k0_chk511 k0_t3 v3150), ∀ (k0_h4 : k0_cond4 k0_t3 = 1#1), ∀ a, (k0_off538 v3150) a + S1x1x32.size a ≤ S26x100001x32.size a := fun k0_t3 v3150 k0_hw511 k0_h4 => k0_hw511 k0_h4

def k0_off539 (v3160 : BitVec 32) : Fin 3 → Nat :=
  let c17_i32_2519 : BitVec 32 := 17#32
  let c0_i32_2524 : BitVec 32 := 0#32
  ![17, v3160.toNat, 0]

def k0_chk512 (k0_t3 : Fin k0_t3_loop.trips) (v3160 : BitVec 32) : Prop :=
  (∀ (k0_h4 : k0_cond4 k0_t3 = 1#1), ∀ a, (k0_off539 v3160) a + S1x1x32.size a ≤ S26x100001x32.size a)
instance k0_chk512.dec : ∀ (k0_t3 : Fin k0_t3_loop.trips) (v3160 : BitVec 32), Decidable (k0_chk512 k0_t3 v3160) := fun k0_t3 v3160 => decidable_of_iff' _ (Iff.of_eq (k0_chk512.eq_1 k0_t3 v3160))
theorem k0_off539_inb : ∀ (k0_t3 : Fin k0_t3_loop.trips) (v3160 : BitVec 32) (k0_hw512 : k0_chk512 k0_t3 v3160), ∀ (k0_h4 : k0_cond4 k0_t3 = 1#1), ∀ a, (k0_off539 v3160) a + S1x1x32.size a ≤ S26x100001x32.size a := fun k0_t3 v3160 k0_hw512 k0_h4 => k0_hw512 k0_h4

def k0_off540 (v3170 : BitVec 32) : Fin 3 → Nat :=
  let c18_i32_2527 : BitVec 32 := 18#32
  let c0_i32_2532 : BitVec 32 := 0#32
  ![18, v3170.toNat, 0]

def k0_chk513 (k0_t3 : Fin k0_t3_loop.trips) (v3170 : BitVec 32) : Prop :=
  (∀ (k0_h4 : k0_cond4 k0_t3 = 1#1), ∀ a, (k0_off540 v3170) a + S1x1x32.size a ≤ S26x100001x32.size a)
instance k0_chk513.dec : ∀ (k0_t3 : Fin k0_t3_loop.trips) (v3170 : BitVec 32), Decidable (k0_chk513 k0_t3 v3170) := fun k0_t3 v3170 => decidable_of_iff' _ (Iff.of_eq (k0_chk513.eq_1 k0_t3 v3170))
theorem k0_off540_inb : ∀ (k0_t3 : Fin k0_t3_loop.trips) (v3170 : BitVec 32) (k0_hw513 : k0_chk513 k0_t3 v3170), ∀ (k0_h4 : k0_cond4 k0_t3 = 1#1), ∀ a, (k0_off540 v3170) a + S1x1x32.size a ≤ S26x100001x32.size a := fun k0_t3 v3170 k0_hw513 k0_h4 => k0_hw513 k0_h4

def k0_off541 (v3180 : BitVec 32) : Fin 3 → Nat :=
  let c19_i32_2535 : BitVec 32 := 19#32
  let c0_i32_2540 : BitVec 32 := 0#32
  ![19, v3180.toNat, 0]

def k0_chk514 (k0_t3 : Fin k0_t3_loop.trips) (v3180 : BitVec 32) : Prop :=
  (∀ (k0_h4 : k0_cond4 k0_t3 = 1#1), ∀ a, (k0_off541 v3180) a + S1x1x32.size a ≤ S26x100001x32.size a)
instance k0_chk514.dec : ∀ (k0_t3 : Fin k0_t3_loop.trips) (v3180 : BitVec 32), Decidable (k0_chk514 k0_t3 v3180) := fun k0_t3 v3180 => decidable_of_iff' _ (Iff.of_eq (k0_chk514.eq_1 k0_t3 v3180))
theorem k0_off541_inb : ∀ (k0_t3 : Fin k0_t3_loop.trips) (v3180 : BitVec 32) (k0_hw514 : k0_chk514 k0_t3 v3180), ∀ (k0_h4 : k0_cond4 k0_t3 = 1#1), ∀ a, (k0_off541 v3180) a + S1x1x32.size a ≤ S26x100001x32.size a := fun k0_t3 v3180 k0_hw514 k0_h4 => k0_hw514 k0_h4

def k0_off542 (v3190 : BitVec 32) : Fin 3 → Nat :=
  let c20_i32_2543 : BitVec 32 := 20#32
  let c0_i32_2548 : BitVec 32 := 0#32
  ![20, v3190.toNat, 0]

def k0_chk515 (k0_t3 : Fin k0_t3_loop.trips) (v3190 : BitVec 32) : Prop :=
  (∀ (k0_h4 : k0_cond4 k0_t3 = 1#1), ∀ a, (k0_off542 v3190) a + S1x1x32.size a ≤ S26x100001x32.size a)
instance k0_chk515.dec : ∀ (k0_t3 : Fin k0_t3_loop.trips) (v3190 : BitVec 32), Decidable (k0_chk515 k0_t3 v3190) := fun k0_t3 v3190 => decidable_of_iff' _ (Iff.of_eq (k0_chk515.eq_1 k0_t3 v3190))
theorem k0_off542_inb : ∀ (k0_t3 : Fin k0_t3_loop.trips) (v3190 : BitVec 32) (k0_hw515 : k0_chk515 k0_t3 v3190), ∀ (k0_h4 : k0_cond4 k0_t3 = 1#1), ∀ a, (k0_off542 v3190) a + S1x1x32.size a ≤ S26x100001x32.size a := fun k0_t3 v3190 k0_hw515 k0_h4 => k0_hw515 k0_h4

def k0_off543 (v3200 : BitVec 32) : Fin 3 → Nat :=
  let c21_i32_2551 : BitVec 32 := 21#32
  let c0_i32_2556 : BitVec 32 := 0#32
  ![21, v3200.toNat, 0]

def k0_chk516 (k0_t3 : Fin k0_t3_loop.trips) (v3200 : BitVec 32) : Prop :=
  (∀ (k0_h4 : k0_cond4 k0_t3 = 1#1), ∀ a, (k0_off543 v3200) a + S1x1x32.size a ≤ S26x100001x32.size a)
instance k0_chk516.dec : ∀ (k0_t3 : Fin k0_t3_loop.trips) (v3200 : BitVec 32), Decidable (k0_chk516 k0_t3 v3200) := fun k0_t3 v3200 => decidable_of_iff' _ (Iff.of_eq (k0_chk516.eq_1 k0_t3 v3200))
theorem k0_off543_inb : ∀ (k0_t3 : Fin k0_t3_loop.trips) (v3200 : BitVec 32) (k0_hw516 : k0_chk516 k0_t3 v3200), ∀ (k0_h4 : k0_cond4 k0_t3 = 1#1), ∀ a, (k0_off543 v3200) a + S1x1x32.size a ≤ S26x100001x32.size a := fun k0_t3 v3200 k0_hw516 k0_h4 => k0_hw516 k0_h4

def k0_off544 (v3210 : BitVec 32) : Fin 3 → Nat :=
  let c22_i32_2559 : BitVec 32 := 22#32
  let c0_i32_2564 : BitVec 32 := 0#32
  ![22, v3210.toNat, 0]

def k0_chk517 (k0_t3 : Fin k0_t3_loop.trips) (v3210 : BitVec 32) : Prop :=
  (∀ (k0_h4 : k0_cond4 k0_t3 = 1#1), ∀ a, (k0_off544 v3210) a + S1x1x32.size a ≤ S26x100001x32.size a)
instance k0_chk517.dec : ∀ (k0_t3 : Fin k0_t3_loop.trips) (v3210 : BitVec 32), Decidable (k0_chk517 k0_t3 v3210) := fun k0_t3 v3210 => decidable_of_iff' _ (Iff.of_eq (k0_chk517.eq_1 k0_t3 v3210))
theorem k0_off544_inb : ∀ (k0_t3 : Fin k0_t3_loop.trips) (v3210 : BitVec 32) (k0_hw517 : k0_chk517 k0_t3 v3210), ∀ (k0_h4 : k0_cond4 k0_t3 = 1#1), ∀ a, (k0_off544 v3210) a + S1x1x32.size a ≤ S26x100001x32.size a := fun k0_t3 v3210 k0_hw517 k0_h4 => k0_hw517 k0_h4

def k0_off545 (v3220 : BitVec 32) : Fin 3 → Nat :=
  let c23_i32_2567 : BitVec 32 := 23#32
  let c0_i32_2572 : BitVec 32 := 0#32
  ![23, v3220.toNat, 0]

def k0_chk518 (k0_t3 : Fin k0_t3_loop.trips) (v3220 : BitVec 32) : Prop :=
  (∀ (k0_h4 : k0_cond4 k0_t3 = 1#1), ∀ a, (k0_off545 v3220) a + S1x1x32.size a ≤ S26x100001x32.size a)
instance k0_chk518.dec : ∀ (k0_t3 : Fin k0_t3_loop.trips) (v3220 : BitVec 32), Decidable (k0_chk518 k0_t3 v3220) := fun k0_t3 v3220 => decidable_of_iff' _ (Iff.of_eq (k0_chk518.eq_1 k0_t3 v3220))
theorem k0_off545_inb : ∀ (k0_t3 : Fin k0_t3_loop.trips) (v3220 : BitVec 32) (k0_hw518 : k0_chk518 k0_t3 v3220), ∀ (k0_h4 : k0_cond4 k0_t3 = 1#1), ∀ a, (k0_off545 v3220) a + S1x1x32.size a ≤ S26x100001x32.size a := fun k0_t3 v3220 k0_hw518 k0_h4 => k0_hw518 k0_h4

def k0_off546 (v3230 : BitVec 32) : Fin 3 → Nat :=
  let c24_i32_2575 : BitVec 32 := 24#32
  let c0_i32_2580 : BitVec 32 := 0#32
  ![24, v3230.toNat, 0]

def k0_chk519 (k0_t3 : Fin k0_t3_loop.trips) (v3230 : BitVec 32) : Prop :=
  (∀ (k0_h4 : k0_cond4 k0_t3 = 1#1), ∀ a, (k0_off546 v3230) a + S1x1x32.size a ≤ S26x100001x32.size a)
instance k0_chk519.dec : ∀ (k0_t3 : Fin k0_t3_loop.trips) (v3230 : BitVec 32), Decidable (k0_chk519 k0_t3 v3230) := fun k0_t3 v3230 => decidable_of_iff' _ (Iff.of_eq (k0_chk519.eq_1 k0_t3 v3230))
theorem k0_off546_inb : ∀ (k0_t3 : Fin k0_t3_loop.trips) (v3230 : BitVec 32) (k0_hw519 : k0_chk519 k0_t3 v3230), ∀ (k0_h4 : k0_cond4 k0_t3 = 1#1), ∀ a, (k0_off546 v3230) a + S1x1x32.size a ≤ S26x100001x32.size a := fun k0_t3 v3230 k0_hw519 k0_h4 => k0_hw519 k0_h4

def k0_off547 (v3240 : BitVec 32) : Fin 3 → Nat :=
  let c25_i32_2583 : BitVec 32 := 25#32
  let c0_i32_2588 : BitVec 32 := 0#32
  ![25, v3240.toNat, 0]

def k0_chk520 (k0_t3 : Fin k0_t3_loop.trips) (v3240 : BitVec 32) : Prop :=
  (∀ (k0_h4 : k0_cond4 k0_t3 = 1#1), ∀ a, (k0_off547 v3240) a + S1x1x32.size a ≤ S26x100001x32.size a)
instance k0_chk520.dec : ∀ (k0_t3 : Fin k0_t3_loop.trips) (v3240 : BitVec 32), Decidable (k0_chk520 k0_t3 v3240) := fun k0_t3 v3240 => decidable_of_iff' _ (Iff.of_eq (k0_chk520.eq_1 k0_t3 v3240))
theorem k0_off547_inb : ∀ (k0_t3 : Fin k0_t3_loop.trips) (v3240 : BitVec 32) (k0_hw520 : k0_chk520 k0_t3 v3240), ∀ (k0_h4 : k0_cond4 k0_t3 = 1#1), ∀ a, (k0_off547 v3240) a + S1x1x32.size a ≤ S26x100001x32.size a := fun k0_t3 v3240 k0_hw520 k0_h4 => k0_hw520 k0_h4

def k0_off548 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c4_i32_2591 : BitVec 32 := 4#32
  let v3249 : BitVec 32 := Scalar.addi v2176 c4_i32_2591
  let v3250 : Index := Scalar.indexCast v3249
  let c0_2592 : Index := 0#32
  ![v3250.toNat, 0]
def k0_off549 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c4_i32_2593 : BitVec 32 := 4#32
  let v3253 : BitVec 32 := Scalar.addi v2176 c4_i32_2593
  let v3254 : Index := Scalar.indexCast v3253
  let c16_2594 : Index := 16#32
  ![v3254.toNat, 16]
def k0_off550 (v3258 : BitVec 32) : Fin 3 → Nat :=
  let c0_i32_2595 : BitVec 32 := 0#32
  let c0_i32_2600 : BitVec 32 := 0#32
  ![0, v3258.toNat, 0]

def k0_chk521 (k0_t3 : Fin k0_t3_loop.trips) (v3258 : BitVec 32) : Prop :=
  (∀ (k0_h4 : k0_cond4 k0_t3 = 1#1), ∀ a, (k0_off550 v3258) a + S1x1x32.size a ≤ S26x100001x32.size a)
instance k0_chk521.dec : ∀ (k0_t3 : Fin k0_t3_loop.trips) (v3258 : BitVec 32), Decidable (k0_chk521 k0_t3 v3258) := fun k0_t3 v3258 => decidable_of_iff' _ (Iff.of_eq (k0_chk521.eq_1 k0_t3 v3258))
theorem k0_off550_inb : ∀ (k0_t3 : Fin k0_t3_loop.trips) (v3258 : BitVec 32) (k0_hw521 : k0_chk521 k0_t3 v3258), ∀ (k0_h4 : k0_cond4 k0_t3 = 1#1), ∀ a, (k0_off550 v3258) a + S1x1x32.size a ≤ S26x100001x32.size a := fun k0_t3 v3258 k0_hw521 k0_h4 => k0_hw521 k0_h4

def k0_off551 (v3268 : BitVec 32) : Fin 3 → Nat :=
  let c1_i32_2603 : BitVec 32 := 1#32
  let c0_i32_2608 : BitVec 32 := 0#32
  ![1, v3268.toNat, 0]

def k0_chk522 (k0_t3 : Fin k0_t3_loop.trips) (v3268 : BitVec 32) : Prop :=
  (∀ (k0_h4 : k0_cond4 k0_t3 = 1#1), ∀ a, (k0_off551 v3268) a + S1x1x32.size a ≤ S26x100001x32.size a)
instance k0_chk522.dec : ∀ (k0_t3 : Fin k0_t3_loop.trips) (v3268 : BitVec 32), Decidable (k0_chk522 k0_t3 v3268) := fun k0_t3 v3268 => decidable_of_iff' _ (Iff.of_eq (k0_chk522.eq_1 k0_t3 v3268))
theorem k0_off551_inb : ∀ (k0_t3 : Fin k0_t3_loop.trips) (v3268 : BitVec 32) (k0_hw522 : k0_chk522 k0_t3 v3268), ∀ (k0_h4 : k0_cond4 k0_t3 = 1#1), ∀ a, (k0_off551 v3268) a + S1x1x32.size a ≤ S26x100001x32.size a := fun k0_t3 v3268 k0_hw522 k0_h4 => k0_hw522 k0_h4

def k0_off552 (v3278 : BitVec 32) : Fin 3 → Nat :=
  let c2_i32_2611 : BitVec 32 := 2#32
  let c0_i32_2616 : BitVec 32 := 0#32
  ![2, v3278.toNat, 0]

def k0_chk523 (k0_t3 : Fin k0_t3_loop.trips) (v3278 : BitVec 32) : Prop :=
  (∀ (k0_h4 : k0_cond4 k0_t3 = 1#1), ∀ a, (k0_off552 v3278) a + S1x1x32.size a ≤ S26x100001x32.size a)
instance k0_chk523.dec : ∀ (k0_t3 : Fin k0_t3_loop.trips) (v3278 : BitVec 32), Decidable (k0_chk523 k0_t3 v3278) := fun k0_t3 v3278 => decidable_of_iff' _ (Iff.of_eq (k0_chk523.eq_1 k0_t3 v3278))
theorem k0_off552_inb : ∀ (k0_t3 : Fin k0_t3_loop.trips) (v3278 : BitVec 32) (k0_hw523 : k0_chk523 k0_t3 v3278), ∀ (k0_h4 : k0_cond4 k0_t3 = 1#1), ∀ a, (k0_off552 v3278) a + S1x1x32.size a ≤ S26x100001x32.size a := fun k0_t3 v3278 k0_hw523 k0_h4 => k0_hw523 k0_h4

def k0_off553 (v3288 : BitVec 32) : Fin 3 → Nat :=
  let c3_i32_2619 : BitVec 32 := 3#32
  let c0_i32_2624 : BitVec 32 := 0#32
  ![3, v3288.toNat, 0]

def k0_chk524 (k0_t3 : Fin k0_t3_loop.trips) (v3288 : BitVec 32) : Prop :=
  (∀ (k0_h4 : k0_cond4 k0_t3 = 1#1), ∀ a, (k0_off553 v3288) a + S1x1x32.size a ≤ S26x100001x32.size a)
instance k0_chk524.dec : ∀ (k0_t3 : Fin k0_t3_loop.trips) (v3288 : BitVec 32), Decidable (k0_chk524 k0_t3 v3288) := fun k0_t3 v3288 => decidable_of_iff' _ (Iff.of_eq (k0_chk524.eq_1 k0_t3 v3288))
theorem k0_off553_inb : ∀ (k0_t3 : Fin k0_t3_loop.trips) (v3288 : BitVec 32) (k0_hw524 : k0_chk524 k0_t3 v3288), ∀ (k0_h4 : k0_cond4 k0_t3 = 1#1), ∀ a, (k0_off553 v3288) a + S1x1x32.size a ≤ S26x100001x32.size a := fun k0_t3 v3288 k0_hw524 k0_h4 => k0_hw524 k0_h4

def k0_off554 (v3298 : BitVec 32) : Fin 3 → Nat :=
  let c4_i32_2627 : BitVec 32 := 4#32
  let c0_i32_2632 : BitVec 32 := 0#32
  ![4, v3298.toNat, 0]

def k0_chk525 (k0_t3 : Fin k0_t3_loop.trips) (v3298 : BitVec 32) : Prop :=
  (∀ (k0_h4 : k0_cond4 k0_t3 = 1#1), ∀ a, (k0_off554 v3298) a + S1x1x32.size a ≤ S26x100001x32.size a)
instance k0_chk525.dec : ∀ (k0_t3 : Fin k0_t3_loop.trips) (v3298 : BitVec 32), Decidable (k0_chk525 k0_t3 v3298) := fun k0_t3 v3298 => decidable_of_iff' _ (Iff.of_eq (k0_chk525.eq_1 k0_t3 v3298))
theorem k0_off554_inb : ∀ (k0_t3 : Fin k0_t3_loop.trips) (v3298 : BitVec 32) (k0_hw525 : k0_chk525 k0_t3 v3298), ∀ (k0_h4 : k0_cond4 k0_t3 = 1#1), ∀ a, (k0_off554 v3298) a + S1x1x32.size a ≤ S26x100001x32.size a := fun k0_t3 v3298 k0_hw525 k0_h4 => k0_hw525 k0_h4

def k0_off555 (v3308 : BitVec 32) : Fin 3 → Nat :=
  let c5_i32_2635 : BitVec 32 := 5#32
  let c0_i32_2640 : BitVec 32 := 0#32
  ![5, v3308.toNat, 0]

def k0_chk526 (k0_t3 : Fin k0_t3_loop.trips) (v3308 : BitVec 32) : Prop :=
  (∀ (k0_h4 : k0_cond4 k0_t3 = 1#1), ∀ a, (k0_off555 v3308) a + S1x1x32.size a ≤ S26x100001x32.size a)
instance k0_chk526.dec : ∀ (k0_t3 : Fin k0_t3_loop.trips) (v3308 : BitVec 32), Decidable (k0_chk526 k0_t3 v3308) := fun k0_t3 v3308 => decidable_of_iff' _ (Iff.of_eq (k0_chk526.eq_1 k0_t3 v3308))
theorem k0_off555_inb : ∀ (k0_t3 : Fin k0_t3_loop.trips) (v3308 : BitVec 32) (k0_hw526 : k0_chk526 k0_t3 v3308), ∀ (k0_h4 : k0_cond4 k0_t3 = 1#1), ∀ a, (k0_off555 v3308) a + S1x1x32.size a ≤ S26x100001x32.size a := fun k0_t3 v3308 k0_hw526 k0_h4 => k0_hw526 k0_h4

def k0_off556 (v3318 : BitVec 32) : Fin 3 → Nat :=
  let c6_i32_2643 : BitVec 32 := 6#32
  let c0_i32_2648 : BitVec 32 := 0#32
  ![6, v3318.toNat, 0]

def k0_chk527 (k0_t3 : Fin k0_t3_loop.trips) (v3318 : BitVec 32) : Prop :=
  (∀ (k0_h4 : k0_cond4 k0_t3 = 1#1), ∀ a, (k0_off556 v3318) a + S1x1x32.size a ≤ S26x100001x32.size a)
instance k0_chk527.dec : ∀ (k0_t3 : Fin k0_t3_loop.trips) (v3318 : BitVec 32), Decidable (k0_chk527 k0_t3 v3318) := fun k0_t3 v3318 => decidable_of_iff' _ (Iff.of_eq (k0_chk527.eq_1 k0_t3 v3318))
theorem k0_off556_inb : ∀ (k0_t3 : Fin k0_t3_loop.trips) (v3318 : BitVec 32) (k0_hw527 : k0_chk527 k0_t3 v3318), ∀ (k0_h4 : k0_cond4 k0_t3 = 1#1), ∀ a, (k0_off556 v3318) a + S1x1x32.size a ≤ S26x100001x32.size a := fun k0_t3 v3318 k0_hw527 k0_h4 => k0_hw527 k0_h4

def k0_off557 (v3328 : BitVec 32) : Fin 3 → Nat :=
  let c7_i32_2651 : BitVec 32 := 7#32
  let c0_i32_2656 : BitVec 32 := 0#32
  ![7, v3328.toNat, 0]

def k0_chk528 (k0_t3 : Fin k0_t3_loop.trips) (v3328 : BitVec 32) : Prop :=
  (∀ (k0_h4 : k0_cond4 k0_t3 = 1#1), ∀ a, (k0_off557 v3328) a + S1x1x32.size a ≤ S26x100001x32.size a)
instance k0_chk528.dec : ∀ (k0_t3 : Fin k0_t3_loop.trips) (v3328 : BitVec 32), Decidable (k0_chk528 k0_t3 v3328) := fun k0_t3 v3328 => decidable_of_iff' _ (Iff.of_eq (k0_chk528.eq_1 k0_t3 v3328))
theorem k0_off557_inb : ∀ (k0_t3 : Fin k0_t3_loop.trips) (v3328 : BitVec 32) (k0_hw528 : k0_chk528 k0_t3 v3328), ∀ (k0_h4 : k0_cond4 k0_t3 = 1#1), ∀ a, (k0_off557 v3328) a + S1x1x32.size a ≤ S26x100001x32.size a := fun k0_t3 v3328 k0_hw528 k0_h4 => k0_hw528 k0_h4

def k0_off558 (v3338 : BitVec 32) : Fin 3 → Nat :=
  let c8_i32_2659 : BitVec 32 := 8#32
  let c0_i32_2664 : BitVec 32 := 0#32
  ![8, v3338.toNat, 0]

def k0_chk529 (k0_t3 : Fin k0_t3_loop.trips) (v3338 : BitVec 32) : Prop :=
  (∀ (k0_h4 : k0_cond4 k0_t3 = 1#1), ∀ a, (k0_off558 v3338) a + S1x1x32.size a ≤ S26x100001x32.size a)
instance k0_chk529.dec : ∀ (k0_t3 : Fin k0_t3_loop.trips) (v3338 : BitVec 32), Decidable (k0_chk529 k0_t3 v3338) := fun k0_t3 v3338 => decidable_of_iff' _ (Iff.of_eq (k0_chk529.eq_1 k0_t3 v3338))
theorem k0_off558_inb : ∀ (k0_t3 : Fin k0_t3_loop.trips) (v3338 : BitVec 32) (k0_hw529 : k0_chk529 k0_t3 v3338), ∀ (k0_h4 : k0_cond4 k0_t3 = 1#1), ∀ a, (k0_off558 v3338) a + S1x1x32.size a ≤ S26x100001x32.size a := fun k0_t3 v3338 k0_hw529 k0_h4 => k0_hw529 k0_h4

def k0_off559 (v3348 : BitVec 32) : Fin 3 → Nat :=
  let c9_i32_2667 : BitVec 32 := 9#32
  let c0_i32_2672 : BitVec 32 := 0#32
  ![9, v3348.toNat, 0]

def k0_chk530 (k0_t3 : Fin k0_t3_loop.trips) (v3348 : BitVec 32) : Prop :=
  (∀ (k0_h4 : k0_cond4 k0_t3 = 1#1), ∀ a, (k0_off559 v3348) a + S1x1x32.size a ≤ S26x100001x32.size a)
instance k0_chk530.dec : ∀ (k0_t3 : Fin k0_t3_loop.trips) (v3348 : BitVec 32), Decidable (k0_chk530 k0_t3 v3348) := fun k0_t3 v3348 => decidable_of_iff' _ (Iff.of_eq (k0_chk530.eq_1 k0_t3 v3348))
theorem k0_off559_inb : ∀ (k0_t3 : Fin k0_t3_loop.trips) (v3348 : BitVec 32) (k0_hw530 : k0_chk530 k0_t3 v3348), ∀ (k0_h4 : k0_cond4 k0_t3 = 1#1), ∀ a, (k0_off559 v3348) a + S1x1x32.size a ≤ S26x100001x32.size a := fun k0_t3 v3348 k0_hw530 k0_h4 => k0_hw530 k0_h4

def k0_off560 (v3358 : BitVec 32) : Fin 3 → Nat :=
  let c10_i32_2675 : BitVec 32 := 10#32
  let c0_i32_2680 : BitVec 32 := 0#32
  ![10, v3358.toNat, 0]

def k0_chk531 (k0_t3 : Fin k0_t3_loop.trips) (v3358 : BitVec 32) : Prop :=
  (∀ (k0_h4 : k0_cond4 k0_t3 = 1#1), ∀ a, (k0_off560 v3358) a + S1x1x32.size a ≤ S26x100001x32.size a)
instance k0_chk531.dec : ∀ (k0_t3 : Fin k0_t3_loop.trips) (v3358 : BitVec 32), Decidable (k0_chk531 k0_t3 v3358) := fun k0_t3 v3358 => decidable_of_iff' _ (Iff.of_eq (k0_chk531.eq_1 k0_t3 v3358))
theorem k0_off560_inb : ∀ (k0_t3 : Fin k0_t3_loop.trips) (v3358 : BitVec 32) (k0_hw531 : k0_chk531 k0_t3 v3358), ∀ (k0_h4 : k0_cond4 k0_t3 = 1#1), ∀ a, (k0_off560 v3358) a + S1x1x32.size a ≤ S26x100001x32.size a := fun k0_t3 v3358 k0_hw531 k0_h4 => k0_hw531 k0_h4

def k0_off561 (v3368 : BitVec 32) : Fin 3 → Nat :=
  let c11_i32_2683 : BitVec 32 := 11#32
  let c0_i32_2688 : BitVec 32 := 0#32
  ![11, v3368.toNat, 0]

def k0_chk532 (k0_t3 : Fin k0_t3_loop.trips) (v3368 : BitVec 32) : Prop :=
  (∀ (k0_h4 : k0_cond4 k0_t3 = 1#1), ∀ a, (k0_off561 v3368) a + S1x1x32.size a ≤ S26x100001x32.size a)
instance k0_chk532.dec : ∀ (k0_t3 : Fin k0_t3_loop.trips) (v3368 : BitVec 32), Decidable (k0_chk532 k0_t3 v3368) := fun k0_t3 v3368 => decidable_of_iff' _ (Iff.of_eq (k0_chk532.eq_1 k0_t3 v3368))
theorem k0_off561_inb : ∀ (k0_t3 : Fin k0_t3_loop.trips) (v3368 : BitVec 32) (k0_hw532 : k0_chk532 k0_t3 v3368), ∀ (k0_h4 : k0_cond4 k0_t3 = 1#1), ∀ a, (k0_off561 v3368) a + S1x1x32.size a ≤ S26x100001x32.size a := fun k0_t3 v3368 k0_hw532 k0_h4 => k0_hw532 k0_h4

def k0_off562 (v3378 : BitVec 32) : Fin 3 → Nat :=
  let c12_i32_2691 : BitVec 32 := 12#32
  let c0_i32_2696 : BitVec 32 := 0#32
  ![12, v3378.toNat, 0]

def k0_chk533 (k0_t3 : Fin k0_t3_loop.trips) (v3378 : BitVec 32) : Prop :=
  (∀ (k0_h4 : k0_cond4 k0_t3 = 1#1), ∀ a, (k0_off562 v3378) a + S1x1x32.size a ≤ S26x100001x32.size a)
instance k0_chk533.dec : ∀ (k0_t3 : Fin k0_t3_loop.trips) (v3378 : BitVec 32), Decidable (k0_chk533 k0_t3 v3378) := fun k0_t3 v3378 => decidable_of_iff' _ (Iff.of_eq (k0_chk533.eq_1 k0_t3 v3378))
theorem k0_off562_inb : ∀ (k0_t3 : Fin k0_t3_loop.trips) (v3378 : BitVec 32) (k0_hw533 : k0_chk533 k0_t3 v3378), ∀ (k0_h4 : k0_cond4 k0_t3 = 1#1), ∀ a, (k0_off562 v3378) a + S1x1x32.size a ≤ S26x100001x32.size a := fun k0_t3 v3378 k0_hw533 k0_h4 => k0_hw533 k0_h4

def k0_off563 (v3388 : BitVec 32) : Fin 3 → Nat :=
  let c13_i32_2699 : BitVec 32 := 13#32
  let c0_i32_2704 : BitVec 32 := 0#32
  ![13, v3388.toNat, 0]

def k0_chk534 (k0_t3 : Fin k0_t3_loop.trips) (v3388 : BitVec 32) : Prop :=
  (∀ (k0_h4 : k0_cond4 k0_t3 = 1#1), ∀ a, (k0_off563 v3388) a + S1x1x32.size a ≤ S26x100001x32.size a)
instance k0_chk534.dec : ∀ (k0_t3 : Fin k0_t3_loop.trips) (v3388 : BitVec 32), Decidable (k0_chk534 k0_t3 v3388) := fun k0_t3 v3388 => decidable_of_iff' _ (Iff.of_eq (k0_chk534.eq_1 k0_t3 v3388))
theorem k0_off563_inb : ∀ (k0_t3 : Fin k0_t3_loop.trips) (v3388 : BitVec 32) (k0_hw534 : k0_chk534 k0_t3 v3388), ∀ (k0_h4 : k0_cond4 k0_t3 = 1#1), ∀ a, (k0_off563 v3388) a + S1x1x32.size a ≤ S26x100001x32.size a := fun k0_t3 v3388 k0_hw534 k0_h4 => k0_hw534 k0_h4

def k0_off564 (v3398 : BitVec 32) : Fin 3 → Nat :=
  let c14_i32_2707 : BitVec 32 := 14#32
  let c0_i32_2712 : BitVec 32 := 0#32
  ![14, v3398.toNat, 0]

def k0_chk535 (k0_t3 : Fin k0_t3_loop.trips) (v3398 : BitVec 32) : Prop :=
  (∀ (k0_h4 : k0_cond4 k0_t3 = 1#1), ∀ a, (k0_off564 v3398) a + S1x1x32.size a ≤ S26x100001x32.size a)
instance k0_chk535.dec : ∀ (k0_t3 : Fin k0_t3_loop.trips) (v3398 : BitVec 32), Decidable (k0_chk535 k0_t3 v3398) := fun k0_t3 v3398 => decidable_of_iff' _ (Iff.of_eq (k0_chk535.eq_1 k0_t3 v3398))
theorem k0_off564_inb : ∀ (k0_t3 : Fin k0_t3_loop.trips) (v3398 : BitVec 32) (k0_hw535 : k0_chk535 k0_t3 v3398), ∀ (k0_h4 : k0_cond4 k0_t3 = 1#1), ∀ a, (k0_off564 v3398) a + S1x1x32.size a ≤ S26x100001x32.size a := fun k0_t3 v3398 k0_hw535 k0_h4 => k0_hw535 k0_h4

def k0_off565 (v3408 : BitVec 32) : Fin 3 → Nat :=
  let c15_i32_2715 : BitVec 32 := 15#32
  let c0_i32_2720 : BitVec 32 := 0#32
  ![15, v3408.toNat, 0]

def k0_chk536 (k0_t3 : Fin k0_t3_loop.trips) (v3408 : BitVec 32) : Prop :=
  (∀ (k0_h4 : k0_cond4 k0_t3 = 1#1), ∀ a, (k0_off565 v3408) a + S1x1x32.size a ≤ S26x100001x32.size a)
instance k0_chk536.dec : ∀ (k0_t3 : Fin k0_t3_loop.trips) (v3408 : BitVec 32), Decidable (k0_chk536 k0_t3 v3408) := fun k0_t3 v3408 => decidable_of_iff' _ (Iff.of_eq (k0_chk536.eq_1 k0_t3 v3408))
theorem k0_off565_inb : ∀ (k0_t3 : Fin k0_t3_loop.trips) (v3408 : BitVec 32) (k0_hw536 : k0_chk536 k0_t3 v3408), ∀ (k0_h4 : k0_cond4 k0_t3 = 1#1), ∀ a, (k0_off565 v3408) a + S1x1x32.size a ≤ S26x100001x32.size a := fun k0_t3 v3408 k0_hw536 k0_h4 => k0_hw536 k0_h4

def k0_off566 (v3418 : BitVec 32) : Fin 3 → Nat :=
  let c16_i32_2723 : BitVec 32 := 16#32
  let c0_i32_2728 : BitVec 32 := 0#32
  ![16, v3418.toNat, 0]

def k0_chk537 (k0_t3 : Fin k0_t3_loop.trips) (v3418 : BitVec 32) : Prop :=
  (∀ (k0_h4 : k0_cond4 k0_t3 = 1#1), ∀ a, (k0_off566 v3418) a + S1x1x32.size a ≤ S26x100001x32.size a)
instance k0_chk537.dec : ∀ (k0_t3 : Fin k0_t3_loop.trips) (v3418 : BitVec 32), Decidable (k0_chk537 k0_t3 v3418) := fun k0_t3 v3418 => decidable_of_iff' _ (Iff.of_eq (k0_chk537.eq_1 k0_t3 v3418))
theorem k0_off566_inb : ∀ (k0_t3 : Fin k0_t3_loop.trips) (v3418 : BitVec 32) (k0_hw537 : k0_chk537 k0_t3 v3418), ∀ (k0_h4 : k0_cond4 k0_t3 = 1#1), ∀ a, (k0_off566 v3418) a + S1x1x32.size a ≤ S26x100001x32.size a := fun k0_t3 v3418 k0_hw537 k0_h4 => k0_hw537 k0_h4

def k0_off567 (v3428 : BitVec 32) : Fin 3 → Nat :=
  let c17_i32_2731 : BitVec 32 := 17#32
  let c0_i32_2736 : BitVec 32 := 0#32
  ![17, v3428.toNat, 0]

def k0_chk538 (k0_t3 : Fin k0_t3_loop.trips) (v3428 : BitVec 32) : Prop :=
  (∀ (k0_h4 : k0_cond4 k0_t3 = 1#1), ∀ a, (k0_off567 v3428) a + S1x1x32.size a ≤ S26x100001x32.size a)
instance k0_chk538.dec : ∀ (k0_t3 : Fin k0_t3_loop.trips) (v3428 : BitVec 32), Decidable (k0_chk538 k0_t3 v3428) := fun k0_t3 v3428 => decidable_of_iff' _ (Iff.of_eq (k0_chk538.eq_1 k0_t3 v3428))
theorem k0_off567_inb : ∀ (k0_t3 : Fin k0_t3_loop.trips) (v3428 : BitVec 32) (k0_hw538 : k0_chk538 k0_t3 v3428), ∀ (k0_h4 : k0_cond4 k0_t3 = 1#1), ∀ a, (k0_off567 v3428) a + S1x1x32.size a ≤ S26x100001x32.size a := fun k0_t3 v3428 k0_hw538 k0_h4 => k0_hw538 k0_h4

def k0_off568 (v3438 : BitVec 32) : Fin 3 → Nat :=
  let c18_i32_2739 : BitVec 32 := 18#32
  let c0_i32_2744 : BitVec 32 := 0#32
  ![18, v3438.toNat, 0]

def k0_chk539 (k0_t3 : Fin k0_t3_loop.trips) (v3438 : BitVec 32) : Prop :=
  (∀ (k0_h4 : k0_cond4 k0_t3 = 1#1), ∀ a, (k0_off568 v3438) a + S1x1x32.size a ≤ S26x100001x32.size a)
instance k0_chk539.dec : ∀ (k0_t3 : Fin k0_t3_loop.trips) (v3438 : BitVec 32), Decidable (k0_chk539 k0_t3 v3438) := fun k0_t3 v3438 => decidable_of_iff' _ (Iff.of_eq (k0_chk539.eq_1 k0_t3 v3438))
theorem k0_off568_inb : ∀ (k0_t3 : Fin k0_t3_loop.trips) (v3438 : BitVec 32) (k0_hw539 : k0_chk539 k0_t3 v3438), ∀ (k0_h4 : k0_cond4 k0_t3 = 1#1), ∀ a, (k0_off568 v3438) a + S1x1x32.size a ≤ S26x100001x32.size a := fun k0_t3 v3438 k0_hw539 k0_h4 => k0_hw539 k0_h4

def k0_off569 (v3448 : BitVec 32) : Fin 3 → Nat :=
  let c19_i32_2747 : BitVec 32 := 19#32
  let c0_i32_2752 : BitVec 32 := 0#32
  ![19, v3448.toNat, 0]

def k0_chk540 (k0_t3 : Fin k0_t3_loop.trips) (v3448 : BitVec 32) : Prop :=
  (∀ (k0_h4 : k0_cond4 k0_t3 = 1#1), ∀ a, (k0_off569 v3448) a + S1x1x32.size a ≤ S26x100001x32.size a)
instance k0_chk540.dec : ∀ (k0_t3 : Fin k0_t3_loop.trips) (v3448 : BitVec 32), Decidable (k0_chk540 k0_t3 v3448) := fun k0_t3 v3448 => decidable_of_iff' _ (Iff.of_eq (k0_chk540.eq_1 k0_t3 v3448))
theorem k0_off569_inb : ∀ (k0_t3 : Fin k0_t3_loop.trips) (v3448 : BitVec 32) (k0_hw540 : k0_chk540 k0_t3 v3448), ∀ (k0_h4 : k0_cond4 k0_t3 = 1#1), ∀ a, (k0_off569 v3448) a + S1x1x32.size a ≤ S26x100001x32.size a := fun k0_t3 v3448 k0_hw540 k0_h4 => k0_hw540 k0_h4

def k0_off570 (v3458 : BitVec 32) : Fin 3 → Nat :=
  let c20_i32_2755 : BitVec 32 := 20#32
  let c0_i32_2760 : BitVec 32 := 0#32
  ![20, v3458.toNat, 0]

def k0_chk541 (k0_t3 : Fin k0_t3_loop.trips) (v3458 : BitVec 32) : Prop :=
  (∀ (k0_h4 : k0_cond4 k0_t3 = 1#1), ∀ a, (k0_off570 v3458) a + S1x1x32.size a ≤ S26x100001x32.size a)
instance k0_chk541.dec : ∀ (k0_t3 : Fin k0_t3_loop.trips) (v3458 : BitVec 32), Decidable (k0_chk541 k0_t3 v3458) := fun k0_t3 v3458 => decidable_of_iff' _ (Iff.of_eq (k0_chk541.eq_1 k0_t3 v3458))
theorem k0_off570_inb : ∀ (k0_t3 : Fin k0_t3_loop.trips) (v3458 : BitVec 32) (k0_hw541 : k0_chk541 k0_t3 v3458), ∀ (k0_h4 : k0_cond4 k0_t3 = 1#1), ∀ a, (k0_off570 v3458) a + S1x1x32.size a ≤ S26x100001x32.size a := fun k0_t3 v3458 k0_hw541 k0_h4 => k0_hw541 k0_h4

def k0_off571 (v3468 : BitVec 32) : Fin 3 → Nat :=
  let c21_i32_2763 : BitVec 32 := 21#32
  let c0_i32_2768 : BitVec 32 := 0#32
  ![21, v3468.toNat, 0]

def k0_chk542 (k0_t3 : Fin k0_t3_loop.trips) (v3468 : BitVec 32) : Prop :=
  (∀ (k0_h4 : k0_cond4 k0_t3 = 1#1), ∀ a, (k0_off571 v3468) a + S1x1x32.size a ≤ S26x100001x32.size a)
instance k0_chk542.dec : ∀ (k0_t3 : Fin k0_t3_loop.trips) (v3468 : BitVec 32), Decidable (k0_chk542 k0_t3 v3468) := fun k0_t3 v3468 => decidable_of_iff' _ (Iff.of_eq (k0_chk542.eq_1 k0_t3 v3468))
theorem k0_off571_inb : ∀ (k0_t3 : Fin k0_t3_loop.trips) (v3468 : BitVec 32) (k0_hw542 : k0_chk542 k0_t3 v3468), ∀ (k0_h4 : k0_cond4 k0_t3 = 1#1), ∀ a, (k0_off571 v3468) a + S1x1x32.size a ≤ S26x100001x32.size a := fun k0_t3 v3468 k0_hw542 k0_h4 => k0_hw542 k0_h4

def k0_off572 (v3478 : BitVec 32) : Fin 3 → Nat :=
  let c22_i32_2771 : BitVec 32 := 22#32
  let c0_i32_2776 : BitVec 32 := 0#32
  ![22, v3478.toNat, 0]

def k0_chk543 (k0_t3 : Fin k0_t3_loop.trips) (v3478 : BitVec 32) : Prop :=
  (∀ (k0_h4 : k0_cond4 k0_t3 = 1#1), ∀ a, (k0_off572 v3478) a + S1x1x32.size a ≤ S26x100001x32.size a)
instance k0_chk543.dec : ∀ (k0_t3 : Fin k0_t3_loop.trips) (v3478 : BitVec 32), Decidable (k0_chk543 k0_t3 v3478) := fun k0_t3 v3478 => decidable_of_iff' _ (Iff.of_eq (k0_chk543.eq_1 k0_t3 v3478))
theorem k0_off572_inb : ∀ (k0_t3 : Fin k0_t3_loop.trips) (v3478 : BitVec 32) (k0_hw543 : k0_chk543 k0_t3 v3478), ∀ (k0_h4 : k0_cond4 k0_t3 = 1#1), ∀ a, (k0_off572 v3478) a + S1x1x32.size a ≤ S26x100001x32.size a := fun k0_t3 v3478 k0_hw543 k0_h4 => k0_hw543 k0_h4

def k0_off573 (v3488 : BitVec 32) : Fin 3 → Nat :=
  let c23_i32_2779 : BitVec 32 := 23#32
  let c0_i32_2784 : BitVec 32 := 0#32
  ![23, v3488.toNat, 0]

def k0_chk544 (k0_t3 : Fin k0_t3_loop.trips) (v3488 : BitVec 32) : Prop :=
  (∀ (k0_h4 : k0_cond4 k0_t3 = 1#1), ∀ a, (k0_off573 v3488) a + S1x1x32.size a ≤ S26x100001x32.size a)
instance k0_chk544.dec : ∀ (k0_t3 : Fin k0_t3_loop.trips) (v3488 : BitVec 32), Decidable (k0_chk544 k0_t3 v3488) := fun k0_t3 v3488 => decidable_of_iff' _ (Iff.of_eq (k0_chk544.eq_1 k0_t3 v3488))
theorem k0_off573_inb : ∀ (k0_t3 : Fin k0_t3_loop.trips) (v3488 : BitVec 32) (k0_hw544 : k0_chk544 k0_t3 v3488), ∀ (k0_h4 : k0_cond4 k0_t3 = 1#1), ∀ a, (k0_off573 v3488) a + S1x1x32.size a ≤ S26x100001x32.size a := fun k0_t3 v3488 k0_hw544 k0_h4 => k0_hw544 k0_h4

def k0_off574 (v3498 : BitVec 32) : Fin 3 → Nat :=
  let c24_i32_2787 : BitVec 32 := 24#32
  let c0_i32_2792 : BitVec 32 := 0#32
  ![24, v3498.toNat, 0]

def k0_chk545 (k0_t3 : Fin k0_t3_loop.trips) (v3498 : BitVec 32) : Prop :=
  (∀ (k0_h4 : k0_cond4 k0_t3 = 1#1), ∀ a, (k0_off574 v3498) a + S1x1x32.size a ≤ S26x100001x32.size a)
instance k0_chk545.dec : ∀ (k0_t3 : Fin k0_t3_loop.trips) (v3498 : BitVec 32), Decidable (k0_chk545 k0_t3 v3498) := fun k0_t3 v3498 => decidable_of_iff' _ (Iff.of_eq (k0_chk545.eq_1 k0_t3 v3498))
theorem k0_off574_inb : ∀ (k0_t3 : Fin k0_t3_loop.trips) (v3498 : BitVec 32) (k0_hw545 : k0_chk545 k0_t3 v3498), ∀ (k0_h4 : k0_cond4 k0_t3 = 1#1), ∀ a, (k0_off574 v3498) a + S1x1x32.size a ≤ S26x100001x32.size a := fun k0_t3 v3498 k0_hw545 k0_h4 => k0_hw545 k0_h4

def k0_off575 (v3508 : BitVec 32) : Fin 3 → Nat :=
  let c25_i32_2795 : BitVec 32 := 25#32
  let c0_i32_2800 : BitVec 32 := 0#32
  ![25, v3508.toNat, 0]

def k0_chk546 (k0_t3 : Fin k0_t3_loop.trips) (v3508 : BitVec 32) : Prop :=
  (∀ (k0_h4 : k0_cond4 k0_t3 = 1#1), ∀ a, (k0_off575 v3508) a + S1x1x32.size a ≤ S26x100001x32.size a)
instance k0_chk546.dec : ∀ (k0_t3 : Fin k0_t3_loop.trips) (v3508 : BitVec 32), Decidable (k0_chk546 k0_t3 v3508) := fun k0_t3 v3508 => decidable_of_iff' _ (Iff.of_eq (k0_chk546.eq_1 k0_t3 v3508))
theorem k0_off575_inb : ∀ (k0_t3 : Fin k0_t3_loop.trips) (v3508 : BitVec 32) (k0_hw546 : k0_chk546 k0_t3 v3508), ∀ (k0_h4 : k0_cond4 k0_t3 = 1#1), ∀ a, (k0_off575 v3508) a + S1x1x32.size a ≤ S26x100001x32.size a := fun k0_t3 v3508 k0_hw546 k0_h4 => k0_hw546 k0_h4

def k0_off576 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c5_i32_2803 : BitVec 32 := 5#32
  let v3517 : BitVec 32 := Scalar.addi v2176 c5_i32_2803
  let v3518 : Index := Scalar.indexCast v3517
  let c0_2804 : Index := 0#32
  ![v3518.toNat, 0]
def k0_off577 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c5_i32_2805 : BitVec 32 := 5#32
  let v3521 : BitVec 32 := Scalar.addi v2176 c5_i32_2805
  let v3522 : Index := Scalar.indexCast v3521
  let c16_2806 : Index := 16#32
  ![v3522.toNat, 16]
def k0_off578 (v3526 : BitVec 32) : Fin 3 → Nat :=
  let c0_i32_2807 : BitVec 32 := 0#32
  let c0_i32_2812 : BitVec 32 := 0#32
  ![0, v3526.toNat, 0]

def k0_chk547 (k0_t3 : Fin k0_t3_loop.trips) (v3526 : BitVec 32) : Prop :=
  (∀ (k0_h4 : k0_cond4 k0_t3 = 1#1), ∀ a, (k0_off578 v3526) a + S1x1x32.size a ≤ S26x100001x32.size a)
instance k0_chk547.dec : ∀ (k0_t3 : Fin k0_t3_loop.trips) (v3526 : BitVec 32), Decidable (k0_chk547 k0_t3 v3526) := fun k0_t3 v3526 => decidable_of_iff' _ (Iff.of_eq (k0_chk547.eq_1 k0_t3 v3526))
theorem k0_off578_inb : ∀ (k0_t3 : Fin k0_t3_loop.trips) (v3526 : BitVec 32) (k0_hw547 : k0_chk547 k0_t3 v3526), ∀ (k0_h4 : k0_cond4 k0_t3 = 1#1), ∀ a, (k0_off578 v3526) a + S1x1x32.size a ≤ S26x100001x32.size a := fun k0_t3 v3526 k0_hw547 k0_h4 => k0_hw547 k0_h4

def k0_off579 (v3536 : BitVec 32) : Fin 3 → Nat :=
  let c1_i32_2815 : BitVec 32 := 1#32
  let c0_i32_2820 : BitVec 32 := 0#32
  ![1, v3536.toNat, 0]

def k0_chk548 (k0_t3 : Fin k0_t3_loop.trips) (v3536 : BitVec 32) : Prop :=
  (∀ (k0_h4 : k0_cond4 k0_t3 = 1#1), ∀ a, (k0_off579 v3536) a + S1x1x32.size a ≤ S26x100001x32.size a)
instance k0_chk548.dec : ∀ (k0_t3 : Fin k0_t3_loop.trips) (v3536 : BitVec 32), Decidable (k0_chk548 k0_t3 v3536) := fun k0_t3 v3536 => decidable_of_iff' _ (Iff.of_eq (k0_chk548.eq_1 k0_t3 v3536))
theorem k0_off579_inb : ∀ (k0_t3 : Fin k0_t3_loop.trips) (v3536 : BitVec 32) (k0_hw548 : k0_chk548 k0_t3 v3536), ∀ (k0_h4 : k0_cond4 k0_t3 = 1#1), ∀ a, (k0_off579 v3536) a + S1x1x32.size a ≤ S26x100001x32.size a := fun k0_t3 v3536 k0_hw548 k0_h4 => k0_hw548 k0_h4

def k0_off580 (v3546 : BitVec 32) : Fin 3 → Nat :=
  let c2_i32_2823 : BitVec 32 := 2#32
  let c0_i32_2828 : BitVec 32 := 0#32
  ![2, v3546.toNat, 0]

def k0_chk549 (k0_t3 : Fin k0_t3_loop.trips) (v3546 : BitVec 32) : Prop :=
  (∀ (k0_h4 : k0_cond4 k0_t3 = 1#1), ∀ a, (k0_off580 v3546) a + S1x1x32.size a ≤ S26x100001x32.size a)
instance k0_chk549.dec : ∀ (k0_t3 : Fin k0_t3_loop.trips) (v3546 : BitVec 32), Decidable (k0_chk549 k0_t3 v3546) := fun k0_t3 v3546 => decidable_of_iff' _ (Iff.of_eq (k0_chk549.eq_1 k0_t3 v3546))
theorem k0_off580_inb : ∀ (k0_t3 : Fin k0_t3_loop.trips) (v3546 : BitVec 32) (k0_hw549 : k0_chk549 k0_t3 v3546), ∀ (k0_h4 : k0_cond4 k0_t3 = 1#1), ∀ a, (k0_off580 v3546) a + S1x1x32.size a ≤ S26x100001x32.size a := fun k0_t3 v3546 k0_hw549 k0_h4 => k0_hw549 k0_h4

def k0_off581 (v3556 : BitVec 32) : Fin 3 → Nat :=
  let c3_i32_2831 : BitVec 32 := 3#32
  let c0_i32_2836 : BitVec 32 := 0#32
  ![3, v3556.toNat, 0]

def k0_chk550 (k0_t3 : Fin k0_t3_loop.trips) (v3556 : BitVec 32) : Prop :=
  (∀ (k0_h4 : k0_cond4 k0_t3 = 1#1), ∀ a, (k0_off581 v3556) a + S1x1x32.size a ≤ S26x100001x32.size a)
instance k0_chk550.dec : ∀ (k0_t3 : Fin k0_t3_loop.trips) (v3556 : BitVec 32), Decidable (k0_chk550 k0_t3 v3556) := fun k0_t3 v3556 => decidable_of_iff' _ (Iff.of_eq (k0_chk550.eq_1 k0_t3 v3556))
theorem k0_off581_inb : ∀ (k0_t3 : Fin k0_t3_loop.trips) (v3556 : BitVec 32) (k0_hw550 : k0_chk550 k0_t3 v3556), ∀ (k0_h4 : k0_cond4 k0_t3 = 1#1), ∀ a, (k0_off581 v3556) a + S1x1x32.size a ≤ S26x100001x32.size a := fun k0_t3 v3556 k0_hw550 k0_h4 => k0_hw550 k0_h4

def k0_off582 (v3566 : BitVec 32) : Fin 3 → Nat :=
  let c4_i32_2839 : BitVec 32 := 4#32
  let c0_i32_2844 : BitVec 32 := 0#32
  ![4, v3566.toNat, 0]

def k0_chk551 (k0_t3 : Fin k0_t3_loop.trips) (v3566 : BitVec 32) : Prop :=
  (∀ (k0_h4 : k0_cond4 k0_t3 = 1#1), ∀ a, (k0_off582 v3566) a + S1x1x32.size a ≤ S26x100001x32.size a)
instance k0_chk551.dec : ∀ (k0_t3 : Fin k0_t3_loop.trips) (v3566 : BitVec 32), Decidable (k0_chk551 k0_t3 v3566) := fun k0_t3 v3566 => decidable_of_iff' _ (Iff.of_eq (k0_chk551.eq_1 k0_t3 v3566))
theorem k0_off582_inb : ∀ (k0_t3 : Fin k0_t3_loop.trips) (v3566 : BitVec 32) (k0_hw551 : k0_chk551 k0_t3 v3566), ∀ (k0_h4 : k0_cond4 k0_t3 = 1#1), ∀ a, (k0_off582 v3566) a + S1x1x32.size a ≤ S26x100001x32.size a := fun k0_t3 v3566 k0_hw551 k0_h4 => k0_hw551 k0_h4

def k0_off583 (v3576 : BitVec 32) : Fin 3 → Nat :=
  let c5_i32_2847 : BitVec 32 := 5#32
  let c0_i32_2852 : BitVec 32 := 0#32
  ![5, v3576.toNat, 0]

def k0_chk552 (k0_t3 : Fin k0_t3_loop.trips) (v3576 : BitVec 32) : Prop :=
  (∀ (k0_h4 : k0_cond4 k0_t3 = 1#1), ∀ a, (k0_off583 v3576) a + S1x1x32.size a ≤ S26x100001x32.size a)
instance k0_chk552.dec : ∀ (k0_t3 : Fin k0_t3_loop.trips) (v3576 : BitVec 32), Decidable (k0_chk552 k0_t3 v3576) := fun k0_t3 v3576 => decidable_of_iff' _ (Iff.of_eq (k0_chk552.eq_1 k0_t3 v3576))
theorem k0_off583_inb : ∀ (k0_t3 : Fin k0_t3_loop.trips) (v3576 : BitVec 32) (k0_hw552 : k0_chk552 k0_t3 v3576), ∀ (k0_h4 : k0_cond4 k0_t3 = 1#1), ∀ a, (k0_off583 v3576) a + S1x1x32.size a ≤ S26x100001x32.size a := fun k0_t3 v3576 k0_hw552 k0_h4 => k0_hw552 k0_h4

def k0_off584 (v3586 : BitVec 32) : Fin 3 → Nat :=
  let c6_i32_2855 : BitVec 32 := 6#32
  let c0_i32_2860 : BitVec 32 := 0#32
  ![6, v3586.toNat, 0]

def k0_chk553 (k0_t3 : Fin k0_t3_loop.trips) (v3586 : BitVec 32) : Prop :=
  (∀ (k0_h4 : k0_cond4 k0_t3 = 1#1), ∀ a, (k0_off584 v3586) a + S1x1x32.size a ≤ S26x100001x32.size a)
instance k0_chk553.dec : ∀ (k0_t3 : Fin k0_t3_loop.trips) (v3586 : BitVec 32), Decidable (k0_chk553 k0_t3 v3586) := fun k0_t3 v3586 => decidable_of_iff' _ (Iff.of_eq (k0_chk553.eq_1 k0_t3 v3586))
theorem k0_off584_inb : ∀ (k0_t3 : Fin k0_t3_loop.trips) (v3586 : BitVec 32) (k0_hw553 : k0_chk553 k0_t3 v3586), ∀ (k0_h4 : k0_cond4 k0_t3 = 1#1), ∀ a, (k0_off584 v3586) a + S1x1x32.size a ≤ S26x100001x32.size a := fun k0_t3 v3586 k0_hw553 k0_h4 => k0_hw553 k0_h4

def k0_off585 (v3596 : BitVec 32) : Fin 3 → Nat :=
  let c7_i32_2863 : BitVec 32 := 7#32
  let c0_i32_2868 : BitVec 32 := 0#32
  ![7, v3596.toNat, 0]

def k0_chk554 (k0_t3 : Fin k0_t3_loop.trips) (v3596 : BitVec 32) : Prop :=
  (∀ (k0_h4 : k0_cond4 k0_t3 = 1#1), ∀ a, (k0_off585 v3596) a + S1x1x32.size a ≤ S26x100001x32.size a)
instance k0_chk554.dec : ∀ (k0_t3 : Fin k0_t3_loop.trips) (v3596 : BitVec 32), Decidable (k0_chk554 k0_t3 v3596) := fun k0_t3 v3596 => decidable_of_iff' _ (Iff.of_eq (k0_chk554.eq_1 k0_t3 v3596))
theorem k0_off585_inb : ∀ (k0_t3 : Fin k0_t3_loop.trips) (v3596 : BitVec 32) (k0_hw554 : k0_chk554 k0_t3 v3596), ∀ (k0_h4 : k0_cond4 k0_t3 = 1#1), ∀ a, (k0_off585 v3596) a + S1x1x32.size a ≤ S26x100001x32.size a := fun k0_t3 v3596 k0_hw554 k0_h4 => k0_hw554 k0_h4

def k0_off586 (v3606 : BitVec 32) : Fin 3 → Nat :=
  let c8_i32_2871 : BitVec 32 := 8#32
  let c0_i32_2876 : BitVec 32 := 0#32
  ![8, v3606.toNat, 0]

def k0_chk555 (k0_t3 : Fin k0_t3_loop.trips) (v3606 : BitVec 32) : Prop :=
  (∀ (k0_h4 : k0_cond4 k0_t3 = 1#1), ∀ a, (k0_off586 v3606) a + S1x1x32.size a ≤ S26x100001x32.size a)
instance k0_chk555.dec : ∀ (k0_t3 : Fin k0_t3_loop.trips) (v3606 : BitVec 32), Decidable (k0_chk555 k0_t3 v3606) := fun k0_t3 v3606 => decidable_of_iff' _ (Iff.of_eq (k0_chk555.eq_1 k0_t3 v3606))
theorem k0_off586_inb : ∀ (k0_t3 : Fin k0_t3_loop.trips) (v3606 : BitVec 32) (k0_hw555 : k0_chk555 k0_t3 v3606), ∀ (k0_h4 : k0_cond4 k0_t3 = 1#1), ∀ a, (k0_off586 v3606) a + S1x1x32.size a ≤ S26x100001x32.size a := fun k0_t3 v3606 k0_hw555 k0_h4 => k0_hw555 k0_h4

def k0_off587 (v3616 : BitVec 32) : Fin 3 → Nat :=
  let c9_i32_2879 : BitVec 32 := 9#32
  let c0_i32_2884 : BitVec 32 := 0#32
  ![9, v3616.toNat, 0]

def k0_chk556 (k0_t3 : Fin k0_t3_loop.trips) (v3616 : BitVec 32) : Prop :=
  (∀ (k0_h4 : k0_cond4 k0_t3 = 1#1), ∀ a, (k0_off587 v3616) a + S1x1x32.size a ≤ S26x100001x32.size a)
instance k0_chk556.dec : ∀ (k0_t3 : Fin k0_t3_loop.trips) (v3616 : BitVec 32), Decidable (k0_chk556 k0_t3 v3616) := fun k0_t3 v3616 => decidable_of_iff' _ (Iff.of_eq (k0_chk556.eq_1 k0_t3 v3616))
theorem k0_off587_inb : ∀ (k0_t3 : Fin k0_t3_loop.trips) (v3616 : BitVec 32) (k0_hw556 : k0_chk556 k0_t3 v3616), ∀ (k0_h4 : k0_cond4 k0_t3 = 1#1), ∀ a, (k0_off587 v3616) a + S1x1x32.size a ≤ S26x100001x32.size a := fun k0_t3 v3616 k0_hw556 k0_h4 => k0_hw556 k0_h4

def k0_off588 (v3626 : BitVec 32) : Fin 3 → Nat :=
  let c10_i32_2887 : BitVec 32 := 10#32
  let c0_i32_2892 : BitVec 32 := 0#32
  ![10, v3626.toNat, 0]

def k0_chk557 (k0_t3 : Fin k0_t3_loop.trips) (v3626 : BitVec 32) : Prop :=
  (∀ (k0_h4 : k0_cond4 k0_t3 = 1#1), ∀ a, (k0_off588 v3626) a + S1x1x32.size a ≤ S26x100001x32.size a)
instance k0_chk557.dec : ∀ (k0_t3 : Fin k0_t3_loop.trips) (v3626 : BitVec 32), Decidable (k0_chk557 k0_t3 v3626) := fun k0_t3 v3626 => decidable_of_iff' _ (Iff.of_eq (k0_chk557.eq_1 k0_t3 v3626))
theorem k0_off588_inb : ∀ (k0_t3 : Fin k0_t3_loop.trips) (v3626 : BitVec 32) (k0_hw557 : k0_chk557 k0_t3 v3626), ∀ (k0_h4 : k0_cond4 k0_t3 = 1#1), ∀ a, (k0_off588 v3626) a + S1x1x32.size a ≤ S26x100001x32.size a := fun k0_t3 v3626 k0_hw557 k0_h4 => k0_hw557 k0_h4

def k0_off589 (v3636 : BitVec 32) : Fin 3 → Nat :=
  let c11_i32_2895 : BitVec 32 := 11#32
  let c0_i32_2900 : BitVec 32 := 0#32
  ![11, v3636.toNat, 0]

def k0_chk558 (k0_t3 : Fin k0_t3_loop.trips) (v3636 : BitVec 32) : Prop :=
  (∀ (k0_h4 : k0_cond4 k0_t3 = 1#1), ∀ a, (k0_off589 v3636) a + S1x1x32.size a ≤ S26x100001x32.size a)
instance k0_chk558.dec : ∀ (k0_t3 : Fin k0_t3_loop.trips) (v3636 : BitVec 32), Decidable (k0_chk558 k0_t3 v3636) := fun k0_t3 v3636 => decidable_of_iff' _ (Iff.of_eq (k0_chk558.eq_1 k0_t3 v3636))
theorem k0_off589_inb : ∀ (k0_t3 : Fin k0_t3_loop.trips) (v3636 : BitVec 32) (k0_hw558 : k0_chk558 k0_t3 v3636), ∀ (k0_h4 : k0_cond4 k0_t3 = 1#1), ∀ a, (k0_off589 v3636) a + S1x1x32.size a ≤ S26x100001x32.size a := fun k0_t3 v3636 k0_hw558 k0_h4 => k0_hw558 k0_h4

def k0_off590 (v3646 : BitVec 32) : Fin 3 → Nat :=
  let c12_i32_2903 : BitVec 32 := 12#32
  let c0_i32_2908 : BitVec 32 := 0#32
  ![12, v3646.toNat, 0]

def k0_chk559 (k0_t3 : Fin k0_t3_loop.trips) (v3646 : BitVec 32) : Prop :=
  (∀ (k0_h4 : k0_cond4 k0_t3 = 1#1), ∀ a, (k0_off590 v3646) a + S1x1x32.size a ≤ S26x100001x32.size a)
instance k0_chk559.dec : ∀ (k0_t3 : Fin k0_t3_loop.trips) (v3646 : BitVec 32), Decidable (k0_chk559 k0_t3 v3646) := fun k0_t3 v3646 => decidable_of_iff' _ (Iff.of_eq (k0_chk559.eq_1 k0_t3 v3646))
theorem k0_off590_inb : ∀ (k0_t3 : Fin k0_t3_loop.trips) (v3646 : BitVec 32) (k0_hw559 : k0_chk559 k0_t3 v3646), ∀ (k0_h4 : k0_cond4 k0_t3 = 1#1), ∀ a, (k0_off590 v3646) a + S1x1x32.size a ≤ S26x100001x32.size a := fun k0_t3 v3646 k0_hw559 k0_h4 => k0_hw559 k0_h4

def k0_off591 (v3656 : BitVec 32) : Fin 3 → Nat :=
  let c13_i32_2911 : BitVec 32 := 13#32
  let c0_i32_2916 : BitVec 32 := 0#32
  ![13, v3656.toNat, 0]

def k0_chk560 (k0_t3 : Fin k0_t3_loop.trips) (v3656 : BitVec 32) : Prop :=
  (∀ (k0_h4 : k0_cond4 k0_t3 = 1#1), ∀ a, (k0_off591 v3656) a + S1x1x32.size a ≤ S26x100001x32.size a)
instance k0_chk560.dec : ∀ (k0_t3 : Fin k0_t3_loop.trips) (v3656 : BitVec 32), Decidable (k0_chk560 k0_t3 v3656) := fun k0_t3 v3656 => decidable_of_iff' _ (Iff.of_eq (k0_chk560.eq_1 k0_t3 v3656))
theorem k0_off591_inb : ∀ (k0_t3 : Fin k0_t3_loop.trips) (v3656 : BitVec 32) (k0_hw560 : k0_chk560 k0_t3 v3656), ∀ (k0_h4 : k0_cond4 k0_t3 = 1#1), ∀ a, (k0_off591 v3656) a + S1x1x32.size a ≤ S26x100001x32.size a := fun k0_t3 v3656 k0_hw560 k0_h4 => k0_hw560 k0_h4

def k0_off592 (v3666 : BitVec 32) : Fin 3 → Nat :=
  let c14_i32_2919 : BitVec 32 := 14#32
  let c0_i32_2924 : BitVec 32 := 0#32
  ![14, v3666.toNat, 0]

def k0_chk561 (k0_t3 : Fin k0_t3_loop.trips) (v3666 : BitVec 32) : Prop :=
  (∀ (k0_h4 : k0_cond4 k0_t3 = 1#1), ∀ a, (k0_off592 v3666) a + S1x1x32.size a ≤ S26x100001x32.size a)
instance k0_chk561.dec : ∀ (k0_t3 : Fin k0_t3_loop.trips) (v3666 : BitVec 32), Decidable (k0_chk561 k0_t3 v3666) := fun k0_t3 v3666 => decidable_of_iff' _ (Iff.of_eq (k0_chk561.eq_1 k0_t3 v3666))
theorem k0_off592_inb : ∀ (k0_t3 : Fin k0_t3_loop.trips) (v3666 : BitVec 32) (k0_hw561 : k0_chk561 k0_t3 v3666), ∀ (k0_h4 : k0_cond4 k0_t3 = 1#1), ∀ a, (k0_off592 v3666) a + S1x1x32.size a ≤ S26x100001x32.size a := fun k0_t3 v3666 k0_hw561 k0_h4 => k0_hw561 k0_h4

def k0_off593 (v3676 : BitVec 32) : Fin 3 → Nat :=
  let c15_i32_2927 : BitVec 32 := 15#32
  let c0_i32_2932 : BitVec 32 := 0#32
  ![15, v3676.toNat, 0]

def k0_chk562 (k0_t3 : Fin k0_t3_loop.trips) (v3676 : BitVec 32) : Prop :=
  (∀ (k0_h4 : k0_cond4 k0_t3 = 1#1), ∀ a, (k0_off593 v3676) a + S1x1x32.size a ≤ S26x100001x32.size a)
instance k0_chk562.dec : ∀ (k0_t3 : Fin k0_t3_loop.trips) (v3676 : BitVec 32), Decidable (k0_chk562 k0_t3 v3676) := fun k0_t3 v3676 => decidable_of_iff' _ (Iff.of_eq (k0_chk562.eq_1 k0_t3 v3676))
theorem k0_off593_inb : ∀ (k0_t3 : Fin k0_t3_loop.trips) (v3676 : BitVec 32) (k0_hw562 : k0_chk562 k0_t3 v3676), ∀ (k0_h4 : k0_cond4 k0_t3 = 1#1), ∀ a, (k0_off593 v3676) a + S1x1x32.size a ≤ S26x100001x32.size a := fun k0_t3 v3676 k0_hw562 k0_h4 => k0_hw562 k0_h4

def k0_off594 (v3686 : BitVec 32) : Fin 3 → Nat :=
  let c16_i32_2935 : BitVec 32 := 16#32
  let c0_i32_2940 : BitVec 32 := 0#32
  ![16, v3686.toNat, 0]

def k0_chk563 (k0_t3 : Fin k0_t3_loop.trips) (v3686 : BitVec 32) : Prop :=
  (∀ (k0_h4 : k0_cond4 k0_t3 = 1#1), ∀ a, (k0_off594 v3686) a + S1x1x32.size a ≤ S26x100001x32.size a)
instance k0_chk563.dec : ∀ (k0_t3 : Fin k0_t3_loop.trips) (v3686 : BitVec 32), Decidable (k0_chk563 k0_t3 v3686) := fun k0_t3 v3686 => decidable_of_iff' _ (Iff.of_eq (k0_chk563.eq_1 k0_t3 v3686))
theorem k0_off594_inb : ∀ (k0_t3 : Fin k0_t3_loop.trips) (v3686 : BitVec 32) (k0_hw563 : k0_chk563 k0_t3 v3686), ∀ (k0_h4 : k0_cond4 k0_t3 = 1#1), ∀ a, (k0_off594 v3686) a + S1x1x32.size a ≤ S26x100001x32.size a := fun k0_t3 v3686 k0_hw563 k0_h4 => k0_hw563 k0_h4

def k0_off595 (v3696 : BitVec 32) : Fin 3 → Nat :=
  let c17_i32_2943 : BitVec 32 := 17#32
  let c0_i32_2948 : BitVec 32 := 0#32
  ![17, v3696.toNat, 0]

def k0_chk564 (k0_t3 : Fin k0_t3_loop.trips) (v3696 : BitVec 32) : Prop :=
  (∀ (k0_h4 : k0_cond4 k0_t3 = 1#1), ∀ a, (k0_off595 v3696) a + S1x1x32.size a ≤ S26x100001x32.size a)
instance k0_chk564.dec : ∀ (k0_t3 : Fin k0_t3_loop.trips) (v3696 : BitVec 32), Decidable (k0_chk564 k0_t3 v3696) := fun k0_t3 v3696 => decidable_of_iff' _ (Iff.of_eq (k0_chk564.eq_1 k0_t3 v3696))
theorem k0_off595_inb : ∀ (k0_t3 : Fin k0_t3_loop.trips) (v3696 : BitVec 32) (k0_hw564 : k0_chk564 k0_t3 v3696), ∀ (k0_h4 : k0_cond4 k0_t3 = 1#1), ∀ a, (k0_off595 v3696) a + S1x1x32.size a ≤ S26x100001x32.size a := fun k0_t3 v3696 k0_hw564 k0_h4 => k0_hw564 k0_h4

def k0_off596 (v3706 : BitVec 32) : Fin 3 → Nat :=
  let c18_i32_2951 : BitVec 32 := 18#32
  let c0_i32_2956 : BitVec 32 := 0#32
  ![18, v3706.toNat, 0]

def k0_chk565 (k0_t3 : Fin k0_t3_loop.trips) (v3706 : BitVec 32) : Prop :=
  (∀ (k0_h4 : k0_cond4 k0_t3 = 1#1), ∀ a, (k0_off596 v3706) a + S1x1x32.size a ≤ S26x100001x32.size a)
instance k0_chk565.dec : ∀ (k0_t3 : Fin k0_t3_loop.trips) (v3706 : BitVec 32), Decidable (k0_chk565 k0_t3 v3706) := fun k0_t3 v3706 => decidable_of_iff' _ (Iff.of_eq (k0_chk565.eq_1 k0_t3 v3706))
theorem k0_off596_inb : ∀ (k0_t3 : Fin k0_t3_loop.trips) (v3706 : BitVec 32) (k0_hw565 : k0_chk565 k0_t3 v3706), ∀ (k0_h4 : k0_cond4 k0_t3 = 1#1), ∀ a, (k0_off596 v3706) a + S1x1x32.size a ≤ S26x100001x32.size a := fun k0_t3 v3706 k0_hw565 k0_h4 => k0_hw565 k0_h4

def k0_off597 (v3716 : BitVec 32) : Fin 3 → Nat :=
  let c19_i32_2959 : BitVec 32 := 19#32
  let c0_i32_2964 : BitVec 32 := 0#32
  ![19, v3716.toNat, 0]

def k0_chk566 (k0_t3 : Fin k0_t3_loop.trips) (v3716 : BitVec 32) : Prop :=
  (∀ (k0_h4 : k0_cond4 k0_t3 = 1#1), ∀ a, (k0_off597 v3716) a + S1x1x32.size a ≤ S26x100001x32.size a)
instance k0_chk566.dec : ∀ (k0_t3 : Fin k0_t3_loop.trips) (v3716 : BitVec 32), Decidable (k0_chk566 k0_t3 v3716) := fun k0_t3 v3716 => decidable_of_iff' _ (Iff.of_eq (k0_chk566.eq_1 k0_t3 v3716))
theorem k0_off597_inb : ∀ (k0_t3 : Fin k0_t3_loop.trips) (v3716 : BitVec 32) (k0_hw566 : k0_chk566 k0_t3 v3716), ∀ (k0_h4 : k0_cond4 k0_t3 = 1#1), ∀ a, (k0_off597 v3716) a + S1x1x32.size a ≤ S26x100001x32.size a := fun k0_t3 v3716 k0_hw566 k0_h4 => k0_hw566 k0_h4

def k0_off598 (v3726 : BitVec 32) : Fin 3 → Nat :=
  let c20_i32_2967 : BitVec 32 := 20#32
  let c0_i32_2972 : BitVec 32 := 0#32
  ![20, v3726.toNat, 0]

def k0_chk567 (k0_t3 : Fin k0_t3_loop.trips) (v3726 : BitVec 32) : Prop :=
  (∀ (k0_h4 : k0_cond4 k0_t3 = 1#1), ∀ a, (k0_off598 v3726) a + S1x1x32.size a ≤ S26x100001x32.size a)
instance k0_chk567.dec : ∀ (k0_t3 : Fin k0_t3_loop.trips) (v3726 : BitVec 32), Decidable (k0_chk567 k0_t3 v3726) := fun k0_t3 v3726 => decidable_of_iff' _ (Iff.of_eq (k0_chk567.eq_1 k0_t3 v3726))
theorem k0_off598_inb : ∀ (k0_t3 : Fin k0_t3_loop.trips) (v3726 : BitVec 32) (k0_hw567 : k0_chk567 k0_t3 v3726), ∀ (k0_h4 : k0_cond4 k0_t3 = 1#1), ∀ a, (k0_off598 v3726) a + S1x1x32.size a ≤ S26x100001x32.size a := fun k0_t3 v3726 k0_hw567 k0_h4 => k0_hw567 k0_h4

def k0_off599 (v3736 : BitVec 32) : Fin 3 → Nat :=
  let c21_i32_2975 : BitVec 32 := 21#32
  let c0_i32_2980 : BitVec 32 := 0#32
  ![21, v3736.toNat, 0]

def k0_chk568 (k0_t3 : Fin k0_t3_loop.trips) (v3736 : BitVec 32) : Prop :=
  (∀ (k0_h4 : k0_cond4 k0_t3 = 1#1), ∀ a, (k0_off599 v3736) a + S1x1x32.size a ≤ S26x100001x32.size a)
instance k0_chk568.dec : ∀ (k0_t3 : Fin k0_t3_loop.trips) (v3736 : BitVec 32), Decidable (k0_chk568 k0_t3 v3736) := fun k0_t3 v3736 => decidable_of_iff' _ (Iff.of_eq (k0_chk568.eq_1 k0_t3 v3736))
theorem k0_off599_inb : ∀ (k0_t3 : Fin k0_t3_loop.trips) (v3736 : BitVec 32) (k0_hw568 : k0_chk568 k0_t3 v3736), ∀ (k0_h4 : k0_cond4 k0_t3 = 1#1), ∀ a, (k0_off599 v3736) a + S1x1x32.size a ≤ S26x100001x32.size a := fun k0_t3 v3736 k0_hw568 k0_h4 => k0_hw568 k0_h4

def k0_off600 (v3746 : BitVec 32) : Fin 3 → Nat :=
  let c22_i32_2983 : BitVec 32 := 22#32
  let c0_i32_2988 : BitVec 32 := 0#32
  ![22, v3746.toNat, 0]

def k0_chk569 (k0_t3 : Fin k0_t3_loop.trips) (v3746 : BitVec 32) : Prop :=
  (∀ (k0_h4 : k0_cond4 k0_t3 = 1#1), ∀ a, (k0_off600 v3746) a + S1x1x32.size a ≤ S26x100001x32.size a)
instance k0_chk569.dec : ∀ (k0_t3 : Fin k0_t3_loop.trips) (v3746 : BitVec 32), Decidable (k0_chk569 k0_t3 v3746) := fun k0_t3 v3746 => decidable_of_iff' _ (Iff.of_eq (k0_chk569.eq_1 k0_t3 v3746))
theorem k0_off600_inb : ∀ (k0_t3 : Fin k0_t3_loop.trips) (v3746 : BitVec 32) (k0_hw569 : k0_chk569 k0_t3 v3746), ∀ (k0_h4 : k0_cond4 k0_t3 = 1#1), ∀ a, (k0_off600 v3746) a + S1x1x32.size a ≤ S26x100001x32.size a := fun k0_t3 v3746 k0_hw569 k0_h4 => k0_hw569 k0_h4

def k0_off601 (v3756 : BitVec 32) : Fin 3 → Nat :=
  let c23_i32_2991 : BitVec 32 := 23#32
  let c0_i32_2996 : BitVec 32 := 0#32
  ![23, v3756.toNat, 0]

def k0_chk570 (k0_t3 : Fin k0_t3_loop.trips) (v3756 : BitVec 32) : Prop :=
  (∀ (k0_h4 : k0_cond4 k0_t3 = 1#1), ∀ a, (k0_off601 v3756) a + S1x1x32.size a ≤ S26x100001x32.size a)
instance k0_chk570.dec : ∀ (k0_t3 : Fin k0_t3_loop.trips) (v3756 : BitVec 32), Decidable (k0_chk570 k0_t3 v3756) := fun k0_t3 v3756 => decidable_of_iff' _ (Iff.of_eq (k0_chk570.eq_1 k0_t3 v3756))
theorem k0_off601_inb : ∀ (k0_t3 : Fin k0_t3_loop.trips) (v3756 : BitVec 32) (k0_hw570 : k0_chk570 k0_t3 v3756), ∀ (k0_h4 : k0_cond4 k0_t3 = 1#1), ∀ a, (k0_off601 v3756) a + S1x1x32.size a ≤ S26x100001x32.size a := fun k0_t3 v3756 k0_hw570 k0_h4 => k0_hw570 k0_h4

def k0_off602 (v3766 : BitVec 32) : Fin 3 → Nat :=
  let c24_i32_2999 : BitVec 32 := 24#32
  let c0_i32_3004 : BitVec 32 := 0#32
  ![24, v3766.toNat, 0]

def k0_chk571 (k0_t3 : Fin k0_t3_loop.trips) (v3766 : BitVec 32) : Prop :=
  (∀ (k0_h4 : k0_cond4 k0_t3 = 1#1), ∀ a, (k0_off602 v3766) a + S1x1x32.size a ≤ S26x100001x32.size a)
instance k0_chk571.dec : ∀ (k0_t3 : Fin k0_t3_loop.trips) (v3766 : BitVec 32), Decidable (k0_chk571 k0_t3 v3766) := fun k0_t3 v3766 => decidable_of_iff' _ (Iff.of_eq (k0_chk571.eq_1 k0_t3 v3766))
theorem k0_off602_inb : ∀ (k0_t3 : Fin k0_t3_loop.trips) (v3766 : BitVec 32) (k0_hw571 : k0_chk571 k0_t3 v3766), ∀ (k0_h4 : k0_cond4 k0_t3 = 1#1), ∀ a, (k0_off602 v3766) a + S1x1x32.size a ≤ S26x100001x32.size a := fun k0_t3 v3766 k0_hw571 k0_h4 => k0_hw571 k0_h4

def k0_off603 (v3776 : BitVec 32) : Fin 3 → Nat :=
  let c25_i32_3007 : BitVec 32 := 25#32
  let c0_i32_3012 : BitVec 32 := 0#32
  ![25, v3776.toNat, 0]

def k0_chk572 (k0_t3 : Fin k0_t3_loop.trips) (v3776 : BitVec 32) : Prop :=
  (∀ (k0_h4 : k0_cond4 k0_t3 = 1#1), ∀ a, (k0_off603 v3776) a + S1x1x32.size a ≤ S26x100001x32.size a)
instance k0_chk572.dec : ∀ (k0_t3 : Fin k0_t3_loop.trips) (v3776 : BitVec 32), Decidable (k0_chk572 k0_t3 v3776) := fun k0_t3 v3776 => decidable_of_iff' _ (Iff.of_eq (k0_chk572.eq_1 k0_t3 v3776))
theorem k0_off603_inb : ∀ (k0_t3 : Fin k0_t3_loop.trips) (v3776 : BitVec 32) (k0_hw572 : k0_chk572 k0_t3 v3776), ∀ (k0_h4 : k0_cond4 k0_t3 = 1#1), ∀ a, (k0_off603 v3776) a + S1x1x32.size a ≤ S26x100001x32.size a := fun k0_t3 v3776 k0_hw572 k0_h4 => k0_hw572 k0_h4

def k0_off604 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c6_i32_3015 : BitVec 32 := 6#32
  let v3785 : BitVec 32 := Scalar.addi v2176 c6_i32_3015
  let v3786 : Index := Scalar.indexCast v3785
  let c0_3016 : Index := 0#32
  ![v3786.toNat, 0]
def k0_off605 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c6_i32_3017 : BitVec 32 := 6#32
  let v3789 : BitVec 32 := Scalar.addi v2176 c6_i32_3017
  let v3790 : Index := Scalar.indexCast v3789
  let c16_3018 : Index := 16#32
  ![v3790.toNat, 16]
def k0_off606 (v3794 : BitVec 32) : Fin 3 → Nat :=
  let c0_i32_3019 : BitVec 32 := 0#32
  let c0_i32_3024 : BitVec 32 := 0#32
  ![0, v3794.toNat, 0]

def k0_chk573 (k0_t3 : Fin k0_t3_loop.trips) (v3794 : BitVec 32) : Prop :=
  (∀ (k0_h4 : k0_cond4 k0_t3 = 1#1), ∀ a, (k0_off606 v3794) a + S1x1x32.size a ≤ S26x100001x32.size a)
instance k0_chk573.dec : ∀ (k0_t3 : Fin k0_t3_loop.trips) (v3794 : BitVec 32), Decidable (k0_chk573 k0_t3 v3794) := fun k0_t3 v3794 => decidable_of_iff' _ (Iff.of_eq (k0_chk573.eq_1 k0_t3 v3794))
theorem k0_off606_inb : ∀ (k0_t3 : Fin k0_t3_loop.trips) (v3794 : BitVec 32) (k0_hw573 : k0_chk573 k0_t3 v3794), ∀ (k0_h4 : k0_cond4 k0_t3 = 1#1), ∀ a, (k0_off606 v3794) a + S1x1x32.size a ≤ S26x100001x32.size a := fun k0_t3 v3794 k0_hw573 k0_h4 => k0_hw573 k0_h4

def k0_off607 (v3804 : BitVec 32) : Fin 3 → Nat :=
  let c1_i32_3027 : BitVec 32 := 1#32
  let c0_i32_3032 : BitVec 32 := 0#32
  ![1, v3804.toNat, 0]

def k0_chk574 (k0_t3 : Fin k0_t3_loop.trips) (v3804 : BitVec 32) : Prop :=
  (∀ (k0_h4 : k0_cond4 k0_t3 = 1#1), ∀ a, (k0_off607 v3804) a + S1x1x32.size a ≤ S26x100001x32.size a)
instance k0_chk574.dec : ∀ (k0_t3 : Fin k0_t3_loop.trips) (v3804 : BitVec 32), Decidable (k0_chk574 k0_t3 v3804) := fun k0_t3 v3804 => decidable_of_iff' _ (Iff.of_eq (k0_chk574.eq_1 k0_t3 v3804))
theorem k0_off607_inb : ∀ (k0_t3 : Fin k0_t3_loop.trips) (v3804 : BitVec 32) (k0_hw574 : k0_chk574 k0_t3 v3804), ∀ (k0_h4 : k0_cond4 k0_t3 = 1#1), ∀ a, (k0_off607 v3804) a + S1x1x32.size a ≤ S26x100001x32.size a := fun k0_t3 v3804 k0_hw574 k0_h4 => k0_hw574 k0_h4

def k0_off608 (v3814 : BitVec 32) : Fin 3 → Nat :=
  let c2_i32_3035 : BitVec 32 := 2#32
  let c0_i32_3040 : BitVec 32 := 0#32
  ![2, v3814.toNat, 0]

def k0_chk575 (k0_t3 : Fin k0_t3_loop.trips) (v3814 : BitVec 32) : Prop :=
  (∀ (k0_h4 : k0_cond4 k0_t3 = 1#1), ∀ a, (k0_off608 v3814) a + S1x1x32.size a ≤ S26x100001x32.size a)
instance k0_chk575.dec : ∀ (k0_t3 : Fin k0_t3_loop.trips) (v3814 : BitVec 32), Decidable (k0_chk575 k0_t3 v3814) := fun k0_t3 v3814 => decidable_of_iff' _ (Iff.of_eq (k0_chk575.eq_1 k0_t3 v3814))
theorem k0_off608_inb : ∀ (k0_t3 : Fin k0_t3_loop.trips) (v3814 : BitVec 32) (k0_hw575 : k0_chk575 k0_t3 v3814), ∀ (k0_h4 : k0_cond4 k0_t3 = 1#1), ∀ a, (k0_off608 v3814) a + S1x1x32.size a ≤ S26x100001x32.size a := fun k0_t3 v3814 k0_hw575 k0_h4 => k0_hw575 k0_h4

def k0_off609 (v3824 : BitVec 32) : Fin 3 → Nat :=
  let c3_i32_3043 : BitVec 32 := 3#32
  let c0_i32_3048 : BitVec 32 := 0#32
  ![3, v3824.toNat, 0]

def k0_chk576 (k0_t3 : Fin k0_t3_loop.trips) (v3824 : BitVec 32) : Prop :=
  (∀ (k0_h4 : k0_cond4 k0_t3 = 1#1), ∀ a, (k0_off609 v3824) a + S1x1x32.size a ≤ S26x100001x32.size a)
instance k0_chk576.dec : ∀ (k0_t3 : Fin k0_t3_loop.trips) (v3824 : BitVec 32), Decidable (k0_chk576 k0_t3 v3824) := fun k0_t3 v3824 => decidable_of_iff' _ (Iff.of_eq (k0_chk576.eq_1 k0_t3 v3824))
theorem k0_off609_inb : ∀ (k0_t3 : Fin k0_t3_loop.trips) (v3824 : BitVec 32) (k0_hw576 : k0_chk576 k0_t3 v3824), ∀ (k0_h4 : k0_cond4 k0_t3 = 1#1), ∀ a, (k0_off609 v3824) a + S1x1x32.size a ≤ S26x100001x32.size a := fun k0_t3 v3824 k0_hw576 k0_h4 => k0_hw576 k0_h4

def k0_off610 (v3834 : BitVec 32) : Fin 3 → Nat :=
  let c4_i32_3051 : BitVec 32 := 4#32
  let c0_i32_3056 : BitVec 32 := 0#32
  ![4, v3834.toNat, 0]

def k0_chk577 (k0_t3 : Fin k0_t3_loop.trips) (v3834 : BitVec 32) : Prop :=
  (∀ (k0_h4 : k0_cond4 k0_t3 = 1#1), ∀ a, (k0_off610 v3834) a + S1x1x32.size a ≤ S26x100001x32.size a)
instance k0_chk577.dec : ∀ (k0_t3 : Fin k0_t3_loop.trips) (v3834 : BitVec 32), Decidable (k0_chk577 k0_t3 v3834) := fun k0_t3 v3834 => decidable_of_iff' _ (Iff.of_eq (k0_chk577.eq_1 k0_t3 v3834))
theorem k0_off610_inb : ∀ (k0_t3 : Fin k0_t3_loop.trips) (v3834 : BitVec 32) (k0_hw577 : k0_chk577 k0_t3 v3834), ∀ (k0_h4 : k0_cond4 k0_t3 = 1#1), ∀ a, (k0_off610 v3834) a + S1x1x32.size a ≤ S26x100001x32.size a := fun k0_t3 v3834 k0_hw577 k0_h4 => k0_hw577 k0_h4

def k0_off611 (v3844 : BitVec 32) : Fin 3 → Nat :=
  let c5_i32_3059 : BitVec 32 := 5#32
  let c0_i32_3064 : BitVec 32 := 0#32
  ![5, v3844.toNat, 0]

def k0_chk578 (k0_t3 : Fin k0_t3_loop.trips) (v3844 : BitVec 32) : Prop :=
  (∀ (k0_h4 : k0_cond4 k0_t3 = 1#1), ∀ a, (k0_off611 v3844) a + S1x1x32.size a ≤ S26x100001x32.size a)
instance k0_chk578.dec : ∀ (k0_t3 : Fin k0_t3_loop.trips) (v3844 : BitVec 32), Decidable (k0_chk578 k0_t3 v3844) := fun k0_t3 v3844 => decidable_of_iff' _ (Iff.of_eq (k0_chk578.eq_1 k0_t3 v3844))
theorem k0_off611_inb : ∀ (k0_t3 : Fin k0_t3_loop.trips) (v3844 : BitVec 32) (k0_hw578 : k0_chk578 k0_t3 v3844), ∀ (k0_h4 : k0_cond4 k0_t3 = 1#1), ∀ a, (k0_off611 v3844) a + S1x1x32.size a ≤ S26x100001x32.size a := fun k0_t3 v3844 k0_hw578 k0_h4 => k0_hw578 k0_h4

def k0_off612 (v3854 : BitVec 32) : Fin 3 → Nat :=
  let c6_i32_3067 : BitVec 32 := 6#32
  let c0_i32_3072 : BitVec 32 := 0#32
  ![6, v3854.toNat, 0]

def k0_chk579 (k0_t3 : Fin k0_t3_loop.trips) (v3854 : BitVec 32) : Prop :=
  (∀ (k0_h4 : k0_cond4 k0_t3 = 1#1), ∀ a, (k0_off612 v3854) a + S1x1x32.size a ≤ S26x100001x32.size a)
instance k0_chk579.dec : ∀ (k0_t3 : Fin k0_t3_loop.trips) (v3854 : BitVec 32), Decidable (k0_chk579 k0_t3 v3854) := fun k0_t3 v3854 => decidable_of_iff' _ (Iff.of_eq (k0_chk579.eq_1 k0_t3 v3854))
theorem k0_off612_inb : ∀ (k0_t3 : Fin k0_t3_loop.trips) (v3854 : BitVec 32) (k0_hw579 : k0_chk579 k0_t3 v3854), ∀ (k0_h4 : k0_cond4 k0_t3 = 1#1), ∀ a, (k0_off612 v3854) a + S1x1x32.size a ≤ S26x100001x32.size a := fun k0_t3 v3854 k0_hw579 k0_h4 => k0_hw579 k0_h4

def k0_off613 (v3864 : BitVec 32) : Fin 3 → Nat :=
  let c7_i32_3075 : BitVec 32 := 7#32
  let c0_i32_3080 : BitVec 32 := 0#32
  ![7, v3864.toNat, 0]

def k0_chk580 (k0_t3 : Fin k0_t3_loop.trips) (v3864 : BitVec 32) : Prop :=
  (∀ (k0_h4 : k0_cond4 k0_t3 = 1#1), ∀ a, (k0_off613 v3864) a + S1x1x32.size a ≤ S26x100001x32.size a)
instance k0_chk580.dec : ∀ (k0_t3 : Fin k0_t3_loop.trips) (v3864 : BitVec 32), Decidable (k0_chk580 k0_t3 v3864) := fun k0_t3 v3864 => decidable_of_iff' _ (Iff.of_eq (k0_chk580.eq_1 k0_t3 v3864))
theorem k0_off613_inb : ∀ (k0_t3 : Fin k0_t3_loop.trips) (v3864 : BitVec 32) (k0_hw580 : k0_chk580 k0_t3 v3864), ∀ (k0_h4 : k0_cond4 k0_t3 = 1#1), ∀ a, (k0_off613 v3864) a + S1x1x32.size a ≤ S26x100001x32.size a := fun k0_t3 v3864 k0_hw580 k0_h4 => k0_hw580 k0_h4

def k0_off614 (v3874 : BitVec 32) : Fin 3 → Nat :=
  let c8_i32_3083 : BitVec 32 := 8#32
  let c0_i32_3088 : BitVec 32 := 0#32
  ![8, v3874.toNat, 0]

def k0_chk581 (k0_t3 : Fin k0_t3_loop.trips) (v3874 : BitVec 32) : Prop :=
  (∀ (k0_h4 : k0_cond4 k0_t3 = 1#1), ∀ a, (k0_off614 v3874) a + S1x1x32.size a ≤ S26x100001x32.size a)
instance k0_chk581.dec : ∀ (k0_t3 : Fin k0_t3_loop.trips) (v3874 : BitVec 32), Decidable (k0_chk581 k0_t3 v3874) := fun k0_t3 v3874 => decidable_of_iff' _ (Iff.of_eq (k0_chk581.eq_1 k0_t3 v3874))
theorem k0_off614_inb : ∀ (k0_t3 : Fin k0_t3_loop.trips) (v3874 : BitVec 32) (k0_hw581 : k0_chk581 k0_t3 v3874), ∀ (k0_h4 : k0_cond4 k0_t3 = 1#1), ∀ a, (k0_off614 v3874) a + S1x1x32.size a ≤ S26x100001x32.size a := fun k0_t3 v3874 k0_hw581 k0_h4 => k0_hw581 k0_h4

def k0_off615 (v3884 : BitVec 32) : Fin 3 → Nat :=
  let c9_i32_3091 : BitVec 32 := 9#32
  let c0_i32_3096 : BitVec 32 := 0#32
  ![9, v3884.toNat, 0]

def k0_chk582 (k0_t3 : Fin k0_t3_loop.trips) (v3884 : BitVec 32) : Prop :=
  (∀ (k0_h4 : k0_cond4 k0_t3 = 1#1), ∀ a, (k0_off615 v3884) a + S1x1x32.size a ≤ S26x100001x32.size a)
instance k0_chk582.dec : ∀ (k0_t3 : Fin k0_t3_loop.trips) (v3884 : BitVec 32), Decidable (k0_chk582 k0_t3 v3884) := fun k0_t3 v3884 => decidable_of_iff' _ (Iff.of_eq (k0_chk582.eq_1 k0_t3 v3884))
theorem k0_off615_inb : ∀ (k0_t3 : Fin k0_t3_loop.trips) (v3884 : BitVec 32) (k0_hw582 : k0_chk582 k0_t3 v3884), ∀ (k0_h4 : k0_cond4 k0_t3 = 1#1), ∀ a, (k0_off615 v3884) a + S1x1x32.size a ≤ S26x100001x32.size a := fun k0_t3 v3884 k0_hw582 k0_h4 => k0_hw582 k0_h4

def k0_off616 (v3894 : BitVec 32) : Fin 3 → Nat :=
  let c10_i32_3099 : BitVec 32 := 10#32
  let c0_i32_3104 : BitVec 32 := 0#32
  ![10, v3894.toNat, 0]

def k0_chk583 (k0_t3 : Fin k0_t3_loop.trips) (v3894 : BitVec 32) : Prop :=
  (∀ (k0_h4 : k0_cond4 k0_t3 = 1#1), ∀ a, (k0_off616 v3894) a + S1x1x32.size a ≤ S26x100001x32.size a)
instance k0_chk583.dec : ∀ (k0_t3 : Fin k0_t3_loop.trips) (v3894 : BitVec 32), Decidable (k0_chk583 k0_t3 v3894) := fun k0_t3 v3894 => decidable_of_iff' _ (Iff.of_eq (k0_chk583.eq_1 k0_t3 v3894))
theorem k0_off616_inb : ∀ (k0_t3 : Fin k0_t3_loop.trips) (v3894 : BitVec 32) (k0_hw583 : k0_chk583 k0_t3 v3894), ∀ (k0_h4 : k0_cond4 k0_t3 = 1#1), ∀ a, (k0_off616 v3894) a + S1x1x32.size a ≤ S26x100001x32.size a := fun k0_t3 v3894 k0_hw583 k0_h4 => k0_hw583 k0_h4

def k0_off617 (v3904 : BitVec 32) : Fin 3 → Nat :=
  let c11_i32_3107 : BitVec 32 := 11#32
  let c0_i32_3112 : BitVec 32 := 0#32
  ![11, v3904.toNat, 0]

def k0_chk584 (k0_t3 : Fin k0_t3_loop.trips) (v3904 : BitVec 32) : Prop :=
  (∀ (k0_h4 : k0_cond4 k0_t3 = 1#1), ∀ a, (k0_off617 v3904) a + S1x1x32.size a ≤ S26x100001x32.size a)
instance k0_chk584.dec : ∀ (k0_t3 : Fin k0_t3_loop.trips) (v3904 : BitVec 32), Decidable (k0_chk584 k0_t3 v3904) := fun k0_t3 v3904 => decidable_of_iff' _ (Iff.of_eq (k0_chk584.eq_1 k0_t3 v3904))
theorem k0_off617_inb : ∀ (k0_t3 : Fin k0_t3_loop.trips) (v3904 : BitVec 32) (k0_hw584 : k0_chk584 k0_t3 v3904), ∀ (k0_h4 : k0_cond4 k0_t3 = 1#1), ∀ a, (k0_off617 v3904) a + S1x1x32.size a ≤ S26x100001x32.size a := fun k0_t3 v3904 k0_hw584 k0_h4 => k0_hw584 k0_h4

def k0_off618 (v3914 : BitVec 32) : Fin 3 → Nat :=
  let c12_i32_3115 : BitVec 32 := 12#32
  let c0_i32_3120 : BitVec 32 := 0#32
  ![12, v3914.toNat, 0]

def k0_chk585 (k0_t3 : Fin k0_t3_loop.trips) (v3914 : BitVec 32) : Prop :=
  (∀ (k0_h4 : k0_cond4 k0_t3 = 1#1), ∀ a, (k0_off618 v3914) a + S1x1x32.size a ≤ S26x100001x32.size a)
instance k0_chk585.dec : ∀ (k0_t3 : Fin k0_t3_loop.trips) (v3914 : BitVec 32), Decidable (k0_chk585 k0_t3 v3914) := fun k0_t3 v3914 => decidable_of_iff' _ (Iff.of_eq (k0_chk585.eq_1 k0_t3 v3914))
theorem k0_off618_inb : ∀ (k0_t3 : Fin k0_t3_loop.trips) (v3914 : BitVec 32) (k0_hw585 : k0_chk585 k0_t3 v3914), ∀ (k0_h4 : k0_cond4 k0_t3 = 1#1), ∀ a, (k0_off618 v3914) a + S1x1x32.size a ≤ S26x100001x32.size a := fun k0_t3 v3914 k0_hw585 k0_h4 => k0_hw585 k0_h4

def k0_off619 (v3924 : BitVec 32) : Fin 3 → Nat :=
  let c13_i32_3123 : BitVec 32 := 13#32
  let c0_i32_3128 : BitVec 32 := 0#32
  ![13, v3924.toNat, 0]

def k0_chk586 (k0_t3 : Fin k0_t3_loop.trips) (v3924 : BitVec 32) : Prop :=
  (∀ (k0_h4 : k0_cond4 k0_t3 = 1#1), ∀ a, (k0_off619 v3924) a + S1x1x32.size a ≤ S26x100001x32.size a)
instance k0_chk586.dec : ∀ (k0_t3 : Fin k0_t3_loop.trips) (v3924 : BitVec 32), Decidable (k0_chk586 k0_t3 v3924) := fun k0_t3 v3924 => decidable_of_iff' _ (Iff.of_eq (k0_chk586.eq_1 k0_t3 v3924))
theorem k0_off619_inb : ∀ (k0_t3 : Fin k0_t3_loop.trips) (v3924 : BitVec 32) (k0_hw586 : k0_chk586 k0_t3 v3924), ∀ (k0_h4 : k0_cond4 k0_t3 = 1#1), ∀ a, (k0_off619 v3924) a + S1x1x32.size a ≤ S26x100001x32.size a := fun k0_t3 v3924 k0_hw586 k0_h4 => k0_hw586 k0_h4

def k0_off620 (v3934 : BitVec 32) : Fin 3 → Nat :=
  let c14_i32_3131 : BitVec 32 := 14#32
  let c0_i32_3136 : BitVec 32 := 0#32
  ![14, v3934.toNat, 0]

def k0_chk587 (k0_t3 : Fin k0_t3_loop.trips) (v3934 : BitVec 32) : Prop :=
  (∀ (k0_h4 : k0_cond4 k0_t3 = 1#1), ∀ a, (k0_off620 v3934) a + S1x1x32.size a ≤ S26x100001x32.size a)
instance k0_chk587.dec : ∀ (k0_t3 : Fin k0_t3_loop.trips) (v3934 : BitVec 32), Decidable (k0_chk587 k0_t3 v3934) := fun k0_t3 v3934 => decidable_of_iff' _ (Iff.of_eq (k0_chk587.eq_1 k0_t3 v3934))
theorem k0_off620_inb : ∀ (k0_t3 : Fin k0_t3_loop.trips) (v3934 : BitVec 32) (k0_hw587 : k0_chk587 k0_t3 v3934), ∀ (k0_h4 : k0_cond4 k0_t3 = 1#1), ∀ a, (k0_off620 v3934) a + S1x1x32.size a ≤ S26x100001x32.size a := fun k0_t3 v3934 k0_hw587 k0_h4 => k0_hw587 k0_h4

def k0_off621 (v3944 : BitVec 32) : Fin 3 → Nat :=
  let c15_i32_3139 : BitVec 32 := 15#32
  let c0_i32_3144 : BitVec 32 := 0#32
  ![15, v3944.toNat, 0]

def k0_chk588 (k0_t3 : Fin k0_t3_loop.trips) (v3944 : BitVec 32) : Prop :=
  (∀ (k0_h4 : k0_cond4 k0_t3 = 1#1), ∀ a, (k0_off621 v3944) a + S1x1x32.size a ≤ S26x100001x32.size a)
instance k0_chk588.dec : ∀ (k0_t3 : Fin k0_t3_loop.trips) (v3944 : BitVec 32), Decidable (k0_chk588 k0_t3 v3944) := fun k0_t3 v3944 => decidable_of_iff' _ (Iff.of_eq (k0_chk588.eq_1 k0_t3 v3944))
theorem k0_off621_inb : ∀ (k0_t3 : Fin k0_t3_loop.trips) (v3944 : BitVec 32) (k0_hw588 : k0_chk588 k0_t3 v3944), ∀ (k0_h4 : k0_cond4 k0_t3 = 1#1), ∀ a, (k0_off621 v3944) a + S1x1x32.size a ≤ S26x100001x32.size a := fun k0_t3 v3944 k0_hw588 k0_h4 => k0_hw588 k0_h4

def k0_off622 (v3954 : BitVec 32) : Fin 3 → Nat :=
  let c16_i32_3147 : BitVec 32 := 16#32
  let c0_i32_3152 : BitVec 32 := 0#32
  ![16, v3954.toNat, 0]

def k0_chk589 (k0_t3 : Fin k0_t3_loop.trips) (v3954 : BitVec 32) : Prop :=
  (∀ (k0_h4 : k0_cond4 k0_t3 = 1#1), ∀ a, (k0_off622 v3954) a + S1x1x32.size a ≤ S26x100001x32.size a)
instance k0_chk589.dec : ∀ (k0_t3 : Fin k0_t3_loop.trips) (v3954 : BitVec 32), Decidable (k0_chk589 k0_t3 v3954) := fun k0_t3 v3954 => decidable_of_iff' _ (Iff.of_eq (k0_chk589.eq_1 k0_t3 v3954))
theorem k0_off622_inb : ∀ (k0_t3 : Fin k0_t3_loop.trips) (v3954 : BitVec 32) (k0_hw589 : k0_chk589 k0_t3 v3954), ∀ (k0_h4 : k0_cond4 k0_t3 = 1#1), ∀ a, (k0_off622 v3954) a + S1x1x32.size a ≤ S26x100001x32.size a := fun k0_t3 v3954 k0_hw589 k0_h4 => k0_hw589 k0_h4

def k0_off623 (v3964 : BitVec 32) : Fin 3 → Nat :=
  let c17_i32_3155 : BitVec 32 := 17#32
  let c0_i32_3160 : BitVec 32 := 0#32
  ![17, v3964.toNat, 0]

def k0_chk590 (k0_t3 : Fin k0_t3_loop.trips) (v3964 : BitVec 32) : Prop :=
  (∀ (k0_h4 : k0_cond4 k0_t3 = 1#1), ∀ a, (k0_off623 v3964) a + S1x1x32.size a ≤ S26x100001x32.size a)
instance k0_chk590.dec : ∀ (k0_t3 : Fin k0_t3_loop.trips) (v3964 : BitVec 32), Decidable (k0_chk590 k0_t3 v3964) := fun k0_t3 v3964 => decidable_of_iff' _ (Iff.of_eq (k0_chk590.eq_1 k0_t3 v3964))
theorem k0_off623_inb : ∀ (k0_t3 : Fin k0_t3_loop.trips) (v3964 : BitVec 32) (k0_hw590 : k0_chk590 k0_t3 v3964), ∀ (k0_h4 : k0_cond4 k0_t3 = 1#1), ∀ a, (k0_off623 v3964) a + S1x1x32.size a ≤ S26x100001x32.size a := fun k0_t3 v3964 k0_hw590 k0_h4 => k0_hw590 k0_h4

def k0_off624 (v3974 : BitVec 32) : Fin 3 → Nat :=
  let c18_i32_3163 : BitVec 32 := 18#32
  let c0_i32_3168 : BitVec 32 := 0#32
  ![18, v3974.toNat, 0]

def k0_chk591 (k0_t3 : Fin k0_t3_loop.trips) (v3974 : BitVec 32) : Prop :=
  (∀ (k0_h4 : k0_cond4 k0_t3 = 1#1), ∀ a, (k0_off624 v3974) a + S1x1x32.size a ≤ S26x100001x32.size a)
instance k0_chk591.dec : ∀ (k0_t3 : Fin k0_t3_loop.trips) (v3974 : BitVec 32), Decidable (k0_chk591 k0_t3 v3974) := fun k0_t3 v3974 => decidable_of_iff' _ (Iff.of_eq (k0_chk591.eq_1 k0_t3 v3974))
theorem k0_off624_inb : ∀ (k0_t3 : Fin k0_t3_loop.trips) (v3974 : BitVec 32) (k0_hw591 : k0_chk591 k0_t3 v3974), ∀ (k0_h4 : k0_cond4 k0_t3 = 1#1), ∀ a, (k0_off624 v3974) a + S1x1x32.size a ≤ S26x100001x32.size a := fun k0_t3 v3974 k0_hw591 k0_h4 => k0_hw591 k0_h4

def k0_off625 (v3984 : BitVec 32) : Fin 3 → Nat :=
  let c19_i32_3171 : BitVec 32 := 19#32
  let c0_i32_3176 : BitVec 32 := 0#32
  ![19, v3984.toNat, 0]

def k0_chk592 (k0_t3 : Fin k0_t3_loop.trips) (v3984 : BitVec 32) : Prop :=
  (∀ (k0_h4 : k0_cond4 k0_t3 = 1#1), ∀ a, (k0_off625 v3984) a + S1x1x32.size a ≤ S26x100001x32.size a)
instance k0_chk592.dec : ∀ (k0_t3 : Fin k0_t3_loop.trips) (v3984 : BitVec 32), Decidable (k0_chk592 k0_t3 v3984) := fun k0_t3 v3984 => decidable_of_iff' _ (Iff.of_eq (k0_chk592.eq_1 k0_t3 v3984))
theorem k0_off625_inb : ∀ (k0_t3 : Fin k0_t3_loop.trips) (v3984 : BitVec 32) (k0_hw592 : k0_chk592 k0_t3 v3984), ∀ (k0_h4 : k0_cond4 k0_t3 = 1#1), ∀ a, (k0_off625 v3984) a + S1x1x32.size a ≤ S26x100001x32.size a := fun k0_t3 v3984 k0_hw592 k0_h4 => k0_hw592 k0_h4

def k0_off626 (v3994 : BitVec 32) : Fin 3 → Nat :=
  let c20_i32_3179 : BitVec 32 := 20#32
  let c0_i32_3184 : BitVec 32 := 0#32
  ![20, v3994.toNat, 0]

def k0_chk593 (k0_t3 : Fin k0_t3_loop.trips) (v3994 : BitVec 32) : Prop :=
  (∀ (k0_h4 : k0_cond4 k0_t3 = 1#1), ∀ a, (k0_off626 v3994) a + S1x1x32.size a ≤ S26x100001x32.size a)
instance k0_chk593.dec : ∀ (k0_t3 : Fin k0_t3_loop.trips) (v3994 : BitVec 32), Decidable (k0_chk593 k0_t3 v3994) := fun k0_t3 v3994 => decidable_of_iff' _ (Iff.of_eq (k0_chk593.eq_1 k0_t3 v3994))
theorem k0_off626_inb : ∀ (k0_t3 : Fin k0_t3_loop.trips) (v3994 : BitVec 32) (k0_hw593 : k0_chk593 k0_t3 v3994), ∀ (k0_h4 : k0_cond4 k0_t3 = 1#1), ∀ a, (k0_off626 v3994) a + S1x1x32.size a ≤ S26x100001x32.size a := fun k0_t3 v3994 k0_hw593 k0_h4 => k0_hw593 k0_h4

def k0_off627 (v4004 : BitVec 32) : Fin 3 → Nat :=
  let c21_i32_3187 : BitVec 32 := 21#32
  let c0_i32_3192 : BitVec 32 := 0#32
  ![21, v4004.toNat, 0]

def k0_chk594 (k0_t3 : Fin k0_t3_loop.trips) (v4004 : BitVec 32) : Prop :=
  (∀ (k0_h4 : k0_cond4 k0_t3 = 1#1), ∀ a, (k0_off627 v4004) a + S1x1x32.size a ≤ S26x100001x32.size a)
instance k0_chk594.dec : ∀ (k0_t3 : Fin k0_t3_loop.trips) (v4004 : BitVec 32), Decidable (k0_chk594 k0_t3 v4004) := fun k0_t3 v4004 => decidable_of_iff' _ (Iff.of_eq (k0_chk594.eq_1 k0_t3 v4004))
theorem k0_off627_inb : ∀ (k0_t3 : Fin k0_t3_loop.trips) (v4004 : BitVec 32) (k0_hw594 : k0_chk594 k0_t3 v4004), ∀ (k0_h4 : k0_cond4 k0_t3 = 1#1), ∀ a, (k0_off627 v4004) a + S1x1x32.size a ≤ S26x100001x32.size a := fun k0_t3 v4004 k0_hw594 k0_h4 => k0_hw594 k0_h4

def k0_off628 (v4014 : BitVec 32) : Fin 3 → Nat :=
  let c22_i32_3195 : BitVec 32 := 22#32
  let c0_i32_3200 : BitVec 32 := 0#32
  ![22, v4014.toNat, 0]

def k0_chk595 (k0_t3 : Fin k0_t3_loop.trips) (v4014 : BitVec 32) : Prop :=
  (∀ (k0_h4 : k0_cond4 k0_t3 = 1#1), ∀ a, (k0_off628 v4014) a + S1x1x32.size a ≤ S26x100001x32.size a)
instance k0_chk595.dec : ∀ (k0_t3 : Fin k0_t3_loop.trips) (v4014 : BitVec 32), Decidable (k0_chk595 k0_t3 v4014) := fun k0_t3 v4014 => decidable_of_iff' _ (Iff.of_eq (k0_chk595.eq_1 k0_t3 v4014))
theorem k0_off628_inb : ∀ (k0_t3 : Fin k0_t3_loop.trips) (v4014 : BitVec 32) (k0_hw595 : k0_chk595 k0_t3 v4014), ∀ (k0_h4 : k0_cond4 k0_t3 = 1#1), ∀ a, (k0_off628 v4014) a + S1x1x32.size a ≤ S26x100001x32.size a := fun k0_t3 v4014 k0_hw595 k0_h4 => k0_hw595 k0_h4

def k0_off629 (v4024 : BitVec 32) : Fin 3 → Nat :=
  let c23_i32_3203 : BitVec 32 := 23#32
  let c0_i32_3208 : BitVec 32 := 0#32
  ![23, v4024.toNat, 0]

def k0_chk596 (k0_t3 : Fin k0_t3_loop.trips) (v4024 : BitVec 32) : Prop :=
  (∀ (k0_h4 : k0_cond4 k0_t3 = 1#1), ∀ a, (k0_off629 v4024) a + S1x1x32.size a ≤ S26x100001x32.size a)
instance k0_chk596.dec : ∀ (k0_t3 : Fin k0_t3_loop.trips) (v4024 : BitVec 32), Decidable (k0_chk596 k0_t3 v4024) := fun k0_t3 v4024 => decidable_of_iff' _ (Iff.of_eq (k0_chk596.eq_1 k0_t3 v4024))
theorem k0_off629_inb : ∀ (k0_t3 : Fin k0_t3_loop.trips) (v4024 : BitVec 32) (k0_hw596 : k0_chk596 k0_t3 v4024), ∀ (k0_h4 : k0_cond4 k0_t3 = 1#1), ∀ a, (k0_off629 v4024) a + S1x1x32.size a ≤ S26x100001x32.size a := fun k0_t3 v4024 k0_hw596 k0_h4 => k0_hw596 k0_h4

def k0_off630 (v4034 : BitVec 32) : Fin 3 → Nat :=
  let c24_i32_3211 : BitVec 32 := 24#32
  let c0_i32_3216 : BitVec 32 := 0#32
  ![24, v4034.toNat, 0]

def k0_chk597 (k0_t3 : Fin k0_t3_loop.trips) (v4034 : BitVec 32) : Prop :=
  (∀ (k0_h4 : k0_cond4 k0_t3 = 1#1), ∀ a, (k0_off630 v4034) a + S1x1x32.size a ≤ S26x100001x32.size a)
instance k0_chk597.dec : ∀ (k0_t3 : Fin k0_t3_loop.trips) (v4034 : BitVec 32), Decidable (k0_chk597 k0_t3 v4034) := fun k0_t3 v4034 => decidable_of_iff' _ (Iff.of_eq (k0_chk597.eq_1 k0_t3 v4034))
theorem k0_off630_inb : ∀ (k0_t3 : Fin k0_t3_loop.trips) (v4034 : BitVec 32) (k0_hw597 : k0_chk597 k0_t3 v4034), ∀ (k0_h4 : k0_cond4 k0_t3 = 1#1), ∀ a, (k0_off630 v4034) a + S1x1x32.size a ≤ S26x100001x32.size a := fun k0_t3 v4034 k0_hw597 k0_h4 => k0_hw597 k0_h4

def k0_off631 (v4044 : BitVec 32) : Fin 3 → Nat :=
  let c25_i32_3219 : BitVec 32 := 25#32
  let c0_i32_3224 : BitVec 32 := 0#32
  ![25, v4044.toNat, 0]

def k0_chk598 (k0_t3 : Fin k0_t3_loop.trips) (v4044 : BitVec 32) : Prop :=
  (∀ (k0_h4 : k0_cond4 k0_t3 = 1#1), ∀ a, (k0_off631 v4044) a + S1x1x32.size a ≤ S26x100001x32.size a)
instance k0_chk598.dec : ∀ (k0_t3 : Fin k0_t3_loop.trips) (v4044 : BitVec 32), Decidable (k0_chk598 k0_t3 v4044) := fun k0_t3 v4044 => decidable_of_iff' _ (Iff.of_eq (k0_chk598.eq_1 k0_t3 v4044))
theorem k0_off631_inb : ∀ (k0_t3 : Fin k0_t3_loop.trips) (v4044 : BitVec 32) (k0_hw598 : k0_chk598 k0_t3 v4044), ∀ (k0_h4 : k0_cond4 k0_t3 = 1#1), ∀ a, (k0_off631 v4044) a + S1x1x32.size a ≤ S26x100001x32.size a := fun k0_t3 v4044 k0_hw598 k0_h4 => k0_hw598 k0_h4

def k0_off632 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c7_i32_3227 : BitVec 32 := 7#32
  let v4053 : BitVec 32 := Scalar.addi v2176 c7_i32_3227
  let v4054 : Index := Scalar.indexCast v4053
  let c0_3228 : Index := 0#32
  ![v4054.toNat, 0]
def k0_off633 (k0_t3 : Fin k0_t3_loop.trips) : Fin 2 → Nat :=
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c1_i32_1741 : BitVec 32 := 1#32
  let v2175 : BitVec 32 := Scalar.addi v2158 c1_i32_1741
  let c8_i32_1742 : BitVec 32 := 8#32
  let v2176 : BitVec 32 := Scalar.muli v2175 c8_i32_1742
  let c7_i32_3229 : BitVec 32 := 7#32
  let v4057 : BitVec 32 := Scalar.addi v2176 c7_i32_3229
  let v4058 : Index := Scalar.indexCast v4057
  let c16_3230 : Index := 16#32
  ![v4058.toNat, 16]
def k0_off634 (v4062 : BitVec 32) : Fin 3 → Nat :=
  let c0_i32_3231 : BitVec 32 := 0#32
  let c0_i32_3236 : BitVec 32 := 0#32
  ![0, v4062.toNat, 0]

def k0_chk599 (k0_t3 : Fin k0_t3_loop.trips) (v4062 : BitVec 32) : Prop :=
  (∀ (k0_h4 : k0_cond4 k0_t3 = 1#1), ∀ a, (k0_off634 v4062) a + S1x1x32.size a ≤ S26x100001x32.size a)
instance k0_chk599.dec : ∀ (k0_t3 : Fin k0_t3_loop.trips) (v4062 : BitVec 32), Decidable (k0_chk599 k0_t3 v4062) := fun k0_t3 v4062 => decidable_of_iff' _ (Iff.of_eq (k0_chk599.eq_1 k0_t3 v4062))
theorem k0_off634_inb : ∀ (k0_t3 : Fin k0_t3_loop.trips) (v4062 : BitVec 32) (k0_hw599 : k0_chk599 k0_t3 v4062), ∀ (k0_h4 : k0_cond4 k0_t3 = 1#1), ∀ a, (k0_off634 v4062) a + S1x1x32.size a ≤ S26x100001x32.size a := fun k0_t3 v4062 k0_hw599 k0_h4 => k0_hw599 k0_h4

def k0_off635 (v4072 : BitVec 32) : Fin 3 → Nat :=
  let c1_i32_3239 : BitVec 32 := 1#32
  let c0_i32_3244 : BitVec 32 := 0#32
  ![1, v4072.toNat, 0]

def k0_chk600 (k0_t3 : Fin k0_t3_loop.trips) (v4072 : BitVec 32) : Prop :=
  (∀ (k0_h4 : k0_cond4 k0_t3 = 1#1), ∀ a, (k0_off635 v4072) a + S1x1x32.size a ≤ S26x100001x32.size a)
instance k0_chk600.dec : ∀ (k0_t3 : Fin k0_t3_loop.trips) (v4072 : BitVec 32), Decidable (k0_chk600 k0_t3 v4072) := fun k0_t3 v4072 => decidable_of_iff' _ (Iff.of_eq (k0_chk600.eq_1 k0_t3 v4072))
theorem k0_off635_inb : ∀ (k0_t3 : Fin k0_t3_loop.trips) (v4072 : BitVec 32) (k0_hw600 : k0_chk600 k0_t3 v4072), ∀ (k0_h4 : k0_cond4 k0_t3 = 1#1), ∀ a, (k0_off635 v4072) a + S1x1x32.size a ≤ S26x100001x32.size a := fun k0_t3 v4072 k0_hw600 k0_h4 => k0_hw600 k0_h4

def k0_off636 (v4082 : BitVec 32) : Fin 3 → Nat :=
  let c2_i32_3247 : BitVec 32 := 2#32
  let c0_i32_3252 : BitVec 32 := 0#32
  ![2, v4082.toNat, 0]

def k0_chk601 (k0_t3 : Fin k0_t3_loop.trips) (v4082 : BitVec 32) : Prop :=
  (∀ (k0_h4 : k0_cond4 k0_t3 = 1#1), ∀ a, (k0_off636 v4082) a + S1x1x32.size a ≤ S26x100001x32.size a)
instance k0_chk601.dec : ∀ (k0_t3 : Fin k0_t3_loop.trips) (v4082 : BitVec 32), Decidable (k0_chk601 k0_t3 v4082) := fun k0_t3 v4082 => decidable_of_iff' _ (Iff.of_eq (k0_chk601.eq_1 k0_t3 v4082))
theorem k0_off636_inb : ∀ (k0_t3 : Fin k0_t3_loop.trips) (v4082 : BitVec 32) (k0_hw601 : k0_chk601 k0_t3 v4082), ∀ (k0_h4 : k0_cond4 k0_t3 = 1#1), ∀ a, (k0_off636 v4082) a + S1x1x32.size a ≤ S26x100001x32.size a := fun k0_t3 v4082 k0_hw601 k0_h4 => k0_hw601 k0_h4

def k0_off637 (v4092 : BitVec 32) : Fin 3 → Nat :=
  let c3_i32_3255 : BitVec 32 := 3#32
  let c0_i32_3260 : BitVec 32 := 0#32
  ![3, v4092.toNat, 0]

def k0_chk602 (k0_t3 : Fin k0_t3_loop.trips) (v4092 : BitVec 32) : Prop :=
  (∀ (k0_h4 : k0_cond4 k0_t3 = 1#1), ∀ a, (k0_off637 v4092) a + S1x1x32.size a ≤ S26x100001x32.size a)
instance k0_chk602.dec : ∀ (k0_t3 : Fin k0_t3_loop.trips) (v4092 : BitVec 32), Decidable (k0_chk602 k0_t3 v4092) := fun k0_t3 v4092 => decidable_of_iff' _ (Iff.of_eq (k0_chk602.eq_1 k0_t3 v4092))
theorem k0_off637_inb : ∀ (k0_t3 : Fin k0_t3_loop.trips) (v4092 : BitVec 32) (k0_hw602 : k0_chk602 k0_t3 v4092), ∀ (k0_h4 : k0_cond4 k0_t3 = 1#1), ∀ a, (k0_off637 v4092) a + S1x1x32.size a ≤ S26x100001x32.size a := fun k0_t3 v4092 k0_hw602 k0_h4 => k0_hw602 k0_h4

def k0_off638 (v4102 : BitVec 32) : Fin 3 → Nat :=
  let c4_i32_3263 : BitVec 32 := 4#32
  let c0_i32_3268 : BitVec 32 := 0#32
  ![4, v4102.toNat, 0]

def k0_chk603 (k0_t3 : Fin k0_t3_loop.trips) (v4102 : BitVec 32) : Prop :=
  (∀ (k0_h4 : k0_cond4 k0_t3 = 1#1), ∀ a, (k0_off638 v4102) a + S1x1x32.size a ≤ S26x100001x32.size a)
instance k0_chk603.dec : ∀ (k0_t3 : Fin k0_t3_loop.trips) (v4102 : BitVec 32), Decidable (k0_chk603 k0_t3 v4102) := fun k0_t3 v4102 => decidable_of_iff' _ (Iff.of_eq (k0_chk603.eq_1 k0_t3 v4102))
theorem k0_off638_inb : ∀ (k0_t3 : Fin k0_t3_loop.trips) (v4102 : BitVec 32) (k0_hw603 : k0_chk603 k0_t3 v4102), ∀ (k0_h4 : k0_cond4 k0_t3 = 1#1), ∀ a, (k0_off638 v4102) a + S1x1x32.size a ≤ S26x100001x32.size a := fun k0_t3 v4102 k0_hw603 k0_h4 => k0_hw603 k0_h4

def k0_off639 (v4112 : BitVec 32) : Fin 3 → Nat :=
  let c5_i32_3271 : BitVec 32 := 5#32
  let c0_i32_3276 : BitVec 32 := 0#32
  ![5, v4112.toNat, 0]

def k0_chk604 (k0_t3 : Fin k0_t3_loop.trips) (v4112 : BitVec 32) : Prop :=
  (∀ (k0_h4 : k0_cond4 k0_t3 = 1#1), ∀ a, (k0_off639 v4112) a + S1x1x32.size a ≤ S26x100001x32.size a)
instance k0_chk604.dec : ∀ (k0_t3 : Fin k0_t3_loop.trips) (v4112 : BitVec 32), Decidable (k0_chk604 k0_t3 v4112) := fun k0_t3 v4112 => decidable_of_iff' _ (Iff.of_eq (k0_chk604.eq_1 k0_t3 v4112))
theorem k0_off639_inb : ∀ (k0_t3 : Fin k0_t3_loop.trips) (v4112 : BitVec 32) (k0_hw604 : k0_chk604 k0_t3 v4112), ∀ (k0_h4 : k0_cond4 k0_t3 = 1#1), ∀ a, (k0_off639 v4112) a + S1x1x32.size a ≤ S26x100001x32.size a := fun k0_t3 v4112 k0_hw604 k0_h4 => k0_hw604 k0_h4

def k0_off640 (v4122 : BitVec 32) : Fin 3 → Nat :=
  let c6_i32_3279 : BitVec 32 := 6#32
  let c0_i32_3284 : BitVec 32 := 0#32
  ![6, v4122.toNat, 0]

def k0_chk605 (k0_t3 : Fin k0_t3_loop.trips) (v4122 : BitVec 32) : Prop :=
  (∀ (k0_h4 : k0_cond4 k0_t3 = 1#1), ∀ a, (k0_off640 v4122) a + S1x1x32.size a ≤ S26x100001x32.size a)
instance k0_chk605.dec : ∀ (k0_t3 : Fin k0_t3_loop.trips) (v4122 : BitVec 32), Decidable (k0_chk605 k0_t3 v4122) := fun k0_t3 v4122 => decidable_of_iff' _ (Iff.of_eq (k0_chk605.eq_1 k0_t3 v4122))
theorem k0_off640_inb : ∀ (k0_t3 : Fin k0_t3_loop.trips) (v4122 : BitVec 32) (k0_hw605 : k0_chk605 k0_t3 v4122), ∀ (k0_h4 : k0_cond4 k0_t3 = 1#1), ∀ a, (k0_off640 v4122) a + S1x1x32.size a ≤ S26x100001x32.size a := fun k0_t3 v4122 k0_hw605 k0_h4 => k0_hw605 k0_h4

def k0_off641 (v4132 : BitVec 32) : Fin 3 → Nat :=
  let c7_i32_3287 : BitVec 32 := 7#32
  let c0_i32_3292 : BitVec 32 := 0#32
  ![7, v4132.toNat, 0]

def k0_chk606 (k0_t3 : Fin k0_t3_loop.trips) (v4132 : BitVec 32) : Prop :=
  (∀ (k0_h4 : k0_cond4 k0_t3 = 1#1), ∀ a, (k0_off641 v4132) a + S1x1x32.size a ≤ S26x100001x32.size a)
instance k0_chk606.dec : ∀ (k0_t3 : Fin k0_t3_loop.trips) (v4132 : BitVec 32), Decidable (k0_chk606 k0_t3 v4132) := fun k0_t3 v4132 => decidable_of_iff' _ (Iff.of_eq (k0_chk606.eq_1 k0_t3 v4132))
theorem k0_off641_inb : ∀ (k0_t3 : Fin k0_t3_loop.trips) (v4132 : BitVec 32) (k0_hw606 : k0_chk606 k0_t3 v4132), ∀ (k0_h4 : k0_cond4 k0_t3 = 1#1), ∀ a, (k0_off641 v4132) a + S1x1x32.size a ≤ S26x100001x32.size a := fun k0_t3 v4132 k0_hw606 k0_h4 => k0_hw606 k0_h4

def k0_off642 (v4142 : BitVec 32) : Fin 3 → Nat :=
  let c8_i32_3295 : BitVec 32 := 8#32
  let c0_i32_3300 : BitVec 32 := 0#32
  ![8, v4142.toNat, 0]

def k0_chk607 (k0_t3 : Fin k0_t3_loop.trips) (v4142 : BitVec 32) : Prop :=
  (∀ (k0_h4 : k0_cond4 k0_t3 = 1#1), ∀ a, (k0_off642 v4142) a + S1x1x32.size a ≤ S26x100001x32.size a)
instance k0_chk607.dec : ∀ (k0_t3 : Fin k0_t3_loop.trips) (v4142 : BitVec 32), Decidable (k0_chk607 k0_t3 v4142) := fun k0_t3 v4142 => decidable_of_iff' _ (Iff.of_eq (k0_chk607.eq_1 k0_t3 v4142))
theorem k0_off642_inb : ∀ (k0_t3 : Fin k0_t3_loop.trips) (v4142 : BitVec 32) (k0_hw607 : k0_chk607 k0_t3 v4142), ∀ (k0_h4 : k0_cond4 k0_t3 = 1#1), ∀ a, (k0_off642 v4142) a + S1x1x32.size a ≤ S26x100001x32.size a := fun k0_t3 v4142 k0_hw607 k0_h4 => k0_hw607 k0_h4

def k0_off643 (v4152 : BitVec 32) : Fin 3 → Nat :=
  let c9_i32_3303 : BitVec 32 := 9#32
  let c0_i32_3308 : BitVec 32 := 0#32
  ![9, v4152.toNat, 0]

def k0_chk608 (k0_t3 : Fin k0_t3_loop.trips) (v4152 : BitVec 32) : Prop :=
  (∀ (k0_h4 : k0_cond4 k0_t3 = 1#1), ∀ a, (k0_off643 v4152) a + S1x1x32.size a ≤ S26x100001x32.size a)
instance k0_chk608.dec : ∀ (k0_t3 : Fin k0_t3_loop.trips) (v4152 : BitVec 32), Decidable (k0_chk608 k0_t3 v4152) := fun k0_t3 v4152 => decidable_of_iff' _ (Iff.of_eq (k0_chk608.eq_1 k0_t3 v4152))
theorem k0_off643_inb : ∀ (k0_t3 : Fin k0_t3_loop.trips) (v4152 : BitVec 32) (k0_hw608 : k0_chk608 k0_t3 v4152), ∀ (k0_h4 : k0_cond4 k0_t3 = 1#1), ∀ a, (k0_off643 v4152) a + S1x1x32.size a ≤ S26x100001x32.size a := fun k0_t3 v4152 k0_hw608 k0_h4 => k0_hw608 k0_h4

def k0_off644 (v4162 : BitVec 32) : Fin 3 → Nat :=
  let c10_i32_3311 : BitVec 32 := 10#32
  let c0_i32_3316 : BitVec 32 := 0#32
  ![10, v4162.toNat, 0]

def k0_chk609 (k0_t3 : Fin k0_t3_loop.trips) (v4162 : BitVec 32) : Prop :=
  (∀ (k0_h4 : k0_cond4 k0_t3 = 1#1), ∀ a, (k0_off644 v4162) a + S1x1x32.size a ≤ S26x100001x32.size a)
instance k0_chk609.dec : ∀ (k0_t3 : Fin k0_t3_loop.trips) (v4162 : BitVec 32), Decidable (k0_chk609 k0_t3 v4162) := fun k0_t3 v4162 => decidable_of_iff' _ (Iff.of_eq (k0_chk609.eq_1 k0_t3 v4162))
theorem k0_off644_inb : ∀ (k0_t3 : Fin k0_t3_loop.trips) (v4162 : BitVec 32) (k0_hw609 : k0_chk609 k0_t3 v4162), ∀ (k0_h4 : k0_cond4 k0_t3 = 1#1), ∀ a, (k0_off644 v4162) a + S1x1x32.size a ≤ S26x100001x32.size a := fun k0_t3 v4162 k0_hw609 k0_h4 => k0_hw609 k0_h4

def k0_off645 (v4172 : BitVec 32) : Fin 3 → Nat :=
  let c11_i32_3319 : BitVec 32 := 11#32
  let c0_i32_3324 : BitVec 32 := 0#32
  ![11, v4172.toNat, 0]

def k0_chk610 (k0_t3 : Fin k0_t3_loop.trips) (v4172 : BitVec 32) : Prop :=
  (∀ (k0_h4 : k0_cond4 k0_t3 = 1#1), ∀ a, (k0_off645 v4172) a + S1x1x32.size a ≤ S26x100001x32.size a)
instance k0_chk610.dec : ∀ (k0_t3 : Fin k0_t3_loop.trips) (v4172 : BitVec 32), Decidable (k0_chk610 k0_t3 v4172) := fun k0_t3 v4172 => decidable_of_iff' _ (Iff.of_eq (k0_chk610.eq_1 k0_t3 v4172))
theorem k0_off645_inb : ∀ (k0_t3 : Fin k0_t3_loop.trips) (v4172 : BitVec 32) (k0_hw610 : k0_chk610 k0_t3 v4172), ∀ (k0_h4 : k0_cond4 k0_t3 = 1#1), ∀ a, (k0_off645 v4172) a + S1x1x32.size a ≤ S26x100001x32.size a := fun k0_t3 v4172 k0_hw610 k0_h4 => k0_hw610 k0_h4

def k0_off646 (v4182 : BitVec 32) : Fin 3 → Nat :=
  let c12_i32_3327 : BitVec 32 := 12#32
  let c0_i32_3332 : BitVec 32 := 0#32
  ![12, v4182.toNat, 0]

def k0_chk611 (k0_t3 : Fin k0_t3_loop.trips) (v4182 : BitVec 32) : Prop :=
  (∀ (k0_h4 : k0_cond4 k0_t3 = 1#1), ∀ a, (k0_off646 v4182) a + S1x1x32.size a ≤ S26x100001x32.size a)
instance k0_chk611.dec : ∀ (k0_t3 : Fin k0_t3_loop.trips) (v4182 : BitVec 32), Decidable (k0_chk611 k0_t3 v4182) := fun k0_t3 v4182 => decidable_of_iff' _ (Iff.of_eq (k0_chk611.eq_1 k0_t3 v4182))
theorem k0_off646_inb : ∀ (k0_t3 : Fin k0_t3_loop.trips) (v4182 : BitVec 32) (k0_hw611 : k0_chk611 k0_t3 v4182), ∀ (k0_h4 : k0_cond4 k0_t3 = 1#1), ∀ a, (k0_off646 v4182) a + S1x1x32.size a ≤ S26x100001x32.size a := fun k0_t3 v4182 k0_hw611 k0_h4 => k0_hw611 k0_h4

def k0_off647 (v4192 : BitVec 32) : Fin 3 → Nat :=
  let c13_i32_3335 : BitVec 32 := 13#32
  let c0_i32_3340 : BitVec 32 := 0#32
  ![13, v4192.toNat, 0]

def k0_chk612 (k0_t3 : Fin k0_t3_loop.trips) (v4192 : BitVec 32) : Prop :=
  (∀ (k0_h4 : k0_cond4 k0_t3 = 1#1), ∀ a, (k0_off647 v4192) a + S1x1x32.size a ≤ S26x100001x32.size a)
instance k0_chk612.dec : ∀ (k0_t3 : Fin k0_t3_loop.trips) (v4192 : BitVec 32), Decidable (k0_chk612 k0_t3 v4192) := fun k0_t3 v4192 => decidable_of_iff' _ (Iff.of_eq (k0_chk612.eq_1 k0_t3 v4192))
theorem k0_off647_inb : ∀ (k0_t3 : Fin k0_t3_loop.trips) (v4192 : BitVec 32) (k0_hw612 : k0_chk612 k0_t3 v4192), ∀ (k0_h4 : k0_cond4 k0_t3 = 1#1), ∀ a, (k0_off647 v4192) a + S1x1x32.size a ≤ S26x100001x32.size a := fun k0_t3 v4192 k0_hw612 k0_h4 => k0_hw612 k0_h4

def k0_off648 (v4202 : BitVec 32) : Fin 3 → Nat :=
  let c14_i32_3343 : BitVec 32 := 14#32
  let c0_i32_3348 : BitVec 32 := 0#32
  ![14, v4202.toNat, 0]

def k0_chk613 (k0_t3 : Fin k0_t3_loop.trips) (v4202 : BitVec 32) : Prop :=
  (∀ (k0_h4 : k0_cond4 k0_t3 = 1#1), ∀ a, (k0_off648 v4202) a + S1x1x32.size a ≤ S26x100001x32.size a)
instance k0_chk613.dec : ∀ (k0_t3 : Fin k0_t3_loop.trips) (v4202 : BitVec 32), Decidable (k0_chk613 k0_t3 v4202) := fun k0_t3 v4202 => decidable_of_iff' _ (Iff.of_eq (k0_chk613.eq_1 k0_t3 v4202))
theorem k0_off648_inb : ∀ (k0_t3 : Fin k0_t3_loop.trips) (v4202 : BitVec 32) (k0_hw613 : k0_chk613 k0_t3 v4202), ∀ (k0_h4 : k0_cond4 k0_t3 = 1#1), ∀ a, (k0_off648 v4202) a + S1x1x32.size a ≤ S26x100001x32.size a := fun k0_t3 v4202 k0_hw613 k0_h4 => k0_hw613 k0_h4

def k0_off649 (v4212 : BitVec 32) : Fin 3 → Nat :=
  let c15_i32_3351 : BitVec 32 := 15#32
  let c0_i32_3356 : BitVec 32 := 0#32
  ![15, v4212.toNat, 0]

def k0_chk614 (k0_t3 : Fin k0_t3_loop.trips) (v4212 : BitVec 32) : Prop :=
  (∀ (k0_h4 : k0_cond4 k0_t3 = 1#1), ∀ a, (k0_off649 v4212) a + S1x1x32.size a ≤ S26x100001x32.size a)
instance k0_chk614.dec : ∀ (k0_t3 : Fin k0_t3_loop.trips) (v4212 : BitVec 32), Decidable (k0_chk614 k0_t3 v4212) := fun k0_t3 v4212 => decidable_of_iff' _ (Iff.of_eq (k0_chk614.eq_1 k0_t3 v4212))
theorem k0_off649_inb : ∀ (k0_t3 : Fin k0_t3_loop.trips) (v4212 : BitVec 32) (k0_hw614 : k0_chk614 k0_t3 v4212), ∀ (k0_h4 : k0_cond4 k0_t3 = 1#1), ∀ a, (k0_off649 v4212) a + S1x1x32.size a ≤ S26x100001x32.size a := fun k0_t3 v4212 k0_hw614 k0_h4 => k0_hw614 k0_h4

def k0_off650 (v4222 : BitVec 32) : Fin 3 → Nat :=
  let c16_i32_3359 : BitVec 32 := 16#32
  let c0_i32_3364 : BitVec 32 := 0#32
  ![16, v4222.toNat, 0]

def k0_chk615 (k0_t3 : Fin k0_t3_loop.trips) (v4222 : BitVec 32) : Prop :=
  (∀ (k0_h4 : k0_cond4 k0_t3 = 1#1), ∀ a, (k0_off650 v4222) a + S1x1x32.size a ≤ S26x100001x32.size a)
instance k0_chk615.dec : ∀ (k0_t3 : Fin k0_t3_loop.trips) (v4222 : BitVec 32), Decidable (k0_chk615 k0_t3 v4222) := fun k0_t3 v4222 => decidable_of_iff' _ (Iff.of_eq (k0_chk615.eq_1 k0_t3 v4222))
theorem k0_off650_inb : ∀ (k0_t3 : Fin k0_t3_loop.trips) (v4222 : BitVec 32) (k0_hw615 : k0_chk615 k0_t3 v4222), ∀ (k0_h4 : k0_cond4 k0_t3 = 1#1), ∀ a, (k0_off650 v4222) a + S1x1x32.size a ≤ S26x100001x32.size a := fun k0_t3 v4222 k0_hw615 k0_h4 => k0_hw615 k0_h4

def k0_off651 (v4232 : BitVec 32) : Fin 3 → Nat :=
  let c17_i32_3367 : BitVec 32 := 17#32
  let c0_i32_3372 : BitVec 32 := 0#32
  ![17, v4232.toNat, 0]

def k0_chk616 (k0_t3 : Fin k0_t3_loop.trips) (v4232 : BitVec 32) : Prop :=
  (∀ (k0_h4 : k0_cond4 k0_t3 = 1#1), ∀ a, (k0_off651 v4232) a + S1x1x32.size a ≤ S26x100001x32.size a)
instance k0_chk616.dec : ∀ (k0_t3 : Fin k0_t3_loop.trips) (v4232 : BitVec 32), Decidable (k0_chk616 k0_t3 v4232) := fun k0_t3 v4232 => decidable_of_iff' _ (Iff.of_eq (k0_chk616.eq_1 k0_t3 v4232))
theorem k0_off651_inb : ∀ (k0_t3 : Fin k0_t3_loop.trips) (v4232 : BitVec 32) (k0_hw616 : k0_chk616 k0_t3 v4232), ∀ (k0_h4 : k0_cond4 k0_t3 = 1#1), ∀ a, (k0_off651 v4232) a + S1x1x32.size a ≤ S26x100001x32.size a := fun k0_t3 v4232 k0_hw616 k0_h4 => k0_hw616 k0_h4

def k0_off652 (v4242 : BitVec 32) : Fin 3 → Nat :=
  let c18_i32_3375 : BitVec 32 := 18#32
  let c0_i32_3380 : BitVec 32 := 0#32
  ![18, v4242.toNat, 0]

def k0_chk617 (k0_t3 : Fin k0_t3_loop.trips) (v4242 : BitVec 32) : Prop :=
  (∀ (k0_h4 : k0_cond4 k0_t3 = 1#1), ∀ a, (k0_off652 v4242) a + S1x1x32.size a ≤ S26x100001x32.size a)
instance k0_chk617.dec : ∀ (k0_t3 : Fin k0_t3_loop.trips) (v4242 : BitVec 32), Decidable (k0_chk617 k0_t3 v4242) := fun k0_t3 v4242 => decidable_of_iff' _ (Iff.of_eq (k0_chk617.eq_1 k0_t3 v4242))
theorem k0_off652_inb : ∀ (k0_t3 : Fin k0_t3_loop.trips) (v4242 : BitVec 32) (k0_hw617 : k0_chk617 k0_t3 v4242), ∀ (k0_h4 : k0_cond4 k0_t3 = 1#1), ∀ a, (k0_off652 v4242) a + S1x1x32.size a ≤ S26x100001x32.size a := fun k0_t3 v4242 k0_hw617 k0_h4 => k0_hw617 k0_h4

def k0_off653 (v4252 : BitVec 32) : Fin 3 → Nat :=
  let c19_i32_3383 : BitVec 32 := 19#32
  let c0_i32_3388 : BitVec 32 := 0#32
  ![19, v4252.toNat, 0]

def k0_chk618 (k0_t3 : Fin k0_t3_loop.trips) (v4252 : BitVec 32) : Prop :=
  (∀ (k0_h4 : k0_cond4 k0_t3 = 1#1), ∀ a, (k0_off653 v4252) a + S1x1x32.size a ≤ S26x100001x32.size a)
instance k0_chk618.dec : ∀ (k0_t3 : Fin k0_t3_loop.trips) (v4252 : BitVec 32), Decidable (k0_chk618 k0_t3 v4252) := fun k0_t3 v4252 => decidable_of_iff' _ (Iff.of_eq (k0_chk618.eq_1 k0_t3 v4252))
theorem k0_off653_inb : ∀ (k0_t3 : Fin k0_t3_loop.trips) (v4252 : BitVec 32) (k0_hw618 : k0_chk618 k0_t3 v4252), ∀ (k0_h4 : k0_cond4 k0_t3 = 1#1), ∀ a, (k0_off653 v4252) a + S1x1x32.size a ≤ S26x100001x32.size a := fun k0_t3 v4252 k0_hw618 k0_h4 => k0_hw618 k0_h4

def k0_off654 (v4262 : BitVec 32) : Fin 3 → Nat :=
  let c20_i32_3391 : BitVec 32 := 20#32
  let c0_i32_3396 : BitVec 32 := 0#32
  ![20, v4262.toNat, 0]

def k0_chk619 (k0_t3 : Fin k0_t3_loop.trips) (v4262 : BitVec 32) : Prop :=
  (∀ (k0_h4 : k0_cond4 k0_t3 = 1#1), ∀ a, (k0_off654 v4262) a + S1x1x32.size a ≤ S26x100001x32.size a)
instance k0_chk619.dec : ∀ (k0_t3 : Fin k0_t3_loop.trips) (v4262 : BitVec 32), Decidable (k0_chk619 k0_t3 v4262) := fun k0_t3 v4262 => decidable_of_iff' _ (Iff.of_eq (k0_chk619.eq_1 k0_t3 v4262))
theorem k0_off654_inb : ∀ (k0_t3 : Fin k0_t3_loop.trips) (v4262 : BitVec 32) (k0_hw619 : k0_chk619 k0_t3 v4262), ∀ (k0_h4 : k0_cond4 k0_t3 = 1#1), ∀ a, (k0_off654 v4262) a + S1x1x32.size a ≤ S26x100001x32.size a := fun k0_t3 v4262 k0_hw619 k0_h4 => k0_hw619 k0_h4

def k0_off655 (v4272 : BitVec 32) : Fin 3 → Nat :=
  let c21_i32_3399 : BitVec 32 := 21#32
  let c0_i32_3404 : BitVec 32 := 0#32
  ![21, v4272.toNat, 0]

def k0_chk620 (k0_t3 : Fin k0_t3_loop.trips) (v4272 : BitVec 32) : Prop :=
  (∀ (k0_h4 : k0_cond4 k0_t3 = 1#1), ∀ a, (k0_off655 v4272) a + S1x1x32.size a ≤ S26x100001x32.size a)
instance k0_chk620.dec : ∀ (k0_t3 : Fin k0_t3_loop.trips) (v4272 : BitVec 32), Decidable (k0_chk620 k0_t3 v4272) := fun k0_t3 v4272 => decidable_of_iff' _ (Iff.of_eq (k0_chk620.eq_1 k0_t3 v4272))
theorem k0_off655_inb : ∀ (k0_t3 : Fin k0_t3_loop.trips) (v4272 : BitVec 32) (k0_hw620 : k0_chk620 k0_t3 v4272), ∀ (k0_h4 : k0_cond4 k0_t3 = 1#1), ∀ a, (k0_off655 v4272) a + S1x1x32.size a ≤ S26x100001x32.size a := fun k0_t3 v4272 k0_hw620 k0_h4 => k0_hw620 k0_h4

def k0_off656 (v4282 : BitVec 32) : Fin 3 → Nat :=
  let c22_i32_3407 : BitVec 32 := 22#32
  let c0_i32_3412 : BitVec 32 := 0#32
  ![22, v4282.toNat, 0]

def k0_chk621 (k0_t3 : Fin k0_t3_loop.trips) (v4282 : BitVec 32) : Prop :=
  (∀ (k0_h4 : k0_cond4 k0_t3 = 1#1), ∀ a, (k0_off656 v4282) a + S1x1x32.size a ≤ S26x100001x32.size a)
instance k0_chk621.dec : ∀ (k0_t3 : Fin k0_t3_loop.trips) (v4282 : BitVec 32), Decidable (k0_chk621 k0_t3 v4282) := fun k0_t3 v4282 => decidable_of_iff' _ (Iff.of_eq (k0_chk621.eq_1 k0_t3 v4282))
theorem k0_off656_inb : ∀ (k0_t3 : Fin k0_t3_loop.trips) (v4282 : BitVec 32) (k0_hw621 : k0_chk621 k0_t3 v4282), ∀ (k0_h4 : k0_cond4 k0_t3 = 1#1), ∀ a, (k0_off656 v4282) a + S1x1x32.size a ≤ S26x100001x32.size a := fun k0_t3 v4282 k0_hw621 k0_h4 => k0_hw621 k0_h4

def k0_off657 (v4292 : BitVec 32) : Fin 3 → Nat :=
  let c23_i32_3415 : BitVec 32 := 23#32
  let c0_i32_3420 : BitVec 32 := 0#32
  ![23, v4292.toNat, 0]

def k0_chk622 (k0_t3 : Fin k0_t3_loop.trips) (v4292 : BitVec 32) : Prop :=
  (∀ (k0_h4 : k0_cond4 k0_t3 = 1#1), ∀ a, (k0_off657 v4292) a + S1x1x32.size a ≤ S26x100001x32.size a)
instance k0_chk622.dec : ∀ (k0_t3 : Fin k0_t3_loop.trips) (v4292 : BitVec 32), Decidable (k0_chk622 k0_t3 v4292) := fun k0_t3 v4292 => decidable_of_iff' _ (Iff.of_eq (k0_chk622.eq_1 k0_t3 v4292))
theorem k0_off657_inb : ∀ (k0_t3 : Fin k0_t3_loop.trips) (v4292 : BitVec 32) (k0_hw622 : k0_chk622 k0_t3 v4292), ∀ (k0_h4 : k0_cond4 k0_t3 = 1#1), ∀ a, (k0_off657 v4292) a + S1x1x32.size a ≤ S26x100001x32.size a := fun k0_t3 v4292 k0_hw622 k0_h4 => k0_hw622 k0_h4

def k0_off658 (v4302 : BitVec 32) : Fin 3 → Nat :=
  let c24_i32_3423 : BitVec 32 := 24#32
  let c0_i32_3428 : BitVec 32 := 0#32
  ![24, v4302.toNat, 0]

def k0_chk623 (k0_t3 : Fin k0_t3_loop.trips) (v4302 : BitVec 32) : Prop :=
  (∀ (k0_h4 : k0_cond4 k0_t3 = 1#1), ∀ a, (k0_off658 v4302) a + S1x1x32.size a ≤ S26x100001x32.size a)
instance k0_chk623.dec : ∀ (k0_t3 : Fin k0_t3_loop.trips) (v4302 : BitVec 32), Decidable (k0_chk623 k0_t3 v4302) := fun k0_t3 v4302 => decidable_of_iff' _ (Iff.of_eq (k0_chk623.eq_1 k0_t3 v4302))
theorem k0_off658_inb : ∀ (k0_t3 : Fin k0_t3_loop.trips) (v4302 : BitVec 32) (k0_hw623 : k0_chk623 k0_t3 v4302), ∀ (k0_h4 : k0_cond4 k0_t3 = 1#1), ∀ a, (k0_off658 v4302) a + S1x1x32.size a ≤ S26x100001x32.size a := fun k0_t3 v4302 k0_hw623 k0_h4 => k0_hw623 k0_h4

def k0_off659 (v4312 : BitVec 32) : Fin 3 → Nat :=
  let c25_i32_3431 : BitVec 32 := 25#32
  let c0_i32_3436 : BitVec 32 := 0#32
  ![25, v4312.toNat, 0]

def k0_chk624 (k0_t3 : Fin k0_t3_loop.trips) (v4312 : BitVec 32) : Prop :=
  (∀ (k0_h4 : k0_cond4 k0_t3 = 1#1), ∀ a, (k0_off659 v4312) a + S1x1x32.size a ≤ S26x100001x32.size a)
instance k0_chk624.dec : ∀ (k0_t3 : Fin k0_t3_loop.trips) (v4312 : BitVec 32), Decidable (k0_chk624 k0_t3 v4312) := fun k0_t3 v4312 => decidable_of_iff' _ (Iff.of_eq (k0_chk624.eq_1 k0_t3 v4312))
theorem k0_off659_inb : ∀ (k0_t3 : Fin k0_t3_loop.trips) (v4312 : BitVec 32) (k0_hw624 : k0_chk624 k0_t3 v4312), ∀ (k0_h4 : k0_cond4 k0_t3 = 1#1), ∀ a, (k0_off659 v4312) a + S1x1x32.size a ≤ S26x100001x32.size a := fun k0_t3 v4312 k0_hw624 k0_h4 => k0_hw624 k0_h4

@[reducible] def k0_t5_loop : Scf.Loop 32 :=
  let c0_i32_1725 : BitVec 32 := 0#32
  let c208_i32_1726 : BitVec 32 := 208#32
  let v2166 : BitVec 32 := Scalar.addi c0_i32_1725 c208_i32_1726
  let c1_i32_1727 : BitVec 32 := 1#32
  ⟨c0_i32_1725, v2166, c1_i32_1727⟩
def k0_off660 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_1717 : BitVec 32 := 2#32
  let c0_i32_1680 : BitVec 32 := 0#32
  let c1_i32_1681 : BitVec 32 := 1#32
  let arg12 : BitVec 32 := Scf.iv c0_i32_1680 c1_i32_1681 k0_t3
  let v2157 : BitVec 32 := Scalar.muli c2_i32_1717 arg12
  let c1_i32_1718 : BitVec 32 := 1#32
  let v2158 : BitVec 32 := Scalar.addi v2157 c1_i32_1718
  let c8_i32_1729 : BitVec 32 := 8#32
  let v2167 : BitVec 32 := Scalar.muli v2158 c8_i32_1729
  let v2168 : BitVec 32 := Scalar.addi v2 v2167
  let c0_i32_1734 : BitVec 32 := 0#32
  let c0_i32_1735 : BitVec 32 := 0#32
  ![v2168.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x26_S26 : S1x26.Squeezes S26
  inb_S512x32_S1x26_0_0 : ∀ a, (![0, 0] : Fin 2 → Nat) a + S1x26.size a ≤ S512x32.size a
  inb_S16384x26_S1x26_0_0 : ∀ a, (![0, 0] : Fin 2 → Nat) a + S1x26.size a ≤ S16384x26.size a
  inb_S512x32_S1x16_0_0 : ∀ a, (![0, 0] : Fin 2 → Nat) a + S1x16.size a ≤ S512x32.size a
  h_S1x16 : 0 < S1x16.numel
  shapeCasts_S1x16_S16 : S1x16.ShapeCasts S16
  inb_S512x32_S1x16_0_16 : ∀ a, (![0, 16] : Fin 2 → Nat) a + S1x16.size a ≤ S512x32.size a
  slices_S16_o0_S1 : S16.Slices ![0] S1
  inpos_S1_p0 : ∀ a, (![0] : Fin 1 → Nat) a < S1.size a
  inb_S2x8x26x32_S1x1x1x32_0_0_0_0 : ∀ a, (![0, 0, 0, 0] : Fin 4 → Nat) a + S1x1x1x32.size a ≤ S2x8x26x32.size a
  squeezes_S1x1x1x32_S32 : S1x1x1x32.Squeezes S32
  squeezes_S1x1x32_S32 : S1x1x32.Squeezes S32
  slices_S16_o1_S1 : S16.Slices ![1] S1
  inb_S2x8x26x32_S1x1x1x32_0_0_1_0 : ∀ a, (![0, 0, 1, 0] : Fin 4 → Nat) a + S1x1x1x32.size a ≤ S2x8x26x32.size a
  slices_S16_o2_S1 : S16.Slices ![2] S1
  inb_S2x8x26x32_S1x1x1x32_0_0_2_0 : ∀ a, (![0, 0, 2, 0] : Fin 4 → Nat) a + S1x1x1x32.size a ≤ S2x8x26x32.size a
  slices_S16_o3_S1 : S16.Slices ![3] S1
  inb_S2x8x26x32_S1x1x1x32_0_0_3_0 : ∀ a, (![0, 0, 3, 0] : Fin 4 → Nat) a + S1x1x1x32.size a ≤ S2x8x26x32.size a
  slices_S16_o4_S1 : S16.Slices ![4] S1
  inb_S2x8x26x32_S1x1x1x32_0_0_4_0 : ∀ a, (![0, 0, 4, 0] : Fin 4 → Nat) a + S1x1x1x32.size a ≤ S2x8x26x32.size a
  slices_S16_o5_S1 : S16.Slices ![5] S1
  inb_S2x8x26x32_S1x1x1x32_0_0_5_0 : ∀ a, (![0, 0, 5, 0] : Fin 4 → Nat) a + S1x1x1x32.size a ≤ S2x8x26x32.size a
  slices_S16_o6_S1 : S16.Slices ![6] S1
  inb_S2x8x26x32_S1x1x1x32_0_0_6_0 : ∀ a, (![0, 0, 6, 0] : Fin 4 → Nat) a + S1x1x1x32.size a ≤ S2x8x26x32.size a
  slices_S16_o7_S1 : S16.Slices ![7] S1
  inb_S2x8x26x32_S1x1x1x32_0_0_7_0 : ∀ a, (![0, 0, 7, 0] : Fin 4 → Nat) a + S1x1x1x32.size a ≤ S2x8x26x32.size a
  slices_S16_o8_S1 : S16.Slices ![8] S1
  inb_S2x8x26x32_S1x1x1x32_0_0_8_0 : ∀ a, (![0, 0, 8, 0] : Fin 4 → Nat) a + S1x1x1x32.size a ≤ S2x8x26x32.size a
  slices_S16_o9_S1 : S16.Slices ![9] S1
  inb_S2x8x26x32_S1x1x1x32_0_0_9_0 : ∀ a, (![0, 0, 9, 0] : Fin 4 → Nat) a + S1x1x1x32.size a ≤ S2x8x26x32.size a
  slices_S16_o10_S1 : S16.Slices ![10] S1
  inb_S2x8x26x32_S1x1x1x32_0_0_10_0 : ∀ a, (![0, 0, 10, 0] : Fin 4 → Nat) a + S1x1x1x32.size a ≤ S2x8x26x32.size a
  slices_S16_o11_S1 : S16.Slices ![11] S1
  inb_S2x8x26x32_S1x1x1x32_0_0_11_0 : ∀ a, (![0, 0, 11, 0] : Fin 4 → Nat) a + S1x1x1x32.size a ≤ S2x8x26x32.size a
  slices_S16_o12_S1 : S16.Slices ![12] S1
  inb_S2x8x26x32_S1x1x1x32_0_0_12_0 : ∀ a, (![0, 0, 12, 0] : Fin 4 → Nat) a + S1x1x1x32.size a ≤ S2x8x26x32.size a
  slices_S16_o13_S1 : S16.Slices ![13] S1
  inb_S2x8x26x32_S1x1x1x32_0_0_13_0 : ∀ a, (![0, 0, 13, 0] : Fin 4 → Nat) a + S1x1x1x32.size a ≤ S2x8x26x32.size a
  slices_S16_o14_S1 : S16.Slices ![14] S1
  inb_S2x8x26x32_S1x1x1x32_0_0_14_0 : ∀ a, (![0, 0, 14, 0] : Fin 4 → Nat) a + S1x1x1x32.size a ≤ S2x8x26x32.size a
  slices_S16_o15_S1 : S16.Slices ![15] S1
  inb_S2x8x26x32_S1x1x1x32_0_0_15_0 : ∀ a, (![0, 0, 15, 0] : Fin 4 → Nat) a + S1x1x1x32.size a ≤ S2x8x26x32.size a
  inb_S2x8x26x32_S1x1x1x32_0_0_16_0 : ∀ a, (![0, 0, 16, 0] : Fin 4 → Nat) a + S1x1x1x32.size a ≤ S2x8x26x32.size a
  inb_S2x8x26x32_S1x1x1x32_0_0_17_0 : ∀ a, (![0, 0, 17, 0] : Fin 4 → Nat) a + S1x1x1x32.size a ≤ S2x8x26x32.size a
  inb_S2x8x26x32_S1x1x1x32_0_0_18_0 : ∀ a, (![0, 0, 18, 0] : Fin 4 → Nat) a + S1x1x1x32.size a ≤ S2x8x26x32.size a
  inb_S2x8x26x32_S1x1x1x32_0_0_19_0 : ∀ a, (![0, 0, 19, 0] : Fin 4 → Nat) a + S1x1x1x32.size a ≤ S2x8x26x32.size a
  inb_S2x8x26x32_S1x1x1x32_0_0_20_0 : ∀ a, (![0, 0, 20, 0] : Fin 4 → Nat) a + S1x1x1x32.size a ≤ S2x8x26x32.size a
  inb_S2x8x26x32_S1x1x1x32_0_0_21_0 : ∀ a, (![0, 0, 21, 0] : Fin 4 → Nat) a + S1x1x1x32.size a ≤ S2x8x26x32.size a
  inb_S2x8x26x32_S1x1x1x32_0_0_22_0 : ∀ a, (![0, 0, 22, 0] : Fin 4 → Nat) a + S1x1x1x32.size a ≤ S2x8x26x32.size a
  inb_S2x8x26x32_S1x1x1x32_0_0_23_0 : ∀ a, (![0, 0, 23, 0] : Fin 4 → Nat) a + S1x1x1x32.size a ≤ S2x8x26x32.size a
  inb_S2x8x26x32_S1x1x1x32_0_0_24_0 : ∀ a, (![0, 0, 24, 0] : Fin 4 → Nat) a + S1x1x1x32.size a ≤ S2x8x26x32.size a
  inb_S2x8x26x32_S1x1x1x32_0_0_25_0 : ∀ a, (![0, 0, 25, 0] : Fin 4 → Nat) a + S1x1x1x32.size a ≤ S2x8x26x32.size a
  inb_S512x32_S1x16_1_0 : ∀ a, (![1, 0] : Fin 2 → Nat) a + S1x16.size a ≤ S512x32.size a
  inb_S512x32_S1x16_1_16 : ∀ a, (![1, 16] : Fin 2 → Nat) a + S1x16.size a ≤ S512x32.size a
  inb_S2x8x26x32_S1x1x1x32_0_1_0_0 : ∀ a, (![0, 1, 0, 0] : Fin 4 → Nat) a + S1x1x1x32.size a ≤ S2x8x26x32.size a
  inb_S2x8x26x32_S1x1x1x32_0_1_1_0 : ∀ a, (![0, 1, 1, 0] : Fin 4 → Nat) a + S1x1x1x32.size a ≤ S2x8x26x32.size a
  inb_S2x8x26x32_S1x1x1x32_0_1_2_0 : ∀ a, (![0, 1, 2, 0] : Fin 4 → Nat) a + S1x1x1x32.size a ≤ S2x8x26x32.size a
  inb_S2x8x26x32_S1x1x1x32_0_1_3_0 : ∀ a, (![0, 1, 3, 0] : Fin 4 → Nat) a + S1x1x1x32.size a ≤ S2x8x26x32.size a
  inb_S2x8x26x32_S1x1x1x32_0_1_4_0 : ∀ a, (![0, 1, 4, 0] : Fin 4 → Nat) a + S1x1x1x32.size a ≤ S2x8x26x32.size a
  inb_S2x8x26x32_S1x1x1x32_0_1_5_0 : ∀ a, (![0, 1, 5, 0] : Fin 4 → Nat) a + S1x1x1x32.size a ≤ S2x8x26x32.size a
  inb_S2x8x26x32_S1x1x1x32_0_1_6_0 : ∀ a, (![0, 1, 6, 0] : Fin 4 → Nat) a + S1x1x1x32.size a ≤ S2x8x26x32.size a
  inb_S2x8x26x32_S1x1x1x32_0_1_7_0 : ∀ a, (![0, 1, 7, 0] : Fin 4 → Nat) a + S1x1x1x32.size a ≤ S2x8x26x32.size a
  inb_S2x8x26x32_S1x1x1x32_0_1_8_0 : ∀ a, (![0, 1, 8, 0] : Fin 4 → Nat) a + S1x1x1x32.size a ≤ S2x8x26x32.size a
  inb_S2x8x26x32_S1x1x1x32_0_1_9_0 : ∀ a, (![0, 1, 9, 0] : Fin 4 → Nat) a + S1x1x1x32.size a ≤ S2x8x26x32.size a
  inb_S2x8x26x32_S1x1x1x32_0_1_10_0 : ∀ a, (![0, 1, 10, 0] : Fin 4 → Nat) a + S1x1x1x32.size a ≤ S2x8x26x32.size a
  inb_S2x8x26x32_S1x1x1x32_0_1_11_0 : ∀ a, (![0, 1, 11, 0] : Fin 4 → Nat) a + S1x1x1x32.size a ≤ S2x8x26x32.size a
  inb_S2x8x26x32_S1x1x1x32_0_1_12_0 : ∀ a, (![0, 1, 12, 0] : Fin 4 → Nat) a + S1x1x1x32.size a ≤ S2x8x26x32.size a
  inb_S2x8x26x32_S1x1x1x32_0_1_13_0 : ∀ a, (![0, 1, 13, 0] : Fin 4 → Nat) a + S1x1x1x32.size a ≤ S2x8x26x32.size a
  inb_S2x8x26x32_S1x1x1x32_0_1_14_0 : ∀ a, (![0, 1, 14, 0] : Fin 4 → Nat) a + S1x1x1x32.size a ≤ S2x8x26x32.size a
  inb_S2x8x26x32_S1x1x1x32_0_1_15_0 : ∀ a, (![0, 1, 15, 0] : Fin 4 → Nat) a + S1x1x1x32.size a ≤ S2x8x26x32.size a
  inb_S2x8x26x32_S1x1x1x32_0_1_16_0 : ∀ a, (![0, 1, 16, 0] : Fin 4 → Nat) a + S1x1x1x32.size a ≤ S2x8x26x32.size a
  inb_S2x8x26x32_S1x1x1x32_0_1_17_0 : ∀ a, (![0, 1, 17, 0] : Fin 4 → Nat) a + S1x1x1x32.size a ≤ S2x8x26x32.size a
  inb_S2x8x26x32_S1x1x1x32_0_1_18_0 : ∀ a, (![0, 1, 18, 0] : Fin 4 → Nat) a + S1x1x1x32.size a ≤ S2x8x26x32.size a
  inb_S2x8x26x32_S1x1x1x32_0_1_19_0 : ∀ a, (![0, 1, 19, 0] : Fin 4 → Nat) a + S1x1x1x32.size a ≤ S2x8x26x32.size a
  inb_S2x8x26x32_S1x1x1x32_0_1_20_0 : ∀ a, (![0, 1, 20, 0] : Fin 4 → Nat) a + S1x1x1x32.size a ≤ S2x8x26x32.size a
  inb_S2x8x26x32_S1x1x1x32_0_1_21_0 : ∀ a, (![0, 1, 21, 0] : Fin 4 → Nat) a + S1x1x1x32.size a ≤ S2x8x26x32.size a
  inb_S2x8x26x32_S1x1x1x32_0_1_22_0 : ∀ a, (![0, 1, 22, 0] : Fin 4 → Nat) a + S1x1x1x32.size a ≤ S2x8x26x32.size a
  inb_S2x8x26x32_S1x1x1x32_0_1_23_0 : ∀ a, (![0, 1, 23, 0] : Fin 4 → Nat) a + S1x1x1x32.size a ≤ S2x8x26x32.size a
  inb_S2x8x26x32_S1x1x1x32_0_1_24_0 : ∀ a, (![0, 1, 24, 0] : Fin 4 → Nat) a + S1x1x1x32.size a ≤ S2x8x26x32.size a
  inb_S2x8x26x32_S1x1x1x32_0_1_25_0 : ∀ a, (![0, 1, 25, 0] : Fin 4 → Nat) a + S1x1x1x32.size a ≤ S2x8x26x32.size a
  inb_S512x32_S1x16_2_0 : ∀ a, (![2, 0] : Fin 2 → Nat) a + S1x16.size a ≤ S512x32.size a
  inb_S512x32_S1x16_2_16 : ∀ a, (![2, 16] : Fin 2 → Nat) a + S1x16.size a ≤ S512x32.size a
  inb_S2x8x26x32_S1x1x1x32_0_2_0_0 : ∀ a, (![0, 2, 0, 0] : Fin 4 → Nat) a + S1x1x1x32.size a ≤ S2x8x26x32.size a
  inb_S2x8x26x32_S1x1x1x32_0_2_1_0 : ∀ a, (![0, 2, 1, 0] : Fin 4 → Nat) a + S1x1x1x32.size a ≤ S2x8x26x32.size a
  inb_S2x8x26x32_S1x1x1x32_0_2_2_0 : ∀ a, (![0, 2, 2, 0] : Fin 4 → Nat) a + S1x1x1x32.size a ≤ S2x8x26x32.size a
  inb_S2x8x26x32_S1x1x1x32_0_2_3_0 : ∀ a, (![0, 2, 3, 0] : Fin 4 → Nat) a + S1x1x1x32.size a ≤ S2x8x26x32.size a
  inb_S2x8x26x32_S1x1x1x32_0_2_4_0 : ∀ a, (![0, 2, 4, 0] : Fin 4 → Nat) a + S1x1x1x32.size a ≤ S2x8x26x32.size a
  inb_S2x8x26x32_S1x1x1x32_0_2_5_0 : ∀ a, (![0, 2, 5, 0] : Fin 4 → Nat) a + S1x1x1x32.size a ≤ S2x8x26x32.size a
  inb_S2x8x26x32_S1x1x1x32_0_2_6_0 : ∀ a, (![0, 2, 6, 0] : Fin 4 → Nat) a + S1x1x1x32.size a ≤ S2x8x26x32.size a
  inb_S2x8x26x32_S1x1x1x32_0_2_7_0 : ∀ a, (![0, 2, 7, 0] : Fin 4 → Nat) a + S1x1x1x32.size a ≤ S2x8x26x32.size a
  inb_S2x8x26x32_S1x1x1x32_0_2_8_0 : ∀ a, (![0, 2, 8, 0] : Fin 4 → Nat) a + S1x1x1x32.size a ≤ S2x8x26x32.size a
  inb_S2x8x26x32_S1x1x1x32_0_2_9_0 : ∀ a, (![0, 2, 9, 0] : Fin 4 → Nat) a + S1x1x1x32.size a ≤ S2x8x26x32.size a
  inb_S2x8x26x32_S1x1x1x32_0_2_10_0 : ∀ a, (![0, 2, 10, 0] : Fin 4 → Nat) a + S1x1x1x32.size a ≤ S2x8x26x32.size a
  inb_S2x8x26x32_S1x1x1x32_0_2_11_0 : ∀ a, (![0, 2, 11, 0] : Fin 4 → Nat) a + S1x1x1x32.size a ≤ S2x8x26x32.size a
  inb_S2x8x26x32_S1x1x1x32_0_2_12_0 : ∀ a, (![0, 2, 12, 0] : Fin 4 → Nat) a + S1x1x1x32.size a ≤ S2x8x26x32.size a
  inb_S2x8x26x32_S1x1x1x32_0_2_13_0 : ∀ a, (![0, 2, 13, 0] : Fin 4 → Nat) a + S1x1x1x32.size a ≤ S2x8x26x32.size a
  inb_S2x8x26x32_S1x1x1x32_0_2_14_0 : ∀ a, (![0, 2, 14, 0] : Fin 4 → Nat) a + S1x1x1x32.size a ≤ S2x8x26x32.size a
  inb_S2x8x26x32_S1x1x1x32_0_2_15_0 : ∀ a, (![0, 2, 15, 0] : Fin 4 → Nat) a + S1x1x1x32.size a ≤ S2x8x26x32.size a
  inb_S2x8x26x32_S1x1x1x32_0_2_16_0 : ∀ a, (![0, 2, 16, 0] : Fin 4 → Nat) a + S1x1x1x32.size a ≤ S2x8x26x32.size a
  inb_S2x8x26x32_S1x1x1x32_0_2_17_0 : ∀ a, (![0, 2, 17, 0] : Fin 4 → Nat) a + S1x1x1x32.size a ≤ S2x8x26x32.size a
  inb_S2x8x26x32_S1x1x1x32_0_2_18_0 : ∀ a, (![0, 2, 18, 0] : Fin 4 → Nat) a + S1x1x1x32.size a ≤ S2x8x26x32.size a
  inb_S2x8x26x32_S1x1x1x32_0_2_19_0 : ∀ a, (![0, 2, 19, 0] : Fin 4 → Nat) a + S1x1x1x32.size a ≤ S2x8x26x32.size a
  inb_S2x8x26x32_S1x1x1x32_0_2_20_0 : ∀ a, (![0, 2, 20, 0] : Fin 4 → Nat) a + S1x1x1x32.size a ≤ S2x8x26x32.size a
  inb_S2x8x26x32_S1x1x1x32_0_2_21_0 : ∀ a, (![0, 2, 21, 0] : Fin 4 → Nat) a + S1x1x1x32.size a ≤ S2x8x26x32.size a
  inb_S2x8x26x32_S1x1x1x32_0_2_22_0 : ∀ a, (![0, 2, 22, 0] : Fin 4 → Nat) a + S1x1x1x32.size a ≤ S2x8x26x32.size a
  inb_S2x8x26x32_S1x1x1x32_0_2_23_0 : ∀ a, (![0, 2, 23, 0] : Fin 4 → Nat) a + S1x1x1x32.size a ≤ S2x8x26x32.size a
  inb_S2x8x26x32_S1x1x1x32_0_2_24_0 : ∀ a, (![0, 2, 24, 0] : Fin 4 → Nat) a + S1x1x1x32.size a ≤ S2x8x26x32.size a
  inb_S2x8x26x32_S1x1x1x32_0_2_25_0 : ∀ a, (![0, 2, 25, 0] : Fin 4 → Nat) a + S1x1x1x32.size a ≤ S2x8x26x32.size a
  inb_S512x32_S1x16_3_0 : ∀ a, (![3, 0] : Fin 2 → Nat) a + S1x16.size a ≤ S512x32.size a
  inb_S512x32_S1x16_3_16 : ∀ a, (![3, 16] : Fin 2 → Nat) a + S1x16.size a ≤ S512x32.size a
  inb_S2x8x26x32_S1x1x1x32_0_3_0_0 : ∀ a, (![0, 3, 0, 0] : Fin 4 → Nat) a + S1x1x1x32.size a ≤ S2x8x26x32.size a
  inb_S2x8x26x32_S1x1x1x32_0_3_1_0 : ∀ a, (![0, 3, 1, 0] : Fin 4 → Nat) a + S1x1x1x32.size a ≤ S2x8x26x32.size a
  inb_S2x8x26x32_S1x1x1x32_0_3_2_0 : ∀ a, (![0, 3, 2, 0] : Fin 4 → Nat) a + S1x1x1x32.size a ≤ S2x8x26x32.size a
  inb_S2x8x26x32_S1x1x1x32_0_3_3_0 : ∀ a, (![0, 3, 3, 0] : Fin 4 → Nat) a + S1x1x1x32.size a ≤ S2x8x26x32.size a
  inb_S2x8x26x32_S1x1x1x32_0_3_4_0 : ∀ a, (![0, 3, 4, 0] : Fin 4 → Nat) a + S1x1x1x32.size a ≤ S2x8x26x32.size a
  inb_S2x8x26x32_S1x1x1x32_0_3_5_0 : ∀ a, (![0, 3, 5, 0] : Fin 4 → Nat) a + S1x1x1x32.size a ≤ S2x8x26x32.size a
  inb_S2x8x26x32_S1x1x1x32_0_3_6_0 : ∀ a, (![0, 3, 6, 0] : Fin 4 → Nat) a + S1x1x1x32.size a ≤ S2x8x26x32.size a
  inb_S2x8x26x32_S1x1x1x32_0_3_7_0 : ∀ a, (![0, 3, 7, 0] : Fin 4 → Nat) a + S1x1x1x32.size a ≤ S2x8x26x32.size a
  inb_S2x8x26x32_S1x1x1x32_0_3_8_0 : ∀ a, (![0, 3, 8, 0] : Fin 4 → Nat) a + S1x1x1x32.size a ≤ S2x8x26x32.size a
  inb_S2x8x26x32_S1x1x1x32_0_3_9_0 : ∀ a, (![0, 3, 9, 0] : Fin 4 → Nat) a + S1x1x1x32.size a ≤ S2x8x26x32.size a
  inb_S2x8x26x32_S1x1x1x32_0_3_10_0 : ∀ a, (![0, 3, 10, 0] : Fin 4 → Nat) a + S1x1x1x32.size a ≤ S2x8x26x32.size a
  inb_S2x8x26x32_S1x1x1x32_0_3_11_0 : ∀ a, (![0, 3, 11, 0] : Fin 4 → Nat) a + S1x1x1x32.size a ≤ S2x8x26x32.size a
  inb_S2x8x26x32_S1x1x1x32_0_3_12_0 : ∀ a, (![0, 3, 12, 0] : Fin 4 → Nat) a + S1x1x1x32.size a ≤ S2x8x26x32.size a
  inb_S2x8x26x32_S1x1x1x32_0_3_13_0 : ∀ a, (![0, 3, 13, 0] : Fin 4 → Nat) a + S1x1x1x32.size a ≤ S2x8x26x32.size a
  inb_S2x8x26x32_S1x1x1x32_0_3_14_0 : ∀ a, (![0, 3, 14, 0] : Fin 4 → Nat) a + S1x1x1x32.size a ≤ S2x8x26x32.size a
  inb_S2x8x26x32_S1x1x1x32_0_3_15_0 : ∀ a, (![0, 3, 15, 0] : Fin 4 → Nat) a + S1x1x1x32.size a ≤ S2x8x26x32.size a
  inb_S2x8x26x32_S1x1x1x32_0_3_16_0 : ∀ a, (![0, 3, 16, 0] : Fin 4 → Nat) a + S1x1x1x32.size a ≤ S2x8x26x32.size a
  inb_S2x8x26x32_S1x1x1x32_0_3_17_0 : ∀ a, (![0, 3, 17, 0] : Fin 4 → Nat) a + S1x1x1x32.size a ≤ S2x8x26x32.size a
  inb_S2x8x26x32_S1x1x1x32_0_3_18_0 : ∀ a, (![0, 3, 18, 0] : Fin 4 → Nat) a + S1x1x1x32.size a ≤ S2x8x26x32.size a
  inb_S2x8x26x32_S1x1x1x32_0_3_19_0 : ∀ a, (![0, 3, 19, 0] : Fin 4 → Nat) a + S1x1x1x32.size a ≤ S2x8x26x32.size a
  inb_S2x8x26x32_S1x1x1x32_0_3_20_0 : ∀ a, (![0, 3, 20, 0] : Fin 4 → Nat) a + S1x1x1x32.size a ≤ S2x8x26x32.size a
  inb_S2x8x26x32_S1x1x1x32_0_3_21_0 : ∀ a, (![0, 3, 21, 0] : Fin 4 → Nat) a + S1x1x1x32.size a ≤ S2x8x26x32.size a
  inb_S2x8x26x32_S1x1x1x32_0_3_22_0 : ∀ a, (![0, 3, 22, 0] : Fin 4 → Nat) a + S1x1x1x32.size a ≤ S2x8x26x32.size a
  inb_S2x8x26x32_S1x1x1x32_0_3_23_0 : ∀ a, (![0, 3, 23, 0] : Fin 4 → Nat) a + S1x1x1x32.size a ≤ S2x8x26x32.size a
  inb_S2x8x26x32_S1x1x1x32_0_3_24_0 : ∀ a, (![0, 3, 24, 0] : Fin 4 → Nat) a + S1x1x1x32.size a ≤ S2x8x26x32.size a
  inb_S2x8x26x32_S1x1x1x32_0_3_25_0 : ∀ a, (![0, 3, 25, 0] : Fin 4 → Nat) a + S1x1x1x32.size a ≤ S2x8x26x32.size a
  inb_S512x32_S1x16_4_0 : ∀ a, (![4, 0] : Fin 2 → Nat) a + S1x16.size a ≤ S512x32.size a
  inb_S512x32_S1x16_4_16 : ∀ a, (![4, 16] : Fin 2 → Nat) a + S1x16.size a ≤ S512x32.size a
  inb_S2x8x26x32_S1x1x1x32_0_4_0_0 : ∀ a, (![0, 4, 0, 0] : Fin 4 → Nat) a + S1x1x1x32.size a ≤ S2x8x26x32.size a
  inb_S2x8x26x32_S1x1x1x32_0_4_1_0 : ∀ a, (![0, 4, 1, 0] : Fin 4 → Nat) a + S1x1x1x32.size a ≤ S2x8x26x32.size a
  inb_S2x8x26x32_S1x1x1x32_0_4_2_0 : ∀ a, (![0, 4, 2, 0] : Fin 4 → Nat) a + S1x1x1x32.size a ≤ S2x8x26x32.size a
  inb_S2x8x26x32_S1x1x1x32_0_4_3_0 : ∀ a, (![0, 4, 3, 0] : Fin 4 → Nat) a + S1x1x1x32.size a ≤ S2x8x26x32.size a
  inb_S2x8x26x32_S1x1x1x32_0_4_4_0 : ∀ a, (![0, 4, 4, 0] : Fin 4 → Nat) a + S1x1x1x32.size a ≤ S2x8x26x32.size a
  inb_S2x8x26x32_S1x1x1x32_0_4_5_0 : ∀ a, (![0, 4, 5, 0] : Fin 4 → Nat) a + S1x1x1x32.size a ≤ S2x8x26x32.size a
  inb_S2x8x26x32_S1x1x1x32_0_4_6_0 : ∀ a, (![0, 4, 6, 0] : Fin 4 → Nat) a + S1x1x1x32.size a ≤ S2x8x26x32.size a
  inb_S2x8x26x32_S1x1x1x32_0_4_7_0 : ∀ a, (![0, 4, 7, 0] : Fin 4 → Nat) a + S1x1x1x32.size a ≤ S2x8x26x32.size a
  inb_S2x8x26x32_S1x1x1x32_0_4_8_0 : ∀ a, (![0, 4, 8, 0] : Fin 4 → Nat) a + S1x1x1x32.size a ≤ S2x8x26x32.size a
  inb_S2x8x26x32_S1x1x1x32_0_4_9_0 : ∀ a, (![0, 4, 9, 0] : Fin 4 → Nat) a + S1x1x1x32.size a ≤ S2x8x26x32.size a
  inb_S2x8x26x32_S1x1x1x32_0_4_10_0 : ∀ a, (![0, 4, 10, 0] : Fin 4 → Nat) a + S1x1x1x32.size a ≤ S2x8x26x32.size a
  inb_S2x8x26x32_S1x1x1x32_0_4_11_0 : ∀ a, (![0, 4, 11, 0] : Fin 4 → Nat) a + S1x1x1x32.size a ≤ S2x8x26x32.size a
  inb_S2x8x26x32_S1x1x1x32_0_4_12_0 : ∀ a, (![0, 4, 12, 0] : Fin 4 → Nat) a + S1x1x1x32.size a ≤ S2x8x26x32.size a
  inb_S2x8x26x32_S1x1x1x32_0_4_13_0 : ∀ a, (![0, 4, 13, 0] : Fin 4 → Nat) a + S1x1x1x32.size a ≤ S2x8x26x32.size a
  inb_S2x8x26x32_S1x1x1x32_0_4_14_0 : ∀ a, (![0, 4, 14, 0] : Fin 4 → Nat) a + S1x1x1x32.size a ≤ S2x8x26x32.size a
  inb_S2x8x26x32_S1x1x1x32_0_4_15_0 : ∀ a, (![0, 4, 15, 0] : Fin 4 → Nat) a + S1x1x1x32.size a ≤ S2x8x26x32.size a
  inb_S2x8x26x32_S1x1x1x32_0_4_16_0 : ∀ a, (![0, 4, 16, 0] : Fin 4 → Nat) a + S1x1x1x32.size a ≤ S2x8x26x32.size a
  inb_S2x8x26x32_S1x1x1x32_0_4_17_0 : ∀ a, (![0, 4, 17, 0] : Fin 4 → Nat) a + S1x1x1x32.size a ≤ S2x8x26x32.size a
  inb_S2x8x26x32_S1x1x1x32_0_4_18_0 : ∀ a, (![0, 4, 18, 0] : Fin 4 → Nat) a + S1x1x1x32.size a ≤ S2x8x26x32.size a
  inb_S2x8x26x32_S1x1x1x32_0_4_19_0 : ∀ a, (![0, 4, 19, 0] : Fin 4 → Nat) a + S1x1x1x32.size a ≤ S2x8x26x32.size a
  inb_S2x8x26x32_S1x1x1x32_0_4_20_0 : ∀ a, (![0, 4, 20, 0] : Fin 4 → Nat) a + S1x1x1x32.size a ≤ S2x8x26x32.size a
  inb_S2x8x26x32_S1x1x1x32_0_4_21_0 : ∀ a, (![0, 4, 21, 0] : Fin 4 → Nat) a + S1x1x1x32.size a ≤ S2x8x26x32.size a
  inb_S2x8x26x32_S1x1x1x32_0_4_22_0 : ∀ a, (![0, 4, 22, 0] : Fin 4 → Nat) a + S1x1x1x32.size a ≤ S2x8x26x32.size a
  inb_S2x8x26x32_S1x1x1x32_0_4_23_0 : ∀ a, (![0, 4, 23, 0] : Fin 4 → Nat) a + S1x1x1x32.size a ≤ S2x8x26x32.size a
  inb_S2x8x26x32_S1x1x1x32_0_4_24_0 : ∀ a, (![0, 4, 24, 0] : Fin 4 → Nat) a + S1x1x1x32.size a ≤ S2x8x26x32.size a
  inb_S2x8x26x32_S1x1x1x32_0_4_25_0 : ∀ a, (![0, 4, 25, 0] : Fin 4 → Nat) a + S1x1x1x32.size a ≤ S2x8x26x32.size a
  inb_S512x32_S1x16_5_0 : ∀ a, (![5, 0] : Fin 2 → Nat) a + S1x16.size a ≤ S512x32.size a
  inb_S512x32_S1x16_5_16 : ∀ a, (![5, 16] : Fin 2 → Nat) a + S1x16.size a ≤ S512x32.size a
  inb_S2x8x26x32_S1x1x1x32_0_5_0_0 : ∀ a, (![0, 5, 0, 0] : Fin 4 → Nat) a + S1x1x1x32.size a ≤ S2x8x26x32.size a
  inb_S2x8x26x32_S1x1x1x32_0_5_1_0 : ∀ a, (![0, 5, 1, 0] : Fin 4 → Nat) a + S1x1x1x32.size a ≤ S2x8x26x32.size a
  inb_S2x8x26x32_S1x1x1x32_0_5_2_0 : ∀ a, (![0, 5, 2, 0] : Fin 4 → Nat) a + S1x1x1x32.size a ≤ S2x8x26x32.size a
  inb_S2x8x26x32_S1x1x1x32_0_5_3_0 : ∀ a, (![0, 5, 3, 0] : Fin 4 → Nat) a + S1x1x1x32.size a ≤ S2x8x26x32.size a
  inb_S2x8x26x32_S1x1x1x32_0_5_4_0 : ∀ a, (![0, 5, 4, 0] : Fin 4 → Nat) a + S1x1x1x32.size a ≤ S2x8x26x32.size a
  inb_S2x8x26x32_S1x1x1x32_0_5_5_0 : ∀ a, (![0, 5, 5, 0] : Fin 4 → Nat) a + S1x1x1x32.size a ≤ S2x8x26x32.size a
  inb_S2x8x26x32_S1x1x1x32_0_5_6_0 : ∀ a, (![0, 5, 6, 0] : Fin 4 → Nat) a + S1x1x1x32.size a ≤ S2x8x26x32.size a
  inb_S2x8x26x32_S1x1x1x32_0_5_7_0 : ∀ a, (![0, 5, 7, 0] : Fin 4 → Nat) a + S1x1x1x32.size a ≤ S2x8x26x32.size a
  inb_S2x8x26x32_S1x1x1x32_0_5_8_0 : ∀ a, (![0, 5, 8, 0] : Fin 4 → Nat) a + S1x1x1x32.size a ≤ S2x8x26x32.size a
  inb_S2x8x26x32_S1x1x1x32_0_5_9_0 : ∀ a, (![0, 5, 9, 0] : Fin 4 → Nat) a + S1x1x1x32.size a ≤ S2x8x26x32.size a
  inb_S2x8x26x32_S1x1x1x32_0_5_10_0 : ∀ a, (![0, 5, 10, 0] : Fin 4 → Nat) a + S1x1x1x32.size a ≤ S2x8x26x32.size a
  inb_S2x8x26x32_S1x1x1x32_0_5_11_0 : ∀ a, (![0, 5, 11, 0] : Fin 4 → Nat) a + S1x1x1x32.size a ≤ S2x8x26x32.size a
  inb_S2x8x26x32_S1x1x1x32_0_5_12_0 : ∀ a, (![0, 5, 12, 0] : Fin 4 → Nat) a + S1x1x1x32.size a ≤ S2x8x26x32.size a
  inb_S2x8x26x32_S1x1x1x32_0_5_13_0 : ∀ a, (![0, 5, 13, 0] : Fin 4 → Nat) a + S1x1x1x32.size a ≤ S2x8x26x32.size a
  inb_S2x8x26x32_S1x1x1x32_0_5_14_0 : ∀ a, (![0, 5, 14, 0] : Fin 4 → Nat) a + S1x1x1x32.size a ≤ S2x8x26x32.size a
  inb_S2x8x26x32_S1x1x1x32_0_5_15_0 : ∀ a, (![0, 5, 15, 0] : Fin 4 → Nat) a + S1x1x1x32.size a ≤ S2x8x26x32.size a
  inb_S2x8x26x32_S1x1x1x32_0_5_16_0 : ∀ a, (![0, 5, 16, 0] : Fin 4 → Nat) a + S1x1x1x32.size a ≤ S2x8x26x32.size a
  inb_S2x8x26x32_S1x1x1x32_0_5_17_0 : ∀ a, (![0, 5, 17, 0] : Fin 4 → Nat) a + S1x1x1x32.size a ≤ S2x8x26x32.size a
  inb_S2x8x26x32_S1x1x1x32_0_5_18_0 : ∀ a, (![0, 5, 18, 0] : Fin 4 → Nat) a + S1x1x1x32.size a ≤ S2x8x26x32.size a
  inb_S2x8x26x32_S1x1x1x32_0_5_19_0 : ∀ a, (![0, 5, 19, 0] : Fin 4 → Nat) a + S1x1x1x32.size a ≤ S2x8x26x32.size a
  inb_S2x8x26x32_S1x1x1x32_0_5_20_0 : ∀ a, (![0, 5, 20, 0] : Fin 4 → Nat) a + S1x1x1x32.size a ≤ S2x8x26x32.size a
  inb_S2x8x26x32_S1x1x1x32_0_5_21_0 : ∀ a, (![0, 5, 21, 0] : Fin 4 → Nat) a + S1x1x1x32.size a ≤ S2x8x26x32.size a
  inb_S2x8x26x32_S1x1x1x32_0_5_22_0 : ∀ a, (![0, 5, 22, 0] : Fin 4 → Nat) a + S1x1x1x32.size a ≤ S2x8x26x32.size a
  inb_S2x8x26x32_S1x1x1x32_0_5_23_0 : ∀ a, (![0, 5, 23, 0] : Fin 4 → Nat) a + S1x1x1x32.size a ≤ S2x8x26x32.size a
  inb_S2x8x26x32_S1x1x1x32_0_5_24_0 : ∀ a, (![0, 5, 24, 0] : Fin 4 → Nat) a + S1x1x1x32.size a ≤ S2x8x26x32.size a
  inb_S2x8x26x32_S1x1x1x32_0_5_25_0 : ∀ a, (![0, 5, 25, 0] : Fin 4 → Nat) a + S1x1x1x32.size a ≤ S2x8x26x32.size a
  inb_S512x32_S1x16_6_0 : ∀ a, (![6, 0] : Fin 2 → Nat) a + S1x16.size a ≤ S512x32.size a
  inb_S512x32_S1x16_6_16 : ∀ a, (![6, 16] : Fin 2 → Nat) a + S1x16.size a ≤ S512x32.size a
  inb_S2x8x26x32_S1x1x1x32_0_6_0_0 : ∀ a, (![0, 6, 0, 0] : Fin 4 → Nat) a + S1x1x1x32.size a ≤ S2x8x26x32.size a
  inb_S2x8x26x32_S1x1x1x32_0_6_1_0 : ∀ a, (![0, 6, 1, 0] : Fin 4 → Nat) a + S1x1x1x32.size a ≤ S2x8x26x32.size a
  inb_S2x8x26x32_S1x1x1x32_0_6_2_0 : ∀ a, (![0, 6, 2, 0] : Fin 4 → Nat) a + S1x1x1x32.size a ≤ S2x8x26x32.size a
  inb_S2x8x26x32_S1x1x1x32_0_6_3_0 : ∀ a, (![0, 6, 3, 0] : Fin 4 → Nat) a + S1x1x1x32.size a ≤ S2x8x26x32.size a
  inb_S2x8x26x32_S1x1x1x32_0_6_4_0 : ∀ a, (![0, 6, 4, 0] : Fin 4 → Nat) a + S1x1x1x32.size a ≤ S2x8x26x32.size a
  inb_S2x8x26x32_S1x1x1x32_0_6_5_0 : ∀ a, (![0, 6, 5, 0] : Fin 4 → Nat) a + S1x1x1x32.size a ≤ S2x8x26x32.size a
  inb_S2x8x26x32_S1x1x1x32_0_6_6_0 : ∀ a, (![0, 6, 6, 0] : Fin 4 → Nat) a + S1x1x1x32.size a ≤ S2x8x26x32.size a
  inb_S2x8x26x32_S1x1x1x32_0_6_7_0 : ∀ a, (![0, 6, 7, 0] : Fin 4 → Nat) a + S1x1x1x32.size a ≤ S2x8x26x32.size a
  inb_S2x8x26x32_S1x1x1x32_0_6_8_0 : ∀ a, (![0, 6, 8, 0] : Fin 4 → Nat) a + S1x1x1x32.size a ≤ S2x8x26x32.size a
  inb_S2x8x26x32_S1x1x1x32_0_6_9_0 : ∀ a, (![0, 6, 9, 0] : Fin 4 → Nat) a + S1x1x1x32.size a ≤ S2x8x26x32.size a
  inb_S2x8x26x32_S1x1x1x32_0_6_10_0 : ∀ a, (![0, 6, 10, 0] : Fin 4 → Nat) a + S1x1x1x32.size a ≤ S2x8x26x32.size a
  inb_S2x8x26x32_S1x1x1x32_0_6_11_0 : ∀ a, (![0, 6, 11, 0] : Fin 4 → Nat) a + S1x1x1x32.size a ≤ S2x8x26x32.size a
  inb_S2x8x26x32_S1x1x1x32_0_6_12_0 : ∀ a, (![0, 6, 12, 0] : Fin 4 → Nat) a + S1x1x1x32.size a ≤ S2x8x26x32.size a
  inb_S2x8x26x32_S1x1x1x32_0_6_13_0 : ∀ a, (![0, 6, 13, 0] : Fin 4 → Nat) a + S1x1x1x32.size a ≤ S2x8x26x32.size a
  inb_S2x8x26x32_S1x1x1x32_0_6_14_0 : ∀ a, (![0, 6, 14, 0] : Fin 4 → Nat) a + S1x1x1x32.size a ≤ S2x8x26x32.size a
  inb_S2x8x26x32_S1x1x1x32_0_6_15_0 : ∀ a, (![0, 6, 15, 0] : Fin 4 → Nat) a + S1x1x1x32.size a ≤ S2x8x26x32.size a
  inb_S2x8x26x32_S1x1x1x32_0_6_16_0 : ∀ a, (![0, 6, 16, 0] : Fin 4 → Nat) a + S1x1x1x32.size a ≤ S2x8x26x32.size a
  inb_S2x8x26x32_S1x1x1x32_0_6_17_0 : ∀ a, (![0, 6, 17, 0] : Fin 4 → Nat) a + S1x1x1x32.size a ≤ S2x8x26x32.size a
  inb_S2x8x26x32_S1x1x1x32_0_6_18_0 : ∀ a, (![0, 6, 18, 0] : Fin 4 → Nat) a + S1x1x1x32.size a ≤ S2x8x26x32.size a
  inb_S2x8x26x32_S1x1x1x32_0_6_19_0 : ∀ a, (![0, 6, 19, 0] : Fin 4 → Nat) a + S1x1x1x32.size a ≤ S2x8x26x32.size a
  inb_S2x8x26x32_S1x1x1x32_0_6_20_0 : ∀ a, (![0, 6, 20, 0] : Fin 4 → Nat) a + S1x1x1x32.size a ≤ S2x8x26x32.size a
  inb_S2x8x26x32_S1x1x1x32_0_6_21_0 : ∀ a, (![0, 6, 21, 0] : Fin 4 → Nat) a + S1x1x1x32.size a ≤ S2x8x26x32.size a
  inb_S2x8x26x32_S1x1x1x32_0_6_22_0 : ∀ a, (![0, 6, 22, 0] : Fin 4 → Nat) a + S1x1x1x32.size a ≤ S2x8x26x32.size a
  inb_S2x8x26x32_S1x1x1x32_0_6_23_0 : ∀ a, (![0, 6, 23, 0] : Fin 4 → Nat) a + S1x1x1x32.size a ≤ S2x8x26x32.size a
  inb_S2x8x26x32_S1x1x1x32_0_6_24_0 : ∀ a, (![0, 6, 24, 0] : Fin 4 → Nat) a + S1x1x1x32.size a ≤ S2x8x26x32.size a
  inb_S2x8x26x32_S1x1x1x32_0_6_25_0 : ∀ a, (![0, 6, 25, 0] : Fin 4 → Nat) a + S1x1x1x32.size a ≤ S2x8x26x32.size a
  inb_S512x32_S1x16_7_0 : ∀ a, (![7, 0] : Fin 2 → Nat) a + S1x16.size a ≤ S512x32.size a
  inb_S512x32_S1x16_7_16 : ∀ a, (![7, 16] : Fin 2 → Nat) a + S1x16.size a ≤ S512x32.size a
  inb_S2x8x26x32_S1x1x1x32_0_7_0_0 : ∀ a, (![0, 7, 0, 0] : Fin 4 → Nat) a + S1x1x1x32.size a ≤ S2x8x26x32.size a
  inb_S2x8x26x32_S1x1x1x32_0_7_1_0 : ∀ a, (![0, 7, 1, 0] : Fin 4 → Nat) a + S1x1x1x32.size a ≤ S2x8x26x32.size a
  inb_S2x8x26x32_S1x1x1x32_0_7_2_0 : ∀ a, (![0, 7, 2, 0] : Fin 4 → Nat) a + S1x1x1x32.size a ≤ S2x8x26x32.size a
  inb_S2x8x26x32_S1x1x1x32_0_7_3_0 : ∀ a, (![0, 7, 3, 0] : Fin 4 → Nat) a + S1x1x1x32.size a ≤ S2x8x26x32.size a
  inb_S2x8x26x32_S1x1x1x32_0_7_4_0 : ∀ a, (![0, 7, 4, 0] : Fin 4 → Nat) a + S1x1x1x32.size a ≤ S2x8x26x32.size a
  inb_S2x8x26x32_S1x1x1x32_0_7_5_0 : ∀ a, (![0, 7, 5, 0] : Fin 4 → Nat) a + S1x1x1x32.size a ≤ S2x8x26x32.size a
  inb_S2x8x26x32_S1x1x1x32_0_7_6_0 : ∀ a, (![0, 7, 6, 0] : Fin 4 → Nat) a + S1x1x1x32.size a ≤ S2x8x26x32.size a
  inb_S2x8x26x32_S1x1x1x32_0_7_7_0 : ∀ a, (![0, 7, 7, 0] : Fin 4 → Nat) a + S1x1x1x32.size a ≤ S2x8x26x32.size a
  inb_S2x8x26x32_S1x1x1x32_0_7_8_0 : ∀ a, (![0, 7, 8, 0] : Fin 4 → Nat) a + S1x1x1x32.size a ≤ S2x8x26x32.size a
  inb_S2x8x26x32_S1x1x1x32_0_7_9_0 : ∀ a, (![0, 7, 9, 0] : Fin 4 → Nat) a + S1x1x1x32.size a ≤ S2x8x26x32.size a
  inb_S2x8x26x32_S1x1x1x32_0_7_10_0 : ∀ a, (![0, 7, 10, 0] : Fin 4 → Nat) a + S1x1x1x32.size a ≤ S2x8x26x32.size a
  inb_S2x8x26x32_S1x1x1x32_0_7_11_0 : ∀ a, (![0, 7, 11, 0] : Fin 4 → Nat) a + S1x1x1x32.size a ≤ S2x8x26x32.size a
  inb_S2x8x26x32_S1x1x1x32_0_7_12_0 : ∀ a, (![0, 7, 12, 0] : Fin 4 → Nat) a + S1x1x1x32.size a ≤ S2x8x26x32.size a
  inb_S2x8x26x32_S1x1x1x32_0_7_13_0 : ∀ a, (![0, 7, 13, 0] : Fin 4 → Nat) a + S1x1x1x32.size a ≤ S2x8x26x32.size a
  inb_S2x8x26x32_S1x1x1x32_0_7_14_0 : ∀ a, (![0, 7, 14, 0] : Fin 4 → Nat) a + S1x1x1x32.size a ≤ S2x8x26x32.size a
  inb_S2x8x26x32_S1x1x1x32_0_7_15_0 : ∀ a, (![0, 7, 15, 0] : Fin 4 → Nat) a + S1x1x1x32.size a ≤ S2x8x26x32.size a
  inb_S2x8x26x32_S1x1x1x32_0_7_16_0 : ∀ a, (![0, 7, 16, 0] : Fin 4 → Nat) a + S1x1x1x32.size a ≤ S2x8x26x32.size a
  inb_S2x8x26x32_S1x1x1x32_0_7_17_0 : ∀ a, (![0, 7, 17, 0] : Fin 4 → Nat) a + S1x1x1x32.size a ≤ S2x8x26x32.size a
  inb_S2x8x26x32_S1x1x1x32_0_7_18_0 : ∀ a, (![0, 7, 18, 0] : Fin 4 → Nat) a + S1x1x1x32.size a ≤ S2x8x26x32.size a
  inb_S2x8x26x32_S1x1x1x32_0_7_19_0 : ∀ a, (![0, 7, 19, 0] : Fin 4 → Nat) a + S1x1x1x32.size a ≤ S2x8x26x32.size a
  inb_S2x8x26x32_S1x1x1x32_0_7_20_0 : ∀ a, (![0, 7, 20, 0] : Fin 4 → Nat) a + S1x1x1x32.size a ≤ S2x8x26x32.size a
  inb_S2x8x26x32_S1x1x1x32_0_7_21_0 : ∀ a, (![0, 7, 21, 0] : Fin 4 → Nat) a + S1x1x1x32.size a ≤ S2x8x26x32.size a
  inb_S2x8x26x32_S1x1x1x32_0_7_22_0 : ∀ a, (![0, 7, 22, 0] : Fin 4 → Nat) a + S1x1x1x32.size a ≤ S2x8x26x32.size a
  inb_S2x8x26x32_S1x1x1x32_0_7_23_0 : ∀ a, (![0, 7, 23, 0] : Fin 4 → Nat) a + S1x1x1x32.size a ≤ S2x8x26x32.size a
  inb_S2x8x26x32_S1x1x1x32_0_7_24_0 : ∀ a, (![0, 7, 24, 0] : Fin 4 → Nat) a + S1x1x1x32.size a ≤ S2x8x26x32.size a
  inb_S2x8x26x32_S1x1x1x32_0_7_25_0 : ∀ a, (![0, 7, 25, 0] : Fin 4 → Nat) a + S1x1x1x32.size a ≤ S2x8x26x32.size a
  inb_S2x8x26x32_S1x8x26x32_0_0_0_0 : ∀ a, (![0, 0, 0, 0] : Fin 4 → Nat) a + S1x8x26x32.size a ≤ S2x8x26x32.size a
  squeezes_S1x8x26x32_S8x26x32 : S1x8x26x32.Squeezes S8x26x32
  inb_S16384x26x32_S8x26x32_0_0_0 : ∀ a, (![0, 0, 0] : Fin 3 → Nat) a + S8x26x32.size a ≤ S16384x26x32.size a
  inb_S2x8x26x32_S1x1x1x32_1_0_0_0 : ∀ a, (![1, 0, 0, 0] : Fin 4 → Nat) a + S1x1x1x32.size a ≤ S2x8x26x32.size a
  inb_S2x8x26x32_S1x1x1x32_1_0_1_0 : ∀ a, (![1, 0, 1, 0] : Fin 4 → Nat) a + S1x1x1x32.size a ≤ S2x8x26x32.size a
  inb_S2x8x26x32_S1x1x1x32_1_0_2_0 : ∀ a, (![1, 0, 2, 0] : Fin 4 → Nat) a + S1x1x1x32.size a ≤ S2x8x26x32.size a
  inb_S2x8x26x32_S1x1x1x32_1_0_3_0 : ∀ a, (![1, 0, 3, 0] : Fin 4 → Nat) a + S1x1x1x32.size a ≤ S2x8x26x32.size a
  inb_S2x8x26x32_S1x1x1x32_1_0_4_0 : ∀ a, (![1, 0, 4, 0] : Fin 4 → Nat) a + S1x1x1x32.size a ≤ S2x8x26x32.size a
  inb_S2x8x26x32_S1x1x1x32_1_0_5_0 : ∀ a, (![1, 0, 5, 0] : Fin 4 → Nat) a + S1x1x1x32.size a ≤ S2x8x26x32.size a
  inb_S2x8x26x32_S1x1x1x32_1_0_6_0 : ∀ a, (![1, 0, 6, 0] : Fin 4 → Nat) a + S1x1x1x32.size a ≤ S2x8x26x32.size a
  inb_S2x8x26x32_S1x1x1x32_1_0_7_0 : ∀ a, (![1, 0, 7, 0] : Fin 4 → Nat) a + S1x1x1x32.size a ≤ S2x8x26x32.size a
  inb_S2x8x26x32_S1x1x1x32_1_0_8_0 : ∀ a, (![1, 0, 8, 0] : Fin 4 → Nat) a + S1x1x1x32.size a ≤ S2x8x26x32.size a
  inb_S2x8x26x32_S1x1x1x32_1_0_9_0 : ∀ a, (![1, 0, 9, 0] : Fin 4 → Nat) a + S1x1x1x32.size a ≤ S2x8x26x32.size a
  inb_S2x8x26x32_S1x1x1x32_1_0_10_0 : ∀ a, (![1, 0, 10, 0] : Fin 4 → Nat) a + S1x1x1x32.size a ≤ S2x8x26x32.size a
  inb_S2x8x26x32_S1x1x1x32_1_0_11_0 : ∀ a, (![1, 0, 11, 0] : Fin 4 → Nat) a + S1x1x1x32.size a ≤ S2x8x26x32.size a
  inb_S2x8x26x32_S1x1x1x32_1_0_12_0 : ∀ a, (![1, 0, 12, 0] : Fin 4 → Nat) a + S1x1x1x32.size a ≤ S2x8x26x32.size a
  inb_S2x8x26x32_S1x1x1x32_1_0_13_0 : ∀ a, (![1, 0, 13, 0] : Fin 4 → Nat) a + S1x1x1x32.size a ≤ S2x8x26x32.size a
  inb_S2x8x26x32_S1x1x1x32_1_0_14_0 : ∀ a, (![1, 0, 14, 0] : Fin 4 → Nat) a + S1x1x1x32.size a ≤ S2x8x26x32.size a
  inb_S2x8x26x32_S1x1x1x32_1_0_15_0 : ∀ a, (![1, 0, 15, 0] : Fin 4 → Nat) a + S1x1x1x32.size a ≤ S2x8x26x32.size a
  inb_S2x8x26x32_S1x1x1x32_1_0_16_0 : ∀ a, (![1, 0, 16, 0] : Fin 4 → Nat) a + S1x1x1x32.size a ≤ S2x8x26x32.size a
  inb_S2x8x26x32_S1x1x1x32_1_0_17_0 : ∀ a, (![1, 0, 17, 0] : Fin 4 → Nat) a + S1x1x1x32.size a ≤ S2x8x26x32.size a
  inb_S2x8x26x32_S1x1x1x32_1_0_18_0 : ∀ a, (![1, 0, 18, 0] : Fin 4 → Nat) a + S1x1x1x32.size a ≤ S2x8x26x32.size a
  inb_S2x8x26x32_S1x1x1x32_1_0_19_0 : ∀ a, (![1, 0, 19, 0] : Fin 4 → Nat) a + S1x1x1x32.size a ≤ S2x8x26x32.size a
  inb_S2x8x26x32_S1x1x1x32_1_0_20_0 : ∀ a, (![1, 0, 20, 0] : Fin 4 → Nat) a + S1x1x1x32.size a ≤ S2x8x26x32.size a
  inb_S2x8x26x32_S1x1x1x32_1_0_21_0 : ∀ a, (![1, 0, 21, 0] : Fin 4 → Nat) a + S1x1x1x32.size a ≤ S2x8x26x32.size a
  inb_S2x8x26x32_S1x1x1x32_1_0_22_0 : ∀ a, (![1, 0, 22, 0] : Fin 4 → Nat) a + S1x1x1x32.size a ≤ S2x8x26x32.size a
  inb_S2x8x26x32_S1x1x1x32_1_0_23_0 : ∀ a, (![1, 0, 23, 0] : Fin 4 → Nat) a + S1x1x1x32.size a ≤ S2x8x26x32.size a
  inb_S2x8x26x32_S1x1x1x32_1_0_24_0 : ∀ a, (![1, 0, 24, 0] : Fin 4 → Nat) a + S1x1x1x32.size a ≤ S2x8x26x32.size a
  inb_S2x8x26x32_S1x1x1x32_1_0_25_0 : ∀ a, (![1, 0, 25, 0] : Fin 4 → Nat) a + S1x1x1x32.size a ≤ S2x8x26x32.size a
  inb_S2x8x26x32_S1x1x1x32_1_1_0_0 : ∀ a, (![1, 1, 0, 0] : Fin 4 → Nat) a + S1x1x1x32.size a ≤ S2x8x26x32.size a
  inb_S2x8x26x32_S1x1x1x32_1_1_1_0 : ∀ a, (![1, 1, 1, 0] : Fin 4 → Nat) a + S1x1x1x32.size a ≤ S2x8x26x32.size a
  inb_S2x8x26x32_S1x1x1x32_1_1_2_0 : ∀ a, (![1, 1, 2, 0] : Fin 4 → Nat) a + S1x1x1x32.size a ≤ S2x8x26x32.size a
  inb_S2x8x26x32_S1x1x1x32_1_1_3_0 : ∀ a, (![1, 1, 3, 0] : Fin 4 → Nat) a + S1x1x1x32.size a ≤ S2x8x26x32.size a
  inb_S2x8x26x32_S1x1x1x32_1_1_4_0 : ∀ a, (![1, 1, 4, 0] : Fin 4 → Nat) a + S1x1x1x32.size a ≤ S2x8x26x32.size a
  inb_S2x8x26x32_S1x1x1x32_1_1_5_0 : ∀ a, (![1, 1, 5, 0] : Fin 4 → Nat) a + S1x1x1x32.size a ≤ S2x8x26x32.size a
  inb_S2x8x26x32_S1x1x1x32_1_1_6_0 : ∀ a, (![1, 1, 6, 0] : Fin 4 → Nat) a + S1x1x1x32.size a ≤ S2x8x26x32.size a
  inb_S2x8x26x32_S1x1x1x32_1_1_7_0 : ∀ a, (![1, 1, 7, 0] : Fin 4 → Nat) a + S1x1x1x32.size a ≤ S2x8x26x32.size a
  inb_S2x8x26x32_S1x1x1x32_1_1_8_0 : ∀ a, (![1, 1, 8, 0] : Fin 4 → Nat) a + S1x1x1x32.size a ≤ S2x8x26x32.size a
  inb_S2x8x26x32_S1x1x1x32_1_1_9_0 : ∀ a, (![1, 1, 9, 0] : Fin 4 → Nat) a + S1x1x1x32.size a ≤ S2x8x26x32.size a
  inb_S2x8x26x32_S1x1x1x32_1_1_10_0 : ∀ a, (![1, 1, 10, 0] : Fin 4 → Nat) a + S1x1x1x32.size a ≤ S2x8x26x32.size a
  inb_S2x8x26x32_S1x1x1x32_1_1_11_0 : ∀ a, (![1, 1, 11, 0] : Fin 4 → Nat) a + S1x1x1x32.size a ≤ S2x8x26x32.size a
  inb_S2x8x26x32_S1x1x1x32_1_1_12_0 : ∀ a, (![1, 1, 12, 0] : Fin 4 → Nat) a + S1x1x1x32.size a ≤ S2x8x26x32.size a
  inb_S2x8x26x32_S1x1x1x32_1_1_13_0 : ∀ a, (![1, 1, 13, 0] : Fin 4 → Nat) a + S1x1x1x32.size a ≤ S2x8x26x32.size a
  inb_S2x8x26x32_S1x1x1x32_1_1_14_0 : ∀ a, (![1, 1, 14, 0] : Fin 4 → Nat) a + S1x1x1x32.size a ≤ S2x8x26x32.size a
  inb_S2x8x26x32_S1x1x1x32_1_1_15_0 : ∀ a, (![1, 1, 15, 0] : Fin 4 → Nat) a + S1x1x1x32.size a ≤ S2x8x26x32.size a
  inb_S2x8x26x32_S1x1x1x32_1_1_16_0 : ∀ a, (![1, 1, 16, 0] : Fin 4 → Nat) a + S1x1x1x32.size a ≤ S2x8x26x32.size a
  inb_S2x8x26x32_S1x1x1x32_1_1_17_0 : ∀ a, (![1, 1, 17, 0] : Fin 4 → Nat) a + S1x1x1x32.size a ≤ S2x8x26x32.size a
  inb_S2x8x26x32_S1x1x1x32_1_1_18_0 : ∀ a, (![1, 1, 18, 0] : Fin 4 → Nat) a + S1x1x1x32.size a ≤ S2x8x26x32.size a
  inb_S2x8x26x32_S1x1x1x32_1_1_19_0 : ∀ a, (![1, 1, 19, 0] : Fin 4 → Nat) a + S1x1x1x32.size a ≤ S2x8x26x32.size a
  inb_S2x8x26x32_S1x1x1x32_1_1_20_0 : ∀ a, (![1, 1, 20, 0] : Fin 4 → Nat) a + S1x1x1x32.size a ≤ S2x8x26x32.size a
  inb_S2x8x26x32_S1x1x1x32_1_1_21_0 : ∀ a, (![1, 1, 21, 0] : Fin 4 → Nat) a + S1x1x1x32.size a ≤ S2x8x26x32.size a
  inb_S2x8x26x32_S1x1x1x32_1_1_22_0 : ∀ a, (![1, 1, 22, 0] : Fin 4 → Nat) a + S1x1x1x32.size a ≤ S2x8x26x32.size a
  inb_S2x8x26x32_S1x1x1x32_1_1_23_0 : ∀ a, (![1, 1, 23, 0] : Fin 4 → Nat) a + S1x1x1x32.size a ≤ S2x8x26x32.size a
  inb_S2x8x26x32_S1x1x1x32_1_1_24_0 : ∀ a, (![1, 1, 24, 0] : Fin 4 → Nat) a + S1x1x1x32.size a ≤ S2x8x26x32.size a
  inb_S2x8x26x32_S1x1x1x32_1_1_25_0 : ∀ a, (![1, 1, 25, 0] : Fin 4 → Nat) a + S1x1x1x32.size a ≤ S2x8x26x32.size a
  inb_S2x8x26x32_S1x1x1x32_1_2_0_0 : ∀ a, (![1, 2, 0, 0] : Fin 4 → Nat) a + S1x1x1x32.size a ≤ S2x8x26x32.size a
  inb_S2x8x26x32_S1x1x1x32_1_2_1_0 : ∀ a, (![1, 2, 1, 0] : Fin 4 → Nat) a + S1x1x1x32.size a ≤ S2x8x26x32.size a
  inb_S2x8x26x32_S1x1x1x32_1_2_2_0 : ∀ a, (![1, 2, 2, 0] : Fin 4 → Nat) a + S1x1x1x32.size a ≤ S2x8x26x32.size a
  inb_S2x8x26x32_S1x1x1x32_1_2_3_0 : ∀ a, (![1, 2, 3, 0] : Fin 4 → Nat) a + S1x1x1x32.size a ≤ S2x8x26x32.size a
  inb_S2x8x26x32_S1x1x1x32_1_2_4_0 : ∀ a, (![1, 2, 4, 0] : Fin 4 → Nat) a + S1x1x1x32.size a ≤ S2x8x26x32.size a
  inb_S2x8x26x32_S1x1x1x32_1_2_5_0 : ∀ a, (![1, 2, 5, 0] : Fin 4 → Nat) a + S1x1x1x32.size a ≤ S2x8x26x32.size a
  inb_S2x8x26x32_S1x1x1x32_1_2_6_0 : ∀ a, (![1, 2, 6, 0] : Fin 4 → Nat) a + S1x1x1x32.size a ≤ S2x8x26x32.size a
  inb_S2x8x26x32_S1x1x1x32_1_2_7_0 : ∀ a, (![1, 2, 7, 0] : Fin 4 → Nat) a + S1x1x1x32.size a ≤ S2x8x26x32.size a
  inb_S2x8x26x32_S1x1x1x32_1_2_8_0 : ∀ a, (![1, 2, 8, 0] : Fin 4 → Nat) a + S1x1x1x32.size a ≤ S2x8x26x32.size a
  inb_S2x8x26x32_S1x1x1x32_1_2_9_0 : ∀ a, (![1, 2, 9, 0] : Fin 4 → Nat) a + S1x1x1x32.size a ≤ S2x8x26x32.size a
  inb_S2x8x26x32_S1x1x1x32_1_2_10_0 : ∀ a, (![1, 2, 10, 0] : Fin 4 → Nat) a + S1x1x1x32.size a ≤ S2x8x26x32.size a
  inb_S2x8x26x32_S1x1x1x32_1_2_11_0 : ∀ a, (![1, 2, 11, 0] : Fin 4 → Nat) a + S1x1x1x32.size a ≤ S2x8x26x32.size a
  inb_S2x8x26x32_S1x1x1x32_1_2_12_0 : ∀ a, (![1, 2, 12, 0] : Fin 4 → Nat) a + S1x1x1x32.size a ≤ S2x8x26x32.size a
  inb_S2x8x26x32_S1x1x1x32_1_2_13_0 : ∀ a, (![1, 2, 13, 0] : Fin 4 → Nat) a + S1x1x1x32.size a ≤ S2x8x26x32.size a
  inb_S2x8x26x32_S1x1x1x32_1_2_14_0 : ∀ a, (![1, 2, 14, 0] : Fin 4 → Nat) a + S1x1x1x32.size a ≤ S2x8x26x32.size a
  inb_S2x8x26x32_S1x1x1x32_1_2_15_0 : ∀ a, (![1, 2, 15, 0] : Fin 4 → Nat) a + S1x1x1x32.size a ≤ S2x8x26x32.size a
  inb_S2x8x26x32_S1x1x1x32_1_2_16_0 : ∀ a, (![1, 2, 16, 0] : Fin 4 → Nat) a + S1x1x1x32.size a ≤ S2x8x26x32.size a
  inb_S2x8x26x32_S1x1x1x32_1_2_17_0 : ∀ a, (![1, 2, 17, 0] : Fin 4 → Nat) a + S1x1x1x32.size a ≤ S2x8x26x32.size a
  inb_S2x8x26x32_S1x1x1x32_1_2_18_0 : ∀ a, (![1, 2, 18, 0] : Fin 4 → Nat) a + S1x1x1x32.size a ≤ S2x8x26x32.size a
  inb_S2x8x26x32_S1x1x1x32_1_2_19_0 : ∀ a, (![1, 2, 19, 0] : Fin 4 → Nat) a + S1x1x1x32.size a ≤ S2x8x26x32.size a
  inb_S2x8x26x32_S1x1x1x32_1_2_20_0 : ∀ a, (![1, 2, 20, 0] : Fin 4 → Nat) a + S1x1x1x32.size a ≤ S2x8x26x32.size a
  inb_S2x8x26x32_S1x1x1x32_1_2_21_0 : ∀ a, (![1, 2, 21, 0] : Fin 4 → Nat) a + S1x1x1x32.size a ≤ S2x8x26x32.size a
  inb_S2x8x26x32_S1x1x1x32_1_2_22_0 : ∀ a, (![1, 2, 22, 0] : Fin 4 → Nat) a + S1x1x1x32.size a ≤ S2x8x26x32.size a
  inb_S2x8x26x32_S1x1x1x32_1_2_23_0 : ∀ a, (![1, 2, 23, 0] : Fin 4 → Nat) a + S1x1x1x32.size a ≤ S2x8x26x32.size a
  inb_S2x8x26x32_S1x1x1x32_1_2_24_0 : ∀ a, (![1, 2, 24, 0] : Fin 4 → Nat) a + S1x1x1x32.size a ≤ S2x8x26x32.size a
  inb_S2x8x26x32_S1x1x1x32_1_2_25_0 : ∀ a, (![1, 2, 25, 0] : Fin 4 → Nat) a + S1x1x1x32.size a ≤ S2x8x26x32.size a
  inb_S2x8x26x32_S1x1x1x32_1_3_0_0 : ∀ a, (![1, 3, 0, 0] : Fin 4 → Nat) a + S1x1x1x32.size a ≤ S2x8x26x32.size a
  inb_S2x8x26x32_S1x1x1x32_1_3_1_0 : ∀ a, (![1, 3, 1, 0] : Fin 4 → Nat) a + S1x1x1x32.size a ≤ S2x8x26x32.size a
  inb_S2x8x26x32_S1x1x1x32_1_3_2_0 : ∀ a, (![1, 3, 2, 0] : Fin 4 → Nat) a + S1x1x1x32.size a ≤ S2x8x26x32.size a
  inb_S2x8x26x32_S1x1x1x32_1_3_3_0 : ∀ a, (![1, 3, 3, 0] : Fin 4 → Nat) a + S1x1x1x32.size a ≤ S2x8x26x32.size a
  inb_S2x8x26x32_S1x1x1x32_1_3_4_0 : ∀ a, (![1, 3, 4, 0] : Fin 4 → Nat) a + S1x1x1x32.size a ≤ S2x8x26x32.size a
  inb_S2x8x26x32_S1x1x1x32_1_3_5_0 : ∀ a, (![1, 3, 5, 0] : Fin 4 → Nat) a + S1x1x1x32.size a ≤ S2x8x26x32.size a
  inb_S2x8x26x32_S1x1x1x32_1_3_6_0 : ∀ a, (![1, 3, 6, 0] : Fin 4 → Nat) a + S1x1x1x32.size a ≤ S2x8x26x32.size a
  inb_S2x8x26x32_S1x1x1x32_1_3_7_0 : ∀ a, (![1, 3, 7, 0] : Fin 4 → Nat) a + S1x1x1x32.size a ≤ S2x8x26x32.size a
  inb_S2x8x26x32_S1x1x1x32_1_3_8_0 : ∀ a, (![1, 3, 8, 0] : Fin 4 → Nat) a + S1x1x1x32.size a ≤ S2x8x26x32.size a
  inb_S2x8x26x32_S1x1x1x32_1_3_9_0 : ∀ a, (![1, 3, 9, 0] : Fin 4 → Nat) a + S1x1x1x32.size a ≤ S2x8x26x32.size a
  inb_S2x8x26x32_S1x1x1x32_1_3_10_0 : ∀ a, (![1, 3, 10, 0] : Fin 4 → Nat) a + S1x1x1x32.size a ≤ S2x8x26x32.size a
  inb_S2x8x26x32_S1x1x1x32_1_3_11_0 : ∀ a, (![1, 3, 11, 0] : Fin 4 → Nat) a + S1x1x1x32.size a ≤ S2x8x26x32.size a
  inb_S2x8x26x32_S1x1x1x32_1_3_12_0 : ∀ a, (![1, 3, 12, 0] : Fin 4 → Nat) a + S1x1x1x32.size a ≤ S2x8x26x32.size a
  inb_S2x8x26x32_S1x1x1x32_1_3_13_0 : ∀ a, (![1, 3, 13, 0] : Fin 4 → Nat) a + S1x1x1x32.size a ≤ S2x8x26x32.size a
  inb_S2x8x26x32_S1x1x1x32_1_3_14_0 : ∀ a, (![1, 3, 14, 0] : Fin 4 → Nat) a + S1x1x1x32.size a ≤ S2x8x26x32.size a
  inb_S2x8x26x32_S1x1x1x32_1_3_15_0 : ∀ a, (![1, 3, 15, 0] : Fin 4 → Nat) a + S1x1x1x32.size a ≤ S2x8x26x32.size a
  inb_S2x8x26x32_S1x1x1x32_1_3_16_0 : ∀ a, (![1, 3, 16, 0] : Fin 4 → Nat) a + S1x1x1x32.size a ≤ S2x8x26x32.size a
  inb_S2x8x26x32_S1x1x1x32_1_3_17_0 : ∀ a, (![1, 3, 17, 0] : Fin 4 → Nat) a + S1x1x1x32.size a ≤ S2x8x26x32.size a
  inb_S2x8x26x32_S1x1x1x32_1_3_18_0 : ∀ a, (![1, 3, 18, 0] : Fin 4 → Nat) a + S1x1x1x32.size a ≤ S2x8x26x32.size a
  inb_S2x8x26x32_S1x1x1x32_1_3_19_0 : ∀ a, (![1, 3, 19, 0] : Fin 4 → Nat) a + S1x1x1x32.size a ≤ S2x8x26x32.size a
  inb_S2x8x26x32_S1x1x1x32_1_3_20_0 : ∀ a, (![1, 3, 20, 0] : Fin 4 → Nat) a + S1x1x1x32.size a ≤ S2x8x26x32.size a
  inb_S2x8x26x32_S1x1x1x32_1_3_21_0 : ∀ a, (![1, 3, 21, 0] : Fin 4 → Nat) a + S1x1x1x32.size a ≤ S2x8x26x32.size a
  inb_S2x8x26x32_S1x1x1x32_1_3_22_0 : ∀ a, (![1, 3, 22, 0] : Fin 4 → Nat) a + S1x1x1x32.size a ≤ S2x8x26x32.size a
  inb_S2x8x26x32_S1x1x1x32_1_3_23_0 : ∀ a, (![1, 3, 23, 0] : Fin 4 → Nat) a + S1x1x1x32.size a ≤ S2x8x26x32.size a
  inb_S2x8x26x32_S1x1x1x32_1_3_24_0 : ∀ a, (![1, 3, 24, 0] : Fin 4 → Nat) a + S1x1x1x32.size a ≤ S2x8x26x32.size a
  inb_S2x8x26x32_S1x1x1x32_1_3_25_0 : ∀ a, (![1, 3, 25, 0] : Fin 4 → Nat) a + S1x1x1x32.size a ≤ S2x8x26x32.size a
  inb_S2x8x26x32_S1x1x1x32_1_4_0_0 : ∀ a, (![1, 4, 0, 0] : Fin 4 → Nat) a + S1x1x1x32.size a ≤ S2x8x26x32.size a
  inb_S2x8x26x32_S1x1x1x32_1_4_1_0 : ∀ a, (![1, 4, 1, 0] : Fin 4 → Nat) a + S1x1x1x32.size a ≤ S2x8x26x32.size a
  inb_S2x8x26x32_S1x1x1x32_1_4_2_0 : ∀ a, (![1, 4, 2, 0] : Fin 4 → Nat) a + S1x1x1x32.size a ≤ S2x8x26x32.size a
  inb_S2x8x26x32_S1x1x1x32_1_4_3_0 : ∀ a, (![1, 4, 3, 0] : Fin 4 → Nat) a + S1x1x1x32.size a ≤ S2x8x26x32.size a
  inb_S2x8x26x32_S1x1x1x32_1_4_4_0 : ∀ a, (![1, 4, 4, 0] : Fin 4 → Nat) a + S1x1x1x32.size a ≤ S2x8x26x32.size a
  inb_S2x8x26x32_S1x1x1x32_1_4_5_0 : ∀ a, (![1, 4, 5, 0] : Fin 4 → Nat) a + S1x1x1x32.size a ≤ S2x8x26x32.size a
  inb_S2x8x26x32_S1x1x1x32_1_4_6_0 : ∀ a, (![1, 4, 6, 0] : Fin 4 → Nat) a + S1x1x1x32.size a ≤ S2x8x26x32.size a
  inb_S2x8x26x32_S1x1x1x32_1_4_7_0 : ∀ a, (![1, 4, 7, 0] : Fin 4 → Nat) a + S1x1x1x32.size a ≤ S2x8x26x32.size a
  inb_S2x8x26x32_S1x1x1x32_1_4_8_0 : ∀ a, (![1, 4, 8, 0] : Fin 4 → Nat) a + S1x1x1x32.size a ≤ S2x8x26x32.size a
  inb_S2x8x26x32_S1x1x1x32_1_4_9_0 : ∀ a, (![1, 4, 9, 0] : Fin 4 → Nat) a + S1x1x1x32.size a ≤ S2x8x26x32.size a
  inb_S2x8x26x32_S1x1x1x32_1_4_10_0 : ∀ a, (![1, 4, 10, 0] : Fin 4 → Nat) a + S1x1x1x32.size a ≤ S2x8x26x32.size a
  inb_S2x8x26x32_S1x1x1x32_1_4_11_0 : ∀ a, (![1, 4, 11, 0] : Fin 4 → Nat) a + S1x1x1x32.size a ≤ S2x8x26x32.size a
  inb_S2x8x26x32_S1x1x1x32_1_4_12_0 : ∀ a, (![1, 4, 12, 0] : Fin 4 → Nat) a + S1x1x1x32.size a ≤ S2x8x26x32.size a
  inb_S2x8x26x32_S1x1x1x32_1_4_13_0 : ∀ a, (![1, 4, 13, 0] : Fin 4 → Nat) a + S1x1x1x32.size a ≤ S2x8x26x32.size a
  inb_S2x8x26x32_S1x1x1x32_1_4_14_0 : ∀ a, (![1, 4, 14, 0] : Fin 4 → Nat) a + S1x1x1x32.size a ≤ S2x8x26x32.size a
  inb_S2x8x26x32_S1x1x1x32_1_4_15_0 : ∀ a, (![1, 4, 15, 0] : Fin 4 → Nat) a + S1x1x1x32.size a ≤ S2x8x26x32.size a
  inb_S2x8x26x32_S1x1x1x32_1_4_16_0 : ∀ a, (![1, 4, 16, 0] : Fin 4 → Nat) a + S1x1x1x32.size a ≤ S2x8x26x32.size a
  inb_S2x8x26x32_S1x1x1x32_1_4_17_0 : ∀ a, (![1, 4, 17, 0] : Fin 4 → Nat) a + S1x1x1x32.size a ≤ S2x8x26x32.size a
  inb_S2x8x26x32_S1x1x1x32_1_4_18_0 : ∀ a, (![1, 4, 18, 0] : Fin 4 → Nat) a + S1x1x1x32.size a ≤ S2x8x26x32.size a
  inb_S2x8x26x32_S1x1x1x32_1_4_19_0 : ∀ a, (![1, 4, 19, 0] : Fin 4 → Nat) a + S1x1x1x32.size a ≤ S2x8x26x32.size a
  inb_S2x8x26x32_S1x1x1x32_1_4_20_0 : ∀ a, (![1, 4, 20, 0] : Fin 4 → Nat) a + S1x1x1x32.size a ≤ S2x8x26x32.size a
  inb_S2x8x26x32_S1x1x1x32_1_4_21_0 : ∀ a, (![1, 4, 21, 0] : Fin 4 → Nat) a + S1x1x1x32.size a ≤ S2x8x26x32.size a
  inb_S2x8x26x32_S1x1x1x32_1_4_22_0 : ∀ a, (![1, 4, 22, 0] : Fin 4 → Nat) a + S1x1x1x32.size a ≤ S2x8x26x32.size a
  inb_S2x8x26x32_S1x1x1x32_1_4_23_0 : ∀ a, (![1, 4, 23, 0] : Fin 4 → Nat) a + S1x1x1x32.size a ≤ S2x8x26x32.size a
  inb_S2x8x26x32_S1x1x1x32_1_4_24_0 : ∀ a, (![1, 4, 24, 0] : Fin 4 → Nat) a + S1x1x1x32.size a ≤ S2x8x26x32.size a
  inb_S2x8x26x32_S1x1x1x32_1_4_25_0 : ∀ a, (![1, 4, 25, 0] : Fin 4 → Nat) a + S1x1x1x32.size a ≤ S2x8x26x32.size a
  inb_S2x8x26x32_S1x1x1x32_1_5_0_0 : ∀ a, (![1, 5, 0, 0] : Fin 4 → Nat) a + S1x1x1x32.size a ≤ S2x8x26x32.size a
  inb_S2x8x26x32_S1x1x1x32_1_5_1_0 : ∀ a, (![1, 5, 1, 0] : Fin 4 → Nat) a + S1x1x1x32.size a ≤ S2x8x26x32.size a
  inb_S2x8x26x32_S1x1x1x32_1_5_2_0 : ∀ a, (![1, 5, 2, 0] : Fin 4 → Nat) a + S1x1x1x32.size a ≤ S2x8x26x32.size a
  inb_S2x8x26x32_S1x1x1x32_1_5_3_0 : ∀ a, (![1, 5, 3, 0] : Fin 4 → Nat) a + S1x1x1x32.size a ≤ S2x8x26x32.size a
  inb_S2x8x26x32_S1x1x1x32_1_5_4_0 : ∀ a, (![1, 5, 4, 0] : Fin 4 → Nat) a + S1x1x1x32.size a ≤ S2x8x26x32.size a
  inb_S2x8x26x32_S1x1x1x32_1_5_5_0 : ∀ a, (![1, 5, 5, 0] : Fin 4 → Nat) a + S1x1x1x32.size a ≤ S2x8x26x32.size a
  inb_S2x8x26x32_S1x1x1x32_1_5_6_0 : ∀ a, (![1, 5, 6, 0] : Fin 4 → Nat) a + S1x1x1x32.size a ≤ S2x8x26x32.size a
  inb_S2x8x26x32_S1x1x1x32_1_5_7_0 : ∀ a, (![1, 5, 7, 0] : Fin 4 → Nat) a + S1x1x1x32.size a ≤ S2x8x26x32.size a
  inb_S2x8x26x32_S1x1x1x32_1_5_8_0 : ∀ a, (![1, 5, 8, 0] : Fin 4 → Nat) a + S1x1x1x32.size a ≤ S2x8x26x32.size a
  inb_S2x8x26x32_S1x1x1x32_1_5_9_0 : ∀ a, (![1, 5, 9, 0] : Fin 4 → Nat) a + S1x1x1x32.size a ≤ S2x8x26x32.size a
  inb_S2x8x26x32_S1x1x1x32_1_5_10_0 : ∀ a, (![1, 5, 10, 0] : Fin 4 → Nat) a + S1x1x1x32.size a ≤ S2x8x26x32.size a
  inb_S2x8x26x32_S1x1x1x32_1_5_11_0 : ∀ a, (![1, 5, 11, 0] : Fin 4 → Nat) a + S1x1x1x32.size a ≤ S2x8x26x32.size a
  inb_S2x8x26x32_S1x1x1x32_1_5_12_0 : ∀ a, (![1, 5, 12, 0] : Fin 4 → Nat) a + S1x1x1x32.size a ≤ S2x8x26x32.size a
  inb_S2x8x26x32_S1x1x1x32_1_5_13_0 : ∀ a, (![1, 5, 13, 0] : Fin 4 → Nat) a + S1x1x1x32.size a ≤ S2x8x26x32.size a
  inb_S2x8x26x32_S1x1x1x32_1_5_14_0 : ∀ a, (![1, 5, 14, 0] : Fin 4 → Nat) a + S1x1x1x32.size a ≤ S2x8x26x32.size a
  inb_S2x8x26x32_S1x1x1x32_1_5_15_0 : ∀ a, (![1, 5, 15, 0] : Fin 4 → Nat) a + S1x1x1x32.size a ≤ S2x8x26x32.size a
  inb_S2x8x26x32_S1x1x1x32_1_5_16_0 : ∀ a, (![1, 5, 16, 0] : Fin 4 → Nat) a + S1x1x1x32.size a ≤ S2x8x26x32.size a
  inb_S2x8x26x32_S1x1x1x32_1_5_17_0 : ∀ a, (![1, 5, 17, 0] : Fin 4 → Nat) a + S1x1x1x32.size a ≤ S2x8x26x32.size a
  inb_S2x8x26x32_S1x1x1x32_1_5_18_0 : ∀ a, (![1, 5, 18, 0] : Fin 4 → Nat) a + S1x1x1x32.size a ≤ S2x8x26x32.size a
  inb_S2x8x26x32_S1x1x1x32_1_5_19_0 : ∀ a, (![1, 5, 19, 0] : Fin 4 → Nat) a + S1x1x1x32.size a ≤ S2x8x26x32.size a
  inb_S2x8x26x32_S1x1x1x32_1_5_20_0 : ∀ a, (![1, 5, 20, 0] : Fin 4 → Nat) a + S1x1x1x32.size a ≤ S2x8x26x32.size a
  inb_S2x8x26x32_S1x1x1x32_1_5_21_0 : ∀ a, (![1, 5, 21, 0] : Fin 4 → Nat) a + S1x1x1x32.size a ≤ S2x8x26x32.size a
  inb_S2x8x26x32_S1x1x1x32_1_5_22_0 : ∀ a, (![1, 5, 22, 0] : Fin 4 → Nat) a + S1x1x1x32.size a ≤ S2x8x26x32.size a
  inb_S2x8x26x32_S1x1x1x32_1_5_23_0 : ∀ a, (![1, 5, 23, 0] : Fin 4 → Nat) a + S1x1x1x32.size a ≤ S2x8x26x32.size a
  inb_S2x8x26x32_S1x1x1x32_1_5_24_0 : ∀ a, (![1, 5, 24, 0] : Fin 4 → Nat) a + S1x1x1x32.size a ≤ S2x8x26x32.size a
  inb_S2x8x26x32_S1x1x1x32_1_5_25_0 : ∀ a, (![1, 5, 25, 0] : Fin 4 → Nat) a + S1x1x1x32.size a ≤ S2x8x26x32.size a
  inb_S2x8x26x32_S1x1x1x32_1_6_0_0 : ∀ a, (![1, 6, 0, 0] : Fin 4 → Nat) a + S1x1x1x32.size a ≤ S2x8x26x32.size a
  inb_S2x8x26x32_S1x1x1x32_1_6_1_0 : ∀ a, (![1, 6, 1, 0] : Fin 4 → Nat) a + S1x1x1x32.size a ≤ S2x8x26x32.size a
  inb_S2x8x26x32_S1x1x1x32_1_6_2_0 : ∀ a, (![1, 6, 2, 0] : Fin 4 → Nat) a + S1x1x1x32.size a ≤ S2x8x26x32.size a
  inb_S2x8x26x32_S1x1x1x32_1_6_3_0 : ∀ a, (![1, 6, 3, 0] : Fin 4 → Nat) a + S1x1x1x32.size a ≤ S2x8x26x32.size a
  inb_S2x8x26x32_S1x1x1x32_1_6_4_0 : ∀ a, (![1, 6, 4, 0] : Fin 4 → Nat) a + S1x1x1x32.size a ≤ S2x8x26x32.size a
  inb_S2x8x26x32_S1x1x1x32_1_6_5_0 : ∀ a, (![1, 6, 5, 0] : Fin 4 → Nat) a + S1x1x1x32.size a ≤ S2x8x26x32.size a
  inb_S2x8x26x32_S1x1x1x32_1_6_6_0 : ∀ a, (![1, 6, 6, 0] : Fin 4 → Nat) a + S1x1x1x32.size a ≤ S2x8x26x32.size a
  inb_S2x8x26x32_S1x1x1x32_1_6_7_0 : ∀ a, (![1, 6, 7, 0] : Fin 4 → Nat) a + S1x1x1x32.size a ≤ S2x8x26x32.size a
  inb_S2x8x26x32_S1x1x1x32_1_6_8_0 : ∀ a, (![1, 6, 8, 0] : Fin 4 → Nat) a + S1x1x1x32.size a ≤ S2x8x26x32.size a
  inb_S2x8x26x32_S1x1x1x32_1_6_9_0 : ∀ a, (![1, 6, 9, 0] : Fin 4 → Nat) a + S1x1x1x32.size a ≤ S2x8x26x32.size a
  inb_S2x8x26x32_S1x1x1x32_1_6_10_0 : ∀ a, (![1, 6, 10, 0] : Fin 4 → Nat) a + S1x1x1x32.size a ≤ S2x8x26x32.size a
  inb_S2x8x26x32_S1x1x1x32_1_6_11_0 : ∀ a, (![1, 6, 11, 0] : Fin 4 → Nat) a + S1x1x1x32.size a ≤ S2x8x26x32.size a
  inb_S2x8x26x32_S1x1x1x32_1_6_12_0 : ∀ a, (![1, 6, 12, 0] : Fin 4 → Nat) a + S1x1x1x32.size a ≤ S2x8x26x32.size a
  inb_S2x8x26x32_S1x1x1x32_1_6_13_0 : ∀ a, (![1, 6, 13, 0] : Fin 4 → Nat) a + S1x1x1x32.size a ≤ S2x8x26x32.size a
  inb_S2x8x26x32_S1x1x1x32_1_6_14_0 : ∀ a, (![1, 6, 14, 0] : Fin 4 → Nat) a + S1x1x1x32.size a ≤ S2x8x26x32.size a
  inb_S2x8x26x32_S1x1x1x32_1_6_15_0 : ∀ a, (![1, 6, 15, 0] : Fin 4 → Nat) a + S1x1x1x32.size a ≤ S2x8x26x32.size a
  inb_S2x8x26x32_S1x1x1x32_1_6_16_0 : ∀ a, (![1, 6, 16, 0] : Fin 4 → Nat) a + S1x1x1x32.size a ≤ S2x8x26x32.size a
  inb_S2x8x26x32_S1x1x1x32_1_6_17_0 : ∀ a, (![1, 6, 17, 0] : Fin 4 → Nat) a + S1x1x1x32.size a ≤ S2x8x26x32.size a
  inb_S2x8x26x32_S1x1x1x32_1_6_18_0 : ∀ a, (![1, 6, 18, 0] : Fin 4 → Nat) a + S1x1x1x32.size a ≤ S2x8x26x32.size a
  inb_S2x8x26x32_S1x1x1x32_1_6_19_0 : ∀ a, (![1, 6, 19, 0] : Fin 4 → Nat) a + S1x1x1x32.size a ≤ S2x8x26x32.size a
  inb_S2x8x26x32_S1x1x1x32_1_6_20_0 : ∀ a, (![1, 6, 20, 0] : Fin 4 → Nat) a + S1x1x1x32.size a ≤ S2x8x26x32.size a
  inb_S2x8x26x32_S1x1x1x32_1_6_21_0 : ∀ a, (![1, 6, 21, 0] : Fin 4 → Nat) a + S1x1x1x32.size a ≤ S2x8x26x32.size a
  inb_S2x8x26x32_S1x1x1x32_1_6_22_0 : ∀ a, (![1, 6, 22, 0] : Fin 4 → Nat) a + S1x1x1x32.size a ≤ S2x8x26x32.size a
  inb_S2x8x26x32_S1x1x1x32_1_6_23_0 : ∀ a, (![1, 6, 23, 0] : Fin 4 → Nat) a + S1x1x1x32.size a ≤ S2x8x26x32.size a
  inb_S2x8x26x32_S1x1x1x32_1_6_24_0 : ∀ a, (![1, 6, 24, 0] : Fin 4 → Nat) a + S1x1x1x32.size a ≤ S2x8x26x32.size a
  inb_S2x8x26x32_S1x1x1x32_1_6_25_0 : ∀ a, (![1, 6, 25, 0] : Fin 4 → Nat) a + S1x1x1x32.size a ≤ S2x8x26x32.size a
  inb_S2x8x26x32_S1x1x1x32_1_7_0_0 : ∀ a, (![1, 7, 0, 0] : Fin 4 → Nat) a + S1x1x1x32.size a ≤ S2x8x26x32.size a
  inb_S2x8x26x32_S1x1x1x32_1_7_1_0 : ∀ a, (![1, 7, 1, 0] : Fin 4 → Nat) a + S1x1x1x32.size a ≤ S2x8x26x32.size a
  inb_S2x8x26x32_S1x1x1x32_1_7_2_0 : ∀ a, (![1, 7, 2, 0] : Fin 4 → Nat) a + S1x1x1x32.size a ≤ S2x8x26x32.size a
  inb_S2x8x26x32_S1x1x1x32_1_7_3_0 : ∀ a, (![1, 7, 3, 0] : Fin 4 → Nat) a + S1x1x1x32.size a ≤ S2x8x26x32.size a
  inb_S2x8x26x32_S1x1x1x32_1_7_4_0 : ∀ a, (![1, 7, 4, 0] : Fin 4 → Nat) a + S1x1x1x32.size a ≤ S2x8x26x32.size a
  inb_S2x8x26x32_S1x1x1x32_1_7_5_0 : ∀ a, (![1, 7, 5, 0] : Fin 4 → Nat) a + S1x1x1x32.size a ≤ S2x8x26x32.size a
  inb_S2x8x26x32_S1x1x1x32_1_7_6_0 : ∀ a, (![1, 7, 6, 0] : Fin 4 → Nat) a + S1x1x1x32.size a ≤ S2x8x26x32.size a
  inb_S2x8x26x32_S1x1x1x32_1_7_7_0 : ∀ a, (![1, 7, 7, 0] : Fin 4 → Nat) a + S1x1x1x32.size a ≤ S2x8x26x32.size a
  inb_S2x8x26x32_S1x1x1x32_1_7_8_0 : ∀ a, (![1, 7, 8, 0] : Fin 4 → Nat) a + S1x1x1x32.size a ≤ S2x8x26x32.size a
  inb_S2x8x26x32_S1x1x1x32_1_7_9_0 : ∀ a, (![1, 7, 9, 0] : Fin 4 → Nat) a + S1x1x1x32.size a ≤ S2x8x26x32.size a
  inb_S2x8x26x32_S1x1x1x32_1_7_10_0 : ∀ a, (![1, 7, 10, 0] : Fin 4 → Nat) a + S1x1x1x32.size a ≤ S2x8x26x32.size a
  inb_S2x8x26x32_S1x1x1x32_1_7_11_0 : ∀ a, (![1, 7, 11, 0] : Fin 4 → Nat) a + S1x1x1x32.size a ≤ S2x8x26x32.size a
  inb_S2x8x26x32_S1x1x1x32_1_7_12_0 : ∀ a, (![1, 7, 12, 0] : Fin 4 → Nat) a + S1x1x1x32.size a ≤ S2x8x26x32.size a
  inb_S2x8x26x32_S1x1x1x32_1_7_13_0 : ∀ a, (![1, 7, 13, 0] : Fin 4 → Nat) a + S1x1x1x32.size a ≤ S2x8x26x32.size a
  inb_S2x8x26x32_S1x1x1x32_1_7_14_0 : ∀ a, (![1, 7, 14, 0] : Fin 4 → Nat) a + S1x1x1x32.size a ≤ S2x8x26x32.size a
  inb_S2x8x26x32_S1x1x1x32_1_7_15_0 : ∀ a, (![1, 7, 15, 0] : Fin 4 → Nat) a + S1x1x1x32.size a ≤ S2x8x26x32.size a
  inb_S2x8x26x32_S1x1x1x32_1_7_16_0 : ∀ a, (![1, 7, 16, 0] : Fin 4 → Nat) a + S1x1x1x32.size a ≤ S2x8x26x32.size a
  inb_S2x8x26x32_S1x1x1x32_1_7_17_0 : ∀ a, (![1, 7, 17, 0] : Fin 4 → Nat) a + S1x1x1x32.size a ≤ S2x8x26x32.size a
  inb_S2x8x26x32_S1x1x1x32_1_7_18_0 : ∀ a, (![1, 7, 18, 0] : Fin 4 → Nat) a + S1x1x1x32.size a ≤ S2x8x26x32.size a
  inb_S2x8x26x32_S1x1x1x32_1_7_19_0 : ∀ a, (![1, 7, 19, 0] : Fin 4 → Nat) a + S1x1x1x32.size a ≤ S2x8x26x32.size a
  inb_S2x8x26x32_S1x1x1x32_1_7_20_0 : ∀ a, (![1, 7, 20, 0] : Fin 4 → Nat) a + S1x1x1x32.size a ≤ S2x8x26x32.size a
  inb_S2x8x26x32_S1x1x1x32_1_7_21_0 : ∀ a, (![1, 7, 21, 0] : Fin 4 → Nat) a + S1x1x1x32.size a ≤ S2x8x26x32.size a
  inb_S2x8x26x32_S1x1x1x32_1_7_22_0 : ∀ a, (![1, 7, 22, 0] : Fin 4 → Nat) a + S1x1x1x32.size a ≤ S2x8x26x32.size a
  inb_S2x8x26x32_S1x1x1x32_1_7_23_0 : ∀ a, (![1, 7, 23, 0] : Fin 4 → Nat) a + S1x1x1x32.size a ≤ S2x8x26x32.size a
  inb_S2x8x26x32_S1x1x1x32_1_7_24_0 : ∀ a, (![1, 7, 24, 0] : Fin 4 → Nat) a + S1x1x1x32.size a ≤ S2x8x26x32.size a
  inb_S2x8x26x32_S1x1x1x32_1_7_25_0 : ∀ a, (![1, 7, 25, 0] : Fin 4 → Nat) a + S1x1x1x32.size a ≤ S2x8x26x32.size a
  inb_S26x100001x32_S1x1x32_0_0_0 : ∀ a, (![0, 0, 0] : Fin 3 → Nat) a + S1x1x32.size a ≤ S26x100001x32.size a
  inb_S2x8x26x32_S1x8x26x32_1_0_0_0 : ∀ a, (![1, 0, 0, 0] : Fin 4 → Nat) a + S1x8x26x32.size a ≤ S2x8x26x32.size a
  hcc0_scratch2 : 0 + S_.numel ≤ 5
  hcc0_scratch3 : 1 + S_.numel ≤ 5
  hcc0_scratch4 : 2 + S_.numel ≤ 5
  hcc0_scratch5 : 3 + S_.numel ≤ 5
  hcc0_scratch6 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x26.size a ≤ S512x32.size a
  k0_off2_inb : ∀ (i : grid0.Coords) (k0_t1 : Fin k0_t1_loop.trips), ∀ a, (k0_off2 i k0_t1) a + S1x26.size a ≤ S16384x26.size a
  k0_t2_ok : k0_t2_loop.OK
  k0_t3_ok : k0_t3_loop.OK
  k0_off211_inb : ∀ k0_t3 : Fin k0_t3_loop.trips, ∀ (k0_h2 : k0_cond2 k0_t3 = 1#1), ∀ a, (k0_off211 k0_t3) a + S1x16.size a ≤ S512x32.size a
  k0_off212_inb : ∀ k0_t3 : Fin k0_t3_loop.trips, ∀ (k0_h2 : k0_cond2 k0_t3 = 1#1), ∀ a, (k0_off212 k0_t3) a + S1x16.size a ≤ S512x32.size a
  k0_off239_inb : ∀ k0_t3 : Fin k0_t3_loop.trips, ∀ (k0_h2 : k0_cond2 k0_t3 = 1#1), ∀ a, (k0_off239 k0_t3) a + S1x16.size a ≤ S512x32.size a
  k0_off240_inb : ∀ k0_t3 : Fin k0_t3_loop.trips, ∀ (k0_h2 : k0_cond2 k0_t3 = 1#1), ∀ a, (k0_off240 k0_t3) a + S1x16.size a ≤ S512x32.size a
  k0_off267_inb : ∀ k0_t3 : Fin k0_t3_loop.trips, ∀ (k0_h2 : k0_cond2 k0_t3 = 1#1), ∀ a, (k0_off267 k0_t3) a + S1x16.size a ≤ S512x32.size a
  k0_off268_inb : ∀ k0_t3 : Fin k0_t3_loop.trips, ∀ (k0_h2 : k0_cond2 k0_t3 = 1#1), ∀ a, (k0_off268 k0_t3) a + S1x16.size a ≤ S512x32.size a
  k0_off295_inb : ∀ k0_t3 : Fin k0_t3_loop.trips, ∀ (k0_h2 : k0_cond2 k0_t3 = 1#1), ∀ a, (k0_off295 k0_t3) a + S1x16.size a ≤ S512x32.size a
  k0_off296_inb : ∀ k0_t3 : Fin k0_t3_loop.trips, ∀ (k0_h2 : k0_cond2 k0_t3 = 1#1), ∀ a, (k0_off296 k0_t3) a + S1x16.size a ≤ S512x32.size a
  k0_off323_inb : ∀ k0_t3 : Fin k0_t3_loop.trips, ∀ (k0_h2 : k0_cond2 k0_t3 = 1#1), ∀ a, (k0_off323 k0_t3) a + S1x16.size a ≤ S512x32.size a
  k0_off324_inb : ∀ k0_t3 : Fin k0_t3_loop.trips, ∀ (k0_h2 : k0_cond2 k0_t3 = 1#1), ∀ a, (k0_off324 k0_t3) a + S1x16.size a ≤ S512x32.size a
  k0_off351_inb : ∀ k0_t3 : Fin k0_t3_loop.trips, ∀ (k0_h2 : k0_cond2 k0_t3 = 1#1), ∀ a, (k0_off351 k0_t3) a + S1x16.size a ≤ S512x32.size a
  k0_off352_inb : ∀ k0_t3 : Fin k0_t3_loop.trips, ∀ (k0_h2 : k0_cond2 k0_t3 = 1#1), ∀ a, (k0_off352 k0_t3) a + S1x16.size a ≤ S512x32.size a
  k0_off379_inb : ∀ k0_t3 : Fin k0_t3_loop.trips, ∀ (k0_h2 : k0_cond2 k0_t3 = 1#1), ∀ a, (k0_off379 k0_t3) a + S1x16.size a ≤ S512x32.size a
  k0_off380_inb : ∀ k0_t3 : Fin k0_t3_loop.trips, ∀ (k0_h2 : k0_cond2 k0_t3 = 1#1), ∀ a, (k0_off380 k0_t3) a + S1x16.size a ≤ S512x32.size a
  k0_off407_inb : ∀ k0_t3 : Fin k0_t3_loop.trips, ∀ (k0_h2 : k0_cond2 k0_t3 = 1#1), ∀ a, (k0_off407 k0_t3) a + S1x16.size a ≤ S512x32.size a
  k0_off408_inb : ∀ k0_t3 : Fin k0_t3_loop.trips, ∀ (k0_h2 : k0_cond2 k0_t3 = 1#1), ∀ a, (k0_off408 k0_t3) a + S1x16.size a ≤ S512x32.size a
  k0_t4_ok : k0_t4_loop.OK
  k0_off435_inb : ∀ (i : grid0.Coords) (k0_t3 : Fin k0_t3_loop.trips), ∀ a, (k0_off435 i k0_t3) a + S8x26x32.size a ≤ S16384x26x32.size a
  k0_off436_inb : ∀ k0_t3 : Fin k0_t3_loop.trips, ∀ (k0_h4 : k0_cond4 k0_t3 = 1#1), ∀ a, (k0_off436 k0_t3) a + S1x16.size a ≤ S512x32.size a
  k0_off437_inb : ∀ k0_t3 : Fin k0_t3_loop.trips, ∀ (k0_h4 : k0_cond4 k0_t3 = 1#1), ∀ a, (k0_off437 k0_t3) a + S1x16.size a ≤ S512x32.size a
  k0_off464_inb : ∀ k0_t3 : Fin k0_t3_loop.trips, ∀ (k0_h4 : k0_cond4 k0_t3 = 1#1), ∀ a, (k0_off464 k0_t3) a + S1x16.size a ≤ S512x32.size a
  k0_off465_inb : ∀ k0_t3 : Fin k0_t3_loop.trips, ∀ (k0_h4 : k0_cond4 k0_t3 = 1#1), ∀ a, (k0_off465 k0_t3) a + S1x16.size a ≤ S512x32.size a
  k0_off492_inb : ∀ k0_t3 : Fin k0_t3_loop.trips, ∀ (k0_h4 : k0_cond4 k0_t3 = 1#1), ∀ a, (k0_off492 k0_t3) a + S1x16.size a ≤ S512x32.size a
  k0_off493_inb : ∀ k0_t3 : Fin k0_t3_loop.trips, ∀ (k0_h4 : k0_cond4 k0_t3 = 1#1), ∀ a, (k0_off493 k0_t3) a + S1x16.size a ≤ S512x32.size a
  k0_off520_inb : ∀ k0_t3 : Fin k0_t3_loop.trips, ∀ (k0_h4 : k0_cond4 k0_t3 = 1#1), ∀ a, (k0_off520 k0_t3) a + S1x16.size a ≤ S512x32.size a
  k0_off521_inb : ∀ k0_t3 : Fin k0_t3_loop.trips, ∀ (k0_h4 : k0_cond4 k0_t3 = 1#1), ∀ a, (k0_off521 k0_t3) a + S1x16.size a ≤ S512x32.size a
  k0_off548_inb : ∀ k0_t3 : Fin k0_t3_loop.trips, ∀ (k0_h4 : k0_cond4 k0_t3 = 1#1), ∀ a, (k0_off548 k0_t3) a + S1x16.size a ≤ S512x32.size a
  k0_off549_inb : ∀ k0_t3 : Fin k0_t3_loop.trips, ∀ (k0_h4 : k0_cond4 k0_t3 = 1#1), ∀ a, (k0_off549 k0_t3) a + S1x16.size a ≤ S512x32.size a
  k0_off576_inb : ∀ k0_t3 : Fin k0_t3_loop.trips, ∀ (k0_h4 : k0_cond4 k0_t3 = 1#1), ∀ a, (k0_off576 k0_t3) a + S1x16.size a ≤ S512x32.size a
  k0_off577_inb : ∀ k0_t3 : Fin k0_t3_loop.trips, ∀ (k0_h4 : k0_cond4 k0_t3 = 1#1), ∀ a, (k0_off577 k0_t3) a + S1x16.size a ≤ S512x32.size a
  k0_off604_inb : ∀ k0_t3 : Fin k0_t3_loop.trips, ∀ (k0_h4 : k0_cond4 k0_t3 = 1#1), ∀ a, (k0_off604 k0_t3) a + S1x16.size a ≤ S512x32.size a
  k0_off605_inb : ∀ k0_t3 : Fin k0_t3_loop.trips, ∀ (k0_h4 : k0_cond4 k0_t3 = 1#1), ∀ a, (k0_off605 k0_t3) a + S1x16.size a ≤ S512x32.size a
  k0_off632_inb : ∀ k0_t3 : Fin k0_t3_loop.trips, ∀ (k0_h4 : k0_cond4 k0_t3 = 1#1), ∀ a, (k0_off632 k0_t3) a + S1x16.size a ≤ S512x32.size a
  k0_off633_inb : ∀ k0_t3 : Fin k0_t3_loop.trips, ∀ (k0_h4 : k0_cond4 k0_t3 = 1#1), ∀ a, (k0_off633 k0_t3) a + S1x16.size a ≤ S512x32.size a
  k0_t5_ok : k0_t5_loop.OK
  k0_off660_inb : ∀ (i : grid0.Coords) (k0_t3 : Fin k0_t3_loop.trips), ∀ a, (k0_off660 i k0_t3) a + S8x26x32.size a ≤ S16384x26x32.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6

class Facts : Prop extends Facts₀ where

variable [Facts]
-- ==== ReferenceIdeal.lean ====
abbrev S16384x26 : Shape := ⟨2, ![16384, 26]⟩
abbrev S26x100001x32 : Shape := ⟨3, ![26, 100001, 32]⟩
abbrev S_ : Shape := ⟨0, ![]⟩
abbrev S26x16384 : Shape := ⟨2, ![26, 16384]⟩
abbrev S26x16384x1 : Shape := ⟨3, ![26, 16384, 1]⟩
abbrev S1 : Shape := ⟨1, ![1]⟩
abbrev S1x1x1 : Shape := ⟨3, ![1, 1, 1]⟩
abbrev S26x16384x32 : Shape := ⟨3, ![26, 16384, 32]⟩
abbrev S16384x26x32 : Shape := ⟨3, ![16384, 26, 32]⟩

abbrev nBuf : Space → Nat
  | .hbm => 27
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100001x32, .f32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S26x16384, .i32⟩
  | .hbm, ⟨10, _⟩ => ⟨S26x16384x1, .i32⟩
  | .hbm, ⟨11, _⟩ => ⟨S1, .i32⟩
  | .hbm, ⟨12, _⟩ => ⟨S_, .i32⟩
  | .hbm, ⟨13, _⟩ => ⟨S26x16384x1, .i32⟩
  | .hbm, ⟨14, _⟩ => ⟨S26x16384x1, .i1⟩
  | .hbm, ⟨15, _⟩ => ⟨S1x1x1, .i32⟩
  | .hbm, ⟨16, _⟩ => ⟨S26x16384x1, .i32⟩
  | .hbm, ⟨17, _⟩ => ⟨S26x16384x1, .i1⟩
  | .hbm, ⟨18, _⟩ => ⟨S26x16384x1, .i1⟩
  | .hbm, ⟨19, _⟩ => ⟨S_, .i1⟩
  | .hbm, ⟨20, _⟩ => ⟨S26x16384, .i1⟩
  | .hbm, ⟨21, _⟩ => ⟨S26x16384x32, .f32⟩
  | .hbm, ⟨22, _⟩ => ⟨S26x16384x32, .i1⟩
  | .hbm, ⟨23, _⟩ => ⟨S_, .f32⟩
  | .hbm, ⟨24, _⟩ => ⟨S26x16384x32, .f32⟩
  | .hbm, ⟨25, _⟩ => ⟨S26x16384x32, .f32⟩
  | .hbm, ⟨26, _⟩ => ⟨S16384x26x32, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_c_3 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_cst : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  bcast_S_S26x16384x1 : S_.BroadcastsInDim S26x16384x1 (![] : Fin 0 → Fin S26x16384x1.rank)
  bcast_S1_S1x1x1_2 : S1.BroadcastsInDim S1x1x1 (![2] : Fin 1 → Fin S1x1x1.rank)
  bcast_S1x1x1_S26x16384x1_0_1_2 : S1x1x1.BroadcastsInDim S26x16384x1 (![0, 1, 2] : Fin 3 → Fin S26x16384x1.rank)
  reducesTo_S26x16384x1_S26x16384_d2 : S26x16384x1.ReducesTo [2] S26x16384
  h_S_ : 0 < S_.numel
  bcast_S26x16384_S26x16384x32_0_1 : S26x16384.BroadcastsInDim S26x16384x32 (![0, 1] : Fin 2 → Fin S26x16384x32.rank)
  bcast_S_S26x16384x32 : S_.BroadcastsInDim S26x16384x32 (![] : Fin 0 → Fin S26x16384x32.rank)
  transposes_S26x16384x32_S16384x26x32_1_0_2 : S26x16384x32.Transposes [1, 0, 2] S16384x26x32
  gather_S26x100001x32_S26x16384x1_S26x16384x32_2_1_0_0_1_2_1132_wf : GatherDims.WF S26x100001x32 S26x16384x1 S26x16384x32 [2] [1] [0] [1] [0] 2 ![1, 1, 32]

variable [Facts₀]

def gather_S26x100001x32_S26x16384x1_S26x16384x32_2_1_0_0_1_2_1132 : GatherDims S26x100001x32 S26x16384x1 S26x16384x32 where
  offsetDims := [2]
  collapsedSliceDims := [1]
  operandBatchingDims := [0]
  startIndicesBatchingDims := [0]
  startIndexMap := [1]
  indexVectorDim := 2
  sliceSizes := ![1, 1, 32]
  wf := gather_S26x100001x32_S26x16384x1_S26x16384x32_2_1_0_0_1_2_1132_wf

class Facts : Prop extends Facts₀ where

variable [Facts]
-- ==== Proof.Spec.lean ====
/-
  The function both programs compute: an embedding lookup over 26 stacked tables. Entry (b, f, l) of the result is
  entry l of row x[b, f] of table f. The row number is read as a natural number and reduced modulo the number of
  rows only to make the function total; under the range hypothesis the reduction changes nothing.
-/
import Idealize.ShloMosaic.PureOps
import Idealize.ShloMosaic.Lib.ValueIdx

noncomputable section

namespace Cert.Lookup

open Idealize.ShloMosaic Idealize.ShloMosaic.ValueIdx

abbrev SX : Shape := ⟨2, ![16384, 26]⟩
abbrev ST : Shape := ⟨3, ![26, 100001, 32]⟩
abbrev SO : Shape := ⟨3, ![16384, 26, 32]⟩

/-- Every index word names a row that the dataset can draw: below 100000 as an unsigned word. -/
def InRange (x : SX.Idx → BitVec 32) : Prop := ∀ i, (x i).toNat < 100000

/-- The row of table `f` that batch entry `b` selects. -/
def rowOf (x : SX.Idx → BitVec 32) (b : Fin 16384) (f : Fin 26) : Fin 100001 :=
  ⟨(x (ix2 b f)).toNat % 100001, Nat.mod_lt _ (by decide)⟩

theorem rowOf_val {x : SX.Idx → BitVec 32} (h : InRange x) (b : Fin 16384) (f : Fin 26) :
    (rowOf x b f).val = (x (ix2 b f)).toNat :=
  Nat.mod_eq_of_lt (Nat.lt_trans (h _) (by decide))

/-- The looked-up array: out[b, f, l] = tables[f, x[b, f], l]. -/
def G {α : Type} (x : SX.Idx → BitVec 32) (t : ST.Idx → α) : SO.Idx → α :=
  fun i => t (ix3 (i 1) (rowOf x (i 0) (i 1)) (i 2))

theorem G_apply {α : Type} (x : SX.Idx → BitVec 32) (t : ST.Idx → α) (b : Fin 16384) (f : Fin 26) (l : Fin 32) :
    G x t (ix3 b f l) = t (ix3 f (rowOf x b f) l) := rfl

end Cert.Lookup

end
-- ==== Proof.PreDecode.lean ====
/-
  The input precondition, read back. The precondition is the one-bit word
  all(|tables| < +inf) & all((x >= 0) & (x <= 99999)); when it is 1, every index word, read signed, lies in
  [0, 99999], so read unsigned it is below 100000: the range hypothesis of the lookup. The half about the tables'
  finiteness is not used.
-/
import proofs.«204026_g6957847020299_cont_sun_m_599_21_alg».proof.Pre_input_domain
import proofs.«204026_g6957847020299_cont_sun_m_599_21_alg».proof.Proof.Gen.Pre_input_domain
import proofs.«204026_g6957847020299_cont_sun_m_599_21_alg».proof.Proof.Spec
import Idealize.ShloMosaic.Lib.Affine
import Idealize.ShloMosaic.Lib.ReduceAll
import Idealize.ShloMosaic.Lib.ValueIdx

noncomputable section

namespace Cert.Lookup.Pre

open Idealize.ShloMosaic

/-- The rank-0 shape has one index. -/
instance : Subsingleton Cert.Pre_input_domain.S_.Idx := ⟨fun a b => funext fun d => d.elim0⟩

/-- One word: non-negative and at most 99999 as a signed word, it is below 100000 as an unsigned one. -/
theorem toNat_lt_of_cmp (v : BitVec 32)
    (e : IntOp.andi (IntOp.cmpi .sge v 0#32) (IntOp.cmpi .sle v 99999#32) = 1#1) : v.toNat < 100000 := by
  obtain ⟨h0, h1⟩ := IntOp.andi_eq_one.1 e
  rw [IntOp.cmpi_sge, show (0#32 : BitVec 32).toInt = 0 from by decide] at h0
  rw [IntOp.cmpi_sle, show (99999#32 : BitVec 32).toInt = 99999 from by decide] at h1
  rw [BitVec.toInt_eq_toNat_cond] at h0 h1
  split at h0 <;> omega

/-- The precondition gives the lookup's range hypothesis: every index word names one of the rows 0 … 99999. -/
theorem inRange_of_pre {F : FTy → Type} [FloatOps F] [Cert.Pre_input_domain.Facts]
    (x : IVec Cert.Pre_input_domain.S16384x26 32) (t : FVec F Cert.Pre_input_domain.S26x100001x32 .f32)
    (h : Cert.Pre_input_domain.fn (F := F) x t = fun _ => 1#1) : Cert.Lookup.InRange x := by
  intro i
  have e := congrFun h ValueIdx.ix0
  dsimp only [Cert.Pre_input_domain.fn] at e
  have e2 := (IntOp.andi_eq_one.1 e).2
  have e3 := Host.reduce_andi_all _ _ _ _ _ e2 i
  exact toNat_lt_of_cmp _ e3

end Cert.Lookup.Pre

end
-- ==== Proof.RefRun.lean ====
/-
  The reference program: its run and its value.

  With its two calls unfolded, @main is a straight line of twenty-five host operations: the index normalisation (a
  comparison with zero, the addition of the row count, the select between the two), the indices transposed and given a
  trailing unit axis, the in-bounds mask (two comparisons, their conjunction, its reduction over the unit axis), the
  gather, the select between the gathered rows and the fill constant, and the final transpose. `refOut x t` is the
  composed term of those operations over the index array `x` and the tables `t`, stage by stage (`idxN`, `idxT`,
  `mask`, `picked`).

  The value: when every index word is below 100000 the normalisation changes nothing (no index is negative), the mask
  is all ones (every index is between zero and the last row), the gather's clamp changes nothing, and `refOut x t` is
  the lookup `Cert.Lookup.G x t` — entry (b, f, l) is entry l of row x[b, f] of table f (`refOut_eq_G`).

  The run: every weakly fair execution of @main terminates with each buffer at the operations' fold over the launch
  contents (`run_main`); at the result buffer that fold is `refOut` of the two arguments (`out_eq`), at the argument
  buffers what was there. `ref_run` puts the three together.
-/
import proofs.«204026_g6957847020299_cont_sun_m_599_21_alg».proof.ReferenceIdeal
import proofs.«204026_g6957847020299_cont_sun_m_599_21_alg».proof.Proof.Gen.ReferenceIdeal
import proofs.«204026_g6957847020299_cont_sun_m_599_21_alg».proof.Proof.Spec
import Idealize.ShloMosaic.Lib.StableHlo.Run
import Idealize.ShloMosaic.PureOps.Ideal
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Idealize.ShloMosaic Idealize.ShloMosaic.ValueIdx Idealize.ShloMosaic.StableHlo.Predicate
open Cert.ReferenceIdeal.Facts₀
open Cert.Lookup (InRange rowOf G)
open Idealize.ShloMosaic.TcCoe Idealize.SL.Sem Idealize.ShloMosaic.StableHlo

variable {F : FTy → Type} [FloatOps F] [Cert.ReferenceIdeal.Facts]

/-! ## The stages -/

/-- The normalised indices: an index below zero has the row count added. -/
def idxN (x : IVec S16384x26 32) : IVec S16384x26 32 :=
  select (cmpi .slt x (broadcastInDim S16384x26 ![] bcast_S_S16384x26 (constantI S_ 32 0#32)))
    (addi x (broadcastInDim S16384x26 ![] bcast_S_S16384x26 (constantI S_ 32 100001#32))) x

/-- The normalised indices transposed, with a trailing unit axis: the gather's start indices. -/
def idxT (x : IVec S16384x26 32) : IVec S26x16384x1 32 :=
  broadcastInDim S26x16384x1 ![0, 1] bcast_S26x16384_S26x16384x1_0_1
    (transpose S26x16384 [1, 0] (idxN x) transposes_S16384x26_S26x16384_1_0)

/-- The in-bounds mask: every component of the start index between zero and the last row, inclusive. -/
def mask (x : IVec S16384x26 32) : IVec S26x16384 1 :=
  Host.reduce IntOp.andi
    (andi (cmpi .sge (idxT x) (broadcastInDim S26x16384x1 ![] bcast_S_S26x16384x1 (constantI S_ 32 0#32)))
      (cmpi .sle (idxT x) (broadcastInDim S26x16384x1 ![0, 1, 2] bcast_S1x1x1_S26x16384x1_0_1_2
        (broadcastInDim S1x1x1 ![2] bcast_S1_S1x1x1_2 (constantI S1 32 100000#32)))))
    (constantI S_ 1 1#1) reducesTo_S26x16384x1_S26x16384_d2 h_S_

/-- The gathered rows where the mask holds and the fill constant elsewhere, before the final transpose. -/
def picked (x : IVec S16384x26 32) (t : FVec F S26x100001x32 .f32) : FVec F S26x16384x32 .f32 :=
  select (broadcastInDim S26x16384x32 ![0, 1] bcast_S26x16384_S26x16384x32_0_1 (mask x))
    (Host.gather gather_S26x100001x32_S26x16384x1_S26x16384x32_2_1_0_0_1_2_1132 t (idxT x))
    (broadcastInDim S26x16384x32 ![] bcast_S_S26x16384x32 (constant S_ .f32 0x7FC00000#32))

/-- The composed term of the reference's operations: what its result buffer holds as a function of the two arguments. -/
def refOut (x : IVec S16384x26 32) (t : FVec F S26x100001x32 .f32) : FVec F S16384x26x32 .f32 :=
  transpose S16384x26x32 [1, 0, 2] (picked x t) transposes_S26x16384x32_S16384x26x32_1_0_2

/-! ## Words -/

theorem toNat_zero32 : (0#32 : BitVec 32).toNat = 0 := rfl
theorem toNat_lastRow : (100000#32 : BitVec 32).toNat = 100000 := rfl

/-! ## The stages at an index, for indices in range -/

/-- In range, the normalisation changes nothing: no index is below zero. -/
theorem idxN_apply {x : IVec S16384x26 32} (hx : InRange x) (i : S16384x26.Idx) : idxN x i = x i := by
  have hlt : ¬ IntOp.cmpi .slt (x i) 0#32 = 1#1 := fun h => by
    have h' := (slt_iff_toNat (by have := hx i; omega) (by decide)).1 h
    rw [toNat_zero32] at h'
    exact Nat.not_lt_zero _ h'
  show Scalar.select (IntOp.cmpi .slt (x i) 0#32) (IntOp.addi (x i) 100001#32) (x i) = x i
  rw [eq_zero_of_ne_one hlt, select_zero]

/-- The start index at (f, b, 0) is the index word at (b, f). -/
theorem idxT_apply {x : IVec S16384x26 32} (hx : InRange x) (f : Fin 26) (b : Fin 16384) (u : Fin 1) :
    idxT x (ix3 f b u) = x (ix2 b f) := by
  unfold idxT
  refine (broadcastInDim_apply _ _ _ (ix3 f b u) (ix2 f b) (fun a => match a with | ⟨0, _⟩ => rfl | ⟨1, _⟩ => rfl)).trans ?_
  refine (transpose_apply _ _ _ (ix2 f b) (ix2 b f) (fun a => match a with | ⟨0, _⟩ => rfl | ⟨1, _⟩ => rfl)).trans ?_
  exact idxN_apply hx _

/-- A conjunction-reduction of an all-ones array from the bit one is all ones, whatever the axes. -/
theorem reduce_and_ones {s t u : Shape} {axes : List (Fin s.rank)} (y : IVec s 1) (init : IVec u 1) (h : s.ReducesTo axes t)
    (hu : 0 < u.numel) (hy : ∀ i, y i = 1#1) (hi : ∀ k, init k = 1#1) (j : t.Idx) :
    Host.reduce IntOp.andi y init h hu j = 1#1 := by
  unfold Host.reduce
  rw [hi]
  generalize (List.finRange s.numel).filter (fun n => h.drop (s.rowMajor.symm n) = j) = L
  induction L with
  | nil => rfl
  | cons n L ih => rw [List.foldl_cons, hy]; exact ih

/-- In range, the mask is all ones. -/
theorem mask_apply {x : IVec S16384x26 32} (hx : InRange x) (j : S26x16384.Idx) : mask x j = 1#1 := by
  refine reduce_and_ones _ _ _ _ (fun i => ?_) (fun _ => rfl) j
  obtain ⟨f, b, u, rfl⟩ : ∃ f b u, i = ix3 f b u := ⟨_, _, _, eq_ix3 i⟩
  have hi := hx (ix2 b f)
  have hge : IntOp.cmpi .sge (idxT x (ix3 f b u)) 0#32 = 1#1 := by
    rw [idxT_apply hx]; exact (sge_iff_toNat (by omega) (by decide)).2 (by rw [toNat_zero32]; exact Nat.zero_le _)
  have hle : IntOp.cmpi .sle (idxT x (ix3 f b u)) 100000#32 = 1#1 := by
    rw [idxT_apply hx]; exact (sle_iff_toNat (by omega) (by decide)).2 (by rw [toNat_lastRow]; omega)
  show IntOp.andi (IntOp.cmpi .sge (idxT x (ix3 f b u)) 0#32) (IntOp.cmpi .sle (idxT x (ix3 f b u)) 100000#32) = 1#1
  rw [hge, hle]; rfl

/-! ## The gather at an index -/

section Gather
variable {α : Type}

local notation "gD" => gather_S26x100001x32_S26x16384x1_S26x16384x32_2_1_0_0_1_2_1132

/-- THE GATHER READ AT (f, b, l): table `f`, at the row the start index (f, b, 0) names — read signed and clamped to
    the last row —, entry `l`. The table axis is a batching axis (coordinate `f` of the result), the row axis is
    collapsed and takes the start index, the entry axis is the offset axis (coordinate `l`). -/
theorem gather_apply (t : S26x100001x32.Idx → α) (idx : IVec S26x16384x1 32) (f : Fin 26) (b : Fin 16384) (l : Fin 32) :
    Host.gather gD t idx (ix3 f b l)
      = t (ix3 f ⟨min (idx (ix3 f b 0)).toInt.toNat 100000, by omega⟩ l) := by
  have n10 : (1 : Fin 3) ∉ (gD).operandBatchingDims := fun h => absurd (List.mem_singleton.mp h) (by decide)
  have n20 : (2 : Fin 3) ∉ (gD).operandBatchingDims := fun h => absurd (List.mem_singleton.mp h) (by decide)
  have n21 : (2 : Fin 3) ∉ (gD).startIndexMap := fun h => absurd (List.mem_singleton.mp h) (by decide)
  have e0 : (gD).start (ix3 f b l) idx 0 + (gD).batchCoord (ix3 f b l) 0 + (gD).offCoord (ix3 f b l) 0 = f.val := by
    rw [(gD).start_batching _ _ _ (List.mem_singleton.mpr rfl),
      (gD).offCoord_eq_zero _ _ (fun h => (((gD).mem_sKept _).mp h).2 (List.mem_singleton.mpr rfl))]
    simp only [Nat.zero_add, Nat.add_zero]
    rfl
  have e1 : (gD).start (ix3 f b l) idx 1 + (gD).batchCoord (ix3 f b l) 1 + (gD).offCoord (ix3 f b l) 1
      = min (idx (ix3 f b 0)).toInt.toNat 100000 := by
    rw [(gD).batchCoord_eq_zero _ _ n10,
      (gD).offCoord_eq_zero _ _ (fun h => (((gD).mem_sKept _).mp h).1 (List.mem_singleton.mpr rfl))]
    simp only [Nat.add_zero]
    unfold GatherDims.start
    rw [dif_pos (show (1 : Fin 3) ∈ (gD).startIndexMap from List.mem_singleton.mpr rfl)]
    have hsi : (gD).siIdx (ix3 f b l) ⟨List.idxOf (1 : Fin 3) (gD).startIndexMap,
        List.idxOf_lt_length_iff.2 (List.mem_singleton.mpr rfl)⟩ = ix3 f b 0 := by
      funext c; refine Fin.ext ?_
      match c with
      | ⟨0, _⟩ => rfl
      | ⟨1, _⟩ => rfl
      | ⟨2, _⟩ => rfl
    rw [hsi]
    rfl
  have e2 : (gD).start (ix3 f b l) idx 2 + (gD).batchCoord (ix3 f b l) 2 + (gD).offCoord (ix3 f b l) 2 = l.val := by
    have h0 : (gD).start (ix3 f b l) idx 2 = 0 := by
      unfold GatherDims.start; rw [dif_neg n21]
    rw [h0, (gD).batchCoord_eq_zero _ _ n20]
    simp only [Nat.zero_add, Nat.add_zero]
    rfl
  unfold Host.gather
  congr 1
  funext a
  refine Fin.ext ?_
  match a with
  | ⟨0, _⟩ => exact e0
  | ⟨1, _⟩ => exact e1
  | ⟨2, _⟩ => exact e2

end Gather

/-! ## The value -/

/-- For indices in range the reference's composed term is the lookup. -/
theorem refOut_eq_G {x : IVec S16384x26 32} (hx : InRange x) (t : FVec F S26x100001x32 .f32) : refOut x t = G x t := by
  funext i
  obtain ⟨b, f, l, rfl⟩ : ∃ b f l, i = ix3 b f l := ⟨_, _, _, eq_ix3 i⟩
  rw [Cert.Lookup.G_apply]
  unfold refOut
  refine (transpose_apply _ _ _ (ix3 b f l) (ix3 f b l)
    (fun a => match a with | ⟨0, _⟩ => rfl | ⟨1, _⟩ => rfl | ⟨2, _⟩ => rfl)).trans ?_
  unfold picked
  rw [select_apply]
  have hm : broadcastInDim S26x16384x32 ![0, 1] bcast_S26x16384_S26x16384x32_0_1 (mask x) (ix3 f b l) = 1#1 :=
    (broadcastInDim_apply _ _ _ (ix3 f b l) (ix2 f b) (fun a => match a with | ⟨0, _⟩ => rfl | ⟨1, _⟩ => rfl)).trans
      (mask_apply hx _)
  rw [hm, select_one, gather_apply]
  have hi := hx (ix2 b f)
  have hrow : min (idxT x (ix3 f b 0)).toInt.toNat 100000 = (rowOf x b f).val := by
    rw [idxT_apply hx, Cert.Lookup.rowOf_val hx, toInt_eq_toNat_of_lt (by omega), Int.toNat_natCast]
    omega
  exact congrArg t (funext fun a => match a with
    | ⟨0, _⟩ => rfl
    | ⟨1, _⟩ => Fin.ext hrow
    | ⟨2, _⟩ => rfl)

/-! ## The run -/

/-- @main's operations in order, the calls unfolded: the first twenty-four are the lookup function's (the
    seventh the select of the function it calls in turn), the last @main's own transpose. -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg0) main_call0.v0 main_call0.v1 (cmpi .slt),
    TRef.nullary main_call0.c_0 (constantI S_ 32 100001#32),
    TRef.unary main_call0.c_0 main_call0.v2 (broadcastInDim S16384x26 ![] bcast_S_S16384x26),
    TRef.binary (.of main_arg0) main_call0.v2 main_call0.v3 addi,
    TRef.ternary main_call0.v1 main_call0.v3 (.of main_arg0) main_call0.call0.v0 select,
    TRef.unary main_call0.call0.v0 main_call0.v5 (transpose S26x16384 [1, 0] · transposes_S16384x26_S26x16384_1_0),
    TRef.unary main_call0.v5 main_call0.v6 (broadcastInDim S26x16384x1 ![0, 1] bcast_S26x16384_S26x16384x1_0_1),
    TRef.nullary main_call0.c_1 (constantI S1 32 100000#32),
    TRef.nullary main_call0.c_2 (constantI S_ 32 0#32),
    TRef.unary main_call0.c_2 main_call0.v7 (broadcastInDim S26x16384x1 ![] bcast_S_S26x16384x1),
    TRef.binary main_call0.v6 main_call0.v7 main_call0.v8 (cmpi .sge),
    TRef.unary main_call0.c_1 main_call0.v9 (broadcastInDim S1x1x1 ![2] bcast_S1_S1x1x1_2),
    TRef.unary main_call0.v9 main_call0.v10 (broadcastInDim S26x16384x1 ![0, 1, 2] bcast_S1x1x1_S26x16384x1_0_1_2),
    TRef.binary main_call0.v6 main_call0.v10 main_call0.v11 (cmpi .sle),
    TRef.binary main_call0.v8 main_call0.v11 main_call0.v12 andi,
    TRef.nullary main_call0.c_3 (constantI S_ 1 1#1),
    TRef.binary main_call0.v12 main_call0.c_3 main_call0.v13 (fun x v => Host.reduce IntOp.andi x v reducesTo_S26x16384x1_S26x16384_d2 h_S_),
    TRef.binary (.of main_arg1) main_call0.v6 main_call0.v14 (fun x i => Host.gather gather_S26x100001x32_S26x16384x1_S26x16384x32_2_1_0_0_1_2_1132 x i),
    TRef.unary main_call0.v13 main_call0.v15 (broadcastInDim S26x16384x32 ![0, 1] bcast_S26x16384_S26x16384x32_0_1),
    TRef.nullary main_call0.cst (constant S_ .f32 0x7FC00000#32),
    TRef.unary main_call0.cst main_call0.v16 (broadcastInDim S26x16384x32 ![] bcast_S_S26x16384x32),
    TRef.ternary main_call0.v15 main_call0.v14 main_call0.v16 main_call0.v17 select,
    unary main_v0 main_v1 ((transpose S16384x26x32 [1, 0, 2] · transposes_S26x16384x32_S16384x26x32_1_0_2) : (⟨S26x16384x32, .f32⟩ : BufTy).Contents (Elt F) → (⟨S16384x26x32, .f32⟩ : BufTy).Contents (Elt F)) ]

-- twenty-five binds re-associated under the chain
set_option maxRecDepth 1024 in
/-- @main is that straight line: the two functions' definitions unfolded at their calls, both sides are one chain of
    host steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub ..⟩

/-! ## Transport along a buffer's type equation -/

/-- Contents moved to a buffer's own type and back are the contents. -/
theorem cast_cast_self {α β : Type} (h : α = β) (h' : β = α) (a : α) : cast h' (cast h a) = a := by
  subst h; rfl

/-- Transport along an equation of a type with itself is the identity. -/
theorem cast_self {α : Type} (h : α = α) (a : α) : cast h a = a := (cast_eq h a).trans rfl

/-- The fold at the result buffer is the composed term: each operation's result at its own buffer is its function's
    value, at any other buffer what was there. -/
theorem out_eq (V : Valuation τ sig (Elt F)) :
    after ops V (main_v1 : DevRef τ sig) = refOut (V (main_arg0 : DevRef τ sig)) (V (main_arg1 : DevRef τ sig)) := by
  after_results
  simp only [cast_cast_self, cast_self]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- From any memory with zero counters every weakly fair execution of @main terminates, and every buffer of every
    device ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- THE REFERENCE'S RUN AND VALUE: from any memory whose index words are all in range, with zero counters, every weakly
    fair execution of @main terminates with the result buffer at the lookup of the two arguments, and the arguments
    unchanged. -/
theorem ref_run (m : (l : Loc Cert.ReferenceIdeal.nD Cert.ReferenceIdeal.τ Cert.ReferenceIdeal.sig) → Buf (Elt Ideal) l) (g : Dev Cert.ReferenceIdeal.nD → PrngReg)
    (hx : ∀ c : Dev Cert.ReferenceIdeal.nD, Cert.Lookup.InRange (m ((c.tc : Thread nD τ).loc main_arg0))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread nD τ).loc main_v1) = Cert.Lookup.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v1).trans ((out_eq _).trans (refOut_eq_G (hx c) _)),
      (h c main_arg0).trans (arg0_eq _), (h c main_arg1).trans (arg1_eq _)⟩) (run_main m g)

end Cert.ReferenceIdeal.RefValue

end
-- ==== Proof.Same.lean ====
/-
  The idealized kernel is the kernel's own text read at another float instance: the ideal pass rewrote nothing, so the
  two printed programs have the same signature, the same body table and the same threads, definitionally. What is proved
  of one program's run, at any float instance, is therefore proved of the other's.
-/
import proofs.«204026_g6957847020299_cont_sun_m_599_21_alg».proof.Kernel
import proofs.«204026_g6957847020299_cont_sun_m_599_21_alg».proof.KernelIdeal

set_option maxRecDepth 1000000
set_option maxHeartbeats 0

noncomputable section

namespace Cert.Proof.Same

open Idealize.ShloMosaic Idealize.SL.Sem

theorem defs_eq [h1 : Cert.Kernel.Facts] [h2 : Cert.KernelIdeal.Facts] {F : FTy → Type} [FloatOps F] :
    Cert.KernelIdeal.defs (F := F) = Cert.Kernel.defs (F := F) := rfl

theorem threads_eq [h1 : Cert.Kernel.Facts] [h2 : Cert.KernelIdeal.Facts] {F : FTy → Type} [FloatOps F] :
    Cert.KernelIdeal.threads (F := F) = Cert.Kernel.threads (F := F) := rfl

end Cert.Proof.Same

end
-- ==== Proof.Common.lean ====
/-
  Names shared by the tile's run and the launch of the lookup kernel: the program as the launch theorem sees it, the
  resource algebra (the handshakes' rounds beside the transfers' counters), the three arrays as locations of a device,
  the row blocks of the index array and of the result that each vector subcore works on, and what a subcore is handed
  and hands back. Vector subcore s of SparseCore c is worker w = 2 s + c and owns batch rows [512 w, 512 w + 512).
-/
import proofs.«204026_g6957847020299_cont_sun_m_599_21_alg».proof.Kernel
import Idealize.ShloMosaic.Lib.SparseCore.Launch
import Idealize.ShloMosaic.Lib.Pipeline.Kit
import Idealize.ShloMosaic.Lib.Transfers
import proofs.«204026_g6957847020299_cont_sun_m_599_21_alg».proof.Proof.Gen.Kernel
import proofs.«204026_g6957847020299_cont_sun_m_599_21_alg».proof.Proof.Spec

noncomputable section

namespace Cert.Proof.KernelRun

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the row blocks -/

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

theorem hdivX : 32 ∣ S16384x26.size 0 := ⟨512, rfl⟩
theorem hdivO : 32 ∣ S16384x26x32.size 0 := ⟨512, rfl⟩
/-- The 512 rows of the index array that worker w reads, and the 512 rows of the result that it writes. -/
abbrev xRows (w : Fin 32) : Finset S16384x26.Idx := (Rect.part (s := S16384x26) (a₀ := 0) hdivX w).set
abbrev oRows (w : Fin 32) : Finset S16384x26x32.Idx := (Rect.part (s := S16384x26x32) (a₀ := 0) hdivO w).set

/-- The worker number of vector subcore i of SparseCore c. -/
def wid (c : Fin 2) (i : Fin 16) : Fin 32 := ⟨i.val * 2 + c.val, by omega⟩

/-- The looked-up array of device d's arguments. -/
def outG (d : Dev nD) : Buf (Elt F) (oLoc d) := Cert.Lookup.G (m (xLoc d)) (m (tLoc d))

/-- What worker w is handed: its rows of the indices, a read share of the tables, its rows of the result. -/
def tileIn (d : Dev nD) (w : Fin 32) : sProp 𝕄 :=
  iprop((xLoc d ↦[xRows w]{fullShare} m (xLoc d)) ∗ (tLoc d ↦{Transfers.shareTok fullShare 32 w} m (tLoc d)) ∗ (oLoc d ↦[oRows w]{fullShare} m (oLoc d)))
/-- What it hands back: the same, its rows of the result at the looked-up values. -/
def tileOut (d : Dev nD) (w : Fin 32) : sProp 𝕄 :=
  iprop((xLoc d ↦[xRows w]{fullShare} m (xLoc d)) ∗ (tLoc d ↦{Transfers.shareTok fullShare 32 w} m (tLoc d)) ∗ (oLoc d ↦[oRows w]{fullShare} outG m d))

/-- The call's payloads: a SparseCore is handed what its sixteen subcores are handed, and hands back what they do. -/
def P : (K (F := F)).Pay (nD := nD) (Val := Elt F) (Name := ℕ) (U := UU) where
  st := fun q d c => match q with | 0 => bigSep Finset.univ fun i : Fin 16 => tileIn m d (wid (Fin.cast nCore_zero c) i)
  dn := fun q d c => match q with | 0 => bigSep Finset.univ fun i : Fin 16 => tileOut m d (wid (Fin.cast nCore_zero c) i)
  go := fun q d c i => match q with | 0 => tileIn m d (wid (Fin.cast nCore_zero c) (Fin.cast nSub_zero i))
  td := fun q d c i => match q with | 0 => tileOut m d (wid (Fin.cast nCore_zero c) (Fin.cast nSub_zero i))
  x := fun _ _ => iprop(emp)

instance tileIn_storable (d : Dev nD) (w : Fin 32) : BI.Storable (upEmb : UEmb _ 𝕄) (tileIn m d w) := by
  unfold tileIn; infer_instance
instance tileOut_storable (d : Dev nD) (w : Fin 32) : BI.Storable (upEmb : UEmb _ 𝕄) (tileOut m d w) := by
  unfold tileOut; infer_instance

instance P_storable : (P (F := F) m).IsStorable where
  st q d c := match q with
    | 0 => (inferInstance : BI.Storable (upEmb : UEmb _ 𝕄) (bigSep Finset.univ fun i : Fin 16 => tileIn m d (wid (Fin.cast nCore_zero c) i)))
  dn q d c := match q with
    | 0 => (inferInstance : BI.Storable (upEmb : UEmb _ 𝕄) (bigSep Finset.univ fun i : Fin 16 => tileOut m d (wid (Fin.cast nCore_zero c) i)))
  go q d c i := match q with
    | 0 => (inferInstance : BI.Storable (upEmb : UEmb _ 𝕄) (tileIn m d (wid (Fin.cast nCore_zero c) (Fin.cast nSub_zero i))))
  td q d c i := match q with
    | 0 => (inferInstance : BI.Storable (upEmb : UEmb _ 𝕄) (tileOut m d (wid (Fin.cast nCore_zero c) (Fin.cast nSub_zero i))))

end Cert.Proof.KernelRun

end
-- ==== Proof.TileDefs.lean ====
/-
  The vocabulary of one vector subcore's task: its thread and worker number, the scratch of staged index rows and what
  it holds after staging, the pieces of the two gather slots, a table row as the gathers address it, the eight-row
  chunks of the result, and the values that land in them.
-/
import proofs.«204026_g6957847020299_cont_sun_m_599_21_alg».proof.Proof.Common
import proofs.«204026_g6957847020299_cont_sun_m_599_21_alg».proof.Proof.Gen.Kernel.Skeleton
import Idealize.ShloMosaic.Lib.ValueIdx

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-- The whole arrays and the two scratch buffers as a subcore's body addresses them. -/
def xW : Memref sig .scVector .hbm S16384x26 .i32 := Memref.whole main_arg0_scv
def tW : Memref sig .scVector .hbm S26x100001x32 .f32 := Memref.whole main_arg1_scv
def oW : Memref sig .scVector .hbm S16384x26x32 .f32 := Memref.whole main_v0_scv
def sX : Memref sig .scVector .vmem S512x32 .i32 := Memref.whole cc0_scratch0
def sR : Memref sig .scVector .vmem S2x8x26x32 .f32 := Memref.whole cc0_scratch1

abbrev cV (L : grid0.Coords) : Fin τ.nSC := (L 0).castLE hcore0
abbrev jV (L : grid0.Coords) : Fin τ.nSub := (L 1).castLE hsub0
/-- The subcore's thread. -/
abbrev thrL (d : Dev nD) (L : grid0.Coords) : Thread nD τ := V d (cV L) (jV L)

theorem bound0 : grid0.bound 0 = 2 := rfl
theorem bound1 : grid0.bound 1 = 16 := rfl
/-- The worker number 2 s + c of the subcore at grid coordinates (c, s). -/
def widL (L : grid0.Coords) : Fin 32 := ⟨2 * (L 1).val + (L 0).val, by have h0 : (L 0).val < 2 := (L 0).isLt; have h1 : (L 1).val < 16 := (L 1).isLt; omega⟩

/-- Batch row r of worker w, as a row of the index array. -/
def brow (w : Fin 32) (r : Fin 512) : Fin 16384 := ⟨512 * w.val + r.val, by have := w.isLt; have := r.isLt; omega⟩

/-- What the staged scratch holds: columns 0..25 of its row r are batch row r of the worker; columns 26..31 are free. -/
def Staged (x : S16384x26.Idx → BitVec 32) (w : Fin 32) (XV : S512x32.Idx → BitVec 32) : Prop :=
  ∀ (r : Fin 512) (f : Fin 26), XV (ix2 r ⟨f.val, by have := f.isLt; omega⟩) = x (ix2 (brow w r) f)

/-- Piece (b, j, f) of the gather scratch: the 32 words that table f's row for batch row j of a chunk lands in, slot b. -/
theorem pc_inb (b : Fin 2) (j : Fin 8) (f : Fin 26) : ∀ a, (![b.val, j.val, f.val, 0] : Fin 4 → ℕ) a + S1x1x1x32.size a ≤ S2x8x26x32.size a := by
  have := b.isLt; have := j.isLt; have := f.isLt; intro a; fin_cases a
  · show b.val + 1 ≤ 2; omega
  · show j.val + 1 ≤ 8; omega
  · show f.val + 1 ≤ 26; omega
  · show 0 + 32 ≤ 32; omega
def pcMem (b : Fin 2) (j : Fin 8) (f : Fin 26) : Memref sig .scVector .vmem S32 .f32 :=
  ((sR).slice (Rect.unit (s := S2x8x26x32) ![b.val, j.val, f.val, 0] S1x1x1x32.size (pc_inb b j f)) (fun _ => rfl)).squeeze S32 squeezes_S1x1x1x32_S32

/-- Slot b of the gather scratch: eight batch rows of 26 table rows. -/
theorem slot_inb (b : Fin 2) : ∀ a, (![b.val, 0, 0, 0] : Fin 4 → ℕ) a + S1x8x26x32.size a ≤ S2x8x26x32.size a := by
  have := b.isLt; intro a; fin_cases a
  · show b.val + 1 ≤ 2; omega
  · show 0 + 8 ≤ 8; omega
  · show 0 + 26 ≤ 26; omega
  · show 0 + 32 ≤ 32; omega
def slotMem (b : Fin 2) : Memref sig .scVector .vmem S8x26x32 .f32 :=
  ((sR).slice (Rect.unit (s := S2x8x26x32) ![b.val, 0, 0, 0] S1x8x26x32.size (slot_inb b)) (fun _ => rfl)).squeeze S8x26x32 squeezes_S1x8x26x32_S8x26x32

/-- Row number i of table f, as a gather's source. -/
theorem trow_inb (f : Fin 26) (i : Fin 100001) : ∀ a, (![f.val, i.val, 0] : Fin 3 → ℕ) a + S1x1x32.size a ≤ S26x100001x32.size a := by
  have := f.isLt; have := i.isLt; intro a; fin_cases a
  · show f.val + 1 ≤ 26; omega
  · show i.val + 1 ≤ 100001; omega
  · show 0 + 32 ≤ 32; omega
def trowMem (f : Fin 26) (i : Fin 100001) : Memref sig .scVector .hbm S32 .f32 :=
  ((tW).slice (Rect.unit (s := S26x100001x32) ![f.val, i.val, 0] S1x1x32.size (trow_inb f i)) (fun _ => rfl)).squeeze S32 squeezes_S1x1x32_S32

/-- Chunk c (eight batch rows) of worker w's rows of the result. -/
theorem ochunk_inb (w : Fin 32) (c : Fin 64) : ∀ a, (![512 * w.val + 8 * c.val, 0, 0] : Fin 3 → ℕ) a + S8x26x32.size a ≤ S16384x26x32.size a := by
  have := w.isLt; have := c.isLt; intro a; fin_cases a
  · show 512 * w.val + 8 * c.val + 8 ≤ 16384; omega
  · show 0 + 26 ≤ 26; omega
  · show 0 + 32 ≤ 32; omega
def ochunkMem (w : Fin 32) (c : Fin 64) : Memref sig .scVector .hbm S8x26x32 .f32 :=
  (oW).slice (Rect.unit (s := S16384x26x32) ![512 * w.val + 8 * c.val, 0, 0] S8x26x32.size (ochunk_inb w c)) (fun _ => rfl)

/-- The 32 words of row (x word) of table f. -/
def rowVal {α : Type} (t : S26x100001x32.Idx → α) (f : Fin 26) (word : BitVec 32) : S32.Idx → α :=
  fun l => t (ix3 f ⟨word.toNat % 100001, Nat.mod_lt _ (by decide)⟩ (l 0))

/-- The values of chunk c of worker w: entry (j, f, l) is word l of the row of table f that batch row 8 c + j selects. -/
def chunkVal {α : Type} (x : S16384x26.Idx → BitVec 32) (t : S26x100001x32.Idx → α) (w : Fin 32) (c : Fin 64) : S8x26x32.Idx → α :=
  fun i => t (ix3 (i 1) (Cert.Lookup.rowOf x (brow w ⟨8 * c.val + (i 0).val, by have := c.isLt; have h8 : (i 0).val < 8 := (i 0).isLt; omega⟩) (i 1)) (i 2))

end Cert.Proof.KernelRun

end
-- ==== Proof.TileStage.lean ====
/-
  The staging of the index rows by one vector subcore. The body's first two counted loops copy the subcore's 512 rows of the
  index array into columns 0..25 of the 512 rows of its scratch, all on one DMA semaphore: the first loop starts the 512
  copies, the second waits 512 times for one row's amount, and nothing touches the scratch or the rows in between. The 512
  copies are one counted batch on the semaphore's cell: transfer t delivers row t of the scratch with the source row
  written over it, and the source row back; the first loop's invariant holds the batch with the trip's number of
  transfers issued beside the rows not yet lent, the second's holds it with the trip's number of amounts consumed, and
  its last wait hands back every delivery and the cell at zero. The deliveries join to the scratch whole at contents
  that hold the worker's index rows in columns 0..25, and to the worker's rows of the index array as they were.
-/
import proofs.«204026_g6957847020299_cont_sun_m_599_21_alg».proof.Proof.Common
import proofs.«204026_g6957847020299_cont_sun_m_599_21_alg».proof.Proof.TileDefs
import proofs.«204026_g6957847020299_cont_sun_m_599_21_alg».proof.Proof.Gen.Kernel.Skeleton
import Idealize.ShloMosaic.Lib.Batch
import Idealize.ShloMosaic.Lib.Ring
import Idealize.ShloMosaic.Lib.Tactic
import Idealize.ShloMosaic.Lib.Pipeline.Kit

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

namespace Stage

/-! ## The loops' trip counts, the rows as memrefs, the rows' element sets -/

theorem trips1 : k0_t1_loop.trips = 512 := by decide
theorem trips2 : k0_t2_loop.trips = 512 := by decide

/-- Row t of the scratch, columns 0..25, as the first loop's trip t addresses the copy's destination. -/
def dstRow (t : Fin k0_t1_loop.trips) : Memref sig .scVector .vmem S26 .i32 :=
  ((sX).slice (Rect.unit (s := S512x32) (k0_off1 t) S1x26.size (k0_off1_inb t)) (fun _ => rfl)).squeeze S26 squeezes_S1x26_S26
/-- The row of the index array that trip t copies, as the trip addresses the copy's source. -/
def srcRow (L : grid0.Coords) (t : Fin k0_t1_loop.trips) : Memref sig .scVector .hbm S26 .i32 :=
  ((xW).slice (Rect.unit (s := S16384x26) (k0_off2 L t) S1x26.size (k0_off2_inb L t)) (fun _ => rfl)).squeeze S26 squeezes_S1x26_S26

/-- The elements of the scratch under row t's columns 0..25, and of the index array under the row trip t copies. -/
abbrev dstSet (t : Fin k0_t1_loop.trips) : Finset S512x32.Idx := (Rect.unit (s := S512x32) (k0_off1 t) S1x26.size (k0_off1_inb t)).set
abbrev srcSet (L : grid0.Coords) (t : Fin k0_t1_loop.trips) : Finset S16384x26.Idx :=
  (Rect.unit (s := S16384x26) (k0_off2 L t) S1x26.size (k0_off2_inb L t)).set

theorem dstRow_set (t : Fin k0_t1_loop.trips) : (dstRow t).view.set = dstSet t := by
  unfold dstRow sX; exact (View.set_reshape _ _).trans (View.set_slice_whole _ _)
theorem srcRow_set (L : grid0.Coords) (t : Fin k0_t1_loop.trips) : (srcRow L t).view.set = srcSet L t := by
  unfold srcRow xW; exact (View.set_reshape _ _).trans (View.set_slice_whole _ _)

theorem mem_dstSet (t : Fin k0_t1_loop.trips) (i : S512x32.Idx) : i ∈ dstSet t ↔ (i 0).val = t.val ∧ (i 1).val < 26 := by
  unfold dstSet; rw [Rect.mem_set_unit]; simp only [k0_off1_eq]
  have h1 : (i 1).val < 32 := (i 1).isLt
  constructor
  · intro H
    have a0 : t.val ≤ (i 0).val ∧ (i 0).val < t.val + 1 := H 0
    have a1 : 0 ≤ (i 1).val ∧ (i 1).val < 0 + 26 := H 1
    omega
  · intro H a; fin_cases a
    · show t.val ≤ (i 0).val ∧ (i 0).val < t.val + 1; omega
    · show 0 ≤ (i 1).val ∧ (i 1).val < 0 + 26; omega

theorem mem_srcSet (L : grid0.Coords) (t : Fin k0_t1_loop.trips) (i : S16384x26.Idx) :
    i ∈ srcSet L t ↔ (i 0).val = 512 * (widL L).val + t.val := by
  unfold srcSet; rw [Rect.mem_set_unit]; simp only [k0_off2_eq]
  have h1 : (i 1).val < 26 := (i 1).isLt
  have hw : (widL L).val = 2 * (L 1).val + (L 0).val := rfl
  constructor
  · intro H
    have a0 : 1024 * (L 1).val + 512 * (L 0).val + t.val ≤ (i 0).val ∧ (i 0).val < 1024 * (L 1).val + 512 * (L 0).val + t.val + 1 := H 0
    omega
  · intro H a; fin_cases a
    · show 1024 * (L 1).val + 512 * (L 0).val + t.val ≤ (i 0).val ∧ (i 0).val < 1024 * (L 1).val + 512 * (L 0).val + t.val + 1; omega
    · show 0 ≤ (i 1).val ∧ (i 1).val < 0 + 26; omega

theorem dstSet_disjoint (t t' : Fin k0_t1_loop.trips) (h : t ≠ t') : Disjoint (dstSet t) (dstSet t') := by
  rw [Finset.disjoint_left]; intro i hi hi'; rw [mem_dstSet] at hi hi'; exact h (Fin.ext (by omega))
theorem srcSet_disjoint (L : grid0.Coords) (t t' : Fin k0_t1_loop.trips) (h : t ≠ t') : Disjoint (srcSet L t) (srcSet L t') := by
  rw [Finset.disjoint_left]; intro i hi hi'; rw [mem_srcSet] at hi hi'; exact h (Fin.ext (by omega))

theorem mem_xRows (w : Fin 32) (i : S16384x26.Idx) : i ∈ xRows w ↔ 512 * w.val ≤ (i 0).val ∧ (i 0).val < 512 * w.val + 512 := by
  unfold xRows; rw [Rect.mem_set_unit]
  have h1 : (i 1).val < 26 := (i 1).isLt
  constructor
  · intro H
    have a0 : w.val * 512 ≤ (i 0).val ∧ (i 0).val < w.val * 512 + 512 := H 0
    omega
  · intro H a; fin_cases a
    · show w.val * 512 ≤ (i 0).val ∧ (i 0).val < w.val * 512 + 512; omega
    · show 0 * 26 ≤ (i 1).val ∧ (i 1).val < 0 * 26 + 26; omega

/-- The worker's rows of the index array are the 512 rows the trips copy. -/
theorem xRows_cover (L : grid0.Coords) : xRows (widL L) = Finset.univ.biUnion (srcSet L) := by
  ext i
  rw [mem_xRows, Finset.mem_biUnion]
  constructor
  · intro H
    exact ⟨⟨(i 0).val - 512 * (widL L).val, by rw [trips1]; omega⟩, Finset.mem_univ _, (mem_srcSet L _ i).mpr (by show (i 0).val = 512 * (widL L).val + ((i 0).val - 512 * (widL L).val); omega)⟩
  · rintro ⟨t, -, ht⟩
    rw [mem_srcSet] at ht
    have ht1 := trips1; have := t.isLt
    omega

/-! ## The batch: what each copy delivers -/

variable [FloatOps F]
variable (m : (ℓ : Loc nD τ sig) → Buf (Elt F) ℓ)
variable (d : Dev nD) (L : grid0.Coords)

/-- One row's amount on the semaphore. -/
abbrev NN : ℕ := 832

/-- The index array's contents as the contents of the location row t's memref addresses, and the scratch's likewise. -/
def srcAt (t : Fin k0_t1_loop.trips) : Buf (Elt F) ((srcRow L t).view.loc (thrL d L)) := m (xLoc d)
def dstAt (fx : Buf (Elt F) ((sX).view.loc (thrL d L))) (t : Fin k0_t1_loop.trips) : Buf (Elt F) ((dstRow t).view.loc (thrL d L)) := fx

/-- The scratch once copy t has landed: the source row written over columns 0..25 of row t. -/
def landed (fx : Buf (Elt F) ((sX).view.loc (thrL d L))) (t : Fin k0_t1_loop.trips) : Buf (Elt F) ((dstRow t).view.loc (thrL d L)) :=
  (dstRow t).view.writes (Elt F) (dstAt d L fx t) [⟨Rect.whole S26, ReadAs.same.apply ((srcRow L t).view.read (Elt F) (srcAt m d L t))⟩]

/-- Row t of the scratch held by its own elements, before its copy; the source row of copy t held by its own. -/
def dstP (fx : Buf (Elt F) ((sX).view.loc (thrL d L))) (t : Fin k0_t1_loop.trips) : sProp 𝕄 :=
  (dstRow t).view.loc (thrL d L) ↦[(dstRow t).view.set]{fullShare} dstAt d L fx t
def srcP (t : Fin k0_t1_loop.trips) : sProp 𝕄 :=
  (srcRow L t).view.loc (thrL d L) ↦[(srcRow L t).view.set]{fullShare} srcAt m d L t

/-- Copy t delivers row t of the scratch with the source row written over it, and the source row back. -/
def dlv (fx : Buf (Elt F) ((sX).view.loc (thrL d L))) (t : Fin k0_t1_loop.trips) : sProp 𝕄 :=
  iprop(((dstRow t).view.loc (thrL d L) ↦[(dstRow t).view.set]{fullShare} landed m d L fx t)
    ∗ ((srcRow L t).view.loc (thrL d L) ↦[(srcRow L t).view.set]{fullShare} srcAt m d L t))

instance dlv_storable (fx : Buf (Elt F) ((sX).view.loc (thrL d L))) (t : Fin k0_t1_loop.trips) :
    BI.Storable (upEmb : UEmb _ 𝕄) (dlv (F := F) m d L fx t) := by
  unfold dlv; infer_instance

/-- The batch on the staging semaphore's cell: 512 copies of one row's amount, j issued, u units consumed. -/
abbrev batch (fx : Buf (Elt F) ((sX).view.loc (thrL d L))) (j u : ℕ) : sProp 𝕄 :=
  Transfers.Batch (countersEmb (U := UU)) (thrL d L) (.dma cc0_scratch2.sem) (none : HIx 1) NN (dlv (F := F) m d L fx) j u

/-! ## The first loop: the copies started -/

/-- Before trip k: k copies started, none waited for; the rows of the scratch and of the index array from k on in hand. -/
def issueAt (fx : Buf (Elt F) ((sX).view.loc (thrL d L))) (k : ℕ) (_ : Unit) : sProp 𝕄 :=
  iprop(batch m d L fx k 0
    ∗ bigSep (Ring.rangeSet k0_t1_loop.trips k k0_t1_loop.trips) (dstP (F := F) d L fx)
    ∗ bigSep (Ring.rangeSet k0_t1_loop.trips k k0_t1_loop.trips) (srcP (F := F) m d L))

/-- The first loop's region at trip k, on the body's operands. -/
abbrev issueBody (k : Fin k0_t1_loop.trips) (u : Unit) : Prog (TpuEff nD τ sig (Elt F) Λ₀ (.scVector ((L 0).castLE hcore0) ((L 1).castLE hsub0))) Unit :=
  k0_t1_body L xW (Memref.isWhole_whole _) tW (Memref.isWhole_whole _) oW (Memref.isWhole_whole _)
    sX (Memref.isWhole_whole _) sR (Memref.isWhole_whole _) cc0_scratch2 cc0_scratch3 cc0_scratch4 cc0_scratch5 cc0_scratch6 k u

/-- One trip: row k of each array taken off its range's head, copy k started as the batch's transfer number k. -/
theorem issue_step [∀ e, Nonempty (Elt F e)] (fx : Buf (Elt F) ((sX).view.loc (thrL d L))) (k : Fin k0_t1_loop.trips) (acc : Unit) :
    issueAt m d L fx k acc ⊢ wp frame (wpE (defs₀ (F := F)) 𝒱₀ (thrL d L) none) Set.univ (issueBody (F := F) L k acc)
      (issueAt m d L fx (k.val + 1)) := by
  have hk := k.isLt
  unfold issueAt
  rw [Ring.bigSep_rangeSet_head (Φ := dstP (F := F) d L fx) hk hk, Ring.bigSep_rangeSet_head (Φ := srcP (F := F) m d L) hk hk]
  unfold dstP srcP
  iintro ⟨HB, ⟨Hd, Hds⟩, ⟨Hs, Hss⟩⟩
  sl_unfold [issueBody, k0_t1_body]
  sl_exec
  sl_step
  isplitl [HB]; · iexact HB
  isplitl [Hds]; · iexact Hds
  iexact Hss

/-! ## The second loop: the copies waited for -/

/-- Before trip k: the subcore's waits so far recorded at the kernel's index beyond W; and either (before the last trip)
    the batch with k amounts consumed, or (after it) the cell at zero and every delivery. -/
def drainAt (O : CellTallies nD τ sig (HIx 1)) (W : Waits sig (HIx 1)) (fx : Buf (Elt F) ((sX).view.loc (thrL d L))) (k : ℕ) (_ : Unit) : sProp 𝕄 :=
  iprop(⌜k ≤ k0_t2_loop.trips⌝ ∗ Transfers.MayWaits (thrL d L) (none : HIx 1) O
    ∗ (∃ W', ⌜∀ p ∈ W', p ∈ W ∨ p.2 = none⌝ ∗ owes (thrL d L) O W')
    ∗ (if k < k0_t2_loop.trips then batch m d L fx k0_t1_loop.trips (k * NN)
       else iprop(semVal (thrL d L, SemLoc.dma cc0_scratch2.sem) 0 ∗ bigSep Finset.univ (dlv (F := F) m d L fx))))

/-- The second loop's region at trip k, on the body's operands. -/
abbrev drainBody (k : Fin k0_t2_loop.trips) (u : Unit) : Prog (TpuEff nD τ sig (Elt F) Λ₀ (.scVector ((L 0).castLE hcore0) ((L 1).castLE hsub0))) Unit :=
  k0_t2_body L xW (Memref.isWhole_whole _) tW (Memref.isWhole_whole _) oW (Memref.isWhole_whole _)
    sX (Memref.isWhole_whole _) sR (Memref.isWhole_whole _) cc0_scratch2 cc0_scratch3 cc0_scratch4 cc0_scratch5 cc0_scratch6 k u

/-- One trip, by cases: short of the last the wait consumes one amount and learns nothing; the last hands back the cell
    at zero and every delivery. -/
theorem drain_step [∀ e, Nonempty (Elt F e)] (O : CellTallies nD τ sig (HIx 1)) (W : Waits sig (HIx 1)) (fx : Buf (Elt F) ((sX).view.loc (thrL d L)))
    (k : Fin k0_t2_loop.trips) (acc : Unit) :
    drainAt m d L O W fx k acc ⊢ wp frame (wpE (defs₀ (F := F)) 𝒱₀ (thrL d L) none) Set.univ (drainBody (F := F) L k acc)
      (drainAt m d L O W fx (k.val + 1)) := by
  have hk : k.val < k0_t2_loop.trips := k.isLt
  have ht1 := trips1
  have ht2 := trips2
  unfold drainAt
  simp only [if_pos hk]
  rcases Nat.lt_or_ge (k.val + 1) k0_t2_loop.trips with h1 | h1
  · simp only [if_pos h1]
    iintro ⟨-, #Hmw, ⟨%W', %hW', HO⟩, HB⟩
    sl_unfold [drainBody, k0_t2_body]
    sl_exec
    sl_step
    isplitr; · ipureintro; omega
    isplitr; · iexact Hmw
    isplitl [HO]
    · iexists (insert (SemLoc.dma cc0_scratch2.sem, (none : HIx 1)) W'); isplitr
      · ipureintro; intro p hp
        rcases Finset.mem_insert.mp hp with hp | hp
        · exact .inr (by rw [hp])
        · exact hW' p hp
      · iexact HO
    rw [show (k.val + 1) * NN = k.val * NN + NN from Nat.succ_mul _ _]
    iexact HB
  · simp only [if_neg (Nat.not_lt.mpr h1)]
    iintro ⟨-, #Hmw, ⟨%W', %hW', HO⟩, HB⟩
    sl_unfold [drainBody, k0_t2_body]
    sl_exec
    sl_step
    isplitr; · ipureintro; omega
    isplitr; · iexact Hmw
    isplitl [HO]
    · iexists (insert (SemLoc.dma cc0_scratch2.sem, (none : HIx 1)) W'); isplitr
      · ipureintro; intro p hp
        rcases Finset.mem_insert.mp hp with hp | hp
        · exact .inr (by rw [hp])
        · exact hW' p hp
      · iexact HO
    isplitl [HB]; · iexact HB
    iexact HB_all

/-! ## The arrays as rows, and back -/

omit [FloatOps F] in
theorem srcP_eq (t : Fin k0_t1_loop.trips) : srcP (F := F) m d L t = (xLoc d ↦[srcSet L t]{fullShare} m (xLoc d) : sProp 𝕄) := by
  unfold srcP srcAt; rw [srcRow_set]; rfl
omit [FloatOps F] in
theorem dstP_eq (fx : Buf (Elt F) ((sX).view.loc (thrL d L))) (t : Fin k0_t1_loop.trips) :
    dstP (F := F) d L fx t = ((sX).view.loc (thrL d L) ↦[dstSet t]{fullShare} fx : sProp 𝕄) := by
  unfold dstP dstAt; rw [dstRow_set]; rfl

omit [FloatOps F] in
/-- The worker's rows of the index array are the 512 source rows, each held by its own elements. -/
theorem src_rows : (xLoc d ↦[xRows (widL L)]{fullShare} m (xLoc d) : sProp 𝕄) = bigSep Finset.univ (srcP (F := F) m d L) := by
  have h1 := pointsTo_biUnion (Val := Elt F) (Ix := HIx 1) (Name := ℕ) (U := UU) (Lvl := ℕ) (ℓ := xLoc d) (q := fullShare) (f := m (xLoc d)) Finset.univ (srcSet L)
    (fun t _ t' _ h => srcSet_disjoint L t t' h)
  rw [xRows_cover]
  exact h1.trans (bigSep_congr fun t _ => (srcP_eq m d L t).symm)

/-- The scratch's columns 0..25: the 512 destination rows together. -/
abbrev dstAll : Finset S512x32.Idx := Finset.univ.biUnion dstSet

omit [FloatOps F] in
/-- The scratch whole is its 512 destination rows and the rest (columns 26..31), at any one contents. -/
theorem dst_rows (fx : Buf (Elt F) ((sX).view.loc (thrL d L))) :
    ((sX).view.loc (thrL d L) ↦{fullShare} fx : sProp 𝕄)
      ⊣⊢ iprop(bigSep Finset.univ (fun t => ((sX).view.loc (thrL d L) ↦[dstSet t]{fullShare} fx : sProp 𝕄))
          ∗ ((sX).view.loc (thrL d L) ↦[Finset.univ \ dstAll]{fullShare} fx)) := by
  have h1 := pointsTo_biUnion (Val := Elt F) (Ix := HIx 1) (Name := ℕ) (U := UU) (Lvl := ℕ) (ℓ := (sX).view.loc (thrL d L)) (q := fullShare) (f := fx) Finset.univ dstSet
    (fun t _ t' _ h => dstSet_disjoint t t' h)
  have h2 := pointsTo_split_subset (Val := Elt F) (Ix := HIx 1) (Name := ℕ) (U := UU) (Lvl := ℕ) (ℓ := (sX).view.loc (thrL d L)) (q := fullShare) (f := fx)
    (I := dstAll) (S := Finset.univ) (Finset.subset_univ _)
  rw [← h1]
  exact h2

/-! ## What the scratch holds afterwards -/

/-- The scratch after staging: columns 0..25 of row r hold batch row r of the worker, columns 26..31 what they held. -/
def stagedXV (x : S16384x26.Idx → BitVec 32) (w : Fin 32) (fx : S512x32.Idx → BitVec 32) : S512x32.Idx → BitVec 32 :=
  fun i => if h : (i 1).val < 26 then x (ix2 (brow w (i 0)) ⟨(i 1).val, h⟩) else fx i

theorem staged_stagedXV (x : S16384x26.Idx → BitVec 32) (w : Fin 32) (fx : S512x32.Idx → BitVec 32) : Staged x w (stagedXV x w fx) := by
  intro r f
  have hf : f.val < 26 := f.isLt
  unfold stagedXV
  rw [dif_pos (show ((ix2 r (⟨f.val, by omega⟩ : Fin 32) : S512x32.Idx) 1).val < 26 from hf)]

theorem stagedXV_rest (x : S16384x26.Idx → BitVec 32) (w : Fin 32) (fx : S512x32.Idx → BitVec 32) (i : S512x32.Idx) (hi : i ∈ Finset.univ \ dstAll) :
    stagedXV x w fx i = fx i := by
  have hn : ¬ (i 1).val < 26 := by
    intro h
    have h0 : (i 0).val < 512 := (i 0).isLt
    exact (Finset.mem_sdiff.mp hi).2 (Finset.mem_biUnion.mpr ⟨⟨(i 0).val, by rw [trips1]; exact h0⟩, Finset.mem_univ _, (mem_dstSet _ i).mpr ⟨rfl, h⟩⟩)
  unfold stagedXV; rw [dif_neg hn]

theorem stagedXV_ix2 (x : S16384x26.Idx → BitVec 32) (w : Fin 32) (fx : S512x32.Idx → BitVec 32) (r : Fin 512) (c : Fin 32) (hc : c.val < 26) :
    stagedXV x w fx (ix2 r c) = x (ix2 (brow w r) ⟨c.val, hc⟩) := by
  unfold stagedXV
  exact dif_pos (c := ((ix2 r c : S512x32.Idx) 1).val < 26) hc

theorem lt512 (t : Fin k0_t1_loop.trips) : t.val < 512 := Nat.lt_of_lt_of_eq t.isLt trips1

/-- Where row t's memrefs place their own index z: column z of row t of the scratch, and of the worker's batch row t. -/
theorem dstRow_emb (t : Fin k0_t1_loop.trips) (z : S26.Idx) :
    (dstRow t).view.emb z = (ix2 (⟨t.val, lt512 t⟩ : Fin 512) (⟨(z 0).val, by have : (z 0).val < 26 := (z 0).isLt; omega⟩ : Fin 32) : S512x32.Idx) := by
  have hy : Shape.reshapeEquiv (s := S1x26) (s' := S26) squeezes_S1x26_S26.numel_eq z = Fin.cons ⟨0, Nat.one_pos⟩ z :=
    Shape.reshapeEquiv_cons_one (d := ![26]) _ z
  have hz : (dstRow t).view.emb z = (Rect.unit (s := S512x32) (k0_off1 t) S1x26.size (k0_off1_inb t)).emb (Fin.cons ⟨0, Nat.one_pos⟩ z) := by
    show (Rect.unit (s := S512x32) (k0_off1 t) S1x26.size (k0_off1_inb t)).emb (Shape.reshapeEquiv (s := S1x26) (s' := S26) squeezes_S1x26_S26.numel_eq z) = _
    rw [hy]
  rw [hz]
  have ho := k0_off1_eq t
  refine funext fun (a : Fin 2) => Fin.ext ?_
  fin_cases a
  · show k0_off1 t 0 + 1 * 0 = t.val
    rw [ho]; show t.val + 1 * 0 = t.val; omega
  · show k0_off1 t 1 + 1 * (z 0).val = (z 0).val
    rw [ho]; show 0 + 1 * (z 0).val = (z 0).val; omega

theorem srcRow_emb (L : grid0.Coords) (t : Fin k0_t1_loop.trips) (z : S26.Idx) :
    (srcRow L t).view.emb z = (ix2 (brow (widL L) ⟨t.val, lt512 t⟩) (z 0) : S16384x26.Idx) := by
  have hy : Shape.reshapeEquiv (s := S1x26) (s' := S26) squeezes_S1x26_S26.numel_eq z = Fin.cons ⟨0, Nat.one_pos⟩ z :=
    Shape.reshapeEquiv_cons_one (d := ![26]) _ z
  have hz : (srcRow L t).view.emb z = (Rect.unit (s := S16384x26) (k0_off2 L t) S1x26.size (k0_off2_inb L t)).emb (Fin.cons ⟨0, Nat.one_pos⟩ z) := by
    show (Rect.unit (s := S16384x26) (k0_off2 L t) S1x26.size (k0_off2_inb L t)).emb (Shape.reshapeEquiv (s := S1x26) (s' := S26) squeezes_S1x26_S26.numel_eq z) = _
    rw [hy]
  rw [hz]
  have ho := k0_off2_eq L t
  refine funext fun (a : Fin 2) => Fin.ext ?_
  fin_cases a
  · show k0_off2 L t 0 + 1 * 0 = 512 * (2 * (L 1).val + (L 0).val) + t.val
    rw [ho]; show 1024 * (L 1).val + 512 * (L 0).val + t.val + 1 * 0 = _; omega
  · show k0_off2 L t 1 + 1 * (z 0).val = (z 0).val
    rw [ho]; show 0 + 1 * (z 0).val = (z 0).val; omega

/-- On row t's elements the landed contents are the staged contents. -/
theorem landed_apply (fx : Buf (Elt F) ((sX).view.loc (thrL d L))) (t : Fin k0_t1_loop.trips) (i : S512x32.Idx) (hi : i ∈ dstSet t) :
    landed m d L fx t i = stagedXV (m (xLoc d)) (widL L) fx i := by
  have hi' : i ∈ (dstRow t).view.set := by rw [dstRow_set]; exact hi
  obtain ⟨z, -, rfl⟩ := Finset.mem_map.mp hi'
  have hz : (z 0).val < 26 := (z 0).isLt
  unfold landed
  rw [← View.write_univ_eq_writes_whole, View.writes_nil]
  refine (View.write_emb_of_mem (v := (dstRow t).view) (Val := Elt F) (dstAt d L fx t) _ (Finset.mem_univ z)).trans ?_
  refine Eq.trans ?_ (congrArg (stagedXV (m (xLoc d)) (widL L) fx) (dstRow_emb t z)).symm
  refine Eq.trans ?_ (stagedXV_ix2 (m (xLoc d)) (widL L) fx ⟨t.val, lt512 t⟩ ⟨(z 0).val, by omega⟩ hz).symm
  show srcAt m d L t ((srcRow L t).view.emb z) = _
  rw [srcRow_emb]
  rfl

/-- The staged contents, as contents of the scratch's location. -/
def stagedBuf (fx : Buf (Elt F) ((sX).view.loc (thrL d L))) : Buf (Elt F) ((sX).view.loc (thrL d L)) := stagedXV (m (xLoc d)) (widL L) fx

/-- Every delivery together: columns 0..25 of the scratch at the staged contents, and the 512 source rows as they were. -/
theorem dlv_all (fx : Buf (Elt F) ((sX).view.loc (thrL d L))) :
    (bigSep Finset.univ (dlv (F := F) m d L fx) : sProp 𝕄)
      = iprop(((sX).view.loc (thrL d L) ↦[dstAll]{fullShare} stagedBuf m d L fx) ∗ bigSep Finset.univ (srcP (F := F) m d L)) := by
  have h1 := pointsTo_biUnion (Val := Elt F) (Ix := HIx 1) (Name := ℕ) (U := UU) (Lvl := ℕ) (ℓ := (sX).view.loc (thrL d L)) (q := fullShare)
    (f := stagedBuf m d L fx) Finset.univ dstSet (fun t _ t' _ h => dstSet_disjoint t t' h)
  refine ((bigSep_congr fun t _ => ?_).trans (BI.bigSep_sep Finset.univ
      (fun t => ((sX).view.loc (thrL d L) ↦[dstSet t]{fullShare} stagedBuf m d L fx : sProp 𝕄)) (srcP (F := F) m d L))).trans
    (congrArg (fun P : sProp 𝕄 => iprop(P ∗ bigSep Finset.univ (srcP (F := F) m d L))) h1.symm)
  have h : ((dstRow t).view.loc (thrL d L) ↦[(dstRow t).view.set]{fullShare} landed m d L fx t : sProp 𝕄)
      = ((sX).view.loc (thrL d L) ↦[dstSet t]{fullShare} stagedBuf m d L fx) := by
    rw [dstRow_set]
    exact pointsTo_congr (ℓ := (sX).view.loc (thrL d L)) (fun i hi => landed_apply m d L fx t i hi)
  unfold dlv srcP
  rw [h]
  rfl

/-- The scratch's rest, at the staged contents (which keep columns 26..31). -/
theorem rest_staged (fx : Buf (Elt F) ((sX).view.loc (thrL d L))) :
    ((sX).view.loc (thrL d L) ↦[Finset.univ \ dstAll]{fullShare} fx : sProp 𝕄)
      = ((sX).view.loc (thrL d L) ↦[Finset.univ \ dstAll]{fullShare} stagedBuf m d L fx) :=
  pointsTo_congr (ℓ := (sX).view.loc (thrL d L)) (fun i hi => (stagedXV_rest (m (xLoc d)) (widL L) fx i hi).symm)

/-- The scratch whole at the staged contents, from its columns 0..25 and its rest there. -/
theorem staged_whole (fx : Buf (Elt F) ((sX).view.loc (thrL d L))) :
    iprop(((sX).view.loc (thrL d L) ↦[dstAll]{fullShare} stagedBuf m d L fx) ∗ ((sX).view.loc (thrL d L) ↦[Finset.univ \ dstAll]{fullShare} stagedBuf m d L fx))
      ⊢ ((sX).view.loc (thrL d L) ↦{fullShare} stagedBuf m d L fx : sProp 𝕄) :=
  (pointsTo_split_subset (Val := Elt F) (Ix := HIx 1) (Name := ℕ) (U := UU) (Lvl := ℕ) (ℓ := (sX).view.loc (thrL d L)) (q := fullShare)
    (f := stagedBuf m d L fx) (I := dstAll) (S := Finset.univ) (Finset.subset_univ _)).2

end Stage

open Stage

variable [FloatOps F]
variable (m : (ℓ : Loc nD τ sig) → Buf (Elt F) ℓ)

/-- THE STAGING, at the head of a subcore's body: from the worker's rows of the index array, the scratch whole at any
    contents, the staging semaphore's cell at zero and what the subcore owes, the two loops run to the same with the
    scratch at contents that hold the worker's index rows in columns 0..25, the waits recorded at the kernel's index. -/
theorem stage_x [∀ e, Nonempty (Elt F e)] (d : Dev nD) (L : grid0.Coords) (O : CellTallies nD τ sig (HIx 1)) (W : Waits sig (HIx 1))
    (fx : Buf (Elt F) ((sX).view.loc (thrL d L)))
    {α : Type} (k : Unit → Prog (TpuEff nD τ sig (Elt F) Λ₀ (.scVector ((L 0).castLE hcore0) ((L 1).castLE hsub0))) α) (Q : α → sProp 𝕄) :
    iprop(Transfers.MayWaits (thrL d L) (none : HIx 1) O ∗ (xLoc d ↦[xRows (widL L)]{fullShare} m (xLoc d)) ∗ ((sX).view.loc (thrL d L) ↦{fullShare} fx)
        ∗ semVal (thrL d L, SemLoc.dma cc0_scratch2.sem) 0 ∗ owes (thrL d L) O W
        ∗ (∀ (XV : Buf (Elt F) ((sX).view.loc (thrL d L))) (W' : Waits sig (HIx 1)), ⌜Staged (m (xLoc d)) (widL L) XV⌝ ∗ ⌜∀ p ∈ W', p ∈ W ∨ p.2 = none⌝
              ∗ Transfers.MayWaits (thrL d L) (none : HIx 1) O ∗ (xLoc d ↦[xRows (widL L)]{fullShare} m (xLoc d)) ∗ ((sX).view.loc (thrL d L) ↦{fullShare} XV)
              ∗ semVal (thrL d L, SemLoc.dma cc0_scratch2.sem) 0 ∗ owes (thrL d L) O W'
            -∗ wp frame (wpE (defs₀ (F := F)) 𝒱₀ (thrL d L) none) Set.univ (k ()) Q))
      ⊢ wp frame (wpE (defs₀ (F := F)) 𝒱₀ (thrL d L) none) Set.univ
          ((Scf.Loop.for k0_t1_loop k0_t1_ok ⟨⟩ (k0_t1_body L xW (Memref.isWhole_whole _) tW (Memref.isWhole_whole _) oW (Memref.isWhole_whole _)
              sX (Memref.isWhole_whole _) sR (Memref.isWhole_whole _) cc0_scratch2 cc0_scratch3 cc0_scratch4 cc0_scratch5 cc0_scratch6)) >>= fun _ =>
           (Scf.Loop.for k0_t2_loop k0_t2_ok ⟨⟩ (k0_t2_body L xW (Memref.isWhole_whole _) tW (Memref.isWhole_whole _) oW (Memref.isWhole_whole _)
              sX (Memref.isWhole_whole _) sR (Memref.isWhole_whole _) cc0_scratch2 cc0_scratch3 cc0_scratch4 cc0_scratch5 cc0_scratch6)) >>= k) Q := by
  have ht1 := trips1
  have ht2 := trips2
  iintro ⟨#Hmw, Hx, Hxv, Hsem, HO, Hk⟩
  -- the worker's rows of the index array as the 512 source rows; the scratch as its 512 destination rows and the rest
  ihave Hsrc := (Entails.of_eq (src_rows (F := F) m d L)) $$ Hx
  ihave Hxv' := (dst_rows (F := F) d L fx).1 $$ Hxv
  icases Hxv' with ⟨Hdst, Hrest⟩
  -- the batch allocated, its deliveries stated
  imod (Transfers.batch_alloc' (Lvl := ℕ) (countersEmb (U := UU)) (thrL d L) (none : HIx 1) NN (dlv (F := F) m d L fx)
    (sm := .dma cc0_scratch2.sem) (E := Set.univ)) $$ Hsem with HB
  -- the first loop
  sl_for (issueAt m d L fx) $$ [HB Hdst Hsrc]
  · intro k acc; exact issue_step m d L fx k acc
  · unfold issueAt
    rw [Ring.rangeSet_univ]
    isplitl [HB]; · iexact HB
    isplitl [Hdst]
    · iapply (Entails.of_eq (bigSep_congr fun t _ => (dstP_eq (F := F) d L fx t).symm)); iexact Hdst
    · iexact Hsrc
  iintro %acc HI
  ihave HB := (show issueAt m d L fx k0_t1_loop.trips acc ⊢ batch m d L fx k0_t1_loop.trips 0 from by
      unfold issueAt; iintro ⟨HB, -, -⟩; iexact HB) $$ HI
  -- the second loop
  sl_for (drainAt m d L O W fx) $$ [HB HO]
  · intro k acc; exact drain_step m d L O W fx k acc
  · unfold drainAt
    rw [if_pos (show 0 < k0_t2_loop.trips by omega)]
    isplitr; · ipureintro; omega
    isplitr; · iexact Hmw
    isplitl [HO]
    · iexists W; isplitr
      · ipureintro; exact fun p hp => .inl hp
      · iexact HO
    rw [Nat.zero_mul]; iexact HB
  iintro %acc2 HL
  ihave HL' := (show drainAt m d L O W fx k0_t2_loop.trips acc2
      ⊢ iprop((∃ W', ⌜∀ p ∈ W', p ∈ W ∨ p.2 = none⌝ ∗ owes (thrL d L) O W') ∗ semVal (thrL d L, SemLoc.dma cc0_scratch2.sem) 0
          ∗ bigSep Finset.univ (dlv (F := F) m d L fx)) from by
      unfold drainAt; rw [if_neg (Nat.lt_irrefl _)]; iintro ⟨-, -, HO, Hc, Hall⟩
      isplitl [HO]; · iexact HO
      isplitl [Hc] <;> iassumption) $$ HL
  icases HL' with ⟨⟨%W', %hW', HO⟩, Hsem, Hall⟩
  -- every delivery: the scratch's columns 0..25 staged, the source rows as they were; the arrays whole again
  ihave Hall' := (Entails.of_eq (dlv_all m d L fx)) $$ Hall
  icases Hall' with ⟨Hdst, Hsrc⟩
  ihave Hrest' := (Entails.of_eq (rest_staged m d L fx)) $$ Hrest
  ihave Hxv := (staged_whole m d L fx) $$ [Hdst Hrest']
  · isplitl [Hdst] <;> iassumption
  ihave Hx := (Entails.of_eq (src_rows (F := F) m d L).symm) $$ Hsrc
  obtain ⟨XVv, hXV⟩ : ∃ v : Buf (Elt F) ((sX).view.loc (thrL d L)), v = stagedBuf m d L fx := ⟨_, rfl⟩
  have hst : Staged (m (xLoc d)) (widL L) XVv := hXV ▸ staged_stagedXV (m (xLoc d)) (widL L) fx
  rw [← hXV]
  ispecialize Hk $$ %XVv %W'
  iapply Hk
  isplitr; · ipureintro; exact hst
  isplitr; · ipureintro; exact hW'
  isplitr; · iexact Hmw
  isplitl [Hx]; · iexact Hx
  isplitl [Hxv]; · iexact Hxv
  isplitl [Hsem]; · iexact Hsem
  iexact HO

end Cert.Proof.KernelRun

end
-- ==== Proof.TileInv.lean ====
/-
  Canonical descriptions of what a vector subcore holds between the steps of its task: the read tokens of the tables,
  the deliveries of a gather batch by transfer number, the rests the sources leave, a slot's contents after a chunk's
  rows have landed, and the chunks of the result.
-/
import proofs.«204026_g6957847020299_cont_sun_m_599_21_alg».proof.Proof.TileDefs
import Idealize.ShloMosaic.Lib.Batch
import Idealize.ShloMosaic.Lib.Ring
import Idealize.ShloMosaic.Lib.Pipeline.Kit

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The worker's read share of the tables. -/
abbrev q32 : PosShare TreeShare := Transfers.shareTok fullShare 32 (widL L)

/-- Transfer t of a chunk's 208 gathers fetches table f = t % 26 for the chunk's batch row j = t / 26. -/
def tj (t : Fin 208) : Fin 8 := ⟨t.val / 26, by have := t.isLt; omega⟩
def tf (t : Fin 208) : Fin 26 := ⟨t.val % 26, Nat.mod_lt _ (by decide)⟩

/-- The index word of chunk c, batch row j, table f, as the staged scratch holds it. -/
def wordOf (XV : S512x32.Idx → BitVec 32) (c : Fin 64) (j : Fin 8) (f : Fin 26) : BitVec 32 :=
  XV (ix2 ⟨8 * c.val + j.val, by have := c.isLt; have := j.isLt; omega⟩ ⟨f.val, by have := f.isLt; omega⟩)

/-- The table row a word selects, reduced into range (the reduction changes nothing on words in range). -/
def rowIx (wd : BitVec 32) : Fin 100001 := ⟨wd.toNat % 100001, Nat.mod_lt _ (by decide)⟩

/-- What the gather scratch holds, in either slot, once chunk c's rows have landed: entry (·, j, f, l) is word l of the
    row of table f that batch row 8 c + j of the worker selects. -/
def slotFn {α : Type} (t : S26x100001x32.Idx → α) (XV : S512x32.Idx → BitVec 32) (c : Fin 64) : S2x8x26x32.Idx → α :=
  fun i => t (ix3 (i 2) (rowIx (wordOf XV c (i 1) (i 2))) (i 3))

/-- The number of the read token that transfer t of a batch into slot b takes (past the small numbers, which name semaphores). -/
def tokNo (b : Fin 2) (t : Fin 208) : ℕ := 8 + 208 * b.val + t.val

/-- Read token number n of the worker's share of the tables, whole. -/
def tabTok (mt : Buf (Elt F) ((tW).view.loc (thrL d L))) (n : ℕ) : sProp 𝕄 :=
  (tW).view.loc (thrL d L) ↦{Transfers.shareTokN (q32 L) n} mt

/-- The elements of the tables that transfer t of chunk c reads. -/
def srcSet (XV : S512x32.Idx → BitVec 32) (c : Fin 64) (t : Fin 208) : Finset S26x100001x32.Idx :=
  (trowMem (tf t) (rowIx (wordOf XV c (tj t) (tf t)))).view.set

/-- Delivery number t of the gather batch of chunk c into slot b: the piece at the landed row, and the lent elements of
    the tables back under the token the transfer took. -/
def gDeliv (mt : Buf (Elt F) ((tW).view.loc (thrL d L))) (XV : S512x32.Idx → BitVec 32) (b : Fin 2) (c : Fin 64) (t : Fin 208) : sProp 𝕄 :=
  iprop(((pcMem b (tj t) (tf t)).view.loc (thrL d L) ↦[(pcMem b (tj t) (tf t)).view.set]{fullShare} slotFn mt XV c)
    ∗ ((tW).view.loc (thrL d L) ↦[srcSet XV c t]{Transfers.shareTokN (q32 L) (tokNo b t)} mt))

/-- What the token keeps while its transfer is in flight. -/
def gRest (mt : Buf (Elt F) ((tW).view.loc (thrL d L))) (XV : S512x32.Idx → BitVec 32) (b : Fin 2) (c : Fin 64) (t : Fin 208) : sProp 𝕄 :=
  (tW).view.loc (thrL d L) ↦[Finset.univ \ srcSet XV c t]{Transfers.shareTokN (q32 L) (tokNo b t)} mt

/-- Slot b whole, by its own elements, at the contents chunk c leaves. -/
def slotAt (mt : Buf (Elt F) ((tW).view.loc (thrL d L))) (XV : S512x32.Idx → BitVec 32) (b : Fin 2) (c : Fin 64) : sProp 𝕄 :=
  (slotMem b).view.loc (thrL d L) ↦[(slotMem b).view.set]{fullShare} slotFn mt XV c

/-- Chunk c of the worker's rows of the result, by its own elements, at contents g. -/
def ochunkAt (c : Fin 64) (g : Buf (Elt F) ((oW).view.loc (thrL d L))) : sProp 𝕄 :=
  (ochunkMem (widL L) c).view.loc (thrL d L) ↦[(ochunkMem (widL L) c).view.set]{fullShare} g

/-- The DMA semaphore of slot b's gathers, and of its write-out. -/
def gSem (b : Fin 2) : DmaSem sig := match b with | 0 => cc0_scratch3.sem | 1 => cc0_scratch4.sem
def oSem (b : Fin 2) : DmaSem sig := match b with | 0 => cc0_scratch5.sem | 1 => cc0_scratch6.sem

/-- One table row's credit on a gather's semaphore, and one chunk's on a write-out's. -/
abbrev NG : ℕ := 1024
abbrev NW : ℕ := 212992

/-- Chunk c's gather batch into slot b: all 208 transfers issued, none waited for; and what their tokens keep. -/
def gBatch (mt : Buf (Elt F) ((tW).view.loc (thrL d L))) (XV : S512x32.Idx → BitVec 32) (b : Fin 2) (c : Fin 64) (u : ℕ) : sProp 𝕄 :=
  iprop(Transfers.Batch (countersEmb (U := UU)) (thrL d L) (SemLoc.dma (gSem b)) (none : HIx 1) NG (gDeliv d L mt XV b c) 208 u
    ∗ bigSep Finset.univ (gRest d L mt XV b c))

/-- Slot b free: whole, by its own elements, at some contents. -/
def slotFree (b : Fin 2) : sProp 𝕄 :=
  iprop(∃ g, (slotMem b).view.loc (thrL d L) ↦[(slotMem b).view.set]{fullShare} g)

/-- The 208 read tokens of slot b's gathers, whole. -/
def slotToks (mt : Buf (Elt F) ((tW).view.loc (thrL d L))) (b : Fin 2) : sProp 𝕄 :=
  bigSep Finset.univ (fun t : Fin 208 => tabTok d L mt (tokNo b t))

/-- The contents of the whole result that every finished chunk holds: the looked-up array. -/
def outFn (x : S16384x26.Idx → BitVec 32) (mt : Buf (Elt F) ((tW).view.loc (thrL d L))) : Buf (Elt F) ((oW).view.loc (thrL d L)) :=
  Cert.Lookup.G x mt

/-- Chunk c's write-out from slot b in flight on its semaphore: it delivers the chunk at the looked-up values and the slot back. -/
def wFlight (x : S16384x26.Idx → BitVec 32) (mt : Buf (Elt F) ((tW).view.loc (thrL d L))) (XV : S512x32.Idx → BitVec 32) (b : Fin 2) (c : Fin 64) : sProp 𝕄 :=
  Transfers.Flight (countersEmb (U := UU)) (thrL d L) (SemLoc.dma (oSem b)) (none : HIx 1) NW
    iprop(ochunkAt d L c (outFn d L x mt) ∗ slotAt d L mt XV b c)

/-- The worker's chunks [0, n) finished, and the chunks [n', 64) not yet written. -/
def outDone (x : S16384x26.Idx → BitVec 32) (mt : Buf (Elt F) ((tW).view.loc (thrL d L))) (n : ℕ) : sProp 𝕄 :=
  bigSep (Ring.rangeSet 64 0 n) (fun c => ochunkAt d L c (outFn d L x mt))
def outTodo (n : ℕ) : sProp 𝕄 :=
  bigSep (Ring.rangeSet 64 n 64) (fun c => iprop(∃ g, ochunkAt d L c g))

end Cert.Proof.KernelRun

end
-- ==== Proof.TileLanes.lean ====
/-
  The index words a vector subcore's body reads back from its staged scratch. The body loads a row of the scratch as
  two vectors of sixteen words (columns 0..15 and 16..31), casts each to rank one, and takes one lane at a time as a
  word: lane k of the vector loaded at (r, o) is the scratch's word (r, o + k). After staging, for o + k < 26 that word
  is entry (r, o + k) of the worker's rows of the index array, so under the range hypothesis it is below 100000 and
  row (that word) of table o + k is a rectangle inside the tables: the side condition each gather asks for.
-/
import proofs.«204026_g6957847020299_cont_sun_m_599_21_alg».proof.Proof.TileDefs
import Idealize.ShloMosaic.Lib.Pipeline.Value
import Idealize.ShloMosaic.Lib.ValueIdx
import Idealize.ShloMosaic.Lib.Tactic

noncomputable section

namespace Cert.Proof.KernelRun

open Cert.Kernel Cert.Kernel.Gen

open Idealize.ShloMosaic Idealize.ShloMosaic.ValueIdx

variable {F : FTy → Type}

/-! ## One lane of a loaded row of the staged scratch -/

/-- The word at position 0 of the one-word slice at k of a sixteen-word vector is the vector's word k. -/
theorem lane16_eq {α : Type} (v : S16.Idx → α) (k : ℕ) (hk : k < 16)
    (hs : S16.Slices ![k] S1) (hp : ∀ a, (![0] : Fin 1 → ℕ) a < S1.size a) :
    extractAt ![0] (extractStridedSlice S1 ![k] v hs) hp = v (ix1 (⟨k, hk⟩ : Fin 16)) := by
  show extractStridedSlice S1 ![k] v hs (fun a => ⟨(![0] : Fin 1 → ℕ) a, hp a⟩) = _
  exact extractStridedSlice_apply ![k] v hs (fun a => ⟨(![0] : Fin 1 → ℕ) a, hp a⟩) (ix1 (⟨k, hk⟩ : Fin 16)) (fun a => by
    match a with
    | ⟨0, _⟩ => rfl)

/-- A row of sixteen words cast to rank one keeps its words in order. -/
theorem cast16_eq {α : Type} (v : S1x16.Idx → α) (hc : S1x16.ShapeCasts S16) (k : Fin 16) :
    shapeCast S16 v hc (ix1 k) = v (ix2 (0 : Fin 1) k) :=
  shapeCast_apply v hc (ix1 k) (ix2 (0 : Fin 1) k) (by
    rw [Shape.rowMajor_val_two, Shape.rowMajor_val_one]; show 0 * 16 + k.val = k.val; omega)

/-- Lane k of a sixteen-word row, taken as the body takes it (shape cast to rank one, a one-word slice at k, the
    word extracted), is the row's word k. -/
theorem lane_eq {α : Type} (v : S1x16.Idx → α) (k : ℕ) (hk : k < 16) (hc : S1x16.ShapeCasts S16)
    (hs : S16.Slices ![k] S1) (hp : ∀ a, (![0] : Fin 1 → ℕ) a < S1.size a) :
    extractAt ![0] (extractStridedSlice S1 ![k] (shapeCast S16 v hc) hs) hp = v (ix2 (0 : Fin 1) (⟨k, hk⟩ : Fin 16)) :=
  (lane16_eq _ k hk hs hp).trans (cast16_eq v hc ⟨k, hk⟩)

theorem xv_row_lt (off : Fin 2 → ℕ) (inb : ∀ a, off a + S1x16.size a ≤ S512x32.size a) : off 0 < 512 := by
  have := inb 0; have e : S1x16.size 0 = 1 := rfl; have e2 : S512x32.size 0 = 512 := rfl; omega
theorem xv_col_lt (off : Fin 2 → ℕ) (inb : ∀ a, off a + S1x16.size a ≤ S512x32.size a) (k : Fin 16) : off 1 + k.val < 32 := by
  have := inb 1; have e : S1x16.size 1 = 16 := rfl; have e2 : S512x32.size 1 = 32 := rfl; have := k.isLt; omega

/-- A sixteen-word load of the scratch at (r, o) reads, at lane k, the scratch's word (r, o + k). -/
theorem xv_read (XV : S512x32.Idx → BitVec 32) (off : Fin 2 → ℕ) (inb : ∀ a, off a + S1x16.size a ≤ S512x32.size a)
    (k : Fin 16) :
    View.readAt (Elt F) (Memref.whole cc0_scratch0 : Memref sig .scVector .vmem S512x32 .i32).view
        (Rect.unit (s := S512x32) off S1x16.size inb).toLoadRect XV (ix2 (0 : Fin 1) k)
      = XV (ix2 (⟨off 0, xv_row_lt off inb⟩ : Fin 512) (⟨off 1 + k.val, xv_col_lt off inb k⟩ : Fin 32)) := by
  rw [View.readAt_apply]
  show XV _ = XV _
  congr 1
  funext a
  match a with
  | ⟨0, _⟩ => apply Fin.ext; show off 0 + 1 * 0 = off 0; omega
  | ⟨1, _⟩ => apply Fin.ext; show off 1 + 1 * k.val = off 1 + k.val; omega

/-! ## The lanes of a row are the worker's index words, and in range -/

/-- The sixteen words v are scratch row r from column o on: where that is an index column (o + k < 26), word k is
    entry (r, o + k) of the worker's 512 rows of x. -/
def RowLanes (x : S16384x26.Idx → BitVec 32) (w : Fin 32) (r o : ℕ) (v : S16.Idx → BitVec 32) : Prop :=
  ∃ hr : r < 512, ∀ (k : Fin 16) (h : o + k.val < 26), v (ix1 k) = x (ix2 (brow w ⟨r, hr⟩) (⟨o + k.val, h⟩ : Fin 26))

/-- A sixteen-word load of the staged scratch at (r, o), cast to rank one, is such a vector. -/
theorem rowLanes_load {x : S16384x26.Idx → BitVec 32} {w : Fin 32} {XV : S512x32.Idx → BitVec 32} (hst : Staged x w XV)
    (off : Fin 2 → ℕ) (inb : ∀ a, off a + S1x16.size a ≤ S512x32.size a) (hc : S1x16.ShapeCasts S16) :
    RowLanes x w (off 0) (off 1)
      (shapeCast S16 (View.readAt (Elt F) (Memref.whole cc0_scratch0 : Memref sig .scVector .vmem S512x32 .i32).view
        (Rect.unit (s := S512x32) off S1x16.size inb).toLoadRect XV) hc) :=
  ⟨xv_row_lt off inb, fun k h => by
    rw [cast16_eq, xv_read]
    exact hst ⟨off 0, xv_row_lt off inb⟩ ⟨off 1 + k.val, h⟩⟩

/-- The same vector under other names of its row and column. -/
theorem RowLanes.of_eq {x : S16384x26.Idx → BitVec 32} {w : Fin 32} {r o r' o' : ℕ} {v : S16.Idx → BitVec 32}
    (h : RowLanes x w r o v) (hr : r = r') (ho : o = o') : RowLanes x w r' o' v := hr ▸ ho ▸ h

/-- The word the body extracts at lane k of such a vector is the index entry (r, o + k). -/
theorem lane_word {x : S16384x26.Idx → BitVec 32} {w : Fin 32} {r o : ℕ} {v : S16.Idx → BitVec 32} (h : RowLanes x w r o v)
    (k : ℕ) (hk : k < 16) (hf : o + k < 26) (hs : S16.Slices ![k] S1) (hp : ∀ a, (![0] : Fin 1 → ℕ) a < S1.size a) :
    extractAt ![0] (extractStridedSlice S1 ![k] v hs) hp = x (ix2 (brow w ⟨r, h.1⟩) (⟨o + k, hf⟩ : Fin 26)) :=
  (lane16_eq v k hk hs hp).trans (h.2 ⟨k, hk⟩ hf)

/-- Under the range hypothesis that word is below 100000. -/
theorem lane_lt {x : S16384x26.Idx → BitVec 32} {w : Fin 32} {r o : ℕ} {v : S16.Idx → BitVec 32} (h : RowLanes x w r o v)
    (hx : Cert.Lookup.InRange x) (k : ℕ) (hk : k < 16) (hf : o + k < 26) (hs : S16.Slices ![k] S1)
    (hp : ∀ a, (![0] : Fin 1 → ℕ) a < S1.size a) :
    (extractAt ![0] (extractStridedSlice S1 ![k] v hs) hp).toNat < 100000 := by
  rw [lane_word h k hk hf hs hp]; exact hx _

/-- Under the range hypothesis that word names a row of table f = o + k: the gather's source rectangle lies inside
    the tables. -/
theorem lane_chk {x : S16384x26.Idx → BitVec 32} {w : Fin 32} {r o : ℕ} {v : S16.Idx → BitVec 32} (h : RowLanes x w r o v)
    (hx : Cert.Lookup.InRange x) (k f : ℕ) (hk : k < 16) (hf : f = o + k) (hf26 : f < 26)
    (hs : S16.Slices ![k] S1) (hp : ∀ a, (![0] : Fin 1 → ℕ) a < S1.size a) :
    ∀ a, (![f, (extractAt ![0] (extractStridedSlice S1 ![k] v hs) hp).toNat, 0] : Fin 3 → ℕ) a + S1x1x32.size a ≤ S26x100001x32.size a := by
  subst hf
  rw [lane_word h k hk hf26 hs hp]
  have hlt := hx (ix2 (brow w ⟨r, h.1⟩) (⟨o + k, hf26⟩ : Fin 26))
  intro a; fin_cases a
  · show o + k + 1 ≤ 26; omega
  · show (x (ix2 (brow w ⟨r, h.1⟩) (⟨o + k, hf26⟩ : Fin 26))).toNat + 1 ≤ 100001; omega
  · show 0 + 32 ≤ 32; omega

/-- Closes a gather's side condition: the word is a lane of a vector that the context says is a row of the staged
    scratch (a hypothesis RowLanes _ _ _ _ v), or of a load of the scratch made in this run (from the hypothesis
    Staged _ _ _); the range hypothesis InRange _ is in the context. -/
macro "lk_core" : tactic => `(tactic| (
  apply lane_chk
  · first | assumption | exact rowLanes_load (by assumption) _ _ (by decide)
  · assumption
  all_goals first | decide | rfl))

/-- The same under a loop's condition (the side condition is then stated under it: it is introduced first). -/
macro "lk_disch" : tactic => `(tactic| first | lk_core | (intro _; lk_core))

end Cert.Proof.KernelRun

end
-- ==== Proof.TileGather.lean ====
/-
  One gather of a chunk's batch: table row (f, word) copied into piece (b, j, f) of a slot, the word being the staged
  index word of the chunk's batch row j and table f. Where the piece's and the row's words sit in their arrays; what the
  piece holds once the row has landed; that what the copy delivers — the piece at the landed row and the row's elements
  back under the copy's read token — is the batch's stated delivery of that number, and that what the token keeps
  meanwhile is the stated rest; and the tactics that close, for one copy, the range condition on its word and the
  entailment of its delivery.
-/
import proofs.«204026_g6957847020299_cont_sun_m_599_21_alg».proof.Proof.TileInv
import proofs.«204026_g6957847020299_cont_sun_m_599_21_alg».proof.Proof.TileLanes
import Idealize.ShloMosaic.Lib.Batch
import Idealize.ShloMosaic.Lib.Ring
import Idealize.ShloMosaic.Lib.Tactic
import Idealize.ShloMosaic.Lib.Pipeline.Kit

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## Where a piece's and a table row's words sit -/

theorem sq4_eq (x : S32.Idx) :
    Shape.reshapeEquiv (squeezes_S1x1x1x32_S32).numel_eq x = (ix4 (0 : Fin 1) (0 : Fin 1) (0 : Fin 1) (x 0) : S1x1x1x32.Idx) :=
  Shape.reshapeEquiv_eq_of_rowMajor _ (by
    rw [Shape.rowMajor_val_four, Shape.rowMajor_val_one]
    show ((0 * 1 + 0) * 1 + 0) * 32 + (x 0).val = (x 0).val
    omega)

theorem sq3_eq (x : S32.Idx) :
    Shape.reshapeEquiv (squeezes_S1x1x32_S32).numel_eq x = (ix3 (0 : Fin 1) (0 : Fin 1) (x 0) : S1x1x32.Idx) :=
  Shape.reshapeEquiv_eq_of_rowMajor _ (by
    rw [Shape.rowMajor_val_three, Shape.rowMajor_val_one]
    show (0 * 1 + 0) * 32 + (x 0).val = (x 0).val
    omega)

/-- Word l of piece (b, j, f) is element (b, j, f, l) of the gather scratch. -/
theorem pc_emb (b : Fin 2) (j : Fin 8) (f : Fin 26) (x : S32.Idx) :
    ((pcMem b j f).view.emb x : S2x8x26x32.Idx) = ix4 b j f (x 0) := by
  show (Rect.unit (s := S2x8x26x32) ![b.val, j.val, f.val, 0] S1x1x1x32.size (pc_inb b j f)).emb
    (Shape.reshapeEquiv (squeezes_S1x1x1x32_S32).numel_eq x) = _
  rw [sq4_eq]
  funext a
  apply Fin.ext
  rw [Rect.emb_apply]
  fin_cases a
  · show b.val + 1 * 0 = b.val; omega
  · show j.val + 1 * 0 = j.val; omega
  · show f.val + 1 * 0 = f.val; omega
  · show 0 + 1 * (x 0).val = (x 0).val; omega

/-- A row of the tables as a gather names it: the rectangle of one row at given offsets, squeezed to its 32 words. -/
abbrev rowSl (off : Fin 3 → ℕ) (inb : ∀ a, off a + S1x1x32.size a ≤ S26x100001x32.size a) : Memref sig .scVector .hbm S32 .f32 :=
  ((Memref.whole main_arg1_scv : Memref sig .scVector .hbm S26x100001x32 .f32).slice (Rect.unit (s := S26x100001x32) off S1x1x32.size inb) (fun _ => rfl)).squeeze S32 squeezes_S1x1x32_S32

/-- Word l of the row at offsets (f, i, 0) is element (f, i, l) of the tables. -/
theorem rowSl_emb (f : Fin 26) (i : Fin 100001) (off : Fin 3 → ℕ) (inb : ∀ a, off a + S1x1x32.size a ≤ S26x100001x32.size a)
    (hoff : off = ![f.val, i.val, 0]) (x : S32.Idx) :
    ((rowSl off inb).view.emb x : S26x100001x32.Idx) = ix3 f i (x 0) := by
  subst hoff
  show (Rect.unit (s := S26x100001x32) ![f.val, i.val, 0] S1x1x32.size inb).emb
    (Shape.reshapeEquiv (squeezes_S1x1x32_S32).numel_eq x) = _
  rw [sq3_eq]
  funext a
  apply Fin.ext
  rw [Rect.emb_apply]
  fin_cases a
  · show f.val + 1 * 0 = f.val; omega
  · show i.val + 1 * 0 = i.val; omega
  · show 0 + 1 * (x 0).val = (x 0).val; omega

/-- The elements of the row at offsets (f, i, 0) are those of row i of table f. -/
theorem rowSl_set (f : Fin 26) (i : Fin 100001) (off : Fin 3 → ℕ) (inb : ∀ a, off a + S1x1x32.size a ≤ S26x100001x32.size a)
    (hoff : off = ![f.val, i.val, 0]) : (rowSl off inb).view.set = (trowMem f i).view.set := by
  subst hoff; rfl

/-- A piece written whole with the row of table f that the chunk's word selects holds, at each of its elements, what
    the slot holds once the chunk has landed. -/
theorem pc_landed (mt : Buf (Elt F) ((tW).view.loc (thrL d L))) (XV : S512x32.Idx → BitVec 32) (b : Fin 2) (c : Fin 64) (j : Fin 8) (f : Fin 26)
    (off : Fin 3 → ℕ) (inb : ∀ a, off a + S1x1x32.size a ≤ S26x100001x32.size a)
    (hoff : off = ![f.val, (rowIx (wordOf XV c j f)).val, 0])
    (g : Buf (Elt F) ((pcMem b j f).view.loc (thrL d L))) :
    ∀ e ∈ (pcMem b j f).view.set,
      (pcMem b j f).view.writes (Elt F) g [⟨Rect.whole S32, ReadAs.same.apply ((rowSl off inb).view.read (Elt F) mt)⟩] e
        = slotFn mt XV c e := by
  intro e he
  obtain ⟨x, -, rfl⟩ := Finset.mem_map.mp he
  rw [View.writes_singleton]
  have hx : (pcMem b j f).view.emb x = ((pcMem b j f).view.slice (Rect.whole S32)).emb x := by
    show _ = (pcMem b j f).view.emb ((Rect.whole S32).emb x)
    rw [Rect.emb_whole_apply]
  conv_lhs => rw [hx, View.write_emb_of_mem _ _ (Finset.mem_univ _)]
  rw [pc_emb]
  show _root_.cast _ (_root_.cast _ (mt ((rowSl off inb).view.emb x))) = _
  rw [rowSl_emb f (rowIx (wordOf XV c j f)) off inb hoff]
  rfl

/-- What one gather of a chunk's batch delivers — its piece written whole with the row its word selects, and the row's
    elements back under the transfer's token — is the batch's delivery of that number. The piece is (b, j, f) with
    j = t / 26 and f = t % 26, the token is number n = tokNo b t, the row is named by its offsets (f, word, 0), and the
    word is the chunk's index word for (j, f). -/
theorem gather_deliv (mt : Buf (Elt F) ((tW).view.loc (thrL d L))) (XV : S512x32.Idx → BitVec 32) (b : Fin 2) (c : Fin 64) (t : Fin 208)
    (j : Fin 8) (f : Fin 26) (g : Buf (Elt F) ((pcMem b j f).view.loc (thrL d L))) (p : S32.Idx → Elt F .f32) (n : ℕ) (wd : BitVec 32) (fo : ℕ)
    (off : Fin 3 → ℕ) (inb : ∀ a, off a + S1x1x32.size a ≤ S26x100001x32.size a)
    (hj : j = tj t) (hf : f = tf t) (hn : n = tokNo b t)
    (hp : p = ReadAs.same.apply ((rowSl off inb).view.read (Elt F) mt))
    (hoff : off = ![fo, wd.toNat, 0]) (hfo : fo = f.val)
    (hwd : wd = wordOf XV c j f) :
    iprop(((pcMem b j f).view.loc (thrL d L) ↦[(pcMem b j f).view.set]{fullShare}
              (pcMem b j f).view.writes (Elt F) g [⟨Rect.whole S32, p⟩])
           ∗ ((Memref.whole main_arg1_scv : Memref sig .scVector .hbm S26x100001x32 .f32).view.loc (thrL d L) ↦[(rowSl off inb).view.set]{Transfers.shareTokN (q32 L) n} mt))
      ⊢ gDeliv d L mt XV b c t := by
  subst hj hf hn hp hwd hfo
  have hlt : (wordOf XV c (tj t) (tf t)).toNat < 100001 := by
    have h1 := inb 1
    rw [hoff] at h1
    have e1 : (![(tf t).val, (wordOf XV c (tj t) (tf t)).toNat, 0] : Fin 3 → ℕ) 1 = (wordOf XV c (tj t) (tf t)).toNat := rfl
    have e2 : S1x1x32.size 1 = 1 := rfl
    have e3 : S26x100001x32.size 1 = 100001 := rfl
    omega
  have hoff' : off = ![(tf t).val, (rowIx (wordOf XV c (tj t) (tf t))).val, 0] := by
    rw [hoff]; show _ = ![(tf t).val, (wordOf XV c (tj t) (tf t)).toNat % 100001, 0]; rw [Nat.mod_eq_of_lt hlt]
  unfold gDeliv srcSet
  rw [pointsTo_congr (pc_landed d L mt XV b c (tj t) (tf t) off inb hoff' g), rowSl_set _ _ off inb hoff']
  exact Entails.rfl

/-- What the token of one gather keeps while the row is lent is the batch's stated rest of that number. -/
theorem gather_rest (mt : Buf (Elt F) ((tW).view.loc (thrL d L))) (XV : S512x32.Idx → BitVec 32) (b : Fin 2) (c : Fin 64) (t : Fin 208)
    (j : Fin 8) (f : Fin 26) (n : ℕ) (wd : BitVec 32) (fo : ℕ)
    (off : Fin 3 → ℕ) (inb : ∀ a, off a + S1x1x32.size a ≤ S26x100001x32.size a)
    (hj : j = tj t) (hf : f = tf t) (hn : n = tokNo b t)
    (hoff : off = ![fo, wd.toNat, 0]) (hfo : fo = f.val)
    (hwd : wd = wordOf XV c j f) :
    ((Memref.whole main_arg1_scv : Memref sig .scVector .hbm S26x100001x32 .f32).view.loc (thrL d L)
        ↦[Finset.univ \ (rowSl off inb).view.set]{Transfers.shareTokN (q32 L) n} mt : sProp 𝕄)
      ⊢ gRest d L mt XV b c t := by
  subst hj hf hn hwd hfo
  have hlt : (wordOf XV c (tj t) (tf t)).toNat < 100001 := by
    have h1 := inb 1
    rw [hoff] at h1
    have e1 : (![(tf t).val, (wordOf XV c (tj t) (tf t)).toNat, 0] : Fin 3 → ℕ) 1 = (wordOf XV c (tj t) (tf t)).toNat := rfl
    have e2 : S1x1x32.size 1 = 1 := rfl
    have e3 : S26x100001x32.size 1 = 100001 := rfl
    omega
  have hoff' : off = ![(tf t).val, (rowIx (wordOf XV c (tj t) (tf t))).val, 0] := by
    rw [hoff]; show _ = ![(tf t).val, (wordOf XV c (tj t) (tf t)).toNat % 100001, 0]; rw [Nat.mod_eq_of_lt hlt]
  unfold gRest srcSet
  rw [rowSl_set _ _ off inb hoff']
  exact Entails.rfl

omit [FloatOps F] in
/-- The word the body extracts at lane k of a vector that is scratch row r from column o on, once the scratch is staged,
    is the index word of chunk c, batch row j, table f when r = 8 c + j and o + k = f. -/
theorem word_of_lanes {x : S16384x26.Idx → BitVec 32} {w : Fin 32} {XV : S512x32.Idx → BitVec 32} (hst : Staged x w XV)
    {r o : ℕ} {v : S16.Idx → BitVec 32} (h : RowLanes x w r o v) (k : ℕ) (hk : k < 16) (hs : S16.Slices ![k] S1)
    (hp : ∀ a, (![0] : Fin 1 → ℕ) a < S1.size a) (c : Fin 64) (j : Fin 8) (f : Fin 26)
    (h0 : r = 8 * c.val + j.val) (h1 : o + k = f.val) :
    extractAt ![0] (extractStridedSlice S1 ![k] v hs) hp = wordOf XV c j f := by
  have hf : o + k < 26 := by have := f.isLt; omega
  rw [lane_word h k hk hf hs hp]
  unfold wordOf
  rw [hst]
  congr 1
  funext a
  match a with
  | ⟨0, _⟩ => apply Fin.ext; show 512 * w.val + r = 512 * w.val + (8 * c.val + j.val); omega
  | ⟨1, _⟩ => exact Fin.ext h1

instance tW_pts_storable (S : Finset S26x100001x32.Idx) (q : PosShare TreeShare) (mt : Buf (Elt F) ((tW).view.loc (thrL d L))) :
    BI.Storable (upEmb : UEmb _ 𝕄) ((tW).view.loc (thrL d L) ↦[S]{q} mt) := by
  exact Region.storable_held _ _ _ _

instance gDeliv_storableG (mt : Buf (Elt F) ((tW).view.loc (thrL d L))) (XV : S512x32.Idx → BitVec 32) (b : Fin 2) (c : Fin 64) (t : Fin 208) :
    BI.Storable (upEmb : UEmb _ 𝕄) (gDeliv d L mt XV b c t) := by
  unfold gDeliv; infer_instance

open Lean Meta Elab Tactic in
/-- Unfolds, in the goal, the auxiliary names (those with a component sl) under which a proof holds the values a body has
    computed, so that the words appear as the lanes of the loads they are. -/
elab "unfold_sl" : tactic => do
  let g ← getMainGoal
  let ty ← instantiateMVars (← g.getType)
  let ty' ← Meta.transform ty (pre := fun e => do
    match e.getAppFn with
    | .const n _ =>
      if n.components.any (· == `sl) then
        match ← unfoldDefinition? e with
        | some e' => return .visit e'.headBeta
        | none => return .continue
      else return .continue
    | _ => return .continue)
  replaceMainGoal [← g.replaceTargetDefEq ty']

/-- Closes a gather's side condition (as lk_disch does) when the word is held under an auxiliary name. -/
macro "lk_disch'" : tactic => `(tactic| (unfold_sl; lk_disch))

/-- The arithmetic of a gather's place — the scratch row is 8 c + j, the column o + k is f — where the row's offsets are not
    numerals: extended, where a chunk is symbolic, by the closed forms of its offsets. -/
syntax "gd_arith" : tactic
macro_rules | `(tactic| gd_arith) => `(tactic| fail "gd_arith: no closed form stated")

/-- The index word of one gather, as the body extracts it, is the chunk's index word for (j, f); the staging fact and
    the facts about the vectors of index words are taken from the context. -/
macro "gd_word" : tactic => `(tactic| (
  unfold_sl
  apply word_of_lanes
  · assumption
  · first | assumption | exact rowLanes_load (by assumption) _ _ (by decide)
  all_goals first | decide | rfl | omega | gd_arith))

/-- Closes the entailment from what one gather delivers to the batch's stated delivery gDeliv. -/
macro "gd_disch" : tactic => `(tactic| (
  refine gather_deliv _ _ _ _ _ _ _ _ _ _ _ _ ?wd ?fo _ _ ?hj ?hf ?hn ?hp ?hoff ?hfo ?hwd
  case hj => decide
  case hf => decide
  case hn => decide
  case hp => exact rfl
  case hoff => exact rfl
  case hfo => exact rfl
  case hwd => gd_word))

/-- Closes the entailment from what one gather's token keeps to the batch's stated rest gRest. -/
macro "gr_disch" : tactic => `(tactic| (
  refine gather_rest _ _ _ _ _ _ _ _ _ _ ?wd ?fo _ _ ?hj ?hf ?hn ?hoff ?hfo ?hwd
  case hj => decide
  case hf => decide
  case hn => decide
  case hoff => exact rfl
  case hfo => exact rfl
  case hwd => gd_word))

end Cert.Proof.KernelRun

end
-- ==== Proof.TileJoin.lean ====
/-
  Separation-logic bookkeeping for one vector subcore's task, with no program in sight: a gather slot held whole is its
  208 pieces; the deliveries of a drained gather batch and the rests of their tokens are the slot at the chunk's
  contents and the tokens whole; the worker's rows of the result are its 64 chunks; what a copy of a landed slot
  leaves in a chunk is the looked-up array there; and the worker's share of the tables is a remainder, eight low tokens
  and the 208 tokens of each slot's gathers.
-/
import proofs.«204026_g6957847020299_cont_sun_m_599_21_alg».proof.Proof.TileInv
import Idealize.ShloMosaic.Lib.Ring
import Idealize.ShloMosaic.Lib.Transfers
import Idealize.ShloMosaic.Rules.PointsTo

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-! ## The gather scratch: a slot is its 208 pieces -/

/-- The rectangle of piece (b, j, f) and of slot b in the gather scratch. -/
abbrev pcRect (b : Fin 2) (j : Fin 8) (f : Fin 26) : Rect S2x8x26x32 :=
  Rect.unit (s := S2x8x26x32) ![b.val, j.val, f.val, 0] S1x1x1x32.size (pc_inb b j f)
abbrev slotRect (b : Fin 2) : Rect S2x8x26x32 :=
  Rect.unit (s := S2x8x26x32) ![b.val, 0, 0, 0] S1x8x26x32.size (slot_inb b)

theorem pc_set (b : Fin 2) (j : Fin 8) (f : Fin 26) : (pcMem b j f).view.set = (pcRect b j f).set :=
  (View.set_reshape (v := ((sR).slice (pcRect b j f) (fun _ => rfl)).view) squeezes_S1x1x1x32_S32.numel_eq).trans
    (View.set_slice_whole cc0_scratch1 _)

theorem slot_set (b : Fin 2) : (slotMem b).view.set = (slotRect b).set :=
  (View.set_reshape (v := ((sR).slice (slotRect b) (fun _ => rfl)).view) squeezes_S1x8x26x32_S8x26x32.numel_eq).trans
    (View.set_slice_whole cc0_scratch1 _)

/-- Piece (b, j, f) is the elements (b, j, f, ·). -/
theorem mem_pcRect (b : Fin 2) (j : Fin 8) (f : Fin 26) (i : S2x8x26x32.Idx) :
    i ∈ (pcRect b j f).set ↔ (i 0).val = b.val ∧ (i 1).val = j.val ∧ (i 2).val = f.val := by
  rw [Rect.mem_set_unit]
  constructor
  · intro h
    have h0 : b.val ≤ (i 0).val ∧ (i 0).val < b.val + 1 := h 0
    have h1 : j.val ≤ (i 1).val ∧ (i 1).val < j.val + 1 := h 1
    have h2 : f.val ≤ (i 2).val ∧ (i 2).val < f.val + 1 := h 2
    omega
  · rintro ⟨h0, h1, h2⟩ a
    have h3 : (i 3).val < 32 := (i 3).isLt
    fin_cases a
    · show b.val ≤ (i 0).val ∧ (i 0).val < b.val + 1; omega
    · show j.val ≤ (i 1).val ∧ (i 1).val < j.val + 1; omega
    · show f.val ≤ (i 2).val ∧ (i 2).val < f.val + 1; omega
    · show 0 ≤ (i 3).val ∧ (i 3).val < 0 + 32; omega

/-- Slot b is the elements (b, ·, ·, ·). -/
theorem mem_slotRect (b : Fin 2) (i : S2x8x26x32.Idx) : i ∈ (slotRect b).set ↔ (i 0).val = b.val := by
  rw [Rect.mem_set_unit]
  constructor
  · intro h
    have h0 : b.val ≤ (i 0).val ∧ (i 0).val < b.val + 1 := h 0
    omega
  · intro h0 a
    have h1 : (i 1).val < 8 := (i 1).isLt
    have h2 : (i 2).val < 26 := (i 2).isLt
    have h3 : (i 3).val < 32 := (i 3).isLt
    fin_cases a
    · show b.val ≤ (i 0).val ∧ (i 0).val < b.val + 1; omega
    · show 0 ≤ (i 1).val ∧ (i 1).val < 0 + 8; omega
    · show 0 ≤ (i 2).val ∧ (i 2).val < 0 + 26; omega
    · show 0 ≤ (i 3).val ∧ (i 3).val < 0 + 32; omega

/-- The pieces of one slot, by transfer number, are pairwise disjoint. -/
theorem pcRect_disjoint (b : Fin 2) (t t' : Fin 208) (h : t ≠ t') :
    Disjoint (pcRect b (tj t) (tf t)).set (pcRect b (tj t') (tf t')).set := by
  rw [Finset.disjoint_left]
  intro i hi hi'
  obtain ⟨-, h1, h2⟩ := (mem_pcRect _ _ _ i).mp hi
  obtain ⟨-, h1', h2'⟩ := (mem_pcRect _ _ _ i).mp hi'
  apply h; apply Fin.ext
  have e1 : t.val / 26 = t'.val / 26 := h1.symm.trans h1'
  have e2 : t.val % 26 = t'.val % 26 := h2.symm.trans h2'
  omega

/-- They cover the slot. -/
theorem pcRect_cover (b : Fin 2) :
    Finset.univ.biUnion (fun t : Fin 208 => (pcRect b (tj t) (tf t)).set) = (slotRect b).set := by
  ext i
  rw [Finset.mem_biUnion, mem_slotRect]
  constructor
  · rintro ⟨t, -, ht⟩; exact ((mem_pcRect _ _ _ i).mp ht).1
  · intro h0
    have h1 : (i 1).val < 8 := (i 1).isLt
    have h2 : (i 2).val < 26 := (i 2).isLt
    refine ⟨⟨26 * (i 1).val + (i 2).val, by omega⟩, Finset.mem_univ _, (mem_pcRect _ _ _ i).mpr ⟨h0, ?_, ?_⟩⟩
    · show (i 1).val = (26 * (i 1).val + (i 2).val) / 26; omega
    · show (i 2).val = (26 * (i 1).val + (i 2).val) % 26; omega

theorem pc_disjoint (b : Fin 2) (t t' : Fin 208) (h : t ≠ t') :
    Disjoint ((pcMem b (tj t) (tf t)).view.set : Finset S2x8x26x32.Idx) (pcMem b (tj t') (tf t')).view.set := by
  rw [pc_set, pc_set]; exact pcRect_disjoint b t t' h

theorem pc_cover (b : Fin 2) :
    Finset.univ.biUnion (fun t : Fin 208 => ((pcMem b (tj t) (tf t)).view.set : Finset S2x8x26x32.Idx)) = (slotMem b).view.set := by
  rw [slot_set, ← pcRect_cover]
  exact Finset.biUnion_congr rfl fun t _ => pc_set b (tj t) (tf t)

/-- Slot b held whole at contents g is its 208 pieces held at g. -/
theorem slot_pieces (b : Fin 2) (g : Buf (Elt F) ((sR).view.loc (thrL d L))) :
    ((slotMem b).view.loc (thrL d L) ↦[(slotMem b).view.set]{fullShare} g : sProp 𝕄)
      = bigSep Finset.univ fun t : Fin 208 =>
          (pcMem b (tj t) (tf t)).view.loc (thrL d L) ↦[(pcMem b (tj t) (tf t)).view.set]{fullShare} g := by
  have h : ((sR).view.loc (thrL d L) ↦[Finset.univ.biUnion (fun t : Fin 208 => ((pcMem b (tj t) (tf t)).view.set : Finset S2x8x26x32.Idx))]{fullShare} g : sProp 𝕄) = _ :=
    pointsTo_biUnion (ℓ := (sR).view.loc (thrL d L)) (q := fullShare) (f := g) Finset.univ
      (fun t : Fin 208 => ((pcMem b (tj t) (tf t)).view.set : Finset S2x8x26x32.Idx)) (fun t _ t' _ h => pc_disjoint b t t' h)
  exact (congrArg (fun S : Finset S2x8x26x32.Idx => ((sR).view.loc (thrL d L) ↦[S]{fullShare} g : sProp 𝕄)) (pc_cover b).symm).trans h

/-- Pieces held at contents of their own join to the slot held at contents agreeing with each on its piece. -/
theorem slot_pieces_join_at (b : Fin 2) (fs : Fin 208 → Buf (Elt F) ((sR).view.loc (thrL d L))) :
    bigSep Finset.univ (fun t : Fin 208 =>
        ((pcMem b (tj t) (tf t)).view.loc (thrL d L) ↦[(pcMem b (tj t) (tf t)).view.set]{fullShare} fs t : sProp 𝕄))
      ⊢ iprop(∃ g : Buf (Elt F) ((sR).view.loc (thrL d L)),
          ⌜∀ (t : Fin 208) (i : S2x8x26x32.Idx), i ∈ ((pcMem b (tj t) (tf t)).view.set : Finset S2x8x26x32.Idx) → g i = fs t i⌝
            ∗ ((slotMem b).view.loc (thrL d L) ↦[(slotMem b).view.set]{fullShare} g)) := by
  have h : bigSep Finset.univ (fun t : Fin 208 => ((sR).view.loc (thrL d L) ↦[((pcMem b (tj t) (tf t)).view.set : Finset S2x8x26x32.Idx)]{fullShare} fs t : sProp 𝕄)) ⊢ _ :=
    pointsTo_biUnion_join (ℓ := (sR).view.loc (thrL d L)) (q := fullShare) Finset.univ
      (fun t : Fin 208 => ((pcMem b (tj t) (tf t)).view.set : Finset S2x8x26x32.Idx)) fs (fs 0) (fun t _ t' _ h => pc_disjoint b t t' h)
  refine h.trans ?_
  iintro ⟨%g, %hg, H⟩
  iexists g
  isplitr
  · ipureintro; intro t i hi; exact hg t (Finset.mem_univ t) i hi
  · iapply (Entails.of_eq (congrArg (fun S : Finset S2x8x26x32.Idx => ((sR).view.loc (thrL d L) ↦[S]{fullShare} g : sProp 𝕄)) (pc_cover b)))
    iexact H

/-- Each piece at some contents: the slot at some contents. -/
theorem slot_pieces_join (b : Fin 2) :
    bigSep Finset.univ (fun t : Fin 208 => (iprop(∃ g : Buf (Elt F) ((sR).view.loc (thrL d L)),
        (pcMem b (tj t) (tf t)).view.loc (thrL d L) ↦[(pcMem b (tj t) (tf t)).view.set]{fullShare} g) : sProp 𝕄))
      ⊢ slotFree d L b := by
  refine (bigSep_exists_pi Finset.univ (fun (t : Fin 208) (g : Buf (Elt F) ((sR).view.loc (thrL d L))) =>
    ((pcMem b (tj t) (tf t)).view.loc (thrL d L) ↦[(pcMem b (tj t) (tf t)).view.set]{fullShare} g : sProp 𝕄))).trans ?_
  iintro ⟨%fs, H⟩
  ihave H' := (slot_pieces_join_at d L b fs) $$ H
  icases H' with ⟨%g, -, Hg⟩
  unfold slotFree
  iexists g; iexact Hg

/-- The slot at some contents: its pieces at those contents (what the next batch of gathers overwrites). -/
theorem slotFree_split (b : Fin 2) :
    (slotFree d L b : sProp 𝕄)
      ⊢ iprop(∃ g : Buf (Elt F) ((sR).view.loc (thrL d L)), bigSep Finset.univ (fun t : Fin 208 =>
          (pcMem b (tj t) (tf t)).view.loc (thrL d L) ↦[(pcMem b (tj t) (tf t)).view.set]{fullShare} g)) := by
  unfold slotFree
  iintro ⟨%g, H⟩
  iexists g
  iapply (Entails.of_eq (slot_pieces d L b g)); iexact H

/-- The slot held at the contents a chunk left is free. -/
theorem slotAt_free (mt : Buf (Elt F) ((tW).view.loc (thrL d L))) (XV : S512x32.Idx → BitVec 32) (b : Fin 2) (c : Fin 64) :
    (slotAt d L mt XV b c : sProp 𝕄) ⊢ slotFree d L b := by
  unfold slotAt slotFree
  iintro H; iexists (slotFn mt XV c); iexact H

/-! ## After a drain: the deliveries and the rests are the slot and the tokens -/

/-- A token whole is the elements a transfer borrowed and the rest. -/
theorem tabTok_split (mt : Buf (Elt F) ((tW).view.loc (thrL d L))) (XV : S512x32.Idx → BitVec 32) (c : Fin 64) (t : Fin 208) (n : ℕ) :
    (tabTok d L mt n : sProp 𝕄) ⊣⊢
      iprop(((tW).view.loc (thrL d L) ↦[srcSet XV c t]{Transfers.shareTokN (q32 L) n} mt)
        ∗ ((tW).view.loc (thrL d L) ↦[Finset.univ \ srcSet XV c t]{Transfers.shareTokN (q32 L) n} mt)) :=
  pointsTo_split_subset (Finset.subset_univ _)

/-- The 208 deliveries of a drained gather batch and the rests their tokens kept are the slot at the chunk's contents
    and the tokens whole. -/
theorem drain_join (mt : Buf (Elt F) ((tW).view.loc (thrL d L))) (XV : S512x32.Idx → BitVec 32) (b : Fin 2) (c : Fin 64) :
    iprop(bigSep Finset.univ (gDeliv d L mt XV b c) ∗ bigSep Finset.univ (gRest d L mt XV b c))
      ⊢ (iprop(slotAt d L mt XV b c ∗ slotToks d L mt b) : sProp 𝕄) := by
  have e1 : bigSep Finset.univ (gDeliv d L mt XV b c)
      = iprop(bigSep Finset.univ (fun t : Fin 208 => ((pcMem b (tj t) (tf t)).view.loc (thrL d L) ↦[(pcMem b (tj t) (tf t)).view.set]{fullShare} slotFn mt XV c : sProp 𝕄))
          ∗ bigSep Finset.univ (fun t : Fin 208 => ((tW).view.loc (thrL d L) ↦[srcSet XV c t]{Transfers.shareTokN (q32 L) (tokNo b t)} mt : sProp 𝕄))) :=
    bigSep_sep' Finset.univ _ _
  have e2 : slotAt d L mt XV b c
      = bigSep Finset.univ (fun t : Fin 208 => ((pcMem b (tj t) (tf t)).view.loc (thrL d L) ↦[(pcMem b (tj t) (tf t)).view.set]{fullShare} slotFn mt XV c : sProp 𝕄)) :=
    slot_pieces d L b (slotFn mt XV c)
  have e3 : bigSep Finset.univ (fun t : Fin 208 => iprop(((tW).view.loc (thrL d L) ↦[srcSet XV c t]{Transfers.shareTokN (q32 L) (tokNo b t)} mt : sProp 𝕄) ∗ gRest d L mt XV b c t))
      = iprop(bigSep Finset.univ (fun t : Fin 208 => ((tW).view.loc (thrL d L) ↦[srcSet XV c t]{Transfers.shareTokN (q32 L) (tokNo b t)} mt : sProp 𝕄))
          ∗ bigSep Finset.univ (gRest d L mt XV b c)) :=
    bigSep_sep' Finset.univ _ _
  have h4 : bigSep Finset.univ (fun t : Fin 208 => iprop(((tW).view.loc (thrL d L) ↦[srcSet XV c t]{Transfers.shareTokN (q32 L) (tokNo b t)} mt : sProp 𝕄) ∗ gRest d L mt XV b c t))
      ⊢ slotToks d L mt b :=
    bigSep_mono fun t _ => (tabTok_split d L mt XV c t (tokNo b t)).2
  rw [e1, e2]
  iintro ⟨⟨Hp, Hs⟩, Hr⟩
  isplitl [Hp]; · iexact Hp
  iapply h4
  iapply (Entails.of_eq e3.symm)
  isplitl [Hs]; · iexact Hs
  iexact Hr

/-! ## The result's rows: chunks, and what a landed chunk holds -/

/-- The rectangle of chunk c of worker w in the result. -/
abbrev ochunkRect (w : Fin 32) (c : Fin 64) : Rect S16384x26x32 :=
  Rect.unit (s := S16384x26x32) ![512 * w.val + 8 * c.val, 0, 0] S8x26x32.size (ochunk_inb w c)

theorem ochunk_set (w : Fin 32) (c : Fin 64) : (ochunkMem w c).view.set = (ochunkRect w c).set :=
  View.set_slice_whole main_v0_scv _

/-- Batch row j of chunk c, among the worker's 512. -/
def crow (c : Fin 64) (j : Fin 8) : Fin 512 := ⟨8 * c.val + j.val, by have := c.isLt; have := j.isLt; omega⟩

/-- Where entry (j, f, l) of chunk c sits in the result, -/
theorem ochunk_emb (w : Fin 32) (c : Fin 64) (y : S8x26x32.Idx) :
    ((ochunkMem w c).view.emb y : S16384x26x32.Idx) = ix3 (brow w (crow c (y 0))) (y 1) (y 2) := by
  funext a
  apply Fin.ext
  fin_cases a
  · show 512 * w.val + 8 * c.val + 1 * (y 0).val = 512 * w.val + (8 * c.val + (y 0).val); omega
  · show 0 + 1 * (y 1).val = (y 1).val; omega
  · show 0 + 1 * (y 2).val = (y 2).val; omega

/-- and where entry (j, f, l) of slot b sits in the gather scratch. -/
theorem slot_emb (b : Fin 2) (y : S8x26x32.Idx) :
    ((slotMem b).view.emb y : S2x8x26x32.Idx) = ix4 b (y 0) (y 1) (y 2) := by
  have e : Shape.reshapeEquiv squeezes_S1x8x26x32_S8x26x32.numel_eq y = Fin.cons ⟨0, Nat.one_pos⟩ y :=
    Shape.reshapeEquiv_cons_one (n := 3) (d := ![8, 26, 32]) squeezes_S1x8x26x32_S8x26x32.numel_eq y
  show (slotRect b).emb (Shape.reshapeEquiv squeezes_S1x8x26x32_S8x26x32.numel_eq y) = _
  rw [e]
  funext a
  apply Fin.ext
  fin_cases a
  · show b.val + 1 * 0 = b.val; omega
  · show 0 + 1 * (y 0).val = (y 0).val; omega
  · show 0 + 1 * (y 1).val = (y 1).val; omega
  · show 0 + 1 * (y 2).val = (y 2).val; omega

/-- What a copy of slot b, holding chunk c's landed rows, onto chunk c of the result leaves there: the looked-up
    array (the staged words are the worker's index rows, and both sides reduce a word to a row the same way). -/
theorem landed_eq (x : S16384x26.Idx → BitVec 32) (mt : Buf (Elt F) ((tW).view.loc (thrL d L))) (XV : S512x32.Idx → BitVec 32)
    (w : Fin 32) (b : Fin 2) (c : Fin 64) (hst : Staged x w XV) (fo : Buf (Elt F) ((oW).view.loc (thrL d L)))
    (i : S16384x26x32.Idx) (hi : i ∈ ((ochunkMem w c).view.set : Finset S16384x26x32.Idx)) :
    (ochunkMem w c).view.write (Elt F) fo (ReadAs.same.apply ((slotMem b).view.read (Elt F) (slotFn mt XV c))) Finset.univ i
      = outFn d L x mt i := by
  obtain ⟨y, -, rfl⟩ := Finset.mem_map.mp hi
  refine (View.write_emb_of_mem (v := (ochunkMem w c).view) (Val := Elt F) fo
    (ReadAs.same.apply ((slotMem b).view.read (Elt F) (slotFn mt XV c))) (Finset.mem_univ y)).trans ?_
  show slotFn mt XV c ((slotMem b).view.emb y) = Cert.Lookup.G x mt ((ochunkMem w c).view.emb y)
  rw [ochunk_emb, slot_emb]
  show mt (ix3 (y 1) (rowIx (wordOf XV c (y 0) (y 1))) (y 2)) = mt (ix3 (y 1) (Cert.Lookup.rowOf x (brow w (crow c (y 0))) (y 1)) (y 2))
  have hw : wordOf XV c (y 0) (y 1) = x (ix2 (brow w (crow c (y 0))) (y 1)) := hst (crow c (y 0)) (y 1)
  rw [hw]
  rfl

/-- A landed chunk is the chunk at the looked-up array. -/
theorem ochunk_landed (x : S16384x26.Idx → BitVec 32) (mt : Buf (Elt F) ((tW).view.loc (thrL d L))) (XV : S512x32.Idx → BitVec 32)
    (b : Fin 2) (c : Fin 64) (hst : Staged x (widL L) XV) (fo : Buf (Elt F) ((oW).view.loc (thrL d L))) :
    ((ochunkMem (widL L) c).view.loc (thrL d L) ↦[(ochunkMem (widL L) c).view.set]{fullShare}
        (ochunkMem (widL L) c).view.write (Elt F) fo (ReadAs.same.apply ((slotMem b).view.read (Elt F) (slotFn mt XV c))) Finset.univ : sProp 𝕄)
      = ochunkAt d L c (outFn d L x mt) :=
  pointsTo_congr fun i hi => landed_eq d L x mt XV (widL L) b c hst fo i hi

/-- Chunk c of worker w is rows [512 w + 8 c, 512 w + 8 c + 8) of the result; the worker's rows are [512 w, 512 w + 512). -/
theorem mem_ochunkRect (w : Fin 32) (c : Fin 64) (i : S16384x26x32.Idx) :
    i ∈ (ochunkRect w c).set ↔ 512 * w.val + 8 * c.val ≤ (i 0).val ∧ (i 0).val < 512 * w.val + 8 * c.val + 8 := by
  rw [Rect.mem_set_unit]
  constructor
  · intro h; exact h 0
  · intro h0 a
    have h1 : (i 1).val < 26 := (i 1).isLt
    have h2 : (i 2).val < 32 := (i 2).isLt
    fin_cases a
    · exact h0
    · show 0 ≤ (i 1).val ∧ (i 1).val < 0 + 26; omega
    · show 0 ≤ (i 2).val ∧ (i 2).val < 0 + 32; omega

theorem mem_oRows (w : Fin 32) (i : S16384x26x32.Idx) :
    i ∈ oRows w ↔ 512 * w.val ≤ (i 0).val ∧ (i 0).val < 512 * w.val + 512 := by
  rw [Rect.mem_set_unit]
  constructor
  · intro h
    have h0 : w.val * 512 ≤ (i 0).val ∧ (i 0).val < w.val * 512 + 512 := h 0
    omega
  · intro h0 a
    have h1 : (i 1).val < 26 := (i 1).isLt
    have h2 : (i 2).val < 32 := (i 2).isLt
    fin_cases a
    · show w.val * 512 ≤ (i 0).val ∧ (i 0).val < w.val * 512 + 512; omega
    · show 0 * 26 ≤ (i 1).val ∧ (i 1).val < 0 * 26 + 26; omega
    · show 0 * 32 ≤ (i 2).val ∧ (i 2).val < 0 * 32 + 32; omega

theorem ochunkRect_disjoint (w : Fin 32) (c c' : Fin 64) (h : c ≠ c') :
    Disjoint (ochunkRect w c).set (ochunkRect w c').set := by
  rw [Finset.disjoint_left]
  intro i hi hi'
  rw [mem_ochunkRect] at hi hi'
  apply h; apply Fin.ext; omega

theorem ochunkRect_cover (w : Fin 32) :
    Finset.univ.biUnion (fun c : Fin 64 => (ochunkRect w c).set) = oRows w := by
  ext i
  rw [Finset.mem_biUnion, mem_oRows]
  constructor
  · rintro ⟨c, -, hc⟩
    rw [mem_ochunkRect] at hc
    have := c.isLt; omega
  · intro h
    refine ⟨⟨((i 0).val - 512 * w.val) / 8, by omega⟩, Finset.mem_univ _, ?_⟩
    rw [mem_ochunkRect]
    show 512 * w.val + 8 * (((i 0).val - 512 * w.val) / 8) ≤ (i 0).val ∧ (i 0).val < 512 * w.val + 8 * (((i 0).val - 512 * w.val) / 8) + 8
    omega

/-- The chunks of a worker are pairwise disjoint and cover its rows. -/
theorem ochunk_disjoint (w : Fin 32) (c c' : Fin 64) (h : c ≠ c') :
    Disjoint ((ochunkMem w c).view.set : Finset S16384x26x32.Idx) (ochunkMem w c').view.set := by
  rw [ochunk_set, ochunk_set]; exact ochunkRect_disjoint w c c' h

theorem ochunk_cover (w : Fin 32) :
    Finset.univ.biUnion (fun c : Fin 64 => ((ochunkMem w c).view.set : Finset S16384x26x32.Idx)) = oRows w := by
  rw [← ochunkRect_cover]
  exact Finset.biUnion_congr rfl fun c _ => ochunk_set w c

/-- The worker's rows of the result held at contents g are its 64 chunks held at g. -/
theorem oRows_chunks (g : Buf (Elt F) ((oW).view.loc (thrL d L))) :
    (oLoc d ↦[oRows (widL L)]{fullShare} g : sProp 𝕄) = bigSep (Ring.rangeSet 64 0 64) (fun c => ochunkAt d L c g) := by
  have h : ((oW).view.loc (thrL d L) ↦[Finset.univ.biUnion (fun c : Fin 64 => ((ochunkMem (widL L) c).view.set : Finset S16384x26x32.Idx))]{fullShare} g : sProp 𝕄)
      = bigSep Finset.univ (fun c : Fin 64 => ((oW).view.loc (thrL d L) ↦[((ochunkMem (widL L) c).view.set : Finset S16384x26x32.Idx)]{fullShare} g : sProp 𝕄)) :=
    pointsTo_biUnion (ℓ := (oW).view.loc (thrL d L)) (q := fullShare) (f := g) Finset.univ
      (fun c : Fin 64 => ((ochunkMem (widL L) c).view.set : Finset S16384x26x32.Idx)) (fun c _ c' _ h => ochunk_disjoint (widL L) c c' h)
  rw [Ring.rangeSet_univ]
  exact (congrArg (fun S : Finset S16384x26x32.Idx => ((oW).view.loc (thrL d L) ↦[S]{fullShare} g : sProp 𝕄)) (ochunk_cover (widL L)).symm).trans h

/-- The looked-up array of the arguments, as the launch names it. -/
theorem outFn_eq_outG (m : (ℓ : Loc nD τ sig) → Buf (Elt F) ℓ) : outFn d L (m (xLoc d)) (m (tLoc d)) = outG m d := rfl

theorem ochunkAt_some (c : Fin 64) (g : Buf (Elt F) ((oW).view.loc (thrL d L))) :
    (ochunkAt d L c g : sProp 𝕄) ⊢ iprop(∃ g, ochunkAt d L c g) := by
  iintro H; iexists g; iexact H

/-- Before the first chunk: nothing finished, every chunk at the contents the worker was handed. -/
theorem out_start (x : S16384x26.Idx → BitVec 32) (mt : Buf (Elt F) ((tW).view.loc (thrL d L))) (g : Buf (Elt F) ((oW).view.loc (thrL d L))) :
    (oLoc d ↦[oRows (widL L)]{fullShare} g : sProp 𝕄) ⊢ iprop(outDone d L x mt 0 ∗ outTodo d L 0) := by
  rw [oRows_chunks d L g]
  unfold outDone outTodo
  rw [Ring.bigSep_rangeSet_empty (Nat.le_refl 0)]
  have h1 : bigSep (Ring.rangeSet 64 0 64) (fun c => ochunkAt d L c g)
      ⊢ (bigSep (Ring.rangeSet 64 0 64) (fun c => iprop(∃ g, ochunkAt d L c g)) : sProp 𝕄) :=
    bigSep_mono fun c _ => ochunkAt_some d L c g
  iintro H
  isplitr; · iempintro
  iapply h1; iexact H

/-- After the last: the worker's rows at the looked-up array. -/
theorem out_finish (x : S16384x26.Idx → BitVec 32) (mt : Buf (Elt F) ((tW).view.loc (thrL d L))) :
    (outDone d L x mt 64 : sProp 𝕄) ⊢ oLoc d ↦[oRows (widL L)]{fullShare} outFn d L x mt := by
  rw [oRows_chunks d L (outFn d L x mt)]
  exact .rfl

theorem outTodo_last : (outTodo d L 64 : sProp 𝕄) = iprop(emp) := Ring.bigSep_rangeSet_empty (Nat.le_refl 64)

/-- The next chunk to write, off the head of those not yet written; -/
theorem outTodo_head (n : ℕ) (h : n < 64) :
    (outTodo d L n : sProp 𝕄) = iprop((∃ g, ochunkAt d L ⟨n, h⟩ g) ∗ outTodo d L (n + 1)) :=
  Ring.bigSep_rangeSet_head h h

/-- and the chunk just finished, beside the earlier ones. -/
theorem outDone_succ (x : S16384x26.Idx → BitVec 32) (mt : Buf (Elt F) ((tW).view.loc (thrL d L))) (n : ℕ) (h : n < 64) :
    (outDone d L x mt (n + 1) : sProp 𝕄) = iprop(ochunkAt d L ⟨n, h⟩ (outFn d L x mt) ∗ outDone d L x mt n) :=
  Ring.bigSep_rangeSet_last (Nat.succ_pos n) h

/-! ## The worker's share of the tables: a remainder and the read tokens -/

/-- A run of numbers splits at any point. -/
theorem bigSep_range_add (a b : ℕ) (Ψ : ℕ → sProp 𝕄) :
    bigSep (Finset.range (a + b)) Ψ = iprop(bigSep (Finset.range a) Ψ ∗ bigSep (Finset.range b) (fun k => Ψ (a + k))) := by
  rw [Finset.range_add_eq_union, bigSep_union (Finset.disjoint_range_addLeftEmbedding a (Finset.range b)), bigSep_map]
  rfl

/-- The tokens of slot b's gathers, by number from the slot's first. -/
theorem slotToks_eq_range (mt : Buf (Elt F) ((tW).view.loc (thrL d L))) (b : Fin 2) :
    (slotToks d L mt b : sProp 𝕄) = bigSep (Finset.range 208) (fun k => tabTok d L mt (8 + 208 * b.val + k)) :=
  Ring.bigSep_fin_eq_range 208 _ _ fun _ _ => rfl

/-- The worker's share of the tables is a remainder, eight low tokens it never lends, and the 208 tokens of each slot's
    gathers. -/
theorem tab_toks (mt : Buf (Elt F) ((tW).view.loc (thrL d L))) :
    ((tW).view.loc (thrL d L) ↦{q32 L} mt : sProp 𝕄) ⊣⊢
      iprop(((tW).view.loc (thrL d L) ↦{Transfers.shareDrop (q32 L) 424} mt)
        ∗ bigSep (Finset.range 8) (fun n => tabTok d L mt n) ∗ slotToks d L mt 0 ∗ slotToks d L mt 1) := by
  have e : bigSep (Finset.range 424) (fun n => tabTok d L mt n)
      = iprop((bigSep (Finset.range 8) (fun n => tabTok d L mt n) ∗ slotToks d L mt 0) ∗ slotToks d L mt 1) := by
    rw [slotToks_eq_range, slotToks_eq_range, show 424 = (8 + 208) + 208 from rfl, bigSep_range_add (8 + 208) 208, bigSep_range_add 8 208]
    rfl
  have h : ((tW).view.loc (thrL d L) ↦{q32 L} mt : sProp 𝕄) ⊣⊢
      iprop(((tW).view.loc (thrL d L) ↦{Transfers.shareDrop (q32 L) 424} mt) ∗ bigSep (Finset.range 424) (fun n => tabTok d L mt n)) :=
    Transfers.pointsTo_toks_range (ℓ := (tW).view.loc (thrL d L)) (S := Finset.univ) (f := mt) (q32 L) 424
  rw [e] at h
  constructor
  · refine h.1.trans ?_
    iintro ⟨Hr, ⟨H8, H0⟩, H1⟩
    isplitl [Hr]; · iexact Hr
    isplitl [H8]; · iexact H8
    isplitl [H0]; · iexact H0
    iexact H1
  · refine BIBase.Entails.trans ?_ h.2
    iintro ⟨Hr, H8, H0, H1⟩
    isplitl [Hr]; · iexact Hr
    isplitl [H8 H0]
    · isplitl [H8]; · iexact H8
      iexact H0
    · iexact H1

end Cert.Proof.KernelRun
end
-- ==== Proof.TilePrep.lean ====
/-
  A slot's 208 pieces and 208 read tokens laid out as a nested separating conjunction in transfer order, so that each
  can be held as a hypothesis of its own while a chunk's gathers are issued; and the same for what the tokens keep.
-/
import proofs.«204026_g6957847020299_cont_sun_m_599_21_alg».proof.Proof.TileJoin

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A proposition kept out of sight of the steps that follow, until it is needed again. -/
def aside (P : sProp 𝕄) : sProp 𝕄 := P
omit [FloatOps F] in
theorem aside_eq (P : sProp 𝕄) : aside P = P := rfl

/-- P lo ∗ P (lo + 1) ∗ … ∗ P (lo + n - 1) ∗ emp. -/
def sepFrom (P : ℕ → sProp 𝕄) : ℕ → ℕ → sProp 𝕄
  | _, 0 => iprop(emp)
  | lo, n + 1 => iprop(P lo ∗ sepFrom P (lo + 1) n)

omit [FloatOps F] in
theorem sepFrom_zero (P : ℕ → sProp 𝕄) (lo : ℕ) : sepFrom P lo 0 = iprop(emp) := rfl
omit [FloatOps F] in
theorem sepFrom_succ (P : ℕ → sProp 𝕄) (lo n : ℕ) : sepFrom P lo (n + 1) = iprop(P lo ∗ sepFrom P (lo + 1) n) := rfl

theorem sepFrom_eq (P : ℕ → sProp 𝕄) (lo n : ℕ) : sepFrom P lo n = bigSep (Finset.range n) (fun i => P (lo + i)) := by
  induction n generalizing lo with
  | zero => rw [sepFrom_zero, Finset.range_zero, bigSep_empty]; rfl
  | succ n ih =>
    rw [sepFrom_succ, ih, show n + 1 = 1 + n by omega, bigSep_range_add, Finset.range_one, bigSep_singleton]
    congr 1
    exact bigSep_congr fun i _ => by rw [show lo + 1 + i = lo + (1 + i) by omega]

variable (d : Dev nD) (L : grid0.Coords)

/-- Transfer number t as an index of the batch (reduced into range). -/
def tN (t : ℕ) : Fin 208 := ⟨t % 208, Nat.mod_lt _ (by decide)⟩

theorem bigSep_univ_tN (Φ : Fin 208 → sProp 𝕄) : bigSep Finset.univ Φ = sepFrom (fun t => Φ (tN t)) 0 208 := by
  rw [sepFrom_eq, ← Nat.Iio_eq_range, ← Fin.map_valEmbedding_univ, bigSep_map]
  exact bigSep_congr fun t _ => by
    congr 1; apply Fin.ext
    show t.val = (0 + t.val) % 208
    rw [Nat.zero_add, Nat.mod_eq_of_lt t.isLt]

end Cert.Proof.KernelRun

end
-- ==== Proof.TileGatherKit.lean ====
/-
  A chunk's gather batch around its 208 copies: before them, the slot's pieces and the slot's read tokens laid out one
  by one in transfer order beside the batch with nothing issued; after them, the batch with everything issued and what
  the 208 tokens keep, gathered into the canonical description of the batch in flight.
-/
import proofs.«204026_g6957847020299_cont_sun_m_599_21_alg».proof.Proof.TileGather
import proofs.«204026_g6957847020299_cont_sun_m_599_21_alg».proof.Proof.TilePrep

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## Before the copies -/

/-- Piece number n of slot b (batch row n / 26, table n % 26), by its own elements, at contents g. -/
def pieceN (b : Fin 2) (g : Buf (Elt F) ((sR).view.loc (thrL d L))) (n : ℕ) : sProp 𝕄 :=
  (pcMem b (tj (tN n)) (tf (tN n))).view.loc (thrL d L) ↦[(pcMem b (tj (tN n)) (tf (tN n))).view.set]{fullShare} g

/-- The read token that transfer number n of a batch into slot b takes, whole. -/
def tokN (mt : Buf (Elt F) ((tW).view.loc (thrL d L))) (b : Fin 2) (n : ℕ) : sProp 𝕄 :=
  tabTok d L mt (tokNo b (tN n))

theorem row_lt (n : ℕ) : n % 208 / 26 < 8 := by omega
theorem tab_lt (n : ℕ) : n % 208 % 26 < 26 := Nat.mod_lt _ (by decide)

/-- Piece number n with its row and table as numbers. -/
theorem pieceN_eq (b : Fin 2) (g : Buf (Elt F) ((sR).view.loc (thrL d L))) (n : ℕ) :
    pieceN d L b g n
      = ((pcMem b ⟨n % 208 / 26, row_lt n⟩ ⟨n % 208 % 26, tab_lt n⟩).view.loc (thrL d L)
          ↦[(pcMem b ⟨n % 208 / 26, row_lt n⟩ ⟨n % 208 % 26, tab_lt n⟩).view.set]{fullShare} g : sProp 𝕄) := rfl

/-- Token number n with its number spelt out, at the tables as a copy's source names them. -/
theorem tokN_eq (mt : Buf (Elt F) ((tW).view.loc (thrL d L))) (b : Fin 2) (n : ℕ) :
    tokN d L mt b n
      = ((Memref.whole main_arg1_scv : Memref sig .scVector .hbm S26x100001x32 .f32).view.loc (thrL d L)
          ↦{Transfers.shareTokN (q32 L) (8 + 208 * b.val + n % 208)} mt : sProp 𝕄) := rfl

/-- From the slot free, the slot's tokens and the slot's gather semaphore at zero: the pieces and the tokens one by one
    in transfer order, and the chunk's batch with nothing issued. -/
theorem gather_prep (mt : Buf (Elt F) ((tW).view.loc (thrL d L))) (XV : S512x32.Idx → BitVec 32) (b : Fin 2) (c : Fin 64) :
    iprop(slotFree d L b ∗ slotToks d L mt b ∗ semVal (thrL d L, SemLoc.dma (gSem b)) 0)
      ⊢ |={Set.univ}=> ∃ g : Buf (Elt F) ((sR).view.loc (thrL d L)),
          sepFrom (pieceN d L b g) 0 208 ∗ sepFrom (tokN d L mt b) 0 208
            ∗ Transfers.Batch (countersEmb (U := UU)) (thrL d L) (SemLoc.dma (gSem b)) (none : HIx 1) NG (gDeliv d L mt XV b c) 0 0 := by
  iintro ⟨Hf, Ht, Hs⟩
  imod (Transfers.batch_alloc' (Lvl := ℕ) (countersEmb (U := UU)) (thrL d L) (none : HIx 1) NG (gDeliv d L mt XV b c)
    (sm := .dma (gSem b)) (E := Set.univ)) $$ Hs with HB
  imodintro
  ihave Hf' := (slotFree_split d L b) $$ Hf
  icases Hf' with ⟨%g, Hp⟩
  iexists g
  isplitl [Hp]
  · iapply (Entails.of_eq (bigSep_univ_tN (fun t : Fin 208 =>
      ((pcMem b (tj t) (tf t)).view.loc (thrL d L) ↦[(pcMem b (tj t) (tf t)).view.set]{fullShare} g : sProp 𝕄))))
    iexact Hp
  isplitl [Ht]
  · iapply (Entails.of_eq (bigSep_univ_tN (fun t : Fin 208 => tabTok d L mt (tokNo b t))))
    unfold slotToks
    iexact Ht
  iexact HB

open Lean in
/-- Names the conjuncts of H : P₀ ∗ P₁ ∗ … ∗ Pₙ₋₁ ∗ emp as p0, …, p(n-1). -/
macro "icases_seq " H:ident p:ident n:num : tactic => do
  let mut alts : Array (TSyntax ``Idealize.SL.ProofMode.icasesPatAlts) := #[]
  for i in [0:n.getNat] do
    let h := mkIdent (Name.mkSimple s!"{p.getId}{i}")
    alts := alts.push (← `(Idealize.SL.ProofMode.icasesPatAlts| $h:ident))
  alts := alts.push (← `(Idealize.SL.ProofMode.icasesPatAlts| -))
  `(tactic| icases $H:ident with ⟨$[$alts],*⟩)

/-! ## After the copies -/

/-- What the token of one gather keeps while the row is lent is the batch's stated rest of that number: the token is
    number n = tokNo b t, the row is named by its offsets (t % 26, word, 0), and the word is the chunk's index word for
    (t / 26, t % 26). -/
theorem gather_rest' (mt : Buf (Elt F) ((tW).view.loc (thrL d L))) (XV : S512x32.Idx → BitVec 32) (b : Fin 2) (c : Fin 64) (t : Fin 208)
    (n : ℕ) (wd : BitVec 32) (fo : ℕ) (off : Fin 3 → ℕ) (inb : ∀ a, off a + S1x1x32.size a ≤ S26x100001x32.size a)
    (hn : n = tokNo b t) (hoff : off = ![fo, wd.toNat, 0]) (hfo : fo = (tf t).val) (hwd : wd = wordOf XV c (tj t) (tf t)) :
    ((Memref.whole main_arg1_scv : Memref sig .scVector .hbm S26x100001x32 .f32).view.loc (thrL d L)
        ↦[Finset.univ \ (rowSl off inb).view.set]{Transfers.shareTokN (q32 L) n} mt : sProp 𝕄)
      ⊢ gRest d L mt XV b c t :=
  gather_rest d L mt XV b c t (tj t) (tf t) n wd fo off inb rfl rfl hn hoff hfo hwd

/-- The batch with everything issued and what the 208 tokens keep, one by one in transfer order, are the batch in flight. -/
theorem gather_fold (mt : Buf (Elt F) ((tW).view.loc (thrL d L))) (XV : S512x32.Idx → BitVec 32) (b : Fin 2) (c : Fin 64) (u : ℕ) :
    iprop(Transfers.Batch (countersEmb (U := UU)) (thrL d L) (SemLoc.dma (gSem b)) (none : HIx 1) NG (gDeliv d L mt XV b c) 208 u
        ∗ sepFrom (fun n => gRest d L mt XV b c (tN n)) 0 208)
      ⊢ gBatch d L mt XV b c u := by
  unfold gBatch
  rw [bigSep_univ_tN (gRest d L mt XV b c)]

/-- Closes the entailment from what one gather's token keeps to the batch's stated rest gRest. -/
macro "gr_disch'" : tactic => `(tactic| (
  refine gather_rest' _ _ _ _ _ _ _ _ ?wd ?fo _ _ ?hn ?hoff ?hfo ?hwd
  case hn => decide
  case hoff => exact rfl
  case hfo => decide
  case hwd => gd_word))

open Lean in
/-- Splits a goal A ∗ B, giving A the hypotheses named and p0, …, p(n-1), and B the others. -/
macro "isplitl_seq " "[" hs:ident* "]" p:ident n:num : tactic => do
  let mut names : Array (TSyntax `ident) := hs
  for i in [0:n.getNat] do
    names := names.push (mkIdent (Name.mkSimple s!"{p.getId}{i}"))
  `(tactic| isplitl [$names*])

open Lean in
/-- Proves R₀ ∗ R₁ ∗ … ∗ Rₙ₋₁ ∗ emp, each Rᵢ the stated rest of transfer i, from the hypotheses p0, …, p(n-1) as the
    copies left them. -/
macro "irests_seq " p:ident n:num : tactic => do
  let mut tacs : Array (TSyntax `tactic) := #[]
  for i in [0:n.getNat] do
    let h := mkIdent (Name.mkSimple s!"{p.getId}{i}")
    tacs := tacs.push (← `(tactic| (isplitl [$h]; · (istop; gr_disch'))))
  `(tactic| ($[$tacs]*; iempintro))

open Lean in
/-- `ihave_seq G := e using [H…] p n`: the hypothesis G from the entailment e, its premise proved from the hypotheses named
    and p0, …, p(n-1). -/
macro "ihave_seq " G:ident " := " e:term " using " "[" hs:ident* "]" p:ident n:num : tactic => do
  let mut names : Array (TSyntax `ident) := hs
  for i in [0:n.getNat] do
    names := names.push (mkIdent (Name.mkSimple s!"{p.getId}{i}"))
  let fs ← names.mapM fun x => `(frameIdent| $x:ident)
  `(tactic| ihave $G:ident := $e:term $$ [$fs*])

end Cert.Proof.KernelRun

end
-- ==== Proof.TileScoped.lean ====
/-
  A vector subcore's scoped storage, spelt for this kernel: its own buffers are the two scratch buffers and the rest,
  its own semaphores at zero are the five DMA semaphores at zero and the rest; and the scratch buffers and the three
  arrays, as the subcore's memrefs address them, are the subcore's own buffers and the device's arrays.
-/
import proofs.«204026_g6957847020299_cont_sun_m_599_21_alg».proof.Proof.TileInv
import Idealize.ShloMosaic.Lib.SparseCore.Launch

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords)

/-! ## The scratch buffers and the arrays as the subcore addresses them -/

theorem pts_sX (f : Buf (Elt F) ((thrL d L).loc cc0_scratch0)) :
    ((sX).view.loc (thrL d L) ↦{fullShare} f : sProp 𝕄) = ((thrL d L).loc cc0_scratch0 ↦{fullShare} f) := rfl
theorem pts_sR (f : Buf (Elt F) ((thrL d L).loc cc0_scratch1)) :
    ((sR).view.loc (thrL d L) ↦{fullShare} f : sProp 𝕄) = ((thrL d L).loc cc0_scratch1 ↦{fullShare} f) := rfl

/-- The same, held by the whole view's own element set. -/
theorem pts_sX_set (f : Buf (Elt F) ((thrL d L).loc cc0_scratch0)) :
    ((sX).view.loc (thrL d L) ↦[(sX).view.set]{fullShare} f : sProp 𝕄) = ((thrL d L).loc cc0_scratch0 ↦{fullShare} f) := by
  unfold sX; simp only [Memref.view_whole, View.set_whole]
theorem pts_sR_set (f : Buf (Elt F) ((thrL d L).loc cc0_scratch1)) :
    ((sR).view.loc (thrL d L) ↦[(sR).view.set]{fullShare} f : sProp 𝕄) = ((thrL d L).loc cc0_scratch1 ↦{fullShare} f) := by
  unfold sR; simp only [Memref.view_whole, View.set_whole]

/-- The subcore addresses the device's arrays: the locations are the same. -/
theorem pts_x (Sx : Finset S16384x26.Idx) (q : PosShare TreeShare) (f : Buf (Elt F) (xLoc d)) :
    ((xW).view.loc (thrL d L) ↦[Sx]{q} f : sProp 𝕄) = (xLoc d ↦[Sx]{q} f) := rfl
theorem pts_t (St : Finset S26x100001x32.Idx) (q : PosShare TreeShare) (f : Buf (Elt F) (tLoc d)) :
    ((tW).view.loc (thrL d L) ↦[St]{q} f : sProp 𝕄) = (tLoc d ↦[St]{q} f) := rfl
theorem pts_o (So : Finset S16384x26x32.Idx) (q : PosShare TreeShare) (f : Buf (Elt F) (oLoc d)) :
    ((oW).view.loc (thrL d L) ↦[So]{q} f : sProp 𝕄) = (oLoc d ↦[So]{q} f) := rfl

/-! ## The subcore's own semaphores and buffers -/

theorem cell_mem (a : DmaSems sig S_) (h : (SemLoc.dma a.sem : SemLoc sig).isScoped .scVector = true) :
    ((thrL d L, SemLoc.dma a.sem) : GSem nD τ sig) ∈ ownCells (thrL d L) := mem_ownCells.mpr ⟨rfl, h⟩

theorem cell_ne {a b : DmaSems sig S_} (h : a.sem ≠ b.sem) :
    ((thrL d L, SemLoc.dma a.sem) : GSem nD τ sig) ≠ (thrL d L, SemLoc.dma b.sem) :=
  fun e => h (SemLoc.dma.inj (Prod.mk.inj e).2)

/-- The five DMA semaphores are among the subcore's own cells: its own cells at zero are they at zero, and the rest. -/
theorem ownSems0_V :
    (ownSems0 (thrL d L) : sProp 𝕄)
      = iprop(semVal (thrL d L, .dma cc0_scratch2.sem) 0 ∗ semVal (thrL d L, .dma cc0_scratch3.sem) 0 ∗ semVal (thrL d L, .dma cc0_scratch4.sem) 0
          ∗ semVal (thrL d L, .dma cc0_scratch5.sem) 0 ∗ semVal (thrL d L, .dma cc0_scratch6.sem) 0
          ∗ bigSep ((((((ownCells (thrL d L)).erase (thrL d L, .dma cc0_scratch2.sem)).erase (thrL d L, .dma cc0_scratch3.sem)).erase
              (thrL d L, .dma cc0_scratch4.sem)).erase (thrL d L, .dma cc0_scratch5.sem)).erase (thrL d L, .dma cc0_scratch6.sem))
              fun g => semVal g 0) := by
  unfold SparseCore.Cfg.ownSems0
  have m2 := cell_mem d L cc0_scratch2 (by decide)
  have m3 := cell_mem d L cc0_scratch3 (by decide)
  have m4 := cell_mem d L cc0_scratch4 (by decide)
  have m5 := cell_mem d L cc0_scratch5 (by decide)
  have m6 := cell_mem d L cc0_scratch6 (by decide)
  rw [SparseCore.bigSep_erase' m2,
    SparseCore.bigSep_erase' (Finset.mem_erase.mpr ⟨cell_ne d L (a := cc0_scratch3) (b := cc0_scratch2) (by decide), m3⟩),
    SparseCore.bigSep_erase' (Finset.mem_erase.mpr ⟨cell_ne d L (a := cc0_scratch4) (b := cc0_scratch3) (by decide),
      Finset.mem_erase.mpr ⟨cell_ne d L (a := cc0_scratch4) (b := cc0_scratch2) (by decide), m4⟩⟩),
    SparseCore.bigSep_erase' (Finset.mem_erase.mpr ⟨cell_ne d L (a := cc0_scratch5) (b := cc0_scratch4) (by decide),
      Finset.mem_erase.mpr ⟨cell_ne d L (a := cc0_scratch5) (b := cc0_scratch3) (by decide),
        Finset.mem_erase.mpr ⟨cell_ne d L (a := cc0_scratch5) (b := cc0_scratch2) (by decide), m5⟩⟩⟩),
    SparseCore.bigSep_erase' (Finset.mem_erase.mpr ⟨cell_ne d L (a := cc0_scratch6) (b := cc0_scratch5) (by decide),
      Finset.mem_erase.mpr ⟨cell_ne d L (a := cc0_scratch6) (b := cc0_scratch4) (by decide),
        Finset.mem_erase.mpr ⟨cell_ne d L (a := cc0_scratch6) (b := cc0_scratch3) (by decide),
          Finset.mem_erase.mpr ⟨cell_ne d L (a := cc0_scratch6) (b := cc0_scratch2) (by decide), m6⟩⟩⟩⟩)]

/-- The two scratch buffers are among the subcore's own: its own buffers are they, at some contents, and the rest. -/
theorem ownBufs_V :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cert.Proof.KernelRun

end
-- ==== Proof.TileSlots.lean ====
/-
  The gather scratch is its two slots: the slots are disjoint and cover it, so the scratch held whole is the two slots
  free, and the two slots free are the scratch held whole at some contents.
-/
import proofs.«204026_g6957847020299_cont_sun_m_599_21_alg».proof.Proof.TileJoin

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-! ## The two slots partition the gather scratch -/

/-- No element has first coordinate both 0 and 1. -/
theorem slotRect_disjoint : Disjoint (slotRect 0).set (slotRect 1).set := by
  rw [Finset.disjoint_left]
  intro i h0 h1
  rw [mem_slotRect] at h0 h1
  have e : ((0 : Fin 2).val) = (1 : Fin 2).val := h0.symm.trans h1
  exact absurd e (by decide)

/-- Every element has first coordinate 0 or 1. -/
theorem slotRect_cover : (slotRect 0).set ∪ (slotRect 1).set = Finset.univ := by
  ext i
  rw [Finset.mem_union, mem_slotRect, mem_slotRect]
  constructor
  · intro _; exact Finset.mem_univ _
  · intro _
    have h : (i 0).val < 2 := (i 0).isLt
    show (i 0).val = 0 ∨ (i 0).val = 1
    omega

theorem slot_disjoint : Disjoint ((slotMem 0).view.set : Finset S2x8x26x32.Idx) (slotMem 1).view.set := by
  rw [slot_set, slot_set]; exact slotRect_disjoint

theorem slot_cover : ((slotMem 0).view.set : Finset S2x8x26x32.Idx) ∪ (slotMem 1).view.set = Finset.univ := by
  rw [slot_set, slot_set]; exact slotRect_cover

/-! ## The scratch whole and the two slots free -/

/-- The scratch held whole at contents g is each slot held, by its own elements, at g. -/
theorem sR_slots (g : Buf (Elt F) ((sR).view.loc (thrL d L))) :
    ((sR).view.loc (thrL d L) ↦{fullShare} g : sProp 𝕄) ⊣⊢
      iprop(((slotMem 0).view.loc (thrL d L) ↦[(slotMem 0).view.set]{fullShare} g)
        ∗ ((slotMem 1).view.loc (thrL d L) ↦[(slotMem 1).view.set]{fullShare} g)) := by
  have h : ((sR).view.loc (thrL d L) ↦[((slotMem 0).view.set : Finset S2x8x26x32.Idx) ∪ (slotMem 1).view.set]{fullShare} g : sProp 𝕄) ⊣⊢ _ :=
    pointsTo_union (ℓ := (sR).view.loc (thrL d L)) (q := fullShare) (f := g) slot_disjoint
  have e : ((sR).view.loc (thrL d L) ↦{fullShare} g : sProp 𝕄)
      = ((sR).view.loc (thrL d L) ↦[((slotMem 0).view.set : Finset S2x8x26x32.Idx) ∪ (slotMem 1).view.set]{fullShare} g) :=
    congrArg (fun S : Finset S2x8x26x32.Idx => ((sR).view.loc (thrL d L) ↦[S]{fullShare} g : sProp 𝕄)) slot_cover.symm
  exact ⟨(Entails.of_eq e).trans h.1, h.2.trans (Entails.of_eq e.symm)⟩

/-- The scratch held whole: both slots free. -/
theorem sR_split (g : Buf (Elt F) ((sR).view.loc (thrL d L))) :
    ((sR).view.loc (thrL d L) ↦{fullShare} g : sProp 𝕄) ⊢ iprop(slotFree d L 0 ∗ slotFree d L 1) := by
  refine (sR_slots d L g).1.trans ?_
  unfold slotFree
  iintro ⟨H0, H1⟩
  isplitl [H0]
  · iexists g; iexact H0
  · iexists g; iexact H1

/-- Both slots free: the scratch held whole at some contents (slot 1's on slot 1, slot 0's elsewhere). -/
theorem sR_join :
    (iprop(slotFree d L 0 ∗ slotFree d L 1) : sProp 𝕄) ⊢ iprop(∃ g, (sR).view.loc (thrL d L) ↦{fullShare} g) := by
  unfold slotFree
  iintro ⟨⟨%g0, H0⟩, ⟨%g1, H1⟩⟩
  have h : iprop(((sR).view.loc (thrL d L) ↦[((slotMem 0).view.set : Finset S2x8x26x32.Idx)]{fullShare} g0)
        ∗ ((sR).view.loc (thrL d L) ↦[((slotMem 1).view.set : Finset S2x8x26x32.Idx)]{fullShare} g1))
      ⊢ ((sR).view.loc (thrL d L) ↦[((slotMem 0).view.set : Finset S2x8x26x32.Idx) ∪ (slotMem 1).view.set]{fullShare}
          (((slotMem 1).view.set : Finset S2x8x26x32.Idx).piecewise g1 g0) : sProp 𝕄) :=
    pointsTo_join (ℓ := (sR).view.loc (thrL d L)) (q := fullShare) slot_disjoint
  iexists (((slotMem 1).view.set : Finset S2x8x26x32.Idx).piecewise g1 g0)
  iapply (Entails.of_eq (congrArg (fun S : Finset S2x8x26x32.Idx =>
    ((sR).view.loc (thrL d L) ↦[S]{fullShare} (((slotMem 1).view.set : Finset S2x8x26x32.Idx).piecewise g1 g0) : sProp 𝕄)) slot_cover))
  iapply h
  isplitl [H0]
  · iexact H0
  · iexact H1

end Cert.Proof.KernelRun
end
-- ==== Proof.TileTripFacts.lean ====
/-
  Facts about the main loop's trip variable: which of the body's guards hold at trip k, the trip count, and the windows
  of the result that the two write-outs of a trip address, as chunks of the worker's rows.
-/
import proofs.«204026_g6957847020299_cont_sun_m_599_21_alg».proof.Proof.TileInv

noncomputable section

namespace Cert.Proof.KernelRun

open Cert.Kernel Cert.Kernel.Gen

open Idealize.ShloMosaic Idealize.ShloMosaic.ValueIdx

theorem trips3 : k0_t3_loop.trips = 32 := by decide +kernel
theorem trips4 : k0_t4_loop.trips = 208 := by decide +kernel
theorem trips5 : k0_t5_loop.trips = 208 := by decide +kernel

/-- The next odd chunk always exists: the gathers into slot 1 are issued on every trip. -/
theorem cond2_true : ∀ k : Fin k0_t3_loop.trips, k0_cond2 k = 1#1 := by decide +kernel
/-- The next even chunk exists on every trip but the last. -/
theorem cond4_iff : ∀ k : Fin k0_t3_loop.trips, k0_cond4 k = 1#1 ↔ k.val < 31 := by decide +kernel

/-- The guard of the wait for the previous trip's odd write-out: it holds from the second trip on. -/
theorem cond1_iff : ∀ k : Fin k0_t3_loop.trips,
    Scalar.cmpi .ne (Scalar.extui (Scalar.cmpi .sge (Scalar.muli 2#32 (Scf.iv 0#32 1#32 k)) 1#32)) 0#32 = 1#1 ↔ 1 ≤ k.val := by decide +kernel
/-- The guard of the wait for the trip's even write-out: it always holds. -/
theorem cond3_true : ∀ k : Fin k0_t3_loop.trips,
    Scalar.cmpi .ne (Scalar.extui (Scalar.cmpi .sge (Scalar.addi (Scalar.muli 2#32 (Scf.iv 0#32 1#32 k)) 1#32) 1#32)) 0#32 = 1#1 := by decide +kernel

/-- The even and the odd chunk of trip k, as the write-outs' windows spell them. -/
theorem off435_eq (L : grid0.Coords) (k : Fin k0_t3_loop.trips) :
    k0_off435 L k = ![512 * (widL L).val + 8 * (2 * k.val), 0, 0] := by
  rw [k0_off435_eq]; unfold widL; congr 1; dsimp only; omega
theorem off660_eq (L : grid0.Coords) (k : Fin k0_t3_loop.trips) :
    k0_off660 L k = ![512 * (widL L).val + 8 * (2 * k.val + 1), 0, 0] := by
  rw [k0_off660_eq]; unfold widL; congr 1; dsimp only; omega

end Cert.Proof.KernelRun

end
-- ==== Proof.TileLoop.lean ====
/-
  The main loop of a vector subcore's task: what it holds before trip k (the invariant), and the whole task assembled
  from the prologue, the loop and the epilogue.
-/
import proofs.«204026_g6957847020299_cont_sun_m_599_21_alg».proof.Proof.TileInv
import Idealize.ShloMosaic.Lib.Tactic

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Chunk number n as an index (reduced into range: the invariant only names chunks below 64). -/
def ck (n : ℕ) : Fin 64 := ⟨n % 64, Nat.mod_lt _ (by decide)⟩

/-- Before trip k of the main loop (0 ≤ k ≤ 32): the staged indices; chunk 2k's gathers in flight into slot 0 (none
    left after the last trip); chunk 2k-1's write-out from slot 1 in flight (before the first trip slot 1 is free);
    slot 1's tokens; the chunks below 2k-1 finished and those from 2k on untouched. -/
def loopInv (x : S16384x26.Idx → BitVec 32) (mt : Buf (Elt F) ((tW).view.loc (thrL d L))) (XV : S512x32.Idx → BitVec 32)
    (O : CellTallies nD τ sig (HIx 1)) (W : Waits sig (HIx 1)) (k : ℕ) (_ : Unit) : sProp 𝕄 :=
  iprop(Transfers.MayWaits (thrL d L) (none : HIx 1) O
    ∗ ((sX).view.loc (thrL d L) ↦{fullShare} XV)
    ∗ (if k < 32 then gBatch d L mt XV 0 (ck (2 * k)) 0
        else iprop(semVal (thrL d L, SemLoc.dma (gSem 0)) 0 ∗ slotFree d L 0 ∗ slotToks d L mt 0))
    ∗ (if k = 0 then iprop(semVal (thrL d L, SemLoc.dma (oSem 1)) 0 ∗ slotFree d L 1)
        else wFlight d L x mt XV 1 (ck (2 * k - 1)))
    ∗ slotToks d L mt 1
    ∗ semVal (thrL d L, SemLoc.dma (gSem 1)) 0 ∗ semVal (thrL d L, SemLoc.dma (oSem 0)) 0
    ∗ outDone d L x mt (2 * k - 1) ∗ outTodo d L (2 * k)
    ∗ ∃ W', ⌜∀ p ∈ W', p ∈ W ∨ p.2 = none⌝ ∗ owes (thrL d L) O W')

end Cert.Proof.KernelRun

end
-- ==== Proof.TileDrain.lean ====
/-
  The two drain loops of a gather batch on a vector subcore. Each loop makes 208 waits of one table row's credit on
  the slot's semaphore. While fewer than 208 rows' credit have been consumed a wait tells nothing about any
  destination; the wait that brings the credit consumed to 208 rows' returns the cell at zero and every delivery of
  the batch at once. The invariant of a loop therefore cases on the trip: before the last trip has run, the batch with
  the credit of the trips so far consumed; after it, the cell at zero and all deliveries.
-/
import proofs.«204026_g6957847020299_cont_sun_m_599_21_alg».proof.Proof.TileInv
import Idealize.ShloMosaic.Lib.Batch
import Idealize.ShloMosaic.Lib.Ring
import Idealize.ShloMosaic.Lib.Tactic
import Idealize.ShloMosaic.Lib.Pipeline.Kit

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The two drain loops make 208 trips each. -/
theorem trips_t4 : k0_t4_loop.trips = 208 := by decide
theorem trips_t5 : k0_t5_loop.trips = 208 := by decide

variable (d : Dev nD) (L : grid0.Coords)

/-- Before trip k of a drain loop on cell sm: the evidence for the waits; the waits recorded so far are the ones held
    at entry and waits at the launch's index; and EITHER (k < 208) the batch, every transfer issued, k rows' credit
    consumed, OR (after the last trip) the cell back at zero and every delivery. -/
def drainInv (sm : SemLoc sig) (D : Fin 208 → sProp 𝕄) (O : CellTallies nD τ sig (HIx 1)) (W : Waits sig (HIx 1)) (k : ℕ) (_ : Unit) : sProp 𝕄 :=
  iprop(⌜k ≤ 208⌝ ∗ Transfers.MayWaits (thrL d L) (none : HIx 1) O
    ∗ (∃ W', ⌜∀ p ∈ W', p ∈ W ∨ p.2 = none⌝ ∗ owes (thrL d L) O W')
    ∗ (if k < 208 then Transfers.Batch (countersEmb (U := UU)) (thrL d L) sm (none : HIx 1) 1024 D 208 (k * 1024)
       else iprop(semVal (thrL d L, sm) 0 ∗ bigSep Finset.univ D)))

theorem waits_insert {W W' : Waits sig (HIx 1)} (hW : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact Or.inr rfl
  · exact hW p hp

/-- One trip of the drain loop on the first gather semaphore. -/
theorem drain_step4 [∀ e, Nonempty (Elt F e)] (D : Fin 208 → sProp 𝕄) [∀ t, BI.Storable (upEmb : UEmb _ 𝕄) (D t)]
    (O : CellTallies nD τ sig (HIx 1)) (W : Waits sig (HIx 1))
    (v2 c0 c1 : BitVec 32) (k0_t3 : Fin k0_t3_loop.trips) (k : Fin k0_t4_loop.trips) (acc : Unit) :
    drainInv (F := F) d L (.dma cc0_scratch3.sem) D O W k.val acc
      ⊢ wp frame (wpE (defs₀ (F := F)) 𝒱₀ (thrL d L) none) Set.univ
          (k0_t4_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scratch3 cc0_scratch4 cc0_scratch5 cc0_scratch6 v2 c0 c1 k0_t3 k acc)
          (drainInv (F := F) d L (.dma cc0_scratch3.sem) D O W (k.val + 1)) := by
  have hk : k.val < k0_t4_loop.trips := k.isLt
  have ht4 := trips_t4
  have hk' : k.val < 208 := by omega
  unfold drainInv
  simp only [if_pos hk']
  rcases Nat.lt_or_ge (k.val + 1) 208 with h1 | h1
  · simp only [if_pos h1]
    iintro ⟨-, #Hmw, ⟨%W', %hW, HO⟩, HB⟩
    sl_unfold [k0_t4_body]
    sl_exec
    sl_step
    isplitr; · ipureintro; omega
    isplitr; · iexact Hmw
    isplitl [HO]
    · iexists (insert (SemLoc.dma cc0_scratch3.sem, (none : HIx 1)) W'); isplitr; · ipureintro; exact waits_insert hW _
      iexact HO
    rw [show (k.val + 1) * 1024 = k.val * 1024 + 1024 by omega]
    iexact HB
  · simp only [if_neg (Nat.not_lt.mpr h1)]
    iintro ⟨-, #Hmw, ⟨%W', %hW, HO⟩, HB⟩
    sl_unfold [k0_t4_body]
    sl_exec
    sl_step
    isplitr; · ipureintro; omega
    isplitr; · iexact Hmw
    isplitl [HO]
    · iexists (insert (SemLoc.dma cc0_scratch3.sem, (none : HIx 1)) W'); isplitr; · ipureintro; exact waits_insert hW _
      iexact HO
    isplitl [HB]; · iexact HB
    iexact HB_all

/-- One trip of the drain loop on the second gather semaphore. -/
theorem drain_step5 [∀ e, Nonempty (Elt F e)] (D : Fin 208 → sProp 𝕄) [∀ t, BI.Storable (upEmb : UEmb _ 𝕄) (D t)]
    (O : CellTallies nD τ sig (HIx 1)) (W : Waits sig (HIx 1)) (k : Fin k0_t5_loop.trips) (acc : Unit) :
    drainInv (F := F) d L (.dma cc0_scratch4.sem) D O W k.val acc
      ⊢ wp frame (wpE (defs₀ (F := F)) 𝒱₀ (thrL d L) none) Set.univ
          (k0_t5_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scratch3 cc0_scratch4 cc0_scratch5 cc0_scratch6 k acc)
          (drainInv (F := F) d L (.dma cc0_scratch4.sem) D O W (k.val + 1)) := by
  have hk : k.val < k0_t5_loop.trips := k.isLt
  have ht5 := trips_t5
  have hk' : k.val < 208 := by omega
  unfold drainInv
  simp only [if_pos hk']
  rcases Nat.lt_or_ge (k.val + 1) 208 with h1 | h1
  · simp only [if_pos h1]
    iintro ⟨-, #Hmw, ⟨%W', %hW, HO⟩, HB⟩
    sl_unfold [k0_t5_body]
    sl_exec
    sl_step
    isplitr; · ipureintro; omega
    isplitr; · iexact Hmw
    isplitl [HO]
    · iexists (insert (SemLoc.dma cc0_scratch4.sem, (none : HIx 1)) W'); isplitr; · ipureintro; exact waits_insert hW _
      iexact HO
    rw [show (k.val + 1) * 1024 = k.val * 1024 + 1024 by omega]
    iexact HB
  · simp only [if_neg (Nat.not_lt.mpr h1)]
    iintro ⟨-, #Hmw, ⟨%W', %hW, HO⟩, HB⟩
    sl_unfold [k0_t5_body]
    sl_exec
    sl_step
    isplitr; · ipureintro; omega
    isplitr; · iexact Hmw
    isplitl [HO]
    · iexists (insert (SemLoc.dma cc0_scratch4.sem, (none : HIx 1)) W'); isplitr; · ipureintro; exact waits_insert hW _
      iexact HO
    isplitl [HB]; · iexact HB
    iexact HB_all

/-! ## The loops, with what follows them -/

/-- The drain loop of the first gather semaphore, with what follows it: from the batch with every transfer issued and
    nothing consumed, the loop leaves the cell at zero and every delivery. -/
theorem drain_gs0 [∀ e, Nonempty (Elt F e)] (D : Fin 208 → sProp 𝕄) [∀ t, BI.Storable (upEmb : UEmb _ 𝕄) (D t)]
    (O : CellTallies nD τ sig (HIx 1)) (W : Waits sig (HIx 1))
    (v2 c0 c1 : BitVec 32) (k0_t3 : Fin k0_t3_loop.trips) (hok : k0_t4_loop.OK)
    {α : Type} (kk : Unit → Prog (TpuEff nD τ sig (Elt F) Λ₀ (.scVector (cV L) (jV L))) α) (Q : α → sProp 𝕄) :
    iprop(Transfers.MayWaits (thrL d L) (none : HIx 1) O
        ∗ Transfers.Batch (countersEmb (U := UU)) (thrL d L) (.dma cc0_scratch3.sem) (none : HIx 1) 1024 D 208 0
        ∗ owes (thrL d L) O W
        ∗ (∀ W', iprop(⌜∀ p ∈ W', p ∈ W ∨ p.2 = none⌝ ∗ Transfers.MayWaits (thrL d L) (none : HIx 1) O
              ∗ semVal (thrL d L, SemLoc.dma cc0_scratch3.sem) 0 ∗ bigSep Finset.univ D ∗ owes (thrL d L) O W')
            -∗ wp frame (wpE (defs₀ (F := F)) 𝒱₀ (thrL d L) none) Set.univ (kk ⟨⟩) Q))
      ⊢ wp frame (wpE (defs₀ (F := F)) 𝒱₀ (thrL d L) none) Set.univ
          (Scf.Loop.for k0_t4_loop hok ⟨⟩
            (k0_t4_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6 v2 c0 c1 k0_t3) >>= kk) Q := by
  iintro ⟨#Hmw, HB, HO, Hk⟩
  iapply (Scf.wp_for_bind frame (wpE (defs₀ (F := F)) 𝒱₀ (thrL d L) none) Set.univ k0_t4_loop.lb k0_t4_loop.ub k0_t4_loop.st hok ⟨⟩ _
    (drainInv (F := F) d L (.dma cc0_scratch3.sem) D O W) (fun k acc => drain_step4 d L D O W v2 c0 c1 k0_t3 k acc)) $$ [HB HO]
  · unfold drainInv
    rw [if_pos (by decide : (0 : ℕ) < 208), Nat.zero_mul]
    isplitr; · ipureintro; omega
    isplitr; · iexact Hmw
    isplitl [HO]
    · iexists W; isplitr; · ipureintro; exact fun p hp => Or.inl hp
      iexact HO
    iexact HB
  iintro %acc HL
  ihave HL' := (show drainInv (F := F) d L (.dma cc0_scratch3.sem) D O W (Scf.trips k0_t4_loop.lb k0_t4_loop.ub k0_t4_loop.st) acc
      ⊢ iprop(∃ W', ⌜∀ p ∈ W', p ∈ W ∨ p.2 = none⌝ ∗ Transfers.MayWaits (thrL d L) (none : HIx 1) O
          ∗ semVal (thrL d L, SemLoc.dma cc0_scratch3.sem) 0 ∗ bigSep Finset.univ D ∗ owes (thrL d L) O W') from by
    rw [show Scf.trips k0_t4_loop.lb k0_t4_loop.ub k0_t4_loop.st = 208 from trips_t4]
    unfold drainInv; rw [if_neg (Nat.lt_irrefl _)]
    iintro ⟨-, Hm, ⟨%W', %hW, HO⟩, Hc, Hall⟩
    iexists W'
    isplitr; · ipureintro; exact hW
    isplitl [Hm]; · iexact Hm
    isplitl [Hc]; · iexact Hc
    isplitl [Hall] <;> iassumption) $$ HL
  icases HL' with ⟨%W', HL'⟩
  iapply Hk
  iexact HL'

/-- The drain loop of the second gather semaphore, with what follows it. -/
theorem drain_gs1 [∀ e, Nonempty (Elt F e)] (D : Fin 208 → sProp 𝕄) [∀ t, BI.Storable (upEmb : UEmb _ 𝕄) (D t)]
    (O : CellTallies nD τ sig (HIx 1)) (W : Waits sig (HIx 1)) (hok : k0_t5_loop.OK)
    {α : Type} (kk : Unit → Prog (TpuEff nD τ sig (Elt F) Λ₀ (.scVector (cV L) (jV L))) α) (Q : α → sProp 𝕄) :
    iprop(Transfers.MayWaits (thrL d L) (none : HIx 1) O
        ∗ Transfers.Batch (countersEmb (U := UU)) (thrL d L) (.dma cc0_scratch4.sem) (none : HIx 1) 1024 D 208 0
        ∗ owes (thrL d L) O W
        ∗ (∀ W', iprop(⌜∀ p ∈ W', p ∈ W ∨ p.2 = none⌝ ∗ Transfers.MayWaits (thrL d L) (none : HIx 1) O
              ∗ semVal (thrL d L, SemLoc.dma cc0_scratch4.sem) 0 ∗ bigSep Finset.univ D ∗ owes (thrL d L) O W')
            -∗ wp frame (wpE (defs₀ (F := F)) 𝒱₀ (thrL d L) none) Set.univ (kk ⟨⟩) Q))
      ⊢ wp frame (wpE (defs₀ (F := F)) 𝒱₀ (thrL d L) none) Set.univ
          (Scf.Loop.for k0_t5_loop hok ⟨⟩
            (k0_t5_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6) >>= kk) Q := by
  iintro ⟨#Hmw, HB, HO, Hk⟩
  iapply (Scf.wp_for_bind frame (wpE (defs₀ (F := F)) 𝒱₀ (thrL d L) none) Set.univ k0_t5_loop.lb k0_t5_loop.ub k0_t5_loop.st hok ⟨⟩ _
    (drainInv (F := F) d L (.dma cc0_scratch4.sem) D O W) (fun k acc => drain_step5 d L D O W k acc)) $$ [HB HO]
  · unfold drainInv
    rw [if_pos (by decide : (0 : ℕ) < 208), Nat.zero_mul]
    isplitr; · ipureintro; omega
    isplitr; · iexact Hmw
    isplitl [HO]
    · iexists W; isplitr; · ipureintro; exact fun p hp => Or.inl hp
      iexact HO
    iexact HB
  iintro %acc HL
  ihave HL' := (show drainInv (F := F) d L (.dma cc0_scratch4.sem) D O W (Scf.trips k0_t5_loop.lb k0_t5_loop.ub k0_t5_loop.st) acc
      ⊢ iprop(∃ W', ⌜∀ p ∈ W', p ∈ W ∨ p.2 = none⌝ ∗ Transfers.MayWaits (thrL d L) (none : HIx 1) O
          ∗ semVal (thrL d L, SemLoc.dma cc0_scratch4.sem) 0 ∗ bigSep Finset.univ D ∗ owes (thrL d L) O W') from by
    rw [show Scf.trips k0_t5_loop.lb k0_t5_loop.ub k0_t5_loop.st = 208 from trips_t5]
    unfold drainInv; rw [if_neg (Nat.lt_irrefl _)]
    iintro ⟨-, Hm, ⟨%W', %hW, HO⟩, Hc, Hall⟩
    iexists W'
    isplitr; · ipureintro; exact hW
    isplitl [Hm]; · iexact Hm
    isplitl [Hc]; · iexact Hc
    isplitl [Hall] <;> iassumption) $$ HL
  icases HL' with ⟨%W', HL'⟩
  iapply Hk
  iexact HL'

/-! ## The canonical batches -/

/-- A buffer's elements held at a share can be put into an invariant. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

instance gDeliv_storable (mt : Buf (Elt F) ((tW).view.loc (thrL d L))) (XV : S512x32.Idx → BitVec 32) (b : Fin 2) (ch : Fin 64) (t : Fin 208) :
    BI.Storable (upEmb : UEmb _ 𝕄) (gDeliv d L mt XV b ch t) := by
  unfold gDeliv
  haveI := pts_storable (F := F) ((pcMem b (tj t) (tf t)).view.loc (thrL d L)) (pcMem b (tj t) (tf t)).view.set fullShare (slotFn mt XV ch)
  haveI := pts_storable (F := F) ((tW).view.loc (thrL d L)) (srcSet XV ch t) (Transfers.shareTokN (q32 L) (tokNo b t)) mt
  infer_instance

/-- The drain loop of slot 0's gathers over the canonical batch of a chunk: the cell at zero, every delivery, and what
    the tokens kept. -/
theorem drain_slot0 [∀ e, Nonempty (Elt F e)] (mt : Buf (Elt F) ((tW).view.loc (thrL d L))) (XV : S512x32.Idx → BitVec 32) (ch : Fin 64)
    (O : CellTallies nD τ sig (HIx 1)) (W : Waits sig (HIx 1))
    (v2 c0 c1 : BitVec 32) (k0_t3 : Fin k0_t3_loop.trips) (hok : k0_t4_loop.OK)
    {α : Type} (kk : Unit → Prog (TpuEff nD τ sig (Elt F) Λ₀ (.scVector (cV L) (jV L))) α) (Q : α → sProp 𝕄) :
    iprop(Transfers.MayWaits (thrL d L) (none : HIx 1) O
        ∗ gBatch d L mt XV 0 ch 0
        ∗ owes (thrL d L) O W
        ∗ (∀ W', iprop(⌜∀ p ∈ W', p ∈ W ∨ p.2 = none⌝ ∗ Transfers.MayWaits (thrL d L) (none : HIx 1) O
              ∗ semVal (thrL d L, SemLoc.dma (gSem 0)) 0 ∗ bigSep Finset.univ (gDeliv d L mt XV 0 ch)
              ∗ bigSep Finset.univ (gRest d L mt XV 0 ch) ∗ owes (thrL d L) O W')
            -∗ wp frame (wpE (defs₀ (F := F)) 𝒱₀ (thrL d L) none) Set.univ (kk ⟨⟩) Q))
      ⊢ wp frame (wpE (defs₀ (F := F)) 𝒱₀ (thrL d L) none) Set.univ
          (Scf.Loop.for k0_t4_loop hok ⟨⟩
            (k0_t4_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6 v2 c0 c1 k0_t3) >>= kk) Q := by
  unfold gBatch
  iintro ⟨#Hmw, ⟨HB, HR⟩, HO, Hk⟩
  iapply (drain_gs0 d L (gDeliv d L mt XV 0 ch) O W v2 c0 c1 k0_t3 hok kk Q)
  isplitr; · iexact Hmw
  isplitl [HB]; · iexact HB
  isplitl [HO]; · iexact HO
  iintro %W' ⟨%hW, Hm, Hc, Hall, HO⟩
  iapply Hk
  isplitr; · ipureintro; exact hW
  isplitl [Hm]; · iexact Hm
  isplitl [Hc]; · iexact Hc
  isplitl [Hall]; · iexact Hall
  isplitl [HR] <;> iassumption

/-- The drain loop of slot 1's gathers over the canonical batch of a chunk. -/
theorem drain_slot1 [∀ e, Nonempty (Elt F e)] (mt : Buf (Elt F) ((tW).view.loc (thrL d L))) (XV : S512x32.Idx → BitVec 32) (ch : Fin 64)
    (O : CellTallies nD τ sig (HIx 1)) (W : Waits sig (HIx 1)) (hok : k0_t5_loop.OK)
    {α : Type} (kk : Unit → Prog (TpuEff nD τ sig (Elt F) Λ₀ (.scVector (cV L) (jV L))) α) (Q : α → sProp 𝕄) :
    iprop(Transfers.MayWaits (thrL d L) (none : HIx 1) O
        ∗ gBatch d L mt XV 1 ch 0
        ∗ owes (thrL d L) O W
        ∗ (∀ W', iprop(⌜∀ p ∈ W', p ∈ W ∨ p.2 = none⌝ ∗ Transfers.MayWaits (thrL d L) (none : HIx 1) O
              ∗ semVal (thrL d L, SemLoc.dma (gSem 1)) 0 ∗ bigSep Finset.univ (gDeliv d L mt XV 1 ch)
              ∗ bigSep Finset.univ (gRest d L mt XV 1 ch) ∗ owes (thrL d L) O W')
            -∗ wp frame (wpE (defs₀ (F := F)) 𝒱₀ (thrL d L) none) Set.univ (kk ⟨⟩) Q))
      ⊢ wp frame (wpE (defs₀ (F := F)) 𝒱₀ (thrL d L) none) Set.univ
          (Scf.Loop.for k0_t5_loop hok ⟨⟩
            (k0_t5_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6) >>= kk) Q := by
  unfold gBatch
  iintro ⟨#Hmw, ⟨HB, HR⟩, HO, Hk⟩
  iapply (drain_gs1 d L (gDeliv d L mt XV 1 ch) O W hok kk Q)
  isplitr; · iexact Hmw
  isplitl [HB]; · iexact HB
  isplitl [HO]; · iexact HO
  iintro %W' ⟨%hW, Hm, Hc, Hall, HO⟩
  iapply Hk
  isplitr; · ipureintro; exact hW
  isplitl [Hm]; · iexact Hm
  isplitl [Hc]; · iexact Hc
  isplitl [Hall]; · iexact Hall
  isplitl [HR] <;> iassumption

end Cert.Proof.KernelRun

end
-- ==== Proof.TileTrip.lean ====
/-
  The write-outs of a trip of the main loop: the windows of the result they address are chunks of the worker's rows.
-/
import proofs.«204026_g6957847020299_cont_sun_m_599_21_alg».proof.Proof.TileTripFacts
import proofs.«204026_g6957847020299_cont_sun_m_599_21_alg».proof.Proof.TileLoop
import proofs.«204026_g6957847020299_cont_sun_m_599_21_alg».proof.Proof.TileDrain
import proofs.«204026_g6957847020299_cont_sun_m_599_21_alg».proof.Proof.TileJoin
import Idealize.ShloMosaic.Lib.Tactic

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The even and the odd chunk of trip k, as the body's two write-outs slice the result. -/
def ocE (k : Fin k0_t3_loop.trips) : Memref sig .scVector .hbm S8x26x32 .f32 :=
  (Memref.whole main_v0_scv).slice (Rect.unit (s := S16384x26x32) (k0_off435 L k) S8x26x32.size (k0_off435_inb L k)) (fun _ => rfl)
def ocO (k : Fin k0_t3_loop.trips) : Memref sig .scVector .hbm S8x26x32 .f32 :=
  (Memref.whole main_v0_scv).slice (Rect.unit (s := S16384x26x32) (k0_off660 L k) S8x26x32.size (k0_off660_inb L k)) (fun _ => rfl)

theorem k_lt (k : Fin k0_t3_loop.trips) : k.val < 32 := by have h := k.isLt; have e := trips3; omega

def cE (k : Fin k0_t3_loop.trips) : Fin 64 := ⟨2 * k.val, by have := k_lt k; omega⟩
def cO (k : Fin k0_t3_loop.trips) : Fin 64 := ⟨2 * k.val + 1, by have := k_lt k; omega⟩

theorem ocE_eq (k : Fin k0_t3_loop.trips) : ocE L k = ochunkMem (widL L) (cE k) := by
  unfold ocE ochunkMem oW cE
  congr 2
  exact off435_eq L k
theorem ocO_eq (k : Fin k0_t3_loop.trips) : ocO L k = ochunkMem (widL L) (cO k) := by
  unfold ocO ochunkMem oW cO
  congr 2
  exact off660_eq L k

omit [FloatOps F] in
theorem set_heq {M M' : Memref sig .scVector .hbm S8x26x32 .f32} (h : M = M') : HEq M.view.set M'.view.set := by subst h; rfl

/-- A chunk window, however the body spells it, once slot b has been copied onto it, holds the looked-up values. -/
theorem landed_via [∀ e, Nonempty (Elt F e)] (x : S16384x26.Idx → BitVec 32) (mt : Buf (Elt F) ((tW).view.loc (thrL d L))) (XV : S512x32.Idx → BitVec 32)
    (hst : Staged x (widL L) XV) (b : Fin 2) (c : Fin 64)
    {M : Memref sig .scVector .hbm S8x26x32 .f32} (h : M = ochunkMem (widL L) c) (g : Buf (Elt F) (M.view.loc (thrL d L)))
    (p : S8x26x32.Idx → Elt F .f32) (hp : p = ReadAs.same.apply ((slotMem b).view.read (Elt F) (slotFn mt XV c))) :
    (M.view.loc (thrL d L) ↦[M.view.set]{fullShare} M.view.writes (Elt F) g [⟨Rect.whole S8x26x32, p⟩] : sProp 𝕄)
      ⊢ ochunkAt d L c (outFn d L x mt) := by
  subst h; subst hp
  rw [← Idealize.ShloMosaic.View.write_univ_eq_writes_whole, View.writes_nil]
  exact Entails.of_eq (ochunk_landed d L x mt XV b c hst g)

theorem ck_odd (k : Fin k0_t3_loop.trips) : ck (2 * (k.val + 1) - 1) = cO k := by
  unfold ck cO; apply Fin.ext; have := k_lt k; show (2 * (k.val + 1) - 1) % 64 = 2 * k.val + 1; omega
theorem ck_even (k : Fin k0_t3_loop.trips) : ck (2 * k.val) = cE k := by
  unfold ck cE; apply Fin.ext; have := k_lt k; show (2 * k.val) % 64 = 2 * k.val; omega

/-- The end of a trip: the odd chunk's gathers drained from slot 1, its rows joined, and its write-out started. -/
theorem trip_tail [∀ e, Nonempty (Elt F e)] (x : S16384x26.Idx → BitVec 32) (mt : Buf (Elt F) ((tW).view.loc (thrL d L))) (XV : S512x32.Idx → BitVec 32)
    (hst : Staged x (widL L) XV) (O : CellTallies nD τ sig (HIx 1)) (W : Waits sig (HIx 1)) (k : Fin k0_t3_loop.trips)
    (Q : PUnit → sProp 𝕄) :
    iprop(□ Transfers.MayWaits (thrL d L) (none : HIx 1) O ∗ gBatch d L mt XV 1 (cO k) 0 ∗ semVal (thrL d L, SemLoc.dma (oSem 1)) 0
        ∗ (∃ g, ochunkAt d L (cO k) g) ∗ owes (thrL d L) O W
        ∗ (∀ W', iprop(⌜∀ p ∈ W', p ∈ W ∨ p.2 = none⌝ ∗ semVal (thrL d L, SemLoc.dma (gSem 1)) 0 ∗ slotToks d L mt 1
              ∗ wFlight d L x mt XV 1 (cO k) ∗ owes (thrL d L) O W') -∗ Q ⟨⟩))
      ⊢ wp frame (wpE (defs₀ (F := F)) 𝒱₀ (thrL d L) none) Set.univ
          (do
            Scf.Loop.for k0_t5_loop k0_t5_ok ⟨⟩ (k0_t5_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6)
            let v2172 : Memref sig .scVector .hbm S8x26x32 .f32 := (Memref.whole main_v0_scv).slice (Rect.unit (s := S16384x26x32) (k0_off660 L k) S8x26x32.size (k0_off660_inb L k)) (fun _ => rfl)
            let v2173 : Memref sig .scVector .vmem S1x8x26x32 .f32 := (Memref.whole cc0_scratch1).slice (Rect.unit (s := S2x8x26x32) ![1, 0, 0, 0] S1x8x26x32.size inb_S2x8x26x32_S1x8x26x32_1_0_0_0) (fun _ => rfl)
            let v2174 : Memref sig .scVector .vmem S8x26x32 .f32 := v2173.squeeze S8x26x32 squeezes_S1x8x26x32_S8x26x32
            Prog.lift (.enqueueDma v2174 (.here v2172) (.dma cc0_scratch6.sem) ((View.wordExact_bits rfl).reshape _ _) (View.wordExact_bits rfl) ⟨Or.inl rfl, trivial⟩)
            (pure PUnit.unit : Prog (TpuEff nD τ sig (Elt F) Λ₀ (.scVector (cV L) (jV L))) PUnit))
          Q := by
  iintro ⟨#Hmw, HB, Hs6, ⟨%g, Hoc⟩, HO, Hk⟩
  iapply (drain_slot1 d L mt XV (cO k) O W)
  isplitr; · iexact Hmw
  isplitl [HB]; · iexact HB
  isplitl [HO]; · iexact HO
  iintro %W' ⟨%hW', -, Hc, Hall, HR, HO⟩
  ihave Hj := (drain_join d L mt XV 1 (cO k)) $$ [Hall HR]
  · isplitl [Hall] <;> iassumption
  icases Hj with ⟨Hslot, Htoks⟩
  ihave Hs6' := (Entails.of_eq (show (semVal (thrL d L, SemLoc.dma (oSem 1)) 0 : sProp 𝕄) = semVal (thrL d L, SemLoc.dma cc0_scratch6.sem) 0 from rfl)) $$ Hs6
  have hsetO : ((ochunkMem (widL L) (cO k)).view.set : Finset S16384x26x32.Idx) = (ocO L k).view.set := eq_of_heq (set_heq (ocO_eq L k).symm)
  ihave Hoc' := (Entails.of_eq (show (ochunkAt d L (cO k) g : sProp 𝕄)
      = ((ocO L k).view.loc (thrL d L) ↦[(ocO L k).view.set]{fullShare} g) from
        congrArg (fun S : Finset S16384x26x32.Idx => ((oLoc d) ↦[S]{fullShare} g : sProp 𝕄)) hsetO)) $$ Hoc
  ihave Hslot' := (Entails.of_eq (show (slotAt d L mt XV 1 (cO k) : sProp 𝕄)
      = ((slotMem 1).view.loc (thrL d L) ↦[(slotMem 1).view.set]{fullShare} slotFn mt XV (cO k)) from rfl)) $$ Hslot
  unfold ocO
  sl_exec
  sl_step
  iapply Hk
  isplitr; · ipureintro; exact hW'
  isplitl [Hc]; · iexact Hc
  isplitl [Htoks]; · iexact Htoks
  isplitl [Hs6']
  · unfold wFlight
    iapply (Transfers.Flight_mono (D' := iprop(ochunkAt d L (cO k) (outFn d L x mt) ∗ slotAt d L mt XV 1 (cO k))) ?h) $$ Hs6'
    case h =>
      iintro ⟨Hd, Hs⟩
      isplitl [Hd]
      · iapply (landed_via d L x mt XV hst 1 (cO k) (ocO_eq L k) g _ rfl); iexact Hd
      · iapply (Entails.of_eq (show ((slotMem 1).view.loc (thrL d L) ↦[(slotMem 1).view.set]{fullShare} slotFn mt XV (cO k) : sProp 𝕄) = slotAt d L mt XV 1 (cO k) from rfl)); iexact Hs
  · iexact HO

/-- After the first half of trip k (the previous odd write-out waited for, the odd chunk's gathers started into slot 1,
    the even chunk's gathers drained from slot 0 and its rows written out and waited for). -/
def midInv (x : S16384x26.Idx → BitVec 32) (mt : Buf (Elt F) ((tW).view.loc (thrL d L))) (XV : S512x32.Idx → BitVec 32)
    (O : CellTallies nD τ sig (HIx 1)) (W : Waits sig (HIx 1)) (k : Fin k0_t3_loop.trips) : sProp 𝕄 :=
  iprop(□ Transfers.MayWaits (thrL d L) (none : HIx 1) O
    ∗ ((sX).view.loc (thrL d L) ↦{fullShare} XV)
    ∗ gBatch d L mt XV 1 (cO k) 0
    ∗ semVal (thrL d L, SemLoc.dma (gSem 0)) 0 ∗ slotFree d L 0 ∗ slotToks d L mt 0
    ∗ semVal (thrL d L, SemLoc.dma (oSem 0)) 0 ∗ semVal (thrL d L, SemLoc.dma (oSem 1)) 0
    ∗ outDone d L x mt (2 * k.val + 1) ∗ outTodo d L (2 * k.val + 1)
    ∗ ∃ W', ⌜∀ p ∈ W', p ∈ W ∨ p.2 = none⌝ ∗ owes (thrL d L) O W')

end Cert.Proof.KernelRun

end
-- ==== Proof.TileTripA.lean ====
/-
  The first half of a trip of the main loop: the previous odd write-out waited for (from the second trip on), the odd
  chunk's 208 table rows started into slot 1, the even chunk's drained from slot 0, joined and written out onto its
  chunk of the result, and that write-out waited for.
-/
import proofs.«204026_g6957847020299_cont_sun_m_599_21_alg».proof.Proof.TileTrip
import proofs.«204026_g6957847020299_cont_sun_m_599_21_alg».proof.Proof.TileLanes
import proofs.«204026_g6957847020299_cont_sun_m_599_21_alg».proof.Proof.TileGatherKit

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

attribute [local irreducible] gDeliv

/-- The arithmetic of a gather's place inside the main loop: the scratch rows a trip's loads address are closed forms of
    the trip, and the chunk numbers are 2 k + 1 and 2 k + 2. -/
macro_rules | `(tactic| gd_arith) => `(tactic| (
  simp only [k0_off211_eq, k0_off212_eq, k0_off239_eq, k0_off240_eq, k0_off267_eq, k0_off268_eq, k0_off295_eq, k0_off296_eq,
    k0_off323_eq, k0_off324_eq, k0_off351_eq, k0_off352_eq, k0_off379_eq, k0_off380_eq, k0_off407_eq, k0_off408_eq,
    k0_off436_eq, k0_off437_eq, k0_off464_eq, k0_off465_eq, k0_off492_eq, k0_off493_eq, k0_off520_eq, k0_off521_eq,
    k0_off548_eq, k0_off549_eq, k0_off576_eq, k0_off577_eq, k0_off604_eq, k0_off605_eq, k0_off632_eq, k0_off633_eq,
    cO, cE, ck, tj, tf, tN, Nat.reduceDiv, Matrix.cons_val_zero, Matrix.cons_val_one, Matrix.head_cons, Fin.val_mk, Fin.val_zero, Fin.val_one, Fin.val_two,
    Fin.coe_ofNat_eq_mod, Nat.reduceMod, Nat.reduceAdd, Fin.isValue] <;> omega))

set_option sl_exec.dischHeartbeats 100000 in
set_option maxHeartbeats 40000000 in
set_option maxRecDepth 65536 in
/-- The first half of trip k. -/
theorem trip_first [∀ e, Nonempty (Elt F e)] (x : S16384x26.Idx → BitVec 32) (mt : Buf (Elt F) ((tW).view.loc (thrL d L))) (XV : S512x32.Idx → BitVec 32)
    (hst : Staged x (widL L) XV) (hx : Cert.Lookup.InRange x)
    (O : CellTallies nD τ sig (HIx 1)) (W : Waits sig (HIx 1)) (v2 : BitVec 32) (k : Fin k0_t3_loop.trips) (acc : Unit) :
    loopInv d L x mt XV O W k.val acc
      ⊢ wp frame (wpE (defs₀ (F := F)) 𝒱₀ (thrL d L) none) Set.univ
          (k0_part145 L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scratch3 cc0_scratch4 cc0_scratch5 cc0_scratch6 v2 0#32 1#32 k)
          (fun _ => midInv d L x mt XV O W k) := by
  have hk := k_lt k
  have h2 := cond2_true k
  have h3 := cond3_true k
  sl_unfold [k0_part145]
  unfold loopInv
  rw [if_pos hk, outTodo_head d L (2 * k.val) (by omega), show (⟨2 * k.val, (by omega : 2 * k.val < 64)⟩ : Fin 64) = cE k from rfl]
  rcases Nat.eq_zero_or_pos k.val with hk0 | hkpos
  · have h1 : ¬ (Scalar.cmpi .ne (Scalar.extui (Scalar.cmpi .sge (Scalar.muli 2#32 (Scf.iv 0#32 1#32 k)) 1#32)) 0#32 = 1#1) :=
      fun h => by have := (cond1_iff k).1 h; omega
    rw [if_pos hk0, show 2 * k.val - 1 = 2 * k.val by omega]
    iintro ⟨#Hmw, Hxv, HB0, ⟨Ho1, Hsl1⟩, Htk1, Hg1, Ho0, Hdone, ⟨Hoc, Htodo⟩, %W1, %hW1, HO⟩
    imod (gather_prep d L mt XV 1 (cO k)) $$ [Hsl1 Htk1 Hg1] with ⟨%g1, Hp, Hk, HB1⟩
    · isplitl [Hsl1]; · iexact Hsl1
      isplitl [Htk1]; · iexact Htk1
      iexact Hg1
    simp (config := { proj := false }) only [sepFrom_succ, sepFrom_zero, pieceN_eq, tokN_eq, Nat.reduceAdd, Nat.reduceMod, Nat.reduceDiv, Nat.reduceMul, Fin.val_zero, Fin.val_one, Fin.isValue]
    icases_seq Hp Hp 208
    icases_seq Hk Hk 208
    sl_exec_parts (disch := first | lk_disch | lk_disch' | gd_disch)
    -- the even chunk's gathers drained from slot 0, its rows joined
    ihave HB0' := (Entails.of_eq (show (gBatch d L mt XV 0 (ck (2 * k.val)) 0 : sProp 𝕄) = gBatch d L mt XV 0 (cE k) 0 from by rw [ck_even])) $$ HB0
    iapply (drain_slot0 d L mt XV (cE k) O W1 v2 0#32 1#32 k k0_t4_ok)
    isplitr; · iexact Hmw
    isplitl [HB0']; · iexact HB0'
    isplitl [HO]; · iexact HO
    iintro %W2 ⟨%hW2, -, Hg0, Hall, HR, HO⟩
    ihave Hj := (drain_join d L mt XV 0 (cE k)) $$ [Hall HR]
    · isplitl [Hall] <;> iassumption
    icases Hj with ⟨Hslot0, Htok0⟩
    -- slot 0 written out onto the even chunk, and the write-out waited for
    icases Hoc with ⟨%ge, Hoc⟩
    have hsetE : ((ochunkMem (widL L) (cE k)).view.set : Finset S16384x26x32.Idx) = (ocE L k).view.set := eq_of_heq (set_heq (ocE_eq L k).symm)
    ihave Hoc' := (Entails.of_eq (show (ochunkAt d L (cE k) ge : sProp 𝕄)
        = ((ocE L k).view.loc (thrL d L) ↦[(ocE L k).view.set]{fullShare} ge) from
          congrArg (fun S : Finset S16384x26x32.Idx => ((oLoc d) ↦[S]{fullShare} ge : sProp 𝕄)) hsetE)) $$ Hoc
    ihave Hslot0' := (Entails.of_eq (show (slotAt d L mt XV 0 (cE k) : sProp 𝕄)
        = ((slotMem 0).view.loc (thrL d L) ↦[(slotMem 0).view.set]{fullShare} slotFn mt XV (cE k)) from rfl)) $$ Hslot0
    ihave Ho0' := (Entails.of_eq (show (semVal (thrL d L, SemLoc.dma (oSem 0)) 0 : sProp 𝕄) = semVal (thrL d L, SemLoc.dma cc0_scratch5.sem) 0 from rfl)) $$ Ho0
    unfold ocE
    sl_exec
    sl_step
    unfold midInv
    isplitr; · iexact Hmw
    isplitl [Hxv]; · iexact Hxv
    isplitl_seq [HB1] Hk 208
    · iclear Hmw
      iapply (gather_fold d L mt XV 1 (cO k) 0)
      isplitl [HB1]; · iexact HB1
      simp (config := { proj := false }) only [sepFrom_succ, sepFrom_zero, Nat.reduceAdd]
      irests_seq Hk 208
    isplitl [Hg0]; · iexact Hg0
    isplitl [Hslot0']; · unfold slotFree; iexists _; iexact Hslot0'
    isplitl [Htok0]; · iexact Htok0
    isplitl [Ho0']; · iexact Ho0'
    isplitl [Ho1]; · iexact Ho1
    isplitl [Hdone Hoc']
    · rw [outDone_succ d L x mt (2 * k.val) (by omega)]
      isplitl [Hoc']
      · iapply (landed_via d L x mt XV hst 0 (cE k) (ocE_eq L k) ge _ rfl); iexact Hoc'
      · iexact Hdone
    isplitl [Htodo]; · iexact Htodo
    iexists (insert (SemLoc.dma cc0_scratch5.sem, (none : HIx 1)) W2); isplitr
    · ipureintro; intro p hp
      rcases Finset.mem_insert.mp hp with h | hp
      · exact .inr (by rw [h])
      · rcases hW2 p hp with h | h
        · exact hW1 p h
        · exact .inr h
    · iexact HO
  · have h1 := (cond1_iff k).2 hkpos
    have e1 : ck (2 * k.val - 1) = (⟨2 * k.val - 1, by omega⟩ : Fin 64) := Fin.ext (Nat.mod_eq_of_lt (by omega))
    have e2 : 2 * k.val - 1 + 1 = 2 * k.val := by omega
    have hd : (iprop(ochunkAt d L ⟨2 * k.val - 1, by omega⟩ (outFn d L x mt) ∗ outDone d L x mt (2 * k.val - 1)) : sProp 𝕄)
        = outDone d L x mt (2 * k.val) := by
      have h := outDone_succ d L x mt (2 * k.val - 1) (by omega); rw [e2] at h; exact h.symm
    rw [if_neg (show ¬ k.val = 0 by omega), e1]
    unfold wFlight ochunkAt slotAt
    rw [show oSem (1 : Fin 2) = cc0_scratch6.sem from rfl]
    iintro ⟨#Hmw, Hxv, HB0, Hfl, Htk1, Hg1, Ho0, Hdone, ⟨Hoc, Htodo⟩, %W1, %hW1, HO⟩
    ihave Hxvh := (Entails.of_eq (aside_eq ((sX).view.loc (thrL d L) ↦{fullShare} XV)).symm) $$ Hxv
    sl_exec
    ihave Hxv := (Entails.of_eq (aside_eq ((sX).view.loc (thrL d L) ↦{fullShare} XV))) $$ Hxvh
    ihave Hsl1 : slotFree d L 1 $$ [Hfl_src]
    · iapply (slotAt_free d L mt XV 1 (⟨2 * k.val - 1, by omega⟩ : Fin 64)); unfold slotAt; iexact Hfl_src
    ihave Hdone := (Entails.of_eq hd) $$ [Hfl_dst Hdone]
    · isplitl [Hfl_dst]
      · unfold ochunkAt; iexact Hfl_dst
      · iexact Hdone
    irename Hfl => Ho1

    imod (gather_prep d L mt XV 1 (cO k)) $$ [Hsl1 Htk1 Hg1] with ⟨%g1, Hp, Hk, HB1⟩
    · isplitl [Hsl1]; · iexact Hsl1
      isplitl [Htk1]; · iexact Htk1
      iexact Hg1
    simp (config := { proj := false }) only [sepFrom_succ, sepFrom_zero, pieceN_eq, tokN_eq, Nat.reduceAdd, Nat.reduceMod, Nat.reduceDiv, Nat.reduceMul, Fin.val_zero, Fin.val_one, Fin.isValue]
    icases_seq Hp Hp 208
    icases_seq Hk Hk 208
    sl_exec_parts (disch := first | lk_disch | lk_disch' | gd_disch)
    -- the even chunk's gathers drained from slot 0, its rows joined
    ihave HB0' := (Entails.of_eq (show (gBatch d L mt XV 0 (ck (2 * k.val)) 0 : sProp 𝕄) = gBatch d L mt XV 0 (cE k) 0 from by rw [ck_even])) $$ HB0
    iapply (drain_slot0 d L mt XV (cE k) O (insert (SemLoc.dma (⟨4, by decide⟩ : DmaSem sig), (none : HIx 1)) W1) v2 0#32 1#32 k k0_t4_ok)
    isplitr; · iexact Hmw
    isplitl [HB0']; · iexact HB0'
    isplitl [HO]; · iexact HO
    iintro %W2 ⟨%hW2, -, Hg0, Hall, HR, HO⟩
    ihave Hj := (drain_join d L mt XV 0 (cE k)) $$ [Hall HR]
    · isplitl [Hall] <;> iassumption
    icases Hj with ⟨Hslot0, Htok0⟩
    -- slot 0 written out onto the even chunk, and the write-out waited for
    icases Hoc with ⟨%ge, Hoc⟩
    have hsetE : ((ochunkMem (widL L) (cE k)).view.set : Finset S16384x26x32.Idx) = (ocE L k).view.set := eq_of_heq (set_heq (ocE_eq L k).symm)
    ihave Hoc' := (Entails.of_eq (show (((ochunkMem (widL L) (cE k)).view.loc (thrL d L) ↦[(ochunkMem (widL L) (cE k)).view.set]{fullShare} ge) : sProp 𝕄)
        = ((ocE L k).view.loc (thrL d L) ↦[(ocE L k).view.set]{fullShare} ge) from
          congrArg (fun S : Finset S16384x26x32.Idx => ((oLoc d) ↦[S]{fullShare} ge : sProp 𝕄)) hsetE)) $$ Hoc
    ihave Hslot0' := (Entails.of_eq (show (slotAt d L mt XV 0 (cE k) : sProp 𝕄)
        = ((slotMem 0).view.loc (thrL d L) ↦[(slotMem 0).view.set]{fullShare} slotFn mt XV (cE k)) from rfl)) $$ Hslot0
    ihave Ho0' := (Entails.of_eq (show (semVal (thrL d L, SemLoc.dma (oSem 0)) 0 : sProp 𝕄) = semVal (thrL d L, SemLoc.dma cc0_scratch5.sem) 0 from rfl)) $$ Ho0
    unfold ocE
    sl_exec
    sl_step
    unfold midInv
    isplitr; · iexact Hmw
    isplitl [Hxv]; · iexact Hxv
    isplitl_seq [HB1] Hk 208
    · iclear Hmw
      iapply (gather_fold d L mt XV 1 (cO k) 0)
      isplitl [HB1]; · iexact HB1
      simp (config := { proj := false }) only [sepFrom_succ, sepFrom_zero, Nat.reduceAdd]
      irests_seq Hk 208
    isplitl [Hg0]; · iexact Hg0
    isplitl [Hslot0']; · unfold slotFree; iexists _; iexact Hslot0'
    isplitl [Htok0]; · iexact Htok0
    isplitl [Ho0']; · iexact Ho0'
    isplitl [Ho1]; · iexact Ho1
    isplitl [Hdone Hoc']
    · rw [outDone_succ d L x mt (2 * k.val) (by omega)]
      isplitl [Hoc']
      · iapply (landed_via d L x mt XV hst 0 (cE k) (ocE_eq L k) ge _ rfl); iexact Hoc'
      · iexact Hdone
    isplitl [Htodo]; · iexact Htodo
    iexists (insert (SemLoc.dma cc0_scratch5.sem, (none : HIx 1)) W2); isplitr
    · ipureintro; intro p hp
      rcases Finset.mem_insert.mp hp with h | hp
      · exact .inr (by rw [h])
      · rcases hW2 p hp with h | h
        · rcases Finset.mem_insert.mp h with h' | h'
          · exact .inr (by rw [h'])
          · exact hW1 p h'
        · exact .inr h
    · iexact HO

end Cert.Proof.KernelRun

end
-- ==== Proof.TileTrip2.lean ====
/-
  One trip of the main loop, assembled: the first half (the printed part that waits for the previous odd write-out,
  starts the odd chunk's gathers, drains the even chunk's and writes it out), then the next even chunk's gathers on
  every trip but the last, then the end of the trip.
-/
import proofs.«204026_g6957847020299_cont_sun_m_599_21_alg».proof.Proof.TileTrip
import proofs.«204026_g6957847020299_cont_sun_m_599_21_alg».proof.Proof.TileLanes
import proofs.«204026_g6957847020299_cont_sun_m_599_21_alg».proof.Proof.TileGatherKit
import proofs.«204026_g6957847020299_cont_sun_m_599_21_alg».proof.Proof.TileTripA

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

attribute [local irreducible] gDeliv

/-- The arithmetic of a gather's place inside the main loop, with the transfer's row and table still spelt through its
    number: the scratch rows a trip's loads address are closed forms of the trip. -/
macro_rules | `(tactic| gd_arith) => `(tactic| (
  simp only [k0_off211_eq, k0_off212_eq, k0_off239_eq, k0_off240_eq, k0_off267_eq, k0_off268_eq, k0_off295_eq, k0_off296_eq,
    k0_off323_eq, k0_off324_eq, k0_off351_eq, k0_off352_eq, k0_off379_eq, k0_off380_eq, k0_off407_eq, k0_off408_eq,
    k0_off436_eq, k0_off437_eq, k0_off464_eq, k0_off465_eq, k0_off492_eq, k0_off493_eq, k0_off520_eq, k0_off521_eq,
    k0_off548_eq, k0_off549_eq, k0_off576_eq, k0_off577_eq, k0_off604_eq, k0_off605_eq, k0_off632_eq, k0_off633_eq,
    cO, cE, ck, tj, tf, tN, Nat.reduceDiv, Matrix.cons_val_zero, Matrix.cons_val_one, Matrix.head_cons, Fin.val_mk, Fin.val_zero, Fin.val_one, Fin.val_two,
    Fin.coe_ofNat_eq_mod, Nat.reduceMod, Nat.reduceAdd, Fin.isValue] <;> omega))

set_option sl_exec.dischHeartbeats 100000 in
set_option maxHeartbeats 40000000 in
set_option maxRecDepth 65536 in
/-- One trip of the main loop. -/
theorem trip [∀ e, Nonempty (Elt F e)] (x : S16384x26.Idx → BitVec 32) (mt : Buf (Elt F) ((tW).view.loc (thrL d L))) (XV : S512x32.Idx → BitVec 32)
    (hst : Staged x (widL L) XV) (hx : Cert.Lookup.InRange x)
    (O : CellTallies nD τ sig (HIx 1)) (W : Waits sig (HIx 1)) (v2 : BitVec 32) (k : Fin k0_t3_loop.trips) (acc : Unit) :
    loopInv d L x mt XV O W k.val acc
      ⊢ wp frame (wpE (defs₀ (F := F)) 𝒱₀ (thrL d L) none) Set.univ
          (k0_t3_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scratch3 cc0_scratch4 cc0_scratch5 cc0_scratch6 v2 k acc)
          (loopInv d L x mt XV O W (k.val + 1)) := by
  have hk := k_lt k
  sl_unfold [k0_t3_body]
  rw [wp_bind]
  refine (trip_first d L x mt XV hst hx O W v2 k acc).trans (wp_mono frame _ _ fun r => ?_)
  obtain ⟨v2158, v2164⟩ := r
  unfold midInv
  rw [outTodo_head d L (2 * k.val + 1) (by omega)]
  iintro ⟨#Hmw, Hxv, HB1, Hg0, Hslot0, Htok0, Ho0, Ho1, Hdone, ⟨Hoc, Htodo⟩, %W1, %hW1, HO⟩
  by_cases h31 : k.val < 31
  · have h4 := (cond4_iff k).2 h31
    imod (gather_prep d L mt XV 0 (ck (2 * (k.val + 1)))) $$ [Hslot0 Htok0 Hg0] with ⟨%g0, Hp, Hk, HB0⟩
    · isplitl [Hslot0]; · iexact Hslot0
      isplitl [Htok0]; · iexact Htok0
      iexact Hg0
    simp (config := { proj := false }) only [sepFrom_succ, sepFrom_zero, pieceN_eq, tokN_eq, Nat.reduceAdd, Nat.reduceMod, Nat.reduceDiv, Nat.reduceMul, Fin.val_zero, Fin.val_one, Fin.isValue]
    icases_seq Hp Hp 208
    icases_seq Hk Hk 208
    sl_exec_parts (disch := first | lk_disch | lk_disch' | gd_disch)
    iapply (trip_tail d L x mt XV hst O W1 k)
    isplitr; · iexact Hmw
    isplitl [HB1]; · iexact HB1
    isplitl [Ho1]; · iexact Ho1
    isplitl [Hoc]; · iexact Hoc
    isplitl [HO]; · iexact HO
    iintro %W2 ⟨%hW2, Hg1, Htok1, Hfl, HO⟩
    unfold loopInv
    rw [if_pos (show k.val + 1 < 32 by omega), if_neg (show ¬ (k.val + 1 = 0) by omega), ck_odd,
      show 2 * (k.val + 1) - 1 = 2 * k.val + 1 by omega, show 2 * (k.val + 1) = 2 * k.val + 1 + 1 by omega]
    isplitr; · iexact Hmw
    isplitl [Hxv]; · iexact Hxv
    isplitl_seq [HB0] Hk 208
    · iclear Hmw
      iapply (gather_fold d L mt XV 0 (ck (2 * (k.val + 1))) 0)
      isplitl [HB0]; · iexact HB0
      simp (config := { proj := false }) only [sepFrom_succ, sepFrom_zero, Nat.reduceAdd]
      irests_seq Hk 208
    isplitl [Hfl]; · iexact Hfl
    isplitl [Htok1]; · iexact Htok1
    isplitl [Hg1]; · iexact Hg1
    isplitl [Ho0]; · iexact Ho0
    isplitl [Hdone]; · iexact Hdone
    isplitl [Htodo]; · iexact Htodo
    iexists W2; isplitr
    · ipureintro; intro p hp
      rcases hW2 p hp with h | h
      · exact hW1 p h
      · exact .inr h
    · iexact HO
  · have h4 : ¬ k0_cond4 k = 1#1 := fun h => h31 ((cond4_iff k).1 h)
    sl_exec
    iapply (trip_tail d L x mt XV hst O W1 k)
    isplitr; · iexact Hmw
    isplitl [HB1]; · iexact HB1
    isplitl [Ho1]; · iexact Ho1
    isplitl [Hoc]; · iexact Hoc
    isplitl [HO]; · iexact HO
    iintro %W2 ⟨%hW2, Hg1, Htok1, Hfl, HO⟩
    unfold loopInv
    rw [if_neg (show ¬ (k.val + 1 < 32) by omega), if_neg (show ¬ (k.val + 1 = 0) by omega), ck_odd,
      show 2 * (k.val + 1) - 1 = 2 * k.val + 1 by omega, show 2 * (k.val + 1) = 2 * k.val + 1 + 1 by omega]
    isplitr; · iexact Hmw
    isplitl [Hxv]; · iexact Hxv
    isplitl [Hg0 Hslot0 Htok0]
    · isplitl [Hg0]; · iexact Hg0
      isplitl [Hslot0]; · iexact Hslot0
      iexact Htok0
    isplitl [Hfl]; · iexact Hfl
    isplitl [Htok1]; · iexact Htok1
    isplitl [Hg1]; · iexact Hg1
    isplitl [Ho0]; · iexact Ho0
    isplitl [Hdone]; · iexact Hdone
    isplitl [Htodo]; · iexact Htodo
    iexists W2; isplitr
    · ipureintro; intro p hp
      rcases hW2 p hp with h | h
      · exact hW1 p h
      · exact .inr h
    · iexact HO

end Cert.Proof.KernelRun

end
-- ==== Proof.TileEnd.lean ====
/-
  The task from the main loop on: the loop by its invariant, then the epilogue's wait for the last odd write-out, after
  which every chunk of the worker's rows holds the looked-up values and both slots and all tokens are back.
-/
import proofs.«204026_g6957847020299_cont_sun_m_599_21_alg».proof.Proof.TileTrip2

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- What the subcore holds when its task returns. -/
def endInv (x : S16384x26.Idx → BitVec 32) (mt : Buf (Elt F) ((tW).view.loc (thrL d L))) (XV : S512x32.Idx → BitVec 32)
    (O : CellTallies nD τ sig (HIx 1)) (W : Waits sig (HIx 1)) : sProp 𝕄 :=
  iprop(((sX).view.loc (thrL d L) ↦{fullShare} XV)
    ∗ semVal (thrL d L, SemLoc.dma (gSem 0)) 0 ∗ semVal (thrL d L, SemLoc.dma (gSem 1)) 0
    ∗ semVal (thrL d L, SemLoc.dma (oSem 0)) 0 ∗ semVal (thrL d L, SemLoc.dma (oSem 1)) 0
    ∗ slotFree d L 0 ∗ slotFree d L 1 ∗ slotToks d L mt 0 ∗ slotToks d L mt 1
    ∗ outDone d L x mt 64
    ∗ ∃ W', ⌜∀ p ∈ W', p ∈ W ∨ p.2 = none⌝ ∗ owes (thrL d L) O W')

theorem c63 : ck (2 * 32 - 1) = (⟨63, by decide⟩ : Fin 64) := by unfold ck; apply Fin.ext; rfl

/-- The program from the main loop on, from the invariant before the first trip. -/
theorem from_loop [∀ e, Nonempty (Elt F e)] (x : S16384x26.Idx → BitVec 32) (mt : Buf (Elt F) ((tW).view.loc (thrL d L))) (XV : S512x32.Idx → BitVec 32)
    (hst : Staged x (widL L) XV) (hx : Cert.Lookup.InRange x)
    (O : CellTallies nD τ sig (HIx 1)) (W : Waits sig (HIx 1)) (v2 : BitVec 32) :
    loopInv d L x mt XV O W 0 ()
      ⊢ wp frame (wpE (defs₀ (F := F)) 𝒱₀ (thrL d L) none) Set.univ
          (do
            Scf.Loop.for k0_t3_loop k0_t3_ok ⟨⟩ (k0_t3_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6 v2)
            let v2137 : Memref sig .scVector .hbm S8x26x32 .f32 := (Memref.whole main_v0_scv).slice (Rect.unit (s := S16384x26x32) ![0, 0, 0] S8x26x32.size inb_S16384x26x32_S8x26x32_0_0_0) (fun _ => rfl)
            let v2138 : Memref sig .scVector .vmem S1x8x26x32 .f32 := (Memref.whole cc0_scratch1).slice (Rect.unit (s := S2x8x26x32) ![0, 0, 0, 0] S1x8x26x32.size inb_S2x8x26x32_S1x8x26x32_0_0_0_0) (fun _ => rfl)
            let v2139 : Memref sig .scVector .vmem S8x26x32 .f32 := v2138.squeeze S8x26x32 squeezes_S1x8x26x32_S8x26x32
            Prog.lift (.waitDma2 cc0_scratch6.sem v2139 v2137 ((View.wordExact_bits rfl).reshape _ _) (View.wordExact_bits rfl))
            (pure PUnit.unit : Prog (TpuEff nD τ sig (Elt F) Λ₀ (.scVector (cV L) (jV L))) PUnit))
          fun _ => endInv d L x mt XV O W := by
  iintro HI
  sl_for (loopInv d L x mt XV O W) $$ [HI]
  case region =>
    intro k acc
    exact trip d L x mt XV hst hx O W v2 k acc
  · iexact HI
  iintro %_ HI
  have ht : Scf.trips (0#32) (Scalar.addi 0#32 32#32) 1#32 = 32 := trips3
  rw [ht]
  unfold loopInv
  simp only [show ¬ (32 : ℕ) < 32 from by decide, show ¬ (32 : ℕ) = 0 from by decide, if_false]
  rw [c63]
  unfold wFlight ochunkAt slotAt
  rw [show oSem (1 : Fin 2) = cc0_scratch6.sem from rfl]
  icases HI with ⟨#Hmw, Hxv, ⟨Hg0, Hslot0, Htok0⟩, Hfl, Htok1, Hg1, Ho0, Hdone, Htodo, %W1, %hW1, HO⟩
  sl_exec
  sl_step
  unfold endInv
  isplitl [Hxv]; · iexact Hxv
  isplitl [Hg0]; · iexact Hg0
  isplitl [Hg1]; · iexact Hg1
  isplitl [Ho0]; · iexact Ho0
  isplitl [Hfl]; · iexact Hfl
  isplitl [Hslot0]; · iexact Hslot0
  isplitl [Hfl_src]; · unfold slotFree; iexists _; iexact Hfl_src
  isplitl [Htok0]; · iexact Htok0
  isplitl [Htok1]; · iexact Htok1
  isplitl [Hdone Hfl_dst]
  · rw [outDone_succ d L x mt 63 (by decide)]
    isplitl [Hfl_dst]
    · unfold ochunkAt; iexact Hfl_dst
    · iexact Hdone
  iexists (insert (SemLoc.dma cc0_scratch6.sem, (none : HIx 1)) W1); isplitr
  · ipureintro; intro p hp
    rcases Finset.mem_insert.mp hp with h | hp
    · exact .inr (by rw [h])
    · exact hW1 p hp
  · iexact HO

end Cert.Proof.KernelRun

end
-- ==== Proof.TileFinish.lean ====
/-
  The end of a vector subcore's task: from what it holds when the body returns, back to what the launch handed it, its
  rows of the result now at the looked-up values.
-/
import proofs.«204026_g6957847020299_cont_sun_m_599_21_alg».proof.Proof.TileScoped
import proofs.«204026_g6957847020299_cont_sun_m_599_21_alg».proof.Proof.TileSlots
import proofs.«204026_g6957847020299_cont_sun_m_599_21_alg».proof.Proof.TileEnd

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (d : Dev nD) (L : grid0.Coords)

theorem tile_finish [∀ e, Nonempty (Elt F e)] (hF : (K (F := F)).Facts) (XV : S512x32.Idx → BitVec 32)
    (O : CellTallies nD τ sig (HIx 1)) (W : Waits sig (HIx 1)) :
    iprop(endInv d L (m (xLoc d)) (m (tLoc d)) XV O W
        ∗ (xLoc d ↦[xRows (widL L)]{fullShare} m (xLoc d))
        ∗ ((tW).view.loc (thrL d L) ↦{Transfers.shareDrop (q32 L) 424} m (tLoc d))
        ∗ bigSep (Finset.range 8) (fun n => tabTok d L (m (tLoc d)) n)
        ∗ semVal (thrL d L, SemLoc.dma cc0_scratch2.sem) 0
        ∗ (bigSep (((ownRefs (τ := τ) (.scVector (cV L) (jV L))).erase ((Proc.scVector (cV L) (jV L)).devRef cc0_scratch0)).erase ((Proc.scVector (cV L) (jV L)).devRef cc0_scratch1))
            fun b => iprop(∃ f, ((d, b) : Loc nD τ sig) ↦{fullShare} f))
        ∗ (bigSep ((((((ownCells (thrL d L)).erase (thrL d L, .dma cc0_scratch2.sem)).erase (thrL d L, .dma cc0_scratch3.sem)).erase (thrL d L, .dma cc0_scratch4.sem)).erase (thrL d L, .dma cc0_scratch5.sem)).erase (thrL d L, .dma cc0_scratch6.sem))
            fun g => semVal g 0))
      ⊢ (iprop(tileOut m d (widL L) ∗ scopedBufs (thrL d L) ∗ scopedSems0 (thrL d L)
            ∗ ∃ W', ⌜∀ p ∈ W', p ∈ W ∨ p.2 = none⌝ ∗ owes (thrL d L) O W') : sProp 𝕄) := by
  rw [(K (F := F)).scopedBufs_V hF d (cV L) (jV L), SparseCore.Cfg.scopedSems0_V (Val := Elt F) d (cV L) (jV L), ownSems0_V, ownBufs_V]
  unfold endInv tileOut
  iintro ⟨⟨Hxv, Hg0, Hg1, Ho0, Ho1, Hsl0, Hsl1, Htk0, Htk1, Hdone, HW⟩, Hx, Htr, Ht8, Hs2, Hbufs, Hsems⟩
  ihave Ht := (tab_toks d L (m (tLoc d))).2 $$ [Htr Ht8 Htk0 Htk1]
  · isplitl [Htr]; · iexact Htr
    isplitl [Ht8]; · iexact Ht8
    isplitl [Htk0]; · iexact Htk0
    iexact Htk1
  ihave Hout := (out_finish d L (m (xLoc d)) (m (tLoc d))) $$ Hdone
  ihave HsR := (sR_join d L) $$ [Hsl0 Hsl1]
  · isplitl [Hsl0] <;> iassumption
  icases HsR with ⟨%gR, HsR⟩
  isplitl [Hx Ht Hout]
  · isplitl [Hx]; · iexact Hx
    isplitl [Ht]; · iexact Ht
    iexact Hout
  isplitl [Hxv HsR Hbufs]
  · isplitl [Hxv]; · iexists _; iexact Hxv
    isplitl [HsR]; · iexists _; iexact HsR
    iexact Hbufs
  isplitl [Hs2 Hg0 Hg1 Ho0 Ho1 Hsems]
  · isplitl [Hs2]; · iexact Hs2
    isplitl [Hg0]; · iexact Hg0
    isplitl [Hg1]; · iexact Hg1
    isplitl [Ho0]; · iexact Ho0
    isplitl [Ho1]; · iexact Ho1
    iexact Hsems
  iexact HW

/-- What the subcore keeps aside during the main loop. -/
def sideRes : sProp 𝕄 :=
  iprop((xLoc d ↦[xRows (widL L)]{fullShare} m (xLoc d))
    ∗ ((tW).view.loc (thrL d L) ↦{Transfers.shareDrop (q32 L) 424} m (tLoc d))
    ∗ bigSep (Finset.range 8) (fun n => tabTok d L (m (tLoc d)) n)
    ∗ semVal (thrL d L, SemLoc.dma cc0_scratch2.sem) 0
    ∗ (bigSep (((ownRefs (τ := τ) (.scVector (cV L) (jV L))).erase ((Proc.scVector (cV L) (jV L)).devRef cc0_scratch0)).erase ((Proc.scVector (cV L) (jV L)).devRef cc0_scratch1))
        fun b => iprop(∃ f, ((d, b) : Loc nD τ sig) ↦{fullShare} f))
    ∗ (bigSep ((((((ownCells (thrL d L)).erase (thrL d L, .dma cc0_scratch2.sem)).erase (thrL d L, .dma cc0_scratch3.sem)).erase (thrL d L, .dma cc0_scratch4.sem)).erase (thrL d L, .dma cc0_scratch5.sem)).erase (thrL d L, .dma cc0_scratch6.sem))
        fun g => semVal g 0))

/-- The task from the main loop on, to what the launch expects back. -/
theorem tile_after [∀ e, Nonempty (Elt F e)] (hF : (K (F := F)).Facts) (XV : S512x32.Idx → BitVec 32)
    (hst : Staged (m (xLoc d)) (widL L) XV) (hx : Cert.Lookup.InRange (m (xLoc d)))
    (O : CellTallies nD τ sig (HIx 1)) (W0 W : Waits sig (HIx 1)) (hW : ∀ p ∈ W, p ∈ W0 ∨ p.2 = none) (v2 : BitVec 32) :
    iprop(loopInv d L (m (xLoc d)) (m (tLoc d)) XV O W 0 () ∗ sideRes m d L)
      ⊢ wp frame (wpE (defs₀ (F := F)) 𝒱₀ (thrL d L) none) Set.univ
          (do
            Scf.Loop.for k0_t3_loop k0_t3_ok ⟨⟩ (k0_t3_body L (Memref.whole main_arg0_scv) (Memref.isWhole_whole _) (Memref.whole main_arg1_scv) (Memref.isWhole_whole _)
              (Memref.whole main_v0_scv) (Memref.isWhole_whole _) (Memref.whole cc0_scratch0) (Memref.isWhole_whole _)
              (Memref.whole cc0_scratch1) (Memref.isWhole_whole _) cc0_scratch2 cc0_scratch3 cc0_scratch4 cc0_scratch5 cc0_scratch6 v2)
            let v2137 : Memref sig .scVector .hbm S8x26x32 .f32 := (Memref.whole main_v0_scv).slice (Rect.unit (s := S16384x26x32) ![0, 0, 0] S8x26x32.size inb_S16384x26x32_S8x26x32_0_0_0) (fun _ => rfl)
            let v2138 : Memref sig .scVector .vmem S1x8x26x32 .f32 := (Memref.whole cc0_scratch1).slice (Rect.unit (s := S2x8x26x32) ![0, 0, 0, 0] S1x8x26x32.size inb_S2x8x26x32_S1x8x26x32_0_0_0_0) (fun _ => rfl)
            let v2139 : Memref sig .scVector .vmem S8x26x32 .f32 := v2138.squeeze S8x26x32 squeezes_S1x8x26x32_S8x26x32
            Prog.lift (.waitDma2 cc0_scratch6.sem v2139 v2137 ((View.wordExact_bits rfl).reshape _ _) (View.wordExact_bits rfl))
            (pure PUnit.unit : Prog (TpuEff nD τ sig (Elt F) Λ₀ (.scVector (cV L) (jV L))) PUnit))
          fun _ => iprop(tileOut m d (widL L) ∗ scopedBufs (thrL d L) ∗ scopedSems0 (thrL d L)
            ∗ ∃ W', ⌜∀ p ∈ W', p ∈ W0 ∨ p.2 = none⌝ ∗ owes (thrL d L) O W') := by
  iintro ⟨HI, Hside⟩
  iapply (wp_wand_r frame _ _)
  isplitl [HI]
  · iapply (from_loop d L (m (xLoc d)) (m (tLoc d)) XV hst hx O W v2); iexact HI
  · iintro %_ Hend
    unfold sideRes
    ihave Hfin := (tile_finish m d L hF XV O W) $$ [Hend Hside]
    · isplitl [Hend]; · iexact Hend
      iexact Hside
    icases Hfin with ⟨Hout, Hsb, Hss, %W', %hW', HO⟩
    isplitl [Hout]; · iexact Hout
    isplitl [Hsb]; · iexact Hsb
    isplitl [Hss]; · iexact Hss
    iexists W'; isplitr
    · ipureintro; intro p hp
      rcases hW' p hp with h | h
      · exact hW p h
      · exact .inr h
    · iexact HO

end Cert.Proof.KernelRun

end
-- ==== Proof.TileBody.lean ====
/-
  One vector subcore's task, run once at symbolic grid coordinates: its index rows staged into the scratch; the first
  chunk's 208 table rows started into slot 0; the main loop by its invariant; the last write-out waited for; and the
  worker's rows of the result, every chunk at the looked-up values, handed back with the scratch and the read share.
-/
import proofs.«204026_g6957847020299_cont_sun_m_599_21_alg».proof.Proof.TileStage
import proofs.«204026_g6957847020299_cont_sun_m_599_21_alg».proof.Proof.TileGatherKit
import proofs.«204026_g6957847020299_cont_sun_m_599_21_alg».proof.Proof.TileFinish
import Idealize.ShloMosaic.Lib.Tactic

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

attribute [local irreducible] gDeliv

set_option maxHeartbeats 40000000 in
set_option maxRecDepth 65536 in
/-- The task on the vector subcore at grid coordinates L of device d. -/
theorem tile_body [∀ e, Nonempty (Elt F e)] (d : Dev nD) (L : grid0.Coords) (hF : (K (F := F)).Facts) (hx : Cert.Lookup.InRange (m (xLoc d)))
    (O : CellTallies nD τ sig (HIx 1)) (W : Waits sig (HIx 1)) (hO : ∀ g, O g none = 0) :
    iprop(levAts (K (F := F)).L (K (F := F)).lev ∗ emp ∗ tileIn m d (widL L)
        ∗ scopedBufs (thrL d L) ∗ scopedSems0 (thrL d L) ∗ owes (thrL d L) O W)
      ⊢ wp frame (wpE (defs₀ (F := F)) 𝒱₀ (thrL d L) none) Set.univ
          (cc0__embed L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) cc0_scratch2 cc0_scratch3 cc0_scratch4 cc0_scratch5 cc0_scratch6)
          fun _ => iprop(tileOut m d (widL L) ∗ scopedBufs (thrL d L) ∗ scopedSems0 (thrL d L)
            ∗ ∃ W', ⌜∀ p ∈ W', p ∈ W ∨ p.2 = none⌝ ∗ owes (thrL d L) O W') := by
  rw [cc0__embed_eq_skeleton]
  unfold cc0__embed_skel
  sl_unfold [k0_part217]
  rw [bind_assoc]
  sl_unfold [k0_part146]
  rw [bind_assoc, bind_assoc]
  rw [(K (F := F)).scopedBufs_V hF d (cV L) (jV L), SparseCore.Cfg.scopedSems0_V (Val := Elt F) d (cV L) (jV L), ownSems0_V, ownBufs_V]
  unfold tileIn
  iintro ⟨#Hlv, -, ⟨Hx, Ht, Ho⟩, ⟨⟨%fX, HsX⟩, ⟨%fR, HsR⟩, Hbufs⟩, ⟨Hs2, Hs3, Hs4, Hs5, Hs6, Hsems⟩, HO⟩
  ihave Hmw := ((K (F := F)).mayWaits_none (thr := thrL d L) hO) $$ Hlv
  -- the index rows staged
  sl_exec
  iapply (stage_x m d L O W fX _ _)
  isplitr; · iexact Hmw
  isplitl [Hx]; · iexact Hx
  isplitl [HsX]; · iexact HsX
  isplitl [Hs2]; · iexact Hs2
  isplitl [HO]; · iexact HO
  iintro %XV %W1 ⟨%hst, %hW1, -, Hx, Hxv, Hs2, HO⟩
  -- the read share as tokens, the gather scratch as its two slots, the result's rows as chunks
  ihave Htoks := ((Entails.of_eq (pts_t (F := F) d L Finset.univ (q32 L) (m (tLoc d))).symm).trans (tab_toks d L (m (tLoc d))).1) $$ Ht
  icases Htoks with ⟨Htr, Ht8, Htk0, Htk1⟩
  ihave Hslots := ((Entails.of_eq (pts_sR (F := F) d L fR).symm).trans (sR_split d L fR)) $$ HsR
  icases Hslots with ⟨Hsl0, Hsl1⟩
  ihave Hch := (out_start d L (m (xLoc d)) (m (tLoc d)) (m (oLoc d))) $$ Ho
  icases Hch with ⟨Hdone, Htodo⟩
  ihave Htrh := (Entails.of_eq (aside_eq ((tW).view.loc (thrL d L) ↦{Transfers.shareDrop (q32 L) 424} m (tLoc d))).symm) $$ Htr
  -- the first chunk's gathers into slot 0
  imod (gather_prep d L (m (tLoc d)) XV 0 (ck 0)) $$ [Hsl0 Htk0 Hs3] with ⟨%g0, Hp, Hk, HB⟩
  · isplitl [Hsl0]; · iexact Hsl0
    isplitl [Htk0]; · iexact Htk0
    iexact Hs3
  simp (config := { proj := false }) only [sepFrom_succ, sepFrom_zero, pieceN_eq, tokN_eq d L (m (tLoc d)) 0, Nat.reduceAdd, Nat.reduceMod, Nat.reduceDiv, Nat.reduceMul, Fin.val_zero, Fin.val_one, Fin.isValue]
  icases_seq Hp Hp 208
  icases_seq Hk Hk 208
  sl_exec_parts (disch := first | lk_disch | lk_disch' | gd_disch)
  -- the main loop and the epilogue
  ihave Htr := (Entails.of_eq (aside_eq ((tW).view.loc (thrL d L) ↦{Transfers.shareDrop (q32 L) 424} m (tLoc d)))) $$ Htrh
  rw [← ownBufs_V (F := F) d L, ← ownSems0_V (F := F) d L, ← SparseCore.Cfg.scopedSems0_V (Val := Elt F) d (cV L) (jV L), ← (K (F := F)).scopedBufs_V hF d (cV L) (jV L)]
  iapply (tile_after m d L hF XV hst hx O W W1 hW1 _)
  isplitl_seq [HB Hxv Hsl1 Htk1 Hs4 Hs5 Hs6 Hdone Htodo HO] Hk 208
  · unfold loopInv
    rw [if_pos (show (0 : ℕ) < 32 by decide), if_pos rfl]
    isplitr; · iexact Hmw
    isplitl [Hxv]; · iexact Hxv
    isplitl_seq [HB] Hk 208
    · iclear Hlv Hmw
      iapply (gather_fold d L (m (tLoc d)) XV 0 (ck 0) 0)
      isplitl [HB]; · iexact HB
      simp (config := { proj := false }) only [sepFrom_succ, sepFrom_zero, Nat.reduceAdd]
      irests_seq Hk 208
    isplitl [Hs6 Hsl1]
    · isplitl [Hs6]; · iexact Hs6
      iexact Hsl1
    isplitl [Htk1]; · iexact Htk1
    isplitl [Hs4]; · iexact Hs4
    isplitl [Hs5]; · iexact Hs5
    isplitl [Hdone]; · iexact Hdone
    isplitl [Htodo]; · iexact Htodo
    iexists W1; isplitr
    · ipureintro; exact fun p hp => .inl hp
    · iexact HO
  · unfold sideRes
    isplitl [Hx]; · iexact Hx
    isplitl [Htr]; · iexact Htr
    isplitl [Ht8]; · iexact Ht8
    isplitl [Hs2]; · iexact Hs2
    isplitl [Hbufs]; · iexact Hbufs
    iexact Hsems

end Cert.Proof.KernelRun

end
-- ==== Proof.Tile.lean ====
/-
  The run of one vector subcore's task of the lookup kernel, as the launch asks for it: every vector subcore of the
  kernel's grid, entered through its label in the body table, runs the task at its own grid coordinates, and the worker
  number the call's payloads name for it is the one its coordinates give.
-/
import proofs.«204026_g6957847020299_cont_sun_m_599_21_alg».proof.Proof.TileBody

noncomputable section

namespace Cert.Proof.KernelRun

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The grid coordinates of vector subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

/-- The body table's entry for the kernel's label on a vector subcore. -/
theorem defs₀_vector (c : Fin τ.nSC) (s : Fin τ.nSub) :
    defs₀ (F := F) (.scVector c s) 0 ()
      = SparseCore.onTile hcore0 hsub0 (fun c s => cc0__embed (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) cc0_scratch2 cc0_scratch3 cc0_scratch4 cc0_scratch5 cc0_scratch6) ⟨⟩ c s := rfl

omit [FloatOps F] in
/-- The worker number the call's payloads give subcore i of SparseCore c is the one its grid coordinates give. -/
theorem wid_coordsV (c : Fin ((K (F := F)).nCore 0)) (i : Fin ((K (F := F)).nSub 0))
    (h0 : ((K (F := F)).core 0 c).val < grid0.bound 0) (h1 : ((K (F := F)).sub 0 i).val < grid0.bound 1) :
    wid (Fin.cast nCore_zero c) (Fin.cast nSub_zero i) = widL (coordsV ⟨_, h0⟩ ⟨_, h1⟩) := by
  apply Fin.ext
  show (Fin.cast nSub_zero i).val * 2 + (Fin.cast nCore_zero c).val = 2 * ((K (F := F)).sub 0 i).val + ((K (F := F)).core 0 c).val
  show i.val * 2 + c.val = 2 * i.val + c.val
  omega

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task: from its rows of the indices, its read share of the tables and its rows of the result,
    to the same with its rows of the result at the looked-up values. -/
theorem tileObl [∀ e, Nonempty (Elt F e)] (hF : (K (F := F)).Facts) (hx : ∀ d : Dev nD, Cert.Lookup.InRange (m (xLoc d))) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  -- what the launch hands the subcore and takes back, at the worker number of its grid coordinates
  rw [show (P m).go 0 d c i = tileIn m d (widL (coordsV ⟨_, hc.1⟩ ⟨_, hc.2⟩)) from congrArg (tileIn m d) (wid_coordsV c i hc.1 hc.2),
    show (P m).td 0 d c i = tileOut m d (widL (coordsV ⟨_, hc.1⟩ ⟨_, hc.2⟩)) from congrArg (tileOut m d) (wid_coordsV c i hc.1 hc.2)]
  exact (tile_body m d (coordsV ⟨_, hc.1⟩ ⟨_, hc.2⟩) hF (hx d) O W hO).trans (wp_mono frame _ _ fun _ => obl_post)

end Cert.Proof.KernelRun

end
-- ==== Proof.Launch.lean ====
/-
  The launch of the lookup kernel. The three arrays of a device are dealt to its 32 workers — worker w its 512 rows of
  the indices, a read share of the tables, its 512 rows of the result — and gathered back once every worker has written
  its rows of the looked-up array; @main on the TensorCore is the one call; the run of the whole program follows from the
  run of one vector subcore's task.
-/
import proofs.«204026_g6957847020299_cont_sun_m_599_21_alg».proof.Proof.Common
import proofs.«204026_g6957847020299_cont_sun_m_599_21_alg».proof.Proof.Tile
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KernelRun

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The workers: pairs of a SparseCore and a vector subcore -/

/-- Worker w = 2 i + c is vector subcore i = w / 2 of SparseCore c = w % 2: the numbering is a bijection. -/
def widE : Fin 2 × Fin 16 ≃ Fin 32 where
  toFun p := wid p.1 p.2
  invFun w := (⟨w.val % 2, Nat.mod_lt _ (by decide)⟩, ⟨w.val / 2, by omega⟩)
  left_inv := by
    rintro ⟨c, i⟩
    refine Prod.ext (Fin.ext ?_) (Fin.ext ?_)
    · show (i.val * 2 + c.val) % 2 = c.val
      omega
    · show (i.val * 2 + c.val) / 2 = i.val
      omega
  right_inv := by
    intro w
    refine Fin.ext ?_
    show w.val / 2 * 2 + w.val % 2 = w.val
    omega

theorem wid_bijective : Function.Bijective fun p : Fin 2 × Fin 16 => wid p.1 p.2 := widE.bijective

/-- A family over the 32 workers is one over the SparseCores and, in each, over its vector subcores. -/
theorem bigSep_workers (Φ : Fin 32 → sProp 𝕄) :
    bigSep Finset.univ Φ = bigSep Finset.univ fun c : Fin 2 => bigSep Finset.univ fun i : Fin 16 => Φ (wid c i) := by
  rw [bigSep_univ_equiv widE Φ, bigSep_univ_prod]
  rfl

/-- Over the call's own index types. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The payloads, as equations -/

theorem P_st (d : Dev nD) (c : Fin ((K (F := F)).nCore 0)) :
    (P m).st 0 d c = bigSep Finset.univ fun i : Fin 16 => tileIn m d (wid (Fin.cast nCore_zero c) i) := rfl
theorem P_dn (d : Dev nD) (c : Fin ((K (F := F)).nCore 0)) :
    (P m).dn 0 d c = bigSep Finset.univ fun i : Fin 16 => tileOut m d (wid (Fin.cast nCore_zero c) i) := rfl
theorem P_go (d : Dev nD) (c : Fin ((K (F := F)).nCore 0)) (i : Fin ((K (F := F)).nSub 0)) :
    (P m).go 0 d c i = tileIn m d (wid (Fin.cast nCore_zero c) (Fin.cast nSub_zero i)) := rfl
theorem P_td (d : Dev nD) (c : Fin ((K (F := F)).nCore 0)) (i : Fin ((K (F := F)).nSub 0)) :
    (P m).td 0 d c i = tileOut m d (wid (Fin.cast nCore_zero c) (Fin.cast nSub_zero i)) := rfl

/-- What the call is handed for all its SparseCores is what the 32 workers are handed, -/
theorem st0_eq (d : Dev nD) :
    (bigSep Finset.univ fun c : Fin ((K (F := F)).nCore 0) => (P m).st 0 d c) = bigSep Finset.univ fun w : Fin 32 => tileIn m d w := by
  rw [bigSep_workers (F := F) (fun w => tileIn m d w),
    ← bigSep_cores (F := F) (fun c => bigSep Finset.univ fun i : Fin 16 => tileIn m d (wid c i))]
  exact bigSep_congr fun c _ => P_st m d c
/-- and what it hands back is what they hand back. -/
theorem dn0_eq (d : Dev nD) :
    (bigSep Finset.univ fun c : Fin ((K (F := F)).nCore 0) => (P m).dn 0 d c) = bigSep Finset.univ fun w : Fin 32 => tileOut m d w := by
  rw [bigSep_workers (F := F) (fun w => tileOut m d w),
    ← bigSep_cores (F := F) (fun c => bigSep Finset.univ fun i : Fin 16 => tileOut m d (wid c i))]
  exact bigSep_congr fun c _ => P_dn m d c

/-! ## A SparseCore's operands are its subcores' -/

theorem vecSplit : (K (F := F)).VecSplit' (P m) 0 := by
  intro d c
  show (P m).st 0 d c ⊢ |={Set.univ}=> iprop(
      (bigSep Finset.univ fun i : Fin ((K (F := F)).nSub 0) => tileIn m d (wid (Fin.cast nCore_zero c) (Fin.cast nSub_zero i)))
      ∗ ((bigSep Finset.univ fun i : Fin ((K (F := F)).nSub 0) => tileOut m d (wid (Fin.cast nCore_zero c) (Fin.cast nSub_zero i)))
          -∗ (P m).dn 0 d c))
  rw [bigSep_tasks (F := F) (fun i => tileIn m d (wid (Fin.cast nCore_zero c) i)),
    bigSep_tasks (F := F) (fun i => tileOut m d (wid (Fin.cast nCore_zero c) i)), P_st, P_dn]
  iintro H; imodintro
  isplitl [H]; · iexact H
  iintro H; iexact H

/-! ## The arrays, dealt to the workers and gathered back -/

theorem xRows_disjoint : ∀ w ∈ (Finset.univ : Finset (Fin 32)), ∀ w' ∈ (Finset.univ : Finset (Fin 32)), w ≠ w' → Disjoint (xRows w) (xRows w') :=
  fun _ _ _ _ h => Rect.part_disjoint hdivX h
theorem xRows_cover : (Finset.univ : Finset (Fin 32)).biUnion xRows = Finset.univ := Rect.biUnion_part hdivX
theorem oRows_disjoint : ∀ w ∈ (Finset.univ : Finset (Fin 32)), ∀ w' ∈ (Finset.univ : Finset (Fin 32)), w ≠ w' → Disjoint (oRows w) (oRows w') :=
  fun _ _ _ _ h => Rect.part_disjoint hdivO h
theorem oRows_cover : (Finset.univ : Finset (Fin 32)).biUnion oRows = Finset.univ := Rect.biUnion_part hdivO

/-- The index array whole is its 32 row blocks, -/
theorem xPts_rows (d : Dev nD) (f : Buf (Elt F) (xLoc d)) :
    (xLoc d ↦{fullShare} f : sProp 𝕄) = bigSep Finset.univ fun w : Fin 32 => xLoc d ↦[xRows w]{fullShare} f := by
  rw [← pointsTo_biUnion Finset.univ (ℓ := xLoc d) xRows xRows_disjoint, xRows_cover]
/-- the result whole is its 32 row blocks, every block at the one function, -/
theorem oPts_rows (d : Dev nD) (f : Buf (Elt F) (oLoc d)) :
    (oLoc d ↦{fullShare} f : sProp 𝕄) = bigSep Finset.univ fun w : Fin 32 => oLoc d ↦[oRows w]{fullShare} f := by
  rw [← pointsTo_biUnion Finset.univ (ℓ := oLoc d) oRows oRows_disjoint, oRows_cover]

/-- What is kept of the tables while the 32 read shares are out. -/
abbrev tRem (d : Dev nD) : sProp 𝕄 := tLoc d ↦{Transfers.shareDrop fullShare 32} m (tLoc d)

/-- The three arrays whole, the result at any contents g, are the remainder of the tables and, per worker, its rows of
    the indices, its read share of the tables and its rows of the result at g. -/
theorem deal (d : Dev nD) (g : Buf (Elt F) (oLoc d)) :
    iprop((xLoc d ↦{fullShare} m (xLoc d)) ∗ (tLoc d ↦{fullShare} m (tLoc d)) ∗ (oLoc d ↦{fullShare} g))
      ⊣⊢ (iprop(tRem m d ∗ bigSep Finset.univ fun w : Fin 32 =>
          iprop((xLoc d ↦[xRows w]{fullShare} m (xLoc d)) ∗ (tLoc d ↦{Transfers.shareTok fullShare 32 w} m (tLoc d)) ∗ (oLoc d ↦[oRows w]{fullShare} g))) : sProp 𝕄) := by
  rw [bigSep_sep', bigSep_sep', ← xPts_rows, ← oPts_rows]
  constructor
  · iintro ⟨Hx, Ht, Ho⟩
    ihave Ht' := (Transfers.pointsTo_toks_split fullShare 32) $$ Ht
    icases Ht' with ⟨Hrem, Htoks⟩
    isplitl [Hrem]; · iexact Hrem
    isplitl [Hx]; · iexact Hx
    isplitl [Htoks]; · iexact Htoks
    iexact Ho
  · iintro ⟨Hrem, Hx, Htoks, Ho⟩
    isplitl [Hx]; · iexact Hx
    isplitl [Hrem Htoks]
    · iapply (Transfers.pointsTo_toks_join fullShare 32)
      isplitl [Hrem]; · iexact Hrem
      iexact Htoks
    iexact Ho

theorem deal_in (d : Dev nD) :
    iprop((xLoc d ↦{fullShare} m (xLoc d)) ∗ (tLoc d ↦{fullShare} m (tLoc d)) ∗ (oLoc d ↦{fullShare} m (oLoc d)))
      ⊢ (iprop(tRem m d ∗ bigSep Finset.univ fun w : Fin 32 => tileIn m d w) : sProp 𝕄) := by
  unfold tileIn
  exact (deal m d (m (oLoc d))).1
theorem deal_out (d : Dev nD) :
    (iprop(tRem m d ∗ bigSep Finset.univ fun w : Fin 32 => tileOut m d w) : sProp 𝕄)
      ⊢ iprop((xLoc d ↦{fullShare} m (xLoc d)) ∗ (tLoc d ↦{fullShare} m (tLoc d)) ∗ (oLoc d ↦{fullShare} outG m d)) := by
  unfold tileOut
  exact (deal m d (outG m d)).2

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the TensorCore holds at the end: the three arrays whole, the result at the looked-up values. -/
abbrev FIN (d : Dev nD) : sProp 𝕄 :=
  iprop((xLoc d ↦{fullShare} m (xLoc d)) ∗ (tLoc d ↦{fullShare} m (tLoc d)) ∗ (oLoc d ↦{fullShare} outG m d))

variable [FloatOps F]

/-- @main on device d's TensorCore: the one call, from the three arrays dealt to the workers, to the three gathered back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Hbufs, -, -⟩, -⟩
  ihave Hd := (deal_in m d) $$ Hbufs
  icases Hd with ⟨Hrem, Hw⟩
  iapply ((K (F := F)).wp_run (D (F := F)) 𝒱 (EH := EH) (P := P m) κ d 0) $$ [Hst Hw Hrem]
  isplitr; · iexact Hctx
  isplitl [Hst]; · iexact Hst
  isplitl [Hw]
  · rw [st0_eq]; iexact Hw
  iintro ⟨Hst, Hdn⟩
  ihave Hdn' := (Entails.of_eq (dn0_eq m d)) $$ Hdn
  imodintro
  isplitl [Hst]; · iexact Hst
  iapply (deal_out m d)
  isplitl [Hrem]; · iexact Hrem
  iexact Hdn'

def fq (d : Dev nD) (s' : Phys nD τ sig (Elt F)) : Prop :=
  s'.mem.mem (oLoc d) = outG m d ∧ s'.mem.mem (xLoc d) = m (xLoc d) ∧ s'.mem.mem (tLoc d) = m (tLoc d)

omit [FloatOps F] in
theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair run of the program's threads from a memory whose index words are in range ends, on every device,
    with the result at the looked-up array and both arguments unchanged. -/
theorem run_main [∀ e, Nonempty (Elt F e)] (m : (ℓ : Loc nD τ sig) → Buf (Elt F) ℓ) (ρ : Dev nD → PrngReg)
    (hx : ∀ d : Dev nD, Cert.Lookup.InRange (m (xLoc d))) :
    θ_run (Cert.Kernel.defs (F := F)) (Cert.Kernel.threads (F := F)) ⟨m, fun _ => 0, ρ⟩
      (fun r => ∀ c : Dev nD, r.2.mem (oLoc c) = outG m c ∧ r.2.mem (xLoc c) = m (xLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = outG m c ∧ r.2.mem (xLoc c) = m (xLoc c) ∧ r.2.mem (tLoc c) = m (tLoc c)) (fun _ h => h)

end Cert.Proof.KernelRun

end
-- ==== Proof.lean ====
/-
  The certificate's five claims. The kernel is an embedding lookup: entry (b, f, l) of its result is word l of row
  x[b, f] of table f. Its run (every vector subcore stages its index rows, gathers its chunks' table rows through two
  slots and writes them out) is proved once, at any float instance, over the printed kernel; the idealized kernel is
  the same text, so the same run is its run. The reference's run reads the same function off its gather. The frames
  drop the result; the ideal pass rewrote nothing; the two results are one function of arguments that agree.
-/
import proofs.«204026_g6957847020299_cont_sun_m_599_21_alg».proof.Defs
import proofs.«204026_g6957847020299_cont_sun_m_599_21_alg».proof.Proof.Gen.Kernel
import proofs.«204026_g6957847020299_cont_sun_m_599_21_alg».proof.Proof.Gen.KernelIdeal
import proofs.«204026_g6957847020299_cont_sun_m_599_21_alg».proof.Proof.Gen.ReferenceIdeal
import proofs.«204026_g6957847020299_cont_sun_m_599_21_alg».proof.Proof.Gen.Pre_input_domain
import proofs.«204026_g6957847020299_cont_sun_m_599_21_alg».proof.Proof.PreDecode
import proofs.«204026_g6957847020299_cont_sun_m_599_21_alg».proof.Proof.RefRun
import proofs.«204026_g6957847020299_cont_sun_m_599_21_alg».proof.Proof.Same
import proofs.«204026_g6957847020299_cont_sun_m_599_21_alg».proof.Proof.Launch
import Idealize.ShloMosaic.Adequacy
import Idealize.ShloMosaic.Init

noncomputable section

namespace Cert.Proof

open Idealize.ShloMosaic Idealize.SL.Sem

/-- The kernel's run with its result named, at the word-level instance. -/
theorem frame_k : Cert.frame_Kernel := fun m g hpre =>
  (θ_run (Cert.Kernel.defs (F := Bits)) _ _).mono (fun _ h c => ⟨(h c).2.1, (h c).2.2⟩)
    (Cert.Proof.KernelRun.run_main (F := Bits) m g (fun d => Cert.Lookup.Pre.inRange_of_pre _ _ (hpre d)))

/-- The idealized kernel's run at the ideal instance: the kernel's own run, the two programs being one text. -/
theorem run_ki (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩
      (fun r => ∀ c : Dev Cert.KernelIdeal.nD, r.2.mem (Cert.Proof.KernelRun.oLoc c) = Cert.Proof.KernelRun.outG m c
        ∧ r.2.mem (Cert.Proof.KernelRun.xLoc c) = m (Cert.Proof.KernelRun.xLoc c) ∧ r.2.mem (Cert.Proof.KernelRun.tLoc c) = m (Cert.Proof.KernelRun.tLoc c)) := by
  rw [Cert.Proof.Same.defs_eq, Cert.Proof.Same.threads_eq]
  exact Cert.Proof.KernelRun.run_main (F := Ideal) m g (fun d => Cert.Lookup.Pre.inRange_of_pre _ _ (hpre d))

theorem frame_ki : Cert.frame_KernelIdeal := fun m g hpre =>
  (θ_run (Cert.KernelIdeal.defs (F := Ideal)) _ _).mono (fun _ h c => ⟨(h c).2.1, (h c).2.2⟩) (run_ki m g hpre)

theorem frame_ri : Cert.frame_ReferenceIdeal := fun m g hpre =>
  (θ_run (Cert.ReferenceIdeal.defs (F := Ideal)) _ _).mono (fun _ h c => ⟨(h c).2.1, (h c).2.2⟩)
    (Cert.ReferenceIdeal.RefValue.ref_run m g (fun c => Cert.Lookup.Pre.inRange_of_pre _ _ (hpre c)))

theorem algebraic : Cert.algebraic_KernelIdeal_ReferenceIdeal := by
  intro m g m' g' hpre hagree
  refine ⟨fun c => Cert.Proof.KernelRun.outG m c, ?_, ?_⟩
  · exact (θ_run (Cert.KernelIdeal.defs (F := Ideal)) _ _).mono (fun _ h c => ⟨(h c).1, (h c).2.1, (h c).2.2⟩) (run_ki m g hpre)
  · refine (θ_run (Cert.ReferenceIdeal.defs (F := Ideal)) _ _).mono (fun _ h c => ⟨?_, (h c).2.1, (h c).2.2⟩)
      (Cert.ReferenceIdeal.RefValue.ref_run m' g' (fun c => by rw [(hagree c).1]; exact Cert.Lookup.Pre.inRange_of_pre _ _ (hpre c)))
    rw [(h c).1, (hagree c).1, (hagree c).2]
    rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
